-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1457) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x2 : S_.BroadcastsInDim S8x8192x2 (![] : Fin 0 → Fin S8x8192x2.rank)
  reducesTo_S8x8192x2_S_d0_1_2 : S8x8192x2.ReducesTo [0, 1, 2] S_
  bcast_S_S768x514 : S_.BroadcastsInDim S768x514 (![] : Fin 0 → Fin S768x514.rank)
  reducesTo_S768x514_S_d0_1 : S768x514.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2x256 .f32) (main_arg15 : FVec F S2 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S768x256 .f32) (main_arg12 : FVec F S768 .f32) (main_arg13 : FVec F S768 .f32) (main_arg14 : FVec F S2x256 .f32) (main_arg15 : FVec F S2 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_v63 main_v67

def fn_part2 {F : FTy → Type} [FloatOps F] (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_v48 main_v49 main_v50

def fn_part1 {F : FTy → Type} [FloatOps F] (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x512 .f32) (main_arg1 : FVec F S8x8192x2 .f32) (main_arg2 : FVec F S768x514 .f32) (main_arg3 : FVec F S768x256 .f32) (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x2 .f32 := Host.absf main_arg1
  let main_cst_0 : FVec F S_ .f32 := constant S_ .f32 0x7F800000#32
  let main_v5 : FVec F S8x8192x2 .f32 := broadcastInDim S8x8192x2 ![] bcast_S_S8x8192x2 main_cst_0
  let main_v6 : IVec S8x8192x2 1 := cmpf .olt main_v4 main_v5
  let main_c_1 : IVec S_ 1 := constantI S_ 1 1#1
  let main_v7 : IVec S_ 1 := (fun x v => Host.reduce IntOp.andi x v reducesTo_S8x8192x2_S_d0_1_2 h_S_) main_v6 main_c_1
  let main_v8 : IVec S_ 1 := andi main_v3 main_v7
  let main_v9 : FVec F S768x514 .f32 := Host.absf main_arg2
  let main_cst_2 : FVec F S_ .f32 := constant S_ .f32 0x7F800000#32
  let main_v10 : FVec F S768x514 .f32 := broadcastInDim S768x514 ![] bcast_S_S768x514 main_cst_2
  let main_v11 : IVec S768x514 1 := cmpf .olt main_v9 main_v10
  let main_c_3 : IVec S_ 1 := constantI S_ 1 1#1
  let main_v12 : IVec S_ 1 := (fun x v => Host.reduce IntOp.andi x v reducesTo_S768x514_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S1x8192x2 : Shape := ⟨3, ![1, 8192, 2]⟩
abbrev S8192x2 : Shape := ⟨2, ![8192, 2]⟩
abbrev S768x512 : Shape := ⟨2, ![768, 512]⟩
abbrev S512x768 : Shape := ⟨2, ![512, 768]⟩
abbrev S768x2 : Shape := ⟨2, ![768, 2]⟩
abbrev S2x768 : Shape := ⟨2, ![2, 768]⟩
abbrev S256x768 : Shape := ⟨2, ![256, 768]⟩
abbrev S8192x24 : Shape := ⟨2, ![8192, 24]⟩
abbrev S2048x512 : Shape := ⟨2, ![2048, 512]⟩
abbrev S2048x2 : Shape := ⟨2, ![2048, 2]⟩
abbrev S2048x24 : Shape := ⟨2, ![2048, 24]⟩
abbrev S2048x256 : Shape := ⟨2, ![2048, 256]⟩
abbrev S2048x768 : Shape := ⟨2, ![2048, 768]⟩
abbrev S1x768 : Shape := ⟨2, ![1, 768]⟩
abbrev S1x2 : Shape := ⟨2, ![1, 2]⟩
abbrev S1x256 : Shape := ⟨2, ![1, 256]⟩
abbrev S2048x1 : Shape := ⟨2, ![2048, 1]⟩
abbrev S2048 : Shape := ⟨1, ![2048]⟩
abbrev S8192x12x2 : Shape := ⟨3, ![8192, 12, 2]⟩
abbrev S12x8192x2 : Shape := ⟨3, ![12, 8192, 2]⟩

abbrev nBuf : Space → Nat
  | .hbm => 37
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8x8192x2, .f32⟩
  | .hbm, ⟨2, _⟩ => ⟨S768x514, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S768x256, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S2x256, .f32⟩
  | .hbm, ⟨15, _⟩ => ⟨S2, .f32⟩
  | .hbm, ⟨16, _⟩ => ⟨S1x8192x2, .f32⟩
  | .hbm, ⟨17, _⟩ => ⟨S8192x2, .f32⟩
  | .hbm, ⟨18, _⟩ => ⟨S8192x512, .bf16⟩
  | .hbm, ⟨19, _⟩ => ⟨S768x512, .f32⟩
  | .hbm, ⟨20, _⟩ => ⟨S512x768, .f32⟩
  | .hbm, ⟨21, _⟩ => ⟨S512x768, .bf16⟩
  | .hbm, ⟨22, _⟩ => ⟨S768x2, .f32⟩
  | .hbm, ⟨23, _⟩ => ⟨S2x768, .f32⟩
  | .hbm, ⟨24, _⟩ => ⟨S256x768, .f32⟩
  | .hbm, ⟨25, _⟩ => ⟨S256x768, .bf16⟩
  | .hbm, ⟨26, _⟩ => ⟨S256x768, .f32⟩
  | .hbm, ⟨27, _⟩ => ⟨S256x768, .bf16⟩
  | .hbm, ⟨28, _⟩ => ⟨S256x768, .f32⟩
  | .hbm, ⟨29, _⟩ => ⟨S256x768, .bf16⟩
  | .hbm, ⟨30, _⟩ => ⟨S256x768, .f32⟩
  | .hbm, ⟨31, _⟩ => ⟨S256x768, .bf16⟩
  | .hbm, ⟨32, _⟩ => ⟨S256x768, .f32⟩
  | .hbm, ⟨33, _⟩ => ⟨S256x768, .bf16⟩
  | .hbm, ⟨34, _⟩ => ⟨S8192x24, .f32⟩
  | .hbm, ⟨35, _⟩ => ⟨S8192x12x2, .f32⟩
  | .hbm, ⟨36, _⟩ => ⟨S12x8192x2, .f32⟩
  | .local _ .vmem, ⟨0, _⟩ => ⟨S2048x512, .bf16⟩
  | .local _ .vmem, ⟨1, _⟩ => ⟨S2048x512, .bf16⟩
  | .local _ .vmem, ⟨2, _⟩ => ⟨S2048x2, .f32⟩
  | .local _ .vmem, ⟨3, _⟩ => ⟨S2048x2, .f32⟩
  | .local _ .vmem, ⟨4, _⟩ => ⟨S512x768, .bf16⟩
  | .local _ .vmem, ⟨5, _⟩ => ⟨S2x768, .f32⟩
  | .local _ .vmem, ⟨6, _⟩ => ⟨S256x768, .bf16⟩
  | .local _ .vmem, ⟨7, _⟩ => ⟨S768, .f32⟩
  | .local _ .vmem, ⟨8, _⟩ => ⟨S768, .f32⟩
  | .local _ .vmem, ⟨9, _⟩ => ⟨S256x768, .bf16⟩
  | .local _ .vmem, ⟨10, _⟩ => ⟨S256x768, .bf16⟩
  | .local _ .vmem, ⟨11, _⟩ => ⟨S768, .f32⟩
  | .local _ .vmem, ⟨12, _⟩ => ⟨S768, .f32⟩
  | .local _ .vmem, ⟨13, _⟩ => ⟨S256x768, .bf16⟩
  | .local _ .vmem, ⟨14, _⟩ => ⟨S256x768, .bf16⟩
  | .local _ .vmem, ⟨15, _⟩ => ⟨S768, .f32⟩
  | .local _ .vmem, ⟨16, _⟩ => ⟨S768, .f32⟩
  | .local _ .vmem, ⟨17, _⟩ => ⟨S2x256, .f32⟩
  | .local _ .vmem, ⟨18, _⟩ => ⟨S2, .f32⟩
  | .local _ .vmem, ⟨19, _⟩ => ⟨S2048x24, .f32⟩
  | .local _ .vmem, ⟨20, _⟩ => ⟨S2048x24, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x24 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S8x8192x2_S1x8192x2_7_0_0 : S8x8192x2.Slices ![7, 0, 0] S1x8192x2
  shapeCasts_S1x8192x2_S8192x2 : S1x8192x2.ShapeCasts S8192x2
  bitsLt_bf16_f32 : FTy.bits .bf16 < FTy.bits .f32
  slices_S768x514_S768x512_0_0 : S768x514.Slices ![0, 0] S768x512
  transposes_S768x512_S512x768_1_0 : S768x512.Transposes [1, 0] S512x768
  slices_S768x514_S768x2_0_512 : S768x514.Slices ![0, 512] S768x2
  transposes_S768x2_S2x768_1_0 : S768x2.Transposes [1, 0] S2x768
  transposes_S768x256_S256x768_1_0 : S768x256.Transposes [1, 0] S256x768
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2x768_S2x768_0_0 : ∀ a, (![0, 0] : Fin 2 → Nat) a + S2x768.size a ≤ S2x768.size a
  h_S2x768 : 0 < S2x768.numel
  shapeCasts_S2x768_S2x768 : S2x768.ShapeCasts S2x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  inb_S2x256_S2x256_0_0 : ∀ a, (![0, 0] : Fin 2 → Nat) a + S2x256.size a ≤ S2x256.size a
  h_S2x256 : 0 < S2x256.numel
  inb_S2_S2_0 : ∀ a, (![0] : Fin 1 → Nat) a + S2.size a ≤ S2.size a
  h_S2 : 0 < S2.numel
  shapeCasts_S2_S1x2 : S2.ShapeCasts S1x2
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  slices_S2x768_o0_0_S1x768 : S2x768.Slices ![0, 0] S1x768
  slices_S2x768_o1_0_S1x768 : S2x768.Slices ![1, 0] S1x768
  slices_S2x256_o0_0_S1x256 : S2x256.Slices ![0, 0] S1x256
  slices_S2x256_o1_0_S1x256 : S2x256.Slices ![1, 0] S1x256
  slices_S2048x2_o0_0_S2048x1 : S2048x2.Slices ![0, 0] S2048x1
  broadcasts_S2048x1_S2048x768 : S2048x1.Broadcasts S2048x768
  slices_S2048x2_o0_1_S2048x1 : S2048x2.Slices ![0, 1] S2048x1
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  broadcasts_S1x256_S2048x256 : S1x256.Broadcasts S2048x256
  reduces_S2048x256_S2048 : S2048x256.Reduces [1] S2048
  shapeCasts_S2048_S2048x1 : S2048.ShapeCasts S2048x1
  concatenates_S2048x1_S2048x1_S2048x2_d1 : Shape.Concatenates [S2048x1, S2048x1] S2048x2 1
  broadcasts_S1x2_S2048x2 : S1x2.Broadcasts S2048x2
  inb_S2048x24_S2048x2_0_0 : ∀ a, (![0, 0] : Fin 2 → Nat) a + S2048x2.size a ≤ S2048x24.size a
  inb_S2048x24_S2048x2_0_2 : ∀ a, (![0, 2] : Fin 2 → Nat) a + S2048x2.size a ≤ S2048x24.size a
  inb_S2048x24_S2048x2_0_4 : ∀ a, (![0, 4] : Fin 2 → Nat) a + S2048x2.size a ≤ S2048x24.size a
  inb_S2048x24_S2048x2_0_6 : ∀ a, (![0, 6] : Fin 2 → Nat) a + S2048x2.size a ≤ S2048x24.size a
  inb_S2048x24_S2048x2_0_8 : ∀ a, (![0, 8] : Fin 2 → Nat) a + S2048x2.size a ≤ S2048x24.size a
  inb_S2048x24_S2048x2_0_10 : ∀ a, (![0, 10] : Fin 2 → Nat) a + S2048x2.size a ≤ S2048x24.size a
  inb_S2048x24_S2048x2_0_12 : ∀ a, (![0, 12] : Fin 2 → Nat) a + S2048x2.size a ≤ S2048x24.size a
  inb_S2048x24_S2048x2_0_14 : ∀ a, (![0, 14] : Fin 2 → Nat) a + S2048x2.size a ≤ S2048x24.size a
  inb_S2048x24_S2048x2_0_16 : ∀ a, (![0, 16] : Fin 2 → Nat) a + S2048x2.size a ≤ S2048x24.size a
  inb_S2048x24_S2048x2_0_18 : ∀ a, (![0, 18] : Fin 2 → Nat) a + S2048x2.size a ≤ S2048x24.size a
  inb_S2048x24_S2048x2_0_20 : ∀ a, (![0, 20] : Fin 2 → Nat) a + S2048x2.size a ≤ S2048x24.size a
  inb_S2048x24_S2048x2_0_22 : ∀ a, (![0, 22] : Fin 2 → Nat) a + S2048x2.size a ≤ S2048x24.size a
  shapeCasts_S8192x24_S8192x12x2 : S8192x24.ShapeCasts S8192x12x2
  transposes_S8192x12x2_S12x8192x2_1_0_2 : S8192x12x2.Transposes [1, 0, 2] S12x8192x2
  dot_S2048x512_S512x768_S2048x768_1_0_0_1_n_n_wf : DotDims.WF S2048x512 S512x768 S2048x768 [1] [0] [0] [1] [] []
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S8192x2.size a
  hwx0_1 : ∀ i : grid0.Coords, EltTy.bits .f32 = 32 ∨ (Rect.block (s := S8192x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .bf16 = 32 ∨ (Rect.block (s := S512x768) S512x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768.size a ≤ S2x768.size a
  hwx0_3 : ∀ i : grid0.Coords, EltTy.bits .f32 = 32 ∨ (Rect.block (s := S2x768) S2x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .bf16 = 32 ∨ (Rect.block (s := S256x768) S256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x768.size a ≤ S256x768.size a
  hwx0_8 : ∀ i : grid0.Coords, EltTy.bits .bf16 = 32 ∨ (Rect.block (s := S256x768) S256x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S256x768.size a
  hwx0_11 : ∀ i : grid0.Coords, EltTy.bits .bf16 = 32 ∨ (Rect.block (s := S256x768) S256x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x768.size a ≤ S256x768.size a
  hwx0_12 : ∀ i : grid0.Coords, EltTy.bits .bf16 = 32 ∨ (Rect.block (s := S256x768) S256x768.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768.size a ≤ S768.size a
  hwx0_13 : ∀ i : grid0.Coords, EltTy.bits .f32 = 32 ∨ (Rect.block (s := S768) S768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768.size a ≤ S768.size a
  hwx0_14 : ∀ i : grid0.Coords, EltTy.bits .f32 = 32 ∨ (Rect.block (s := S768) S768.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x256.size a ≤ S2x256.size a
  hwx0_15 : ∀ i : grid0.Coords, EltTy.bits .f32 = 32 ∨ (Rect.block (s := S2x256) S2x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x24.size a ≤ S8192x24.size a
  hwx0_17 : ∀ i : grid0.Coords, EltTy.bits .f32 = 32 ∨ (Rect.block (s := S8192x24) S2048x24.size (cc0_transform_17 i) (hinb0_17 i)).WholeWords (EltTy.packing .f32)

variable [Facts₀]

def dot_S2048x512_S512x768_S2048x768_1_0_0_1_n_n : DotDims S2048x512 S512x768 S2048x768 where
  lhsContracting := [1]
  rhsContracting := [0]
  lhsNonContracting := [0]
  rhsNonContracting := [1]
  lhsBatch := []
  rhsBatch := []
  wf := dot_S2048x512_S512x768_S2048x768_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S256x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S256x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S256x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S2x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18) S2048x24.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩
abbrev S8192x256 : Shape := ⟨2, ![8192, 256]⟩
abbrev S1x8192x2 : Shape := ⟨3, ![1, 8192, 2]⟩
abbrev S8192x2 : Shape := ⟨2, ![8192, 2]⟩
abbrev S8192x514 : Shape := ⟨2, ![8192, 514]⟩
abbrev S514x768 : Shape := ⟨2, ![514, 768]⟩
abbrev S8192x768 : Shape := ⟨2, ![8192, 768]⟩
abbrev S1x768 : Shape := ⟨2, ![1, 768]⟩
abbrev S256x768 : Shape := ⟨2, ![256, 768]⟩
abbrev S256x2 : Shape := ⟨2, ![256, 2]⟩
abbrev S1x2 : Shape := ⟨2, ![1, 2]⟩
abbrev S12x8192x2 : Shape := ⟨3, ![12, 8192, 2]⟩

abbrev nBuf : Space → Nat
  | .hbm => 1657
  | .vmem => 0
  | .smem => 0
  | _ => 0

abbrev hbmTy0_0 (i : Nat) : BufTy := match i % 128 with
  | 0 => ⟨S8192x512, .f32⟩
  | 1 => ⟨S8x8192x2, .f32⟩
  | 2 => ⟨S768x514, .f32⟩
  | 3 => ⟨S768x256, .f32⟩
  | 4 => ⟨S768, .f32⟩
  | 5 => ⟨S768, .f32⟩
  | 6 => ⟨S768x256, .f32⟩
  | 7 => ⟨S768x256, .f32⟩
  | 8 => ⟨S768, .f32⟩
  | 9 => ⟨S768, .f32⟩
  | 10 => ⟨S768x256, .f32⟩
  | 11 => ⟨S768x256, .f32⟩
  | 12 => ⟨S768, .f32⟩
  | 13 => ⟨S768, .f32⟩
  | 14 => ⟨S2x256, .f32⟩
  | 15 => ⟨S2, .f32⟩
  | 16 => ⟨S_, .f32⟩
  | 17 => ⟨S8192x256, .f32⟩
  | 18 => ⟨S_, .f32⟩
  | 19 => ⟨S8192x256, .f32⟩
  | 20 => ⟨S_, .f32⟩
  | 21 => ⟨S8192x256, .f32⟩
  | 22 => ⟨S1x8192x2, .f32⟩
  | 23 => ⟨S8192x2, .f32⟩
  | 24 => ⟨S8192x514, .f32⟩
  | 25 => ⟨S514x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x768, .f32⟩
  | 69 => ⟨S8192x768, .f32⟩
  | 70 => ⟨S1x768, .f32⟩
  | 71 => ⟨S8192x768, .f32⟩
  | 72 => ⟨S8192x768, .f32⟩
  | 73 => ⟨S256x768, .f32⟩
  | 74 => ⟨S8192x768, .f32⟩
  | 75 => ⟨S1x768, .f32⟩
  | 76 => ⟨S8192x768, .f32⟩
  | 77 => ⟨S8192x768, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S256x768, .f32⟩
  | 112 => ⟨S8192x768, .f32⟩
  | 113 => ⟨S1x768, .f32⟩
  | 114 => ⟨S8192x768, .f32⟩
  | 115 => ⟨S8192x768, .f32⟩
  | 116 => ⟨S256x768, .f32⟩
  | 117 => ⟨S8192x768, .f32⟩
  | 118 => ⟨S1x768, .f32⟩
  | 119 => ⟨S8192x768, .f32⟩
  | 120 => ⟨S8192x768, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_1 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S256x2, .f32⟩
  | 27 => ⟨S8192x2, .f32⟩
  | 28 => ⟨S1x2, .f32⟩
  | 29 => ⟨S8192x2, .f32⟩
  | 30 => ⟨S8192x2, .f32⟩
  | 31 => ⟨S8192x514, .f32⟩
  | 32 => ⟨S514x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x768, .f32⟩
  | 76 => ⟨S8192x768, .f32⟩
  | 77 => ⟨S1x768, .f32⟩
  | 78 => ⟨S8192x768, .f32⟩
  | 79 => ⟨S8192x768, .f32⟩
  | 80 => ⟨S256x768, .f32⟩
  | 81 => ⟨S8192x768, .f32⟩
  | 82 => ⟨S1x768, .f32⟩
  | 83 => ⟨S8192x768, .f32⟩
  | 84 => ⟨S8192x768, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S256x768, .f32⟩
  | 119 => ⟨S8192x768, .f32⟩
  | 120 => ⟨S1x768, .f32⟩
  | 121 => ⟨S8192x768, .f32⟩
  | 122 => ⟨S8192x768, .f32⟩
  | 123 => ⟨S256x768, .f32⟩
  | 124 => ⟨S8192x768, .f32⟩
  | 125 => ⟨S1x768, .f32⟩
  | 126 => ⟨S8192x768, .f32⟩
  | 127 => ⟨S8192x768, .f32⟩
  | _ => ⟨S8192x512, .f32⟩

abbrev hbmTy0_2 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S8192x256, .f32⟩
  | 9 => ⟨S_, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S256x2, .f32⟩
  | 34 => ⟨S8192x2, .f32⟩
  | 35 => ⟨S1x2, .f32⟩
  | 36 => ⟨S8192x2, .f32⟩
  | 37 => ⟨S8192x2, .f32⟩
  | 38 => ⟨S8192x514, .f32⟩
  | 39 => ⟨S514x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x768, .f32⟩
  | 83 => ⟨S8192x768, .f32⟩
  | 84 => ⟨S1x768, .f32⟩
  | 85 => ⟨S8192x768, .f32⟩
  | 86 => ⟨S8192x768, .f32⟩
  | 87 => ⟨S256x768, .f32⟩
  | 88 => ⟨S8192x768, .f32⟩
  | 89 => ⟨S1x768, .f32⟩
  | 90 => ⟨S8192x768, .f32⟩
  | 91 => ⟨S8192x768, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S256x768, .f32⟩
  | 126 => ⟨S8192x768, .f32⟩
  | 127 => ⟨S1x768, .f32⟩
  | _ => ⟨S8192x512, .f32⟩

abbrev hbmTy0_3 (i : Nat) : BufTy := match i % 128 with
  | 0 => ⟨S8192x768, .f32⟩
  | 1 => ⟨S8192x768, .f32⟩
  | 2 => ⟨S256x768, .f32⟩
  | 3 => ⟨S8192x768, .f32⟩
  | 4 => ⟨S1x768, .f32⟩
  | 5 => ⟨S8192x768, .f32⟩
  | 6 => ⟨S8192x768, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S256x2, .f32⟩
  | 41 => ⟨S8192x2, .f32⟩
  | 42 => ⟨S1x2, .f32⟩
  | 43 => ⟨S8192x2, .f32⟩
  | 44 => ⟨S8192x2, .f32⟩
  | 45 => ⟨S8192x514, .f32⟩
  | 46 => ⟨S514x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x768, .f32⟩
  | 90 => ⟨S8192x768, .f32⟩
  | 91 => ⟨S1x768, .f32⟩
  | 92 => ⟨S8192x768, .f32⟩
  | 93 => ⟨S8192x768, .f32⟩
  | 94 => ⟨S256x768, .f32⟩
  | 95 => ⟨S8192x768, .f32⟩
  | 96 => ⟨S1x768, .f32⟩
  | 97 => ⟨S8192x768, .f32⟩
  | 98 => ⟨S8192x768, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S_, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_4 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S256x768, .f32⟩
  | 5 => ⟨S8192x768, .f32⟩
  | 6 => ⟨S1x768, .f32⟩
  | 7 => ⟨S8192x768, .f32⟩
  | 8 => ⟨S8192x768, .f32⟩
  | 9 => ⟨S256x768, .f32⟩
  | 10 => ⟨S8192x768, .f32⟩
  | 11 => ⟨S1x768, .f32⟩
  | 12 => ⟨S8192x768, .f32⟩
  | 13 => ⟨S8192x768, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S256x2, .f32⟩
  | 48 => ⟨S8192x2, .f32⟩
  | 49 => ⟨S1x2, .f32⟩
  | 50 => ⟨S8192x2, .f32⟩
  | 51 => ⟨S8192x2, .f32⟩
  | 52 => ⟨S8192x514, .f32⟩
  | 53 => ⟨S514x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x768, .f32⟩
  | 97 => ⟨S8192x768, .f32⟩
  | 98 => ⟨S1x768, .f32⟩
  | 99 => ⟨S8192x768, .f32⟩
  | 100 => ⟨S8192x768, .f32⟩
  | 101 => ⟨S256x768, .f32⟩
  | 102 => ⟨S8192x768, .f32⟩
  | 103 => ⟨S1x768, .f32⟩
  | 104 => ⟨S8192x768, .f32⟩
  | 105 => ⟨S8192x768, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S_, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S_, .f32⟩
  | _ => ⟨S8192x512, .f32⟩

abbrev hbmTy0_5 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S256x768, .f32⟩
  | 12 => ⟨S8192x768, .f32⟩
  | 13 => ⟨S1x768, .f32⟩
  | 14 => ⟨S8192x768, .f32⟩
  | 15 => ⟨S8192x768, .f32⟩
  | 16 => ⟨S256x768, .f32⟩
  | 17 => ⟨S8192x768, .f32⟩
  | 18 => ⟨S1x768, .f32⟩
  | 19 => ⟨S8192x768, .f32⟩
  | 20 => ⟨S8192x768, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S256x2, .f32⟩
  | 55 => ⟨S8192x2, .f32⟩
  | 56 => ⟨S1x2, .f32⟩
  | 57 => ⟨S8192x2, .f32⟩
  | 58 => ⟨S8192x2, .f32⟩
  | 59 => ⟨S8192x514, .f32⟩
  | 60 => ⟨S514x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x768, .f32⟩
  | 104 => ⟨S8192x768, .f32⟩
  | 105 => ⟨S1x768, .f32⟩
  | 106 => ⟨S8192x768, .f32⟩
  | 107 => ⟨S8192x768, .f32⟩
  | 108 => ⟨S256x768, .f32⟩
  | 109 => ⟨S8192x768, .f32⟩
  | 110 => ⟨S1x768, .f32⟩
  | 111 => ⟨S8192x768, .f32⟩
  | 112 => ⟨S8192x768, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_6 (i : Nat) : BufTy := match i % 128 with
  | 0 => ⟨S8192x256, .f32⟩
  | 1 => ⟨S8192x256, .f32⟩
  | 2 => ⟨S8192x256, .f32⟩
  | 3 => ⟨S_, .f32⟩
  | 4 => ⟨S8192x256, .f32⟩
  | 5 => ⟨S8192x256, .f32⟩
  | 6 => ⟨S_, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S256x768, .f32⟩
  | 19 => ⟨S8192x768, .f32⟩
  | 20 => ⟨S1x768, .f32⟩
  | 21 => ⟨S8192x768, .f32⟩
  | 22 => ⟨S8192x768, .f32⟩
  | 23 => ⟨S256x768, .f32⟩
  | 24 => ⟨S8192x768, .f32⟩
  | 25 => ⟨S1x768, .f32⟩
  | 26 => ⟨S8192x768, .f32⟩
  | 27 => ⟨S8192x768, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S_, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S256x2, .f32⟩
  | 62 => ⟨S8192x2, .f32⟩
  | 63 => ⟨S1x2, .f32⟩
  | 64 => ⟨S8192x2, .f32⟩
  | 65 => ⟨S8192x2, .f32⟩
  | 66 => ⟨S8192x514, .f32⟩
  | 67 => ⟨S514x768, .f32⟩
  | 68 => ⟨S8192x768, .f32⟩
  | 69 => ⟨S1x768, .f32⟩
  | 70 => ⟨S8192x768, .f32⟩
  | 71 => ⟨S8192x768, .f32⟩
  | 72 => ⟨S256x768, .f32⟩
  | 73 => ⟨S8192x768, .f32⟩
  | 74 => ⟨S1x768, .f32⟩
  | 75 => ⟨S8192x768, .f32⟩
  | 76 => ⟨S8192x768, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S8192x256, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S_, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S256x768, .f32⟩
  | 111 => ⟨S8192x768, .f32⟩
  | 112 => ⟨S1x768, .f32⟩
  | 113 => ⟨S8192x768, .f32⟩
  | 114 => ⟨S8192x768, .f32⟩
  | 115 => ⟨S256x768, .f32⟩
  | 116 => ⟨S8192x768, .f32⟩
  | 117 => ⟨S1x768, .f32⟩
  | 118 => ⟨S8192x768, .f32⟩
  | 119 => ⟨S8192x768, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_7 (i : Nat) : BufTy := match i % 128 with
  | 0 => ⟨S8192x256, .f32⟩
  | 1 => ⟨S_, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S256x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x2, .f32⟩
  | 69 => ⟨S8192x2, .f32⟩
  | 70 => ⟨S1x2, .f32⟩
  | 71 => ⟨S8192x2, .f32⟩
  | 72 => ⟨S8192x2, .f32⟩
  | 73 => ⟨S8192x514, .f32⟩
  | 74 => ⟨S514x768, .f32⟩
  | 75 => ⟨S8192x768, .f32⟩
  | 76 => ⟨S1x768, .f32⟩
  | 77 => ⟨S8192x768, .f32⟩
  | 78 => ⟨S8192x768, .f32⟩
  | 79 => ⟨S256x768, .f32⟩
  | 80 => ⟨S8192x768, .f32⟩
  | 81 => ⟨S1x768, .f32⟩
  | 82 => ⟨S8192x768, .f32⟩
  | 83 => ⟨S8192x768, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S_, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S_, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S256x768, .f32⟩
  | 118 => ⟨S8192x768, .f32⟩
  | 119 => ⟨S1x768, .f32⟩
  | 120 => ⟨S8192x768, .f32⟩
  | 121 => ⟨S8192x768, .f32⟩
  | 122 => ⟨S256x768, .f32⟩
  | 123 => ⟨S8192x768, .f32⟩
  | 124 => ⟨S1x768, .f32⟩
  | 125 => ⟨S8192x768, .f32⟩
  | 126 => ⟨S8192x768, .f32⟩
  | 127 => ⟨S8192x256, .f32⟩
  | _ => ⟨S8192x512, .f32⟩

abbrev hbmTy0_8 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S_, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S256x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x2, .f32⟩
  | 76 => ⟨S8192x2, .f32⟩
  | 77 => ⟨S1x2, .f32⟩
  | 78 => ⟨S8192x2, .f32⟩
  | 79 => ⟨S8192x2, .f32⟩
  | 80 => ⟨S8192x514, .f32⟩
  | 81 => ⟨S514x768, .f32⟩
  | 82 => ⟨S8192x768, .f32⟩
  | 83 => ⟨S1x768, .f32⟩
  | 84 => ⟨S8192x768, .f32⟩
  | 85 => ⟨S8192x768, .f32⟩
  | 86 => ⟨S256x768, .f32⟩
  | 87 => ⟨S8192x768, .f32⟩
  | 88 => ⟨S1x768, .f32⟩
  | 89 => ⟨S8192x768, .f32⟩
  | 90 => ⟨S8192x768, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S256x768, .f32⟩
  | 125 => ⟨S8192x768, .f32⟩
  | 126 => ⟨S1x768, .f32⟩
  | 127 => ⟨S8192x768, .f32⟩
  | _ => ⟨S8192x512, .f32⟩

abbrev hbmTy0_9 (i : Nat) : BufTy := match i % 128 with
  | 0 => ⟨S8192x768, .f32⟩
  | 1 => ⟨S256x768, .f32⟩
  | 2 => ⟨S8192x768, .f32⟩
  | 3 => ⟨S1x768, .f32⟩
  | 4 => ⟨S8192x768, .f32⟩
  | 5 => ⟨S8192x768, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S8192x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S256x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x2, .f32⟩
  | 83 => ⟨S8192x2, .f32⟩
  | 84 => ⟨S1x2, .f32⟩
  | 85 => ⟨S8192x2, .f32⟩
  | 86 => ⟨S8192x2, .f32⟩
  | 87 => ⟨S8192x514, .f32⟩
  | 88 => ⟨S514x768, .f32⟩
  | 89 => ⟨S8192x768, .f32⟩
  | 90 => ⟨S1x768, .f32⟩
  | 91 => ⟨S8192x768, .f32⟩
  | 92 => ⟨S8192x768, .f32⟩
  | 93 => ⟨S256x768, .f32⟩
  | 94 => ⟨S8192x768, .f32⟩
  | 95 => ⟨S1x768, .f32⟩
  | 96 => ⟨S8192x768, .f32⟩
  | 97 => ⟨S8192x768, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S_, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S_, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_10 (i : Nat) : BufTy := match i % 128 with
  | 0 => ⟨S8192x256, .f32⟩
  | 1 => ⟨S8192x256, .f32⟩
  | 2 => ⟨S8192x256, .f32⟩
  | 3 => ⟨S256x768, .f32⟩
  | 4 => ⟨S8192x768, .f32⟩
  | 5 => ⟨S1x768, .f32⟩
  | 6 => ⟨S8192x768, .f32⟩
  | 7 => ⟨S8192x768, .f32⟩
  | 8 => ⟨S256x768, .f32⟩
  | 9 => ⟨S8192x768, .f32⟩
  | 10 => ⟨S1x768, .f32⟩
  | 11 => ⟨S8192x768, .f32⟩
  | 12 => ⟨S8192x768, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S_, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S256x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x2, .f32⟩
  | 90 => ⟨S8192x2, .f32⟩
  | 91 => ⟨S1x2, .f32⟩
  | 92 => ⟨S8192x2, .f32⟩
  | 93 => ⟨S8192x2, .f32⟩
  | 94 => ⟨S8192x514, .f32⟩
  | 95 => ⟨S514x768, .f32⟩
  | 96 => ⟨S8192x768, .f32⟩
  | 97 => ⟨S1x768, .f32⟩
  | 98 => ⟨S8192x768, .f32⟩
  | 99 => ⟨S8192x768, .f32⟩
  | 100 => ⟨S256x768, .f32⟩
  | 101 => ⟨S8192x768, .f32⟩
  | 102 => ⟨S1x768, .f32⟩
  | 103 => ⟨S8192x768, .f32⟩
  | 104 => ⟨S8192x768, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S_, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_11 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S256x768, .f32⟩
  | 11 => ⟨S8192x768, .f32⟩
  | 12 => ⟨S1x768, .f32⟩
  | 13 => ⟨S8192x768, .f32⟩
  | 14 => ⟨S8192x768, .f32⟩
  | 15 => ⟨S256x768, .f32⟩
  | 16 => ⟨S8192x768, .f32⟩
  | 17 => ⟨S1x768, .f32⟩
  | 18 => ⟨S8192x768, .f32⟩
  | 19 => ⟨S8192x768, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S256x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x2, .f32⟩
  | 97 => ⟨S8192x2, .f32⟩
  | 98 => ⟨S1x2, .f32⟩
  | 99 => ⟨S8192x2, .f32⟩
  | 100 => ⟨S8192x2, .f32⟩
  | 101 => ⟨S8192x514, .f32⟩
  | 102 => ⟨S514x768, .f32⟩
  | 103 => ⟨S8192x768, .f32⟩
  | 104 => ⟨S1x768, .f32⟩
  | 105 => ⟨S8192x768, .f32⟩
  | 106 => ⟨S8192x768, .f32⟩
  | 107 => ⟨S256x768, .f32⟩
  | 108 => ⟨S8192x768, .f32⟩
  | 109 => ⟨S1x768, .f32⟩
  | 110 => ⟨S8192x768, .f32⟩
  | 111 => ⟨S8192x768, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S_, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S8192x256, .f32⟩
  | _ => ⟨S8192x512, .f32⟩

abbrev hbmTy0_12 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S256x768, .f32⟩
  | 18 => ⟨S8192x768, .f32⟩
  | 19 => ⟨S1x768, .f32⟩
  | 20 => ⟨S8192x768, .f32⟩
  | 21 => ⟨S8192x768, .f32⟩
  | 22 => ⟨S256x768, .f32⟩
  | 23 => ⟨S8192x768, .f32⟩
  | 24 => ⟨S1x768, .f32⟩
  | 25 => ⟨S8192x768, .f32⟩
  | 26 => ⟨S8192x768, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S256x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x2, .f32⟩
  | 104 => ⟨S8192x2, .f32⟩
  | 105 => ⟨S1x2, .f32⟩
  | 106 => ⟨S8192x2, .f32⟩
  | 107 => ⟨S8192x2, .f32⟩
  | 108 => ⟨S1x8192x2, .f32⟩
  | 109 => ⟨S1x8192x2, .f32⟩
  | 110 => ⟨S1x8192x2, .f32⟩
  | 111 => ⟨S1x8192x2, .f32⟩
  | 112 => ⟨S1x8192x2, .f32⟩
  | 113 => ⟨S1x8192x2, .f32⟩
  | 114 => ⟨S1x8192x2, .f32⟩
  | 115 => ⟨S1x8192x2, .f32⟩
  | 116 => ⟨S1x8192x2, .f32⟩
  | 117 => ⟨S1x8192x2, .f32⟩
  | 118 => ⟨S1x8192x2, .f32⟩
  | 119 => ⟨S1x8192x2, .f32⟩
  | 120 => ⟨S12x8192x2, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_12 : Ref sig .tc := ⟨.hbm, 130, rfl⟩
abbrev main_v101 : Ref sig .tc := ⟨.hbm, 131, rfl⟩
abbrev main_v102 : Ref sig .tc := ⟨.hbm, 132, rfl⟩
abbrev main_cst_13 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_14 : Ref sig .tc := ⟨.hbm, 139, rfl⟩
abbrev main_v108 : Ref sig .tc := ⟨.hbm, 140, rfl⟩
abbrev main_v109 : Ref sig .tc := ⟨.hbm, 141, rfl⟩
abbrev main_cst_15 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_16 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_17 : Ref sig .tc := ⟨.hbm, 179, rfl⟩
abbrev main_v145 : Ref sig .tc := ⟨.hbm, 180, rfl⟩
abbrev main_v146 : Ref sig .tc := ⟨.hbm, 181, rfl⟩
abbrev main_cst_18 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_19 : Ref sig .tc := ⟨.hbm, 188, rfl⟩
abbrev main_v152 : Ref sig .tc := ⟨.hbm, 189, rfl⟩
abbrev main_v153 : Ref sig .tc := ⟨.hbm, 190, rfl⟩
abbrev main_cst_20 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_21 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_22 : Ref sig .tc := ⟨.hbm, 222, rfl⟩
abbrev main_v183 : Ref sig .tc := ⟨.hbm, 223, rfl⟩
abbrev main_v184 : Ref sig .tc := ⟨.hbm, 224, rfl⟩
abbrev main_cst_23 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_24 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_26 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_27 : Ref sig .tc := ⟨.hbm, 265, rfl⟩
abbrev main_v221 : Ref sig .tc := ⟨.hbm, 266, rfl⟩
abbrev main_v222 : Ref sig .tc := ⟨.hbm, 267, rfl⟩
abbrev main_cst_28 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_29 : Ref sig .tc := ⟨.hbm, 274, rfl⟩
abbrev main_v228 : Ref sig .tc := ⟨.hbm, 275, rfl⟩
abbrev main_v229 : Ref sig .tc := ⟨.hbm, 276, rfl⟩
abbrev main_cst_30 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_31 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_cst_32 : Ref sig .tc := ⟨.hbm, 314, rfl⟩
abbrev main_v265 : Ref sig .tc := ⟨.hbm, 315, rfl⟩
abbrev main_v266 : Ref sig .tc := ⟨.hbm, 316, rfl⟩
abbrev main_cst_33 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_cst_34 : Ref sig .tc := ⟨.hbm, 323, rfl⟩
abbrev main_v272 : Ref sig .tc := ⟨.hbm, 324, rfl⟩
abbrev main_v273 : Ref sig .tc := ⟨.hbm, 325, rfl⟩
abbrev main_cst_35 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_cst_36 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_cst_37 : Ref sig .tc := ⟨.hbm, 357, rfl⟩
abbrev main_v303 : Ref sig .tc := ⟨.hbm, 358, rfl⟩
abbrev main_v304 : Ref sig .tc := ⟨.hbm, 359, rfl⟩
abbrev main_cst_38 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_cst_39 : Ref sig .tc := ⟨.hbm, 366, rfl⟩
abbrev main_v310 : Ref sig .tc := ⟨.hbm, 367, rfl⟩
abbrev main_v311 : Ref sig .tc := ⟨.hbm, 368, rfl⟩
abbrev main_cst_40 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_cst_41 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_v340 : Ref sig .tc := ⟨.hbm, 399, rfl⟩
abbrev main_cst_42 : Ref sig .tc := ⟨.hbm, 400, rfl⟩
abbrev main_v341 : Ref sig .tc := ⟨.hbm, 401, rfl⟩
abbrev main_v342 : Ref sig .tc := ⟨.hbm, 402, rfl⟩
abbrev main_cst_43 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_cst_44 : Ref sig .tc := ⟨.hbm, 409, rfl⟩
abbrev main_v348 : Ref sig .tc := ⟨.hbm, 410, rfl⟩
abbrev main_v349 : Ref sig .tc := ⟨.hbm, 411, rfl⟩
abbrev main_cst_45 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_cst_46 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_47 : Ref sig .tc := ⟨.hbm, 449, rfl⟩
abbrev main_v385 : Ref sig .tc := ⟨.hbm, 450, rfl⟩
abbrev main_v386 : Ref sig .tc := ⟨.hbm, 451, rfl⟩
abbrev main_cst_48 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_cst_49 : Ref sig .tc := ⟨.hbm, 458, rfl⟩
abbrev main_v392 : Ref sig .tc := ⟨.hbm, 459, rfl⟩
abbrev main_v393 : Ref sig .tc := ⟨.hbm, 460, rfl⟩
abbrev main_cst_50 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_cst_51 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_v407 : Ref sig .tc := ⟨.hbm, 476, rfl⟩
abbrev main_v408 : Ref sig .tc := ⟨.hbm, 477, rfl⟩
abbrev main_v409 : Ref sig .tc := ⟨.hbm, 478, rfl⟩
abbrev main_v410 : Ref sig .tc := ⟨.hbm, 479, rfl⟩
abbrev main_v411 : Ref sig .tc := ⟨.hbm, 480, rfl⟩
abbrev main_v412 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_cst_52 : Ref sig .tc := ⟨.hbm, 492, rfl⟩
abbrev main_v423 : Ref sig .tc := ⟨.hbm, 493, rfl⟩
abbrev main_v424 : Ref sig .tc := ⟨.hbm, 494, rfl⟩
abbrev main_cst_53 : Ref sig .tc := ⟨.hbm, 495, rfl⟩
abbrev main_v425 : Ref sig .tc := ⟨.hbm, 496, rfl⟩
abbrev main_v426 : Ref sig .tc := ⟨.hbm, 497, rfl⟩
abbrev main_v427 : Ref sig .tc := ⟨.hbm, 498, rfl⟩
abbrev main_v428 : Ref sig .tc := ⟨.hbm, 499, rfl⟩
abbrev main_v429 : Ref sig .tc := ⟨.hbm, 500, rfl⟩
abbrev main_cst_54 : Ref sig .tc := ⟨.hbm, 501, rfl⟩
abbrev main_v430 : Ref sig .tc := ⟨.hbm, 502, rfl⟩
abbrev main_v431 : Ref sig .tc := ⟨.hbm, 503, rfl⟩
abbrev main_cst_55 : Ref sig .tc := ⟨.hbm, 504, rfl⟩
abbrev main_v432 : Ref sig .tc := ⟨.hbm, 505, rfl⟩
abbrev main_v433 : Ref sig .tc := ⟨.hbm, 506, rfl⟩
abbrev main_v434 : Ref sig .tc := ⟨.hbm, 507, rfl⟩
abbrev main_v435 : Ref sig .tc := ⟨.hbm, 508, rfl⟩
abbrev main_v436 : Ref sig .tc := ⟨.hbm, 509, rfl⟩
abbrev main_cst_56 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_v452 : Ref sig .tc := ⟨.hbm, 526, rfl⟩
abbrev main_v453 : Ref sig .tc := ⟨.hbm, 527, rfl⟩
abbrev main_v454 : Ref sig .tc := ⟨.hbm, 528, rfl⟩
abbrev main_v455 : Ref sig .tc := ⟨.hbm, 529, rfl⟩
abbrev main_v456 : Ref sig .tc := ⟨.hbm, 530, rfl⟩
abbrev main_v457 : Ref sig .tc := ⟨.hbm, 531, rfl⟩
abbrev main_v458 : Ref sig .tc := ⟨.hbm, 532, rfl⟩
abbrev main_v459 : Ref sig .tc := ⟨.hbm, 533, rfl⟩
abbrev main_v460 : Ref sig .tc := ⟨.hbm, 534, rfl⟩
abbrev main_cst_57 : Ref sig .tc := ⟨.hbm, 535, rfl⟩
abbrev main_v461 : Ref sig .tc := ⟨.hbm, 536, rfl⟩
abbrev main_v462 : Ref sig .tc := ⟨.hbm, 537, rfl⟩
abbrev main_cst_58 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_v466 : Ref sig .tc := ⟨.hbm, 542, rfl⟩
abbrev main_v467 : Ref sig .tc := ⟨.hbm, 543, rfl⟩
abbrev main_cst_59 : Ref sig .tc := ⟨.hbm, 544, rfl⟩
abbrev main_v468 : Ref sig .tc := ⟨.hbm, 545, rfl⟩
abbrev main_v469 : Ref sig .tc := ⟨.hbm, 546, rfl⟩
abbrev main_cst_60 : Ref sig .tc := ⟨.hbm, 547, rfl⟩
abbrev main_v470 : Ref sig .tc := ⟨.hbm, 548, rfl⟩
abbrev main_v471 : Ref sig .tc := ⟨.hbm, 549, rfl⟩
abbrev main_v472 : Ref sig .tc := ⟨.hbm, 550, rfl⟩
abbrev main_v473 : Ref sig .tc := ⟨.hbm, 551, rfl⟩
abbrev main_v474 : Ref sig .tc := ⟨.hbm, 552, rfl⟩
abbrev main_cst_61 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_v480 : Ref sig .tc := ⟨.hbm, 559, rfl⟩
abbrev main_v481 : Ref sig .tc := ⟨.hbm, 560, rfl⟩
abbrev main_v482 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_cst_62 : Ref sig .tc := ⟨.hbm, 584, rfl⟩
abbrev main_v505 : Ref sig .tc := ⟨.hbm, 585, rfl⟩
abbrev main_v506 : Ref sig .tc := ⟨.hbm, 586, rfl⟩
abbrev main_cst_63 : Ref sig .tc := ⟨.hbm, 587, rfl⟩
abbrev main_v507 : Ref sig .tc := ⟨.hbm, 588, rfl⟩
abbrev main_v508 : Ref sig .tc := ⟨.hbm, 589, rfl⟩
abbrev main_v509 : Ref sig .tc := ⟨.hbm, 590, rfl⟩
abbrev main_v510 : Ref sig .tc := ⟨.hbm, 591, rfl⟩
abbrev main_v511 : Ref sig .tc := ⟨.hbm, 592, rfl⟩
abbrev main_cst_64 : Ref sig .tc := ⟨.hbm, 593, rfl⟩
abbrev main_v512 : Ref sig .tc := ⟨.hbm, 594, rfl⟩
abbrev main_v513 : Ref sig .tc := ⟨.hbm, 595, rfl⟩
abbrev main_cst_65 : Ref sig .tc := ⟨.hbm, 596, rfl⟩
abbrev main_v514 : Ref sig .tc := ⟨.hbm, 597, rfl⟩
abbrev main_v515 : Ref sig .tc := ⟨.hbm, 598, rfl⟩
abbrev main_v516 : Ref sig .tc := ⟨.hbm, 599, rfl⟩
abbrev main_v517 : Ref sig .tc := ⟨.hbm, 600, rfl⟩
abbrev main_v518 : Ref sig .tc := ⟨.hbm, 601, rfl⟩
abbrev main_cst_66 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_v524 : Ref sig .tc := ⟨.hbm, 608, rfl⟩
abbrev main_v525 : Ref sig .tc := ⟨.hbm, 609, rfl⟩
abbrev main_v526 : Ref sig .tc := ⟨.hbm, 610, rfl⟩
abbrev main_v527 : Ref sig .tc := ⟨.hbm, 611, rfl⟩
abbrev main_v528 : Ref sig .tc := ⟨.hbm, 612, rfl⟩
abbrev main_v529 : Ref sig .tc := ⟨.hbm, 613, rfl⟩
abbrev main_v530 : Ref sig .tc := ⟨.hbm, 614, rfl⟩
abbrev main_v531 : Ref sig .tc := ⟨.hbm, 615, rfl⟩
abbrev main_v532 : Ref sig .tc := ⟨.hbm, 616, rfl⟩
abbrev main_v533 : Ref sig .tc := ⟨.hbm, 617, rfl⟩
abbrev main_v534 : Ref sig .tc := ⟨.hbm, 618, rfl⟩
abbrev main_v535 : Ref sig .tc := ⟨.hbm, 619, rfl⟩
abbrev main_v536 : Ref sig .tc := ⟨.hbm, 620, rfl⟩
abbrev main_v537 : Ref sig .tc := ⟨.hbm, 621, rfl⟩
abbrev main_v538 : Ref sig .tc := ⟨.hbm, 622, rfl⟩
abbrev main_v539 : Ref sig .tc := ⟨.hbm, 623, rfl⟩
abbrev main_v540 : Ref sig .tc := ⟨.hbm, 624, rfl⟩
abbrev main_v541 : Ref sig .tc := ⟨.hbm, 625, rfl⟩
abbrev main_v542 : Ref sig .tc := ⟨.hbm, 626, rfl⟩
abbrev main_cst_67 : Ref sig .tc := ⟨.hbm, 627, rfl⟩
abbrev main_v543 : Ref sig .tc := ⟨.hbm, 628, rfl⟩
abbrev main_v544 : Ref sig .tc := ⟨.hbm, 629, rfl⟩
abbrev main_cst_68 : Ref sig .tc := ⟨.hbm, 630, rfl⟩
abbrev main_v545 : Ref sig .tc := ⟨.hbm, 631, rfl⟩
abbrev main_v546 : Ref sig .tc := ⟨.hbm, 632, rfl⟩
abbrev main_v547 : Ref sig .tc := ⟨.hbm, 633, rfl⟩
abbrev main_v548 : Ref sig .tc := ⟨.hbm, 634, rfl⟩
abbrev main_v549 : Ref sig .tc := ⟨.hbm, 635, rfl⟩
abbrev main_cst_69 : Ref sig .tc := ⟨.hbm, 636, rfl⟩
abbrev main_v550 : Ref sig .tc := ⟨.hbm, 637, rfl⟩
abbrev main_v551 : Ref sig .tc := ⟨.hbm, 638, rfl⟩
abbrev main_cst_70 : Ref sig .tc := ⟨.hbm, 639, rfl⟩
abbrev main_v552 : Ref sig .tc := ⟨.hbm, 640, rfl⟩
abbrev main_v553 : Ref sig .tc := ⟨.hbm, 641, rfl⟩
abbrev main_v554 : Ref sig .tc := ⟨.hbm, 642, rfl⟩
abbrev main_v555 : Ref sig .tc := ⟨.hbm, 643, rfl⟩
abbrev main_v556 : Ref sig .tc := ⟨.hbm, 644, rfl⟩
abbrev main_cst_71 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_v561 : Ref sig .tc := ⟨.hbm, 650, rfl⟩
abbrev main_v562 : Ref sig .tc := ⟨.hbm, 651, rfl⟩
abbrev main_v563 : Ref sig .tc := ⟨.hbm, 652, rfl⟩
abbrev main_v564 : Ref sig .tc := ⟨.hbm, 653, rfl⟩
abbrev main_v565 : Ref sig .tc := ⟨.hbm, 654, rfl⟩
abbrev main_v566 : Ref sig .tc := ⟨.hbm, 655, rfl⟩
abbrev main_v567 : Ref sig .tc := ⟨.hbm, 656, rfl⟩
abbrev main_v568 : Ref sig .tc := ⟨.hbm, 657, rfl⟩
abbrev main_v569 : Ref sig .tc := ⟨.hbm, 658, rfl⟩
abbrev main_v570 : Ref sig .tc := ⟨.hbm, 659, rfl⟩
abbrev main_v571 : Ref sig .tc := ⟨.hbm, 660, rfl⟩
abbrev main_v572 : Ref sig .tc := ⟨.hbm, 661, rfl⟩
abbrev main_v573 : Ref sig .tc := ⟨.hbm, 662, rfl⟩
abbrev main_v574 : Ref sig .tc := ⟨.hbm, 663, rfl⟩
abbrev main_v575 : Ref sig .tc := ⟨.hbm, 664, rfl⟩
abbrev main_v576 : Ref sig .tc := ⟨.hbm, 665, rfl⟩
abbrev main_v577 : Ref sig .tc := ⟨.hbm, 666, rfl⟩
abbrev main_v578 : Ref sig .tc := ⟨.hbm, 667, rfl⟩
abbrev main_v579 : Ref sig .tc := ⟨.hbm, 668, rfl⟩
abbrev main_v580 : Ref sig .tc := ⟨.hbm, 669, rfl⟩
abbrev main_cst_72 : Ref sig .tc := ⟨.hbm, 670, rfl⟩
abbrev main_v581 : Ref sig .tc := ⟨.hbm, 671, rfl⟩
abbrev main_v582 : Ref sig .tc := ⟨.hbm, 672, rfl⟩
abbrev main_cst_73 : Ref sig .tc := ⟨.hbm, 673, rfl⟩
abbrev main_v583 : Ref sig .tc := ⟨.hbm, 674, rfl⟩
abbrev main_v584 : Ref sig .tc := ⟨.hbm, 675, rfl⟩
abbrev main_v585 : Ref sig .tc := ⟨.hbm, 676, rfl⟩
abbrev main_v586 : Ref sig .tc := ⟨.hbm, 677, rfl⟩
abbrev main_v587 : Ref sig .tc := ⟨.hbm, 678, rfl⟩
abbrev main_cst_74 : Ref sig .tc := ⟨.hbm, 679, rfl⟩
abbrev main_v588 : Ref sig .tc := ⟨.hbm, 680, rfl⟩
abbrev main_v589 : Ref sig .tc := ⟨.hbm, 681, rfl⟩
abbrev main_cst_75 : Ref sig .tc := ⟨.hbm, 682, rfl⟩
abbrev main_v590 : Ref sig .tc := ⟨.hbm, 683, rfl⟩
abbrev main_v591 : Ref sig .tc := ⟨.hbm, 684, rfl⟩
abbrev main_v592 : Ref sig .tc := ⟨.hbm, 685, rfl⟩
abbrev main_v593 : Ref sig .tc := ⟨.hbm, 686, rfl⟩
abbrev main_v594 : Ref sig .tc := ⟨.hbm, 687, rfl⟩
abbrev main_cst_76 : Ref sig .tc := ⟨.hbm, 688, rfl⟩
abbrev main_v595 : Ref sig .tc := ⟨.hbm, 689, rfl⟩
abbrev main_v596 : Ref sig .tc := ⟨.hbm, 690, rfl⟩
abbrev main_v597 : Ref sig .tc := ⟨.hbm, 691, rfl⟩
abbrev main_v598 : Ref sig .tc := ⟨.hbm, 692, rfl⟩
abbrev main_v599 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_cst_77 : Ref sig .tc := ⟨.hbm, 719, rfl⟩
abbrev main_v625 : Ref sig .tc := ⟨.hbm, 720, rfl⟩
abbrev main_v626 : Ref sig .tc := ⟨.hbm, 721, rfl⟩
abbrev main_cst_78 : Ref sig .tc := ⟨.hbm, 722, rfl⟩
abbrev main_v627 : Ref sig .tc := ⟨.hbm, 723, rfl⟩
abbrev main_v628 : Ref sig .tc := ⟨.hbm, 724, rfl⟩
abbrev main_v629 : Ref sig .tc := ⟨.hbm, 725, rfl⟩
abbrev main_v630 : Ref sig .tc := ⟨.hbm, 726, rfl⟩
abbrev main_v631 : Ref sig .tc := ⟨.hbm, 727, rfl⟩
abbrev main_cst_79 : Ref sig .tc := ⟨.hbm, 728, rfl⟩
abbrev main_v632 : Ref sig .tc := ⟨.hbm, 729, rfl⟩
abbrev main_v633 : Ref sig .tc := ⟨.hbm, 730, rfl⟩
abbrev main_cst_80 : Ref sig .tc := ⟨.hbm, 731, rfl⟩
abbrev main_v634 : Ref sig .tc := ⟨.hbm, 732, rfl⟩
abbrev main_v635 : Ref sig .tc := ⟨.hbm, 733, rfl⟩
abbrev main_v636 : Ref sig .tc := ⟨.hbm, 734, rfl⟩
abbrev main_v637 : Ref sig .tc := ⟨.hbm, 735, rfl⟩
abbrev main_v638 : Ref sig .tc := ⟨.hbm, 736, rfl⟩
abbrev main_cst_81 : Ref sig .tc := ⟨.hbm, 737, rfl⟩
abbrev main_v639 : Ref sig .tc := ⟨.hbm, 738, rfl⟩
abbrev main_v640 : Ref sig .tc := ⟨.hbm, 739, rfl⟩
abbrev main_v641 : Ref sig .tc := ⟨.hbm, 740, rfl⟩
abbrev main_v642 : Ref sig .tc := ⟨.hbm, 741, rfl⟩
abbrev main_v643 : Ref sig .tc := ⟨.hbm, 742, rfl⟩
abbrev main_v644 : Ref sig .tc := ⟨.hbm, 743, rfl⟩
abbrev main_v645 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_v651 : Ref sig .tc := ⟨.hbm, 750, rfl⟩
abbrev main_v652 : Ref sig .tc := ⟨.hbm, 751, rfl⟩
abbrev main_v653 : Ref sig .tc := ⟨.hbm, 752, rfl⟩
abbrev main_v654 : Ref sig .tc := ⟨.hbm, 753, rfl⟩
abbrev main_v655 : Ref sig .tc := ⟨.hbm, 754, rfl⟩
abbrev main_v656 : Ref sig .tc := ⟨.hbm, 755, rfl⟩
abbrev main_v657 : Ref sig .tc := ⟨.hbm, 756, rfl⟩
abbrev main_v658 : Ref sig .tc := ⟨.hbm, 757, rfl⟩
abbrev main_v659 : Ref sig .tc := ⟨.hbm, 758, rfl⟩
abbrev main_v660 : Ref sig .tc := ⟨.hbm, 759, rfl⟩
abbrev main_v661 : Ref sig .tc := ⟨.hbm, 760, rfl⟩
abbrev main_v662 : Ref sig .tc := ⟨.hbm, 761, rfl⟩
abbrev main_cst_82 : Ref sig .tc := ⟨.hbm, 762, rfl⟩
abbrev main_v663 : Ref sig .tc := ⟨.hbm, 763, rfl⟩
abbrev main_v664 : Ref sig .tc := ⟨.hbm, 764, rfl⟩
abbrev main_cst_83 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_v668 : Ref sig .tc := ⟨.hbm, 769, rfl⟩
abbrev main_v669 : Ref sig .tc := ⟨.hbm, 770, rfl⟩
abbrev main_cst_84 : Ref sig .tc := ⟨.hbm, 771, rfl⟩
abbrev main_v670 : Ref sig .tc := ⟨.hbm, 772, rfl⟩
abbrev main_v671 : Ref sig .tc := ⟨.hbm, 773, rfl⟩
abbrev main_cst_85 : Ref sig .tc := ⟨.hbm, 774, rfl⟩
abbrev main_v672 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_cst_86 : Ref sig .tc := ⟨.hbm, 780, rfl⟩
abbrev main_v677 : Ref sig .tc := ⟨.hbm, 781, rfl⟩
abbrev main_v678 : Ref sig .tc := ⟨.hbm, 782, rfl⟩
abbrev main_v679 : Ref sig .tc := ⟨.hbm, 783, rfl⟩
abbrev main_v680 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_v690 : Ref sig .tc := ⟨.hbm, 794, rfl⟩
abbrev main_v691 : Ref sig .tc := ⟨.hbm, 795, rfl⟩
abbrev main_v692 : Ref sig .tc := ⟨.hbm, 796, rfl⟩
abbrev main_v693 : Ref sig .tc := ⟨.hbm, 797, rfl⟩
abbrev main_v694 : Ref sig .tc := ⟨.hbm, 798, rfl⟩
abbrev main_v695 : Ref sig .tc := ⟨.hbm, 799, rfl⟩
abbrev main_v696 : Ref sig .tc := ⟨.hbm, 800, rfl⟩
abbrev main_v697 : Ref sig .tc := ⟨.hbm, 801, rfl⟩
abbrev main_v698 : Ref sig .tc := ⟨.hbm, 802, rfl⟩
abbrev main_v699 : Ref sig .tc := ⟨.hbm, 803, rfl⟩
abbrev main_v700 : Ref sig .tc := ⟨.hbm, 804, rfl⟩
abbrev main_cst_87 : Ref sig .tc := ⟨.hbm, 805, rfl⟩
abbrev main_v701 : Ref sig .tc := ⟨.hbm, 806, rfl⟩
abbrev main_v702 : Ref sig .tc := ⟨.hbm, 807, rfl⟩
abbrev main_cst_88 : Ref sig .tc := ⟨.hbm, 808, rfl⟩
abbrev main_v703 : Ref sig .tc := ⟨.hbm, 809, rfl⟩
abbrev main_v704 : Ref sig .tc := ⟨.hbm, 810, rfl⟩
abbrev main_v705 : Ref sig .tc := ⟨.hbm, 811, rfl⟩
abbrev main_v706 : Ref sig .tc := ⟨.hbm, 812, rfl⟩
abbrev main_v707 : Ref sig .tc := ⟨.hbm, 813, rfl⟩
abbrev main_cst_89 : Ref sig .tc := ⟨.hbm, 814, rfl⟩
abbrev main_v708 : Ref sig .tc := ⟨.hbm, 815, rfl⟩
abbrev main_v709 : Ref sig .tc := ⟨.hbm, 816, rfl⟩
abbrev main_cst_90 : Ref sig .tc := ⟨.hbm, 817, rfl⟩
abbrev main_v710 : Ref sig .tc := ⟨.hbm, 818, rfl⟩
abbrev main_v711 : Ref sig .tc := ⟨.hbm, 819, rfl⟩
abbrev main_v712 : Ref sig .tc := ⟨.hbm, 820, rfl⟩
abbrev main_v713 : Ref sig .tc := ⟨.hbm, 821, rfl⟩
abbrev main_v714 : Ref sig .tc := ⟨.hbm, 822, rfl⟩
abbrev main_cst_91 : Ref sig .tc := ⟨.hbm, 823, rfl⟩
abbrev main_v715 : Ref sig .tc := ⟨.hbm, 824, rfl⟩
abbrev main_v716 : Ref sig .tc := ⟨.hbm, 825, rfl⟩
abbrev main_v717 : Ref sig .tc := ⟨.hbm, 826, rfl⟩
abbrev main_v718 : Ref sig .tc := ⟨.hbm, 827, rfl⟩
abbrev main_v719 : Ref sig .tc := ⟨.hbm, 828, rfl⟩
abbrev main_v720 : Ref sig .tc := ⟨.hbm, 829, rfl⟩
abbrev main_v721 : Ref sig .tc := ⟨.hbm, 830, rfl⟩
abbrev main_v722 : Ref sig .tc := ⟨.hbm, 831, rfl⟩
abbrev main_v723 : Ref sig .tc := ⟨.hbm, 832, rfl⟩
abbrev main_v724 : Ref sig .tc := ⟨.hbm, 833, rfl⟩
abbrev main_v725 : Ref sig .tc := ⟨.hbm, 834, rfl⟩
abbrev main_v726 : Ref sig .tc := ⟨.hbm, 835, rfl⟩
abbrev main_v727 : Ref sig .tc := ⟨.hbm, 836, rfl⟩
abbrev main_v728 : Ref sig .tc := ⟨.hbm, 837, rfl⟩
abbrev main_v729 : Ref sig .tc := ⟨.hbm, 838, rfl⟩
abbrev main_v730 : Ref sig .tc := ⟨.hbm, 839, rfl⟩
abbrev main_v731 : Ref sig .tc := ⟨.hbm, 840, rfl⟩
abbrev main_v732 : Ref sig .tc := ⟨.hbm, 841, rfl⟩
abbrev main_v733 : Ref sig .tc := ⟨.hbm, 842, rfl⟩
abbrev main_v734 : Ref sig .tc := ⟨.hbm, 843, rfl⟩
abbrev main_v735 : Ref sig .tc := ⟨.hbm, 844, rfl⟩
abbrev main_v736 : Ref sig .tc := ⟨.hbm, 845, rfl⟩
abbrev main_v737 : Ref sig .tc := ⟨.hbm, 846, rfl⟩
abbrev main_v738 : Ref sig .tc := ⟨.hbm, 847, rfl⟩
abbrev main_v739 : Ref sig .tc := ⟨.hbm, 848, rfl⟩
abbrev main_v740 : Ref sig .tc := ⟨.hbm, 849, rfl⟩
abbrev main_v741 : Ref sig .tc := ⟨.hbm, 850, rfl⟩
abbrev main_v742 : Ref sig .tc := ⟨.hbm, 851, rfl⟩
abbrev main_v743 : Ref sig .tc := ⟨.hbm, 852, rfl⟩
abbrev main_v744 : Ref sig .tc := ⟨.hbm, 853, rfl⟩
abbrev main_cst_92 : Ref sig .tc := ⟨.hbm, 854, rfl⟩
abbrev main_v745 : Ref sig .tc := ⟨.hbm, 855, rfl⟩
abbrev main_v746 : Ref sig .tc := ⟨.hbm, 856, rfl⟩
abbrev main_cst_93 : Ref sig .tc := ⟨.hbm, 857, rfl⟩
abbrev main_v747 : Ref sig .tc := ⟨.hbm, 858, rfl⟩
abbrev main_v748 : Ref sig .tc := ⟨.hbm, 859, rfl⟩
abbrev main_v749 : Ref sig .tc := ⟨.hbm, 860, rfl⟩
abbrev main_v750 : Ref sig .tc := ⟨.hbm, 861, rfl⟩
abbrev main_v751 : Ref sig .tc := ⟨.hbm, 862, rfl⟩
abbrev main_cst_94 : Ref sig .tc := ⟨.hbm, 863, rfl⟩
abbrev main_v752 : Ref sig .tc := ⟨.hbm, 864, rfl⟩
abbrev main_v753 : Ref sig .tc := ⟨.hbm, 865, rfl⟩
abbrev main_cst_95 : Ref sig .tc := ⟨.hbm, 866, rfl⟩
abbrev main_v754 : Ref sig .tc := ⟨.hbm, 867, rfl⟩
abbrev main_v755 : Ref sig .tc := ⟨.hbm, 868, rfl⟩
abbrev main_v756 : Ref sig .tc := ⟨.hbm, 869, rfl⟩
abbrev main_v757 : Ref sig .tc := ⟨.hbm, 870, rfl⟩
abbrev main_v758 : Ref sig .tc := ⟨.hbm, 871, rfl⟩
abbrev main_cst_96 : Ref sig .tc := ⟨.hbm, 872, rfl⟩
abbrev main_v759 : Ref sig .tc := ⟨.hbm, 873, rfl⟩
abbrev main_v760 : Ref sig .tc := ⟨.hbm, 874, rfl⟩
abbrev main_v761 : Ref sig .tc := ⟨.hbm, 875, rfl⟩
abbrev main_v762 : Ref sig .tc := ⟨.hbm, 876, rfl⟩
abbrev main_v763 : Ref sig .tc := ⟨.hbm, 877, rfl⟩
abbrev main_v764 : Ref sig .tc := ⟨.hbm, 878, rfl⟩
abbrev main_v765 : Ref sig .tc := ⟨.hbm, 879, rfl⟩
abbrev main_v766 : Ref sig .tc := ⟨.hbm, 880, rfl⟩
abbrev main_v767 : Ref sig .tc := ⟨.hbm, 881, rfl⟩
abbrev main_v768 : Ref sig .tc := ⟨.hbm, 882, rfl⟩
abbrev main_v769 : Ref sig .tc := ⟨.hbm, 883, rfl⟩
abbrev main_v770 : Ref sig .tc := ⟨.hbm, 884, rfl⟩
abbrev main_v771 : Ref sig .tc := ⟨.hbm, 885, rfl⟩
abbrev main_v772 : Ref sig .tc := ⟨.hbm, 886, rfl⟩
abbrev main_v773 : Ref sig .tc := ⟨.hbm, 887, rfl⟩
abbrev main_v774 : Ref sig .tc := ⟨.hbm, 888, rfl⟩
abbrev main_v775 : Ref sig .tc := ⟨.hbm, 889, rfl⟩
abbrev main_v776 : Ref sig .tc := ⟨.hbm, 890, rfl⟩
abbrev main_v777 : Ref sig .tc := ⟨.hbm, 891, rfl⟩
abbrev main_v778 : Ref sig .tc := ⟨.hbm, 892, rfl⟩
abbrev main_v779 : Ref sig .tc := ⟨.hbm, 893, rfl⟩
abbrev main_v780 : Ref sig .tc := ⟨.hbm, 894, rfl⟩
abbrev main_v781 : Ref sig .tc := ⟨.hbm, 895, rfl⟩
abbrev main_v782 : Ref sig .tc := ⟨.hbm, 896, rfl⟩
abbrev main_cst_97 : Ref sig .tc := ⟨.hbm, 897, rfl⟩
abbrev main_v783 : Ref sig .tc := ⟨.hbm, 898, rfl⟩
abbrev main_v784 : Ref sig .tc := ⟨.hbm, 899, rfl⟩
abbrev main_cst_98 : Ref sig .tc := ⟨.hbm, 900, rfl⟩
abbrev main_v785 : Ref sig .tc := ⟨.hbm, 901, rfl⟩
abbrev main_v786 : Ref sig .tc := ⟨.hbm, 902, rfl⟩
abbrev main_v787 : Ref sig .tc := ⟨.hbm, 903, rfl⟩
abbrev main_v788 : Ref sig .tc := ⟨.hbm, 904, rfl⟩
abbrev main_v789 : Ref sig .tc := ⟨.hbm, 905, rfl⟩
abbrev main_cst_99 : Ref sig .tc := ⟨.hbm, 906, rfl⟩
abbrev main_v790 : Ref sig .tc := ⟨.hbm, 907, rfl⟩
abbrev main_v791 : Ref sig .tc := ⟨.hbm, 908, rfl⟩
abbrev main_cst_100 : Ref sig .tc := ⟨.hbm, 909, rfl⟩
abbrev main_v792 : Ref sig .tc := ⟨.hbm, 910, rfl⟩
abbrev main_v793 : Ref sig .tc := ⟨.hbm, 911, rfl⟩
abbrev main_v794 : Ref sig .tc := ⟨.hbm, 912, rfl⟩
abbrev main_v795 : Ref sig .tc := ⟨.hbm, 913, rfl⟩
abbrev main_v796 : Ref sig .tc := ⟨.hbm, 914, rfl⟩
abbrev main_cst_101 : Ref sig .tc := ⟨.hbm, 915, rfl⟩
abbrev main_v797 : Ref sig .tc := ⟨.hbm, 916, rfl⟩
abbrev main_v798 : Ref sig .tc := ⟨.hbm, 917, rfl⟩
abbrev main_v799 : Ref sig .tc := ⟨.hbm, 918, rfl⟩
abbrev main_v800 : Ref sig .tc := ⟨.hbm, 919, rfl⟩
abbrev main_v801 : Ref sig .tc := ⟨.hbm, 920, rfl⟩
abbrev main_v802 : Ref sig .tc := ⟨.hbm, 921, rfl⟩
abbrev main_v803 : Ref sig .tc := ⟨.hbm, 922, rfl⟩
abbrev main_v804 : Ref sig .tc := ⟨.hbm, 923, rfl⟩
abbrev main_v805 : Ref sig .tc := ⟨.hbm, 924, rfl⟩
abbrev main_v806 : Ref sig .tc := ⟨.hbm, 925, rfl⟩
abbrev main_v807 : Ref sig .tc := ⟨.hbm, 926, rfl⟩
abbrev main_v808 : Ref sig .tc := ⟨.hbm, 927, rfl⟩
abbrev main_v809 : Ref sig .tc := ⟨.hbm, 928, rfl⟩
abbrev main_v810 : Ref sig .tc := ⟨.hbm, 929, rfl⟩
abbrev main_v811 : Ref sig .tc := ⟨.hbm, 930, rfl⟩
abbrev main_v812 : Ref sig .tc := ⟨.hbm, 931, rfl⟩
abbrev main_v813 : Ref sig .tc := ⟨.hbm, 932, rfl⟩
abbrev main_v814 : Ref sig .tc := ⟨.hbm, 933, rfl⟩
abbrev main_v815 : Ref sig .tc := ⟨.hbm, 934, rfl⟩
abbrev main_v816 : Ref sig .tc := ⟨.hbm, 935, rfl⟩
abbrev main_v817 : Ref sig .tc := ⟨.hbm, 936, rfl⟩
abbrev main_v818 : Ref sig .tc := ⟨.hbm, 937, rfl⟩
abbrev main_v819 : Ref sig .tc := ⟨.hbm, 938, rfl⟩
abbrev main_v820 : Ref sig .tc := ⟨.hbm, 939, rfl⟩
abbrev main_cst_102 : Ref sig .tc := ⟨.hbm, 940, rfl⟩
abbrev main_v821 : Ref sig .tc := ⟨.hbm, 941, rfl⟩
abbrev main_v822 : Ref sig .tc := ⟨.hbm, 942, rfl⟩
abbrev main_cst_103 : Ref sig .tc := ⟨.hbm, 943, rfl⟩
abbrev main_v823 : Ref sig .tc := ⟨.hbm, 944, rfl⟩
abbrev main_v824 : Ref sig .tc := ⟨.hbm, 945, rfl⟩
abbrev main_v825 : Ref sig .tc := ⟨.hbm, 946, rfl⟩
abbrev main_v826 : Ref sig .tc := ⟨.hbm, 947, rfl⟩
abbrev main_v827 : Ref sig .tc := ⟨.hbm, 948, rfl⟩
abbrev main_cst_104 : Ref sig .tc := ⟨.hbm, 949, rfl⟩
abbrev main_v828 : Ref sig .tc := ⟨.hbm, 950, rfl⟩
abbrev main_v829 : Ref sig .tc := ⟨.hbm, 951, rfl⟩
abbrev main_cst_105 : Ref sig .tc := ⟨.hbm, 952, rfl⟩
abbrev main_v830 : Ref sig .tc := ⟨.hbm, 953, rfl⟩
abbrev main_v831 : Ref sig .tc := ⟨.hbm, 954, rfl⟩
abbrev main_v832 : Ref sig .tc := ⟨.hbm, 955, rfl⟩
abbrev main_v833 : Ref sig .tc := ⟨.hbm, 956, rfl⟩
abbrev main_v834 : Ref sig .tc := ⟨.hbm, 957, rfl⟩
abbrev main_cst_106 : Ref sig .tc := ⟨.hbm, 958, rfl⟩
abbrev main_v835 : Ref sig .tc := ⟨.hbm, 959, rfl⟩
abbrev main_v836 : Ref sig .tc := ⟨.hbm, 960, rfl⟩
abbrev main_v837 : Ref sig .tc := ⟨.hbm, 961, rfl⟩
abbrev main_v838 : Ref sig .tc := ⟨.hbm, 962, rfl⟩
abbrev main_v839 : Ref sig .tc := ⟨.hbm, 963, rfl⟩
abbrev main_v840 : Ref sig .tc := ⟨.hbm, 964, rfl⟩
abbrev main_v841 : Ref sig .tc := ⟨.hbm, 965, rfl⟩
abbrev main_v842 : Ref sig .tc := ⟨.hbm, 966, rfl⟩
abbrev main_v843 : Ref sig .tc := ⟨.hbm, 967, rfl⟩
abbrev main_v844 : Ref sig .tc := ⟨.hbm, 968, rfl⟩
abbrev main_v845 : Ref sig .tc := ⟨.hbm, 969, rfl⟩
abbrev main_v846 : Ref sig .tc := ⟨.hbm, 970, rfl⟩
abbrev main_v847 : Ref sig .tc := ⟨.hbm, 971, rfl⟩
abbrev main_v848 : Ref sig .tc := ⟨.hbm, 972, rfl⟩
abbrev main_v849 : Ref sig .tc := ⟨.hbm, 973, rfl⟩
abbrev main_v850 : Ref sig .tc := ⟨.hbm, 974, rfl⟩
abbrev main_v851 : Ref sig .tc := ⟨.hbm, 975, rfl⟩
abbrev main_v852 : Ref sig .tc := ⟨.hbm, 976, rfl⟩
abbrev main_v853 : Ref sig .tc := ⟨.hbm, 977, rfl⟩
abbrev main_v854 : Ref sig .tc := ⟨.hbm, 978, rfl⟩
abbrev main_v855 : Ref sig .tc := ⟨.hbm, 979, rfl⟩
abbrev main_v856 : Ref sig .tc := ⟨.hbm, 980, rfl⟩
abbrev main_v857 : Ref sig .tc := ⟨.hbm, 981, rfl⟩
abbrev main_v858 : Ref sig .tc := ⟨.hbm, 982, rfl⟩
abbrev main_v859 : Ref sig .tc := ⟨.hbm, 983, rfl⟩
abbrev main_v860 : Ref sig .tc := ⟨.hbm, 984, rfl⟩
abbrev main_v861 : Ref sig .tc := ⟨.hbm, 985, rfl⟩
abbrev main_v862 : Ref sig .tc := ⟨.hbm, 986, rfl⟩
abbrev main_v863 : Ref sig .tc := ⟨.hbm, 987, rfl⟩
abbrev main_v864 : Ref sig .tc := ⟨.hbm, 988, rfl⟩
abbrev main_cst_107 : Ref sig .tc := ⟨.hbm, 989, rfl⟩
abbrev main_v865 : Ref sig .tc := ⟨.hbm, 990, rfl⟩
abbrev main_v866 : Ref sig .tc := ⟨.hbm, 991, rfl⟩
abbrev main_cst_108 : Ref sig .tc := ⟨.hbm, 992, rfl⟩
abbrev main_v867 : Ref sig .tc := ⟨.hbm, 993, rfl⟩
abbrev main_v868 : Ref sig .tc := ⟨.hbm, 994, rfl⟩
abbrev main_v869 : Ref sig .tc := ⟨.hbm, 995, rfl⟩
abbrev main_v870 : Ref sig .tc := ⟨.hbm, 996, rfl⟩
abbrev main_v871 : Ref sig .tc := ⟨.hbm, 997, rfl⟩
abbrev main_cst_109 : Ref sig .tc := ⟨.hbm, 998, rfl⟩
abbrev main_v872 : Ref sig .tc := ⟨.hbm, 999, rfl⟩
abbrev main_v873 : Ref sig .tc := ⟨.hbm, 1000, rfl⟩
abbrev main_cst_110 : Ref sig .tc := ⟨.hbm, 1001, rfl⟩
abbrev main_v874 : Ref sig .tc := ⟨.hbm, 1002, rfl⟩
abbrev main_v875 : Ref sig .tc := ⟨.hbm, 1003, rfl⟩
abbrev main_v876 : Ref sig .tc := ⟨.hbm, 1004, rfl⟩
abbrev main_v877 : Ref sig .tc := ⟨.hbm, 1005, rfl⟩
abbrev main_v878 : Ref sig .tc := ⟨.hbm, 1006, rfl⟩
abbrev main_cst_111 : Ref sig .tc := ⟨.hbm, 1007, rfl⟩
abbrev main_v879 : Ref sig .tc := ⟨.hbm, 1008, rfl⟩
abbrev main_v880 : Ref sig .tc := ⟨.hbm, 1009, rfl⟩
abbrev main_v881 : Ref sig .tc := ⟨.hbm, 1010, rfl⟩
abbrev main_v882 : Ref sig .tc := ⟨.hbm, 1011, rfl⟩
abbrev main_v883 : Ref sig .tc := ⟨.hbm, 1012, rfl⟩
abbrev main_v884 : Ref sig .tc := ⟨.hbm, 1013, rfl⟩
abbrev main_v885 : Ref sig .tc := ⟨.hbm, 1014, rfl⟩
abbrev main_v886 : Ref sig .tc := ⟨.hbm, 1015, rfl⟩
abbrev main_v887 : Ref sig .tc := ⟨.hbm, 1016, rfl⟩
abbrev main_v888 : Ref sig .tc := ⟨.hbm, 1017, rfl⟩
abbrev main_v889 : Ref sig .tc := ⟨.hbm, 1018, rfl⟩
abbrev main_v890 : Ref sig .tc := ⟨.hbm, 1019, rfl⟩
abbrev main_v891 : Ref sig .tc := ⟨.hbm, 1020, rfl⟩
abbrev main_v892 : Ref sig .tc := ⟨.hbm, 1021, rfl⟩
abbrev main_v893 : Ref sig .tc := ⟨.hbm, 1022, rfl⟩
abbrev main_v894 : Ref sig .tc := ⟨.hbm, 1023, rfl⟩
abbrev main_v895 : Ref sig .tc := ⟨.hbm, 1024, rfl⟩
abbrev main_v896 : Ref sig .tc := ⟨.hbm, 1025, rfl⟩
abbrev main_v897 : Ref sig .tc := ⟨.hbm, 1026, rfl⟩
abbrev main_v898 : Ref sig .tc := ⟨.hbm, 1027, rfl⟩
abbrev main_v899 : Ref sig .tc := ⟨.hbm, 1028, rfl⟩
abbrev main_v900 : Ref sig .tc := ⟨.hbm, 1029, rfl⟩
abbrev main_v901 : Ref sig .tc := ⟨.hbm, 1030, rfl⟩
abbrev main_v902 : Ref sig .tc := ⟨.hbm, 1031, rfl⟩
abbrev main_cst_112 : Ref sig .tc := ⟨.hbm, 1032, rfl⟩
abbrev main_v903 : Ref sig .tc := ⟨.hbm, 1033, rfl⟩
abbrev main_v904 : Ref sig .tc := ⟨.hbm, 1034, rfl⟩
abbrev main_cst_113 : Ref sig .tc := ⟨.hbm, 1035, rfl⟩
abbrev main_v905 : Ref sig .tc := ⟨.hbm, 1036, rfl⟩
abbrev main_v906 : Ref sig .tc := ⟨.hbm, 1037, rfl⟩
abbrev main_v907 : Ref sig .tc := ⟨.hbm, 1038, rfl⟩
abbrev main_v908 : Ref sig .tc := ⟨.hbm, 1039, rfl⟩
abbrev main_v909 : Ref sig .tc := ⟨.hbm, 1040, rfl⟩
abbrev main_cst_114 : Ref sig .tc := ⟨.hbm, 1041, rfl⟩
abbrev main_v910 : Ref sig .tc := ⟨.hbm, 1042, rfl⟩
abbrev main_v911 : Ref sig .tc := ⟨.hbm, 1043, rfl⟩
abbrev main_cst_115 : Ref sig .tc := ⟨.hbm, 1044, rfl⟩
abbrev main_v912 : Ref sig .tc := ⟨.hbm, 1045, rfl⟩
abbrev main_v913 : Ref sig .tc := ⟨.hbm, 1046, rfl⟩
abbrev main_v914 : Ref sig .tc := ⟨.hbm, 1047, rfl⟩
abbrev main_v915 : Ref sig .tc := ⟨.hbm, 1048, rfl⟩
abbrev main_v916 : Ref sig .tc := ⟨.hbm, 1049, rfl⟩
abbrev main_cst_116 : Ref sig .tc := ⟨.hbm, 1050, rfl⟩
abbrev main_v917 : Ref sig .tc := ⟨.hbm, 1051, rfl⟩
abbrev main_v918 : Ref sig .tc := ⟨.hbm, 1052, rfl⟩
abbrev main_v919 : Ref sig .tc := ⟨.hbm, 1053, rfl⟩
abbrev main_v920 : Ref sig .tc := ⟨.hbm, 1054, rfl⟩
abbrev main_v921 : Ref sig .tc := ⟨.hbm, 1055, rfl⟩
abbrev main_v922 : Ref sig .tc := ⟨.hbm, 1056, rfl⟩
abbrev main_v923 : Ref sig .tc := ⟨.hbm, 1057, rfl⟩
abbrev main_v924 : Ref sig .tc := ⟨.hbm, 1058, rfl⟩
abbrev main_v925 : Ref sig .tc := ⟨.hbm, 1059, rfl⟩
abbrev main_v926 : Ref sig .tc := ⟨.hbm, 1060, rfl⟩
abbrev main_v927 : Ref sig .tc := ⟨.hbm, 1061, rfl⟩
abbrev main_v928 : Ref sig .tc := ⟨.hbm, 1062, rfl⟩
abbrev main_v929 : Ref sig .tc := ⟨.hbm, 1063, rfl⟩
abbrev main_v930 : Ref sig .tc := ⟨.hbm, 1064, rfl⟩
abbrev main_v931 : Ref sig .tc := ⟨.hbm, 1065, rfl⟩
abbrev main_v932 : Ref sig .tc := ⟨.hbm, 1066, rfl⟩
abbrev main_v933 : Ref sig .tc := ⟨.hbm, 1067, rfl⟩
abbrev main_v934 : Ref sig .tc := ⟨.hbm, 1068, rfl⟩
abbrev main_v935 : Ref sig .tc := ⟨.hbm, 1069, rfl⟩
abbrev main_v936 : Ref sig .tc := ⟨.hbm, 1070, rfl⟩
abbrev main_v937 : Ref sig .tc := ⟨.hbm, 1071, rfl⟩
abbrev main_v938 : Ref sig .tc := ⟨.hbm, 1072, rfl⟩
abbrev main_v939 : Ref sig .tc := ⟨.hbm, 1073, rfl⟩
abbrev main_v940 : Ref sig .tc := ⟨.hbm, 1074, rfl⟩
abbrev main_cst_117 : Ref sig .tc := ⟨.hbm, 1075, rfl⟩
abbrev main_v941 : Ref sig .tc := ⟨.hbm, 1076, rfl⟩
abbrev main_v942 : Ref sig .tc := ⟨.hbm, 1077, rfl⟩
abbrev main_cst_118 : Ref sig .tc := ⟨.hbm, 1078, rfl⟩
abbrev main_v943 : Ref sig .tc := ⟨.hbm, 1079, rfl⟩
abbrev main_v944 : Ref sig .tc := ⟨.hbm, 1080, rfl⟩
abbrev main_v945 : Ref sig .tc := ⟨.hbm, 1081, rfl⟩
abbrev main_v946 : Ref sig .tc := ⟨.hbm, 1082, rfl⟩
abbrev main_v947 : Ref sig .tc := ⟨.hbm, 1083, rfl⟩
abbrev main_cst_119 : Ref sig .tc := ⟨.hbm, 1084, rfl⟩
abbrev main_v948 : Ref sig .tc := ⟨.hbm, 1085, rfl⟩
abbrev main_v949 : Ref sig .tc := ⟨.hbm, 1086, rfl⟩
abbrev main_cst_120 : Ref sig .tc := ⟨.hbm, 1087, rfl⟩
abbrev main_v950 : Ref sig .tc := ⟨.hbm, 1088, rfl⟩
abbrev main_v951 : Ref sig .tc := ⟨.hbm, 1089, rfl⟩
abbrev main_v952 : Ref sig .tc := ⟨.hbm, 1090, rfl⟩
abbrev main_v953 : Ref sig .tc := ⟨.hbm, 1091, rfl⟩
abbrev main_v954 : Ref sig .tc := ⟨.hbm, 1092, rfl⟩
abbrev main_cst_121 : Ref sig .tc := ⟨.hbm, 1093, rfl⟩
abbrev main_v955 : Ref sig .tc := ⟨.hbm, 1094, rfl⟩
abbrev main_v956 : Ref sig .tc := ⟨.hbm, 1095, rfl⟩
abbrev main_v957 : Ref sig .tc := ⟨.hbm, 1096, rfl⟩
abbrev main_v958 : Ref sig .tc := ⟨.hbm, 1097, rfl⟩
abbrev main_v959 : Ref sig .tc := ⟨.hbm, 1098, rfl⟩
abbrev main_v960 : Ref sig .tc := ⟨.hbm, 1099, rfl⟩
abbrev main_v961 : Ref sig .tc := ⟨.hbm, 1100, rfl⟩
abbrev main_v962 : Ref sig .tc := ⟨.hbm, 1101, rfl⟩
abbrev main_v963 : Ref sig .tc := ⟨.hbm, 1102, rfl⟩
abbrev main_v964 : Ref sig .tc := ⟨.hbm, 1103, rfl⟩
abbrev main_v965 : Ref sig .tc := ⟨.hbm, 1104, rfl⟩
abbrev main_v966 : Ref sig .tc := ⟨.hbm, 1105, rfl⟩
abbrev main_v967 : Ref sig .tc := ⟨.hbm, 1106, rfl⟩
abbrev main_v968 : Ref sig .tc := ⟨.hbm, 1107, rfl⟩
abbrev main_v969 : Ref sig .tc := ⟨.hbm, 1108, rfl⟩
abbrev main_v970 : Ref sig .tc := ⟨.hbm, 1109, rfl⟩
abbrev main_v971 : Ref sig .tc := ⟨.hbm, 1110, rfl⟩
abbrev main_v972 : Ref sig .tc := ⟨.hbm, 1111, rfl⟩
abbrev main_v973 : Ref sig .tc := ⟨.hbm, 1112, rfl⟩
abbrev main_v974 : Ref sig .tc := ⟨.hbm, 1113, rfl⟩
abbrev main_v975 : Ref sig .tc := ⟨.hbm, 1114, rfl⟩
abbrev main_v976 : Ref sig .tc := ⟨.hbm, 1115, rfl⟩
abbrev main_v977 : Ref sig .tc := ⟨.hbm, 1116, rfl⟩
abbrev main_v978 : Ref sig .tc := ⟨.hbm, 1117, rfl⟩
abbrev main_v979 : Ref sig .tc := ⟨.hbm, 1118, rfl⟩
abbrev main_v980 : Ref sig .tc := ⟨.hbm, 1119, rfl⟩
abbrev main_v981 : Ref sig .tc := ⟨.hbm, 1120, rfl⟩
abbrev main_v982 : Ref sig .tc := ⟨.hbm, 1121, rfl⟩
abbrev main_v983 : Ref sig .tc := ⟨.hbm, 1122, rfl⟩
abbrev main_v984 : Ref sig .tc := ⟨.hbm, 1123, rfl⟩
abbrev main_cst_122 : Ref sig .tc := ⟨.hbm, 1124, rfl⟩
abbrev main_v985 : Ref sig .tc := ⟨.hbm, 1125, rfl⟩
abbrev main_v986 : Ref sig .tc := ⟨.hbm, 1126, rfl⟩
abbrev main_cst_123 : Ref sig .tc := ⟨.hbm, 1127, rfl⟩
abbrev main_v987 : Ref sig .tc := ⟨.hbm, 1128, rfl⟩
abbrev main_v988 : Ref sig .tc := ⟨.hbm, 1129, rfl⟩
abbrev main_v989 : Ref sig .tc := ⟨.hbm, 1130, rfl⟩
abbrev main_v990 : Ref sig .tc := ⟨.hbm, 1131, rfl⟩
abbrev main_v991 : Ref sig .tc := ⟨.hbm, 1132, rfl⟩
abbrev main_cst_124 : Ref sig .tc := ⟨.hbm, 1133, rfl⟩
abbrev main_v992 : Ref sig .tc := ⟨.hbm, 1134, rfl⟩
abbrev main_v993 : Ref sig .tc := ⟨.hbm, 1135, rfl⟩
abbrev main_cst_125 : Ref sig .tc := ⟨.hbm, 1136, rfl⟩
abbrev main_v994 : Ref sig .tc := ⟨.hbm, 1137, rfl⟩
abbrev main_v995 : Ref sig .tc := ⟨.hbm, 1138, rfl⟩
abbrev main_v996 : Ref sig .tc := ⟨.hbm, 1139, rfl⟩
abbrev main_v997 : Ref sig .tc := ⟨.hbm, 1140, rfl⟩
abbrev main_v998 : Ref sig .tc := ⟨.hbm, 1141, rfl⟩
abbrev main_cst_126 : Ref sig .tc := ⟨.hbm, 1142, rfl⟩
abbrev main_v999 : Ref sig .tc := ⟨.hbm, 1143, rfl⟩
abbrev main_v1000 : Ref sig .tc := ⟨.hbm, 1144, rfl⟩
abbrev main_v1001 : Ref sig .tc := ⟨.hbm, 1145, rfl⟩
abbrev main_v1002 : Ref sig .tc := ⟨.hbm, 1146, rfl⟩
abbrev main_v1003 : Ref sig .tc := ⟨.hbm, 1147, rfl⟩
abbrev main_v1004 : Ref sig .tc := ⟨.hbm, 1148, rfl⟩
abbrev main_v1005 : Ref sig .tc := ⟨.hbm, 1149, rfl⟩
abbrev main_v1006 : Ref sig .tc := ⟨.hbm, 1150, rfl⟩
abbrev main_v1007 : Ref sig .tc := ⟨.hbm, 1151, rfl⟩
abbrev main_v1008 : Ref sig .tc := ⟨.hbm, 1152, rfl⟩
abbrev main_v1009 : Ref sig .tc := ⟨.hbm, 1153, rfl⟩
abbrev main_v1010 : Ref sig .tc := ⟨.hbm, 1154, rfl⟩
abbrev main_v1011 : Ref sig .tc := ⟨.hbm, 1155, rfl⟩
abbrev main_v1012 : Ref sig .tc := ⟨.hbm, 1156, rfl⟩
abbrev main_v1013 : Ref sig .tc := ⟨.hbm, 1157, rfl⟩
abbrev main_v1014 : Ref sig .tc := ⟨.hbm, 1158, rfl⟩
abbrev main_v1015 : Ref sig .tc := ⟨.hbm, 1159, rfl⟩
abbrev main_v1016 : Ref sig .tc := ⟨.hbm, 1160, rfl⟩
abbrev main_v1017 : Ref sig .tc := ⟨.hbm, 1161, rfl⟩
abbrev main_v1018 : Ref sig .tc := ⟨.hbm, 1162, rfl⟩
abbrev main_v1019 : Ref sig .tc := ⟨.hbm, 1163, rfl⟩
abbrev main_v1020 : Ref sig .tc := ⟨.hbm, 1164, rfl⟩
abbrev main_v1021 : Ref sig .tc := ⟨.hbm, 1165, rfl⟩
abbrev main_v1022 : Ref sig .tc := ⟨.hbm, 1166, rfl⟩
abbrev main_cst_127 : Ref sig .tc := ⟨.hbm, 1167, rfl⟩
abbrev main_v1023 : Ref sig .tc := ⟨.hbm, 1168, rfl⟩
abbrev main_v1024 : Ref sig .tc := ⟨.hbm, 1169, rfl⟩
abbrev main_cst_128 : Ref sig .tc := ⟨.hbm, 1170, rfl⟩
abbrev main_v1025 : Ref sig .tc := ⟨.hbm, 1171, rfl⟩
abbrev main_v1026 : Ref sig .tc := ⟨.hbm, 1172, rfl⟩
abbrev main_v1027 : Ref sig .tc := ⟨.hbm, 1173, rfl⟩
abbrev main_v1028 : Ref sig .tc := ⟨.hbm, 1174, rfl⟩
abbrev main_v1029 : Ref sig .tc := ⟨.hbm, 1175, rfl⟩
abbrev main_cst_129 : Ref sig .tc := ⟨.hbm, 1176, rfl⟩
abbrev main_v1030 : Ref sig .tc := ⟨.hbm, 1177, rfl⟩
abbrev main_v1031 : Ref sig .tc := ⟨.hbm, 1178, rfl⟩
abbrev main_cst_130 : Ref sig .tc := ⟨.hbm, 1179, rfl⟩
abbrev main_v1032 : Ref sig .tc := ⟨.hbm, 1180, rfl⟩
abbrev main_v1033 : Ref sig .tc := ⟨.hbm, 1181, rfl⟩
abbrev main_v1034 : Ref sig .tc := ⟨.hbm, 1182, rfl⟩
abbrev main_v1035 : Ref sig .tc := ⟨.hbm, 1183, rfl⟩
abbrev main_v1036 : Ref sig .tc := ⟨.hbm, 1184, rfl⟩
abbrev main_cst_131 : Ref sig .tc := ⟨.hbm, 1185, rfl⟩
abbrev main_v1037 : Ref sig .tc := ⟨.hbm, 1186, rfl⟩
abbrev main_v1038 : Ref sig .tc := ⟨.hbm, 1187, rfl⟩
abbrev main_v1039 : Ref sig .tc := ⟨.hbm, 1188, rfl⟩
abbrev main_v1040 : Ref sig .tc := ⟨.hbm, 1189, rfl⟩
abbrev main_v1041 : Ref sig .tc := ⟨.hbm, 1190, rfl⟩
abbrev main_v1042 : Ref sig .tc := ⟨.hbm, 1191, rfl⟩
abbrev main_v1043 : Ref sig .tc := ⟨.hbm, 1192, rfl⟩
abbrev main_v1044 : Ref sig .tc := ⟨.hbm, 1193, rfl⟩
abbrev main_v1045 : Ref sig .tc := ⟨.hbm, 1194, rfl⟩
abbrev main_v1046 : Ref sig .tc := ⟨.hbm, 1195, rfl⟩
abbrev main_v1047 : Ref sig .tc := ⟨.hbm, 1196, rfl⟩
abbrev main_v1048 : Ref sig .tc := ⟨.hbm, 1197, rfl⟩
abbrev main_v1049 : Ref sig .tc := ⟨.hbm, 1198, rfl⟩
abbrev main_v1050 : Ref sig .tc := ⟨.hbm, 1199, rfl⟩
abbrev main_v1051 : Ref sig .tc := ⟨.hbm, 1200, rfl⟩
abbrev main_v1052 : Ref sig .tc := ⟨.hbm, 1201, rfl⟩
abbrev main_v1053 : Ref sig .tc := ⟨.hbm, 1202, rfl⟩
abbrev main_v1054 : Ref sig .tc := ⟨.hbm, 1203, rfl⟩
abbrev main_v1055 : Ref sig .tc := ⟨.hbm, 1204, rfl⟩
abbrev main_v1056 : Ref sig .tc := ⟨.hbm, 1205, rfl⟩
abbrev main_v1057 : Ref sig .tc := ⟨.hbm, 1206, rfl⟩
abbrev main_v1058 : Ref sig .tc := ⟨.hbm, 1207, rfl⟩
abbrev main_v1059 : Ref sig .tc := ⟨.hbm, 1208, rfl⟩
abbrev main_v1060 : Ref sig .tc := ⟨.hbm, 1209, rfl⟩
abbrev main_cst_132 : Ref sig .tc := ⟨.hbm, 1210, rfl⟩
abbrev main_v1061 : Ref sig .tc := ⟨.hbm, 1211, rfl⟩
abbrev main_v1062 : Ref sig .tc := ⟨.hbm, 1212, rfl⟩
abbrev main_cst_133 : Ref sig .tc := ⟨.hbm, 1213, rfl⟩
abbrev main_v1063 : Ref sig .tc := ⟨.hbm, 1214, rfl⟩
abbrev main_v1064 : Ref sig .tc := ⟨.hbm, 1215, rfl⟩
abbrev main_v1065 : Ref sig .tc := ⟨.hbm, 1216, rfl⟩
abbrev main_v1066 : Ref sig .tc := ⟨.hbm, 1217, rfl⟩
abbrev main_v1067 : Ref sig .tc := ⟨.hbm, 1218, rfl⟩
abbrev main_cst_134 : Ref sig .tc := ⟨.hbm, 1219, rfl⟩
abbrev main_v1068 : Ref sig .tc := ⟨.hbm, 1220, rfl⟩
abbrev main_v1069 : Ref sig .tc := ⟨.hbm, 1221, rfl⟩
abbrev main_cst_135 : Ref sig .tc := ⟨.hbm, 1222, rfl⟩
abbrev main_v1070 : Ref sig .tc := ⟨.hbm, 1223, rfl⟩
abbrev main_v1071 : Ref sig .tc := ⟨.hbm, 1224, rfl⟩
abbrev main_v1072 : Ref sig .tc := ⟨.hbm, 1225, rfl⟩
abbrev main_v1073 : Ref sig .tc := ⟨.hbm, 1226, rfl⟩
abbrev main_v1074 : Ref sig .tc := ⟨.hbm, 1227, rfl⟩
abbrev main_cst_136 : Ref sig .tc := ⟨.hbm, 1228, rfl⟩
abbrev main_v1075 : Ref sig .tc := ⟨.hbm, 1229, rfl⟩
abbrev main_v1076 : Ref sig .tc := ⟨.hbm, 1230, rfl⟩
abbrev main_v1077 : Ref sig .tc := ⟨.hbm, 1231, rfl⟩
abbrev main_v1078 : Ref sig .tc := ⟨.hbm, 1232, rfl⟩
abbrev main_v1079 : Ref sig .tc := ⟨.hbm, 1233, rfl⟩
abbrev main_v1080 : Ref sig .tc := ⟨.hbm, 1234, rfl⟩
abbrev main_v1081 : Ref sig .tc := ⟨.hbm, 1235, rfl⟩
abbrev main_v1082 : Ref sig .tc := ⟨.hbm, 1236, rfl⟩
abbrev main_v1083 : Ref sig .tc := ⟨.hbm, 1237, rfl⟩
abbrev main_v1084 : Ref sig .tc := ⟨.hbm, 1238, rfl⟩
abbrev main_v1085 : Ref sig .tc := ⟨.hbm, 1239, rfl⟩
abbrev main_v1086 : Ref sig .tc := ⟨.hbm, 1240, rfl⟩
abbrev main_v1087 : Ref sig .tc := ⟨.hbm, 1241, rfl⟩
abbrev main_v1088 : Ref sig .tc := ⟨.hbm, 1242, rfl⟩
abbrev main_v1089 : Ref sig .tc := ⟨.hbm, 1243, rfl⟩
abbrev main_v1090 : Ref sig .tc := ⟨.hbm, 1244, rfl⟩
abbrev main_v1091 : Ref sig .tc := ⟨.hbm, 1245, rfl⟩
abbrev main_v1092 : Ref sig .tc := ⟨.hbm, 1246, rfl⟩
abbrev main_v1093 : Ref sig .tc := ⟨.hbm, 1247, rfl⟩
abbrev main_v1094 : Ref sig .tc := ⟨.hbm, 1248, rfl⟩
abbrev main_v1095 : Ref sig .tc := ⟨.hbm, 1249, rfl⟩
abbrev main_v1096 : Ref sig .tc := ⟨.hbm, 1250, rfl⟩
abbrev main_v1097 : Ref sig .tc := ⟨.hbm, 1251, rfl⟩
abbrev main_v1098 : Ref sig .tc := ⟨.hbm, 1252, rfl⟩
abbrev main_v1099 : Ref sig .tc := ⟨.hbm, 1253, rfl⟩
abbrev main_v1100 : Ref sig .tc := ⟨.hbm, 1254, rfl⟩
abbrev main_v1101 : Ref sig .tc := ⟨.hbm, 1255, rfl⟩
abbrev main_v1102 : Ref sig .tc := ⟨.hbm, 1256, rfl⟩
abbrev main_v1103 : Ref sig .tc := ⟨.hbm, 1257, rfl⟩
abbrev main_v1104 : Ref sig .tc := ⟨.hbm, 1258, rfl⟩
abbrev main_cst_137 : Ref sig .tc := ⟨.hbm, 1259, rfl⟩
abbrev main_v1105 : Ref sig .tc := ⟨.hbm, 1260, rfl⟩
abbrev main_v1106 : Ref sig .tc := ⟨.hbm, 1261, rfl⟩
abbrev main_cst_138 : Ref sig .tc := ⟨.hbm, 1262, rfl⟩
abbrev main_v1107 : Ref sig .tc := ⟨.hbm, 1263, rfl⟩
abbrev main_v1108 : Ref sig .tc := ⟨.hbm, 1264, rfl⟩
abbrev main_v1109 : Ref sig .tc := ⟨.hbm, 1265, rfl⟩
abbrev main_v1110 : Ref sig .tc := ⟨.hbm, 1266, rfl⟩
abbrev main_v1111 : Ref sig .tc := ⟨.hbm, 1267, rfl⟩
abbrev main_cst_139 : Ref sig .tc := ⟨.hbm, 1268, rfl⟩
abbrev main_v1112 : Ref sig .tc := ⟨.hbm, 1269, rfl⟩
abbrev main_v1113 : Ref sig .tc := ⟨.hbm, 1270, rfl⟩
abbrev main_cst_140 : Ref sig .tc := ⟨.hbm, 1271, rfl⟩
abbrev main_v1114 : Ref sig .tc := ⟨.hbm, 1272, rfl⟩
abbrev main_v1115 : Ref sig .tc := ⟨.hbm, 1273, rfl⟩
abbrev main_v1116 : Ref sig .tc := ⟨.hbm, 1274, rfl⟩
abbrev main_v1117 : Ref sig .tc := ⟨.hbm, 1275, rfl⟩
abbrev main_v1118 : Ref sig .tc := ⟨.hbm, 1276, rfl⟩
abbrev main_cst_141 : Ref sig .tc := ⟨.hbm, 1277, rfl⟩
abbrev main_v1119 : Ref sig .tc := ⟨.hbm, 1278, rfl⟩
abbrev main_v1120 : Ref sig .tc := ⟨.hbm, 1279, rfl⟩
abbrev main_v1121 : Ref sig .tc := ⟨.hbm, 1280, rfl⟩
abbrev main_v1122 : Ref sig .tc := ⟨.hbm, 1281, rfl⟩
abbrev main_v1123 : Ref sig .tc := ⟨.hbm, 1282, rfl⟩
abbrev main_v1124 : Ref sig .tc := ⟨.hbm, 1283, rfl⟩
abbrev main_v1125 : Ref sig .tc := ⟨.hbm, 1284, rfl⟩
abbrev main_v1126 : Ref sig .tc := ⟨.hbm, 1285, rfl⟩
abbrev main_v1127 : Ref sig .tc := ⟨.hbm, 1286, rfl⟩
abbrev main_v1128 : Ref sig .tc := ⟨.hbm, 1287, rfl⟩
abbrev main_v1129 : Ref sig .tc := ⟨.hbm, 1288, rfl⟩
abbrev main_v1130 : Ref sig .tc := ⟨.hbm, 1289, rfl⟩
abbrev main_v1131 : Ref sig .tc := ⟨.hbm, 1290, rfl⟩
abbrev main_v1132 : Ref sig .tc := ⟨.hbm, 1291, rfl⟩
abbrev main_v1133 : Ref sig .tc := ⟨.hbm, 1292, rfl⟩
abbrev main_v1134 : Ref sig .tc := ⟨.hbm, 1293, rfl⟩
abbrev main_v1135 : Ref sig .tc := ⟨.hbm, 1294, rfl⟩
abbrev main_v1136 : Ref sig .tc := ⟨.hbm, 1295, rfl⟩
abbrev main_v1137 : Ref sig .tc := ⟨.hbm, 1296, rfl⟩
abbrev main_v1138 : Ref sig .tc := ⟨.hbm, 1297, rfl⟩
abbrev main_v1139 : Ref sig .tc := ⟨.hbm, 1298, rfl⟩
abbrev main_v1140 : Ref sig .tc := ⟨.hbm, 1299, rfl⟩
abbrev main_v1141 : Ref sig .tc := ⟨.hbm, 1300, rfl⟩
abbrev main_v1142 : Ref sig .tc := ⟨.hbm, 1301, rfl⟩
abbrev main_cst_142 : Ref sig .tc := ⟨.hbm, 1302, rfl⟩
abbrev main_v1143 : Ref sig .tc := ⟨.hbm, 1303, rfl⟩
abbrev main_v1144 : Ref sig .tc := ⟨.hbm, 1304, rfl⟩
abbrev main_cst_143 : Ref sig .tc := ⟨.hbm, 1305, rfl⟩
abbrev main_v1145 : Ref sig .tc := ⟨.hbm, 1306, rfl⟩
abbrev main_v1146 : Ref sig .tc := ⟨.hbm, 1307, rfl⟩
abbrev main_v1147 : Ref sig .tc := ⟨.hbm, 1308, rfl⟩
abbrev main_v1148 : Ref sig .tc := ⟨.hbm, 1309, rfl⟩
abbrev main_v1149 : Ref sig .tc := ⟨.hbm, 1310, rfl⟩
abbrev main_cst_144 : Ref sig .tc := ⟨.hbm, 1311, rfl⟩
abbrev main_v1150 : Ref sig .tc := ⟨.hbm, 1312, rfl⟩
abbrev main_v1151 : Ref sig .tc := ⟨.hbm, 1313, rfl⟩
abbrev main_cst_145 : Ref sig .tc := ⟨.hbm, 1314, rfl⟩
abbrev main_v1152 : Ref sig .tc := ⟨.hbm, 1315, rfl⟩
abbrev main_v1153 : Ref sig .tc := ⟨.hbm, 1316, rfl⟩
abbrev main_v1154 : Ref sig .tc := ⟨.hbm, 1317, rfl⟩
abbrev main_v1155 : Ref sig .tc := ⟨.hbm, 1318, rfl⟩
abbrev main_v1156 : Ref sig .tc := ⟨.hbm, 1319, rfl⟩
abbrev main_cst_146 : Ref sig .tc := ⟨.hbm, 1320, rfl⟩
abbrev main_v1157 : Ref sig .tc := ⟨.hbm, 1321, rfl⟩
abbrev main_v1158 : Ref sig .tc := ⟨.hbm, 1322, rfl⟩
abbrev main_v1159 : Ref sig .tc := ⟨.hbm, 1323, rfl⟩
abbrev main_v1160 : Ref sig .tc := ⟨.hbm, 1324, rfl⟩
abbrev main_v1161 : Ref sig .tc := ⟨.hbm, 1325, rfl⟩
abbrev main_v1162 : Ref sig .tc := ⟨.hbm, 1326, rfl⟩
abbrev main_v1163 : Ref sig .tc := ⟨.hbm, 1327, rfl⟩
abbrev main_v1164 : Ref sig .tc := ⟨.hbm, 1328, rfl⟩
abbrev main_v1165 : Ref sig .tc := ⟨.hbm, 1329, rfl⟩
abbrev main_v1166 : Ref sig .tc := ⟨.hbm, 1330, rfl⟩
abbrev main_v1167 : Ref sig .tc := ⟨.hbm, 1331, rfl⟩
abbrev main_v1168 : Ref sig .tc := ⟨.hbm, 1332, rfl⟩
abbrev main_v1169 : Ref sig .tc := ⟨.hbm, 1333, rfl⟩
abbrev main_v1170 : Ref sig .tc := ⟨.hbm, 1334, rfl⟩
abbrev main_v1171 : Ref sig .tc := ⟨.hbm, 1335, rfl⟩
abbrev main_v1172 : Ref sig .tc := ⟨.hbm, 1336, rfl⟩
abbrev main_v1173 : Ref sig .tc := ⟨.hbm, 1337, rfl⟩
abbrev main_v1174 : Ref sig .tc := ⟨.hbm, 1338, rfl⟩
abbrev main_v1175 : Ref sig .tc := ⟨.hbm, 1339, rfl⟩
abbrev main_v1176 : Ref sig .tc := ⟨.hbm, 1340, rfl⟩
abbrev main_v1177 : Ref sig .tc := ⟨.hbm, 1341, rfl⟩
abbrev main_v1178 : Ref sig .tc := ⟨.hbm, 1342, rfl⟩
abbrev main_v1179 : Ref sig .tc := ⟨.hbm, 1343, rfl⟩
abbrev main_v1180 : Ref sig .tc := ⟨.hbm, 1344, rfl⟩
abbrev main_cst_147 : Ref sig .tc := ⟨.hbm, 1345, rfl⟩
abbrev main_v1181 : Ref sig .tc := ⟨.hbm, 1346, rfl⟩
abbrev main_v1182 : Ref sig .tc := ⟨.hbm, 1347, rfl⟩
abbrev main_cst_148 : Ref sig .tc := ⟨.hbm, 1348, rfl⟩
abbrev main_v1183 : Ref sig .tc := ⟨.hbm, 1349, rfl⟩
abbrev main_v1184 : Ref sig .tc := ⟨.hbm, 1350, rfl⟩
abbrev main_v1185 : Ref sig .tc := ⟨.hbm, 1351, rfl⟩
abbrev main_v1186 : Ref sig .tc := ⟨.hbm, 1352, rfl⟩
abbrev main_v1187 : Ref sig .tc := ⟨.hbm, 1353, rfl⟩
abbrev main_cst_149 : Ref sig .tc := ⟨.hbm, 1354, rfl⟩
abbrev main_v1188 : Ref sig .tc := ⟨.hbm, 1355, rfl⟩
abbrev main_v1189 : Ref sig .tc := ⟨.hbm, 1356, rfl⟩
abbrev main_cst_150 : Ref sig .tc := ⟨.hbm, 1357, rfl⟩
abbrev main_v1190 : Ref sig .tc := ⟨.hbm, 1358, rfl⟩
abbrev main_v1191 : Ref sig .tc := ⟨.hbm, 1359, rfl⟩
abbrev main_v1192 : Ref sig .tc := ⟨.hbm, 1360, rfl⟩
abbrev main_v1193 : Ref sig .tc := ⟨.hbm, 1361, rfl⟩
abbrev main_v1194 : Ref sig .tc := ⟨.hbm, 1362, rfl⟩
abbrev main_cst_151 : Ref sig .tc := ⟨.hbm, 1363, rfl⟩
abbrev main_v1195 : Ref sig .tc := ⟨.hbm, 1364, rfl⟩
abbrev main_v1196 : Ref sig .tc := ⟨.hbm, 1365, rfl⟩
abbrev main_v1197 : Ref sig .tc := ⟨.hbm, 1366, rfl⟩
abbrev main_v1198 : Ref sig .tc := ⟨.hbm, 1367, rfl⟩
abbrev main_v1199 : Ref sig .tc := ⟨.hbm, 1368, rfl⟩
abbrev main_v1200 : Ref sig .tc := ⟨.hbm, 1369, rfl⟩
abbrev main_v1201 : Ref sig .tc := ⟨.hbm, 1370, rfl⟩
abbrev main_v1202 : Ref sig .tc := ⟨.hbm, 1371, rfl⟩
abbrev main_v1203 : Ref sig .tc := ⟨.hbm, 1372, rfl⟩
abbrev main_v1204 : Ref sig .tc := ⟨.hbm, 1373, rfl⟩
abbrev main_v1205 : Ref sig .tc := ⟨.hbm, 1374, rfl⟩
abbrev main_v1206 : Ref sig .tc := ⟨.hbm, 1375, rfl⟩
abbrev main_v1207 : Ref sig .tc := ⟨.hbm, 1376, rfl⟩
abbrev main_v1208 : Ref sig .tc := ⟨.hbm, 1377, rfl⟩
abbrev main_v1209 : Ref sig .tc := ⟨.hbm, 1378, rfl⟩
abbrev main_v1210 : Ref sig .tc := ⟨.hbm, 1379, rfl⟩
abbrev main_v1211 : Ref sig .tc := ⟨.hbm, 1380, rfl⟩
abbrev main_v1212 : Ref sig .tc := ⟨.hbm, 1381, rfl⟩
abbrev main_v1213 : Ref sig .tc := ⟨.hbm, 1382, rfl⟩
abbrev main_v1214 : Ref sig .tc := ⟨.hbm, 1383, rfl⟩
abbrev main_v1215 : Ref sig .tc := ⟨.hbm, 1384, rfl⟩
abbrev main_v1216 : Ref sig .tc := ⟨.hbm, 1385, rfl⟩
abbrev main_v1217 : Ref sig .tc := ⟨.hbm, 1386, rfl⟩
abbrev main_v1218 : Ref sig .tc := ⟨.hbm, 1387, rfl⟩
abbrev main_v1219 : Ref sig .tc := ⟨.hbm, 1388, rfl⟩
abbrev main_v1220 : Ref sig .tc := ⟨.hbm, 1389, rfl⟩
abbrev main_v1221 : Ref sig .tc := ⟨.hbm, 1390, rfl⟩
abbrev main_v1222 : Ref sig .tc := ⟨.hbm, 1391, rfl⟩
abbrev main_v1223 : Ref sig .tc := ⟨.hbm, 1392, rfl⟩
abbrev main_v1224 : Ref sig .tc := ⟨.hbm, 1393, rfl⟩
abbrev main_cst_152 : Ref sig .tc := ⟨.hbm, 1394, rfl⟩
abbrev main_v1225 : Ref sig .tc := ⟨.hbm, 1395, rfl⟩
abbrev main_v1226 : Ref sig .tc := ⟨.hbm, 1396, rfl⟩
abbrev main_cst_153 : Ref sig .tc := ⟨.hbm, 1397, rfl⟩
abbrev main_v1227 : Ref sig .tc := ⟨.hbm, 1398, rfl⟩
abbrev main_v1228 : Ref sig .tc := ⟨.hbm, 1399, rfl⟩
abbrev main_v1229 : Ref sig .tc := ⟨.hbm, 1400, rfl⟩
abbrev main_v1230 : Ref sig .tc := ⟨.hbm, 1401, rfl⟩
abbrev main_v1231 : Ref sig .tc := ⟨.hbm, 1402, rfl⟩
abbrev main_cst_154 : Ref sig .tc := ⟨.hbm, 1403, rfl⟩
abbrev main_v1232 : Ref sig .tc := ⟨.hbm, 1404, rfl⟩
abbrev main_v1233 : Ref sig .tc := ⟨.hbm, 1405, rfl⟩
abbrev main_cst_155 : Ref sig .tc := ⟨.hbm, 1406, rfl⟩
abbrev main_v1234 : Ref sig .tc := ⟨.hbm, 1407, rfl⟩
abbrev main_v1235 : Ref sig .tc := ⟨.hbm, 1408, rfl⟩
abbrev main_v1236 : Ref sig .tc := ⟨.hbm, 1409, rfl⟩
abbrev main_v1237 : Ref sig .tc := ⟨.hbm, 1410, rfl⟩
abbrev main_v1238 : Ref sig .tc := ⟨.hbm, 1411, rfl⟩
abbrev main_cst_156 : Ref sig .tc := ⟨.hbm, 1412, rfl⟩
abbrev main_v1239 : Ref sig .tc := ⟨.hbm, 1413, rfl⟩
abbrev main_v1240 : Ref sig .tc := ⟨.hbm, 1414, rfl⟩
abbrev main_v1241 : Ref sig .tc := ⟨.hbm, 1415, rfl⟩
abbrev main_v1242 : Ref sig .tc := ⟨.hbm, 1416, rfl⟩
abbrev main_v1243 : Ref sig .tc := ⟨.hbm, 1417, rfl⟩
abbrev main_v1244 : Ref sig .tc := ⟨.hbm, 1418, rfl⟩
abbrev main_v1245 : Ref sig .tc := ⟨.hbm, 1419, rfl⟩
abbrev main_v1246 : Ref sig .tc := ⟨.hbm, 1420, rfl⟩
abbrev main_v1247 : Ref sig .tc := ⟨.hbm, 1421, rfl⟩
abbrev main_v1248 : Ref sig .tc := ⟨.hbm, 1422, rfl⟩
abbrev main_v1249 : Ref sig .tc := ⟨.hbm, 1423, rfl⟩
abbrev main_v1250 : Ref sig .tc := ⟨.hbm, 1424, rfl⟩
abbrev main_v1251 : Ref sig .tc := ⟨.hbm, 1425, rfl⟩
abbrev main_v1252 : Ref sig .tc := ⟨.hbm, 1426, rfl⟩
abbrev main_v1253 : Ref sig .tc := ⟨.hbm, 1427, rfl⟩
abbrev main_v1254 : Ref sig .tc := ⟨.hbm, 1428, rfl⟩
abbrev main_v1255 : Ref sig .tc := ⟨.hbm, 1429, rfl⟩
abbrev main_v1256 : Ref sig .tc := ⟨.hbm, 1430, rfl⟩
abbrev main_v1257 : Ref sig .tc := ⟨.hbm, 1431, rfl⟩
abbrev main_v1258 : Ref sig .tc := ⟨.hbm, 1432, rfl⟩
abbrev main_v1259 : Ref sig .tc := ⟨.hbm, 1433, rfl⟩
abbrev main_v1260 : Ref sig .tc := ⟨.hbm, 1434, rfl⟩
abbrev main_v1261 : Ref sig .tc := ⟨.hbm, 1435, rfl⟩
abbrev main_v1262 : Ref sig .tc := ⟨.hbm, 1436, rfl⟩
abbrev main_cst_157 : Ref sig .tc := ⟨.hbm, 1437, rfl⟩
abbrev main_v1263 : Ref sig .tc := ⟨.hbm, 1438, rfl⟩
abbrev main_v1264 : Ref sig .tc := ⟨.hbm, 1439, rfl⟩
abbrev main_cst_158 : Ref sig .tc := ⟨.hbm, 1440, rfl⟩
abbrev main_v1265 : Ref sig .tc := ⟨.hbm, 1441, rfl⟩
abbrev main_v1266 : Ref sig .tc := ⟨.hbm, 1442, rfl⟩
abbrev main_v1267 : Ref sig .tc := ⟨.hbm, 1443, rfl⟩
abbrev main_v1268 : Ref sig .tc := ⟨.hbm, 1444, rfl⟩
abbrev main_v1269 : Ref sig .tc := ⟨.hbm, 1445, rfl⟩
abbrev main_cst_159 : Ref sig .tc := ⟨.hbm, 1446, rfl⟩
abbrev main_v1270 : Ref sig .tc := ⟨.hbm, 1447, rfl⟩
abbrev main_v1271 : Ref sig .tc := ⟨.hbm, 1448, rfl⟩
abbrev main_cst_160 : Ref sig .tc := ⟨.hbm, 1449, rfl⟩
abbrev main_v1272 : Ref sig .tc := ⟨.hbm, 1450, rfl⟩
abbrev main_v1273 : Ref sig .tc := ⟨.hbm, 1451, rfl⟩
abbrev main_v1274 : Ref sig .tc := ⟨.hbm, 1452, rfl⟩
abbrev main_v1275 : Ref sig .tc := ⟨.hbm, 1453, rfl⟩
abbrev main_v1276 : Ref sig .tc := ⟨.hbm, 1454, rfl⟩
abbrev main_cst_161 : Ref sig .tc := ⟨.hbm, 1455, rfl⟩
abbrev main_v1277 : Ref sig .tc := ⟨.hbm, 1456, rfl⟩
abbrev main_v1278 : Ref sig .tc := ⟨.hbm, 1457, rfl⟩
abbrev main_v1279 : Ref sig .tc := ⟨.hbm, 1458, rfl⟩
abbrev main_v1280 : Ref sig .tc := ⟨.hbm, 1459, rfl⟩
abbrev main_v1281 : Ref sig .tc := ⟨.hbm, 1460, rfl⟩
abbrev main_v1282 : Ref sig .tc := ⟨.hbm, 1461, rfl⟩
abbrev main_v1283 : Ref sig .tc := ⟨.hbm, 1462, rfl⟩
abbrev main_v1284 : Ref sig .tc := ⟨.hbm, 1463, rfl⟩
abbrev main_v1285 : Ref sig .tc := ⟨.hbm, 1464, rfl⟩
abbrev main_v1286 : Ref sig .tc := ⟨.hbm, 1465, rfl⟩
abbrev main_v1287 : Ref sig .tc := ⟨.hbm, 1466, rfl⟩
abbrev main_v1288 : Ref sig .tc := ⟨.hbm, 1467, rfl⟩
abbrev main_v1289 : Ref sig .tc := ⟨.hbm, 1468, rfl⟩
abbrev main_v1290 : Ref sig .tc := ⟨.hbm, 1469, rfl⟩
abbrev main_v1291 : Ref sig .tc := ⟨.hbm, 1470, rfl⟩
abbrev main_v1292 : Ref sig .tc := ⟨.hbm, 1471, rfl⟩
abbrev main_v1293 : Ref sig .tc := ⟨.hbm, 1472, rfl⟩
abbrev main_v1294 : Ref sig .tc := ⟨.hbm, 1473, rfl⟩
abbrev main_v1295 : Ref sig .tc := ⟨.hbm, 1474, rfl⟩
abbrev main_v1296 : Ref sig .tc := ⟨.hbm, 1475, rfl⟩
abbrev main_v1297 : Ref sig .tc := ⟨.hbm, 1476, rfl⟩
abbrev main_v1298 : Ref sig .tc := ⟨.hbm, 1477, rfl⟩
abbrev main_v1299 : Ref sig .tc := ⟨.hbm, 1478, rfl⟩
abbrev main_v1300 : Ref sig .tc := ⟨.hbm, 1479, rfl⟩
abbrev main_cst_162 : Ref sig .tc := ⟨.hbm, 1480, rfl⟩
abbrev main_v1301 : Ref sig .tc := ⟨.hbm, 1481, rfl⟩
abbrev main_v1302 : Ref sig .tc := ⟨.hbm, 1482, rfl⟩
abbrev main_cst_163 : Ref sig .tc := ⟨.hbm, 1483, rfl⟩
abbrev main_v1303 : Ref sig .tc := ⟨.hbm, 1484, rfl⟩
abbrev main_v1304 : Ref sig .tc := ⟨.hbm, 1485, rfl⟩
abbrev main_v1305 : Ref sig .tc := ⟨.hbm, 1486, rfl⟩
abbrev main_v1306 : Ref sig .tc := ⟨.hbm, 1487, rfl⟩
abbrev main_v1307 : Ref sig .tc := ⟨.hbm, 1488, rfl⟩
abbrev main_cst_164 : Ref sig .tc := ⟨.hbm, 1489, rfl⟩
abbrev main_v1308 : Ref sig .tc := ⟨.hbm, 1490, rfl⟩
abbrev main_v1309 : Ref sig .tc := ⟨.hbm, 1491, rfl⟩
abbrev main_cst_165 : Ref sig .tc := ⟨.hbm, 1492, rfl⟩
abbrev main_v1310 : Ref sig .tc := ⟨.hbm, 1493, rfl⟩
abbrev main_v1311 : Ref sig .tc := ⟨.hbm, 1494, rfl⟩
abbrev main_v1312 : Ref sig .tc := ⟨.hbm, 1495, rfl⟩
abbrev main_v1313 : Ref sig .tc := ⟨.hbm, 1496, rfl⟩
abbrev main_v1314 : Ref sig .tc := ⟨.hbm, 1497, rfl⟩
abbrev main_cst_166 : Ref sig .tc := ⟨.hbm, 1498, rfl⟩
abbrev main_v1315 : Ref sig .tc := ⟨.hbm, 1499, rfl⟩
abbrev main_v1316 : Ref sig .tc := ⟨.hbm, 1500, rfl⟩
abbrev main_v1317 : Ref sig .tc := ⟨.hbm, 1501, rfl⟩
abbrev main_v1318 : Ref sig .tc := ⟨.hbm, 1502, rfl⟩
abbrev main_v1319 : Ref sig .tc := ⟨.hbm, 1503, rfl⟩
abbrev main_v1320 : Ref sig .tc := ⟨.hbm, 1504, rfl⟩
abbrev main_v1321 : Ref sig .tc := ⟨.hbm, 1505, rfl⟩
abbrev main_v1322 : Ref sig .tc := ⟨.hbm, 1506, rfl⟩
abbrev main_v1323 : Ref sig .tc := ⟨.hbm, 1507, rfl⟩
abbrev main_v1324 : Ref sig .tc := ⟨.hbm, 1508, rfl⟩
abbrev main_v1325 : Ref sig .tc := ⟨.hbm, 1509, rfl⟩
abbrev main_v1326 : Ref sig .tc := ⟨.hbm, 1510, rfl⟩
abbrev main_v1327 : Ref sig .tc := ⟨.hbm, 1511, rfl⟩
abbrev main_v1328 : Ref sig .tc := ⟨.hbm, 1512, rfl⟩
abbrev main_v1329 : Ref sig .tc := ⟨.hbm, 1513, rfl⟩
abbrev main_v1330 : Ref sig .tc := ⟨.hbm, 1514, rfl⟩
abbrev main_v1331 : Ref sig .tc := ⟨.hbm, 1515, rfl⟩
abbrev main_v1332 : Ref sig .tc := ⟨.hbm, 1516, rfl⟩
abbrev main_v1333 : Ref sig .tc := ⟨.hbm, 1517, rfl⟩
abbrev main_v1334 : Ref sig .tc := ⟨.hbm, 1518, rfl⟩
abbrev main_v1335 : Ref sig .tc := ⟨.hbm, 1519, rfl⟩
abbrev main_v1336 : Ref sig .tc := ⟨.hbm, 1520, rfl⟩
abbrev main_v1337 : Ref sig .tc := ⟨.hbm, 1521, rfl⟩
abbrev main_v1338 : Ref sig .tc := ⟨.hbm, 1522, rfl⟩
abbrev main_v1339 : Ref sig .tc := ⟨.hbm, 1523, rfl⟩
abbrev main_v1340 : Ref sig .tc := ⟨.hbm, 1524, rfl⟩
abbrev main_v1341 : Ref sig .tc := ⟨.hbm, 1525, rfl⟩
abbrev main_v1342 : Ref sig .tc := ⟨.hbm, 1526, rfl⟩
abbrev main_v1343 : Ref sig .tc := ⟨.hbm, 1527, rfl⟩
abbrev main_v1344 : Ref sig .tc := ⟨.hbm, 1528, rfl⟩
abbrev main_cst_167 : Ref sig .tc := ⟨.hbm, 1529, rfl⟩
abbrev main_v1345 : Ref sig .tc := ⟨.hbm, 1530, rfl⟩
abbrev main_v1346 : Ref sig .tc := ⟨.hbm, 1531, rfl⟩
abbrev main_cst_168 : Ref sig .tc := ⟨.hbm, 1532, rfl⟩
abbrev main_v1347 : Ref sig .tc := ⟨.hbm, 1533, rfl⟩
abbrev main_v1348 : Ref sig .tc := ⟨.hbm, 1534, rfl⟩
abbrev main_v1349 : Ref sig .tc := ⟨.hbm, 1535, rfl⟩
abbrev main_v1350 : Ref sig .tc := ⟨.hbm, 1536, rfl⟩
abbrev main_v1351 : Ref sig .tc := ⟨.hbm, 1537, rfl⟩
abbrev main_cst_169 : Ref sig .tc := ⟨.hbm, 1538, rfl⟩
abbrev main_v1352 : Ref sig .tc := ⟨.hbm, 1539, rfl⟩
abbrev main_v1353 : Ref sig .tc := ⟨.hbm, 1540, rfl⟩
abbrev main_cst_170 : Ref sig .tc := ⟨.hbm, 1541, rfl⟩
abbrev main_v1354 : Ref sig .tc := ⟨.hbm, 1542, rfl⟩
abbrev main_v1355 : Ref sig .tc := ⟨.hbm, 1543, rfl⟩
abbrev main_v1356 : Ref sig .tc := ⟨.hbm, 1544, rfl⟩
abbrev main_v1357 : Ref sig .tc := ⟨.hbm, 1545, rfl⟩
abbrev main_v1358 : Ref sig .tc := ⟨.hbm, 1546, rfl⟩
abbrev main_cst_171 : Ref sig .tc := ⟨.hbm, 1547, rfl⟩
abbrev main_v1359 : Ref sig .tc := ⟨.hbm, 1548, rfl⟩
abbrev main_v1360 : Ref sig .tc := ⟨.hbm, 1549, rfl⟩
abbrev main_v1361 : Ref sig .tc := ⟨.hbm, 1550, rfl⟩
abbrev main_v1362 : Ref sig .tc := ⟨.hbm, 1551, rfl⟩
abbrev main_v1363 : Ref sig .tc := ⟨.hbm, 1552, rfl⟩
abbrev main_v1364 : Ref sig .tc := ⟨.hbm, 1553, rfl⟩
abbrev main_v1365 : Ref sig .tc := ⟨.hbm, 1554, rfl⟩
abbrev main_v1366 : Ref sig .tc := ⟨.hbm, 1555, rfl⟩
abbrev main_v1367 : Ref sig .tc := ⟨.hbm, 1556, rfl⟩
abbrev main_v1368 : Ref sig .tc := ⟨.hbm, 1557, rfl⟩
abbrev main_v1369 : Ref sig .tc := ⟨.hbm, 1558, rfl⟩
abbrev main_v1370 : Ref sig .tc := ⟨.hbm, 1559, rfl⟩
abbrev main_v1371 : Ref sig .tc := ⟨.hbm, 1560, rfl⟩
abbrev main_v1372 : Ref sig .tc := ⟨.hbm, 1561, rfl⟩
abbrev main_v1373 : Ref sig .tc := ⟨.hbm, 1562, rfl⟩
abbrev main_v1374 : Ref sig .tc := ⟨.hbm, 1563, rfl⟩
abbrev main_v1375 : Ref sig .tc := ⟨.hbm, 1564, rfl⟩
abbrev main_v1376 : Ref sig .tc := ⟨.hbm, 1565, rfl⟩
abbrev main_v1377 : Ref sig .tc := ⟨.hbm, 1566, rfl⟩
abbrev main_v1378 : Ref sig .tc := ⟨.hbm, 1567, rfl⟩
abbrev main_v1379 : Ref sig .tc := ⟨.hbm, 1568, rfl⟩
abbrev main_v1380 : Ref sig .tc := ⟨.hbm, 1569, rfl⟩
abbrev main_v1381 : Ref sig .tc := ⟨.hbm, 1570, rfl⟩
abbrev main_v1382 : Ref sig .tc := ⟨.hbm, 1571, rfl⟩
abbrev main_cst_172 : Ref sig .tc := ⟨.hbm, 1572, rfl⟩
abbrev main_v1383 : Ref sig .tc := ⟨.hbm, 1573, rfl⟩
abbrev main_v1384 : Ref sig .tc := ⟨.hbm, 1574, rfl⟩
abbrev main_cst_173 : Ref sig .tc := ⟨.hbm, 1575, rfl⟩
abbrev main_v1385 : Ref sig .tc := ⟨.hbm, 1576, rfl⟩
abbrev main_v1386 : Ref sig .tc := ⟨.hbm, 1577, rfl⟩
abbrev main_v1387 : Ref sig .tc := ⟨.hbm, 1578, rfl⟩
abbrev main_v1388 : Ref sig .tc := ⟨.hbm, 1579, rfl⟩
abbrev main_v1389 : Ref sig .tc := ⟨.hbm, 1580, rfl⟩
abbrev main_cst_174 : Ref sig .tc := ⟨.hbm, 1581, rfl⟩
abbrev main_v1390 : Ref sig .tc := ⟨.hbm, 1582, rfl⟩
abbrev main_v1391 : Ref sig .tc := ⟨.hbm, 1583, rfl⟩
abbrev main_cst_175 : Ref sig .tc := ⟨.hbm, 1584, rfl⟩
abbrev main_v1392 : Ref sig .tc := ⟨.hbm, 1585, rfl⟩
abbrev main_v1393 : Ref sig .tc := ⟨.hbm, 1586, rfl⟩
abbrev main_v1394 : Ref sig .tc := ⟨.hbm, 1587, rfl⟩
abbrev main_v1395 : Ref sig .tc := ⟨.hbm, 1588, rfl⟩
abbrev main_v1396 : Ref sig .tc := ⟨.hbm, 1589, rfl⟩
abbrev main_cst_176 : Ref sig .tc := ⟨.hbm, 1590, rfl⟩
abbrev main_v1397 : Ref sig .tc := ⟨.hbm, 1591, rfl⟩
abbrev main_v1398 : Ref sig .tc := ⟨.hbm, 1592, rfl⟩
abbrev main_v1399 : Ref sig .tc := ⟨.hbm, 1593, rfl⟩
abbrev main_v1400 : Ref sig .tc := ⟨.hbm, 1594, rfl⟩
abbrev main_v1401 : Ref sig .tc := ⟨.hbm, 1595, rfl⟩
abbrev main_v1402 : Ref sig .tc := ⟨.hbm, 1596, rfl⟩
abbrev main_v1403 : Ref sig .tc := ⟨.hbm, 1597, rfl⟩
abbrev main_v1404 : Ref sig .tc := ⟨.hbm, 1598, rfl⟩
abbrev main_v1405 : Ref sig .tc := ⟨.hbm, 1599, rfl⟩
abbrev main_v1406 : Ref sig .tc := ⟨.hbm, 1600, rfl⟩
abbrev main_v1407 : Ref sig .tc := ⟨.hbm, 1601, rfl⟩
abbrev main_v1408 : Ref sig .tc := ⟨.hbm, 1602, rfl⟩
abbrev main_v1409 : Ref sig .tc := ⟨.hbm, 1603, rfl⟩
abbrev main_v1410 : Ref sig .tc := ⟨.hbm, 1604, rfl⟩
abbrev main_v1411 : Ref sig .tc := ⟨.hbm, 1605, rfl⟩
abbrev main_v1412 : Ref sig .tc := ⟨.hbm, 1606, rfl⟩
abbrev main_v1413 : Ref sig .tc := ⟨.hbm, 1607, rfl⟩
abbrev main_v1414 : Ref sig .tc := ⟨.hbm, 1608, rfl⟩
abbrev main_v1415 : Ref sig .tc := ⟨.hbm, 1609, rfl⟩
abbrev main_v1416 : Ref sig .tc := ⟨.hbm, 1610, rfl⟩
abbrev main_v1417 : Ref sig .tc := ⟨.hbm, 1611, rfl⟩
abbrev main_v1418 : Ref sig .tc := ⟨.hbm, 1612, rfl⟩
abbrev main_v1419 : Ref sig .tc := ⟨.hbm, 1613, rfl⟩
abbrev main_v1420 : Ref sig .tc := ⟨.hbm, 1614, rfl⟩
abbrev main_cst_177 : Ref sig .tc := ⟨.hbm, 1615, rfl⟩
abbrev main_v1421 : Ref sig .tc := ⟨.hbm, 1616, rfl⟩
abbrev main_v1422 : Ref sig .tc := ⟨.hbm, 1617, rfl⟩
abbrev main_cst_178 : Ref sig .tc := ⟨.hbm, 1618, rfl⟩
abbrev main_v1423 : Ref sig .tc := ⟨.hbm, 1619, rfl⟩
abbrev main_v1424 : Ref sig .tc := ⟨.hbm, 1620, rfl⟩
abbrev main_v1425 : Ref sig .tc := ⟨.hbm, 1621, rfl⟩
abbrev main_v1426 : Ref sig .tc := ⟨.hbm, 1622, rfl⟩
abbrev main_v1427 : Ref sig .tc := ⟨.hbm, 1623, rfl⟩
abbrev main_cst_179 : Ref sig .tc := ⟨.hbm, 1624, rfl⟩
abbrev main_v1428 : Ref sig .tc := ⟨.hbm, 1625, rfl⟩
abbrev main_v1429 : Ref sig .tc := ⟨.hbm, 1626, rfl⟩
abbrev main_cst_180 : Ref sig .tc := ⟨.hbm, 1627, rfl⟩
abbrev main_v1430 : Ref sig .tc := ⟨.hbm, 1628, rfl⟩
abbrev main_v1431 : Ref sig .tc := ⟨.hbm, 1629, rfl⟩
abbrev main_v1432 : Ref sig .tc := ⟨.hbm, 1630, rfl⟩
abbrev main_v1433 : Ref sig .tc := ⟨.hbm, 1631, rfl⟩
abbrev main_v1434 : Ref sig .tc := ⟨.hbm, 1632, rfl⟩
abbrev main_cst_181 : Ref sig .tc := ⟨.hbm, 1633, rfl⟩
abbrev main_v1435 : Ref sig .tc := ⟨.hbm, 1634, rfl⟩
abbrev main_v1436 : Ref sig .tc := ⟨.hbm, 1635, rfl⟩
abbrev main_v1437 : Ref sig .tc := ⟨.hbm, 1636, rfl⟩
abbrev main_v1438 : Ref sig .tc := ⟨.hbm, 1637, rfl⟩
abbrev main_v1439 : Ref sig .tc := ⟨.hbm, 1638, rfl⟩
abbrev main_v1440 : Ref sig .tc := ⟨.hbm, 1639, rfl⟩
abbrev main_v1441 : Ref sig .tc := ⟨.hbm, 1640, rfl⟩
abbrev main_v1442 : Ref sig .tc := ⟨.hbm, 1641, rfl⟩
abbrev main_v1443 : Ref sig .tc := ⟨.hbm, 1642, rfl⟩
abbrev main_v1444 : Ref sig .tc := ⟨.hbm, 1643, rfl⟩
abbrev main_v1445 : Ref sig .tc := ⟨.hbm, 1644, rfl⟩
abbrev main_v1446 : Ref sig .tc := ⟨.hbm, 1645, rfl⟩
abbrev main_v1447 : Ref sig .tc := ⟨.hbm, 1646, rfl⟩
abbrev main_v1448 : Ref sig .tc := ⟨.hbm, 1647, rfl⟩
abbrev main_v1449 : Ref sig .tc := ⟨.hbm, 1648, rfl⟩
abbrev main_v1450 : Ref sig .tc := ⟨.hbm, 1649, rfl⟩
abbrev main_v1451 : Ref sig .tc := ⟨.hbm, 1650, rfl⟩
abbrev main_v1452 : Ref sig .tc := ⟨.hbm, 1651, rfl⟩
abbrev main_v1453 : Ref sig .tc := ⟨.hbm, 1652, rfl⟩
abbrev main_v1454 : Ref sig .tc := ⟨.hbm, 1653, rfl⟩
abbrev main_v1455 : Ref sig .tc := ⟨.hbm, 1654, rfl⟩
abbrev main_v1456 : Ref sig .tc := ⟨.hbm, 1655, rfl⟩
abbrev main_v1457 : Ref sig .tc := ⟨.hbm, 1656, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  slices_S8x8192x2_S1x8192x2_7_0_0 : S8x8192x2.Slices ![7, 0, 0] S1x8192x2
  shapeCasts_S1x8192x2_S8192x2 : S1x8192x2.ShapeCasts S8192x2
  concatenates_S8192x512_S8192x2_S8192x514_d1 : Shape.Concatenates [S8192x512, S8192x2] S8192x514 1
  transposes_S768x514_S514x768_1_0 : S768x514.Transposes [1, 0] S514x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  transposes_S768x256_S256x768_1_0 : S768x256.Transposes [1, 0] S256x768
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  transposes_S2x256_S256x2_1_0 : S2x256.Transposes [1, 0] S256x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S8192x2_S1x8192x2_1_2 : S8192x2.BroadcastsInDim S1x8192x2 (![1, 2] : Fin 2 → Fin S1x8192x2.rank)
  concatenates_S1x8192x2_S1x8192x2_S1x8192x2_S1x8192x2_S1x8192x2_S1x8192x2_S1x8192x2_S1x8192x2_S1x8192x2_S1x8192x2_S1x8192x2_S1x8192x2_S12x8192x2_d0 : Shape.Concatenates [S1x8192x2, S1x8192x2, S1x8192x2, S1x8192x2, S1x8192x2, S1x8192x2, S1x8192x2, S1x8192x2, S1x8192x2, S1x8192x2, S1x8192x2, S1x8192x2] S12x8192x2 0
  dot_S8192x514_S514x768_S8192x768_1_0_0_1_n_n_wf : DotDims.WF S8192x514 S514x768 S8192x768 [1] [0] [0] [1] [] []
  dot_S8192x256_S256x768_S8192x768_1_0_0_1_n_n_wf : DotDims.WF S8192x256 S256x768 S8192x768 [1] [0] [0] [1] [] []
  dot_S8192x256_S256x2_S8192x2_1_0_0_1_n_n_wf : DotDims.WF S8192x256 S256x2 S8192x2 [1] [0] [0] [1] [] []

variable [Facts₀]

def dot_S8192x514_S514x768_S8192x768_1_0_0_1_n_n : DotDims S8192x514 S514x768 S8192x768 where
  lhsContracting := [1]
  rhsContracting := [0]
  lhsNonContracting := [0]
  rhsNonContracting := [1]
  lhsBatch := []
  rhsBatch := []
  wf := dot_S8192x514_S514x768_S8192x768_1_0_0_1_n_n_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf

class Facts : Prop extends Facts₀ where

variable [Facts]
-- ==== Proof.Tile.lean ====
/-
  One batch tile of 2048 rows, as the kernel's body computes it: the same recurrence as a row's, on whole blocks.

  The body keeps three hidden blocks (2048 × 256) and the current position block (2048 × 2). Before the steps it forms
  once the context's share of the first cell's input-side pre-activation, the product of the tile's context block
  (2048 × 512) with the context columns of the first cell's input matrix plus the input bias; each step adds to it the
  position's share, the two position columns times the matrix's last two columns. The three cells and the read-out
  follow; the read-out is two lane sums, one per output column, joined side by side plus the read-out bias. Step `t`
  writes its position block into columns `2t, 2t + 1` of the tile's output block and feeds it to step `t + 1`.

  Every definition here is the body's operations in the body's order, so that the run's pieces are these terms.
-/
import proofs.«419133_j59072980189901_3_alg».proof.Proof.Gen.KernelIdeal

noncomputable section

namespace Cert.KernelIdeal.Tile

open Idealize.ShloMosaic Cert.KernelIdeal Cert.KernelIdeal.Gen

variable {F : FTy → Type} [FloatOps F]

/-- A bias vector laid out as one row. -/
abbrev biasRow (b : Vec F S768 .f32) : FVec F S1x768 .f32 := shapeCast S1x768 b shapeCasts_S768_S1x768

/-- The hidden-side or input-side pre-activation of a cell from a hidden block: the block, narrowed to the matrix's
    format, times the transposed matrix, plus the bias on every row. -/
abbrev pre (x : FVec F S2048x256 .bf16) (wT : FVec F S256x768 .bf16) (b : FVec F S1x768 .f32) : FVec F S2048x768 .f32 :=
  addf (matmul dot_S2048x256_S256x768_S2048x768_1_0_0_1_n_n none x wT (constant S2048x768 .f32 0x00000000#32))
    (broadcastTo S2048x768 b broadcasts_S1x768_S2048x768)

/-- The gated cell on blocks: reset and update gates from the first two thirds of the two pre-activations, the
    candidate from the last third, and the convex mix with the previous hidden block. -/
abbrev cell (gi gh : FVec F S2048x768 .f32) (h : Vec F S2048x256 .f32) : FVec F S2048x256 .f32 :=
  addf
    (mulf
      (subf (broadcast S2048x256 (Scalar.ofBits .f32 0x3F800000#32))
        (logistic (addf (extractStridedSlice S2048x256 ![0, 256] gi slices_S2048x768_o0_256_S2048x256)
          (extractStridedSlice S2048x256 ![0, 256] gh slices_S2048x768_o0_256_S2048x256))))
      (tanh (addf (extractStridedSlice S2048x256 ![0, 512] gi slices_S2048x768_o0_512_S2048x256)
        (mulf
          (logistic (addf (extractStridedSlice S2048x256 ![0, 0] gi slices_S2048x768_o0_0_S2048x256)
            (extractStridedSlice S2048x256 ![0, 0] gh slices_S2048x768_o0_0_S2048x256)))
          (extractStridedSlice S2048x256 ![0, 512] gh slices_S2048x768_o0_512_S2048x256)))))
    (mulf
      (logistic (addf (extractStridedSlice S2048x256 ![0, 256] gi slices_S2048x768_o0_256_S2048x256)
        (extractStridedSlice S2048x256 ![0, 256] gh slices_S2048x768_o0_256_S2048x256)))
      h)

/-- The context's share of the first cell's input-side pre-activation, with the input bias: formed once per tile. -/
abbrev ctxShare (ctx : FVec F S2048x512 .bf16) (wcT : FVec F S512x768 .bf16) (bi0 : Vec F S768 .f32) : FVec F S2048x768 .f32 :=
  addf (matmul dot_S2048x512_S512x768_S2048x768_1_0_0_1_n_n none ctx wcT (constant S2048x768 .f32 0x00000000#32))
    (broadcastTo S2048x768 (biasRow bi0) broadcasts_S1x768_S2048x768)

/-- The position's share: each of the two position columns times the matching row of the position weights. -/
abbrev posShare (pos : FVec F S2048x2 .f32) (wpT : FVec F S2x768 .f32) : FVec F S2048x768 .f32 :=
  addf
    (mulf (broadcastTo S2048x768 (extractStridedSlice S2048x1 ![0, 0] pos slices_S2048x2_o0_0_S2048x1) broadcasts_S2048x1_S2048x768)
      (broadcastTo S2048x768 (extractStridedSlice S1x768 ![0, 0] wpT slices_S2x768_o0_0_S1x768) broadcasts_S1x768_S2048x768))
    (mulf (broadcastTo S2048x768 (extractStridedSlice S2048x1 ![0, 1] pos slices_S2048x2_o0_1_S2048x1) broadcasts_S2048x1_S2048x768)
      (broadcastTo S2048x768 (extractStridedSlice S1x768 ![1, 0] wpT slices_S2x768_o1_0_S1x768) broadcasts_S1x768_S2048x768))

/-- One output column of the read-out: the lane sum of the top hidden block times one row of the read-out matrix. -/
abbrev laneDot (h : FVec F S2048x256 .f32) (w : FVec F S1x256 .f32) : FVec F S2048x1 .f32 :=
  shapeCast S2048x1
    (multiReduction .add [1] S2048 (mulf h (broadcastTo S2048x256 w broadcasts_S1x256_S2048x256)) 0x00000000#32
      reduces_S2048x256_S2048 (.inl rfl) rfl)
    shapeCasts_S2048_S2048x1

/-- The read-out: the two columns side by side, plus the read-out bias on every row. -/
abbrev readOut (h : FVec F S2048x256 .f32) (wo : Vec F S2x256 .f32) (bo : Vec F S2 .f32) : FVec F S2048x2 .f32 :=
  addf
    (concatenate S2048x2 1
      [⟨S2048x1, laneDot h (extractStridedSlice S1x256 ![0, 0] wo slices_S2x256_o0_0_S1x256)⟩,
       ⟨S2048x1, laneDot h (extractStridedSlice S1x256 ![1, 0] wo slices_S2x256_o1_0_S1x256)⟩]
      concatenates_S2048x1_S2048x1_S2048x2_d1)
    (broadcastTo S2048x2 (shapeCast S1x2 bo shapeCasts_S2_S1x2) broadcasts_S1x2_S2048x2)

/-- The tile's input blocks, in the order the body takes them. -/
structure Blocks (F : FTy → Type) where
  ctx : Vec F S2048x512 .bf16
  pos0 : Vec F S2048x2 .f32
  wcT : Vec F S512x768 .bf16
  wpT : Vec F S2x768 .f32
  wh0T : Vec F S256x768 .bf16
  bi0 : Vec F S768 .f32
  bh0 : Vec F S768 .f32
  wi1T : Vec F S256x768 .bf16
  wh1T : Vec F S256x768 .bf16
  bi1 : Vec F S768 .f32
  bh1 : Vec F S768 .f32
  wi2T : Vec F S256x768 .bf16
  wh2T : Vec F S256x768 .bf16
  bi2 : Vec F S768 .f32
  bh2 : Vec F S768 .f32
  wo : Vec F S2x256 .f32
  bo : Vec F S2 .f32

/-- What the tile carries from step to step. -/
structure St (F : FTy → Type) where
  h0 : Vec F S2048x256 .f32
  h1 : Vec F S2048x256 .f32
  h2 : Vec F S2048x256 .f32
  pos : FVec F S2048x2 .f32

variable (B : Blocks F)

/-- A hidden block as the body stores it: laid out again in its own shape, which changes nothing. -/
abbrev stored (x : FVec F S2048x256 .f32) : FVec F S2048x256 .f32 := shapeCast S2048x256 x shapeCasts_S2048x256_S2048x256

/-- The context's share as the body keeps it for all twelve steps (the loaded blocks and the kept block each laid out
    again in their own shapes). -/
abbrev keptShare : FVec F S2048x768 .f32 :=
  shapeCast S2048x768
    (ctxShare (shapeCast S2048x512 B.ctx shapeCasts_S2048x512_S2048x512) (shapeCast S512x768 B.wcT shapeCasts_S512x768_S512x768) B.bi0)
    shapeCasts_S2048x768_S2048x768

/-- The first cell's new hidden block. -/
abbrev next0 (s : St F) : FVec F S2048x256 .f32 :=
  cell (addf (keptShare B) (posShare s.pos (shapeCast S2x768 B.wpT shapeCasts_S2x768_S2x768)))
    (pre (truncf .bf16 s.h0 bitsLt_bf16_f32) (shapeCast S256x768 B.wh0T shapeCasts_S256x768_S256x768) (biasRow B.bh0)) s.h0
/-- The second cell's. -/
abbrev next1 (s : St F) : FVec F S2048x256 .f32 :=
  cell (pre (truncf .bf16 (next0 B s) bitsLt_bf16_f32) (shapeCast S256x768 B.wi1T shapeCasts_S256x768_S256x768) (biasRow B.bi1))
    (pre (truncf .bf16 s.h1 bitsLt_bf16_f32) (shapeCast S256x768 B.wh1T shapeCasts_S256x768_S256x768) (biasRow B.bh1)) s.h1
/-- The third cell's. -/
abbrev next2 (s : St F) : FVec F S2048x256 .f32 :=
  cell (pre (truncf .bf16 (next1 B s) bitsLt_bf16_f32) (shapeCast S256x768 B.wi2T shapeCasts_S256x768_S256x768) (biasRow B.bi2))
    (pre (truncf .bf16 s.h2 bitsLt_bf16_f32) (shapeCast S256x768 B.wh2T shapeCasts_S256x768_S256x768) (biasRow B.bh2)) s.h2

/-- One step of the tile: the three new hidden blocks as stored, and the new position block. -/
def step (s : St F) : St F where
  h0 := stored (next0 B s)
  h1 := stored (next1 B s)
  h2 := stored (next2 B s)
  pos := readOut (next2 B s) B.wo B.bo

/-- The tile before the first step: zero hidden blocks as stored, the tile's block of last observed positions. -/
def start : St F :=
  ⟨stored (broadcast S2048x256 (Scalar.ofBits .f32 0x00000000#32)), stored (broadcast S2048x256 (Scalar.ofBits .f32 0x00000000#32)),
    stored (broadcast S2048x256 (Scalar.ofBits .f32 0x00000000#32)), shapeCast S2048x2 B.pos0 shapeCasts_S2048x2_S2048x2⟩

/-- The tile after `n` steps. -/
def after : Nat → St F
  | 0 => start B
  | n + 1 => step B (after n)

end Cert.KernelIdeal.Tile

end
-- ==== Proof.TilePieces.lean ====
/-
  What the body leaves in a tile's output block.

  The body writes step `t`'s position block (2048 × 2) into columns `2t` and `2t + 1` of the output block (2048 × 24),
  for `t = 0 … 11`; the twelve column pairs tile the block. Every load the body makes reads either an input block as
  the body found it or the latest whole-block store of a kept block, so the stored position blocks are the tile
  recurrence's, and the output block is one function of its index: column `c` holds coordinate `c % 2` of the position
  after `c / 2 + 1` steps.
-/
import proofs.«419133_j59072980189901_3_alg».proof.Proof.Gen.KernelIdeal.Frame
import proofs.«419133_j59072980189901_3_alg».proof.Proof.Tile
import Idealize.ShloMosaic.Lib.Pipeline.Value
import Idealize.ShloMosaic.Lib.ValueIdx
import Idealize.ShloMosaic.Lib.Tactic

noncomputable section

namespace Cert.KernelIdeal.Value

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- A whole-buffer load after a list of stores whose latest is a whole-buffer store reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The twelve stores into the output block, latest first: step `t`'s position block through columns `2t, 2t + 1`. -/
def pieces (B : Tile.Blocks F) : List (View.Piece (Elt F) S2048x24 .f32) :=
  [⟨Rect.unit (s := S2048x24) ![0, 22] S2048x2.size inb_S2048x24_S2048x2_0_22, (Tile.after B 12).pos⟩,
   ⟨Rect.unit (s := S2048x24) ![0, 20] S2048x2.size inb_S2048x24_S2048x2_0_20, (Tile.after B 11).pos⟩,
   ⟨Rect.unit (s := S2048x24) ![0, 18] S2048x2.size inb_S2048x24_S2048x2_0_18, (Tile.after B 10).pos⟩,
   ⟨Rect.unit (s := S2048x24) ![0, 16] S2048x2.size inb_S2048x24_S2048x2_0_16, (Tile.after B 9).pos⟩,
   ⟨Rect.unit (s := S2048x24) ![0, 14] S2048x2.size inb_S2048x24_S2048x2_0_14, (Tile.after B 8).pos⟩,
   ⟨Rect.unit (s := S2048x24) ![0, 12] S2048x2.size inb_S2048x24_S2048x2_0_12, (Tile.after B 7).pos⟩,
   ⟨Rect.unit (s := S2048x24) ![0, 10] S2048x2.size inb_S2048x24_S2048x2_0_10, (Tile.after B 6).pos⟩,
   ⟨Rect.unit (s := S2048x24) ![0, 8] S2048x2.size inb_S2048x24_S2048x2_0_8, (Tile.after B 5).pos⟩,
   ⟨Rect.unit (s := S2048x24) ![0, 6] S2048x2.size inb_S2048x24_S2048x2_0_6, (Tile.after B 4).pos⟩,
   ⟨Rect.unit (s := S2048x24) ![0, 4] S2048x2.size inb_S2048x24_S2048x2_0_4, (Tile.after B 3).pos⟩,
   ⟨Rect.unit (s := S2048x24) ![0, 2] S2048x2.size inb_S2048x24_S2048x2_0_2, (Tile.after B 2).pos⟩,
   ⟨Rect.unit (s := S2048x24) ![0, 0] S2048x2.size inb_S2048x24_S2048x2_0_0, (Tile.after B 1).pos⟩]

set_option maxRecDepth 65536 in
set_option maxHeartbeats 8000000 in
/-- The run's pieces are those: every load reads an input block or the latest whole store of a kept block. -/
theorem run_pieces (c : Dev nD) (i : grid0.Coords) (arg1 : Memref sig .tc .vmem S2048x512 .bf16) (harg1 : arg1.IsWhole) (arg2 : Memref sig .tc .vmem S2048x2 .f32) (harg2 : arg2.IsWhole) (arg3 : Memref sig .tc .vmem S512x768 .bf16) (harg3 : arg3.IsWhole) (arg4 : Memref sig .tc .vmem S2x768 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S768 .f32) (harg7 : arg7.IsWhole) (arg8 : Memref sig .tc .vmem S256x768 .bf16) (harg8 : arg8.IsWhole) (arg9 : Memref sig .tc .vmem S256x768 .bf16) (harg9 : arg9.IsWhole) (arg10 : Memref sig .tc .vmem S768 .f32) (harg10 : arg10.IsWhole) (arg11 : Memref sig .tc .vmem S768 .f32) (harg11 : arg11.IsWhole) (arg12 : Memref sig .tc .vmem S256x768 .bf16) (harg12 : arg12.IsWhole) (arg13 : Memref sig .tc .vmem S256x768 .bf16) (harg13 : arg13.IsWhole) (arg14 : Memref sig .tc .vmem S768 .f32) (harg14 : arg14.IsWhole) (arg15 : Memref sig .tc .vmem S768 .f32) (harg15 : arg15.IsWhole) (arg16 : Memref sig .tc .vmem S2x256 .f32) (harg16 : arg16.IsWhole) (arg17 : Memref sig .tc .vmem S2 .f32) (harg17 : arg17.IsWhole) (arg18 : Memref sig .tc .vmem S2048x24 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2048x256 .f32) (harg21 : arg21.IsWhole) (arg22 : Memref sig .tc .vmem S2048x768 .f32) (harg22 : arg22.IsWhole)
    (x0 : Vec F S2048x512 .bf16) (x1 : Vec F S2048x2 .f32) (x2 : Vec F S512x768 .bf16) (x3 : Vec F S2x768 .f32) (x4 : Vec F S256x768 .bf16) (x5 : Vec F S768 .f32) (x6 : Vec F S768 .f32) (x7 : Vec F S256x768 .bf16) (x8 : Vec F S256x768 .bf16) (x9 : Vec F S768 .f32) (x10 : Vec F S768 .f32) (x11 : Vec F S256x768 .bf16) (x12 : Vec F S256x768 .bf16) (x13 : Vec F S768 .f32) (x14 : Vec F S768 .f32) (x15 : Vec F S2x256 .f32) (x16 : Vec F S2 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).1
      = pieces ⟨x0, x1, x2, x3, x4, x5, x6, x7, x8, x9, x10, x11, x12, x13, x14, x15, x16⟩ := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S2048x512) zero2, View.ld_unit_zero (S := S2048x2) zero2, View.ld_unit_zero (S := S512x768) zero2, View.ld_unit_zero (S := S2x768) zero2, View.ld_unit_zero (S := S256x768) zero2, View.ld_unit_zero (S := S2x256) zero2, View.ld_unit_zero (S := S2048x256) zero2, View.ld_unit_zero (S := S2048x768) zero2, View.ld_unit_zero (S := S768) zero1, View.ld_unit_zero (S := S2) zero1, readCov_cons_unit_zero (S := S2048x256) _ zero2, readCov_cons_unit_zero (S := S2048x768) _ zero2]
  rfl

/-- The output block as one function of its index. -/
def tileOut (B : Tile.Blocks F) : Vec F S2048x24 .f32 := fun i =>
  (Tile.after B ((i 1).val / 2 + 1)).pos
    (ix2 (⟨(i 0).val, (i 0).isLt⟩ : Fin 2048) (⟨(i 1).val % 2, Nat.mod_lt _ (by decide)⟩ : Fin 2))

/-- The position block after `t + 1` steps is the output block's function on columns `2t, 2t + 1`. -/
theorem piece_eq (B : Tile.Blocks F) (t c : Nat) (hc : c = 2 * t) (inb : ∀ a, (![0, c] : Fin 2 → Nat) a + S2048x2.size a ≤ S2048x24.size a)
    (x : (Rect.unit (s := S2048x24) ![0, c] S2048x2.size inb).shape.Idx) :
    (Tile.after B (t + 1)).pos x = tileOut B ((Rect.unit (s := S2048x24) ![0, c] S2048x2.size inb).emb x) := by
  subst hc
  have key : ∀ (n : Nat) (j j' : S2048x2.Idx), n = t + 1 → j' = j → (Tile.after B (t + 1)).pos j = (Tile.after B n).pos j' := by
    rintro _ _ _ rfl rfl; rfl
  have h0 : (x 0).val < 2048 := (x 0).isLt
  have h1 : (x 1).val < 2 := (x 1).isLt
  have e0 : (((Rect.unit (s := S2048x24) ![0, 2 * t] S2048x2.size inb).emb x) 0).val = (x 0).val := by
    show 0 + 1 * (x 0).val = _; omega
  have e1 : (((Rect.unit (s := S2048x24) ![0, 2 * t] S2048x2.size inb).emb x) 1).val = 2 * t + (x 1).val := by
    show 2 * t + 1 * (x 1).val = _; omega
  unfold tileOut
  refine key _ x _ (by rw [e1]; omega) ?_
  funext a
  match a with
  | ⟨0, _⟩ => exact Fin.ext e0
  | ⟨1, _⟩ => exact Fin.ext (by show _ % 2 = (x 1).val; rw [e1]; omega)

/-- What the body leaves in the output block, for any input blocks. -/
theorem out_eq (c : Dev nD) (i : grid0.Coords) (arg1 : Memref sig .tc .vmem S2048x512 .bf16) (harg1 : arg1.IsWhole) (arg2 : Memref sig .tc .vmem S2048x2 .f32) (harg2 : arg2.IsWhole) (arg3 : Memref sig .tc .vmem S512x768 .bf16) (harg3 : arg3.IsWhole) (arg4 : Memref sig .tc .vmem S2x768 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S768 .f32) (harg7 : arg7.IsWhole) (arg8 : Memref sig .tc .vmem S256x768 .bf16) (harg8 : arg8.IsWhole) (arg9 : Memref sig .tc .vmem S256x768 .bf16) (harg9 : arg9.IsWhole) (arg10 : Memref sig .tc .vmem S768 .f32) (harg10 : arg10.IsWhole) (arg11 : Memref sig .tc .vmem S768 .f32) (harg11 : arg11.IsWhole) (arg12 : Memref sig .tc .vmem S256x768 .bf16) (harg12 : arg12.IsWhole) (arg13 : Memref sig .tc .vmem S256x768 .bf16) (harg13 : arg13.IsWhole) (arg14 : Memref sig .tc .vmem S768 .f32) (harg14 : arg14.IsWhole) (arg15 : Memref sig .tc .vmem S768 .f32) (harg15 : arg15.IsWhole) (arg16 : Memref sig .tc .vmem S2x256 .f32) (harg16 : arg16.IsWhole) (arg17 : Memref sig .tc .vmem S2 .f32) (harg17 : arg17.IsWhole) (arg18 : Memref sig .tc .vmem S2048x24 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2048x256 .f32) (harg21 : arg21.IsWhole) (arg22 : Memref sig .tc .vmem S2048x768 .f32) (harg22 : arg22.IsWhole)
    (x0 : Vec F S2048x512 .bf16) (x1 : Vec F S2048x2 .f32) (x2 : Vec F S512x768 .bf16) (x3 : Vec F S2x768 .f32) (x4 : Vec F S256x768 .bf16) (x5 : Vec F S768 .f32) (x6 : Vec F S768 .f32) (x7 : Vec F S256x768 .bf16) (x8 : Vec F S256x768 .bf16) (x9 : Vec F S768 .f32) (x10 : Vec F S768 .f32) (x11 : Vec F S256x768 .bf16) (x12 : Vec F S256x768 .bf16) (x13 : Vec F S768 .f32) (x14 : Vec F S768 .f32) (x15 : Vec F S2x256 .f32) (x16 : Vec F S2 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16
      = tileOut ⟨x0, x1, x2, x3, x4, x5, x6, x7, x8, x9, x10, x11, x12, x13, x14, x15, x16⟩ := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16)]
  have hcov := cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16
  rw [run_pieces] at hcov ⊢
  funext y
  refine View.canon_apply_of_pieces (tileOut _) _ ?_ y (hcov y)
  intro p hp
  simp only [pieces, List.mem_cons, List.mem_singleton, List.not_mem_nil, or_false] at hp
  rcases hp with rfl | rfl | rfl | rfl | rfl | rfl | rfl | rfl | rfl | rfl | rfl | rfl
  · exact piece_eq _ 11 22 rfl inb_S2048x24_S2048x2_0_22
  · exact piece_eq _ 10 20 rfl inb_S2048x24_S2048x2_0_20
  · exact piece_eq _ 9 18 rfl inb_S2048x24_S2048x2_0_18
  · exact piece_eq _ 8 16 rfl inb_S2048x24_S2048x2_0_16
  · exact piece_eq _ 7 14 rfl inb_S2048x24_S2048x2_0_14
  · exact piece_eq _ 6 12 rfl inb_S2048x24_S2048x2_0_12
  · exact piece_eq _ 5 10 rfl inb_S2048x24_S2048x2_0_10
  · exact piece_eq _ 4 8 rfl inb_S2048x24_S2048x2_0_8
  · exact piece_eq _ 3 6 rfl inb_S2048x24_S2048x2_0_6
  · exact piece_eq _ 2 4 rfl inb_S2048x24_S2048x2_0_4
  · exact piece_eq _ 1 2 rfl inb_S2048x24_S2048x2_0_2
  · exact piece_eq _ 0 0 rfl inb_S2048x24_S2048x2_0_0

end Cert.KernelIdeal.Value

end
-- ==== Proof.Recurrence.lean ====
/-
  The mathematics both programs compute, one batch row at a time, on the extended reals.

  A row carries three hidden vectors of length 256 and a position of length 2. One step feeds the row's fixed
  context (length 512) joined with the current position (length 514 in all) through three gated recurrent cells,
  the second and third taking the cell below as input, and reads the new position off the top cell by an affine
  map; that position is the step's result and the next step's input. Twelve steps from zero hidden vectors and
  the last observed position give the twelve results of the row.

  A cell: with input-side and hidden-side pre-activations `gi`, `gh` of length 768 = 3 · 256 (reset, update and
  candidate thirds), `r = σ(gi₀ + gh₀)`, `z = σ(gi₁ + gh₁)`, `n = tanh(gi₂ + r · gh₂)` and the new hidden vector is
  `(1 - z) · n + z · h`. Each pre-activation is an affine map `x ↦ W x + b`.
-/
import Idealize.ShloMosaic.PureOps.Ideal
import Idealize.ShloMosaic.Lib.ValueIdx

noncomputable section

open scoped BigOperators

namespace Cert.Recurrence

open Idealize.ShloMosaic Idealize.ShloMosaic.ValueIdx

/-- The number one, as both programs spell it. -/
abbrev one : EReal := Ideal.ofBits .f32 0x3F800000#32
/-- The number zero, as both programs spell it. -/
abbrev zero : EReal := Ideal.ofBits .f32 0x00000000#32

/-- The reset third of a length-768 pre-activation. -/
abbrev lo (j : Fin 256) : Fin 768 := ⟨j.val, by omega⟩
/-- The update third. -/
abbrev mid (j : Fin 256) : Fin 768 := ⟨256 + j.val, by omega⟩
/-- The candidate third. -/
abbrev hi (j : Fin 256) : Fin 768 := ⟨512 + j.val, by omega⟩

/-- `x ↦ W x + b` on a row: entry `j` is `∑ₖ xₖ · W j k`, plus `b j`. -/
def affine {K N : Nat} (W : Fin N → Fin K → EReal) (b : Fin N → EReal) (x : Fin K → EReal) (j : Fin N) : EReal :=
  (∑ k : Fin K, x k * W j k) + b j

/-- One gated recurrent cell on a row, from its two pre-activations and the previous hidden vector. -/
def gate (gi gh : Fin 768 → EReal) (h : Fin 256 → EReal) (j : Fin 256) : EReal :=
  (one - Ideal.logistic (gi (mid j) + gh (mid j)))
      * Ideal.tanh (gi (hi j) + Ideal.logistic (gi (lo j) + gh (lo j)) * gh (hi j))
    + Ideal.logistic (gi (mid j) + gh (mid j)) * h j

/-- The row's context joined with its current position: the first cell's input of length 514. -/
def joined (ctx : Fin 512 → EReal) (pos : Fin 2 → EReal) (k : Fin 514) : EReal :=
  if h : k.val < 512 then ctx ⟨k.val, h⟩ else pos ⟨k.val - 512, by omega⟩

/-- The weights: per cell the input-side and hidden-side matrices and biases, and the read-out's. -/
structure Weights where
  wi0 : Fin 768 → Fin 514 → EReal
  wh0 : Fin 768 → Fin 256 → EReal
  bi0 : Fin 768 → EReal
  bh0 : Fin 768 → EReal
  wi1 : Fin 768 → Fin 256 → EReal
  wh1 : Fin 768 → Fin 256 → EReal
  bi1 : Fin 768 → EReal
  bh1 : Fin 768 → EReal
  wi2 : Fin 768 → Fin 256 → EReal
  wh2 : Fin 768 → Fin 256 → EReal
  bi2 : Fin 768 → EReal
  bh2 : Fin 768 → EReal
  wo : Fin 2 → Fin 256 → EReal
  bo : Fin 2 → EReal

/-- What a row carries from step to step. -/
structure Row where
  h0 : Fin 256 → EReal
  h1 : Fin 256 → EReal
  h2 : Fin 256 → EReal
  pos : Fin 2 → EReal

/-- The first cell's new hidden vector. -/
def next0 (P : Weights) (ctx : Fin 512 → EReal) (s : Row) : Fin 256 → EReal :=
  gate (affine P.wi0 P.bi0 (joined ctx s.pos)) (affine P.wh0 P.bh0 s.h0) s.h0
/-- The second cell's, from the first cell's new vector. -/
def next1 (P : Weights) (ctx : Fin 512 → EReal) (s : Row) : Fin 256 → EReal :=
  gate (affine P.wi1 P.bi1 (next0 P ctx s)) (affine P.wh1 P.bh1 s.h1) s.h1
/-- The third cell's, from the second cell's new vector. -/
def next2 (P : Weights) (ctx : Fin 512 → EReal) (s : Row) : Fin 256 → EReal :=
  gate (affine P.wi2 P.bi2 (next1 P ctx s)) (affine P.wh2 P.bh2 s.h2) s.h2

/-- One step of the row. -/
def step (P : Weights) (ctx : Fin 512 → EReal) (s : Row) : Row where
  h0 := next0 P ctx s
  h1 := next1 P ctx s
  h2 := next2 P ctx s
  pos := affine P.wo P.bo (next2 P ctx s)

/-- The row before the first step: zero hidden vectors, the last observed position. -/
def start (pos0 : Fin 2 → EReal) : Row := ⟨fun _ => zero, fun _ => zero, fun _ => zero, pos0⟩

/-- The row after `n` steps. -/
def after (P : Weights) (ctx : Fin 512 → EReal) (pos0 : Fin 2 → EReal) : Nat → Row
  | 0 => start pos0
  | n + 1 => step P ctx (after P ctx pos0 n)

/-- Step `t`'s result for the row: the position after `t + 1` steps. -/
def result (P : Weights) (ctx : Fin 512 → EReal) (pos0 : Fin 2 → EReal) (t : Fin 12) : Fin 2 → EReal :=
  (after P ctx pos0 (t.val + 1)).pos

/-- The first cell's input-side pre-activation splits into the context's part with the bias and the position's two
    terms: the sum over 514 is the sum over the first 512 plus the last two, and sums regroup freely. -/
theorem affine_joined (W : Fin 768 → Fin 514 → EReal) (b : Fin 768 → EReal) (ctx : Fin 512 → EReal) (pos : Fin 2 → EReal)
    (j : Fin 768) :
    affine W b (joined ctx pos) j
      = ((∑ k : Fin 512, ctx k * W j ⟨k.val, by omega⟩) + b j)
          + (pos 0 * W j ⟨512, by omega⟩ + pos 1 * W j ⟨513, by omega⟩) := by
  unfold affine
  have hsplit : (∑ k : Fin 514, joined ctx pos k * W j k)
      = (∑ k : Fin 512, ctx k * W j ⟨k.val, by omega⟩) + (pos 0 * W j ⟨512, by omega⟩ + pos 1 * W j ⟨513, by omega⟩) := by
    refine (Fin.sum_univ_add (a := 512) (b := 2) (fun k : Fin (512 + 2) => joined ctx pos k * W j k)).trans ?_
    rw [Fin.sum_univ_two]
    congr 1
  rw [hsplit]
  exact add_right_comm _ _ _

/-! ## The whole batch, from the programs' sixteen argument arrays -/

/-- The argument arrays, as extended reals: the context (8192 × 512), the observed positions (8 × 8192 × 2), per cell
    the two weight matrices and the two biases, and the read-out's matrix and bias. -/
structure Arrays where
  ctx : (⟨2, ![8192, 512]⟩ : Shape).Idx → EReal
  obs : (⟨3, ![8, 8192, 2]⟩ : Shape).Idx → EReal
  wi0 : (⟨2, ![768, 514]⟩ : Shape).Idx → EReal
  wh0 : (⟨2, ![768, 256]⟩ : Shape).Idx → EReal
  bi0 : (⟨1, ![768]⟩ : Shape).Idx → EReal
  bh0 : (⟨1, ![768]⟩ : Shape).Idx → EReal
  wi1 : (⟨2, ![768, 256]⟩ : Shape).Idx → EReal
  wh1 : (⟨2, ![768, 256]⟩ : Shape).Idx → EReal
  bi1 : (⟨1, ![768]⟩ : Shape).Idx → EReal
  bh1 : (⟨1, ![768]⟩ : Shape).Idx → EReal
  wi2 : (⟨2, ![768, 256]⟩ : Shape).Idx → EReal
  wh2 : (⟨2, ![768, 256]⟩ : Shape).Idx → EReal
  bi2 : (⟨1, ![768]⟩ : Shape).Idx → EReal
  bh2 : (⟨1, ![768]⟩ : Shape).Idx → EReal
  wo : (⟨2, ![2, 256]⟩ : Shape).Idx → EReal
  bo : (⟨1, ![2]⟩ : Shape).Idx → EReal

/-- The weights, entry by entry. -/
def Arrays.weights (A : Arrays) : Weights where
  wi0 j k := A.wi0 (ix2 j k)
  wh0 j k := A.wh0 (ix2 j k)
  bi0 j := A.bi0 (ix1 j)
  bh0 j := A.bh0 (ix1 j)
  wi1 j k := A.wi1 (ix2 j k)
  wh1 j k := A.wh1 (ix2 j k)
  bi1 j := A.bi1 (ix1 j)
  bh1 j := A.bh1 (ix1 j)
  wi2 j k := A.wi2 (ix2 j k)
  wh2 j k := A.wh2 (ix2 j k)
  bi2 j := A.bi2 (ix1 j)
  bh2 j := A.bh2 (ix1 j)
  wo q k := A.wo (ix2 q k)
  bo q := A.bo (ix1 q)

/-- Batch row `R`'s context. -/
def Arrays.ctxRow (A : Arrays) (R : Fin 8192) : Fin 512 → EReal := fun k => A.ctx (ix2 R k)
/-- Batch row `R`'s last observed position: the eighth of the eight observations. -/
def Arrays.posRow (A : Arrays) (R : Fin 8192) : Fin 2 → EReal := fun q => A.obs (ix3 (7 : Fin 8) R q)

/-- What both programs return: entry `(t, R, q)` is coordinate `q` of batch row `R`'s result at step `t`. -/
def Arrays.value (A : Arrays) : (⟨3, ![12, 8192, 2]⟩ : Shape).Idx → EReal :=
  fun i => result A.weights (A.ctxRow (i 1)) (A.posRow (i 1)) (i 0) (i 2)

/-- The same, at an index given by its coordinates. -/
theorem Arrays.value_ix3 (A : Arrays) (t : Fin 12) (R : Fin 8192) (q : Fin 2) :
    A.value (ix3 t R q) = result A.weights (A.ctxRow R) (A.posRow R) t q := rfl

end Cert.Recurrence

end
-- ==== Proof.TilePre.lean ====
/-
  A tile's pre-activations, read at one row and one column.

  Row `r`, column `j` of a block times a transposed weight matrix is the sum over `k` of the block's entry `(r, k)`
  times the matrix's entry `(j, k)`; the bias, laid out as one row and repeated down the tile, adds `b j`. For the
  first cell the sum over the 514 joined inputs splits into the context's 512 terms, formed once with the bias, and
  the position's two terms, and sums regroup freely.
-/
import proofs.«419133_j59072980189901_3_alg».proof.Proof.Tile
import proofs.«419133_j59072980189901_3_alg».proof.Proof.Recurrence
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Recurrence

/-- The first cell's input matrix, put back together from its context columns and its two position columns (both
    held transposed). -/
def inputMatrix (wcT : Vec Ideal S512x768 .bf16) (wpT : Vec Ideal S2x768 .f32) (j : Fin 768) (k : Fin 514) : EReal :=
  if h : k.val < 512 then wcT (ix2 (⟨k.val, h⟩ : Fin 512) j) else wpT (ix2 (⟨k.val - 512, by omega⟩ : Fin 2) j)

/-- A block times a matrix with no batch axis, contracting the block's columns against the matrix's rows, into the
    zero splat: entry `(r, j)` is the sum over `c` of the block's `(r, c)` times the matrix's `(c, j)`. -/
private theorem matmul_zero_ix2 {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (r : Fin m) (j : Fin n) :
    matmul (⟨[1], [0], [0], [1], [], [], w⟩ : DotDims _ _ _) none A B (constant ⟨2, ![m, n]⟩ .f32 0x00000000#32) (ix2 r j)
      = ∑ c : Fin k, A (ix2 r c) * B (ix2 c j) := by
  let D : DotDims ⟨2, ![m, k]⟩ ⟨2, ![k, n]⟩ ⟨2, ![m, n]⟩ := ⟨[1], [0], [0], [1], [], [], w⟩
  show FloatOps.matmul D none A B (constant ⟨2, ![m, n]⟩ .f32 0x00000000#32) (ix2 r j) = _
  rw [Ideal.matmul_constant_zero_apply, ← Equiv.sum_comp (contrEquiv1 D k rfl rfl).symm]
  refine Finset.sum_congr rfl fun c _ => ?_
  have hc := contrEquiv1_symm_val D k rfl rfl c
  have hl : D.lhsIdx (ix2 r j) ((contrEquiv1 D k rfl rfl).symm c) = ix2 r c := by
    refine Shape.idx_ext₂ ?_ ?_
    · simp [DotDims.lhsIdx, D]; rfl
    · simp [DotDims.lhsIdx, D]; exact hc
  have hr : D.rhsIdx (ix2 r j) ((contrEquiv1 D k rfl rfl).symm c) = ix2 c j := by
    refine Shape.idx_ext₂ ?_ ?_
    · simp [DotDims.rhsIdx, D]; exact hc
    · simp [DotDims.rhsIdx, D]; rfl
  rw [hl, hr]

/-- A vector laid out as one row and repeated down the rows reads, at `(r, j)`, the vector's entry `j`. -/
private theorem biasRow_broadcast_apply (b : Vec Ideal S768 .f32) (r : Fin 2048) (j : Fin 768) :
    broadcastTo S2048x768 (biasRow b) broadcasts_S1x768_S2048x768 (ix2 r j) = b (ix1 j) := by
  have hrow : broadcastTo S2048x768 (biasRow b) broadcasts_S1x768_S2048x768 (ix2 r j)
      = biasRow b (ix2 (0 : Fin 1) j) := by
    refine broadcastTo_apply _ _ _ _ fun a => ?_
    match a with
    | ⟨0, _⟩ => rfl
    | ⟨1, _⟩ => rfl
  rw [hrow]
  show shapeCast (⟨1 + 1, Matrix.vecCons 1 ![768]⟩ : Shape) b shapeCasts_S768_S1x768 (ix2 (0 : Fin 1) j) = _
  rw [shapeCast_addUnit_apply]
  refine congrArg b (funext fun a => ?_)
  match a with
  | ⟨0, _⟩ => rfl

/-- A row of the position weights, repeated down the rows, reads at `(r, j)` the weights' entry `(q, j)`. -/
private theorem wpRow_broadcast_apply (wpT : FVec Ideal S2x768 .f32) (q : Fin 2) (h : S2x768.Slices ![q.val, 0] S1x768)
    (r : Fin 2048) (j : Fin 768) :
    broadcastTo S2048x768 (extractStridedSlice S1x768 ![q.val, 0] wpT h) broadcasts_S1x768_S2048x768 (ix2 r j)
      = wpT (ix2 q j) := by
  have hrow : broadcastTo S2048x768 (extractStridedSlice S1x768 ![q.val, 0] wpT h) broadcasts_S1x768_S2048x768 (ix2 r j)
      = extractStridedSlice S1x768 ![q.val, 0] wpT h (ix2 (0 : Fin 1) j) := by
    refine broadcastTo_apply _ _ _ _ fun a => ?_
    match a with
    | ⟨0, _⟩ => rfl
    | ⟨1, _⟩ => rfl
  rw [hrow]
  refine extractStridedSlice_apply _ _ _ _ _ fun a => ?_
  match a with
  | ⟨0, _⟩ => rfl
  | ⟨1, _⟩ => show j.val = 0 + j.val; omega

/-- A column of the position block, repeated along the columns, reads at `(r, j)` the block's entry `(r, q)`. -/
private theorem posCol_broadcast_apply (pos : FVec Ideal S2048x2 .f32) (q : Fin 2) (h : S2048x2.Slices ![0, q.val] S2048x1)
    (r : Fin 2048) (j : Fin 768) :
    broadcastTo S2048x768 (extractStridedSlice S2048x1 ![0, q.val] pos h) broadcasts_S2048x1_S2048x768 (ix2 r j)
      = pos (ix2 r q) := by
  have hcol : broadcastTo S2048x768 (extractStridedSlice S2048x1 ![0, q.val] pos h) broadcasts_S2048x1_S2048x768 (ix2 r j)
      = extractStridedSlice S2048x1 ![0, q.val] pos h (ix2 r (0 : Fin 1)) := by
    refine broadcastTo_apply _ _ _ _ fun a => ?_
    match a with
    | ⟨0, _⟩ => rfl
    | ⟨1, _⟩ => rfl
  rw [hcol]
  refine extractStridedSlice_apply _ _ _ _ _ fun a => ?_
  match a with
  | ⟨0, _⟩ => show r.val = 0 + r.val; omega
  | ⟨1, _⟩ => rfl

/-- The context's share at row `r`, column `j`: the context row against the context columns of the matrix, plus the bias. -/
private theorem ctxShare_apply (ctx : FVec Ideal S2048x512 .bf16) (wcT : FVec Ideal S512x768 .bf16) (bi0 : Vec Ideal S768 .f32)
    (r : Fin 2048) (j : Fin 768) :
    ctxShare ctx wcT bi0 (ix2 r j) = (∑ k : Fin 512, ctx (ix2 r k) * wcT (ix2 k j)) + bi0 (ix1 j) := by
  unfold ctxShare
  rw [addf_apply, biasRow_broadcast_apply]
  exact congrArg (· + bi0 (ix1 j)) (matmul_zero_ix2 _ ctx wcT r j)

/-- The position's share at row `r`, column `j`: the two position entries of the row times the two position weights. -/
private theorem posShare_apply (pos : FVec Ideal S2048x2 .f32) (wpT : FVec Ideal S2x768 .f32) (r : Fin 2048) (j : Fin 768) :
    posShare pos wpT (ix2 r j) = pos (ix2 r 0) * wpT (ix2 0 j) + pos (ix2 r 1) * wpT (ix2 1 j) := by
  unfold posShare
  rw [addf_apply, mulf_apply, mulf_apply]
  exact congrArg₂ (· + ·)
    (congrArg₂ (· * ·) (posCol_broadcast_apply pos 0 slices_S2048x2_o0_0_S2048x1 r j)
      (wpRow_broadcast_apply wpT 0 slices_S2x768_o0_0_S1x768 r j))
    (congrArg₂ (· * ·) (posCol_broadcast_apply pos 1 slices_S2048x2_o0_1_S2048x1 r j)
      (wpRow_broadcast_apply wpT 1 slices_S2x768_o1_0_S1x768 r j))

/-- A pre-activation at row `r`, column `j`: the affine map of row `r` of the block, the matrix read transposed. -/
theorem pre_apply (x : FVec Ideal S2048x256 .bf16) (wT : FVec Ideal S256x768 .bf16) (b : Vec Ideal S768 .f32)
    (r : Fin 2048) (j : Fin 768) :
    pre x wT (biasRow b) (ix2 r j)
      = affine (fun j k => wT (ix2 k j)) (fun j => b (ix1 j)) (fun k => x (ix2 r k)) j := by
  unfold pre affine
  rw [addf_apply, biasRow_broadcast_apply]
  exact congrArg (· + b (ix1 j)) (matmul_zero_ix2 _ x wT r j)

/-- The first cell's input-side pre-activation at row `r`, column `j`: the context's share with the bias plus the
    position's share is the affine map of the joined row (the sum over 514 split after 512). -/
theorem input_apply (ctx : FVec Ideal S2048x512 .bf16) (wcT : FVec Ideal S512x768 .bf16) (bi0 : Vec Ideal S768 .f32)
    (pos : FVec Ideal S2048x2 .f32) (wpT : FVec Ideal S2x768 .f32) (r : Fin 2048) (j : Fin 768) :
    addf (ctxShare ctx wcT bi0) (posShare pos wpT) (ix2 r j)
      = affine (inputMatrix wcT wpT) (fun j => bi0 (ix1 j)) (joined (fun k => ctx (ix2 r k)) (fun q => pos (ix2 r q))) j := by
  have hW : ∀ k : Fin 512, inputMatrix wcT wpT j ⟨k.val, by omega⟩ = wcT (ix2 k j) := fun k => by
    unfold inputMatrix
    rw [dif_pos k.isLt]
  have h512 : inputMatrix wcT wpT j ⟨512, by omega⟩ = wpT (ix2 0 j) := by
    unfold inputMatrix
    rw [dif_neg (by decide)]
    rfl
  have h513 : inputMatrix wcT wpT j ⟨513, by omega⟩ = wpT (ix2 1 j) := by
    unfold inputMatrix
    rw [dif_neg (by decide)]
    rfl
  rw [affine_joined, addf_apply, ctxShare_apply, posShare_apply, h512, h513]
  simp only [hW]

end Cert.KernelIdeal.Tile

end
-- ==== Proof.TileCell.lean ====
/-
  A tile's gated cell and read-out, read at one row and one column.

  The thirds of a pre-activation are the column ranges starting at 0, 256 and 512, and every other operation of a
  cell acts entry by entry, so the cell at `(r, j)` is the row recurrence's gate of row `r`. The read-out's column `q`
  is the lane sum of the top hidden block times row `q` of the read-out matrix, which at row `r` is the sum over `k`;
  the two columns sit side by side and the bias adds `bo q`.
-/
import proofs.«419133_j59072980189901_3_alg».proof.Proof.Tile
import proofs.«419133_j59072980189901_3_alg».proof.Proof.Recurrence
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Recurrence

/-- The reset third of a block: the columns from 0. -/
private theorem third_lo (g : FVec Ideal S2048x768 .f32) (r : Fin 2048) (j : Fin 256) :
    extractStridedSlice S2048x256 ![0, 0] g slices_S2048x768_o0_0_S2048x256 (ix2 r j) = g (ix2 r (lo j)) :=
  slice2_axis1_apply 0 g _ r j (lo j) (Nat.zero_add _).symm

/-- The update third: the columns from 256. -/
private theorem third_mid (g : FVec Ideal S2048x768 .f32) (r : Fin 2048) (j : Fin 256) :
    extractStridedSlice S2048x256 ![0, 256] g slices_S2048x768_o0_256_S2048x256 (ix2 r j) = g (ix2 r (mid j)) :=
  slice2_axis1_apply 256 g _ r j (mid j) rfl

/-- The candidate third: the columns from 512. -/
private theorem third_hi (g : FVec Ideal S2048x768 .f32) (r : Fin 2048) (j : Fin 256) :
    extractStridedSlice S2048x256 ![0, 512] g slices_S2048x768_o0_512_S2048x256 (ix2 r j) = g (ix2 r (hi j)) :=
  slice2_axis1_apply 512 g _ r j (hi j) rfl

/-- A cell at row `r`, column `j`: the row recurrence's gate of row `r` of the two pre-activations and of the hidden block. -/
theorem cell_apply (gi gh : FVec Ideal S2048x768 .f32) (h : Vec Ideal S2048x256 .f32) (r : Fin 2048) (j : Fin 256) :
    cell gi gh h (ix2 r j)
      = gate (fun j' => gi (ix2 r j')) (fun j' => gh (ix2 r j')) (fun k => h (ix2 r k)) j := by
  -- every operation of the cell acts entry by entry; the three slices read the thirds of row `r`
  simp only [cell, addf_apply, mulf_apply, subf_apply, logistic, tanh, broadcast_apply, third_lo, third_mid, third_hi]
  rfl

/-- One read-out column at row `r`: the sum over `k` of the hidden block's row times the one row of weights. -/
private theorem laneDot_apply (h : FVec Ideal S2048x256 .f32) (w : FVec Ideal S1x256 .f32) (r : Fin 2048) (u : Fin 1) :
    laneDot h w (ix2 r u) = ∑ k : Fin 256, h (ix2 r k) * w (ix2 (0 : Fin 1) k) := by
  have hu : u.val = 0 := by omega
  refine (shapeCast_apply _ shapeCasts_S2048_S2048x1 (ix2 r u) (ix1 r) ?_).trans ?_
  · rw [Shape.rowMajor_val_one, Shape.rowMajor_val_two]
    show r.val = r.val * 1 + u.val
    omega
  · refine (Ideal.multiReduction_add_single _ _ reduces_S2048x256_S2048 _ _ (ix1 r)).trans ?_
    show ∑ k : Fin 256, mulf h (broadcastTo S2048x256 w broadcasts_S1x256_S2048x256)
      (reduces_S2048x256_S2048.lift (ix1 r) k) = _
    refine Finset.sum_congr rfl fun k _ => ?_
    have hl : reduces_S2048x256_S2048.lift (ix1 r) k = ix2 r k := by
      funext a; match a with | ⟨0, _⟩ => rfl | ⟨1, _⟩ => rfl
    rw [hl, mulf_apply, broadcastTo_1b_ab_apply]

/-- Row 0 of the read-out matrix, cut out as a one-row matrix. -/
private theorem woRow0_apply (wo : Vec Ideal S2x256 .f32) (k : Fin 256) :
    extractStridedSlice S1x256 ![0, 0] wo slices_S2x256_o0_0_S1x256 (ix2 (0 : Fin 1) k) = wo (ix2 (0 : Fin 2) k) :=
  slice2_axis0_apply 0 wo _ (0 : Fin 1) k (0 : Fin 2) rfl

/-- Row 1 of the read-out matrix, cut out as a one-row matrix. -/
private theorem woRow1_apply (wo : Vec Ideal S2x256 .f32) (k : Fin 256) :
    extractStridedSlice S1x256 ![1, 0] wo slices_S2x256_o1_0_S1x256 (ix2 (0 : Fin 1) k) = wo (ix2 (1 : Fin 2) k) :=
  slice2_axis0_apply 1 wo _ (0 : Fin 1) k (1 : Fin 2) rfl

/-- Two columns side by side: column 0 is the first. -/
private theorem cols_apply_zero (a b : FVec Ideal S2048x1 .f32) (r : Fin 2048) :
    concatenate S2048x2 1 [⟨S2048x1, a⟩, ⟨S2048x1, b⟩] concatenates_S2048x1_S2048x1_S2048x2_d1 (ix2 r (0 : Fin 2))
      = a (ix2 r (0 : Fin 1)) :=
  concatenate_pair_apply_left (t := S2048x2) (s₁ := S2048x1) (s₂ := S2048x1) 1 a b _ (ix2 r (0 : Fin 2)) rfl
    (ix2 r (0 : Fin 1)) fun c => by
      match c with
      | ⟨0, _⟩ => rfl
      | ⟨1, _⟩ => rfl

/-- Two columns side by side: column 1 is the second. -/
private theorem cols_apply_one (a b : FVec Ideal S2048x1 .f32) (r : Fin 2048) :
    concatenate S2048x2 1 [⟨S2048x1, a⟩, ⟨S2048x1, b⟩] concatenates_S2048x1_S2048x1_S2048x2_d1 (ix2 r (1 : Fin 2))
      = b (ix2 r (0 : Fin 1)) :=
  concatenate_pair_apply_right (t := S2048x2) (s₁ := S2048x1) (s₂ := S2048x1) 1 a b _ (ix2 r (1 : Fin 2)) rfl rfl
    (ix2 r (0 : Fin 1)) (fun c hc => by
      match c with
      | ⟨0, _⟩ => rfl
      | ⟨1, _⟩ => exact absurd rfl hc) rfl

/-- The read-out bias, laid out as one row and repeated down the rows. -/
private theorem boRow_apply (bo : Vec Ideal S2 .f32) (r : Fin 2048) (q : Fin 2) :
    broadcastTo S2048x2 (shapeCast S1x2 bo shapeCasts_S2_S1x2) broadcasts_S1x2_S2048x2 (ix2 r q) = bo (ix1 q) := by
  rw [broadcastTo_1b_ab_apply, shapeCast_a_1a_apply]

/-- The read-out at row `r`, column `q`: the affine map of row `r` of the top hidden block. -/
theorem readOut_apply (h : FVec Ideal S2048x256 .f32) (wo : Vec Ideal S2x256 .f32) (bo : Vec Ideal S2 .f32)
    (r : Fin 2048) (q : Fin 2) :
    readOut h wo bo (ix2 r q) = affine (fun q k => wo (ix2 q k)) (fun q => bo (ix1 q)) (fun k => h (ix2 r k)) q := by
  unfold affine
  -- the sum of the two columns side by side and of the bias row, read at `(r, q)`
  refine (addf_apply _ _ _).trans ?_
  rw [boRow_apply]
  congr 1
  -- column `q` is the lane sum against row `q` of the read-out matrix
  match q with
  | ⟨0, _⟩ =>
    exact (cols_apply_zero _ _ r).trans ((laneDot_apply _ _ r 0).trans
      (Finset.sum_congr rfl fun k _ => congrArg _ (woRow0_apply wo k)))
  | ⟨1, _⟩ =>
    exact (cols_apply_one _ _ r).trans ((laneDot_apply _ _ r 0).trans
      (Finset.sum_congr rfl fun k _ => congrArg _ (woRow1_apply wo k)))

end Cert.KernelIdeal.Tile

end
-- ==== Proof.TileRow.lean ====
/-
  A tile's step, read one row at a time, is the row's step.

  Row `r` of a product of a block with a transposed matrix depends on row `r` of the block only; a bias laid out as
  one row and repeated down the tile adds `b j` in column `j`; the thirds of a pre-activation are column ranges; every
  other operation of a cell acts entry by entry; narrowing a block to the matrices' format changes no ideal value. So
  row `r` of the tile after a step is the row recurrence's step of row `r` before it, with the weights read off the
  tile's weight blocks (which hold the transposed matrices) and the row's context read off the tile's context block.
-/
import proofs.«419133_j59072980189901_3_alg».proof.Proof.TilePre
import proofs.«419133_j59072980189901_3_alg».proof.Proof.TileCell
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Recurrence

/-- The weights a tile's blocks hold. -/
def weights (B : Blocks Ideal) : Weights where
  wi0 := inputMatrix B.wcT B.wpT
  wh0 j k := B.wh0T (ix2 k j)
  bi0 j := B.bi0 (ix1 j)
  bh0 j := B.bh0 (ix1 j)
  wi1 j k := B.wi1T (ix2 k j)
  wh1 j k := B.wh1T (ix2 k j)
  bi1 j := B.bi1 (ix1 j)
  bh1 j := B.bh1 (ix1 j)
  wi2 j k := B.wi2T (ix2 k j)
  wh2 j k := B.wh2T (ix2 k j)
  bi2 j := B.bi2 (ix1 j)
  bh2 j := B.bh2 (ix1 j)
  wo q k := B.wo (ix2 q k)
  bo q := B.bo (ix1 q)

/-- Row `r` of the tile's context block. -/
def ctxRow (B : Blocks Ideal) (r : Fin 2048) : Fin 512 → EReal := fun k => B.ctx (ix2 r k)
/-- Row `r` of the tile's block of last observed positions. -/
def posRow (B : Blocks Ideal) (r : Fin 2048) : Fin 2 → EReal := fun q => B.pos0 (ix2 r q)

/-- Row `r` of what the tile carries. -/
def row (s : St Ideal) (r : Fin 2048) : Row :=
  ⟨fun k => s.h0 (ix2 r k), fun k => s.h1 (ix2 r k), fun k => s.h2 (ix2 r k), fun q => s.pos (ix2 r q)⟩

/-- A block laid out again in its own shape is the block. -/
theorem stored_eq (x : FVec Ideal S2048x256 .f32) : stored x = x := shapeCast_self _ _

/-- The kept context share is the context's share. -/
theorem keptShare_eq (B : Blocks Ideal) : keptShare B = ctxShare B.ctx B.wcT B.bi0 := by
  show shapeCast S2048x768 (ctxShare (shapeCast S2048x512 B.ctx _) (shapeCast S512x768 B.wcT _) B.bi0) _ = _
  rw [shapeCast_self, shapeCast_self, shapeCast_self]

/-- Row `r` of the first cell's new hidden block. -/
theorem next0_row (B : Blocks Ideal) (s : St Ideal) (r : Fin 2048) :
    (fun k => next0 B s (ix2 r k)) = Recurrence.next0 (weights B) (ctxRow B r) (row s r) := by
  funext k
  refine (cell_apply _ _ _ r k).trans ?_
  unfold Recurrence.next0
  congr 1
  · funext j'
    have e : addf (keptShare B) (posShare s.pos (shapeCast S2x768 B.wpT shapeCasts_S2x768_S2x768))
        = addf (ctxShare B.ctx B.wcT B.bi0) (posShare s.pos B.wpT) := by rw [keptShare_eq, shapeCast_self]
    exact (congrFun e (ix2 r j')).trans (input_apply B.ctx B.wcT B.bi0 s.pos B.wpT r j')
  · funext j'
    have e : (shapeCast S256x768 B.wh0T shapeCasts_S256x768_S256x768) = B.wh0T := shapeCast_self _ _
    exact (congrFun (congrArg (fun w => pre (truncf .bf16 s.h0 bitsLt_bf16_f32) w (biasRow B.bh0)) e) (ix2 r j')).trans
      (pre_apply _ B.wh0T B.bh0 r j')

/-- Row `r` of an upper cell's new hidden block, from row `r` of the cell below: the common shape of the second and third cells. -/
theorem upper_row (x : FVec Ideal S2048x256 .f32) (h : Vec Ideal S2048x256 .f32) (wiT whT : Vec Ideal S256x768 .bf16)
    (bi bh : Vec Ideal S768 .f32) (r : Fin 2048) :
    (fun k => cell (pre (truncf .bf16 x bitsLt_bf16_f32) (shapeCast S256x768 wiT shapeCasts_S256x768_S256x768) (biasRow bi))
        (pre (truncf .bf16 h bitsLt_bf16_f32) (shapeCast S256x768 whT shapeCasts_S256x768_S256x768) (biasRow bh)) h (ix2 r k))
      = gate (affine (fun j k => wiT (ix2 k j)) (fun j => bi (ix1 j)) (fun k => x (ix2 r k)))
          (affine (fun j k => whT (ix2 k j)) (fun j => bh (ix1 j)) (fun k => h (ix2 r k))) (fun k => h (ix2 r k)) := by
  funext k
  refine (cell_apply _ _ _ r k).trans ?_
  rw [shapeCast_self, shapeCast_self]
  congr 1
  · funext j'; exact pre_apply _ wiT bi r j'
  · funext j'; exact pre_apply _ whT bh r j'

/-- Row `r` of the second cell's. -/
theorem next1_row (B : Blocks Ideal) (s : St Ideal) (r : Fin 2048) :
    (fun k => next1 B s (ix2 r k)) = Recurrence.next1 (weights B) (ctxRow B r) (row s r) := by
  refine (upper_row (next0 B s) s.h1 B.wi1T B.wh1T B.bi1 B.bh1 r).trans ?_
  unfold Recurrence.next1
  rw [← next0_row B s r]
  rfl

/-- Row `r` of the third cell's. -/
theorem next2_row (B : Blocks Ideal) (s : St Ideal) (r : Fin 2048) :
    (fun k => next2 B s (ix2 r k)) = Recurrence.next2 (weights B) (ctxRow B r) (row s r) := by
  refine (upper_row (next1 B s) s.h2 B.wi2T B.wh2T B.bi2 B.bh2 r).trans ?_
  unfold Recurrence.next2
  rw [← next1_row B s r]
  rfl

/-- Row `r` of the tile after a step is the row's step. -/
theorem step_row (B : Blocks Ideal) (s : St Ideal) (r : Fin 2048) :
    row (step B s) r = Recurrence.step (weights B) (ctxRow B r) (row s r) := by
  unfold row step Recurrence.step
  dsimp only
  rw [stored_eq, stored_eq, stored_eq, next0_row, next1_row, next2_row]
  congr 1
  funext q
  refine (readOut_apply _ B.wo B.bo r q).trans ?_
  rw [next2_row]
  rfl

/-- Row `r` of the tile before the first step. -/
theorem start_row (B : Blocks Ideal) (r : Fin 2048) : row (start B) r = Recurrence.start (posRow B r) := by
  unfold row start Recurrence.start posRow
  dsimp only
  rw [stored_eq, shapeCast_self]
  rfl

/-- Row `r` of the tile after `n` steps is the row after `n` steps. -/
theorem after_row (B : Blocks Ideal) (r : Fin 2048) : ∀ n : Nat,
    row (after B n) r = Recurrence.after (weights B) (ctxRow B r) (posRow B r) n
  | 0 => start_row B r
  | n + 1 => by
    show row (step B (after B n)) r = Recurrence.step _ _ (Recurrence.after _ _ _ n)
    rw [step_row, after_row B r n]

end Cert.KernelIdeal.Tile

end
-- ==== Proof.Blocks.lean ====
/-
  A tile's input blocks, read off the program's arguments.

  At grid point `t` the body's seventeen input blocks are: rows `2048 t … 2048 t + 2047` of the context, narrowed to the
  matrices' format (no change of ideal value), and of the eighth observed position array; and, whole at every point,
  the transposed context columns and the transposed position columns of the first cell's input matrix, the other
  five weight matrices transposed (and narrowed), the six biases, and the read-out's matrix and bias. So the weights
  a tile's blocks hold are the arguments' weights, the same at every point, and row `r` of the tile is batch row
  `2048 t + r`.
-/
import proofs.«419133_j59072980189901_3_alg».proof.Proof.Gen.KernelIdeal.Frame
import proofs.«419133_j59072980189901_3_alg».proof.Proof.TileRow
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Value

open Idealize.ShloMosaic Idealize.ShloMosaic.TcCoe Idealize.ShloMosaic.ValueIdx Idealize.SL.Sem
open Cert.KernelIdeal Cert.KernelIdeal.Gen Cert.Recurrence

/-- The body's input blocks at grid point `t`, in the order the body takes them. -/
def blocks {F : FTy → Type} [FloatOps F] (m : (ℓ : Loc nD τ sig) → Buf (Elt F) ℓ) (c : Dev nD) (t : Fin cfg0.N) : Tile.Blocks F :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, iblk m c 13 t, iblk m c 14 t, iblk m c 15 t, iblk m c 16 t⟩

/-- The program's sixteen argument arrays, bundled as the row recurrence takes them. -/
def arrays (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15)⟩

/-- The batch row under row `r` of the tile at grid point `t`. -/
def batchRow (t : Fin cfg0.N) (r : Fin 2048) : Fin 8192 :=
  ⟨2048 * t.val + r.val, by have h : cfg0.N = 4 := N_0; have := t.isLt; have := r.isLt; omega⟩

/-! ## The arrays the region finds, as terms of the arguments -/

section Host
variable {F : FTy → Type} [FloatOps F]
variable (m : (ℓ : Loc nD τ sig) → Buf (Elt F) ℓ)

/-- The context window's array: the context, narrowed. -/
private theorem V_main_v2 (c : Dev nD) :
    V m c main_v2 = truncf .bf16 (m ((c : Thread nD τ).loc main_arg0)) bitsLt_bf16_f32 := by
  show StableHlo.after (List.flatten [hostOps0]) (fun b => m (c, b)) (Proc.devRef .tc main_v2) = _
  simp only [List.flatten_cons, List.flatten_nil, List.append_nil]
  after_results

/-- The position window's array: the eighth observation of every batch row, laid out as 8192 × 2. -/
private theorem V_main_v1 (c : Dev nD) :
    V m c main_v1 = shapeCast S8192x2
      (extractStridedSlice S1x8192x2 ![7, 0, 0] (m ((c : Thread nD τ).loc main_arg1)) slices_S8x8192x2_S1x8192x2_7_0_0)
      shapeCasts_S1x8192x2_S8192x2 := by
  show StableHlo.after (List.flatten [hostOps0]) (fun b => m (c, b)) (Proc.devRef .tc main_v1) = _
  simp only [List.flatten_cons, List.flatten_nil, List.append_nil]
  after_results
  rfl

/-- Window 2's array: the first 512 columns of the first cell's input matrix, transposed and narrowed. -/
private theorem V_main_v5 (c : Dev nD) :
    V m c main_v5 = truncf .bf16 (transpose S512x768 [1, 0]
      (extractStridedSlice S768x512 ![0, 0] (m ((c : Thread nD τ).loc main_arg2)) slices_S768x514_S768x512_0_0)
      transposes_S768x512_S512x768_1_0) bitsLt_bf16_f32 := by
  show StableHlo.after (List.flatten [hostOps0]) (fun b => m (c, b)) (Proc.devRef .tc main_v5) = _
  simp only [List.flatten_cons, List.flatten_nil, List.append_nil]
  after_results

/-- Window 3's array: the last two columns of the first cell's input matrix, transposed. -/
private theorem V_main_v7 (c : Dev nD) :
    V m c main_v7 = transpose S2x768 [1, 0]
      (extractStridedSlice S768x2 ![0, 512] (m ((c : Thread nD τ).loc main_arg2)) slices_S768x514_S768x2_0_512)
      transposes_S768x2_S2x768_1_0 := by
  show StableHlo.after (List.flatten [hostOps0]) (fun b => m (c, b)) (Proc.devRef .tc main_v7) = _
  simp only [List.flatten_cons, List.flatten_nil, List.append_nil]
  after_results

/-- Window 4's array: the first cell's hidden matrix, transposed and narrowed. -/
private theorem V_main_v9 (c : Dev nD) :
    V m c main_v9 = truncf .bf16 (transpose S256x768 [1, 0] (m ((c : Thread nD τ).loc main_arg3))
      transposes_S768x256_S256x768_1_0) bitsLt_bf16_f32 := by
  show StableHlo.after (List.flatten [hostOps0]) (fun b => m (c, b)) (Proc.devRef .tc main_v9) = _
  simp only [List.flatten_cons, List.flatten_nil, List.append_nil]
  after_results

/-- Window 7's array: the second cell's input matrix, transposed and narrowed. -/
private theorem V_main_v11 (c : Dev nD) :
    V m c main_v11 = truncf .bf16 (transpose S256x768 [1, 0] (m ((c : Thread nD τ).loc main_arg6))
      transposes_S768x256_S256x768_1_0) bitsLt_bf16_f32 := by
  show StableHlo.after (List.flatten [hostOps0]) (fun b => m (c, b)) (Proc.devRef .tc main_v11) = _
  simp only [List.flatten_cons, List.flatten_nil, List.append_nil]
  after_results

/-- Window 8's array: the second cell's hidden matrix, transposed and narrowed. -/
private theorem V_main_v13 (c : Dev nD) :
    V m c main_v13 = truncf .bf16 (transpose S256x768 [1, 0] (m ((c : Thread nD τ).loc main_arg7))
      transposes_S768x256_S256x768_1_0) bitsLt_bf16_f32 := by
  show StableHlo.after (List.flatten [hostOps0]) (fun b => m (c, b)) (Proc.devRef .tc main_v13) = _
  simp only [List.flatten_cons, List.flatten_nil, List.append_nil]
  after_results

/-- Window 11's array: the third cell's input matrix, transposed and narrowed. -/
private theorem V_main_v15 (c : Dev nD) :
    V m c main_v15 = truncf .bf16 (transpose S256x768 [1, 0] (m ((c : Thread nD τ).loc main_arg10))
      transposes_S768x256_S256x768_1_0) bitsLt_bf16_f32 := by
  show StableHlo.after (List.flatten [hostOps0]) (fun b => m (c, b)) (Proc.devRef .tc main_v15) = _
  simp only [List.flatten_cons, List.flatten_nil, List.append_nil]
  after_results

/-- Window 12's array: the third cell's hidden matrix, transposed and narrowed. -/
private theorem V_main_v17 (c : Dev nD) :
    V m c main_v17 = truncf .bf16 (transpose S256x768 [1, 0] (m ((c : Thread nD τ).loc main_arg11))
      transposes_S768x256_S256x768_1_0) bitsLt_bf16_f32 := by
  show StableHlo.after (List.flatten [hostOps0]) (fun b => m (c, b)) (Proc.devRef .tc main_v17) = _
  simp only [List.flatten_cons, List.flatten_nil, List.append_nil]
  after_results
end Host

/-! ## A window's block read at an index -/

section Reads
variable {F : FTy → Type} [FloatOps F]
variable (m : (ℓ : Loc nD τ sig) → Buf (Elt F) ℓ)

/-- The two tiled windows' block index at grid point `t` is `(t, 0)`. -/
private theorem idx_moving : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r`, column `k` of the context window's block at point `t` is row `2048 t + r`, column `k` of its array. -/
private theorem iblk0 (c : Dev nD) (t : Fin cfg0.N) (r : Fin 2048) (k : Fin 512) :
    (iblk m c 0 t : Vec F S2048x512 .bf16) (ix2 r k) = V m c main_v2 (ix2 (batchRow t r) k) := by
  obtain ⟨e0, e1, -, -⟩ := idx_moving t
  unfold iblk
  rw [View.read_apply]
  show V m c main_v2 _ = V m c main_v2 _
  congr 1
  funext a
  apply Fin.ext
  match a with
  | ⟨0, _⟩ => show win0_0.index t (0 : Fin 2) * 2048 + 1 * r.val = 2048 * t.val + r.val; omega
  | ⟨1, _⟩ => show win0_0.index t (1 : Fin 2) * 512 + 1 * k.val = k.val; omega

/-- The same for the window of last observed positions. -/
private theorem iblk1 (c : Dev nD) (t : Fin cfg0.N) (r : Fin 2048) (q : Fin 2) :
    (iblk m c 1 t : Vec F S2048x2 .f32) (ix2 r q) = V m c main_v1 (ix2 (batchRow t r) q) := by
  obtain ⟨-, -, e0, e1⟩ := idx_moving t
  unfold iblk
  rw [View.read_apply]
  show V m c main_v1 _ = V m c main_v1 _
  congr 1
  funext a
  apply Fin.ext
  match a with
  | ⟨0, _⟩ => show win0_1.index t (0 : Fin 2) * 2048 + 1 * r.val = 2048 * t.val + r.val; omega
  | ⟨1, _⟩ => show win0_1.index t (1 : Fin 2) * 2 + 1 * q.val = q.val; omega

/-- Window 2's block index is `(0, 0)` at every point, -/
private theorem idx2 : ∀ t : Fin cfg0.N, win0_2.index t (0 : Fin 2) = 0 ∧ win0_2.index t (1 : Fin 2) = 0 :=
  (by decide +kernel : ∀ t : Fin grid0.N, _)
/-- so its block is its whole array. -/
private theorem iblk2 (c : Dev nD) (t : Fin cfg0.N) : (iblk m c 2 t : Vec F S512x768 .bf16) = V m c main_v5 := by
  obtain ⟨e0, e1⟩ := idx2 t
  funext y
  unfold iblk
  rw [View.read_apply]
  show V m c main_v5 _ = V m c main_v5 y
  congr 1
  funext a
  apply Fin.ext
  match a with
  | ⟨0, _⟩ => show win0_2.index t (0 : Fin 2) * 512 + 1 * (y 0).val = (y 0).val; omega
  | ⟨1, _⟩ => show win0_2.index t (1 : Fin 2) * 768 + 1 * (y 1).val = (y 1).val; omega

/-- Window 3's block index is `(0, 0)` at every point, -/
private theorem idx3 : ∀ t : Fin cfg0.N, win0_3.index t (0 : Fin 2) = 0 ∧ win0_3.index t (1 : Fin 2) = 0 :=
  (by decide +kernel : ∀ t : Fin grid0.N, _)
/-- so its block is its whole array. -/
private theorem iblk3 (c : Dev nD) (t : Fin cfg0.N) : (iblk m c 3 t : Vec F S2x768 .f32) = V m c main_v7 := by
  obtain ⟨e0, e1⟩ := idx3 t
  funext y
  unfold iblk
  rw [View.read_apply]
  show V m c main_v7 _ = V m c main_v7 y
  congr 1
  funext a
  apply Fin.ext
  match a with
  | ⟨0, _⟩ => show win0_3.index t (0 : Fin 2) * 2 + 1 * (y 0).val = (y 0).val; omega
  | ⟨1, _⟩ => show win0_3.index t (1 : Fin 2) * 768 + 1 * (y 1).val = (y 1).val; omega

/-- Window 4's block index is `(0, 0)` at every point, -/
private theorem idx4 : ∀ t : Fin cfg0.N, win0_4.index t (0 : Fin 2) = 0 ∧ win0_4.index t (1 : Fin 2) = 0 :=
  (by decide +kernel : ∀ t : Fin grid0.N, _)
/-- so its block is its whole array. -/
private theorem iblk4 (c : Dev nD) (t : Fin cfg0.N) : (iblk m c 4 t : Vec F S256x768 .bf16) = V m c main_v9 := by
  obtain ⟨e0, e1⟩ := idx4 t
  funext y
  unfold iblk
  rw [View.read_apply]
  show V m c main_v9 _ = V m c main_v9 y
  congr 1
  funext a
  apply Fin.ext
  match a with
  | ⟨0, _⟩ => show win0_4.index t (0 : Fin 2) * 256 + 1 * (y 0).val = (y 0).val; omega
  | ⟨1, _⟩ => show win0_4.index t (1 : Fin 2) * 768 + 1 * (y 1).val = (y 1).val; omega

/-- Window 7's block index is `(0, 0)` at every point, -/
private theorem idx7 : ∀ t : Fin cfg0.N, win0_7.index t (0 : Fin 2) = 0 ∧ win0_7.index t (1 : Fin 2) = 0 :=
  (by decide +kernel : ∀ t : Fin grid0.N, _)
/-- so its block is its whole array. -/
private theorem iblk7 (c : Dev nD) (t : Fin cfg0.N) : (iblk m c 7 t : Vec F S256x768 .bf16) = V m c main_v11 := by
  obtain ⟨e0, e1⟩ := idx7 t
  funext y
  unfold iblk
  rw [View.read_apply]
  show V m c main_v11 _ = V m c main_v11 y
  congr 1
  funext a
  apply Fin.ext
  match a with
  | ⟨0, _⟩ => show win0_7.index t (0 : Fin 2) * 256 + 1 * (y 0).val = (y 0).val; omega
  | ⟨1, _⟩ => show win0_7.index t (1 : Fin 2) * 768 + 1 * (y 1).val = (y 1).val; omega

/-- Window 8's block index is `(0, 0)` at every point, -/
private theorem idx8 : ∀ t : Fin cfg0.N, win0_8.index t (0 : Fin 2) = 0 ∧ win0_8.index t (1 : Fin 2) = 0 :=
  (by decide +kernel : ∀ t : Fin grid0.N, _)
/-- so its block is its whole array. -/
private theorem iblk8 (c : Dev nD) (t : Fin cfg0.N) : (iblk m c 8 t : Vec F S256x768 .bf16) = V m c main_v13 := by
  obtain ⟨e0, e1⟩ := idx8 t
  funext y
  unfold iblk
  rw [View.read_apply]
  show V m c main_v13 _ = V m c main_v13 y
  congr 1
  funext a
  apply Fin.ext
  match a with
  | ⟨0, _⟩ => show win0_8.index t (0 : Fin 2) * 256 + 1 * (y 0).val = (y 0).val; omega
  | ⟨1, _⟩ => show win0_8.index t (1 : Fin 2) * 768 + 1 * (y 1).val = (y 1).val; omega

/-- Window 11's block index is `(0, 0)` at every point, -/
private theorem idx11 : ∀ t : Fin cfg0.N, win0_11.index t (0 : Fin 2) = 0 ∧ win0_11.index t (1 : Fin 2) = 0 :=
  (by decide +kernel : ∀ t : Fin grid0.N, _)
/-- so its block is its whole array. -/
private theorem iblk11 (c : Dev nD) (t : Fin cfg0.N) : (iblk m c 11 t : Vec F S256x768 .bf16) = V m c main_v15 := by
  obtain ⟨e0, e1⟩ := idx11 t
  funext y
  unfold iblk
  rw [View.read_apply]
  show V m c main_v15 _ = V m c main_v15 y
  congr 1
  funext a
  apply Fin.ext
  match a with
  | ⟨0, _⟩ => show win0_11.index t (0 : Fin 2) * 256 + 1 * (y 0).val = (y 0).val; omega
  | ⟨1, _⟩ => show win0_11.index t (1 : Fin 2) * 768 + 1 * (y 1).val = (y 1).val; omega

/-- Window 12's block index is `(0, 0)` at every point, -/
private theorem idx12 : ∀ t : Fin cfg0.N, win0_12.index t (0 : Fin 2) = 0 ∧ win0_12.index t (1 : Fin 2) = 0 :=
  (by decide +kernel : ∀ t : Fin grid0.N, _)
/-- so its block is its whole array. -/
private theorem iblk12 (c : Dev nD) (t : Fin cfg0.N) : (iblk m c 12 t : Vec F S256x768 .bf16) = V m c main_v17 := by
  obtain ⟨e0, e1⟩ := idx12 t
  funext y
  unfold iblk
  rw [View.read_apply]
  show V m c main_v17 _ = V m c main_v17 y
  congr 1
  funext a
  apply Fin.ext
  match a with
  | ⟨0, _⟩ => show win0_12.index t (0 : Fin 2) * 256 + 1 * (y 0).val = (y 0).val; omega
  | ⟨1, _⟩ => show win0_12.index t (1 : Fin 2) * 768 + 1 * (y 1).val = (y 1).val; omega

/-- Window 15's block index is `(0, 0)` at every point, -/
private theorem idx15 : ∀ t : Fin cfg0.N, win0_15.index t (0 : Fin 2) = 0 ∧ win0_15.index t (1 : Fin 2) = 0 :=
  (by decide +kernel : ∀ t : Fin grid0.N, _)
/-- so its block is its whole array. -/
private theorem iblk15 (c : Dev nD) (t : Fin cfg0.N) : (iblk m c 15 t : Vec F S2x256 .f32) = V m c main_arg14 := by
  obtain ⟨e0, e1⟩ := idx15 t
  funext y
  unfold iblk
  rw [View.read_apply]
  show V m c main_arg14 _ = V m c main_arg14 y
  congr 1
  funext a
  apply Fin.ext
  match a with
  | ⟨0, _⟩ => show win0_15.index t (0 : Fin 2) * 2 + 1 * (y 0).val = (y 0).val; omega
  | ⟨1, _⟩ => show win0_15.index t (1 : Fin 2) * 256 + 1 * (y 1).val = (y 1).val; omega

/-- Window 5's block index is `0` at every point, -/
private theorem idx5 : ∀ t : Fin cfg0.N, win0_5.index t (0 : Fin 1) = 0 :=
  (by decide +kernel : ∀ t : Fin grid0.N, _)
/-- so its block is its whole array. -/
private theorem iblk5 (c : Dev nD) (t : Fin cfg0.N) : (iblk m c 5 t : Vec F S768 .f32) = V m c main_arg4 := by
  have e0 := idx5 t
  funext y
  unfold iblk
  rw [View.read_apply]
  show V m c main_arg4 _ = V m c main_arg4 y
  congr 1
  funext a
  apply Fin.ext
  match a with
  | ⟨0, _⟩ => show win0_5.index t (0 : Fin 1) * 768 + 1 * (y 0).val = (y 0).val; omega

/-- Window 6's block index is `0` at every point, -/
private theorem idx6 : ∀ t : Fin cfg0.N, win0_6.index t (0 : Fin 1) = 0 :=
  (by decide +kernel : ∀ t : Fin grid0.N, _)
/-- so its block is its whole array. -/
private theorem iblk6 (c : Dev nD) (t : Fin cfg0.N) : (iblk m c 6 t : Vec F S768 .f32) = V m c main_arg5 := by
  have e0 := idx6 t
  funext y
  unfold iblk
  rw [View.read_apply]
  show V m c main_arg5 _ = V m c main_arg5 y
  congr 1
  funext a
  apply Fin.ext
  match a with
  | ⟨0, _⟩ => show win0_6.index t (0 : Fin 1) * 768 + 1 * (y 0).val = (y 0).val; omega

/-- Window 9's block index is `0` at every point, -/
private theorem idx9 : ∀ t : Fin cfg0.N, win0_9.index t (0 : Fin 1) = 0 :=
  (by decide +kernel : ∀ t : Fin grid0.N, _)
/-- so its block is its whole array. -/
private theorem iblk9 (c : Dev nD) (t : Fin cfg0.N) : (iblk m c 9 t : Vec F S768 .f32) = V m c main_arg8 := by
  have e0 := idx9 t
  funext y
  unfold iblk
  rw [View.read_apply]
  show V m c main_arg8 _ = V m c main_arg8 y
  congr 1
  funext a
  apply Fin.ext
  match a with
  | ⟨0, _⟩ => show win0_9.index t (0 : Fin 1) * 768 + 1 * (y 0).val = (y 0).val; omega

/-- Window 10's block index is `0` at every point, -/
private theorem idx10 : ∀ t : Fin cfg0.N, win0_10.index t (0 : Fin 1) = 0 :=
  (by decide +kernel : ∀ t : Fin grid0.N, _)
/-- so its block is its whole array. -/
private theorem iblk10 (c : Dev nD) (t : Fin cfg0.N) : (iblk m c 10 t : Vec F S768 .f32) = V m c main_arg9 := by
  have e0 := idx10 t
  funext y
  unfold iblk
  rw [View.read_apply]
  show V m c main_arg9 _ = V m c main_arg9 y
  congr 1
  funext a
  apply Fin.ext
  match a with
  | ⟨0, _⟩ => show win0_10.index t (0 : Fin 1) * 768 + 1 * (y 0).val = (y 0).val; omega

/-- Window 13's block index is `0` at every point, -/
private theorem idx13 : ∀ t : Fin cfg0.N, win0_13.index t (0 : Fin 1) = 0 :=
  (by decide +kernel : ∀ t : Fin grid0.N, _)
/-- so its block is its whole array. -/
private theorem iblk13 (c : Dev nD) (t : Fin cfg0.N) : (iblk m c 13 t : Vec F S768 .f32) = V m c main_arg12 := by
  have e0 := idx13 t
  funext y
  unfold iblk
  rw [View.read_apply]
  show V m c main_arg12 _ = V m c main_arg12 y
  congr 1
  funext a
  apply Fin.ext
  match a with
  | ⟨0, _⟩ => show win0_13.index t (0 : Fin 1) * 768 + 1 * (y 0).val = (y 0).val; omega

/-- Window 14's block index is `0` at every point, -/
private theorem idx14 : ∀ t : Fin cfg0.N, win0_14.index t (0 : Fin 1) = 0 :=
  (by decide +kernel : ∀ t : Fin grid0.N, _)
/-- so its block is its whole array. -/
private theorem iblk14 (c : Dev nD) (t : Fin cfg0.N) : (iblk m c 14 t : Vec F S768 .f32) = V m c main_arg13 := by
  have e0 := idx14 t
  funext y
  unfold iblk
  rw [View.read_apply]
  show V m c main_arg13 _ = V m c main_arg13 y
  congr 1
  funext a
  apply Fin.ext
  match a with
  | ⟨0, _⟩ => show win0_14.index t (0 : Fin 1) * 768 + 1 * (y 0).val = (y 0).val; omega

/-- Window 16's block index is `0` at every point, -/
private theorem idx16 : ∀ t : Fin cfg0.N, win0_16.index t (0 : Fin 1) = 0 :=
  (by decide +kernel : ∀ t : Fin grid0.N, _)
/-- so its block is its whole array. -/
private theorem iblk16 (c : Dev nD) (t : Fin cfg0.N) : (iblk m c 16 t : Vec F S2 .f32) = V m c main_arg15 := by
  have e0 := idx16 t
  funext y
  unfold iblk
  rw [View.read_apply]
  show V m c main_arg15 _ = V m c main_arg15 y
  congr 1
  funext a
  apply Fin.ext
  match a with
  | ⟨0, _⟩ => show win0_16.index t (0 : Fin 1) * 2 + 1 * (y 0).val = (y 0).val; omega

end Reads

/-! ## At the extended reals: the blocks against the arguments, entry by entry -/

variable (m : (ℓ : Loc nD τ sig) → Buf (Elt Ideal) ℓ)

/-- A weight matrix held transposed (and narrowed, which changes no ideal value), read at `(k, j)`, is the matrix at
    `(j, k)`. -/
private theorem transposed_apply (x : FVec Ideal S768x256 .f32) (j : Fin 768) (k : Fin 256) :
    (truncf .bf16 (transpose S256x768 [1, 0] x transposes_S768x256_S256x768_1_0) bitsLt_bf16_f32 : FVec Ideal S256x768 .bf16) (ix2 k j)
      = x (ix2 j k) := by
  rw [truncf_apply]
  exact transpose_apply [1, 0] x transposes_S768x256_S256x768_1_0 (ix2 k j) (ix2 j k)
    (fun b => match b with | ⟨0, _⟩ => rfl | ⟨1, _⟩ => rfl)

/-- Two bundles of weights with the same fourteen entries are the same bundle. -/
private theorem weights_ext {P Q : Weights} (h1 : P.wi0 = Q.wi0) (h2 : P.wh0 = Q.wh0) (h3 : P.bi0 = Q.bi0) (h4 : P.bh0 = Q.bh0)
    (h5 : P.wi1 = Q.wi1) (h6 : P.wh1 = Q.wh1) (h7 : P.bi1 = Q.bi1) (h8 : P.bh1 = Q.bh1)
    (h9 : P.wi2 = Q.wi2) (h10 : P.wh2 = Q.wh2) (h11 : P.bi2 = Q.bi2) (h12 : P.bh2 = Q.bh2)
    (h13 : P.wo = Q.wo) (h14 : P.bo = Q.bo) : P = Q := by
  cases P; cases Q
  dsimp only at *
  subst_vars
  rfl

/-- The context columns of the first cell's input matrix: the tile's block holds them transposed. -/
private theorem wc_apply (c : Dev nD) (t : Fin cfg0.N) (j : Fin 768) (k : Fin 512) (k' : Fin 514) (hk : k'.val = k.val) :
    (iblk m c 2 t : Vec Ideal S512x768 .bf16) (ix2 k j) = m ((c.tc : Thread nD τ).loc main_arg2) (ix2 j k') := by
  rw [iblk2, V_main_v5, truncf_apply]
  refine (transpose_apply [1, 0] _ transposes_S768x512_S512x768_1_0 (ix2 k j) (ix2 j k)
    (fun b => match b with | ⟨0, _⟩ => rfl | ⟨1, _⟩ => rfl)).trans ?_
  refine extractStridedSlice_apply _ _ slices_S768x514_S768x512_0_0 (ix2 j k) (ix2 j k') (fun a => ?_)
  match a with
  | ⟨0, _⟩ => show j.val = 0 + j.val; omega
  | ⟨1, _⟩ => show k'.val = 0 + k.val; omega

/-- Its two position columns, likewise. -/
private theorem wp_apply (c : Dev nD) (t : Fin cfg0.N) (j : Fin 768) (q : Fin 2) (k' : Fin 514) (hk : k'.val = 512 + q.val) :
    (iblk m c 3 t : Vec Ideal S2x768 .f32) (ix2 q j) = m ((c.tc : Thread nD τ).loc main_arg2) (ix2 j k') := by
  rw [iblk3, V_main_v7]
  refine (transpose_apply [1, 0] _ transposes_S768x2_S2x768_1_0 (ix2 q j) (ix2 j q)
    (fun b => match b with | ⟨0, _⟩ => rfl | ⟨1, _⟩ => rfl)).trans ?_
  refine extractStridedSlice_apply _ _ slices_S768x514_S768x2_0_512 (ix2 j q) (ix2 j k') (fun a => ?_)
  match a with
  | ⟨0, _⟩ => show j.val = 0 + j.val; omega
  | ⟨1, _⟩ => show k'.val = 512 + q.val; omega

/-- The first cell's input matrix, put back together from the two blocks, is the argument. -/
private theorem wi0_blocks (c : Dev nD) (t : Fin cfg0.N) : (Tile.weights (blocks m c t)).wi0 = (arrays m c).weights.wi0 := by
  funext j k
  show Tile.inputMatrix (iblk m c 2 t) (iblk m c 3 t) j k = m ((c.tc : Thread nD τ).loc main_arg2) (ix2 j k)
  unfold Tile.inputMatrix
  by_cases h : k.val < 512
  · rw [dif_pos h]; exact wc_apply m c t j ⟨k.val, h⟩ k rfl
  · rw [dif_neg h]; exact wp_apply m c t j ⟨k.val - 512, by omega⟩ k (by show k.val = 512 + (k.val - 512); omega)

/-- Window 4's block holds `wh0` transposed. -/
private theorem wh0_blocks (c : Dev nD) (t : Fin cfg0.N) : (Tile.weights (blocks m c t)).wh0 = (arrays m c).weights.wh0 := by
  funext j k
  show (iblk m c 4 t : Vec Ideal S256x768 .bf16) (ix2 k j) = m ((c.tc : Thread nD τ).loc main_arg3) (ix2 j k)
  rw [iblk4, V_main_v9]; exact transposed_apply _ j k

/-- Window 7's block holds `wi1` transposed. -/
private theorem wi1_blocks (c : Dev nD) (t : Fin cfg0.N) : (Tile.weights (blocks m c t)).wi1 = (arrays m c).weights.wi1 := by
  funext j k
  show (iblk m c 7 t : Vec Ideal S256x768 .bf16) (ix2 k j) = m ((c.tc : Thread nD τ).loc main_arg6) (ix2 j k)
  rw [iblk7, V_main_v11]; exact transposed_apply _ j k

/-- Window 8's block holds `wh1` transposed. -/
private theorem wh1_blocks (c : Dev nD) (t : Fin cfg0.N) : (Tile.weights (blocks m c t)).wh1 = (arrays m c).weights.wh1 := by
  funext j k
  show (iblk m c 8 t : Vec Ideal S256x768 .bf16) (ix2 k j) = m ((c.tc : Thread nD τ).loc main_arg7) (ix2 j k)
  rw [iblk8, V_main_v13]; exact transposed_apply _ j k

/-- Window 11's block holds `wi2` transposed. -/
private theorem wi2_blocks (c : Dev nD) (t : Fin cfg0.N) : (Tile.weights (blocks m c t)).wi2 = (arrays m c).weights.wi2 := by
  funext j k
  show (iblk m c 11 t : Vec Ideal S256x768 .bf16) (ix2 k j) = m ((c.tc : Thread nD τ).loc main_arg10) (ix2 j k)
  rw [iblk11, V_main_v15]; exact transposed_apply _ j k

/-- Window 12's block holds `wh2` transposed. -/
private theorem wh2_blocks (c : Dev nD) (t : Fin cfg0.N) : (Tile.weights (blocks m c t)).wh2 = (arrays m c).weights.wh2 := by
  funext j k
  show (iblk m c 12 t : Vec Ideal S256x768 .bf16) (ix2 k j) = m ((c.tc : Thread nD τ).loc main_arg11) (ix2 j k)
  rw [iblk12, V_main_v17]; exact transposed_apply _ j k

/-- Window 5's block is `bi0`. -/
private theorem bi0_blocks (c : Dev nD) (t : Fin cfg0.N) : (Tile.weights (blocks m c t)).bi0 = (arrays m c).weights.bi0 := by
  funext j
  show (iblk m c 5 t : Vec Ideal S768 .f32) (ix1 j) = m ((c.tc : Thread nD τ).loc main_arg4) (ix1 j)
  rw [iblk5, V_main_arg4]

/-- Window 6's block is `bh0`. -/
private theorem bh0_blocks (c : Dev nD) (t : Fin cfg0.N) : (Tile.weights (blocks m c t)).bh0 = (arrays m c).weights.bh0 := by
  funext j
  show (iblk m c 6 t : Vec Ideal S768 .f32) (ix1 j) = m ((c.tc : Thread nD τ).loc main_arg5) (ix1 j)
  rw [iblk6, V_main_arg5]

/-- Window 9's block is `bi1`. -/
private theorem bi1_blocks (c : Dev nD) (t : Fin cfg0.N) : (Tile.weights (blocks m c t)).bi1 = (arrays m c).weights.bi1 := by
  funext j
  show (iblk m c 9 t : Vec Ideal S768 .f32) (ix1 j) = m ((c.tc : Thread nD τ).loc main_arg8) (ix1 j)
  rw [iblk9, V_main_arg8]

/-- Window 10's block is `bh1`. -/
private theorem bh1_blocks (c : Dev nD) (t : Fin cfg0.N) : (Tile.weights (blocks m c t)).bh1 = (arrays m c).weights.bh1 := by
  funext j
  show (iblk m c 10 t : Vec Ideal S768 .f32) (ix1 j) = m ((c.tc : Thread nD τ).loc main_arg9) (ix1 j)
  rw [iblk10, V_main_arg9]

/-- Window 13's block is `bi2`. -/
private theorem bi2_blocks (c : Dev nD) (t : Fin cfg0.N) : (Tile.weights (blocks m c t)).bi2 = (arrays m c).weights.bi2 := by
  funext j
  show (iblk m c 13 t : Vec Ideal S768 .f32) (ix1 j) = m ((c.tc : Thread nD τ).loc main_arg12) (ix1 j)
  rw [iblk13, V_main_arg12]

/-- Window 14's block is `bh2`. -/
private theorem bh2_blocks (c : Dev nD) (t : Fin cfg0.N) : (Tile.weights (blocks m c t)).bh2 = (arrays m c).weights.bh2 := by
  funext j
  show (iblk m c 14 t : Vec Ideal S768 .f32) (ix1 j) = m ((c.tc : Thread nD τ).loc main_arg13) (ix1 j)
  rw [iblk14, V_main_arg13]

/-- Window 15's block is the read-out's matrix. -/
private theorem wo_blocks (c : Dev nD) (t : Fin cfg0.N) : (Tile.weights (blocks m c t)).wo = (arrays m c).weights.wo := by
  funext q k
  show (iblk m c 15 t : Vec Ideal S2x256 .f32) (ix2 q k) = m ((c.tc : Thread nD τ).loc main_arg14) (ix2 q k)
  rw [iblk15, V_main_arg14]

/-- Window 16's block is the read-out's bias. -/
private theorem bo_blocks (c : Dev nD) (t : Fin cfg0.N) : (Tile.weights (blocks m c t)).bo = (arrays m c).weights.bo := by
  funext q
  show (iblk m c 16 t : Vec Ideal S2 .f32) (ix1 q) = m ((c.tc : Thread nD τ).loc main_arg15) (ix1 q)
  rw [iblk16, V_main_arg15]

/-- The weights a tile's blocks hold are the arguments' weights, at every grid point. -/
theorem weights_blocks (c : Dev nD) (t : Fin cfg0.N) : Tile.weights (blocks m c t) = (arrays m c).weights :=
  weights_ext (wi0_blocks m c t) (wh0_blocks m c t) (bi0_blocks m c t) (bh0_blocks m c t)
    (wi1_blocks m c t) (wh1_blocks m c t) (bi1_blocks m c t) (bh1_blocks m c t)
    (wi2_blocks m c t) (wh2_blocks m c t) (bi2_blocks m c t) (bh2_blocks m c t)
    (wo_blocks m c t) (bo_blocks m c t)

/-- Row `r` of the tile's context block is the context of batch row `2048 t + r`. -/
theorem ctxRow_blocks (c : Dev nD) (t : Fin cfg0.N) (r : Fin 2048) :
    Tile.ctxRow (blocks m c t) r = (arrays m c).ctxRow (batchRow t r) := by
  funext k
  show (iblk m c 0 t : Vec Ideal S2048x512 .bf16) (ix2 r k) = m ((c.tc : Thread nD τ).loc main_arg0) (ix2 (batchRow t r) k)
  rw [iblk0, V_main_v2, truncf_apply]

/-- Row `r` of the tile's block of last observed positions is the eighth observed position of batch row `2048 t + r`. -/
theorem posRow_blocks (c : Dev nD) (t : Fin cfg0.N) (r : Fin 2048) :
    Tile.posRow (blocks m c t) r = (arrays m c).posRow (batchRow t r) := by
  funext q
  show (iblk m c 1 t : Vec Ideal S2048x2 .f32) (ix2 r q) = m ((c.tc : Thread nD τ).loc main_arg1) (ix3 (7 : Fin 8) (batchRow t r) q)
  rw [iblk1, V_main_v1]
  refine (shapeCast_apply _ shapeCasts_S1x8192x2_S8192x2 (ix2 (batchRow t r) q) (ix3 (0 : Fin 1) (batchRow t r) q) ?_).trans ?_
  · rw [Shape.rowMajor_val_three, Shape.rowMajor_val_two]
    show (0 * 8192 + (2048 * t.val + r.val)) * 2 + q.val = (2048 * t.val + r.val) * 2 + q.val
    omega
  · refine extractStridedSlice_apply _ _ slices_S8x8192x2_S1x8192x2_7_0_0 (ix3 (0 : Fin 1) (batchRow t r) q) (ix3 (7 : Fin 8) (batchRow t r) q) (fun a => ?_)
    match a with
    | ⟨0, _⟩ => show 7 = 7 + 0; omega
    | ⟨1, _⟩ => show 2048 * t.val + r.val = 0 + (2048 * t.val + r.val); omega
    | ⟨2, _⟩ => show q.val = 0 + q.val; omega

end Cert.KernelIdeal.Value

end
-- ==== Proof.KernelValue.lean ====
/-
  The kernel program's result, read off its run.

  After the body at grid point `t` the output's staging buffer holds the tile's output block; at the ideal instance the
  tile's rows run the row recurrence on the arguments' weights, so block `t` of the kernel call's result array
  (8192 × 24) holds, at row `2048 t + r` and column `col`, coordinate `col % 2` of that batch row's result at step
  `col / 2`. The four blocks tile the array. The program then splits the 24 columns into 12 steps of 2 coordinates and
  brings the step axis to the front, which is the expected array of the arguments.
-/
import proofs.«419133_j59072980189901_3_alg».proof.Proof.TilePieces
import proofs.«419133_j59072980189901_3_alg».proof.Proof.Blocks
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Value

open Idealize.ShloMosaic Idealize.ShloMosaic.TcCoe Idealize.ShloMosaic.ValueIdx Idealize.SL.Sem
open Cert.KernelIdeal Cert.KernelIdeal.Gen Cert.Recurrence

variable (m : (ℓ : Loc nD τ sig) → Buf (Elt Ideal) ℓ) (ρ : Dev nD → PrngReg)

/-- After the body at grid point `t` the output's staging buffer holds the tile's output block of the point's input blocks. -/
theorem outsAt_eq {F : FTy → Type} [FloatOps F] (m' : (ℓ : Loc nD τ sig) → Buf (Elt F) ℓ) (c : Dev nD) (t : Fin cfg0.N) :
    outsAt0 m' c t = tileOut (blocks m' c t) := by
  unfold outsAt0 blocks
  exact out_eq ..

/-- The kernel call's result array (8192 × 24): row `R`, column `col` holds coordinate `col % 2` of batch row `R`'s
    result at step `col / 2`. -/
def flat (c : Dev nD) : S8192x24.Idx → EReal := fun i =>
  (arrays m c).value (ix3 (⟨(i 1).val / 2 % 12, Nat.mod_lt _ (by decide)⟩ : Fin 12) (⟨(i 0).val, (i 0).isLt⟩ : Fin 8192)
    (⟨(i 1).val % 2, Nat.mod_lt _ (by decide)⟩ : Fin 2))

/-- Entry `y` of the tile's output block at grid point `t` is the result array's entry at row `2048 t + y₀`, column `y₁`:
    the tile's rows run the row recurrence on the arguments' weights and on their own batch rows' contexts. -/
theorem tileOut_eq_flat (c : Dev nD) (t : Fin cfg0.N) (y : S2048x24.Idx) (i : S8192x24.Idx)
    (h0 : (i 0).val = 2048 * t.val + (y 0).val) (h1 : (i 1).val = (y 1).val) :
    tileOut (blocks m c t) y = flat m c i := by
  have hy1 : (y 1).val < 24 := (y 1).isLt
  have hrow := Tile.after_row (blocks m c t) (⟨(y 0).val, (y 0).isLt⟩ : Fin 2048) ((y 1).val / 2 + 1)
  rw [weights_blocks, ctxRow_blocks, posRow_blocks] at hrow
  have hR : batchRow t (⟨(y 0).val, (y 0).isLt⟩ : Fin 2048) = (⟨(i 0).val, (i 0).isLt⟩ : Fin 8192) :=
    Fin.ext (by show 2048 * t.val + (y 0).val = (i 0).val; omega)
  rw [hR] at hrow
  have hpos := congrFun (congrArg Row.pos hrow) (⟨(y 1).val % 2, Nat.mod_lt _ (by decide)⟩ : Fin 2)
  have key : ∀ (P : Weights) (cx : Fin 512 → EReal) (p0 : Fin 2 → EReal) (n n' : Nat) (q q' : Fin 2), n = n' → q = q' →
      (Recurrence.after P cx p0 n).pos q = (Recurrence.after P cx p0 n').pos q' := by
    rintro _ _ _ _ _ _ _ rfl rfl; rfl
  unfold flat
  rw [Arrays.value_ix3]
  unfold Recurrence.result
  refine hpos.trans (key _ _ _ _ _ _ _ ?_ ?_)
  · show (y 1).val / 2 + 1 = (i 1).val / 2 % 12 + 1; omega
  · exact Fin.ext (by show (y 1).val % 2 = (i 1).val % 2; rw [h1])

/-- The output window's block index at grid point `t` is `(t, 0)`. -/
theorem idx17 : ∀ t : Fin cfg0.N, win0_17.index t (0 : Fin 2) = t.val ∧ win0_17.index t (1 : Fin 2) = 0 :=
  (by decide +kernel : ∀ t : Fin grid0.N, _)

/-- What grid point `t` writes back is block `t` of the result array. -/
theorem flushed_eq (c : Dev nD) (t : Fin cfg0.N) :
    (dats m 0 c).flushed 17 t = ((cfg0.win 17).blk t).view.read (Elt Ideal) (flat m c) := by
  show (cfg0.win 17).cut (grid0.coords t) ((dats m 0 c).after 17 t) = _
  rw [after0_17, outsAt_eq]
  obtain ⟨e0, e1⟩ := idx17 t
  funext y
  show tileOut (blocks m c t) y = flat m c (((cfg0.win 17).blk t).view.emb y)
  refine tileOut_eq_flat m c t y _ ?_ ?_
  · show win0_17.index t (0 : Fin 2) * 2048 + 1 * (y 0).val = _; rw [e0]; omega
  · show win0_17.index t (1 : Fin 2) * 24 + 1 * (y 1).val = _; rw [e1]; omega

/-- An index of the result array is in point `t`'s block iff each coordinate is in the block's range on its axis. -/
theorem mem_blk17 (t : Fin cfg0.N) (i : S8192x24.Idx) :
    i ∈ ((cfg0.win 17).blk t).view.set ↔ ∀ a : Fin 2, win0_17.index t a * S2048x24.size a ≤ (i a).val ∧ (i a).val < win0_17.index t a * S2048x24.size a + S2048x24.size a := by
  show i ∈ ((View.whole main_v18).slice (win0_17.rect t)).set ↔ _
  rw [View.set_slice_whole, Rect.mem_set_unit]
  exact Iff.rfl

/-- Every index of the result array is in some point's block: row `R` is in block `R / 2048`. -/
theorem cover17 (i : S8192x24.Idx) : ∃ t : Fin cfg0.N, (cfg0.win 17).flush t = true ∧ i ∈ ((cfg0.win 17).blk t).view.set := by
  have hi0 : (i 0).val < 8192 := (i 0).isLt
  have hi1 : (i 1).val < 24 := (i 1).isLt
  have hN : cfg0.N = 4 := N_0
  obtain ⟨e0, e1⟩ := idx17 (⟨(i 0).val / 2048, by omega⟩ : Fin cfg0.N)
  refine ⟨⟨(i 0).val / 2048, by omega⟩, flush0_17 _, ?_⟩
  rw [mem_blk17]
  intro a
  match a with
  | ⟨0, _⟩ =>
    show win0_17.index _ (0 : Fin 2) * 2048 ≤ (i 0).val ∧ (i 0).val < win0_17.index _ (0 : Fin 2) * 2048 + 2048
    rw [e0]; show (i 0).val / 2048 * 2048 ≤ (i 0).val ∧ (i 0).val < (i 0).val / 2048 * 2048 + 2048; omega
  | ⟨1, _⟩ =>
    show win0_17.index _ (1 : Fin 2) * 24 ≤ (i 1).val ∧ (i 1).val < win0_17.index _ (1 : Fin 2) * 24 + 24
    rw [e1]; omega

/-- The result array after the kernel call. -/
theorem final17 (c : Dev nD) : (dats m 0 c).arrAt 17 cfg0.N = flat m c :=
  (dats m 0 c).arrAt_eq_of_cover 17 (flat m c) (fun t _ => flushed_eq m c t) cover17

/-- The program's result: the result array, its 24 columns split into 12 steps of 2 coordinates and the step axis
    brought to the front, is the expected array of the arguments. -/
theorem tail_eq (c : Dev nD) : Pipeline.afterTail₀ cfgs (dats m) 0 (V0 m) [hostOps1] c main_v20 = (arrays m c).value := by
  unfold Pipeline.afterTail₀
  show StableHlo.after hostOps1 _ (Proc.devRef .tc main_v20) = _
  after_results
  have e : Pipeline.withArrays (cfgs 0).spec c (V0 m c) (fun w => (dats m 0 c).arrAt w (cfgs 0).N) (Proc.devRef .tc main_v18) = flat m c :=
    (Pipeline.withArrays_arr spec0 launch0.win.arr_inj c _ _ 17).trans (final17 m c)
  funext j
  obtain ⟨t, R, q, rfl⟩ : ∃ (t : Fin 12) (R : Fin 8192) (q : Fin 2), j = ix3 t R q := ⟨j 0, j 1, j 2, eq_ix3 j⟩
  have ht12 : t.val < 12 := t.isLt
  have hq2 : q.val < 2 := q.isLt
  rw [transpose_apply _ _ _ (ix3 t R q) (ix3 R t q) (fun b => by
    match b with
    | ⟨0, _⟩ => rfl
    | ⟨1, _⟩ => rfl
    | ⟨2, _⟩ => rfl)]
  show shapeCast S8192x12x2 (Pipeline.withArrays (cfgs 0).spec c (V0 m c) (fun w => (dats m 0 c).arrAt w (cfgs 0).N) (Proc.devRef .tc main_v18))
    shapeCasts_S8192x24_S8192x12x2 (ix3 R t q) = _
  rw [shapeCast_apply _ _ (ix3 R t q) (ix2 R (⟨2 * t.val + q.val, by omega⟩ : Fin 24)) (by
    rw [Shape.rowMajor_val_two, Shape.rowMajor_val_three]
    show R.val * 24 + (2 * t.val + q.val) = (R.val * 12 + t.val) * 2 + q.val
    omega), e]
  have hT : (⟨(2 * t.val + q.val) / 2 % 12, Nat.mod_lt _ (by decide)⟩ : Fin 12) = t := Fin.ext (by show (2 * t.val + q.val) / 2 % 12 = t.val; omega)
  have hQ : (⟨(2 * t.val + q.val) % 2, Nat.mod_lt _ (by decide)⟩ : Fin 2) = q := Fin.ext (by show (2 * t.val + q.val) % 2 = q.val; omega)
  show (arrays m c).value (ix3 (⟨(2 * t.val + q.val) / 2 % 12, Nat.mod_lt _ (by decide)⟩ : Fin 12) R
    (⟨(2 * t.val + q.val) % 2, Nat.mod_lt _ (by decide)⟩ : Fin 2)) = _
  rw [hT, hQ]

/-- The run, read: every weakly fair execution ends with the result buffer at the expected array of the arguments, and
    the arguments as launched. -/
theorem run : θ_run defs (onTc (τ := τ) (main (F := Ideal))) ⟨m, fun _ => 0, ρ⟩ fun r => ∀ c : Dev nD,
      r.2.mem ((c.tc : Thread nD τ).loc main_v20) = (arrays m c).value
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans ((((dats m) 0 c).arrAt_in 5 rfl _).trans ((A_eq m c 5).trans (V_main_arg4 m c))),
      ((h c).1 6).trans ((((dats m) 0 c).arrAt_in 6 rfl _).trans ((A_eq m c 6).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 9).trans ((((dats m) 0 c).arrAt_in 9 rfl _).trans ((A_eq m c 9).trans (V_main_arg8 m c))),
      ((h c).1 10).trans ((((dats m) 0 c).arrAt_in 10 rfl _).trans ((A_eq m c 10).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 13).trans ((((dats m) 0 c).arrAt_in 13 rfl _).trans ((A_eq m c 13).trans (V_main_arg12 m c))),
      ((h c).1 14).trans ((((dats m) 0 c).arrAt_in 14 rfl _).trans ((A_eq m c 14).trans (V_main_arg13 m c))),
      ((h c).1 15).trans ((((dats m) 0 c).arrAt_in 15 rfl _).trans ((A_eq m c 15).trans (V_main_arg14 m c))),
      ((h c).1 16).trans ((((dats m) 0 c).arrAt_in 16 rfl _).trans ((A_eq m c 16).trans (V_main_arg15 m c)))⟩)
    (run_main m ρ)

end Cert.KernelIdeal.Value

end
-- ==== Proof.Batch.lean ====
/-
  The whole batch of 8192 rows, as the reference program computes it on the host: the same recurrence on whole arrays.

  Each step joins the context array (8192 × 512) with the current position array (8192 × 2) along the columns and
  feeds the 514 columns through the first cell; a cell's pre-activations are the input or hidden array times the
  transposed weight matrix plus the bias on every row; the logistic function is spelt out as `1 / (1 + exp (-x))`.
  The read-out is the top hidden array times the transposed read-out matrix plus its bias. The twelve position
  arrays, each given a leading axis of extent one, are stacked along that axis.

  Every definition here is the host program's operations in the program's order.
-/
import proofs.«419133_j59072980189901_3_alg».proof.Proof.Gen.ReferenceIdeal

noncomputable section

namespace Cert.ReferenceIdeal.Batch

open Idealize.ShloMosaic Cert.ReferenceIdeal Cert.ReferenceIdeal.Gen

variable {F : FTy → Type} [FloatOps F]

/-- The number one on every entry of a hidden-sized array. -/
abbrev ones : FVec F S8192x256 .f32 := broadcastInDim S8192x256 ![] bcast_S_S8192x256 (constant S_ .f32 0x3F800000#32)

/-- The logistic function, spelt out. -/
abbrev sigma (x : FVec F S8192x256 .f32) : FVec F S8192x256 .f32 :=
  Host.divf ones (addf ones (Host.exp (Host.negf x)))

/-- A bias on every row. -/
abbrev biasRows (b : FVec F S768 .f32) : FVec F S8192x768 .f32 :=
  broadcastInDim S8192x768 ![0, 1] bcast_S1x768_S8192x768_0_1 (broadcastInDim S1x768 ![1] bcast_S768_S1x768_1 b)

/-- A pre-activation from a hidden-sized array: the array times the transposed matrix, plus the bias. -/
abbrev pre (x : FVec F S8192x256 .f32) (w : FVec F S768x256 .f32) (b : FVec F S768 .f32) : FVec F S8192x768 .f32 :=
  addf (Host.dotGeneral dot_S8192x256_S256x768_S8192x768_1_0_0_1_n_n none x (transpose S256x768 [1, 0] w transposes_S768x256_S256x768_1_0))
    (biasRows b)

/-- The first cell's input-side pre-activation: the context joined with the position, times the transposed matrix,
    plus the bias. -/
abbrev pre0 (ctx : FVec F S8192x512 .f32) (pos : FVec F S8192x2 .f32) (w : FVec F S768x514 .f32) (b : FVec F S768 .f32) :
    FVec F S8192x768 .f32 :=
  addf (Host.dotGeneral dot_S8192x514_S514x768_S8192x768_1_0_0_1_n_n none
      (concatenate S8192x514 1 [⟨S8192x512, ctx⟩, ⟨S8192x2, pos⟩] concatenates_S8192x512_S8192x2_S8192x514_d1)
      (transpose S514x768 [1, 0] w transposes_S768x514_S514x768_1_0))
    (biasRows b)

/-- The update gate of a cell. -/
abbrev update (gi gh : FVec F S8192x768 .f32) : FVec F S8192x256 .f32 :=
  sigma (addf (extractStridedSlice S8192x256 ![0, 256] gi slices_S8192x768_S8192x256_0_256)
    (extractStridedSlice S8192x256 ![0, 256] gh slices_S8192x768_S8192x256_0_256))

/-- The gated cell on arrays, from the update gate, the two pre-activations and the previous hidden array. -/
abbrev cell (z : FVec F S8192x256 .f32) (gi gh : FVec F S8192x768 .f32) (h : FVec F S8192x256 .f32) : FVec F S8192x256 .f32 :=
  addf
    (mulf (subf ones z)
      (Host.tanh (addf (extractStridedSlice S8192x256 ![0, 512] gi slices_S8192x768_S8192x256_0_512)
        (mulf
          (sigma (addf (extractStridedSlice S8192x256 ![0, 0] gi slices_S8192x768_S8192x256_0_0)
            (extractStridedSlice S8192x256 ![0, 0] gh slices_S8192x768_S8192x256_0_0)))
          (extractStridedSlice S8192x256 ![0, 512] gh slices_S8192x768_S8192x256_0_512)))))
    (mulf z h)

/-- The read-out. -/
abbrev readOut (h : FVec F S8192x256 .f32) (wo : FVec F S2x256 .f32) (bo : FVec F S2 .f32) : FVec F S8192x2 .f32 :=
  addf (Host.dotGeneral dot_S8192x256_S256x2_S8192x2_1_0_0_1_n_n none h (transpose S256x2 [1, 0] wo transposes_S2x256_S256x2_1_0))
    (broadcastInDim S8192x2 ![0, 1] bcast_S1x2_S8192x2_0_1 (broadcastInDim S1x2 ![1] bcast_S2_S1x2_1 bo))

/-- The program's arguments. -/
structure Args (F : FTy → Type) where
  ctx : FVec F S8192x512 .f32
  obs : FVec F S8x8192x2 .f32
  wi0 : FVec F S768x514 .f32
  wh0 : FVec F S768x256 .f32
  bi0 : FVec F S768 .f32
  bh0 : FVec F S768 .f32
  wi1 : FVec F S768x256 .f32
  wh1 : FVec F S768x256 .f32
  bi1 : FVec F S768 .f32
  bh1 : FVec F S768 .f32
  wi2 : FVec F S768x256 .f32
  wh2 : FVec F S768x256 .f32
  bi2 : FVec F S768 .f32
  bh2 : FVec F S768 .f32
  wo : FVec F S2x256 .f32
  bo : FVec F S2 .f32

/-- What the batch carries from step to step. -/
structure St (F : FTy → Type) where
  h0 : FVec F S8192x256 .f32
  h1 : FVec F S8192x256 .f32
  h2 : FVec F S8192x256 .f32
  pos : FVec F S8192x2 .f32

variable (A : Args F)

/-- The first cell's new hidden array. -/
abbrev next0 (s : St F) : FVec F S8192x256 .f32 :=
  cell (update (pre0 A.ctx s.pos A.wi0 A.bi0) (pre s.h0 A.wh0 A.bh0)) (pre0 A.ctx s.pos A.wi0 A.bi0) (pre s.h0 A.wh0 A.bh0) s.h0
/-- The second cell's. -/
abbrev next1 (s : St F) : FVec F S8192x256 .f32 :=
  cell (update (pre (next0 A s) A.wi1 A.bi1) (pre s.h1 A.wh1 A.bh1)) (pre (next0 A s) A.wi1 A.bi1) (pre s.h1 A.wh1 A.bh1) s.h1
/-- The third cell's. -/
abbrev next2 (s : St F) : FVec F S8192x256 .f32 :=
  cell (update (pre (next1 A s) A.wi2 A.bi2) (pre s.h2 A.wh2 A.bh2)) (pre (next1 A s) A.wi2 A.bi2) (pre s.h2 A.wh2 A.bh2) s.h2

/-- One step of the batch. -/
def step (s : St F) : St F where
  h0 := next0 A s
  h1 := next1 A s
  h2 := next2 A s
  pos := readOut (next2 A s) A.wo A.bo

/-- Zero on every entry of a hidden-sized array. -/
abbrev zeros : FVec F S8192x256 .f32 := broadcastInDim S8192x256 ![] bcast_S_S8192x256 (constant S_ .f32 0x00000000#32)

/-- The batch before the first step: zero hidden arrays, the last observed positions. -/
def start : St F :=
  ⟨zeros, zeros, zeros,
    shapeCast S8192x2 (extractStridedSlice S1x8192x2 ![7, 0, 0] A.obs slices_S8x8192x2_S1x8192x2_7_0_0) shapeCasts_S1x8192x2_S8192x2⟩

/-- The batch after `n` steps. -/
def after : Nat → St F
  | 0 => start A
  | n + 1 => step A (after n)

/-- A position array with a leading axis of extent one: one slab of the result. -/
abbrev slab (p : FVec F S8192x2 .f32) : FVec F S1x8192x2 .f32 := broadcastInDim S1x8192x2 ![1, 2] bcast_S8192x2_S1x8192x2_1_2 p

/-- The result: the twelve steps' position arrays stacked along a new leading axis. -/
def result : FVec F S12x8192x2 .f32 :=
  concatenate S12x8192x2 0
    [⟨S1x8192x2, slab (after A 1).pos⟩, ⟨S1x8192x2, slab (after A 2).pos⟩, ⟨S1x8192x2, slab (after A 3).pos⟩,
     ⟨S1x8192x2, slab (after A 4).pos⟩, ⟨S1x8192x2, slab (after A 5).pos⟩, ⟨S1x8192x2, slab (after A 6).pos⟩,
     ⟨S1x8192x2, slab (after A 7).pos⟩, ⟨S1x8192x2, slab (after A 8).pos⟩, ⟨S1x8192x2, slab (after A 9).pos⟩,
     ⟨S1x8192x2, slab (after A 10).pos⟩, ⟨S1x8192x2, slab (after A 11).pos⟩, ⟨S1x8192x2, slab (after A 12).pos⟩]
    concatenates_S1x8192x2_S1x8192x2_S1x8192x2_S1x8192x2_S1x8192x2_S1x8192x2_S1x8192x2_S1x8192x2_S1x8192x2_S1x8192x2_S1x8192x2_S1x8192x2_S12x8192x2_d0

end Cert.ReferenceIdeal.Batch

end
-- ==== Proof.RefSteps.lean ====
import proofs.«419133_j59072980189901_3_alg».proof.Proof.RefRun0
import proofs.«419133_j59072980189901_3_alg».proof.Proof.Batch

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 to 8. -/
abbrev segPro : List (HloOp τ sig (Elt F)) :=
  [ nullary main_cst (constant S_ .f32 0x00000000#32),
    unary main_cst main_v0 (broadcastInDim S8192x256 ![] bcast_S_S8192x256 : (⟨S_, .f32⟩ : BufTy).Contents (Elt F) → (⟨S8192x256, .f32⟩ : BufTy).Contents (Elt F)),
    nullary main_cst_0 (constant S_ .f32 0x00000000#32),
    unary main_cst_0 main_v1 (broadcastInDim S8192x256 ![] bcast_S_S8192x256 : (⟨S_, .f32⟩ : BufTy).Contents (Elt F) → (⟨S8192x256, .f32⟩ : BufTy).Contents (Elt F)),
    nullary main_cst_1 (constant S_ .f32 0x00000000#32),
    unary main_cst_1 main_v2 (broadcastInDim S8192x256 ![] bcast_S_S8192x256 : (⟨S_, .f32⟩ : BufTy).Contents (Elt F) → (⟨S8192x256, .f32⟩ : BufTy).Contents (Elt F)),
    unary main_arg1 main_v3 ((extractStridedSlice S1x8192x2 ![7, 0, 0] · slices_S8x8192x2_S1x8192x2_7_0_0) : (⟨S8x8192x2, .f32⟩ : BufTy).Contents (Elt F) → (⟨S1x8192x2, .f32⟩ : BufTy).Contents (Elt F)),
    reshape main_v3 main_v4 rfl shapeCasts_S1x8192x2_S8192x2 ]

/-- The buffers they write. -/
abbrev segPro_W : List (Ref sig .tc) := [main_cst, main_v0, main_cst_0, main_v1, main_cst_1, main_v2, main_v3, main_v4]
set_option maxRecDepth 8192 in
theorem segPro_writes : (segPro : List (HloOp τ sig (Elt F))).Forall fun op => op.writes ⊆ (segPro_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem segPro_keep (V : Valuation τ sig (Elt F)) (r : Ref sig .tc) (h : r ∉ segPro_W) :
    after segPro V (Proc.devRef .tc r) = V (Proc.devRef .tc r) :=
  after_of_writes_sub segPro _ segPro_writes h

/-- @main's operations 9 to 143. -/
abbrev seg0 : List (HloOp τ sig (Elt F)) :=
  [ binary main_arg0 main_v4 main_v5 (fn_main_v5 (F := F)),
    unary main_arg2 main_v6 ((transpose S514x768 [1, 0] · transposes_S768x514_S514x768_1_0) : (⟨S768x514, .f32⟩ : BufTy).Contents (Elt F) → (⟨S514x768, .f32⟩ : BufTy).Contents (Elt F)),
    binary main_v5 main_v6 main_v7 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v8 (broadcastInDim S1x768 ![1] bcast_S768_S1x768_1 : (⟨S768, .f32⟩ : BufTy).Contents (Elt F) → (⟨S1x768, .f32⟩ : BufTy).Contents (Elt F)),
    unary main_v8 main_v9 (broadcastInDim S8192x768 ![0, 1] bcast_S1x768_S8192x768_0_1 : (⟨S1x768, .f32⟩ : BufTy).Contents (Elt F) → (⟨S8192x768, .f32⟩ : BufTy).Contents (Elt F)),
    binary main_v7 main_v9 main_v10 (addf : (⟨S8192x768, .f32⟩ : BufTy).Contents (Elt F) → (⟨S8192x768, .f32⟩ : BufTy).Contents (Elt F) → (⟨S8192x768, .f32⟩ : BufTy).Contents (Elt F)),
    unary main_arg3 main_v11 ((transpose S256x768 [1, 0] · transposes_S768x256_S256x768_1_0) : (⟨S768x256, .f32⟩ : BufTy).Contents (Elt F) → (⟨S256x768, .f32⟩ : BufTy).Contents (Elt F)),
    binary main_v0 main_v11 main_v12 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v13 (broadcastInDim S1x768 ![1] bcast_S768_S1x768_1 : (⟨S768, .f32⟩ : BufTy).Contents (Elt F) → (⟨S1x768, .f32⟩ : BufTy).Contents (Elt F)),
    unary main_v13 main_v14 (broadcastInDim S8192x768 ![0, 1] bcast_S1x768_S8192x768_0_1 : (⟨S1x768, .f32⟩ : BufTy).Contents (Elt F) → (⟨S8192x768, .f32⟩ : BufTy).Contents (Elt F)),
    binary main_v12 main_v14 main_v15 (addf : (⟨S8192x768, .f32⟩ : BufTy).Contents (Elt F) → (⟨S8192x768, .f32⟩ : BufTy).Contents (Elt F) → (⟨S8192x768, .f32⟩ : BufTy).Contents (Elt F)),
    unary main_v10 main_v16 ((extractStridedSlice S8192x256 ![0, 0] · slices_S8192x768_S8192x256_0_0) : (⟨S8192x768, .f32⟩ : BufTy).Contents (Elt F) → (⟨S8192x256, .f32⟩ : BufTy).Contents (Elt F)),
    unary main_v10 main_v17 ((extractStridedSlice S8192x256 ![0, 256] · slices_S8192x768_S8192x256_0_256) : (⟨S8192x768, .f32⟩ : BufTy).Contents (Elt F) → (⟨S8192x256, .f32⟩ : BufTy).Contents (Elt F)),
    unary main_v10 main_v18 ((extractStridedSlice S8192x256 ![0, 512] · slices_S8192x768_S8192x256_0_512) : (⟨S8192x768, .f32⟩ : BufTy).Contents (Elt F) → (⟨S8192x256, .f32⟩ : BufTy).Contents (Elt F)),
    unary main_v15 main_v19 ((extractStridedSlice S8192x256 ![0, 0] · slices_S8192x768_S8192x256_0_0) : (⟨S8192x768, .f32⟩ : BufTy).Contents (Elt F) → (⟨S8192x256, .f32⟩ : BufTy).Contents (Elt F)),
    unary main_v15 main_v20 ((extractStridedSlice S8192x256 ![0, 256] · slices_S8192x768_S8192x256_0_256) : (⟨S8192x768, .f32⟩ : BufTy).Contents (Elt F) → (⟨S8192x256, .f32⟩ : BufTy).Contents (Elt F)),
    unary main_v15 main_v21 ((extractStridedSlice S8192x256 ![0, 512] · slices_S8192x768_S8192x256_0_512) : (⟨S8192x768, .f32⟩ : BufTy).Contents (Elt F) → (⟨S8192x256, .f32⟩ : BufTy).Contents (Elt F)),
    binary main_v16 main_v19 main_v22 (addf : (⟨S8192x256, .f32⟩ : BufTy).Contents (Elt F) → (⟨S8192x256, .f32⟩ : BufTy).Contents (Elt F) → (⟨S8192x256, .f32⟩ : BufTy).Contents (Elt F)),
    unary main_v22 main_v23 (Host.negf : (⟨S8192x256, .f32⟩ : BufTy).Contents (Elt F) → (⟨S8192x256, .f32⟩ : BufTy).Contents (Elt F)),
    unary main_v23 main_v24 (Host.exp : (⟨S8192x256, .f32⟩ : BufTy).Contents (Elt F) → (⟨S8192x256, .f32⟩ : BufTy).Contents (Elt F)),
    nullary main_cst_2 (constant S_ .f32 0x3F800000#32),
    unary main_cst_2 main_v25 (broadcastInDim S8192x256 ![] bcast_S_S8192x256 : (⟨S_, .f32⟩ : BufTy).Contents (Elt F) → (⟨S8192x256, .f32⟩ : BufTy).Contents (Elt F)),
    binary main_v25 main_v24 main_v26 (addf : (⟨S8192x256, .f32⟩ : BufTy).Contents (Elt F) → (⟨S8192x256, .f32⟩ : BufTy).Contents (Elt F) → (⟨S8192x256, .f32⟩ : BufTy).Contents (Elt F)),
    nullary main_cst_3 (constant S_ .f32 0x3F800000#32),
    unary main_cst_3 main_v27 (broadcastInDim S8192x256 ![] bcast_S_S8192x256 : (⟨S_, .f32⟩ : BufTy).Contents (Elt F) → (⟨S8192x256, .f32⟩ : BufTy).Contents (Elt F)),
    binary main_v27 main_v26 main_v28 (Host.divf : (⟨S8192x256, .f32⟩ : BufTy).Contents (Elt F) → (⟨S8192x256, .f32⟩ : BufTy).Contents (Elt F) → (⟨S8192x256, .f32⟩ : BufTy).Contents (Elt F)),
    binary main_v17 main_v20 main_v29 (addf : (⟨S8192x256, .f32⟩ : BufTy).Contents (Elt F) → (⟨S8192x256, .f32⟩ : BufTy).Contents (Elt F) → (⟨S8192x256, .f32⟩ : BufTy).Contents (Elt F)),
    unary main_v29 main_v30 (Host.negf : (⟨S8192x256, .f32⟩ : BufTy).Contents (Elt F) → (⟨S8192x256, .f32⟩ : BufTy).Contents (Elt F)),
    unary main_v30 main_v31 (Host.exp : (⟨S8192x256, .f32⟩ : BufTy).Contents (Elt F) → (⟨S8192x256, .f32⟩ : BufTy).Contents (Elt F)),
    nullary main_cst_4 (constant S_ .f32 0x3F800000#32),
    unary main_cst_4 main_v32 (broadcastInDim S8192x256 ![] bcast_S_S8192x256 : (⟨S_, .f32⟩ : BufTy).Contents (Elt F) → (⟨S8192x256, .f32⟩ : BufTy).Contents (Elt F)),
    binary main_v32 main_v31 main_v33 (addf : (⟨S8192x256, .f32⟩ : BufTy).Contents (Elt F) → (⟨S8192x256, .f32⟩ : BufTy).Contents (Elt F) → (⟨S8192x256, .f32⟩ : BufTy).Contents (Elt F)),
    nullary main_cst_5 (constant S_ .f32 0x3F800000#32),
    unary main_cst_5 main_v34 (broadcastInDim S8192x256 ![] bcast_S_S8192x256 : (⟨S_, .f32⟩ : BufTy).Contents (Elt F) → (⟨S8192x256, .f32⟩ : BufTy).Contents (Elt F)),
    binary main_v34 main_v33 main_v35 (Host.divf : (⟨S8192x256, .f32⟩ : BufTy).Contents (Elt F) → (⟨S8192x256, .f32⟩ : BufTy).Contents (Elt F) → (⟨S8192x256, .f32⟩ : BufTy).Contents (Elt F)),
    binary main_v28 main_v21 main_v36 (mulf : (⟨S8192x256, .f32⟩ : BufTy).Contents (Elt F) → (⟨S8192x256, .f32⟩ : BufTy).Contents (Elt F) → (⟨S8192x256, .f32⟩ : BufTy).Contents (Elt F)),
    binary main_v18 main_v36 main_v37 (addf : (⟨S8192x256, .f32⟩ : BufTy).Contents (Elt F) → (⟨S8192x256, .f32⟩ : BufTy).Contents (Elt F) → (⟨S8192x256, .f32⟩ : BufTy).Contents (Elt F)),
    unary main_v37 main_v38 (Host.tanh : (⟨S8192x256, .f32⟩ : BufTy).Contents (Elt F) → (⟨S8192x256, .f32⟩ : BufTy).Contents (Elt F)),
    nullary main_cst_6 (constant S_ .f32 0x3F800000#32),
    unary main_cst_6 main_v39 (broadcastInDim S8192x256 ![] bcast_S_S8192x256 : (⟨S_, .f32⟩ : BufTy).Contents (Elt F) → (⟨S8192x256, .f32⟩ : BufTy).Contents (Elt F)),
    binary main_v39 main_v35 main_v40 (subf : (⟨S8192x256, .f32⟩ : BufTy).Contents (Elt F) → (⟨S8192x256, .f32⟩ : BufTy).Contents (Elt F) → (⟨S8192x256, .f32⟩ : BufTy).Contents (Elt F)),
    binary main_v40 main_v38 main_v41 (mulf : (⟨S8192x256, .f32⟩ : BufTy).Contents (Elt F) → (⟨S8192x256, .f32⟩ : BufTy).Contents (Elt F) → (⟨S8192x256, .f32⟩ : BufTy).Contents (Elt F)),
    binary main_v35 main_v0 main_v42 (mulf : (⟨S8192x256, .f32⟩ : BufTy).Contents (Elt F) → (⟨S8192x256, .f32⟩ : BufTy).Contents (Elt F) → (⟨S8192x256, .f32⟩ : BufTy).Contents (Elt F)),
    binary main_v41 main_v42 main_v43 (addf : (⟨S8192x256, .f32⟩ : BufTy).Contents (Elt F) → (⟨S8192x256, .f32⟩ : BufTy).Contents (Elt F) → (⟨S8192x256, .f32⟩ : BufTy).Contents (Elt F)),
    unary main_arg6 main_v44 ((transpose S256x768 [1, 0] · transposes_S768x256_S256x768_1_0) : (⟨S768x256, .f32⟩ : BufTy).Contents (Elt F) → (⟨S256x768, .f32⟩ : BufTy).Contents (Elt F)),
    binary main_v43 main_v44 main_v45 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v46 (broadcastInDim S1x768 ![1] bcast_S768_S1x768_1 : (⟨S768, .f32⟩ : BufTy).Contents (Elt F) → (⟨S1x768, .f32⟩ : BufTy).Contents (Elt F)),
    unary main_v46 main_v47 (broadcastInDim S8192x768 ![0, 1] bcast_S1x768_S8192x768_0_1 : (⟨S1x768, .f32⟩ : BufTy).Contents (Elt F) → (⟨S8192x768, .f32⟩ : BufTy).Contents (Elt F)),
    binary main_v45 main_v47 main_v48 (addf : (⟨S8192x768, .f32⟩ : BufTy).Contents (Elt F) → (⟨S8192x768, .f32⟩ : BufTy).Contents (Elt F) → (⟨S8192x768, .f32⟩ : BufTy).Contents (Elt F)),
    unary main_arg7 main_v49 ((transpose S256x768 [1, 0] · transposes_S768x256_S256x768_1_0) : (⟨S768x256, .f32⟩ : BufTy).Contents (Elt F) → (⟨S256x768, .f32⟩ : BufTy).Contents (Elt F)),
    binary main_v1 main_v49 main_v50 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v51 (broadcastInDim S1x768 ![1] bcast_S768_S1x768_1 : (⟨S768, .f32⟩ : BufTy).Contents (Elt F) → (⟨S1x768, .f32⟩ : BufTy).Contents (Elt F)),
    unary main_v51 main_v52 (broadcastInDim S8192x768 ![0, 1] bcast_S1x768_S8192x768_0_1 : (⟨S1x768, .f32⟩ : BufTy).Contents (Elt F) → (⟨S8192x768, .f32⟩ : BufTy).Contents (Elt F)),
    binary main_v50 main_v52 main_v53 (addf : (⟨S8192x768, .f32⟩ : BufTy).Contents (Elt F) → (⟨S8192x768, .f32⟩ : BufTy).Contents (Elt F) → (⟨S8192x768, .f32⟩ : BufTy).Contents (Elt F)),
    unary main_v48 main_v54 ((extractStridedSlice S8192x256 ![0, 0] · slices_S8192x768_S8192x256_0_0) : (⟨S8192x768, .f32⟩ : BufTy).Contents (Elt F) → (⟨S8192x256, .f32⟩ : BufTy).Contents (Elt F)),
    unary main_v48 main_v55 ((extractStridedSlice S8192x256 ![0, 256] · slices_S8192x768_S8192x256_0_256) : (⟨S8192x768, .f32⟩ : BufTy).Contents (Elt F) → (⟨S8192x256, .f32⟩ : BufTy).Contents (Elt F)),
    unary main_v48 main_v56 ((extractStridedSlice S8192x256 ![0, 512] · slices_S8192x768_S8192x256_0_512) : (⟨S8192x768, .f32⟩ : BufTy).Contents (Elt F) → (⟨S8192x256, .f32⟩ : BufTy).Contents (Elt F)),
    unary main_v53 main_v57 ((extractStridedSlice S8192x256 ![0, 0] · slices_S8192x768_S8192x256_0_0) : (⟨S8192x768, .f32⟩ : BufTy).Contents (Elt F) → (⟨S8192x256, .f32⟩ : BufTy).Contents (Elt F)),
    unary main_v53 main_v58 ((extractStridedSlice S8192x256 ![0, 256] · slices_S8192x768_S8192x256_0_256) : (⟨S8192x768, .f32⟩ : BufTy).Contents (Elt F) → (⟨S8192x256, .f32⟩ : BufTy).Contents (Elt F)),
    unary main_v53 main_v59 ((extractStridedSlice S8192x256 ![0, 512] · slices_S8192x768_S8192x256_0_512) : (⟨S8192x768, .f32⟩ : BufTy).Contents (Elt F) → (⟨S8192x256, .f32⟩ : BufTy).Contents (Elt F)),
    binary main_v54 main_v57 main_v60 (addf : (⟨S8192x256, .f32⟩ : BufTy).Contents (Elt F) → (⟨S8192x256, .f32⟩ : BufTy).Contents (Elt F) → (⟨S8192x256, .f32⟩ : BufTy).Contents (Elt F)),
    unary main_v60 main_v61 (Host.negf : (⟨S8192x256, .f32⟩ : BufTy).Contents (Elt F) → (⟨S8192x256, .f32⟩ : BufTy).Contents (Elt F)),
    unary main_v61 main_v62 (Host.exp : (⟨S8192x256, .f32⟩ : BufTy).Contents (Elt F) → (⟨S8192x256, .f32⟩ : BufTy).Contents (Elt F)),
    nullary main_cst_7 (constant S_ .f32 0x3F800000#32),
    unary main_cst_7 main_v63 (broadcastInDim S8192x256 ![] bcast_S_S8192x256 : (⟨S_, .f32⟩ : BufTy).Contents (Elt F) → (⟨S8192x256, .f32⟩ : BufTy).Contents (Elt F)),
    binary main_v63 main_v62 main_v64 (addf : (⟨S8192x256, .f32⟩ : BufTy).Contents (Elt F) → (⟨S8192x256, .f32⟩ : BufTy).Contents (Elt F) → (⟨S8192x256, .f32⟩ : BufTy).Contents (Elt F)),
    nullary main_cst_8 (constant S_ .f32 0x3F800000#32),
    unary main_cst_8 main_v65 (broadcastInDim S8192x256 ![] bcast_S_S8192x256 : (⟨S_, .f32⟩ : BufTy).Contents (Elt F) → (⟨S8192x256, .f32⟩ : BufTy).Contents (Elt F)),
    binary main_v65 main_v64 main_v66 (Host.divf : (⟨S8192x256, .f32⟩ : BufTy).Contents (Elt F) → (⟨S8192x256, .f32⟩ : BufTy).Contents (Elt F) → (⟨S8192x256, .f32⟩ : BufTy).Contents (Elt F)),
    binary main_v55 main_v58 main_v67 (addf : (⟨S8192x256, .f32⟩ : BufTy).Contents (Elt F) → (⟨S8192x256, .f32⟩ : BufTy).Contents (Elt F) → (⟨S8192x256, .f32⟩ : BufTy).Contents (Elt F)),
    unary main_v67 main_v68 (Host.negf : (⟨S8192x256, .f32⟩ : BufTy).Contents (Elt F) → (⟨S8192x256, .f32⟩ : BufTy).Contents (Elt F)),
    unary main_v68 main_v69 (Host.exp : (⟨S8192x256, .f32⟩ : BufTy).Contents (Elt F) → (⟨S8192x256, .f32⟩ : BufTy).Contents (Elt F)),
    nullary main_cst_9 (constant S_ .f32 0x3F800000#32),
    unary main_cst_9 main_v70 (broadcastInDim S8192x256 ![] bcast_S_S8192x256 : (⟨S_, .f32⟩ : BufTy).Contents (Elt F) → (⟨S8192x256, .f32⟩ : BufTy).Contents (Elt F)),
    binary main_v70 main_v69 main_v71 (addf : (⟨S8192x256, .f32⟩ : BufTy).Contents (Elt F) → (⟨S8192x256, .f32⟩ : BufTy).Contents (Elt F) → (⟨S8192x256, .f32⟩ : BufTy).Contents (Elt F)),
    nullary main_cst_10 (constant S_ .f32 0x3F800000#32),
    unary main_cst_10 main_v72 (broadcastInDim S8192x256 ![] bcast_S_S8192x256 : (⟨S_, .f32⟩ : BufTy).Contents (Elt F) → (⟨S8192x256, .f32⟩ : BufTy).Contents (Elt F)),
    binary main_v72 main_v71 main_v73 (Host.divf : (⟨S8192x256, .f32⟩ : BufTy).Contents (Elt F) → (⟨S8192x256, .f32⟩ : BufTy).Contents (Elt F) → (⟨S8192x256, .f32⟩ : BufTy).Contents (Elt F)),
    binary main_v66 main_v59 main_v74 (mulf : (⟨S8192x256, .f32⟩ : BufTy).Contents (Elt F) → (⟨S8192x256, .f32⟩ : BufTy).Contents (Elt F) → (⟨S8192x256, .f32⟩ : BufTy).Contents (Elt F)),
    binary main_v56 main_v74 main_v75 (addf : (⟨S8192x256, .f32⟩ : BufTy).Contents (Elt F) → (⟨S8192x256, .f32⟩ : BufTy).Contents (Elt F) → (⟨S8192x256, .f32⟩ : BufTy).Contents (Elt F)),
    unary main_v75 main_v76 (Host.tanh : (⟨S8192x256, .f32⟩ : BufTy).Contents (Elt F) → (⟨S8192x256, .f32⟩ : BufTy).Contents (Elt F)),
    nullary main_cst_11 (constant S_ .f32 0x3F800000#32),
    unary main_cst_11 main_v77 (broadcastInDim S8192x256 ![] bcast_S_S8192x256 : (⟨S_, .f32⟩ : BufTy).Contents (Elt F) → (⟨S8192x256, .f32⟩ : BufTy).Contents (Elt F)),
    binary main_v77 main_v73 main_v78 (subf : (⟨S8192x256, .f32⟩ : BufTy).Contents (Elt F) → (⟨S8192x256, .f32⟩ : BufTy).Contents (Elt F) → (⟨S8192x256, .f32⟩ : BufTy).Contents (Elt F)),
    binary main_v78 main_v76 main_v79 (mulf : (⟨S8192x256, .f32⟩ : BufTy).Contents (Elt F) → (⟨S8192x256, .f32⟩ : BufTy).Contents (Elt F) → (⟨S8192x256, .f32⟩ : BufTy).Contents (Elt F)),
    binary main_v73 main_v1 main_v80 (mulf : (⟨S8192x256, .f32⟩ : BufTy).Contents (Elt F) → (⟨S8192x256, .f32⟩ : BufTy).Contents (Elt F) → (⟨S8192x256, .f32⟩ : BufTy).Contents (Elt F)),
    binary main_v79 main_v80 main_v81 (addf : (⟨S8192x256, .f32⟩ : BufTy).Contents (Elt F) → (⟨S8192x256, .f32⟩ : BufTy).Contents (Elt F) → (⟨S8192x256, .f32⟩ : BufTy).Contents (Elt F)),
    unary main_arg10 main_v82 ((transpose S256x768 [1, 0] · transposes_S768x256_S256x768_1_0) : (⟨S768x256, .f32⟩ : BufTy).Contents (Elt F) → (⟨S256x768, .f32⟩ : BufTy).Contents (Elt F)),
    binary main_v81 main_v82 main_v83 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v84 (broadcastInDim S1x768 ![1] bcast_S768_S1x768_1 : (⟨S768, .f32⟩ : BufTy).Contents (Elt F) → (⟨S1x768, .f32⟩ : BufTy).Contents (Elt F)),
    unary main_v84 main_v85 (broadcastInDim S8192x768 ![0, 1] bcast_S1x768_S8192x768_0_1 : (⟨S1x768, .f32⟩ : BufTy).Contents (Elt F) → (⟨S8192x768, .f32⟩ : BufTy).Contents (Elt F)),
    binary main_v83 main_v85 main_v86 (addf : (⟨S8192x768, .f32⟩ : BufTy).Contents (Elt F) → (⟨S8192x768, .f32⟩ : BufTy).Contents (Elt F) → (⟨S8192x768, .f32⟩ : BufTy).Contents (Elt F)),
    unary main_arg11 main_v87 ((transpose S256x768 [1, 0] · transposes_S768x256_S256x768_1_0) : (⟨S768x256, .f32⟩ : BufTy).Contents (Elt F) → (⟨S256x768, .f32⟩ : BufTy).Contents (Elt F)),
    binary main_v2 main_v87 main_v88 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v89 (broadcastInDim S1x768 ![1] bcast_S768_S1x768_1 : (⟨S768, .f32⟩ : BufTy).Contents (Elt F) → (⟨S1x768, .f32⟩ : BufTy).Contents (Elt F)),
    unary main_v89 main_v90 (broadcastInDim S8192x768 ![0, 1] bcast_S1x768_S8192x768_0_1 : (⟨S1x768, .f32⟩ : BufTy).Contents (Elt F) → (⟨S8192x768, .f32⟩ : BufTy).Contents (Elt F)),
    binary main_v88 main_v90 main_v91 (addf : (⟨S8192x768, .f32⟩ : BufTy).Contents (Elt F) → (⟨S8192x768, .f32⟩ : BufTy).Contents (Elt F) → (⟨S8192x768, .f32⟩ : BufTy).Contents (Elt F)),
    unary main_v86 main_v92 ((extractStridedSlice S8192x256 ![0, 0] · slices_S8192x768_S8192x256_0_0) : (⟨S8192x768, .f32⟩ : BufTy).Contents (Elt F) → (⟨S8192x256, .f32⟩ : BufTy).Contents (Elt F)),
    unary main_v86 main_v93 ((extractStridedSlice S8192x256 ![0, 256] · slices_S8192x768_S8192x256_0_256) : (⟨S8192x768, .f32⟩ : BufTy).Contents (Elt F) → (⟨S8192x256, .f32⟩ : BufTy).Contents (Elt F)),
    unary main_v86 main_v94 ((extractStridedSlice S8192x256 ![0, 512] · slices_S8192x768_S8192x256_0_512) : (⟨S8192x768, .f32⟩ : BufTy).Contents (Elt F) → (⟨S8192x256, .f32⟩ : BufTy).Contents (Elt F)),
    unary main_v91 main_v95 ((extractStridedSlice S8192x256 ![0, 0] · slices_S8192x768_S8192x256_0_0) : (⟨S8192x768, .f32⟩ : BufTy).Contents (Elt F) → (⟨S8192x256, .f32⟩ : BufTy).Contents (Elt F)),
    unary main_v91 main_v96 ((extractStridedSlice S8192x256 ![0, 256] · slices_S8192x768_S8192x256_0_256) : (⟨S8192x768, .f32⟩ : BufTy).Contents (Elt F) → (⟨S8192x256, .f32⟩ : BufTy).Contents (Elt F)),
    unary main_v91 main_v97 ((extractStridedSlice S8192x256 ![0, 512] · slices_S8192x768_S8192x256_0_512) : (⟨S8192x768, .f32⟩ : BufTy).Contents (Elt F) → (⟨S8192x256, .f32⟩ : BufTy).Contents (Elt F)),
    binary main_v92 main_v95 main_v98 (addf : (⟨S8192x256, .f32⟩ : BufTy).Contents (Elt F) → (⟨S8192x256, .f32⟩ : BufTy).Contents (Elt F) → (⟨S8192x256, .f32⟩ : BufTy).Contents (Elt F)),
    unary main_v98 main_v99 (Host.negf : (⟨S8192x256, .f32⟩ : BufTy).Contents (Elt F) → (⟨S8192x256, .f32⟩ : BufTy).Contents (Elt F)),
    unary main_v99 main_v100 (Host.exp : (⟨S8192x256, .f32⟩ : BufTy).Contents (Elt F) → (⟨S8192x256, .f32⟩ : BufTy).Contents (Elt F)),
    nullary main_cst_12 (constant S_ .f32 0x3F800000#32),
    unary main_cst_12 main_v101 (broadcastInDim S8192x256 ![] bcast_S_S8192x256 : (⟨S_, .f32⟩ : BufTy).Contents (Elt F) → (⟨S8192x256, .f32⟩ : BufTy).Contents (Elt F)),
    binary main_v101 main_v100 main_v102 (addf : (⟨S8192x256, .f32⟩ : BufTy).Contents (Elt F) → (⟨S8192x256, .f32⟩ : BufTy).Contents (Elt F) → (⟨S8192x256, .f32⟩ : BufTy).Contents (Elt F)),
    nullary main_cst_13 (constant S_ .f32 0x3F800000#32),
    unary main_cst_13 main_v103 (broadcastInDim S8192x256 ![] bcast_S_S8192x256 : (⟨S_, .f32⟩ : BufTy).Contents (Elt F) → (⟨S8192x256, .f32⟩ : BufTy).Contents (Elt F)),
    binary main_v103 main_v102 main_v104 (Host.divf : (⟨S8192x256, .f32⟩ : BufTy).Contents (Elt F) → (⟨S8192x256, .f32⟩ : BufTy).Contents (Elt F) → (⟨S8192x256, .f32⟩ : BufTy).Contents (Elt F)),
    binary main_v93 main_v96 main_v105 (addf : (⟨S8192x256, .f32⟩ : BufTy).Contents (Elt F) → (⟨S8192x256, .f32⟩ : BufTy).Contents (Elt F) → (⟨S8192x256, .f32⟩ : BufTy).Contents (Elt F)),
    unary main_v105 main_v106 (Host.negf : (⟨S8192x256, .f32⟩ : BufTy).Contents (Elt F) → (⟨S8192x256, .f32⟩ : BufTy).Contents (Elt F)),
    unary main_v106 main_v107 (Host.exp : (⟨S8192x256, .f32⟩ : BufTy).Contents (Elt F) → (⟨S8192x256, .f32⟩ : BufTy).Contents (Elt F)),
    nullary main_cst_14 (constant S_ .f32 0x3F800000#32),
    unary main_cst_14 main_v108 (broadcastInDim S8192x256 ![] bcast_S_S8192x256 : (⟨S_, .f32⟩ : BufTy).Contents (Elt F) → (⟨S8192x256, .f32⟩ : BufTy).Contents (Elt F)),
    binary main_v108 main_v107 main_v109 (addf : (⟨S8192x256, .f32⟩ : BufTy).Contents (Elt F) → (⟨S8192x256, .f32⟩ : BufTy).Contents (Elt F) → (⟨S8192x256, .f32⟩ : BufTy).Contents (Elt F)),
    nullary main_cst_15 (constant S_ .f32 0x3F800000#32),
    unary main_cst_15 main_v110 (broadcastInDim S8192x256 ![] bcast_S_S8192x256 : (⟨S_, .f32⟩ : BufTy).Contents (Elt F) → (⟨S8192x256, .f32⟩ : BufTy).Contents (Elt F)),
    binary main_v110 main_v109 main_v111 (Host.divf : (⟨S8192x256, .f32⟩ : BufTy).Contents (Elt F) → (⟨S8192x256, .f32⟩ : BufTy).Contents (Elt F) → (⟨S8192x256, .f32⟩ : BufTy).Contents (Elt F)),
    binary main_v104 main_v97 main_v112 (mulf : (⟨S8192x256, .f32⟩ : BufTy).Contents (Elt F) → (⟨S8192x256, .f32⟩ : BufTy).Contents (Elt F) → (⟨S8192x256, .f32⟩ : BufTy).Contents (Elt F)),
    binary main_v94 main_v112 main_v113 (addf : (⟨S8192x256, .f32⟩ : BufTy).Contents (Elt F) → (⟨S8192x256, .f32⟩ : BufTy).Contents (Elt F) → (⟨S8192x256, .f32⟩ : BufTy).Contents (Elt F)),
    unary main_v113 main_v114 (Host.tanh : (⟨S8192x256, .f32⟩ : BufTy).Contents (Elt F) → (⟨S8192x256, .f32⟩ : BufTy).Contents (Elt F)),
    nullary main_cst_16 (constant S_ .f32 0x3F800000#32),
    unary main_cst_16 main_v115 (broadcastInDim S8192x256 ![] bcast_S_S8192x256 : (⟨S_, .f32⟩ : BufTy).Contents (Elt F) → (⟨S8192x256, .f32⟩ : BufTy).Contents (Elt F)),
    binary main_v115 main_v111 main_v116 (subf : (⟨S8192x256, .f32⟩ : BufTy).Contents (Elt F) → (⟨S8192x256, .f32⟩ : BufTy).Contents (Elt F) → (⟨S8192x256, .f32⟩ : BufTy).Contents (Elt F)),
    binary main_v116 main_v114 main_v117 (mulf : (⟨S8192x256, .f32⟩ : BufTy).Contents (Elt F) → (⟨S8192x256, .f32⟩ : BufTy).Contents (Elt F) → (⟨S8192x256, .f32⟩ : BufTy).Contents (Elt F)),
    binary main_v111 main_v2 main_v118 (mulf : (⟨S8192x256, .f32⟩ : BufTy).Contents (Elt F) → (⟨S8192x256, .f32⟩ : BufTy).Contents (Elt F) → (⟨S8192x256, .f32⟩ : BufTy).Contents (Elt F)),
    binary main_v117 main_v118 main_v119 (addf : (⟨S8192x256, .f32⟩ : BufTy).Contents (Elt F) → (⟨S8192x256, .f32⟩ : BufTy).Contents (Elt F) → (⟨S8192x256, .f32⟩ : BufTy).Contents (Elt F)),
    unary main_arg14 main_v120 ((transpose S256x2 [1, 0] · transposes_S2x256_S256x2_1_0) : (⟨S2x256, .f32⟩ : BufTy).Contents (Elt F) → (⟨S256x2, .f32⟩ : BufTy).Contents (Elt F)),
    binary main_v119 main_v120 main_v121 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v122 (broadcastInDim S1x2 ![1] bcast_S2_S1x2_1 : (⟨S2, .f32⟩ : BufTy).Contents (Elt F) → (⟨S1x2, .f32⟩ : BufTy).Contents (Elt F)),
    unary main_v122 main_v123 (broadcastInDim S8192x2 ![0, 1] bcast_S1x2_S8192x2_0_1 : (⟨S1x2, .f32⟩ : BufTy).Contents (Elt F) → (⟨S8192x2, .f32⟩ : BufTy).Contents (Elt F)),
    binary main_v121 main_v123 main_v124 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg0_W : List (Ref sig .tc) := [main_v5, main_v6, main_v7, main_v8, main_v9, main_v10, main_v11, main_v12, main_v13, main_v14, main_v15, main_v16, main_v17, main_v18, main_v19, main_v20, main_v21, main_v22, main_v23, main_v24, main_cst_2, main_v25, main_v26, main_cst_3, main_v27, main_v28, main_v29, main_v30, main_v31, main_cst_4, main_v32, main_v33, main_cst_5, main_v34, main_v35, main_v36, main_v37, main_v38, main_cst_6, main_v39, main_v40, main_v41, main_v42, main_v43, main_v44, main_v45, main_v46, main_v47, main_v48, main_v49, main_v50, main_v51, main_v52, main_v53, main_v54, main_v55, main_v56, main_v57, main_v58, main_v59, main_v60, main_v61, main_v62, main_cst_7, main_v63, main_v64, main_cst_8, main_v65, main_v66, main_v67, main_v68, main_v69, main_cst_9, main_v70, main_v71, main_cst_10, main_v72, main_v73, main_v74, main_v75, main_v76, main_cst_11, main_v77, main_v78, main_v79, main_v80, main_v81, main_v82, main_v83, main_v84, main_v85, main_v86, main_v87, main_v88, main_v89, main_v90, main_v91, main_v92, main_v93, main_v94, main_v95, main_v96, main_v97, main_v98, main_v99, main_v100, main_cst_12, main_v101, main_v102, main_cst_13, main_v103, main_v104, main_v105, main_v106, main_v107, main_cst_14, main_v108, main_v109, main_cst_15, main_v110, main_v111, main_v112, main_v113, main_v114, main_cst_16, main_v115, main_v116, main_v117, main_v118, main_v119, main_v120, main_v121, main_v122, main_v123, main_v124]
set_option maxRecDepth 8192 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg0_keep (V : Valuation τ sig (Elt F)) (r : Ref sig .tc) (h : r ∉ seg0_W) :
    after seg0 V (Proc.devRef .tc r) = V (Proc.devRef .tc r) :=
  after_of_writes_sub seg0 _ seg0_writes h

/-- @main's operations 144 to 278. -/
abbrev seg1 : List (HloOp τ sig (Elt F)) :=
  [ binary main_arg0 main_v124 main_v125 (fn_main_v125 (F := F)),
    unary main_arg2 main_v126 ((transpose S514x768 [1, 0] · transposes_S768x514_S514x768_1_0) : (⟨S768x514, .f32⟩ : BufTy).Contents (Elt F) → (⟨S514x768, .f32⟩ : BufTy).Contents (Elt F)),
    binary main_v125 main_v126 main_v127 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v128 (broadcastInDim S1x768 ![1] bcast_S768_S1x768_1 : (⟨S768, .f32⟩ : BufTy).Contents (Elt F) → (⟨S1x768, .f32⟩ : BufTy).Contents (Elt F)),
    unary main_v128 main_v129 (broadcastInDim S8192x768 ![0, 1] bcast_S1x768_S8192x768_0_1 : (⟨S1x768, .f32⟩ : BufTy).Contents (Elt F) → (⟨S8192x768, .f32⟩ : BufTy).Contents (Elt F)),
    binary main_v127 main_v129 main_v130 (addf : (⟨S8192x768, .f32⟩ : BufTy).Contents (Elt F) → (⟨S8192x768, .f32⟩ : BufTy).Contents (Elt F) → (⟨S8192x768, .f32⟩ : BufTy).Contents (Elt F)),
    unary main_arg3 main_v131 ((transpose S256x768 [1, 0] · transposes_S768x256_S256x768_1_0) : (⟨S768x256, .f32⟩ : BufTy).Contents (Elt F) → (⟨S256x768, .f32⟩ : BufTy).Contents (Elt F)),
    binary main_v43 main_v131 main_v132 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v133 (broadcastInDim S1x768 ![1] bcast_S768_S1x768_1 : (⟨S768, .f32⟩ : BufTy).Contents (Elt F) → (⟨S1x768, .f32⟩ : BufTy).Contents (Elt F)),
    unary main_v133 main_v134 (broadcastInDim S8192x768 ![0, 1] bcast_S1x768_S8192x768_0_1 : (⟨S1x768, .f32⟩ : BufTy).Contents (Elt F) → (⟨S8192x768, .f32⟩ : BufTy).Contents (Elt F)),
    binary main_v132 main_v134 main_v135 (addf : (⟨S8192x768, .f32⟩ : BufTy).Contents (Elt F) → (⟨S8192x768, .f32⟩ : BufTy).Contents (Elt F) → (⟨S8192x768, .f32⟩ : BufTy).Contents (Elt F)),
    unary main_v130 main_v136 ((extractStridedSlice S8192x256 ![0, 0] · slices_S8192x768_S8192x256_0_0) : (⟨S8192x768, .f32⟩ : BufTy).Contents (Elt F) → (⟨S8192x256, .f32⟩ : BufTy).Contents (Elt F)),
    unary main_v130 main_v137 ((extractStridedSlice S8192x256 ![0, 256] · slices_S8192x768_S8192x256_0_256) : (⟨S8192x768, .f32⟩ : BufTy).Contents (Elt F) → (⟨S8192x256, .f32⟩ : BufTy).Contents (Elt F)),
    unary main_v130 main_v138 ((extractStridedSlice S8192x256 ![0, 512] · slices_S8192x768_S8192x256_0_512) : (⟨S8192x768, .f32⟩ : BufTy).Contents (Elt F) → (⟨S8192x256, .f32⟩ : BufTy).Contents (Elt F)),
    unary main_v135 main_v139 ((extractStridedSlice S8192x256 ![0, 0] · slices_S8192x768_S8192x256_0_0) : (⟨S8192x768, .f32⟩ : BufTy).Contents (Elt F) → (⟨S8192x256, .f32⟩ : BufTy).Contents (Elt F)),
    unary main_v135 main_v140 ((extractStridedSlice S8192x256 ![0, 256] · slices_S8192x768_S8192x256_0_256) : (⟨S8192x768, .f32⟩ : BufTy).Contents (Elt F) → (⟨S8192x256, .f32⟩ : BufTy).Contents (Elt F)),
    unary main_v135 main_v141 ((extractStridedSlice S8192x256 ![0, 512] · slices_S8192x768_S8192x256_0_512) : (⟨S8192x768, .f32⟩ : BufTy).Contents (Elt F) → (⟨S8192x256, .f32⟩ : BufTy).Contents (Elt F)),
    binary main_v136 main_v139 main_v142 (addf : (⟨S8192x256, .f32⟩ : BufTy).Contents (Elt F) → (⟨S8192x256, .f32⟩ : BufTy).Contents (Elt F) → (⟨S8192x256, .f32⟩ : BufTy).Contents (Elt F)),
    unary main_v142 main_v143 (Host.negf : (⟨S8192x256, .f32⟩ : BufTy).Contents (Elt F) → (⟨S8192x256, .f32⟩ : BufTy).Contents (Elt F)),
    unary main_v143 main_v144 (Host.exp : (⟨S8192x256, .f32⟩ : BufTy).Contents (Elt F) → (⟨S8192x256, .f32⟩ : BufTy).Contents (Elt F)),
    nullary main_cst_17 (constant S_ .f32 0x3F800000#32),
    unary main_cst_17 main_v145 (broadcastInDim S8192x256 ![] bcast_S_S8192x256 : (⟨S_, .f32⟩ : BufTy).Contents (Elt F) → (⟨S8192x256, .f32⟩ : BufTy).Contents (Elt F)),
    binary main_v145 main_v144 main_v146 (addf : (⟨S8192x256, .f32⟩ : BufTy).Contents (Elt F) → (⟨S8192x256, .f32⟩ : BufTy).Contents (Elt F) → (⟨S8192x256, .f32⟩ : BufTy).Contents (Elt F)),
    nullary main_cst_18 (constant S_ .f32 0x3F800000#32),
    unary main_cst_18 main_v147 (broadcastInDim S8192x256 ![] bcast_S_S8192x256 : (⟨S_, .f32⟩ : BufTy).Contents (Elt F) → (⟨S8192x256, .f32⟩ : BufTy).Contents (Elt F)),
    binary main_v147 main_v146 main_v148 (Host.divf : (⟨S8192x256, .f32⟩ : BufTy).Contents (Elt F) → (⟨S8192x256, .f32⟩ : BufTy).Contents (Elt F) → (⟨S8192x256, .f32⟩ : BufTy).Contents (Elt F)),
    binary main_v137 main_v140 main_v149 (addf : (⟨S8192x256, .f32⟩ : BufTy).Contents (Elt F) → (⟨S8192x256, .f32⟩ : BufTy).Contents (Elt F) → (⟨S8192x256, .f32⟩ : BufTy).Contents (Elt F)),
    unary main_v149 main_v150 (Host.negf : (⟨S8192x256, .f32⟩ : BufTy).Contents (Elt F) → (⟨S8192x256, .f32⟩ : BufTy).Contents (Elt F)),
    unary main_v150 main_v151 (Host.exp : (⟨S8192x256, .f32⟩ : BufTy).Contents (Elt F) → (⟨S8192x256, .f32⟩ : BufTy).Contents (Elt F)),
    nullary main_cst_19 (constant S_ .f32 0x3F800000#32),
    unary main_cst_19 main_v152 (broadcastInDim S8192x256 ![] bcast_S_S8192x256 : (⟨S_, .f32⟩ : BufTy).Contents (Elt F) → (⟨S8192x256, .f32⟩ : BufTy).Contents (Elt F)),
    binary main_v152 main_v151 main_v153 (addf : (⟨S8192x256, .f32⟩ : BufTy).Contents (Elt F) → (⟨S8192x256, .f32⟩ : BufTy).Contents (Elt F) → (⟨S8192x256, .f32⟩ : BufTy).Contents (Elt F)),
    nullary main_cst_20 (constant S_ .f32 0x3F800000#32),
    unary main_cst_20 main_v154 (broadcastInDim S8192x256 ![] bcast_S_S8192x256 : (⟨S_, .f32⟩ : BufTy).Contents (Elt F) → (⟨S8192x256, .f32⟩ : BufTy).Contents (Elt F)),
    binary main_v154 main_v153 main_v155 (Host.divf : (⟨S8192x256, .f32⟩ : BufTy).Contents (Elt F) → (⟨S8192x256, .f32⟩ : BufTy).Contents (Elt F) → (⟨S8192x256, .f32⟩ : BufTy).Contents (Elt F)),
    binary main_v148 main_v141 main_v156 (mulf : (⟨S8192x256, .f32⟩ : BufTy).Contents (Elt F) → (⟨S8192x256, .f32⟩ : BufTy).Contents (Elt F) → (⟨S8192x256, .f32⟩ : BufTy).Contents (Elt F)),
    binary main_v138 main_v156 main_v157 (addf : (⟨S8192x256, .f32⟩ : BufTy).Contents (Elt F) → (⟨S8192x256, .f32⟩ : BufTy).Contents (Elt F) → (⟨S8192x256, .f32⟩ : BufTy).Contents (Elt F)),
    unary main_v157 main_v158 (Host.tanh : (⟨S8192x256, .f32⟩ : BufTy).Contents (Elt F) → (⟨S8192x256, .f32⟩ : BufTy).Contents (Elt F)),
    nullary main_cst_21 (constant S_ .f32 0x3F800000#32),
    unary main_cst_21 main_v159 (broadcastInDim S8192x256 ![] bcast_S_S8192x256 : (⟨S_, .f32⟩ : BufTy).Contents (Elt F) → (⟨S8192x256, .f32⟩ : BufTy).Contents (Elt F)),
    binary main_v159 main_v155 main_v160 (subf : (⟨S8192x256, .f32⟩ : BufTy).Contents (Elt F) → (⟨S8192x256, .f32⟩ : BufTy).Contents (Elt F) → (⟨S8192x256, .f32⟩ : BufTy).Contents (Elt F)),
    binary main_v160 main_v158 main_v161 (mulf : (⟨S8192x256, .f32⟩ : BufTy).Contents (Elt F) → (⟨S8192x256, .f32⟩ : BufTy).Contents (Elt F) → (⟨S8192x256, .f32⟩ : BufTy).Contents (Elt F)),
    binary main_v155 main_v43 main_v162 (mulf : (⟨S8192x256, .f32⟩ : BufTy).Contents (Elt F) → (⟨S8192x256, .f32⟩ : BufTy).Contents (Elt F) → (⟨S8192x256, .f32⟩ : BufTy).Contents (Elt F)),
    binary main_v161 main_v162 main_v163 (addf : (⟨S8192x256, .f32⟩ : BufTy).Contents (Elt F) → (⟨S8192x256, .f32⟩ : BufTy).Contents (Elt F) → (⟨S8192x256, .f32⟩ : BufTy).Contents (Elt F)),
    unary main_arg6 main_v164 ((transpose S256x768 [1, 0] · transposes_S768x256_S256x768_1_0) : (⟨S768x256, .f32⟩ : BufTy).Contents (Elt F) → (⟨S256x768, .f32⟩ : BufTy).Contents (Elt F)),
    binary main_v163 main_v164 main_v165 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v166 (broadcastInDim S1x768 ![1] bcast_S768_S1x768_1 : (⟨S768, .f32⟩ : BufTy).Contents (Elt F) → (⟨S1x768, .f32⟩ : BufTy).Contents (Elt F)),
    unary main_v166 main_v167 (broadcastInDim S8192x768 ![0, 1] bcast_S1x768_S8192x768_0_1 : (⟨S1x768, .f32⟩ : BufTy).Contents (Elt F) → (⟨S8192x768, .f32⟩ : BufTy).Contents (Elt F)),
    binary main_v165 main_v167 main_v168 (addf : (⟨S8192x768, .f32⟩ : BufTy).Contents (Elt F) → (⟨S8192x768, .f32⟩ : BufTy).Contents (Elt F) → (⟨S8192x768, .f32⟩ : BufTy).Contents (Elt F)),
    unary main_arg7 main_v169 ((transpose S256x768 [1, 0] · transposes_S768x256_S256x768_1_0) : (⟨S768x256, .f32⟩ : BufTy).Contents (Elt F) → (⟨S256x768, .f32⟩ : BufTy).Contents (Elt F)),
    binary main_v81 main_v169 main_v170 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v171 (broadcastInDim S1x768 ![1] bcast_S768_S1x768_1 : (⟨S768, .f32⟩ : BufTy).Contents (Elt F) → (⟨S1x768, .f32⟩ : BufTy).Contents (Elt F)),
    unary main_v171 main_v172 (broadcastInDim S8192x768 ![0, 1] bcast_S1x768_S8192x768_0_1 : (⟨S1x768, .f32⟩ : BufTy).Contents (Elt F) → (⟨S8192x768, .f32⟩ : BufTy).Contents (Elt F)),
    binary main_v170 main_v172 main_v173 (addf : (⟨S8192x768, .f32⟩ : BufTy).Contents (Elt F) → (⟨S8192x768, .f32⟩ : BufTy).Contents (Elt F) → (⟨S8192x768, .f32⟩ : BufTy).Contents (Elt F)),
    unary main_v168 main_v174 ((extractStridedSlice S8192x256 ![0, 0] · slices_S8192x768_S8192x256_0_0) : (⟨S8192x768, .f32⟩ : BufTy).Contents (Elt F) → (⟨S8192x256, .f32⟩ : BufTy).Contents (Elt F)),
    unary main_v168 main_v175 ((extractStridedSlice S8192x256 ![0, 256] · slices_S8192x768_S8192x256_0_256) : (⟨S8192x768, .f32⟩ : BufTy).Contents (Elt F) → (⟨S8192x256, .f32⟩ : BufTy).Contents (Elt F)),
    unary main_v168 main_v176 ((extractStridedSlice S8192x256 ![0, 512] · slices_S8192x768_S8192x256_0_512) : (⟨S8192x768, .f32⟩ : BufTy).Contents (Elt F) → (⟨S8192x256, .f32⟩ : BufTy).Contents (Elt F)),
    unary main_v173 main_v177 ((extractStridedSlice S8192x256 ![0, 0] · slices_S8192x768_S8192x256_0_0) : (⟨S8192x768, .f32⟩ : BufTy).Contents (Elt F) → (⟨S8192x256, .f32⟩ : BufTy).Contents (Elt F)),
    unary main_v173 main_v178 ((extractStridedSlice S8192x256 ![0, 256] · slices_S8192x768_S8192x256_0_256) : (⟨S8192x768, .f32⟩ : BufTy).Contents (Elt F) → (⟨S8192x256, .f32⟩ : BufTy).Contents (Elt F)),
    unary main_v173 main_v179 ((extractStridedSlice S8192x256 ![0, 512] · slices_S8192x768_S8192x256_0_512) : (⟨S8192x768, .f32⟩ : BufTy).Contents (Elt F) → (⟨S8192x256, .f32⟩ : BufTy).Contents (Elt F)),
    binary main_v174 main_v177 main_v180 (addf : (⟨S8192x256, .f32⟩ : BufTy).Contents (Elt F) → (⟨S8192x256, .f32⟩ : BufTy).Contents (Elt F) → (⟨S8192x256, .f32⟩ : BufTy).Contents (Elt F)),
    unary main_v180 main_v181 (Host.negf : (⟨S8192x256, .f32⟩ : BufTy).Contents (Elt F) → (⟨S8192x256, .f32⟩ : BufTy).Contents (Elt F)),
    unary main_v181 main_v182 (Host.exp : (⟨S8192x256, .f32⟩ : BufTy).Contents (Elt F) → (⟨S8192x256, .f32⟩ : BufTy).Contents (Elt F)),
    nullary main_cst_22 (constant S_ .f32 0x3F800000#32),
    unary main_cst_22 main_v183 (broadcastInDim S8192x256 ![] bcast_S_S8192x256 : (⟨S_, .f32⟩ : BufTy).Contents (Elt F) → (⟨S8192x256, .f32⟩ : BufTy).Contents (Elt F)),
    binary main_v183 main_v182 main_v184 (addf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x3F800000#32),
    unary main_cst_23 main_v185 (broadcastInDim S8192x256 ![] bcast_S_S8192x256 : (⟨S_, .f32⟩ : BufTy).Contents (Elt F) → (⟨S8192x256, .f32⟩ : BufTy).Contents (Elt F)),
    binary main_v185 main_v184 main_v186 (Host.divf : (⟨S8192x256, .f32⟩ : BufTy).Contents (Elt F) → (⟨S8192x256, .f32⟩ : BufTy).Contents (Elt F) → (⟨S8192x256, .f32⟩ : BufTy).Contents (Elt F)),
    binary main_v175 main_v178 main_v187 (addf : (⟨S8192x256, .f32⟩ : BufTy).Contents (Elt F) → (⟨S8192x256, .f32⟩ : BufTy).Contents (Elt F) → (⟨S8192x256, .f32⟩ : BufTy).Contents (Elt F)),
    unary main_v187 main_v188 (Host.negf : (⟨S8192x256, .f32⟩ : BufTy).Contents (Elt F) → (⟨S8192x256, .f32⟩ : BufTy).Contents (Elt F)),
    unary main_v188 main_v189 (Host.exp : (⟨S8192x256, .f32⟩ : BufTy).Contents (Elt F) → (⟨S8192x256, .f32⟩ : BufTy).Contents (Elt F)),
    nullary main_cst_24 (constant S_ .f32 0x3F800000#32),
    unary main_cst_24 main_v190 (broadcastInDim S8192x256 ![] bcast_S_S8192x256 : (⟨S_, .f32⟩ : BufTy).Contents (Elt F) → (⟨S8192x256, .f32⟩ : BufTy).Contents (Elt F)),
    binary main_v190 main_v189 main_v191 (addf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x3F800000#32),
    unary main_cst_25 main_v192 (broadcastInDim S8192x256 ![] bcast_S_S8192x256 : (⟨S_, .f32⟩ : BufTy).Contents (Elt F) → (⟨S8192x256, .f32⟩ : BufTy).Contents (Elt F)),
    binary main_v192 main_v191 main_v193 (Host.divf : (⟨S8192x256, .f32⟩ : BufTy).Contents (Elt F) → (⟨S8192x256, .f32⟩ : BufTy).Contents (Elt F) → (⟨S8192x256, .f32⟩ : BufTy).Contents (Elt F)),
    binary main_v186 main_v179 main_v194 (mulf : (⟨S8192x256, .f32⟩ : BufTy).Contents (Elt F) → (⟨S8192x256, .f32⟩ : BufTy).Contents (Elt F) → (⟨S8192x256, .f32⟩ : BufTy).Contents (Elt F)),
    binary main_v176 main_v194 main_v195 (addf : (⟨S8192x256, .f32⟩ : BufTy).Contents (Elt F) → (⟨S8192x256, .f32⟩ : BufTy).Contents (Elt F) → (⟨S8192x256, .f32⟩ : BufTy).Contents (Elt F)),
    unary main_v195 main_v196 (Host.tanh : (⟨S8192x256, .f32⟩ : BufTy).Contents (Elt F) → (⟨S8192x256, .f32⟩ : BufTy).Contents (Elt F)),
    nullary main_cst_26 (constant S_ .f32 0x3F800000#32),
    unary main_cst_26 main_v197 (broadcastInDim S8192x256 ![] bcast_S_S8192x256 : (⟨S_, .f32⟩ : BufTy).Contents (Elt F) → (⟨S8192x256, .f32⟩ : BufTy).Contents (Elt F)),
    binary main_v197 main_v193 main_v198 (subf : (⟨S8192x256, .f32⟩ : BufTy).Contents (Elt F) → (⟨S8192x256, .f32⟩ : BufTy).Contents (Elt F) → (⟨S8192x256, .f32⟩ : BufTy).Contents (Elt F)),
    binary main_v198 main_v196 main_v199 (mulf : (⟨S8192x256, .f32⟩ : BufTy).Contents (Elt F) → (⟨S8192x256, .f32⟩ : BufTy).Contents (Elt F) → (⟨S8192x256, .f32⟩ : BufTy).Contents (Elt F)),
    binary main_v193 main_v81 main_v200 (mulf : (⟨S8192x256, .f32⟩ : BufTy).Contents (Elt F) → (⟨S8192x256, .f32⟩ : BufTy).Contents (Elt F) → (⟨S8192x256, .f32⟩ : BufTy).Contents (Elt F)),
    binary main_v199 main_v200 main_v201 (addf : (⟨S8192x256, .f32⟩ : BufTy).Contents (Elt F) → (⟨S8192x256, .f32⟩ : BufTy).Contents (Elt F) → (⟨S8192x256, .f32⟩ : BufTy).Contents (Elt F)),
    unary main_arg10 main_v202 ((transpose S256x768 [1, 0] · transposes_S768x256_S256x768_1_0) : (⟨S768x256, .f32⟩ : BufTy).Contents (Elt F) → (⟨S256x768, .f32⟩ : BufTy).Contents (Elt F)),
    binary main_v201 main_v202 main_v203 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v204 (broadcastInDim S1x768 ![1] bcast_S768_S1x768_1 : (⟨S768, .f32⟩ : BufTy).Contents (Elt F) → (⟨S1x768, .f32⟩ : BufTy).Contents (Elt F)),
    unary main_v204 main_v205 (broadcastInDim S8192x768 ![0, 1] bcast_S1x768_S8192x768_0_1 : (⟨S1x768, .f32⟩ : BufTy).Contents (Elt F) → (⟨S8192x768, .f32⟩ : BufTy).Contents (Elt F)),
    binary main_v203 main_v205 main_v206 (addf : (⟨S8192x768, .f32⟩ : BufTy).Contents (Elt F) → (⟨S8192x768, .f32⟩ : BufTy).Contents (Elt F) → (⟨S8192x768, .f32⟩ : BufTy).Contents (Elt F)),
    unary main_arg11 main_v207 ((transpose S256x768 [1, 0] · transposes_S768x256_S256x768_1_0) : (⟨S768x256, .f32⟩ : BufTy).Contents (Elt F) → (⟨S256x768, .f32⟩ : BufTy).Contents (Elt F)),
    binary main_v119 main_v207 main_v208 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v209 (broadcastInDim S1x768 ![1] bcast_S768_S1x768_1 : (⟨S768, .f32⟩ : BufTy).Contents (Elt F) → (⟨S1x768, .f32⟩ : BufTy).Contents (Elt F)),
    unary main_v209 main_v210 (broadcastInDim S8192x768 ![0, 1] bcast_S1x768_S8192x768_0_1 : (⟨S1x768, .f32⟩ : BufTy).Contents (Elt F) → (⟨S8192x768, .f32⟩ : BufTy).Contents (Elt F)),
    binary main_v208 main_v210 main_v211 (addf : (⟨S8192x768, .f32⟩ : BufTy).Contents (Elt F) → (⟨S8192x768, .f32⟩ : BufTy).Contents (Elt F) → (⟨S8192x768, .f32⟩ : BufTy).Contents (Elt F)),
    unary main_v206 main_v212 ((extractStridedSlice S8192x256 ![0, 0] · slices_S8192x768_S8192x256_0_0) : (⟨S8192x768, .f32⟩ : BufTy).Contents (Elt F) → (⟨S8192x256, .f32⟩ : BufTy).Contents (Elt F)),
    unary main_v206 main_v213 ((extractStridedSlice S8192x256 ![0, 256] · slices_S8192x768_S8192x256_0_256) : (⟨S8192x768, .f32⟩ : BufTy).Contents (Elt F) → (⟨S8192x256, .f32⟩ : BufTy).Contents (Elt F)),
    unary main_v206 main_v214 ((extractStridedSlice S8192x256 ![0, 512] · slices_S8192x768_S8192x256_0_512) : (⟨S8192x768, .f32⟩ : BufTy).Contents (Elt F) → (⟨S8192x256, .f32⟩ : BufTy).Contents (Elt F)),
    unary main_v211 main_v215 ((extractStridedSlice S8192x256 ![0, 0] · slices_S8192x768_S8192x256_0_0) : (⟨S8192x768, .f32⟩ : BufTy).Contents (Elt F) → (⟨S8192x256, .f32⟩ : BufTy).Contents (Elt F)),
    unary main_v211 main_v216 ((extractStridedSlice S8192x256 ![0, 256] · slices_S8192x768_S8192x256_0_256) : (⟨S8192x768, .f32⟩ : BufTy).Contents (Elt F) → (⟨S8192x256, .f32⟩ : BufTy).Contents (Elt F)),
    unary main_v211 main_v217 ((extractStridedSlice S8192x256 ![0, 512] · slices_S8192x768_S8192x256_0_512) : (⟨S8192x768, .f32⟩ : BufTy).Contents (Elt F) → (⟨S8192x256, .f32⟩ : BufTy).Contents (Elt F)),
    binary main_v212 main_v215 main_v218 (addf : (⟨S8192x256, .f32⟩ : BufTy).Contents (Elt F) → (⟨S8192x256, .f32⟩ : BufTy).Contents (Elt F) → (⟨S8192x256, .f32⟩ : BufTy).Contents (Elt F)),
    unary main_v218 main_v219 (Host.negf : (⟨S8192x256, .f32⟩ : BufTy).Contents (Elt F) → (⟨S8192x256, .f32⟩ : BufTy).Contents (Elt F)),
    unary main_v219 main_v220 (Host.exp : (⟨S8192x256, .f32⟩ : BufTy).Contents (Elt F) → (⟨S8192x256, .f32⟩ : BufTy).Contents (Elt F)),
    nullary main_cst_27 (constant S_ .f32 0x3F800000#32),
    unary main_cst_27 main_v221 (broadcastInDim S8192x256 ![] bcast_S_S8192x256 : (⟨S_, .f32⟩ : BufTy).Contents (Elt F) → (⟨S8192x256, .f32⟩ : BufTy).Contents (Elt F)),
    binary main_v221 main_v220 main_v222 (addf : (⟨S8192x256, .f32⟩ : BufTy).Contents (Elt F) → (⟨S8192x256, .f32⟩ : BufTy).Contents (Elt F) → (⟨S8192x256, .f32⟩ : BufTy).Contents (Elt F)),
    nullary main_cst_28 (constant S_ .f32 0x3F800000#32),
    unary main_cst_28 main_v223 (broadcastInDim S8192x256 ![] bcast_S_S8192x256 : (⟨S_, .f32⟩ : BufTy).Contents (Elt F) → (⟨S8192x256, .f32⟩ : BufTy).Contents (Elt F)),
    binary main_v223 main_v222 main_v224 (Host.divf : (⟨S8192x256, .f32⟩ : BufTy).Contents (Elt F) → (⟨S8192x256, .f32⟩ : BufTy).Contents (Elt F) → (⟨S8192x256, .f32⟩ : BufTy).Contents (Elt F)),
    binary main_v213 main_v216 main_v225 (addf : (⟨S8192x256, .f32⟩ : BufTy).Contents (Elt F) → (⟨S8192x256, .f32⟩ : BufTy).Contents (Elt F) → (⟨S8192x256, .f32⟩ : BufTy).Contents (Elt F)),
    unary main_v225 main_v226 (Host.negf : (⟨S8192x256, .f32⟩ : BufTy).Contents (Elt F) → (⟨S8192x256, .f32⟩ : BufTy).Contents (Elt F)),
    unary main_v226 main_v227 (Host.exp : (⟨S8192x256, .f32⟩ : BufTy).Contents (Elt F) → (⟨S8192x256, .f32⟩ : BufTy).Contents (Elt F)),
    nullary main_cst_29 (constant S_ .f32 0x3F800000#32),
    unary main_cst_29 main_v228 (broadcastInDim S8192x256 ![] bcast_S_S8192x256 : (⟨S_, .f32⟩ : BufTy).Contents (Elt F) → (⟨S8192x256, .f32⟩ : BufTy).Contents (Elt F)),
    binary main_v228 main_v227 main_v229 (addf : (⟨S8192x256, .f32⟩ : BufTy).Contents (Elt F) → (⟨S8192x256, .f32⟩ : BufTy).Contents (Elt F) → (⟨S8192x256, .f32⟩ : BufTy).Contents (Elt F)),
    nullary main_cst_30 (constant S_ .f32 0x3F800000#32),
    unary main_cst_30 main_v230 (broadcastInDim S8192x256 ![] bcast_S_S8192x256 : (⟨S_, .f32⟩ : BufTy).Contents (Elt F) → (⟨S8192x256, .f32⟩ : BufTy).Contents (Elt F)),
    binary main_v230 main_v229 main_v231 (Host.divf : (⟨S8192x256, .f32⟩ : BufTy).Contents (Elt F) → (⟨S8192x256, .f32⟩ : BufTy).Contents (Elt F) → (⟨S8192x256, .f32⟩ : BufTy).Contents (Elt F)),
    binary main_v224 main_v217 main_v232 (mulf : (⟨S8192x256, .f32⟩ : BufTy).Contents (Elt F) → (⟨S8192x256, .f32⟩ : BufTy).Contents (Elt F) → (⟨S8192x256, .f32⟩ : BufTy).Contents (Elt F)),
    binary main_v214 main_v232 main_v233 (addf : (⟨S8192x256, .f32⟩ : BufTy).Contents (Elt F) → (⟨S8192x256, .f32⟩ : BufTy).Contents (Elt F) → (⟨S8192x256, .f32⟩ : BufTy).Contents (Elt F)),
    unary main_v233 main_v234 (Host.tanh : (⟨S8192x256, .f32⟩ : BufTy).Contents (Elt F) → (⟨S8192x256, .f32⟩ : BufTy).Contents (Elt F)),
    nullary main_cst_31 (constant S_ .f32 0x3F800000#32),
    unary main_cst_31 main_v235 (broadcastInDim S8192x256 ![] bcast_S_S8192x256 : (⟨S_, .f32⟩ : BufTy).Contents (Elt F) → (⟨S8192x256, .f32⟩ : BufTy).Contents (Elt F)),
    binary main_v235 main_v231 main_v236 (subf : (⟨S8192x256, .f32⟩ : BufTy).Contents (Elt F) → (⟨S8192x256, .f32⟩ : BufTy).Contents (Elt F) → (⟨S8192x256, .f32⟩ : BufTy).Contents (Elt F)),
    binary main_v236 main_v234 main_v237 (mulf : (⟨S8192x256, .f32⟩ : BufTy).Contents (Elt F) → (⟨S8192x256, .f32⟩ : BufTy).Contents (Elt F) → (⟨S8192x256, .f32⟩ : BufTy).Contents (Elt F)),
    binary main_v231 main_v119 main_v238 (mulf : (⟨S8192x256, .f32⟩ : BufTy).Contents (Elt F) → (⟨S8192x256, .f32⟩ : BufTy).Contents (Elt F) → (⟨S8192x256, .f32⟩ : BufTy).Contents (Elt F)),
    binary main_v237 main_v238 main_v239 (addf : (⟨S8192x256, .f32⟩ : BufTy).Contents (Elt F) → (⟨S8192x256, .f32⟩ : BufTy).Contents (Elt F) → (⟨S8192x256, .f32⟩ : BufTy).Contents (Elt F)),
    unary main_arg14 main_v240 ((transpose S256x2 [1, 0] · transposes_S2x256_S256x2_1_0) : (⟨S2x256, .f32⟩ : BufTy).Contents (Elt F) → (⟨S256x2, .f32⟩ : BufTy).Contents (Elt F)),
    binary main_v239 main_v240 main_v241 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v242 (broadcastInDim S1x2 ![1] bcast_S2_S1x2_1 : (⟨S2, .f32⟩ : BufTy).Contents (Elt F) → (⟨S1x2, .f32⟩ : BufTy).Contents (Elt F)),
    unary main_v242 main_v243 (broadcastInDim S8192x2 ![0, 1] bcast_S1x2_S8192x2_0_1 : (⟨S1x2, .f32⟩ : BufTy).Contents (Elt F) → (⟨S8192x2, .f32⟩ : BufTy).Contents (Elt F)),
    binary main_v241 main_v243 main_v244 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg1_W : List (Ref sig .tc) := [main_v125, main_v126, main_v127, main_v128, main_v129, main_v130, main_v131, main_v132, main_v133, main_v134, main_v135, main_v136, main_v137, main_v138, main_v139, main_v140, main_v141, main_v142, main_v143, main_v144, main_cst_17, main_v145, main_v146, main_cst_18, main_v147, main_v148, main_v149, main_v150, main_v151, main_cst_19, main_v152, main_v153, main_cst_20, main_v154, main_v155, main_v156, main_v157, main_v158, main_cst_21, main_v159, main_v160, main_v161, main_v162, main_v163, main_v164, main_v165, main_v166, main_v167, main_v168, main_v169, main_v170, main_v171, main_v172, main_v173, main_v174, main_v175, main_v176, main_v177, main_v178, main_v179, main_v180, main_v181, main_v182, main_cst_22, main_v183, main_v184, main_cst_23, main_v185, main_v186, main_v187, main_v188, main_v189, main_cst_24, main_v190, main_v191, main_cst_25, main_v192, main_v193, main_v194, main_v195, main_v196, main_cst_26, main_v197, main_v198, main_v199, main_v200, main_v201, main_v202, main_v203, main_v204, main_v205, main_v206, main_v207, main_v208, main_v209, main_v210, main_v211, main_v212, main_v213, main_v214, main_v215, main_v216, main_v217, main_v218, main_v219, main_v220, main_cst_27, main_v221, main_v222, main_cst_28, main_v223, main_v224, main_v225, main_v226, main_v227, main_cst_29, main_v228, main_v229, main_cst_30, main_v230, main_v231, main_v232, main_v233, main_v234, main_cst_31, main_v235, main_v236, main_v237, main_v238, main_v239, main_v240, main_v241, main_v242, main_v243, main_v244]
set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg1_keep (V : Valuation τ sig (Elt F)) (r : Ref sig .tc) (h : r ∉ seg1_W) :
    after seg1 V (Proc.devRef .tc r) = V (Proc.devRef .tc r) :=
  after_of_writes_sub seg1 _ seg1_writes h

/-- @main's operations 279 to 413. -/
abbrev seg2 : List (HloOp τ sig (Elt F)) :=
  [ binary main_arg0 main_v244 main_v245 (fn_main_v245 (F := F)),
    unary main_arg2 main_v246 ((transpose S514x768 [1, 0] · transposes_S768x514_S514x768_1_0) : (⟨S768x514, .f32⟩ : BufTy).Contents (Elt F) → (⟨S514x768, .f32⟩ : BufTy).Contents (Elt F)),
    binary main_v245 main_v246 main_v247 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v248 (broadcastInDim S1x768 ![1] bcast_S768_S1x768_1 : (⟨S768, .f32⟩ : BufTy).Contents (Elt F) → (⟨S1x768, .f32⟩ : BufTy).Contents (Elt F)),
    unary main_v248 main_v249 (broadcastInDim S8192x768 ![0, 1] bcast_S1x768_S8192x768_0_1 : (⟨S1x768, .f32⟩ : BufTy).Contents (Elt F) → (⟨S8192x768, .f32⟩ : BufTy).Contents (Elt F)),
    binary main_v247 main_v249 main_v250 (addf : (⟨S8192x768, .f32⟩ : BufTy).Contents (Elt F) → (⟨S8192x768, .f32⟩ : BufTy).Contents (Elt F) → (⟨S8192x768, .f32⟩ : BufTy).Contents (Elt F)),
    unary main_arg3 main_v251 ((transpose S256x768 [1, 0] · transposes_S768x256_S256x768_1_0) : (⟨S768x256, .f32⟩ : BufTy).Contents (Elt F) → (⟨S256x768, .f32⟩ : BufTy).Contents (Elt F)),
    binary main_v163 main_v251 main_v252 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v253 (broadcastInDim S1x768 ![1] bcast_S768_S1x768_1 : (⟨S768, .f32⟩ : BufTy).Contents (Elt F) → (⟨S1x768, .f32⟩ : BufTy).Contents (Elt F)),
    unary main_v253 main_v254 (broadcastInDim S8192x768 ![0, 1] bcast_S1x768_S8192x768_0_1 : (⟨S1x768, .f32⟩ : BufTy).Contents (Elt F) → (⟨S8192x768, .f32⟩ : BufTy).Contents (Elt F)),
    binary main_v252 main_v254 main_v255 (addf : (⟨S8192x768, .f32⟩ : BufTy).Contents (Elt F) → (⟨S8192x768, .f32⟩ : BufTy).Contents (Elt F) → (⟨S8192x768, .f32⟩ : BufTy).Contents (Elt F)),
    unary main_v250 main_v256 ((extractStridedSlice S8192x256 ![0, 0] · slices_S8192x768_S8192x256_0_0) : (⟨S8192x768, .f32⟩ : BufTy).Contents (Elt F) → (⟨S8192x256, .f32⟩ : BufTy).Contents (Elt F)),
    unary main_v250 main_v257 ((extractStridedSlice S8192x256 ![0, 256] · slices_S8192x768_S8192x256_0_256) : (⟨S8192x768, .f32⟩ : BufTy).Contents (Elt F) → (⟨S8192x256, .f32⟩ : BufTy).Contents (Elt F)),
    unary main_v250 main_v258 ((extractStridedSlice S8192x256 ![0, 512] · slices_S8192x768_S8192x256_0_512) : (⟨S8192x768, .f32⟩ : BufTy).Contents (Elt F) → (⟨S8192x256, .f32⟩ : BufTy).Contents (Elt F)),
    unary main_v255 main_v259 ((extractStridedSlice S8192x256 ![0, 0] · slices_S8192x768_S8192x256_0_0) : (⟨S8192x768, .f32⟩ : BufTy).Contents (Elt F) → (⟨S8192x256, .f32⟩ : BufTy).Contents (Elt F)),
    unary main_v255 main_v260 ((extractStridedSlice S8192x256 ![0, 256] · slices_S8192x768_S8192x256_0_256) : (⟨S8192x768, .f32⟩ : BufTy).Contents (Elt F) → (⟨S8192x256, .f32⟩ : BufTy).Contents (Elt F)),
    unary main_v255 main_v261 ((extractStridedSlice S8192x256 ![0, 512] · slices_S8192x768_S8192x256_0_512) : (⟨S8192x768, .f32⟩ : BufTy).Contents (Elt F) → (⟨S8192x256, .f32⟩ : BufTy).Contents (Elt F)),
    binary main_v256 main_v259 main_v262 (addf : (⟨S8192x256, .f32⟩ : BufTy).Contents (Elt F) → (⟨S8192x256, .f32⟩ : BufTy).Contents (Elt F) → (⟨S8192x256, .f32⟩ : BufTy).Contents (Elt F)),
    unary main_v262 main_v263 (Host.negf : (⟨S8192x256, .f32⟩ : BufTy).Contents (Elt F) → (⟨S8192x256, .f32⟩ : BufTy).Contents (Elt F)),
    unary main_v263 main_v264 (Host.exp : (⟨S8192x256, .f32⟩ : BufTy).Contents (Elt F) → (⟨S8192x256, .f32⟩ : BufTy).Contents (Elt F)),
    nullary main_cst_32 (constant S_ .f32 0x3F800000#32),
    unary main_cst_32 main_v265 (broadcastInDim S8192x256 ![] bcast_S_S8192x256 : (⟨S_, .f32⟩ : BufTy).Contents (Elt F) → (⟨S8192x256, .f32⟩ : BufTy).Contents (Elt F)),
    binary main_v265 main_v264 main_v266 (addf : (⟨S8192x256, .f32⟩ : BufTy).Contents (Elt F) → (⟨S8192x256, .f32⟩ : BufTy).Contents (Elt F) → (⟨S8192x256, .f32⟩ : BufTy).Contents (Elt F)),
    nullary main_cst_33 (constant S_ .f32 0x3F800000#32),
    unary main_cst_33 main_v267 (broadcastInDim S8192x256 ![] bcast_S_S8192x256 : (⟨S_, .f32⟩ : BufTy).Contents (Elt F) → (⟨S8192x256, .f32⟩ : BufTy).Contents (Elt F)),
    binary main_v267 main_v266 main_v268 (Host.divf : (⟨S8192x256, .f32⟩ : BufTy).Contents (Elt F) → (⟨S8192x256, .f32⟩ : BufTy).Contents (Elt F) → (⟨S8192x256, .f32⟩ : BufTy).Contents (Elt F)),
    binary main_v257 main_v260 main_v269 (addf : (⟨S8192x256, .f32⟩ : BufTy).Contents (Elt F) → (⟨S8192x256, .f32⟩ : BufTy).Contents (Elt F) → (⟨S8192x256, .f32⟩ : BufTy).Contents (Elt F)),
    unary main_v269 main_v270 (Host.negf : (⟨S8192x256, .f32⟩ : BufTy).Contents (Elt F) → (⟨S8192x256, .f32⟩ : BufTy).Contents (Elt F)),
    unary main_v270 main_v271 (Host.exp : (⟨S8192x256, .f32⟩ : BufTy).Contents (Elt F) → (⟨S8192x256, .f32⟩ : BufTy).Contents (Elt F)),
    nullary main_cst_34 (constant S_ .f32 0x3F800000#32),
    unary main_cst_34 main_v272 (broadcastInDim S8192x256 ![] bcast_S_S8192x256 : (⟨S_, .f32⟩ : BufTy).Contents (Elt F) → (⟨S8192x256, .f32⟩ : BufTy).Contents (Elt F)),
    binary main_v272 main_v271 main_v273 (addf : (⟨S8192x256, .f32⟩ : BufTy).Contents (Elt F) → (⟨S8192x256, .f32⟩ : BufTy).Contents (Elt F) → (⟨S8192x256, .f32⟩ : BufTy).Contents (Elt F)),
    nullary main_cst_35 (constant S_ .f32 0x3F800000#32),
    unary main_cst_35 main_v274 (broadcastInDim S8192x256 ![] bcast_S_S8192x256 : (⟨S_, .f32⟩ : BufTy).Contents (Elt F) → (⟨S8192x256, .f32⟩ : BufTy).Contents (Elt F)),
    binary main_v274 main_v273 main_v275 (Host.divf : (⟨S8192x256, .f32⟩ : BufTy).Contents (Elt F) → (⟨S8192x256, .f32⟩ : BufTy).Contents (Elt F) → (⟨S8192x256, .f32⟩ : BufTy).Contents (Elt F)),
    binary main_v268 main_v261 main_v276 (mulf : (⟨S8192x256, .f32⟩ : BufTy).Contents (Elt F) → (⟨S8192x256, .f32⟩ : BufTy).Contents (Elt F) → (⟨S8192x256, .f32⟩ : BufTy).Contents (Elt F)),
    binary main_v258 main_v276 main_v277 (addf : (⟨S8192x256, .f32⟩ : BufTy).Contents (Elt F) → (⟨S8192x256, .f32⟩ : BufTy).Contents (Elt F) → (⟨S8192x256, .f32⟩ : BufTy).Contents (Elt F)),
    unary main_v277 main_v278 (Host.tanh : (⟨S8192x256, .f32⟩ : BufTy).Contents (Elt F) → (⟨S8192x256, .f32⟩ : BufTy).Contents (Elt F)),
    nullary main_cst_36 (constant S_ .f32 0x3F800000#32),
    unary main_cst_36 main_v279 (broadcastInDim S8192x256 ![] bcast_S_S8192x256 : (⟨S_, .f32⟩ : BufTy).Contents (Elt F) → (⟨S8192x256, .f32⟩ : BufTy).Contents (Elt F)),
    binary main_v279 main_v275 main_v280 (subf : (⟨S8192x256, .f32⟩ : BufTy).Contents (Elt F) → (⟨S8192x256, .f32⟩ : BufTy).Contents (Elt F) → (⟨S8192x256, .f32⟩ : BufTy).Contents (Elt F)),
    binary main_v280 main_v278 main_v281 (mulf : (⟨S8192x256, .f32⟩ : BufTy).Contents (Elt F) → (⟨S8192x256, .f32⟩ : BufTy).Contents (Elt F) → (⟨S8192x256, .f32⟩ : BufTy).Contents (Elt F)),
    binary main_v275 main_v163 main_v282 (mulf : (⟨S8192x256, .f32⟩ : BufTy).Contents (Elt F) → (⟨S8192x256, .f32⟩ : BufTy).Contents (Elt F) → (⟨S8192x256, .f32⟩ : BufTy).Contents (Elt F)),
    binary main_v281 main_v282 main_v283 (addf : (⟨S8192x256, .f32⟩ : BufTy).Contents (Elt F) → (⟨S8192x256, .f32⟩ : BufTy).Contents (Elt F) → (⟨S8192x256, .f32⟩ : BufTy).Contents (Elt F)),
    unary main_arg6 main_v284 ((transpose S256x768 [1, 0] · transposes_S768x256_S256x768_1_0) : (⟨S768x256, .f32⟩ : BufTy).Contents (Elt F) → (⟨S256x768, .f32⟩ : BufTy).Contents (Elt F)),
    binary main_v283 main_v284 main_v285 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v286 (broadcastInDim S1x768 ![1] bcast_S768_S1x768_1 : (⟨S768, .f32⟩ : BufTy).Contents (Elt F) → (⟨S1x768, .f32⟩ : BufTy).Contents (Elt F)),
    unary main_v286 main_v287 (broadcastInDim S8192x768 ![0, 1] bcast_S1x768_S8192x768_0_1 : (⟨S1x768, .f32⟩ : BufTy).Contents (Elt F) → (⟨S8192x768, .f32⟩ : BufTy).Contents (Elt F)),
    binary main_v285 main_v287 main_v288 (addf : (⟨S8192x768, .f32⟩ : BufTy).Contents (Elt F) → (⟨S8192x768, .f32⟩ : BufTy).Contents (Elt F) → (⟨S8192x768, .f32⟩ : BufTy).Contents (Elt F)),
    unary main_arg7 main_v289 ((transpose S256x768 [1, 0] · transposes_S768x256_S256x768_1_0) : (⟨S768x256, .f32⟩ : BufTy).Contents (Elt F) → (⟨S256x768, .f32⟩ : BufTy).Contents (Elt F)),
    binary main_v201 main_v289 main_v290 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v291 (broadcastInDim S1x768 ![1] bcast_S768_S1x768_1 : (⟨S768, .f32⟩ : BufTy).Contents (Elt F) → (⟨S1x768, .f32⟩ : BufTy).Contents (Elt F)),
    unary main_v291 main_v292 (broadcastInDim S8192x768 ![0, 1] bcast_S1x768_S8192x768_0_1 : (⟨S1x768, .f32⟩ : BufTy).Contents (Elt F) → (⟨S8192x768, .f32⟩ : BufTy).Contents (Elt F)),
    binary main_v290 main_v292 main_v293 (addf : (⟨S8192x768, .f32⟩ : BufTy).Contents (Elt F) → (⟨S8192x768, .f32⟩ : BufTy).Contents (Elt F) → (⟨S8192x768, .f32⟩ : BufTy).Contents (Elt F)),
    unary main_v288 main_v294 ((extractStridedSlice S8192x256 ![0, 0] · slices_S8192x768_S8192x256_0_0) : (⟨S8192x768, .f32⟩ : BufTy).Contents (Elt F) → (⟨S8192x256, .f32⟩ : BufTy).Contents (Elt F)),
    unary main_v288 main_v295 ((extractStridedSlice S8192x256 ![0, 256] · slices_S8192x768_S8192x256_0_256) : (⟨S8192x768, .f32⟩ : BufTy).Contents (Elt F) → (⟨S8192x256, .f32⟩ : BufTy).Contents (Elt F)),
    unary main_v288 main_v296 ((extractStridedSlice S8192x256 ![0, 512] · slices_S8192x768_S8192x256_0_512) : (⟨S8192x768, .f32⟩ : BufTy).Contents (Elt F) → (⟨S8192x256, .f32⟩ : BufTy).Contents (Elt F)),
    unary main_v293 main_v297 ((extractStridedSlice S8192x256 ![0, 0] · slices_S8192x768_S8192x256_0_0) : (⟨S8192x768, .f32⟩ : BufTy).Contents (Elt F) → (⟨S8192x256, .f32⟩ : BufTy).Contents (Elt F)),
    unary main_v293 main_v298 ((extractStridedSlice S8192x256 ![0, 256] · slices_S8192x768_S8192x256_0_256) : (⟨S8192x768, .f32⟩ : BufTy).Contents (Elt F) → (⟨S8192x256, .f32⟩ : BufTy).Contents (Elt F)),
    unary main_v293 main_v299 ((extractStridedSlice S8192x256 ![0, 512] · slices_S8192x768_S8192x256_0_512) : (⟨S8192x768, .f32⟩ : BufTy).Contents (Elt F) → (⟨S8192x256, .f32⟩ : BufTy).Contents (Elt F)),
    binary main_v294 main_v297 main_v300 (addf : (⟨S8192x256, .f32⟩ : BufTy).Contents (Elt F) → (⟨S8192x256, .f32⟩ : BufTy).Contents (Elt F) → (⟨S8192x256, .f32⟩ : BufTy).Contents (Elt F)),
    unary main_v300 main_v301 (Host.negf : (⟨S8192x256, .f32⟩ : BufTy).Contents (Elt F) → (⟨S8192x256, .f32⟩ : BufTy).Contents (Elt F)),
    unary main_v301 main_v302 (Host.exp : (⟨S8192x256, .f32⟩ : BufTy).Contents (Elt F) → (⟨S8192x256, .f32⟩ : BufTy).Contents (Elt F)),
    nullary main_cst_37 (constant S_ .f32 0x3F800000#32),
    unary main_cst_37 main_v303 (broadcastInDim S8192x256 ![] bcast_S_S8192x256 : (⟨S_, .f32⟩ : BufTy).Contents (Elt F) → (⟨S8192x256, .f32⟩ : BufTy).Contents (Elt F)),
    binary main_v303 main_v302 main_v304 (addf : (⟨S8192x256, .f32⟩ : BufTy).Contents (Elt F) → (⟨S8192x256, .f32⟩ : BufTy).Contents (Elt F) → (⟨S8192x256, .f32⟩ : BufTy).Contents (Elt F)),
    nullary main_cst_38 (constant S_ .f32 0x3F800000#32),
    unary main_cst_38 main_v305 (broadcastInDim S8192x256 ![] bcast_S_S8192x256 : (⟨S_, .f32⟩ : BufTy).Contents (Elt F) → (⟨S8192x256, .f32⟩ : BufTy).Contents (Elt F)),
    binary main_v305 main_v304 main_v306 (Host.divf : (⟨S8192x256, .f32⟩ : BufTy).Contents (Elt F) → (⟨S8192x256, .f32⟩ : BufTy).Contents (Elt F) → (⟨S8192x256, .f32⟩ : BufTy).Contents (Elt F)),
    binary main_v295 main_v298 main_v307 (addf : (⟨S8192x256, .f32⟩ : BufTy).Contents (Elt F) → (⟨S8192x256, .f32⟩ : BufTy).Contents (Elt F) → (⟨S8192x256, .f32⟩ : BufTy).Contents (Elt F)),
    unary main_v307 main_v308 (Host.negf : (⟨S8192x256, .f32⟩ : BufTy).Contents (Elt F) → (⟨S8192x256, .f32⟩ : BufTy).Contents (Elt F)),
    unary main_v308 main_v309 (Host.exp : (⟨S8192x256, .f32⟩ : BufTy).Contents (Elt F) → (⟨S8192x256, .f32⟩ : BufTy).Contents (Elt F)),
    nullary main_cst_39 (constant S_ .f32 0x3F800000#32),
    unary main_cst_39 main_v310 (broadcastInDim S8192x256 ![] bcast_S_S8192x256 : (⟨S_, .f32⟩ : BufTy).Contents (Elt F) → (⟨S8192x256, .f32⟩ : BufTy).Contents (Elt F)),
    binary main_v310 main_v309 main_v311 (addf : (⟨S8192x256, .f32⟩ : BufTy).Contents (Elt F) → (⟨S8192x256, .f32⟩ : BufTy).Contents (Elt F) → (⟨S8192x256, .f32⟩ : BufTy).Contents (Elt F)),
    nullary main_cst_40 (constant S_ .f32 0x3F800000#32),
    unary main_cst_40 main_v312 (broadcastInDim S8192x256 ![] bcast_S_S8192x256 : (⟨S_, .f32⟩ : BufTy).Contents (Elt F) → (⟨S8192x256, .f32⟩ : BufTy).Contents (Elt F)),
    binary main_v312 main_v311 main_v313 (Host.divf : (⟨S8192x256, .f32⟩ : BufTy).Contents (Elt F) → (⟨S8192x256, .f32⟩ : BufTy).Contents (Elt F) → (⟨S8192x256, .f32⟩ : BufTy).Contents (Elt F)),
    binary main_v306 main_v299 main_v314 (mulf : (⟨S8192x256, .f32⟩ : BufTy).Contents (Elt F) → (⟨S8192x256, .f32⟩ : BufTy).Contents (Elt F) → (⟨S8192x256, .f32⟩ : BufTy).Contents (Elt F)),
    binary main_v296 main_v314 main_v315 (addf : (⟨S8192x256, .f32⟩ : BufTy).Contents (Elt F) → (⟨S8192x256, .f32⟩ : BufTy).Contents (Elt F) → (⟨S8192x256, .f32⟩ : BufTy).Contents (Elt F)),
    unary main_v315 main_v316 (Host.tanh : (⟨S8192x256, .f32⟩ : BufTy).Contents (Elt F) → (⟨S8192x256, .f32⟩ : BufTy).Contents (Elt F)),
    nullary main_cst_41 (constant S_ .f32 0x3F800000#32),
    unary main_cst_41 main_v317 (broadcastInDim S8192x256 ![] bcast_S_S8192x256 : (⟨S_, .f32⟩ : BufTy).Contents (Elt F) → (⟨S8192x256, .f32⟩ : BufTy).Contents (Elt F)),
    binary main_v317 main_v313 main_v318 (subf : (⟨S8192x256, .f32⟩ : BufTy).Contents (Elt F) → (⟨S8192x256, .f32⟩ : BufTy).Contents (Elt F) → (⟨S8192x256, .f32⟩ : BufTy).Contents (Elt F)),
    binary main_v318 main_v316 main_v319 (mulf : (⟨S8192x256, .f32⟩ : BufTy).Contents (Elt F) → (⟨S8192x256, .f32⟩ : BufTy).Contents (Elt F) → (⟨S8192x256, .f32⟩ : BufTy).Contents (Elt F)),
    binary main_v313 main_v201 main_v320 (mulf : (⟨S8192x256, .f32⟩ : BufTy).Contents (Elt F) → (⟨S8192x256, .f32⟩ : BufTy).Contents (Elt F) → (⟨S8192x256, .f32⟩ : BufTy).Contents (Elt F)),
    binary main_v319 main_v320 main_v321 (addf : (⟨S8192x256, .f32⟩ : BufTy).Contents (Elt F) → (⟨S8192x256, .f32⟩ : BufTy).Contents (Elt F) → (⟨S8192x256, .f32⟩ : BufTy).Contents (Elt F)),
    unary main_arg10 main_v322 ((transpose S256x768 [1, 0] · transposes_S768x256_S256x768_1_0) : (⟨S768x256, .f32⟩ : BufTy).Contents (Elt F) → (⟨S256x768, .f32⟩ : BufTy).Contents (Elt F)),
    binary main_v321 main_v322 main_v323 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v324 (broadcastInDim S1x768 ![1] bcast_S768_S1x768_1 : (⟨S768, .f32⟩ : BufTy).Contents (Elt F) → (⟨S1x768, .f32⟩ : BufTy).Contents (Elt F)),
    unary main_v324 main_v325 (broadcastInDim S8192x768 ![0, 1] bcast_S1x768_S8192x768_0_1 : (⟨S1x768, .f32⟩ : BufTy).Contents (Elt F) → (⟨S8192x768, .f32⟩ : BufTy).Contents (Elt F)),
    binary main_v323 main_v325 main_v326 (addf : (⟨S8192x768, .f32⟩ : BufTy).Contents (Elt F) → (⟨S8192x768, .f32⟩ : BufTy).Contents (Elt F) → (⟨S8192x768, .f32⟩ : BufTy).Contents (Elt F)),
    unary main_arg11 main_v327 ((transpose S256x768 [1, 0] · transposes_S768x256_S256x768_1_0) : (⟨S768x256, .f32⟩ : BufTy).Contents (Elt F) → (⟨S256x768, .f32⟩ : BufTy).Contents (Elt F)),
    binary main_v239 main_v327 main_v328 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v329 (broadcastInDim S1x768 ![1] bcast_S768_S1x768_1 : (⟨S768, .f32⟩ : BufTy).Contents (Elt F) → (⟨S1x768, .f32⟩ : BufTy).Contents (Elt F)),
    unary main_v329 main_v330 (broadcastInDim S8192x768 ![0, 1] bcast_S1x768_S8192x768_0_1 : (⟨S1x768, .f32⟩ : BufTy).Contents (Elt F) → (⟨S8192x768, .f32⟩ : BufTy).Contents (Elt F)),
    binary main_v328 main_v330 main_v331 (addf : (⟨S8192x768, .f32⟩ : BufTy).Contents (Elt F) → (⟨S8192x768, .f32⟩ : BufTy).Contents (Elt F) → (⟨S8192x768, .f32⟩ : BufTy).Contents (Elt F)),
    unary main_v326 main_v332 ((extractStridedSlice S8192x256 ![0, 0] · slices_S8192x768_S8192x256_0_0) : (⟨S8192x768, .f32⟩ : BufTy).Contents (Elt F) → (⟨S8192x256, .f32⟩ : BufTy).Contents (Elt F)),
    unary main_v326 main_v333 ((extractStridedSlice S8192x256 ![0, 256] · slices_S8192x768_S8192x256_0_256) : (⟨S8192x768, .f32⟩ : BufTy).Contents (Elt F) → (⟨S8192x256, .f32⟩ : BufTy).Contents (Elt F)),
    unary main_v326 main_v334 ((extractStridedSlice S8192x256 ![0, 512] · slices_S8192x768_S8192x256_0_512) : (⟨S8192x768, .f32⟩ : BufTy).Contents (Elt F) → (⟨S8192x256, .f32⟩ : BufTy).Contents (Elt F)),
    unary main_v331 main_v335 ((extractStridedSlice S8192x256 ![0, 0] · slices_S8192x768_S8192x256_0_0) : (⟨S8192x768, .f32⟩ : BufTy).Contents (Elt F) → (⟨S8192x256, .f32⟩ : BufTy).Contents (Elt F)),
    unary main_v331 main_v336 ((extractStridedSlice S8192x256 ![0, 256] · slices_S8192x768_S8192x256_0_256) : (⟨S8192x768, .f32⟩ : BufTy).Contents (Elt F) → (⟨S8192x256, .f32⟩ : BufTy).Contents (Elt F)),
    unary main_v331 main_v337 ((extractStridedSlice S8192x256 ![0, 512] · slices_S8192x768_S8192x256_0_512) : (⟨S8192x768, .f32⟩ : BufTy).Contents (Elt F) → (⟨S8192x256, .f32⟩ : BufTy).Contents (Elt F)),
    binary main_v332 main_v335 main_v338 (addf : (⟨S8192x256, .f32⟩ : BufTy).Contents (Elt F) → (⟨S8192x256, .f32⟩ : BufTy).Contents (Elt F) → (⟨S8192x256, .f32⟩ : BufTy).Contents (Elt F)),
    unary main_v338 main_v339 (Host.negf : (⟨S8192x256, .f32⟩ : BufTy).Contents (Elt F) → (⟨S8192x256, .f32⟩ : BufTy).Contents (Elt F)),
    unary main_v339 main_v340 (Host.exp : (⟨S8192x256, .f32⟩ : BufTy).Contents (Elt F) → (⟨S8192x256, .f32⟩ : BufTy).Contents (Elt F)),
    nullary main_cst_42 (constant S_ .f32 0x3F800000#32),
    unary main_cst_42 main_v341 (broadcastInDim S8192x256 ![] bcast_S_S8192x256 : (⟨S_, .f32⟩ : BufTy).Contents (Elt F) → (⟨S8192x256, .f32⟩ : BufTy).Contents (Elt F)),
    binary main_v341 main_v340 main_v342 (addf : (⟨S8192x256, .f32⟩ : BufTy).Contents (Elt F) → (⟨S8192x256, .f32⟩ : BufTy).Contents (Elt F) → (⟨S8192x256, .f32⟩ : BufTy).Contents (Elt F)),
    nullary main_cst_43 (constant S_ .f32 0x3F800000#32),
    unary main_cst_43 main_v343 (broadcastInDim S8192x256 ![] bcast_S_S8192x256 : (⟨S_, .f32⟩ : BufTy).Contents (Elt F) → (⟨S8192x256, .f32⟩ : BufTy).Contents (Elt F)),
    binary main_v343 main_v342 main_v344 (Host.divf : (⟨S8192x256, .f32⟩ : BufTy).Contents (Elt F) → (⟨S8192x256, .f32⟩ : BufTy).Contents (Elt F) → (⟨S8192x256, .f32⟩ : BufTy).Contents (Elt F)),
    binary main_v333 main_v336 main_v345 (addf : (⟨S8192x256, .f32⟩ : BufTy).Contents (Elt F) → (⟨S8192x256, .f32⟩ : BufTy).Contents (Elt F) → (⟨S8192x256, .f32⟩ : BufTy).Contents (Elt F)),
    unary main_v345 main_v346 (Host.negf : (⟨S8192x256, .f32⟩ : BufTy).Contents (Elt F) → (⟨S8192x256, .f32⟩ : BufTy).Contents (Elt F)),
    unary main_v346 main_v347 (Host.exp : (⟨S8192x256, .f32⟩ : BufTy).Contents (Elt F) → (⟨S8192x256, .f32⟩ : BufTy).Contents (Elt F)),
    nullary main_cst_44 (constant S_ .f32 0x3F800000#32),
    unary main_cst_44 main_v348 (broadcastInDim S8192x256 ![] bcast_S_S8192x256 : (⟨S_, .f32⟩ : BufTy).Contents (Elt F) → (⟨S8192x256, .f32⟩ : BufTy).Contents (Elt F)),
    binary main_v348 main_v347 main_v349 (addf : (⟨S8192x256, .f32⟩ : BufTy).Contents (Elt F) → (⟨S8192x256, .f32⟩ : BufTy).Contents (Elt F) → (⟨S8192x256, .f32⟩ : BufTy).Contents (Elt F)),
    nullary main_cst_45 (constant S_ .f32 0x3F800000#32),
    unary main_cst_45 main_v350 (broadcastInDim S8192x256 ![] bcast_S_S8192x256 : (⟨S_, .f32⟩ : BufTy).Contents (Elt F) → (⟨S8192x256, .f32⟩ : BufTy).Contents (Elt F)),
    binary main_v350 main_v349 main_v351 (Host.divf : (⟨S8192x256, .f32⟩ : BufTy).Contents (Elt F) → (⟨S8192x256, .f32⟩ : BufTy).Contents (Elt F) → (⟨S8192x256, .f32⟩ : BufTy).Contents (Elt F)),
    binary main_v344 main_v337 main_v352 (mulf : (⟨S8192x256, .f32⟩ : BufTy).Contents (Elt F) → (⟨S8192x256, .f32⟩ : BufTy).Contents (Elt F) → (⟨S8192x256, .f32⟩ : BufTy).Contents (Elt F)),
    binary main_v334 main_v352 main_v353 (addf : (⟨S8192x256, .f32⟩ : BufTy).Contents (Elt F) → (⟨S8192x256, .f32⟩ : BufTy).Contents (Elt F) → (⟨S8192x256, .f32⟩ : BufTy).Contents (Elt F)),
    unary main_v353 main_v354 (Host.tanh : (⟨S8192x256, .f32⟩ : BufTy).Contents (Elt F) → (⟨S8192x256, .f32⟩ : BufTy).Contents (Elt F)),
    nullary main_cst_46 (constant S_ .f32 0x3F800000#32),
    unary main_cst_46 main_v355 (broadcastInDim S8192x256 ![] bcast_S_S8192x256 : (⟨S_, .f32⟩ : BufTy).Contents (Elt F) → (⟨S8192x256, .f32⟩ : BufTy).Contents (Elt F)),
    binary main_v355 main_v351 main_v356 (subf : (⟨S8192x256, .f32⟩ : BufTy).Contents (Elt F) → (⟨S8192x256, .f32⟩ : BufTy).Contents (Elt F) → (⟨S8192x256, .f32⟩ : BufTy).Contents (Elt F)),
    binary main_v356 main_v354 main_v357 (mulf : (⟨S8192x256, .f32⟩ : BufTy).Contents (Elt F) → (⟨S8192x256, .f32⟩ : BufTy).Contents (Elt F) → (⟨S8192x256, .f32⟩ : BufTy).Contents (Elt F)),
    binary main_v351 main_v239 main_v358 (mulf : (⟨S8192x256, .f32⟩ : BufTy).Contents (Elt F) → (⟨S8192x256, .f32⟩ : BufTy).Contents (Elt F) → (⟨S8192x256, .f32⟩ : BufTy).Contents (Elt F)),
    binary main_v357 main_v358 main_v359 (addf : (⟨S8192x256, .f32⟩ : BufTy).Contents (Elt F) → (⟨S8192x256, .f32⟩ : BufTy).Contents (Elt F) → (⟨S8192x256, .f32⟩ : BufTy).Contents (Elt F)),
    unary main_arg14 main_v360 ((transpose S256x2 [1, 0] · transposes_S2x256_S256x2_1_0) : (⟨S2x256, .f32⟩ : BufTy).Contents (Elt F) → (⟨S256x2, .f32⟩ : BufTy).Contents (Elt F)),
    binary main_v359 main_v360 main_v361 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v362 (broadcastInDim S1x2 ![1] bcast_S2_S1x2_1 : (⟨S2, .f32⟩ : BufTy).Contents (Elt F) → (⟨S1x2, .f32⟩ : BufTy).Contents (Elt F)),
    unary main_v362 main_v363 (broadcastInDim S8192x2 ![0, 1] bcast_S1x2_S8192x2_0_1 : (⟨S1x2, .f32⟩ : BufTy).Contents (Elt F) → (⟨S8192x2, .f32⟩ : BufTy).Contents (Elt F)),
    binary main_v361 main_v363 main_v364 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg2_W : List (Ref sig .tc) := [main_v245, main_v246, main_v247, main_v248, main_v249, main_v250, main_v251, main_v252, main_v253, main_v254, main_v255, main_v256, main_v257, main_v258, main_v259, main_v260, main_v261, main_v262, main_v263, main_v264, main_cst_32, main_v265, main_v266, main_cst_33, main_v267, main_v268, main_v269, main_v270, main_v271, main_cst_34, main_v272, main_v273, main_cst_35, main_v274, main_v275, main_v276, main_v277, main_v278, main_cst_36, main_v279, main_v280, main_v281, main_v282, main_v283, main_v284, main_v285, main_v286, main_v287, main_v288, main_v289, main_v290, main_v291, main_v292, main_v293, main_v294, main_v295, main_v296, main_v297, main_v298, main_v299, main_v300, main_v301, main_v302, main_cst_37, main_v303, main_v304, main_cst_38, main_v305, main_v306, main_v307, main_v308, main_v309, main_cst_39, main_v310, main_v311, main_cst_40, main_v312, main_v313, main_v314, main_v315, main_v316, main_cst_41, main_v317, main_v318, main_v319, main_v320, main_v321, main_v322, main_v323, main_v324, main_v325, main_v326, main_v327, main_v328, main_v329, main_v330, main_v331, main_v332, main_v333, main_v334, main_v335, main_v336, main_v337, main_v338, main_v339, main_v340, main_cst_42, main_v341, main_v342, main_cst_43, main_v343, main_v344, main_v345, main_v346, main_v347, main_cst_44, main_v348, main_v349, main_cst_45, main_v350, main_v351, main_v352, main_v353, main_v354, main_cst_46, main_v355, main_v356, main_v357, main_v358, main_v359, main_v360, main_v361, main_v362, main_v363, main_v364]
set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg2_keep (V : Valuation τ sig (Elt F)) (r : Ref sig .tc) (h : r ∉ seg2_W) :
    after seg2 V (Proc.devRef .tc r) = V (Proc.devRef .tc r) :=
  after_of_writes_sub seg2 _ seg2_writes h

/-- @main's operations 414 to 548. -/
abbrev seg3 : List (HloOp τ sig (Elt F)) :=
  [ binary main_arg0 main_v364 main_v365 (fn_main_v365 (F := F)),
    unary main_arg2 main_v366 ((transpose S514x768 [1, 0] · transposes_S768x514_S514x768_1_0) : (⟨S768x514, .f32⟩ : BufTy).Contents (Elt F) → (⟨S514x768, .f32⟩ : BufTy).Contents (Elt F)),
    binary main_v365 main_v366 main_v367 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v368 (broadcastInDim S1x768 ![1] bcast_S768_S1x768_1 : (⟨S768, .f32⟩ : BufTy).Contents (Elt F) → (⟨S1x768, .f32⟩ : BufTy).Contents (Elt F)),
    unary main_v368 main_v369 (broadcastInDim S8192x768 ![0, 1] bcast_S1x768_S8192x768_0_1 : (⟨S1x768, .f32⟩ : BufTy).Contents (Elt F) → (⟨S8192x768, .f32⟩ : BufTy).Contents (Elt F)),
    binary main_v367 main_v369 main_v370 (addf : (⟨S8192x768, .f32⟩ : BufTy).Contents (Elt F) → (⟨S8192x768, .f32⟩ : BufTy).Contents (Elt F) → (⟨S8192x768, .f32⟩ : BufTy).Contents (Elt F)),
    unary main_arg3 main_v371 ((transpose S256x768 [1, 0] · transposes_S768x256_S256x768_1_0) : (⟨S768x256, .f32⟩ : BufTy).Contents (Elt F) → (⟨S256x768, .f32⟩ : BufTy).Contents (Elt F)),
    binary main_v283 main_v371 main_v372 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v373 (broadcastInDim S1x768 ![1] bcast_S768_S1x768_1 : (⟨S768, .f32⟩ : BufTy).Contents (Elt F) → (⟨S1x768, .f32⟩ : BufTy).Contents (Elt F)),
    unary main_v373 main_v374 (broadcastInDim S8192x768 ![0, 1] bcast_S1x768_S8192x768_0_1 : (⟨S1x768, .f32⟩ : BufTy).Contents (Elt F) → (⟨S8192x768, .f32⟩ : BufTy).Contents (Elt F)),
    binary main_v372 main_v374 main_v375 (addf : (⟨S8192x768, .f32⟩ : BufTy).Contents (Elt F) → (⟨S8192x768, .f32⟩ : BufTy).Contents (Elt F) → (⟨S8192x768, .f32⟩ : BufTy).Contents (Elt F)),
    unary main_v370 main_v376 ((extractStridedSlice S8192x256 ![0, 0] · slices_S8192x768_S8192x256_0_0) : (⟨S8192x768, .f32⟩ : BufTy).Contents (Elt F) → (⟨S8192x256, .f32⟩ : BufTy).Contents (Elt F)),
    unary main_v370 main_v377 ((extractStridedSlice S8192x256 ![0, 256] · slices_S8192x768_S8192x256_0_256) : (⟨S8192x768, .f32⟩ : BufTy).Contents (Elt F) → (⟨S8192x256, .f32⟩ : BufTy).Contents (Elt F)),
    unary main_v370 main_v378 ((extractStridedSlice S8192x256 ![0, 512] · slices_S8192x768_S8192x256_0_512) : (⟨S8192x768, .f32⟩ : BufTy).Contents (Elt F) → (⟨S8192x256, .f32⟩ : BufTy).Contents (Elt F)),
    unary main_v375 main_v379 ((extractStridedSlice S8192x256 ![0, 0] · slices_S8192x768_S8192x256_0_0) : (⟨S8192x768, .f32⟩ : BufTy).Contents (Elt F) → (⟨S8192x256, .f32⟩ : BufTy).Contents (Elt F)),
    unary main_v375 main_v380 ((extractStridedSlice S8192x256 ![0, 256] · slices_S8192x768_S8192x256_0_256) : (⟨S8192x768, .f32⟩ : BufTy).Contents (Elt F) → (⟨S8192x256, .f32⟩ : BufTy).Contents (Elt F)),
    unary main_v375 main_v381 ((extractStridedSlice S8192x256 ![0, 512] · slices_S8192x768_S8192x256_0_512) : (⟨S8192x768, .f32⟩ : BufTy).Contents (Elt F) → (⟨S8192x256, .f32⟩ : BufTy).Contents (Elt F)),
    binary main_v376 main_v379 main_v382 (addf : (⟨S8192x256, .f32⟩ : BufTy).Contents (Elt F) → (⟨S8192x256, .f32⟩ : BufTy).Contents (Elt F) → (⟨S8192x256, .f32⟩ : BufTy).Contents (Elt F)),
    unary main_v382 main_v383 (Host.negf : (⟨S8192x256, .f32⟩ : BufTy).Contents (Elt F) → (⟨S8192x256, .f32⟩ : BufTy).Contents (Elt F)),
    unary main_v383 main_v384 (Host.exp : (⟨S8192x256, .f32⟩ : BufTy).Contents (Elt F) → (⟨S8192x256, .f32⟩ : BufTy).Contents (Elt F)),
    nullary main_cst_47 (constant S_ .f32 0x3F800000#32),
    unary main_cst_47 main_v385 (broadcastInDim S8192x256 ![] bcast_S_S8192x256 : (⟨S_, .f32⟩ : BufTy).Contents (Elt F) → (⟨S8192x256, .f32⟩ : BufTy).Contents (Elt F)),
    binary main_v385 main_v384 main_v386 (addf : (⟨S8192x256, .f32⟩ : BufTy).Contents (Elt F) → (⟨S8192x256, .f32⟩ : BufTy).Contents (Elt F) → (⟨S8192x256, .f32⟩ : BufTy).Contents (Elt F)),
    nullary main_cst_48 (constant S_ .f32 0x3F800000#32),
    unary main_cst_48 main_v387 (broadcastInDim S8192x256 ![] bcast_S_S8192x256 : (⟨S_, .f32⟩ : BufTy).Contents (Elt F) → (⟨S8192x256, .f32⟩ : BufTy).Contents (Elt F)),
    binary main_v387 main_v386 main_v388 (Host.divf : (⟨S8192x256, .f32⟩ : BufTy).Contents (Elt F) → (⟨S8192x256, .f32⟩ : BufTy).Contents (Elt F) → (⟨S8192x256, .f32⟩ : BufTy).Contents (Elt F)),
    binary main_v377 main_v380 main_v389 (addf : (⟨S8192x256, .f32⟩ : BufTy).Contents (Elt F) → (⟨S8192x256, .f32⟩ : BufTy).Contents (Elt F) → (⟨S8192x256, .f32⟩ : BufTy).Contents (Elt F)),
    unary main_v389 main_v390 (Host.negf : (⟨S8192x256, .f32⟩ : BufTy).Contents (Elt F) → (⟨S8192x256, .f32⟩ : BufTy).Contents (Elt F)),
    unary main_v390 main_v391 (Host.exp : (⟨S8192x256, .f32⟩ : BufTy).Contents (Elt F) → (⟨S8192x256, .f32⟩ : BufTy).Contents (Elt F)),
    nullary main_cst_49 (constant S_ .f32 0x3F800000#32),
    unary main_cst_49 main_v392 (broadcastInDim S8192x256 ![] bcast_S_S8192x256 : (⟨S_, .f32⟩ : BufTy).Contents (Elt F) → (⟨S8192x256, .f32⟩ : BufTy).Contents (Elt F)),
    binary main_v392 main_v391 main_v393 (addf : (⟨S8192x256, .f32⟩ : BufTy).Contents (Elt F) → (⟨S8192x256, .f32⟩ : BufTy).Contents (Elt F) → (⟨S8192x256, .f32⟩ : BufTy).Contents (Elt F)),
    nullary main_cst_50 (constant S_ .f32 0x3F800000#32),
    unary main_cst_50 main_v394 (broadcastInDim S8192x256 ![] bcast_S_S8192x256 : (⟨S_, .f32⟩ : BufTy).Contents (Elt F) → (⟨S8192x256, .f32⟩ : BufTy).Contents (Elt F)),
    binary main_v394 main_v393 main_v395 (Host.divf : (⟨S8192x256, .f32⟩ : BufTy).Contents (Elt F) → (⟨S8192x256, .f32⟩ : BufTy).Contents (Elt F) → (⟨S8192x256, .f32⟩ : BufTy).Contents (Elt F)),
    binary main_v388 main_v381 main_v396 (mulf : (⟨S8192x256, .f32⟩ : BufTy).Contents (Elt F) → (⟨S8192x256, .f32⟩ : BufTy).Contents (Elt F) → (⟨S8192x256, .f32⟩ : BufTy).Contents (Elt F)),
    binary main_v378 main_v396 main_v397 (addf : (⟨S8192x256, .f32⟩ : BufTy).Contents (Elt F) → (⟨S8192x256, .f32⟩ : BufTy).Contents (Elt F) → (⟨S8192x256, .f32⟩ : BufTy).Contents (Elt F)),
    unary main_v397 main_v398 (Host.tanh : (⟨S8192x256, .f32⟩ : BufTy).Contents (Elt F) → (⟨S8192x256, .f32⟩ : BufTy).Contents (Elt F)),
    nullary main_cst_51 (constant S_ .f32 0x3F800000#32),
    unary main_cst_51 main_v399 (broadcastInDim S8192x256 ![] bcast_S_S8192x256 : (⟨S_, .f32⟩ : BufTy).Contents (Elt F) → (⟨S8192x256, .f32⟩ : BufTy).Contents (Elt F)),
    binary main_v399 main_v395 main_v400 (subf : (⟨S8192x256, .f32⟩ : BufTy).Contents (Elt F) → (⟨S8192x256, .f32⟩ : BufTy).Contents (Elt F) → (⟨S8192x256, .f32⟩ : BufTy).Contents (Elt F)),
    binary main_v400 main_v398 main_v401 (mulf : (⟨S8192x256, .f32⟩ : BufTy).Contents (Elt F) → (⟨S8192x256, .f32⟩ : BufTy).Contents (Elt F) → (⟨S8192x256, .f32⟩ : BufTy).Contents (Elt F)),
    binary main_v395 main_v283 main_v402 (mulf : (⟨S8192x256, .f32⟩ : BufTy).Contents (Elt F) → (⟨S8192x256, .f32⟩ : BufTy).Contents (Elt F) → (⟨S8192x256, .f32⟩ : BufTy).Contents (Elt F)),
    binary main_v401 main_v402 main_v403 (addf : (⟨S8192x256, .f32⟩ : BufTy).Contents (Elt F) → (⟨S8192x256, .f32⟩ : BufTy).Contents (Elt F) → (⟨S8192x256, .f32⟩ : BufTy).Contents (Elt F)),
    unary main_arg6 main_v404 ((transpose S256x768 [1, 0] · transposes_S768x256_S256x768_1_0) : (⟨S768x256, .f32⟩ : BufTy).Contents (Elt F) → (⟨S256x768, .f32⟩ : BufTy).Contents (Elt F)),
    binary main_v403 main_v404 main_v405 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v406 (broadcastInDim S1x768 ![1] bcast_S768_S1x768_1 : (⟨S768, .f32⟩ : BufTy).Contents (Elt F) → (⟨S1x768, .f32⟩ : BufTy).Contents (Elt F)),
    unary main_v406 main_v407 (broadcastInDim S8192x768 ![0, 1] bcast_S1x768_S8192x768_0_1 : (⟨S1x768, .f32⟩ : BufTy).Contents (Elt F) → (⟨S8192x768, .f32⟩ : BufTy).Contents (Elt F)),
    binary main_v405 main_v407 main_v408 (addf : (⟨S8192x768, .f32⟩ : BufTy).Contents (Elt F) → (⟨S8192x768, .f32⟩ : BufTy).Contents (Elt F) → (⟨S8192x768, .f32⟩ : BufTy).Contents (Elt F)),
    unary main_arg7 main_v409 ((transpose S256x768 [1, 0] · transposes_S768x256_S256x768_1_0) : (⟨S768x256, .f32⟩ : BufTy).Contents (Elt F) → (⟨S256x768, .f32⟩ : BufTy).Contents (Elt F)),
    binary main_v321 main_v409 main_v410 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v411 (broadcastInDim S1x768 ![1] bcast_S768_S1x768_1 : (⟨S768, .f32⟩ : BufTy).Contents (Elt F) → (⟨S1x768, .f32⟩ : BufTy).Contents (Elt F)),
    unary main_v411 main_v412 (broadcastInDim S8192x768 ![0, 1] bcast_S1x768_S8192x768_0_1 : (⟨S1x768, .f32⟩ : BufTy).Contents (Elt F) → (⟨S8192x768, .f32⟩ : BufTy).Contents (Elt F)),
    binary main_v410 main_v412 main_v413 (addf : (⟨S8192x768, .f32⟩ : BufTy).Contents (Elt F) → (⟨S8192x768, .f32⟩ : BufTy).Contents (Elt F) → (⟨S8192x768, .f32⟩ : BufTy).Contents (Elt F)),
    unary main_v408 main_v414 ((extractStridedSlice S8192x256 ![0, 0] · slices_S8192x768_S8192x256_0_0) : (⟨S8192x768, .f32⟩ : BufTy).Contents (Elt F) → (⟨S8192x256, .f32⟩ : BufTy).Contents (Elt F)),
    unary main_v408 main_v415 ((extractStridedSlice S8192x256 ![0, 256] · slices_S8192x768_S8192x256_0_256) : (⟨S8192x768, .f32⟩ : BufTy).Contents (Elt F) → (⟨S8192x256, .f32⟩ : BufTy).Contents (Elt F)),
    unary main_v408 main_v416 ((extractStridedSlice S8192x256 ![0, 512] · slices_S8192x768_S8192x256_0_512) : (⟨S8192x768, .f32⟩ : BufTy).Contents (Elt F) → (⟨S8192x256, .f32⟩ : BufTy).Contents (Elt F)),
    unary main_v413 main_v417 ((extractStridedSlice S8192x256 ![0, 0] · slices_S8192x768_S8192x256_0_0) : (⟨S8192x768, .f32⟩ : BufTy).Contents (Elt F) → (⟨S8192x256, .f32⟩ : BufTy).Contents (Elt F)),
    unary main_v413 main_v418 ((extractStridedSlice S8192x256 ![0, 256] · slices_S8192x768_S8192x256_0_256) : (⟨S8192x768, .f32⟩ : BufTy).Contents (Elt F) → (⟨S8192x256, .f32⟩ : BufTy).Contents (Elt F)),
    unary main_v413 main_v419 ((extractStridedSlice S8192x256 ![0, 512] · slices_S8192x768_S8192x256_0_512) : (⟨S8192x768, .f32⟩ : BufTy).Contents (Elt F) → (⟨S8192x256, .f32⟩ : BufTy).Contents (Elt F)),
    binary main_v414 main_v417 main_v420 (addf : (⟨S8192x256, .f32⟩ : BufTy).Contents (Elt F) → (⟨S8192x256, .f32⟩ : BufTy).Contents (Elt F) → (⟨S8192x256, .f32⟩ : BufTy).Contents (Elt F)),
    unary main_v420 main_v421 (Host.negf : (⟨S8192x256, .f32⟩ : BufTy).Contents (Elt F) → (⟨S8192x256, .f32⟩ : BufTy).Contents (Elt F)),
    unary main_v421 main_v422 (Host.exp : (⟨S8192x256, .f32⟩ : BufTy).Contents (Elt F) → (⟨S8192x256, .f32⟩ : BufTy).Contents (Elt F)),
    nullary main_cst_52 (constant S_ .f32 0x3F800000#32),
    unary main_cst_52 main_v423 (broadcastInDim S8192x256 ![] bcast_S_S8192x256 : (⟨S_, .f32⟩ : BufTy).Contents (Elt F) → (⟨S8192x256, .f32⟩ : BufTy).Contents (Elt F)),
    binary main_v423 main_v422 main_v424 (addf : (⟨S8192x256, .f32⟩ : BufTy).Contents (Elt F) → (⟨S8192x256, .f32⟩ : BufTy).Contents (Elt F) → (⟨S8192x256, .f32⟩ : BufTy).Contents (Elt F)),
    nullary main_cst_53 (constant S_ .f32 0x3F800000#32),
    unary main_cst_53 main_v425 (broadcastInDim S8192x256 ![] bcast_S_S8192x256 : (⟨S_, .f32⟩ : BufTy).Contents (Elt F) → (⟨S8192x256, .f32⟩ : BufTy).Contents (Elt F)),
    binary main_v425 main_v424 main_v426 (Host.divf : (⟨S8192x256, .f32⟩ : BufTy).Contents (Elt F) → (⟨S8192x256, .f32⟩ : BufTy).Contents (Elt F) → (⟨S8192x256, .f32⟩ : BufTy).Contents (Elt F)),
    binary main_v415 main_v418 main_v427 (addf : (⟨S8192x256, .f32⟩ : BufTy).Contents (Elt F) → (⟨S8192x256, .f32⟩ : BufTy).Contents (Elt F) → (⟨S8192x256, .f32⟩ : BufTy).Contents (Elt F)),
    unary main_v427 main_v428 (Host.negf : (⟨S8192x256, .f32⟩ : BufTy).Contents (Elt F) → (⟨S8192x256, .f32⟩ : BufTy).Contents (Elt F)),
    unary main_v428 main_v429 (Host.exp : (⟨S8192x256, .f32⟩ : BufTy).Contents (Elt F) → (⟨S8192x256, .f32⟩ : BufTy).Contents (Elt F)),
    nullary main_cst_54 (constant S_ .f32 0x3F800000#32),
    unary main_cst_54 main_v430 (broadcastInDim S8192x256 ![] bcast_S_S8192x256 : (⟨S_, .f32⟩ : BufTy).Contents (Elt F) → (⟨S8192x256, .f32⟩ : BufTy).Contents (Elt F)),
    binary main_v430 main_v429 main_v431 (addf : (⟨S8192x256, .f32⟩ : BufTy).Contents (Elt F) → (⟨S8192x256, .f32⟩ : BufTy).Contents (Elt F) → (⟨S8192x256, .f32⟩ : BufTy).Contents (Elt F)),
    nullary main_cst_55 (constant S_ .f32 0x3F800000#32),
    unary main_cst_55 main_v432 (broadcastInDim S8192x256 ![] bcast_S_S8192x256 : (⟨S_, .f32⟩ : BufTy).Contents (Elt F) → (⟨S8192x256, .f32⟩ : BufTy).Contents (Elt F)),
    binary main_v432 main_v431 main_v433 (Host.divf : (⟨S8192x256, .f32⟩ : BufTy).Contents (Elt F) → (⟨S8192x256, .f32⟩ : BufTy).Contents (Elt F) → (⟨S8192x256, .f32⟩ : BufTy).Contents (Elt F)),
    binary main_v426 main_v419 main_v434 (mulf : (⟨S8192x256, .f32⟩ : BufTy).Contents (Elt F) → (⟨S8192x256, .f32⟩ : BufTy).Contents (Elt F) → (⟨S8192x256, .f32⟩ : BufTy).Contents (Elt F)),
    binary main_v416 main_v434 main_v435 (addf : (⟨S8192x256, .f32⟩ : BufTy).Contents (Elt F) → (⟨S8192x256, .f32⟩ : BufTy).Contents (Elt F) → (⟨S8192x256, .f32⟩ : BufTy).Contents (Elt F)),
    unary main_v435 main_v436 (Host.tanh : (⟨S8192x256, .f32⟩ : BufTy).Contents (Elt F) → (⟨S8192x256, .f32⟩ : BufTy).Contents (Elt F)),
    nullary main_cst_56 (constant S_ .f32 0x3F800000#32),
    unary main_cst_56 main_v437 (broadcastInDim S8192x256 ![] bcast_S_S8192x256 : (⟨S_, .f32⟩ : BufTy).Contents (Elt F) → (⟨S8192x256, .f32⟩ : BufTy).Contents (Elt F)),
    binary main_v437 main_v433 main_v438 (subf : (⟨S8192x256, .f32⟩ : BufTy).Contents (Elt F) → (⟨S8192x256, .f32⟩ : BufTy).Contents (Elt F) → (⟨S8192x256, .f32⟩ : BufTy).Contents (Elt F)),
    binary main_v438 main_v436 main_v439 (mulf : (⟨S8192x256, .f32⟩ : BufTy).Contents (Elt F) → (⟨S8192x256, .f32⟩ : BufTy).Contents (Elt F) → (⟨S8192x256, .f32⟩ : BufTy).Contents (Elt F)),
    binary main_v433 main_v321 main_v440 (mulf : (⟨S8192x256, .f32⟩ : BufTy).Contents (Elt F) → (⟨S8192x256, .f32⟩ : BufTy).Contents (Elt F) → (⟨S8192x256, .f32⟩ : BufTy).Contents (Elt F)),
    binary main_v439 main_v440 main_v441 (addf : (⟨S8192x256, .f32⟩ : BufTy).Contents (Elt F) → (⟨S8192x256, .f32⟩ : BufTy).Contents (Elt F) → (⟨S8192x256, .f32⟩ : BufTy).Contents (Elt F)),
    unary main_arg10 main_v442 ((transpose S256x768 [1, 0] · transposes_S768x256_S256x768_1_0) : (⟨S768x256, .f32⟩ : BufTy).Contents (Elt F) → (⟨S256x768, .f32⟩ : BufTy).Contents (Elt F)),
    binary main_v441 main_v442 main_v443 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v444 (broadcastInDim S1x768 ![1] bcast_S768_S1x768_1 : (⟨S768, .f32⟩ : BufTy).Contents (Elt F) → (⟨S1x768, .f32⟩ : BufTy).Contents (Elt F)),
    unary main_v444 main_v445 (broadcastInDim S8192x768 ![0, 1] bcast_S1x768_S8192x768_0_1 : (⟨S1x768, .f32⟩ : BufTy).Contents (Elt F) → (⟨S8192x768, .f32⟩ : BufTy).Contents (Elt F)),
    binary main_v443 main_v445 main_v446 (addf : (⟨S8192x768, .f32⟩ : BufTy).Contents (Elt F) → (⟨S8192x768, .f32⟩ : BufTy).Contents (Elt F) → (⟨S8192x768, .f32⟩ : BufTy).Contents (Elt F)),
    unary main_arg11 main_v447 ((transpose S256x768 [1, 0] · transposes_S768x256_S256x768_1_0) : (⟨S768x256, .f32⟩ : BufTy).Contents (Elt F) → (⟨S256x768, .f32⟩ : BufTy).Contents (Elt F)),
    binary main_v359 main_v447 main_v448 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v449 (broadcastInDim S1x768 ![1] bcast_S768_S1x768_1 : (⟨S768, .f32⟩ : BufTy).Contents (Elt F) → (⟨S1x768, .f32⟩ : BufTy).Contents (Elt F)),
    unary main_v449 main_v450 (broadcastInDim S8192x768 ![0, 1] bcast_S1x768_S8192x768_0_1 : (⟨S1x768, .f32⟩ : BufTy).Contents (Elt F) → (⟨S8192x768, .f32⟩ : BufTy).Contents (Elt F)),
    binary main_v448 main_v450 main_v451 (addf : (⟨S8192x768, .f32⟩ : BufTy).Contents (Elt F) → (⟨S8192x768, .f32⟩ : BufTy).Contents (Elt F) → (⟨S8192x768, .f32⟩ : BufTy).Contents (Elt F)),
    unary main_v446 main_v452 ((extractStridedSlice S8192x256 ![0, 0] · slices_S8192x768_S8192x256_0_0) : (⟨S8192x768, .f32⟩ : BufTy).Contents (Elt F) → (⟨S8192x256, .f32⟩ : BufTy).Contents (Elt F)),
    unary main_v446 main_v453 ((extractStridedSlice S8192x256 ![0, 256] · slices_S8192x768_S8192x256_0_256) : (⟨S8192x768, .f32⟩ : BufTy).Contents (Elt F) → (⟨S8192x256, .f32⟩ : BufTy).Contents (Elt F)),
    unary main_v446 main_v454 ((extractStridedSlice S8192x256 ![0, 512] · slices_S8192x768_S8192x256_0_512) : (⟨S8192x768, .f32⟩ : BufTy).Contents (Elt F) → (⟨S8192x256, .f32⟩ : BufTy).Contents (Elt F)),
    unary main_v451 main_v455 ((extractStridedSlice S8192x256 ![0, 0] · slices_S8192x768_S8192x256_0_0) : (⟨S8192x768, .f32⟩ : BufTy).Contents (Elt F) → (⟨S8192x256, .f32⟩ : BufTy).Contents (Elt F)),
    unary main_v451 main_v456 ((extractStridedSlice S8192x256 ![0, 256] · slices_S8192x768_S8192x256_0_256) : (⟨S8192x768, .f32⟩ : BufTy).Contents (Elt F) → (⟨S8192x256, .f32⟩ : BufTy).Contents (Elt F)),
    unary main_v451 main_v457 ((extractStridedSlice S8192x256 ![0, 512] · slices_S8192x768_S8192x256_0_512) : (⟨S8192x768, .f32⟩ : BufTy).Contents (Elt F) → (⟨S8192x256, .f32⟩ : BufTy).Contents (Elt F)),
    binary main_v452 main_v455 main_v458 (addf : (⟨S8192x256, .f32⟩ : BufTy).Contents (Elt F) → (⟨S8192x256, .f32⟩ : BufTy).Contents (Elt F) → (⟨S8192x256, .f32⟩ : BufTy).Contents (Elt F)),
    unary main_v458 main_v459 (Host.negf : (⟨S8192x256, .f32⟩ : BufTy).Contents (Elt F) → (⟨S8192x256, .f32⟩ : BufTy).Contents (Elt F)),
    unary main_v459 main_v460 (Host.exp : (⟨S8192x256, .f32⟩ : BufTy).Contents (Elt F) → (⟨S8192x256, .f32⟩ : BufTy).Contents (Elt F)),
    nullary main_cst_57 (constant S_ .f32 0x3F800000#32),
    unary main_cst_57 main_v461 (broadcastInDim S8192x256 ![] bcast_S_S8192x256 : (⟨S_, .f32⟩ : BufTy).Contents (Elt F) → (⟨S8192x256, .f32⟩ : BufTy).Contents (Elt F)),
    binary main_v461 main_v460 main_v462 (addf : (⟨S8192x256, .f32⟩ : BufTy).Contents (Elt F) → (⟨S8192x256, .f32⟩ : BufTy).Contents (Elt F) → (⟨S8192x256, .f32⟩ : BufTy).Contents (Elt F)),
    nullary main_cst_58 (constant S_ .f32 0x3F800000#32),
    unary main_cst_58 main_v463 (broadcastInDim S8192x256 ![] bcast_S_S8192x256 : (⟨S_, .f32⟩ : BufTy).Contents (Elt F) → (⟨S8192x256, .f32⟩ : BufTy).Contents (Elt F)),
    binary main_v463 main_v462 main_v464 (Host.divf : (⟨S8192x256, .f32⟩ : BufTy).Contents (Elt F) → (⟨S8192x256, .f32⟩ : BufTy).Contents (Elt F) → (⟨S8192x256, .f32⟩ : BufTy).Contents (Elt F)),
    binary main_v453 main_v456 main_v465 (addf : (⟨S8192x256, .f32⟩ : BufTy).Contents (Elt F) → (⟨S8192x256, .f32⟩ : BufTy).Contents (Elt F) → (⟨S8192x256, .f32⟩ : BufTy).Contents (Elt F)),
    unary main_v465 main_v466 (Host.negf : (⟨S8192x256, .f32⟩ : BufTy).Contents (Elt F) → (⟨S8192x256, .f32⟩ : BufTy).Contents (Elt F)),
    unary main_v466 main_v467 (Host.exp : (⟨S8192x256, .f32⟩ : BufTy).Contents (Elt F) → (⟨S8192x256, .f32⟩ : BufTy).Contents (Elt F)),
    nullary main_cst_59 (constant S_ .f32 0x3F800000#32),
    unary main_cst_59 main_v468 (broadcastInDim S8192x256 ![] bcast_S_S8192x256 : (⟨S_, .f32⟩ : BufTy).Contents (Elt F) → (⟨S8192x256, .f32⟩ : BufTy).Contents (Elt F)),
    binary main_v468 main_v467 main_v469 (addf : (⟨S8192x256, .f32⟩ : BufTy).Contents (Elt F) → (⟨S8192x256, .f32⟩ : BufTy).Contents (Elt F) → (⟨S8192x256, .f32⟩ : BufTy).Contents (Elt F)),
    nullary main_cst_60 (constant S_ .f32 0x3F800000#32),
    unary main_cst_60 main_v470 (broadcastInDim S8192x256 ![] bcast_S_S8192x256 : (⟨S_, .f32⟩ : BufTy).Contents (Elt F) → (⟨S8192x256, .f32⟩ : BufTy).Contents (Elt F)),
    binary main_v470 main_v469 main_v471 (Host.divf : (⟨S8192x256, .f32⟩ : BufTy).Contents (Elt F) → (⟨S8192x256, .f32⟩ : BufTy).Contents (Elt F) → (⟨S8192x256, .f32⟩ : BufTy).Contents (Elt F)),
    binary main_v464 main_v457 main_v472 (mulf : (⟨S8192x256, .f32⟩ : BufTy).Contents (Elt F) → (⟨S8192x256, .f32⟩ : BufTy).Contents (Elt F) → (⟨S8192x256, .f32⟩ : BufTy).Contents (Elt F)),
    binary main_v454 main_v472 main_v473 (addf : (⟨S8192x256, .f32⟩ : BufTy).Contents (Elt F) → (⟨S8192x256, .f32⟩ : BufTy).Contents (Elt F) → (⟨S8192x256, .f32⟩ : BufTy).Contents (Elt F)),
    unary main_v473 main_v474 (Host.tanh : (⟨S8192x256, .f32⟩ : BufTy).Contents (Elt F) → (⟨S8192x256, .f32⟩ : BufTy).Contents (Elt F)),
    nullary main_cst_61 (constant S_ .f32 0x3F800000#32),
    unary main_cst_61 main_v475 (broadcastInDim S8192x256 ![] bcast_S_S8192x256 : (⟨S_, .f32⟩ : BufTy).Contents (Elt F) → (⟨S8192x256, .f32⟩ : BufTy).Contents (Elt F)),
    binary main_v475 main_v471 main_v476 (subf : (⟨S8192x256, .f32⟩ : BufTy).Contents (Elt F) → (⟨S8192x256, .f32⟩ : BufTy).Contents (Elt F) → (⟨S8192x256, .f32⟩ : BufTy).Contents (Elt F)),
    binary main_v476 main_v474 main_v477 (mulf : (⟨S8192x256, .f32⟩ : BufTy).Contents (Elt F) → (⟨S8192x256, .f32⟩ : BufTy).Contents (Elt F) → (⟨S8192x256, .f32⟩ : BufTy).Contents (Elt F)),
    binary main_v471 main_v359 main_v478 (mulf : (⟨S8192x256, .f32⟩ : BufTy).Contents (Elt F) → (⟨S8192x256, .f32⟩ : BufTy).Contents (Elt F) → (⟨S8192x256, .f32⟩ : BufTy).Contents (Elt F)),
    binary main_v477 main_v478 main_v479 (addf : (⟨S8192x256, .f32⟩ : BufTy).Contents (Elt F) → (⟨S8192x256, .f32⟩ : BufTy).Contents (Elt F) → (⟨S8192x256, .f32⟩ : BufTy).Contents (Elt F)),
    unary main_arg14 main_v480 ((transpose S256x2 [1, 0] · transposes_S2x256_S256x2_1_0) : (⟨S2x256, .f32⟩ : BufTy).Contents (Elt F) → (⟨S256x2, .f32⟩ : BufTy).Contents (Elt F)),
    binary main_v479 main_v480 main_v481 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v482 (broadcastInDim S1x2 ![1] bcast_S2_S1x2_1 : (⟨S2, .f32⟩ : BufTy).Contents (Elt F) → (⟨S1x2, .f32⟩ : BufTy).Contents (Elt F)),
    unary main_v482 main_v483 (broadcastInDim S8192x2 ![0, 1] bcast_S1x2_S8192x2_0_1 : (⟨S1x2, .f32⟩ : BufTy).Contents (Elt F) → (⟨S8192x2, .f32⟩ : BufTy).Contents (Elt F)),
    binary main_v481 main_v483 main_v484 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg3_W : List (Ref sig .tc) := [main_v365, main_v366, main_v367, main_v368, main_v369, main_v370, main_v371, main_v372, main_v373, main_v374, main_v375, main_v376, main_v377, main_v378, main_v379, main_v380, main_v381, main_v382, main_v383, main_v384, main_cst_47, main_v385, main_v386, main_cst_48, main_v387, main_v388, main_v389, main_v390, main_v391, main_cst_49, main_v392, main_v393, main_cst_50, main_v394, main_v395, main_v396, main_v397, main_v398, main_cst_51, main_v399, main_v400, main_v401, main_v402, main_v403, main_v404, main_v405, main_v406, main_v407, main_v408, main_v409, main_v410, main_v411, main_v412, main_v413, main_v414, main_v415, main_v416, main_v417, main_v418, main_v419, main_v420, main_v421, main_v422, main_cst_52, main_v423, main_v424, main_cst_53, main_v425, main_v426, main_v427, main_v428, main_v429, main_cst_54, main_v430, main_v431, main_cst_55, main_v432, main_v433, main_v434, main_v435, main_v436, main_cst_56, main_v437, main_v438, main_v439, main_v440, main_v441, main_v442, main_v443, main_v444, main_v445, main_v446, main_v447, main_v448, main_v449, main_v450, main_v451, main_v452, main_v453, main_v454, main_v455, main_v456, main_v457, main_v458, main_v459, main_v460, main_cst_57, main_v461, main_v462, main_cst_58, main_v463, main_v464, main_v465, main_v466, main_v467, main_cst_59, main_v468, main_v469, main_cst_60, main_v470, main_v471, main_v472, main_v473, main_v474, main_cst_61, main_v475, main_v476, main_v477, main_v478, main_v479, main_v480, main_v481, main_v482, main_v483, main_v484]
set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg3_keep (V : Valuation τ sig (Elt F)) (r : Ref sig .tc) (h : r ∉ seg3_W) :
    after seg3 V (Proc.devRef .tc r) = V (Proc.devRef .tc r) :=
  after_of_writes_sub seg3 _ seg3_writes h

/-- @main's operations 549 to 683. -/
abbrev seg4 : List (HloOp τ sig (Elt F)) :=
  [ binary main_arg0 main_v484 main_v485 (fn_main_v485 (F := F)),
    unary main_arg2 main_v486 ((transpose S514x768 [1, 0] · transposes_S768x514_S514x768_1_0) : (⟨S768x514, .f32⟩ : BufTy).Contents (Elt F) → (⟨S514x768, .f32⟩ : BufTy).Contents (Elt F)),
    binary main_v485 main_v486 main_v487 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v488 (broadcastInDim S1x768 ![1] bcast_S768_S1x768_1 : (⟨S768, .f32⟩ : BufTy).Contents (Elt F) → (⟨S1x768, .f32⟩ : BufTy).Contents (Elt F)),
    unary main_v488 main_v489 (broadcastInDim S8192x768 ![0, 1] bcast_S1x768_S8192x768_0_1 : (⟨S1x768, .f32⟩ : BufTy).Contents (Elt F) → (⟨S8192x768, .f32⟩ : BufTy).Contents (Elt F)),
    binary main_v487 main_v489 main_v490 (addf : (⟨S8192x768, .f32⟩ : BufTy).Contents (Elt F) → (⟨S8192x768, .f32⟩ : BufTy).Contents (Elt F) → (⟨S8192x768, .f32⟩ : BufTy).Contents (Elt F)),
    unary main_arg3 main_v491 ((transpose S256x768 [1, 0] · transposes_S768x256_S256x768_1_0) : (⟨S768x256, .f32⟩ : BufTy).Contents (Elt F) → (⟨S256x768, .f32⟩ : BufTy).Contents (Elt F)),
    binary main_v403 main_v491 main_v492 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v493 (broadcastInDim S1x768 ![1] bcast_S768_S1x768_1 : (⟨S768, .f32⟩ : BufTy).Contents (Elt F) → (⟨S1x768, .f32⟩ : BufTy).Contents (Elt F)),
    unary main_v493 main_v494 (broadcastInDim S8192x768 ![0, 1] bcast_S1x768_S8192x768_0_1 : (⟨S1x768, .f32⟩ : BufTy).Contents (Elt F) → (⟨S8192x768, .f32⟩ : BufTy).Contents (Elt F)),
    binary main_v492 main_v494 main_v495 (addf : (⟨S8192x768, .f32⟩ : BufTy).Contents (Elt F) → (⟨S8192x768, .f32⟩ : BufTy).Contents (Elt F) → (⟨S8192x768, .f32⟩ : BufTy).Contents (Elt F)),
    unary main_v490 main_v496 ((extractStridedSlice S8192x256 ![0, 0] · slices_S8192x768_S8192x256_0_0) : (⟨S8192x768, .f32⟩ : BufTy).Contents (Elt F) → (⟨S8192x256, .f32⟩ : BufTy).Contents (Elt F)),
    unary main_v490 main_v497 ((extractStridedSlice S8192x256 ![0, 256] · slices_S8192x768_S8192x256_0_256) : (⟨S8192x768, .f32⟩ : BufTy).Contents (Elt F) → (⟨S8192x256, .f32⟩ : BufTy).Contents (Elt F)),
    unary main_v490 main_v498 ((extractStridedSlice S8192x256 ![0, 512] · slices_S8192x768_S8192x256_0_512) : (⟨S8192x768, .f32⟩ : BufTy).Contents (Elt F) → (⟨S8192x256, .f32⟩ : BufTy).Contents (Elt F)),
    unary main_v495 main_v499 ((extractStridedSlice S8192x256 ![0, 0] · slices_S8192x768_S8192x256_0_0) : (⟨S8192x768, .f32⟩ : BufTy).Contents (Elt F) → (⟨S8192x256, .f32⟩ : BufTy).Contents (Elt F)),
    unary main_v495 main_v500 ((extractStridedSlice S8192x256 ![0, 256] · slices_S8192x768_S8192x256_0_256) : (⟨S8192x768, .f32⟩ : BufTy).Contents (Elt F) → (⟨S8192x256, .f32⟩ : BufTy).Contents (Elt F)),
    unary main_v495 main_v501 ((extractStridedSlice S8192x256 ![0, 512] · slices_S8192x768_S8192x256_0_512) : (⟨S8192x768, .f32⟩ : BufTy).Contents (Elt F) → (⟨S8192x256, .f32⟩ : BufTy).Contents (Elt F)),
    binary main_v496 main_v499 main_v502 (addf : (⟨S8192x256, .f32⟩ : BufTy).Contents (Elt F) → (⟨S8192x256, .f32⟩ : BufTy).Contents (Elt F) → (⟨S8192x256, .f32⟩ : BufTy).Contents (Elt F)),
    unary main_v502 main_v503 (Host.negf : (⟨S8192x256, .f32⟩ : BufTy).Contents (Elt F) → (⟨S8192x256, .f32⟩ : BufTy).Contents (Elt F)),
    unary main_v503 main_v504 (Host.exp : (⟨S8192x256, .f32⟩ : BufTy).Contents (Elt F) → (⟨S8192x256, .f32⟩ : BufTy).Contents (Elt F)),
    nullary main_cst_62 (constant S_ .f32 0x3F800000#32),
    unary main_cst_62 main_v505 (broadcastInDim S8192x256 ![] bcast_S_S8192x256 : (⟨S_, .f32⟩ : BufTy).Contents (Elt F) → (⟨S8192x256, .f32⟩ : BufTy).Contents (Elt F)),
    binary main_v505 main_v504 main_v506 (addf : (⟨S8192x256, .f32⟩ : BufTy).Contents (Elt F) → (⟨S8192x256, .f32⟩ : BufTy).Contents (Elt F) → (⟨S8192x256, .f32⟩ : BufTy).Contents (Elt F)),
    nullary main_cst_63 (constant S_ .f32 0x3F800000#32),
    unary main_cst_63 main_v507 (broadcastInDim S8192x256 ![] bcast_S_S8192x256 : (⟨S_, .f32⟩ : BufTy).Contents (Elt F) → (⟨S8192x256, .f32⟩ : BufTy).Contents (Elt F)),
    binary main_v507 main_v506 main_v508 (Host.divf : (⟨S8192x256, .f32⟩ : BufTy).Contents (Elt F) → (⟨S8192x256, .f32⟩ : BufTy).Contents (Elt F) → (⟨S8192x256, .f32⟩ : BufTy).Contents (Elt F)),
    binary main_v497 main_v500 main_v509 (addf : (⟨S8192x256, .f32⟩ : BufTy).Contents (Elt F) → (⟨S8192x256, .f32⟩ : BufTy).Contents (Elt F) → (⟨S8192x256, .f32⟩ : BufTy).Contents (Elt F)),
    unary main_v509 main_v510 (Host.negf : (⟨S8192x256, .f32⟩ : BufTy).Contents (Elt F) → (⟨S8192x256, .f32⟩ : BufTy).Contents (Elt F)),
    unary main_v510 main_v511 (Host.exp : (⟨S8192x256, .f32⟩ : BufTy).Contents (Elt F) → (⟨S8192x256, .f32⟩ : BufTy).Contents (Elt F)),
    nullary main_cst_64 (constant S_ .f32 0x3F800000#32),
    unary main_cst_64 main_v512 (broadcastInDim S8192x256 ![] bcast_S_S8192x256 : (⟨S_, .f32⟩ : BufTy).Contents (Elt F) → (⟨S8192x256, .f32⟩ : BufTy).Contents (Elt F)),
    binary main_v512 main_v511 main_v513 (addf : (⟨S8192x256, .f32⟩ : BufTy).Contents (Elt F) → (⟨S8192x256, .f32⟩ : BufTy).Contents (Elt F) → (⟨S8192x256, .f32⟩ : BufTy).Contents (Elt F)),
    nullary main_cst_65 (constant S_ .f32 0x3F800000#32),
    unary main_cst_65 main_v514 (broadcastInDim S8192x256 ![] bcast_S_S8192x256 : (⟨S_, .f32⟩ : BufTy).Contents (Elt F) → (⟨S8192x256, .f32⟩ : BufTy).Contents (Elt F)),
    binary main_v514 main_v513 main_v515 (Host.divf : (⟨S8192x256, .f32⟩ : BufTy).Contents (Elt F) → (⟨S8192x256, .f32⟩ : BufTy).Contents (Elt F) → (⟨S8192x256, .f32⟩ : BufTy).Contents (Elt F)),
    binary main_v508 main_v501 main_v516 (mulf : (⟨S8192x256, .f32⟩ : BufTy).Contents (Elt F) → (⟨S8192x256, .f32⟩ : BufTy).Contents (Elt F) → (⟨S8192x256, .f32⟩ : BufTy).Contents (Elt F)),
    binary main_v498 main_v516 main_v517 (addf : (⟨S8192x256, .f32⟩ : BufTy).Contents (Elt F) → (⟨S8192x256, .f32⟩ : BufTy).Contents (Elt F) → (⟨S8192x256, .f32⟩ : BufTy).Contents (Elt F)),
    unary main_v517 main_v518 (Host.tanh : (⟨S8192x256, .f32⟩ : BufTy).Contents (Elt F) → (⟨S8192x256, .f32⟩ : BufTy).Contents (Elt F)),
    nullary main_cst_66 (constant S_ .f32 0x3F800000#32),
    unary main_cst_66 main_v519 (broadcastInDim S8192x256 ![] bcast_S_S8192x256 : (⟨S_, .f32⟩ : BufTy).Contents (Elt F) → (⟨S8192x256, .f32⟩ : BufTy).Contents (Elt F)),
    binary main_v519 main_v515 main_v520 (subf : (⟨S8192x256, .f32⟩ : BufTy).Contents (Elt F) → (⟨S8192x256, .f32⟩ : BufTy).Contents (Elt F) → (⟨S8192x256, .f32⟩ : BufTy).Contents (Elt F)),
    binary main_v520 main_v518 main_v521 (mulf : (⟨S8192x256, .f32⟩ : BufTy).Contents (Elt F) → (⟨S8192x256, .f32⟩ : BufTy).Contents (Elt F) → (⟨S8192x256, .f32⟩ : BufTy).Contents (Elt F)),
    binary main_v515 main_v403 main_v522 (mulf : (⟨S8192x256, .f32⟩ : BufTy).Contents (Elt F) → (⟨S8192x256, .f32⟩ : BufTy).Contents (Elt F) → (⟨S8192x256, .f32⟩ : BufTy).Contents (Elt F)),
    binary main_v521 main_v522 main_v523 (addf : (⟨S8192x256, .f32⟩ : BufTy).Contents (Elt F) → (⟨S8192x256, .f32⟩ : BufTy).Contents (Elt F) → (⟨S8192x256, .f32⟩ : BufTy).Contents (Elt F)),
    unary main_arg6 main_v524 ((transpose S256x768 [1, 0] · transposes_S768x256_S256x768_1_0) : (⟨S768x256, .f32⟩ : BufTy).Contents (Elt F) → (⟨S256x768, .f32⟩ : BufTy).Contents (Elt F)),
    binary main_v523 main_v524 main_v525 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v526 (broadcastInDim S1x768 ![1] bcast_S768_S1x768_1 : (⟨S768, .f32⟩ : BufTy).Contents (Elt F) → (⟨S1x768, .f32⟩ : BufTy).Contents (Elt F)),
    unary main_v526 main_v527 (broadcastInDim S8192x768 ![0, 1] bcast_S1x768_S8192x768_0_1 : (⟨S1x768, .f32⟩ : BufTy).Contents (Elt F) → (⟨S8192x768, .f32⟩ : BufTy).Contents (Elt F)),
    binary main_v525 main_v527 main_v528 (addf : (⟨S8192x768, .f32⟩ : BufTy).Contents (Elt F) → (⟨S8192x768, .f32⟩ : BufTy).Contents (Elt F) → (⟨S8192x768, .f32⟩ : BufTy).Contents (Elt F)),
    unary main_arg7 main_v529 ((transpose S256x768 [1, 0] · transposes_S768x256_S256x768_1_0) : (⟨S768x256, .f32⟩ : BufTy).Contents (Elt F) → (⟨S256x768, .f32⟩ : BufTy).Contents (Elt F)),
    binary main_v441 main_v529 main_v530 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v531 (broadcastInDim S1x768 ![1] bcast_S768_S1x768_1 : (⟨S768, .f32⟩ : BufTy).Contents (Elt F) → (⟨S1x768, .f32⟩ : BufTy).Contents (Elt F)),
    unary main_v531 main_v532 (broadcastInDim S8192x768 ![0, 1] bcast_S1x768_S8192x768_0_1 : (⟨S1x768, .f32⟩ : BufTy).Contents (Elt F) → (⟨S8192x768, .f32⟩ : BufTy).Contents (Elt F)),
    binary main_v530 main_v532 main_v533 (addf : (⟨S8192x768, .f32⟩ : BufTy).Contents (Elt F) → (⟨S8192x768, .f32⟩ : BufTy).Contents (Elt F) → (⟨S8192x768, .f32⟩ : BufTy).Contents (Elt F)),
    unary main_v528 main_v534 ((extractStridedSlice S8192x256 ![0, 0] · slices_S8192x768_S8192x256_0_0) : (⟨S8192x768, .f32⟩ : BufTy).Contents (Elt F) → (⟨S8192x256, .f32⟩ : BufTy).Contents (Elt F)),
    unary main_v528 main_v535 ((extractStridedSlice S8192x256 ![0, 256] · slices_S8192x768_S8192x256_0_256) : (⟨S8192x768, .f32⟩ : BufTy).Contents (Elt F) → (⟨S8192x256, .f32⟩ : BufTy).Contents (Elt F)),
    unary main_v528 main_v536 ((extractStridedSlice S8192x256 ![0, 512] · slices_S8192x768_S8192x256_0_512) : (⟨S8192x768, .f32⟩ : BufTy).Contents (Elt F) → (⟨S8192x256, .f32⟩ : BufTy).Contents (Elt F)),
    unary main_v533 main_v537 ((extractStridedSlice S8192x256 ![0, 0] · slices_S8192x768_S8192x256_0_0) : (⟨S8192x768, .f32⟩ : BufTy).Contents (Elt F) → (⟨S8192x256, .f32⟩ : BufTy).Contents (Elt F)),
    unary main_v533 main_v538 ((extractStridedSlice S8192x256 ![0, 256] · slices_S8192x768_S8192x256_0_256) : (⟨S8192x768, .f32⟩ : BufTy).Contents (Elt F) → (⟨S8192x256, .f32⟩ : BufTy).Contents (Elt F)),
    unary main_v533 main_v539 ((extractStridedSlice S8192x256 ![0, 512] · slices_S8192x768_S8192x256_0_512) : (⟨S8192x768, .f32⟩ : BufTy).Contents (Elt F) → (⟨S8192x256, .f32⟩ : BufTy).Contents (Elt F)),
    binary main_v534 main_v537 main_v540 (addf : (⟨S8192x256, .f32⟩ : BufTy).Contents (Elt F) → (⟨S8192x256, .f32⟩ : BufTy).Contents (Elt F) → (⟨S8192x256, .f32⟩ : BufTy).Contents (Elt F)),
    unary main_v540 main_v541 (Host.negf : (⟨S8192x256, .f32⟩ : BufTy).Contents (Elt F) → (⟨S8192x256, .f32⟩ : BufTy).Contents (Elt F)),
    unary main_v541 main_v542 (Host.exp : (⟨S8192x256, .f32⟩ : BufTy).Contents (Elt F) → (⟨S8192x256, .f32⟩ : BufTy).Contents (Elt F)),
    nullary main_cst_67 (constant S_ .f32 0x3F800000#32),
    unary main_cst_67 main_v543 (broadcastInDim S8192x256 ![] bcast_S_S8192x256 : (⟨S_, .f32⟩ : BufTy).Contents (Elt F) → (⟨S8192x256, .f32⟩ : BufTy).Contents (Elt F)),
    binary main_v543 main_v542 main_v544 (addf : (⟨S8192x256, .f32⟩ : BufTy).Contents (Elt F) → (⟨S8192x256, .f32⟩ : BufTy).Contents (Elt F) → (⟨S8192x256, .f32⟩ : BufTy).Contents (Elt F)),
    nullary main_cst_68 (constant S_ .f32 0x3F800000#32),
    unary main_cst_68 main_v545 (broadcastInDim S8192x256 ![] bcast_S_S8192x256 : (⟨S_, .f32⟩ : BufTy).Contents (Elt F) → (⟨S8192x256, .f32⟩ : BufTy).Contents (Elt F)),
    binary main_v545 main_v544 main_v546 (Host.divf : (⟨S8192x256, .f32⟩ : BufTy).Contents (Elt F) → (⟨S8192x256, .f32⟩ : BufTy).Contents (Elt F) → (⟨S8192x256, .f32⟩ : BufTy).Contents (Elt F)),
    binary main_v535 main_v538 main_v547 (addf : (⟨S8192x256, .f32⟩ : BufTy).Contents (Elt F) → (⟨S8192x256, .f32⟩ : BufTy).Contents (Elt F) → (⟨S8192x256, .f32⟩ : BufTy).Contents (Elt F)),
    unary main_v547 main_v548 (Host.negf : (⟨S8192x256, .f32⟩ : BufTy).Contents (Elt F) → (⟨S8192x256, .f32⟩ : BufTy).Contents (Elt F)),
    unary main_v548 main_v549 (Host.exp : (⟨S8192x256, .f32⟩ : BufTy).Contents (Elt F) → (⟨S8192x256, .f32⟩ : BufTy).Contents (Elt F)),
    nullary main_cst_69 (constant S_ .f32 0x3F800000#32),
    unary main_cst_69 main_v550 (broadcastInDim S8192x256 ![] bcast_S_S8192x256 : (⟨S_, .f32⟩ : BufTy).Contents (Elt F) → (⟨S8192x256, .f32⟩ : BufTy).Contents (Elt F)),
    binary main_v550 main_v549 main_v551 (addf : (⟨S8192x256, .f32⟩ : BufTy).Contents (Elt F) → (⟨S8192x256, .f32⟩ : BufTy).Contents (Elt F) → (⟨S8192x256, .f32⟩ : BufTy).Contents (Elt F)),
    nullary main_cst_70 (constant S_ .f32 0x3F800000#32),
    unary main_cst_70 main_v552 (broadcastInDim S8192x256 ![] bcast_S_S8192x256 : (⟨S_, .f32⟩ : BufTy).Contents (Elt F) → (⟨S8192x256, .f32⟩ : BufTy).Contents (Elt F)),
    binary main_v552 main_v551 main_v553 (Host.divf : (⟨S8192x256, .f32⟩ : BufTy).Contents (Elt F) → (⟨S8192x256, .f32⟩ : BufTy).Contents (Elt F) → (⟨S8192x256, .f32⟩ : BufTy).Contents (Elt F)),
    binary main_v546 main_v539 main_v554 (mulf : (⟨S8192x256, .f32⟩ : BufTy).Contents (Elt F) → (⟨S8192x256, .f32⟩ : BufTy).Contents (Elt F) → (⟨S8192x256, .f32⟩ : BufTy).Contents (Elt F)),
    binary main_v536 main_v554 main_v555 (addf : (⟨S8192x256, .f32⟩ : BufTy).Contents (Elt F) → (⟨S8192x256, .f32⟩ : BufTy).Contents (Elt F) → (⟨S8192x256, .f32⟩ : BufTy).Contents (Elt F)),
    unary main_v555 main_v556 (Host.tanh : (⟨S8192x256, .f32⟩ : BufTy).Contents (Elt F) → (⟨S8192x256, .f32⟩ : BufTy).Contents (Elt F)),
    nullary main_cst_71 (constant S_ .f32 0x3F800000#32),
    unary main_cst_71 main_v557 (broadcastInDim S8192x256 ![] bcast_S_S8192x256 : (⟨S_, .f32⟩ : BufTy).Contents (Elt F) → (⟨S8192x256, .f32⟩ : BufTy).Contents (Elt F)),
    binary main_v557 main_v553 main_v558 (subf : (⟨S8192x256, .f32⟩ : BufTy).Contents (Elt F) → (⟨S8192x256, .f32⟩ : BufTy).Contents (Elt F) → (⟨S8192x256, .f32⟩ : BufTy).Contents (Elt F)),
    binary main_v558 main_v556 main_v559 (mulf : (⟨S8192x256, .f32⟩ : BufTy).Contents (Elt F) → (⟨S8192x256, .f32⟩ : BufTy).Contents (Elt F) → (⟨S8192x256, .f32⟩ : BufTy).Contents (Elt F)),
    binary main_v553 main_v441 main_v560 (mulf : (⟨S8192x256, .f32⟩ : BufTy).Contents (Elt F) → (⟨S8192x256, .f32⟩ : BufTy).Contents (Elt F) → (⟨S8192x256, .f32⟩ : BufTy).Contents (Elt F)),
    binary main_v559 main_v560 main_v561 (addf : (⟨S8192x256, .f32⟩ : BufTy).Contents (Elt F) → (⟨S8192x256, .f32⟩ : BufTy).Contents (Elt F) → (⟨S8192x256, .f32⟩ : BufTy).Contents (Elt F)),
    unary main_arg10 main_v562 ((transpose S256x768 [1, 0] · transposes_S768x256_S256x768_1_0) : (⟨S768x256, .f32⟩ : BufTy).Contents (Elt F) → (⟨S256x768, .f32⟩ : BufTy).Contents (Elt F)),
    binary main_v561 main_v562 main_v563 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v564 (broadcastInDim S1x768 ![1] bcast_S768_S1x768_1 : (⟨S768, .f32⟩ : BufTy).Contents (Elt F) → (⟨S1x768, .f32⟩ : BufTy).Contents (Elt F)),
    unary main_v564 main_v565 (broadcastInDim S8192x768 ![0, 1] bcast_S1x768_S8192x768_0_1 : (⟨S1x768, .f32⟩ : BufTy).Contents (Elt F) → (⟨S8192x768, .f32⟩ : BufTy).Contents (Elt F)),
    binary main_v563 main_v565 main_v566 (addf : (⟨S8192x768, .f32⟩ : BufTy).Contents (Elt F) → (⟨S8192x768, .f32⟩ : BufTy).Contents (Elt F) → (⟨S8192x768, .f32⟩ : BufTy).Contents (Elt F)),
    unary main_arg11 main_v567 ((transpose S256x768 [1, 0] · transposes_S768x256_S256x768_1_0) : (⟨S768x256, .f32⟩ : BufTy).Contents (Elt F) → (⟨S256x768, .f32⟩ : BufTy).Contents (Elt F)),
    binary main_v479 main_v567 main_v568 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v569 (broadcastInDim S1x768 ![1] bcast_S768_S1x768_1 : (⟨S768, .f32⟩ : BufTy).Contents (Elt F) → (⟨S1x768, .f32⟩ : BufTy).Contents (Elt F)),
    unary main_v569 main_v570 (broadcastInDim S8192x768 ![0, 1] bcast_S1x768_S8192x768_0_1 : (⟨S1x768, .f32⟩ : BufTy).Contents (Elt F) → (⟨S8192x768, .f32⟩ : BufTy).Contents (Elt F)),
    binary main_v568 main_v570 main_v571 (addf : (⟨S8192x768, .f32⟩ : BufTy).Contents (Elt F) → (⟨S8192x768, .f32⟩ : BufTy).Contents (Elt F) → (⟨S8192x768, .f32⟩ : BufTy).Contents (Elt F)),
    unary main_v566 main_v572 ((extractStridedSlice S8192x256 ![0, 0] · slices_S8192x768_S8192x256_0_0) : (⟨S8192x768, .f32⟩ : BufTy).Contents (Elt F) → (⟨S8192x256, .f32⟩ : BufTy).Contents (Elt F)),
    unary main_v566 main_v573 ((extractStridedSlice S8192x256 ![0, 256] · slices_S8192x768_S8192x256_0_256) : (⟨S8192x768, .f32⟩ : BufTy).Contents (Elt F) → (⟨S8192x256, .f32⟩ : BufTy).Contents (Elt F)),
    unary main_v566 main_v574 ((extractStridedSlice S8192x256 ![0, 512] · slices_S8192x768_S8192x256_0_512) : (⟨S8192x768, .f32⟩ : BufTy).Contents (Elt F) → (⟨S8192x256, .f32⟩ : BufTy).Contents (Elt F)),
    unary main_v571 main_v575 ((extractStridedSlice S8192x256 ![0, 0] · slices_S8192x768_S8192x256_0_0) : (⟨S8192x768, .f32⟩ : BufTy).Contents (Elt F) → (⟨S8192x256, .f32⟩ : BufTy).Contents (Elt F)),
    unary main_v571 main_v576 ((extractStridedSlice S8192x256 ![0, 256] · slices_S8192x768_S8192x256_0_256) : (⟨S8192x768, .f32⟩ : BufTy).Contents (Elt F) → (⟨S8192x256, .f32⟩ : BufTy).Contents (Elt F)),
    unary main_v571 main_v577 ((extractStridedSlice S8192x256 ![0, 512] · slices_S8192x768_S8192x256_0_512) : (⟨S8192x768, .f32⟩ : BufTy).Contents (Elt F) → (⟨S8192x256, .f32⟩ : BufTy).Contents (Elt F)),
    binary main_v572 main_v575 main_v578 (addf : (⟨S8192x256, .f32⟩ : BufTy).Contents (Elt F) → (⟨S8192x256, .f32⟩ : BufTy).Contents (Elt F) → (⟨S8192x256, .f32⟩ : BufTy).Contents (Elt F)),
    unary main_v578 main_v579 (Host.negf : (⟨S8192x256, .f32⟩ : BufTy).Contents (Elt F) → (⟨S8192x256, .f32⟩ : BufTy).Contents (Elt F)),
    unary main_v579 main_v580 (Host.exp : (⟨S8192x256, .f32⟩ : BufTy).Contents (Elt F) → (⟨S8192x256, .f32⟩ : BufTy).Contents (Elt F)),
    nullary main_cst_72 (constant S_ .f32 0x3F800000#32),
    unary main_cst_72 main_v581 (broadcastInDim S8192x256 ![] bcast_S_S8192x256 : (⟨S_, .f32⟩ : BufTy).Contents (Elt F) → (⟨S8192x256, .f32⟩ : BufTy).Contents (Elt F)),
    binary main_v581 main_v580 main_v582 (addf : (⟨S8192x256, .f32⟩ : BufTy).Contents (Elt F) → (⟨S8192x256, .f32⟩ : BufTy).Contents (Elt F) → (⟨S8192x256, .f32⟩ : BufTy).Contents (Elt F)),
    nullary main_cst_73 (constant S_ .f32 0x3F800000#32),
    unary main_cst_73 main_v583 (broadcastInDim S8192x256 ![] bcast_S_S8192x256 : (⟨S_, .f32⟩ : BufTy).Contents (Elt F) → (⟨S8192x256, .f32⟩ : BufTy).Contents (Elt F)),
    binary main_v583 main_v582 main_v584 (Host.divf : (⟨S8192x256, .f32⟩ : BufTy).Contents (Elt F) → (⟨S8192x256, .f32⟩ : BufTy).Contents (Elt F) → (⟨S8192x256, .f32⟩ : BufTy).Contents (Elt F)),
    binary main_v573 main_v576 main_v585 (addf : (⟨S8192x256, .f32⟩ : BufTy).Contents (Elt F) → (⟨S8192x256, .f32⟩ : BufTy).Contents (Elt F) → (⟨S8192x256, .f32⟩ : BufTy).Contents (Elt F)),
    unary main_v585 main_v586 (Host.negf : (⟨S8192x256, .f32⟩ : BufTy).Contents (Elt F) → (⟨S8192x256, .f32⟩ : BufTy).Contents (Elt F)),
    unary main_v586 main_v587 (Host.exp : (⟨S8192x256, .f32⟩ : BufTy).Contents (Elt F) → (⟨S8192x256, .f32⟩ : BufTy).Contents (Elt F)),
    nullary main_cst_74 (constant S_ .f32 0x3F800000#32),
    unary main_cst_74 main_v588 (broadcastInDim S8192x256 ![] bcast_S_S8192x256 : (⟨S_, .f32⟩ : BufTy).Contents (Elt F) → (⟨S8192x256, .f32⟩ : BufTy).Contents (Elt F)),
    binary main_v588 main_v587 main_v589 (addf : (⟨S8192x256, .f32⟩ : BufTy).Contents (Elt F) → (⟨S8192x256, .f32⟩ : BufTy).Contents (Elt F) → (⟨S8192x256, .f32⟩ : BufTy).Contents (Elt F)),
    nullary main_cst_75 (constant S_ .f32 0x3F800000#32),
    unary main_cst_75 main_v590 (broadcastInDim S8192x256 ![] bcast_S_S8192x256 : (⟨S_, .f32⟩ : BufTy).Contents (Elt F) → (⟨S8192x256, .f32⟩ : BufTy).Contents (Elt F)),
    binary main_v590 main_v589 main_v591 (Host.divf : (⟨S8192x256, .f32⟩ : BufTy).Contents (Elt F) → (⟨S8192x256, .f32⟩ : BufTy).Contents (Elt F) → (⟨S8192x256, .f32⟩ : BufTy).Contents (Elt F)),
    binary main_v584 main_v577 main_v592 (mulf : (⟨S8192x256, .f32⟩ : BufTy).Contents (Elt F) → (⟨S8192x256, .f32⟩ : BufTy).Contents (Elt F) → (⟨S8192x256, .f32⟩ : BufTy).Contents (Elt F)),
    binary main_v574 main_v592 main_v593 (addf : (⟨S8192x256, .f32⟩ : BufTy).Contents (Elt F) → (⟨S8192x256, .f32⟩ : BufTy).Contents (Elt F) → (⟨S8192x256, .f32⟩ : BufTy).Contents (Elt F)),
    unary main_v593 main_v594 (Host.tanh : (⟨S8192x256, .f32⟩ : BufTy).Contents (Elt F) → (⟨S8192x256, .f32⟩ : BufTy).Contents (Elt F)),
    nullary main_cst_76 (constant S_ .f32 0x3F800000#32),
    unary main_cst_76 main_v595 (broadcastInDim S8192x256 ![] bcast_S_S8192x256 : (⟨S_, .f32⟩ : BufTy).Contents (Elt F) → (⟨S8192x256, .f32⟩ : BufTy).Contents (Elt F)),
    binary main_v595 main_v591 main_v596 (subf : (⟨S8192x256, .f32⟩ : BufTy).Contents (Elt F) → (⟨S8192x256, .f32⟩ : BufTy).Contents (Elt F) → (⟨S8192x256, .f32⟩ : BufTy).Contents (Elt F)),
    binary main_v596 main_v594 main_v597 (mulf : (⟨S8192x256, .f32⟩ : BufTy).Contents (Elt F) → (⟨S8192x256, .f32⟩ : BufTy).Contents (Elt F) → (⟨S8192x256, .f32⟩ : BufTy).Contents (Elt F)),
    binary main_v591 main_v479 main_v598 (mulf : (⟨S8192x256, .f32⟩ : BufTy).Contents (Elt F) → (⟨S8192x256, .f32⟩ : BufTy).Contents (Elt F) → (⟨S8192x256, .f32⟩ : BufTy).Contents (Elt F)),
    binary main_v597 main_v598 main_v599 (addf : (⟨S8192x256, .f32⟩ : BufTy).Contents (Elt F) → (⟨S8192x256, .f32⟩ : BufTy).Contents (Elt F) → (⟨S8192x256, .f32⟩ : BufTy).Contents (Elt F)),
    unary main_arg14 main_v600 ((transpose S256x2 [1, 0] · transposes_S2x256_S256x2_1_0) : (⟨S2x256, .f32⟩ : BufTy).Contents (Elt F) → (⟨S256x2, .f32⟩ : BufTy).Contents (Elt F)),
    binary main_v599 main_v600 main_v601 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v602 (broadcastInDim S1x2 ![1] bcast_S2_S1x2_1 : (⟨S2, .f32⟩ : BufTy).Contents (Elt F) → (⟨S1x2, .f32⟩ : BufTy).Contents (Elt F)),
    unary main_v602 main_v603 (broadcastInDim S8192x2 ![0, 1] bcast_S1x2_S8192x2_0_1 : (⟨S1x2, .f32⟩ : BufTy).Contents (Elt F) → (⟨S8192x2, .f32⟩ : BufTy).Contents (Elt F)),
    binary main_v601 main_v603 main_v604 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg4_W : List (Ref sig .tc) := [main_v485, main_v486, main_v487, main_v488, main_v489, main_v490, main_v491, main_v492, main_v493, main_v494, main_v495, main_v496, main_v497, main_v498, main_v499, main_v500, main_v501, main_v502, main_v503, main_v504, main_cst_62, main_v505, main_v506, main_cst_63, main_v507, main_v508, main_v509, main_v510, main_v511, main_cst_64, main_v512, main_v513, main_cst_65, main_v514, main_v515, main_v516, main_v517, main_v518, main_cst_66, main_v519, main_v520, main_v521, main_v522, main_v523, main_v524, main_v525, main_v526, main_v527, main_v528, main_v529, main_v530, main_v531, main_v532, main_v533, main_v534, main_v535, main_v536, main_v537, main_v538, main_v539, main_v540, main_v541, main_v542, main_cst_67, main_v543, main_v544, main_cst_68, main_v545, main_v546, main_v547, main_v548, main_v549, main_cst_69, main_v550, main_v551, main_cst_70, main_v552, main_v553, main_v554, main_v555, main_v556, main_cst_71, main_v557, main_v558, main_v559, main_v560, main_v561, main_v562, main_v563, main_v564, main_v565, main_v566, main_v567, main_v568, main_v569, main_v570, main_v571, main_v572, main_v573, main_v574, main_v575, main_v576, main_v577, main_v578, main_v579, main_v580, main_cst_72, main_v581, main_v582, main_cst_73, main_v583, main_v584, main_v585, main_v586, main_v587, main_cst_74, main_v588, main_v589, main_cst_75, main_v590, main_v591, main_v592, main_v593, main_v594, main_cst_76, main_v595, main_v596, main_v597, main_v598, main_v599, main_v600, main_v601, main_v602, main_v603, main_v604]
set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg4_keep (V : Valuation τ sig (Elt F)) (r : Ref sig .tc) (h : r ∉ seg4_W) :
    after seg4 V (Proc.devRef .tc r) = V (Proc.devRef .tc r) :=
  after_of_writes_sub seg4 _ seg4_writes h

/-- @main's operations 684 to 818. -/
abbrev seg5 : List (HloOp τ sig (Elt F)) :=
  [ binary main_arg0 main_v604 main_v605 (fn_main_v605 (F := F)),
    unary main_arg2 main_v606 ((transpose S514x768 [1, 0] · transposes_S768x514_S514x768_1_0) : (⟨S768x514, .f32⟩ : BufTy).Contents (Elt F) → (⟨S514x768, .f32⟩ : BufTy).Contents (Elt F)),
    binary main_v605 main_v606 main_v607 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v608 (broadcastInDim S1x768 ![1] bcast_S768_S1x768_1 : (⟨S768, .f32⟩ : BufTy).Contents (Elt F) → (⟨S1x768, .f32⟩ : BufTy).Contents (Elt F)),
    unary main_v608 main_v609 (broadcastInDim S8192x768 ![0, 1] bcast_S1x768_S8192x768_0_1 : (⟨S1x768, .f32⟩ : BufTy).Contents (Elt F) → (⟨S8192x768, .f32⟩ : BufTy).Contents (Elt F)),
    binary main_v607 main_v609 main_v610 (addf : (⟨S8192x768, .f32⟩ : BufTy).Contents (Elt F) → (⟨S8192x768, .f32⟩ : BufTy).Contents (Elt F) → (⟨S8192x768, .f32⟩ : BufTy).Contents (Elt F)),
    unary main_arg3 main_v611 ((transpose S256x768 [1, 0] · transposes_S768x256_S256x768_1_0) : (⟨S768x256, .f32⟩ : BufTy).Contents (Elt F) → (⟨S256x768, .f32⟩ : BufTy).Contents (Elt F)),
    binary main_v523 main_v611 main_v612 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v613 (broadcastInDim S1x768 ![1] bcast_S768_S1x768_1 : (⟨S768, .f32⟩ : BufTy).Contents (Elt F) → (⟨S1x768, .f32⟩ : BufTy).Contents (Elt F)),
    unary main_v613 main_v614 (broadcastInDim S8192x768 ![0, 1] bcast_S1x768_S8192x768_0_1 : (⟨S1x768, .f32⟩ : BufTy).Contents (Elt F) → (⟨S8192x768, .f32⟩ : BufTy).Contents (Elt F)),
    binary main_v612 main_v614 main_v615 (addf : (⟨S8192x768, .f32⟩ : BufTy).Contents (Elt F) → (⟨S8192x768, .f32⟩ : BufTy).Contents (Elt F) → (⟨S8192x768, .f32⟩ : BufTy).Contents (Elt F)),
    unary main_v610 main_v616 ((extractStridedSlice S8192x256 ![0, 0] · slices_S8192x768_S8192x256_0_0) : (⟨S8192x768, .f32⟩ : BufTy).Contents (Elt F) → (⟨S8192x256, .f32⟩ : BufTy).Contents (Elt F)),
    unary main_v610 main_v617 ((extractStridedSlice S8192x256 ![0, 256] · slices_S8192x768_S8192x256_0_256) : (⟨S8192x768, .f32⟩ : BufTy).Contents (Elt F) → (⟨S8192x256, .f32⟩ : BufTy).Contents (Elt F)),
    unary main_v610 main_v618 ((extractStridedSlice S8192x256 ![0, 512] · slices_S8192x768_S8192x256_0_512) : (⟨S8192x768, .f32⟩ : BufTy).Contents (Elt F) → (⟨S8192x256, .f32⟩ : BufTy).Contents (Elt F)),
    unary main_v615 main_v619 ((extractStridedSlice S8192x256 ![0, 0] · slices_S8192x768_S8192x256_0_0) : (⟨S8192x768, .f32⟩ : BufTy).Contents (Elt F) → (⟨S8192x256, .f32⟩ : BufTy).Contents (Elt F)),
    unary main_v615 main_v620 ((extractStridedSlice S8192x256 ![0, 256] · slices_S8192x768_S8192x256_0_256) : (⟨S8192x768, .f32⟩ : BufTy).Contents (Elt F) → (⟨S8192x256, .f32⟩ : BufTy).Contents (Elt F)),
    unary main_v615 main_v621 ((extractStridedSlice S8192x256 ![0, 512] · slices_S8192x768_S8192x256_0_512) : (⟨S8192x768, .f32⟩ : BufTy).Contents (Elt F) → (⟨S8192x256, .f32⟩ : BufTy).Contents (Elt F)),
    binary main_v616 main_v619 main_v622 (addf : (⟨S8192x256, .f32⟩ : BufTy).Contents (Elt F) → (⟨S8192x256, .f32⟩ : BufTy).Contents (Elt F) → (⟨S8192x256, .f32⟩ : BufTy).Contents (Elt F)),
    unary main_v622 main_v623 (Host.negf : (⟨S8192x256, .f32⟩ : BufTy).Contents (Elt F) → (⟨S8192x256, .f32⟩ : BufTy).Contents (Elt F)),
    unary main_v623 main_v624 (Host.exp : (⟨S8192x256, .f32⟩ : BufTy).Contents (Elt F) → (⟨S8192x256, .f32⟩ : BufTy).Contents (Elt F)),
    nullary main_cst_77 (constant S_ .f32 0x3F800000#32),
    unary main_cst_77 main_v625 (broadcastInDim S8192x256 ![] bcast_S_S8192x256 : (⟨S_, .f32⟩ : BufTy).Contents (Elt F) → (⟨S8192x256, .f32⟩ : BufTy).Contents (Elt F)),
    binary main_v625 main_v624 main_v626 (addf : (⟨S8192x256, .f32⟩ : BufTy).Contents (Elt F) → (⟨S8192x256, .f32⟩ : BufTy).Contents (Elt F) → (⟨S8192x256, .f32⟩ : BufTy).Contents (Elt F)),
    nullary main_cst_78 (constant S_ .f32 0x3F800000#32),
    unary main_cst_78 main_v627 (broadcastInDim S8192x256 ![] bcast_S_S8192x256 : (⟨S_, .f32⟩ : BufTy).Contents (Elt F) → (⟨S8192x256, .f32⟩ : BufTy).Contents (Elt F)),
    binary main_v627 main_v626 main_v628 (Host.divf : (⟨S8192x256, .f32⟩ : BufTy).Contents (Elt F) → (⟨S8192x256, .f32⟩ : BufTy).Contents (Elt F) → (⟨S8192x256, .f32⟩ : BufTy).Contents (Elt F)),
    binary main_v617 main_v620 main_v629 (addf : (⟨S8192x256, .f32⟩ : BufTy).Contents (Elt F) → (⟨S8192x256, .f32⟩ : BufTy).Contents (Elt F) → (⟨S8192x256, .f32⟩ : BufTy).Contents (Elt F)),
    unary main_v629 main_v630 (Host.negf : (⟨S8192x256, .f32⟩ : BufTy).Contents (Elt F) → (⟨S8192x256, .f32⟩ : BufTy).Contents (Elt F)),
    unary main_v630 main_v631 (Host.exp : (⟨S8192x256, .f32⟩ : BufTy).Contents (Elt F) → (⟨S8192x256, .f32⟩ : BufTy).Contents (Elt F)),
    nullary main_cst_79 (constant S_ .f32 0x3F800000#32),
    unary main_cst_79 main_v632 (broadcastInDim S8192x256 ![] bcast_S_S8192x256 : (⟨S_, .f32⟩ : BufTy).Contents (Elt F) → (⟨S8192x256, .f32⟩ : BufTy).Contents (Elt F)),
    binary main_v632 main_v631 main_v633 (addf : (⟨S8192x256, .f32⟩ : BufTy).Contents (Elt F) → (⟨S8192x256, .f32⟩ : BufTy).Contents (Elt F) → (⟨S8192x256, .f32⟩ : BufTy).Contents (Elt F)),
    nullary main_cst_80 (constant S_ .f32 0x3F800000#32),
    unary main_cst_80 main_v634 (broadcastInDim S8192x256 ![] bcast_S_S8192x256 : (⟨S_, .f32⟩ : BufTy).Contents (Elt F) → (⟨S8192x256, .f32⟩ : BufTy).Contents (Elt F)),
    binary main_v634 main_v633 main_v635 (Host.divf : (⟨S8192x256, .f32⟩ : BufTy).Contents (Elt F) → (⟨S8192x256, .f32⟩ : BufTy).Contents (Elt F) → (⟨S8192x256, .f32⟩ : BufTy).Contents (Elt F)),
    binary main_v628 main_v621 main_v636 (mulf : (⟨S8192x256, .f32⟩ : BufTy).Contents (Elt F) → (⟨S8192x256, .f32⟩ : BufTy).Contents (Elt F) → (⟨S8192x256, .f32⟩ : BufTy).Contents (Elt F)),
    binary main_v618 main_v636 main_v637 (addf : (⟨S8192x256, .f32⟩ : BufTy).Contents (Elt F) → (⟨S8192x256, .f32⟩ : BufTy).Contents (Elt F) → (⟨S8192x256, .f32⟩ : BufTy).Contents (Elt F)),
    unary main_v637 main_v638 (Host.tanh : (⟨S8192x256, .f32⟩ : BufTy).Contents (Elt F) → (⟨S8192x256, .f32⟩ : BufTy).Contents (Elt F)),
    nullary main_cst_81 (constant S_ .f32 0x3F800000#32),
    unary main_cst_81 main_v639 (broadcastInDim S8192x256 ![] bcast_S_S8192x256 : (⟨S_, .f32⟩ : BufTy).Contents (Elt F) → (⟨S8192x256, .f32⟩ : BufTy).Contents (Elt F)),
    binary main_v639 main_v635 main_v640 (subf : (⟨S8192x256, .f32⟩ : BufTy).Contents (Elt F) → (⟨S8192x256, .f32⟩ : BufTy).Contents (Elt F) → (⟨S8192x256, .f32⟩ : BufTy).Contents (Elt F)),
    binary main_v640 main_v638 main_v641 (mulf : (⟨S8192x256, .f32⟩ : BufTy).Contents (Elt F) → (⟨S8192x256, .f32⟩ : BufTy).Contents (Elt F) → (⟨S8192x256, .f32⟩ : BufTy).Contents (Elt F)),
    binary main_v635 main_v523 main_v642 (mulf : (⟨S8192x256, .f32⟩ : BufTy).Contents (Elt F) → (⟨S8192x256, .f32⟩ : BufTy).Contents (Elt F) → (⟨S8192x256, .f32⟩ : BufTy).Contents (Elt F)),
    binary main_v641 main_v642 main_v643 (addf : (⟨S8192x256, .f32⟩ : BufTy).Contents (Elt F) → (⟨S8192x256, .f32⟩ : BufTy).Contents (Elt F) → (⟨S8192x256, .f32⟩ : BufTy).Contents (Elt F)),
    unary main_arg6 main_v644 ((transpose S256x768 [1, 0] · transposes_S768x256_S256x768_1_0) : (⟨S768x256, .f32⟩ : BufTy).Contents (Elt F) → (⟨S256x768, .f32⟩ : BufTy).Contents (Elt F)),
    binary main_v643 main_v644 main_v645 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v646 (broadcastInDim S1x768 ![1] bcast_S768_S1x768_1 : (⟨S768, .f32⟩ : BufTy).Contents (Elt F) → (⟨S1x768, .f32⟩ : BufTy).Contents (Elt F)),
    unary main_v646 main_v647 (broadcastInDim S8192x768 ![0, 1] bcast_S1x768_S8192x768_0_1 : (⟨S1x768, .f32⟩ : BufTy).Contents (Elt F) → (⟨S8192x768, .f32⟩ : BufTy).Contents (Elt F)),
    binary main_v645 main_v647 main_v648 (addf : (⟨S8192x768, .f32⟩ : BufTy).Contents (Elt F) → (⟨S8192x768, .f32⟩ : BufTy).Contents (Elt F) → (⟨S8192x768, .f32⟩ : BufTy).Contents (Elt F)),
    unary main_arg7 main_v649 ((transpose S256x768 [1, 0] · transposes_S768x256_S256x768_1_0) : (⟨S768x256, .f32⟩ : BufTy).Contents (Elt F) → (⟨S256x768, .f32⟩ : BufTy).Contents (Elt F)),
    binary main_v561 main_v649 main_v650 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v651 (broadcastInDim S1x768 ![1] bcast_S768_S1x768_1 : (⟨S768, .f32⟩ : BufTy).Contents (Elt F) → (⟨S1x768, .f32⟩ : BufTy).Contents (Elt F)),
    unary main_v651 main_v652 (broadcastInDim S8192x768 ![0, 1] bcast_S1x768_S8192x768_0_1 : (⟨S1x768, .f32⟩ : BufTy).Contents (Elt F) → (⟨S8192x768, .f32⟩ : BufTy).Contents (Elt F)),
    binary main_v650 main_v652 main_v653 (addf : (⟨S8192x768, .f32⟩ : BufTy).Contents (Elt F) → (⟨S8192x768, .f32⟩ : BufTy).Contents (Elt F) → (⟨S8192x768, .f32⟩ : BufTy).Contents (Elt F)),
    unary main_v648 main_v654 ((extractStridedSlice S8192x256 ![0, 0] · slices_S8192x768_S8192x256_0_0) : (⟨S8192x768, .f32⟩ : BufTy).Contents (Elt F) → (⟨S8192x256, .f32⟩ : BufTy).Contents (Elt F)),
    unary main_v648 main_v655 ((extractStridedSlice S8192x256 ![0, 256] · slices_S8192x768_S8192x256_0_256) : (⟨S8192x768, .f32⟩ : BufTy).Contents (Elt F) → (⟨S8192x256, .f32⟩ : BufTy).Contents (Elt F)),
    unary main_v648 main_v656 ((extractStridedSlice S8192x256 ![0, 512] · slices_S8192x768_S8192x256_0_512) : (⟨S8192x768, .f32⟩ : BufTy).Contents (Elt F) → (⟨S8192x256, .f32⟩ : BufTy).Contents (Elt F)),
    unary main_v653 main_v657 ((extractStridedSlice S8192x256 ![0, 0] · slices_S8192x768_S8192x256_0_0) : (⟨S8192x768, .f32⟩ : BufTy).Contents (Elt F) → (⟨S8192x256, .f32⟩ : BufTy).Contents (Elt F)),
    unary main_v653 main_v658 ((extractStridedSlice S8192x256 ![0, 256] · slices_S8192x768_S8192x256_0_256) : (⟨S8192x768, .f32⟩ : BufTy).Contents (Elt F) → (⟨S8192x256, .f32⟩ : BufTy).Contents (Elt F)),
    unary main_v653 main_v659 ((extractStridedSlice S8192x256 ![0, 512] · slices_S8192x768_S8192x256_0_512) : (⟨S8192x768, .f32⟩ : BufTy).Contents (Elt F) → (⟨S8192x256, .f32⟩ : BufTy).Contents (Elt F)),
    binary main_v654 main_v657 main_v660 (addf : (⟨S8192x256, .f32⟩ : BufTy).Contents (Elt F) → (⟨S8192x256, .f32⟩ : BufTy).Contents (Elt F) → (⟨S8192x256, .f32⟩ : BufTy).Contents (Elt F)),
    unary main_v660 main_v661 (Host.negf : (⟨S8192x256, .f32⟩ : BufTy).Contents (Elt F) → (⟨S8192x256, .f32⟩ : BufTy).Contents (Elt F)),
    unary main_v661 main_v662 (Host.exp : (⟨S8192x256, .f32⟩ : BufTy).Contents (Elt F) → (⟨S8192x256, .f32⟩ : BufTy).Contents (Elt F)),
    nullary main_cst_82 (constant S_ .f32 0x3F800000#32),
    unary main_cst_82 main_v663 (broadcastInDim S8192x256 ![] bcast_S_S8192x256 : (⟨S_, .f32⟩ : BufTy).Contents (Elt F) → (⟨S8192x256, .f32⟩ : BufTy).Contents (Elt F)),
    binary main_v663 main_v662 main_v664 (addf : (⟨S8192x256, .f32⟩ : BufTy).Contents (Elt F) → (⟨S8192x256, .f32⟩ : BufTy).Contents (Elt F) → (⟨S8192x256, .f32⟩ : BufTy).Contents (Elt F)),
    nullary main_cst_83 (constant S_ .f32 0x3F800000#32),
    unary main_cst_83 main_v665 (broadcastInDim S8192x256 ![] bcast_S_S8192x256 : (⟨S_, .f32⟩ : BufTy).Contents (Elt F) → (⟨S8192x256, .f32⟩ : BufTy).Contents (Elt F)),
    binary main_v665 main_v664 main_v666 (Host.divf : (⟨S8192x256, .f32⟩ : BufTy).Contents (Elt F) → (⟨S8192x256, .f32⟩ : BufTy).Contents (Elt F) → (⟨S8192x256, .f32⟩ : BufTy).Contents (Elt F)),
    binary main_v655 main_v658 main_v667 (addf : (⟨S8192x256, .f32⟩ : BufTy).Contents (Elt F) → (⟨S8192x256, .f32⟩ : BufTy).Contents (Elt F) → (⟨S8192x256, .f32⟩ : BufTy).Contents (Elt F)),
    unary main_v667 main_v668 (Host.negf : (⟨S8192x256, .f32⟩ : BufTy).Contents (Elt F) → (⟨S8192x256, .f32⟩ : BufTy).Contents (Elt F)),
    unary main_v668 main_v669 (Host.exp : (⟨S8192x256, .f32⟩ : BufTy).Contents (Elt F) → (⟨S8192x256, .f32⟩ : BufTy).Contents (Elt F)),
    nullary main_cst_84 (constant S_ .f32 0x3F800000#32),
    unary main_cst_84 main_v670 (broadcastInDim S8192x256 ![] bcast_S_S8192x256 : (⟨S_, .f32⟩ : BufTy).Contents (Elt F) → (⟨S8192x256, .f32⟩ : BufTy).Contents (Elt F)),
    binary main_v670 main_v669 main_v671 (addf : (⟨S8192x256, .f32⟩ : BufTy).Contents (Elt F) → (⟨S8192x256, .f32⟩ : BufTy).Contents (Elt F) → (⟨S8192x256, .f32⟩ : BufTy).Contents (Elt F)),
    nullary main_cst_85 (constant S_ .f32 0x3F800000#32),
    unary main_cst_85 main_v672 (broadcastInDim S8192x256 ![] bcast_S_S8192x256 : (⟨S_, .f32⟩ : BufTy).Contents (Elt F) → (⟨S8192x256, .f32⟩ : BufTy).Contents (Elt F)),
    binary main_v672 main_v671 main_v673 (Host.divf : (⟨S8192x256, .f32⟩ : BufTy).Contents (Elt F) → (⟨S8192x256, .f32⟩ : BufTy).Contents (Elt F) → (⟨S8192x256, .f32⟩ : BufTy).Contents (Elt F)),
    binary main_v666 main_v659 main_v674 (mulf : (⟨S8192x256, .f32⟩ : BufTy).Contents (Elt F) → (⟨S8192x256, .f32⟩ : BufTy).Contents (Elt F) → (⟨S8192x256, .f32⟩ : BufTy).Contents (Elt F)),
    binary main_v656 main_v674 main_v675 (addf : (⟨S8192x256, .f32⟩ : BufTy).Contents (Elt F) → (⟨S8192x256, .f32⟩ : BufTy).Contents (Elt F) → (⟨S8192x256, .f32⟩ : BufTy).Contents (Elt F)),
    unary main_v675 main_v676 (Host.tanh : (⟨S8192x256, .f32⟩ : BufTy).Contents (Elt F) → (⟨S8192x256, .f32⟩ : BufTy).Contents (Elt F)),
    nullary main_cst_86 (constant S_ .f32 0x3F800000#32),
    unary main_cst_86 main_v677 (broadcastInDim S8192x256 ![] bcast_S_S8192x256 : (⟨S_, .f32⟩ : BufTy).Contents (Elt F) → (⟨S8192x256, .f32⟩ : BufTy).Contents (Elt F)),
    binary main_v677 main_v673 main_v678 (subf : (⟨S8192x256, .f32⟩ : BufTy).Contents (Elt F) → (⟨S8192x256, .f32⟩ : BufTy).Contents (Elt F) → (⟨S8192x256, .f32⟩ : BufTy).Contents (Elt F)),
    binary main_v678 main_v676 main_v679 (mulf : (⟨S8192x256, .f32⟩ : BufTy).Contents (Elt F) → (⟨S8192x256, .f32⟩ : BufTy).Contents (Elt F) → (⟨S8192x256, .f32⟩ : BufTy).Contents (Elt F)),
    binary main_v673 main_v561 main_v680 (mulf : (⟨S8192x256, .f32⟩ : BufTy).Contents (Elt F) → (⟨S8192x256, .f32⟩ : BufTy).Contents (Elt F) → (⟨S8192x256, .f32⟩ : BufTy).Contents (Elt F)),
    binary main_v679 main_v680 main_v681 (addf : (⟨S8192x256, .f32⟩ : BufTy).Contents (Elt F) → (⟨S8192x256, .f32⟩ : BufTy).Contents (Elt F) → (⟨S8192x256, .f32⟩ : BufTy).Contents (Elt F)),
    unary main_arg10 main_v682 ((transpose S256x768 [1, 0] · transposes_S768x256_S256x768_1_0) : (⟨S768x256, .f32⟩ : BufTy).Contents (Elt F) → (⟨S256x768, .f32⟩ : BufTy).Contents (Elt F)),
    binary main_v681 main_v682 main_v683 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v684 (broadcastInDim S1x768 ![1] bcast_S768_S1x768_1 : (⟨S768, .f32⟩ : BufTy).Contents (Elt F) → (⟨S1x768, .f32⟩ : BufTy).Contents (Elt F)),
    unary main_v684 main_v685 (broadcastInDim S8192x768 ![0, 1] bcast_S1x768_S8192x768_0_1 : (⟨S1x768, .f32⟩ : BufTy).Contents (Elt F) → (⟨S8192x768, .f32⟩ : BufTy).Contents (Elt F)),
    binary main_v683 main_v685 main_v686 (addf : (⟨S8192x768, .f32⟩ : BufTy).Contents (Elt F) → (⟨S8192x768, .f32⟩ : BufTy).Contents (Elt F) → (⟨S8192x768, .f32⟩ : BufTy).Contents (Elt F)),
    unary main_arg11 main_v687 ((transpose S256x768 [1, 0] · transposes_S768x256_S256x768_1_0) : (⟨S768x256, .f32⟩ : BufTy).Contents (Elt F) → (⟨S256x768, .f32⟩ : BufTy).Contents (Elt F)),
    binary main_v599 main_v687 main_v688 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v689 (broadcastInDim S1x768 ![1] bcast_S768_S1x768_1 : (⟨S768, .f32⟩ : BufTy).Contents (Elt F) → (⟨S1x768, .f32⟩ : BufTy).Contents (Elt F)),
    unary main_v689 main_v690 (broadcastInDim S8192x768 ![0, 1] bcast_S1x768_S8192x768_0_1 : (⟨S1x768, .f32⟩ : BufTy).Contents (Elt F) → (⟨S8192x768, .f32⟩ : BufTy).Contents (Elt F)),
    binary main_v688 main_v690 main_v691 (addf : (⟨S8192x768, .f32⟩ : BufTy).Contents (Elt F) → (⟨S8192x768, .f32⟩ : BufTy).Contents (Elt F) → (⟨S8192x768, .f32⟩ : BufTy).Contents (Elt F)),
    unary main_v686 main_v692 ((extractStridedSlice S8192x256 ![0, 0] · slices_S8192x768_S8192x256_0_0) : (⟨S8192x768, .f32⟩ : BufTy).Contents (Elt F) → (⟨S8192x256, .f32⟩ : BufTy).Contents (Elt F)),
    unary main_v686 main_v693 ((extractStridedSlice S8192x256 ![0, 256] · slices_S8192x768_S8192x256_0_256) : (⟨S8192x768, .f32⟩ : BufTy).Contents (Elt F) → (⟨S8192x256, .f32⟩ : BufTy).Contents (Elt F)),
    unary main_v686 main_v694 ((extractStridedSlice S8192x256 ![0, 512] · slices_S8192x768_S8192x256_0_512) : (⟨S8192x768, .f32⟩ : BufTy).Contents (Elt F) → (⟨S8192x256, .f32⟩ : BufTy).Contents (Elt F)),
    unary main_v691 main_v695 ((extractStridedSlice S8192x256 ![0, 0] · slices_S8192x768_S8192x256_0_0) : (⟨S8192x768, .f32⟩ : BufTy).Contents (Elt F) → (⟨S8192x256, .f32⟩ : BufTy).Contents (Elt F)),
    unary main_v691 main_v696 ((extractStridedSlice S8192x256 ![0, 256] · slices_S8192x768_S8192x256_0_256) : (⟨S8192x768, .f32⟩ : BufTy).Contents (Elt F) → (⟨S8192x256, .f32⟩ : BufTy).Contents (Elt F)),
    unary main_v691 main_v697 ((extractStridedSlice S8192x256 ![0, 512] · slices_S8192x768_S8192x256_0_512) : (⟨S8192x768, .f32⟩ : BufTy).Contents (Elt F) → (⟨S8192x256, .f32⟩ : BufTy).Contents (Elt F)),
    binary main_v692 main_v695 main_v698 (addf : (⟨S8192x256, .f32⟩ : BufTy).Contents (Elt F) → (⟨S8192x256, .f32⟩ : BufTy).Contents (Elt F) → (⟨S8192x256, .f32⟩ : BufTy).Contents (Elt F)),
    unary main_v698 main_v699 (Host.negf : (⟨S8192x256, .f32⟩ : BufTy).Contents (Elt F) → (⟨S8192x256, .f32⟩ : BufTy).Contents (Elt F)),
    unary main_v699 main_v700 (Host.exp : (⟨S8192x256, .f32⟩ : BufTy).Contents (Elt F) → (⟨S8192x256, .f32⟩ : BufTy).Contents (Elt F)),
    nullary main_cst_87 (constant S_ .f32 0x3F800000#32),
    unary main_cst_87 main_v701 (broadcastInDim S8192x256 ![] bcast_S_S8192x256 : (⟨S_, .f32⟩ : BufTy).Contents (Elt F) → (⟨S8192x256, .f32⟩ : BufTy).Contents (Elt F)),
    binary main_v701 main_v700 main_v702 (addf : (⟨S8192x256, .f32⟩ : BufTy).Contents (Elt F) → (⟨S8192x256, .f32⟩ : BufTy).Contents (Elt F) → (⟨S8192x256, .f32⟩ : BufTy).Contents (Elt F)),
    nullary main_cst_88 (constant S_ .f32 0x3F800000#32),
    unary main_cst_88 main_v703 (broadcastInDim S8192x256 ![] bcast_S_S8192x256 : (⟨S_, .f32⟩ : BufTy).Contents (Elt F) → (⟨S8192x256, .f32⟩ : BufTy).Contents (Elt F)),
    binary main_v703 main_v702 main_v704 (Host.divf : (⟨S8192x256, .f32⟩ : BufTy).Contents (Elt F) → (⟨S8192x256, .f32⟩ : BufTy).Contents (Elt F) → (⟨S8192x256, .f32⟩ : BufTy).Contents (Elt F)),
    binary main_v693 main_v696 main_v705 (addf : (⟨S8192x256, .f32⟩ : BufTy).Contents (Elt F) → (⟨S8192x256, .f32⟩ : BufTy).Contents (Elt F) → (⟨S8192x256, .f32⟩ : BufTy).Contents (Elt F)),
    unary main_v705 main_v706 (Host.negf : (⟨S8192x256, .f32⟩ : BufTy).Contents (Elt F) → (⟨S8192x256, .f32⟩ : BufTy).Contents (Elt F)),
    unary main_v706 main_v707 (Host.exp : (⟨S8192x256, .f32⟩ : BufTy).Contents (Elt F) → (⟨S8192x256, .f32⟩ : BufTy).Contents (Elt F)),
    nullary main_cst_89 (constant S_ .f32 0x3F800000#32),
    unary main_cst_89 main_v708 (broadcastInDim S8192x256 ![] bcast_S_S8192x256 : (⟨S_, .f32⟩ : BufTy).Contents (Elt F) → (⟨S8192x256, .f32⟩ : BufTy).Contents (Elt F)),
    binary main_v708 main_v707 main_v709 (addf : (⟨S8192x256, .f32⟩ : BufTy).Contents (Elt F) → (⟨S8192x256, .f32⟩ : BufTy).Contents (Elt F) → (⟨S8192x256, .f32⟩ : BufTy).Contents (Elt F)),
    nullary main_cst_90 (constant S_ .f32 0x3F800000#32),
    unary main_cst_90 main_v710 (broadcastInDim S8192x256 ![] bcast_S_S8192x256 : (⟨S_, .f32⟩ : BufTy).Contents (Elt F) → (⟨S8192x256, .f32⟩ : BufTy).Contents (Elt F)),
    binary main_v710 main_v709 main_v711 (Host.divf : (⟨S8192x256, .f32⟩ : BufTy).Contents (Elt F) → (⟨S8192x256, .f32⟩ : BufTy).Contents (Elt F) → (⟨S8192x256, .f32⟩ : BufTy).Contents (Elt F)),
    binary main_v704 main_v697 main_v712 (mulf : (⟨S8192x256, .f32⟩ : BufTy).Contents (Elt F) → (⟨S8192x256, .f32⟩ : BufTy).Contents (Elt F) → (⟨S8192x256, .f32⟩ : BufTy).Contents (Elt F)),
    binary main_v694 main_v712 main_v713 (addf : (⟨S8192x256, .f32⟩ : BufTy).Contents (Elt F) → (⟨S8192x256, .f32⟩ : BufTy).Contents (Elt F) → (⟨S8192x256, .f32⟩ : BufTy).Contents (Elt F)),
    unary main_v713 main_v714 (Host.tanh : (⟨S8192x256, .f32⟩ : BufTy).Contents (Elt F) → (⟨S8192x256, .f32⟩ : BufTy).Contents (Elt F)),
    nullary main_cst_91 (constant S_ .f32 0x3F800000#32),
    unary main_cst_91 main_v715 (broadcastInDim S8192x256 ![] bcast_S_S8192x256 : (⟨S_, .f32⟩ : BufTy).Contents (Elt F) → (⟨S8192x256, .f32⟩ : BufTy).Contents (Elt F)),
    binary main_v715 main_v711 main_v716 (subf : (⟨S8192x256, .f32⟩ : BufTy).Contents (Elt F) → (⟨S8192x256, .f32⟩ : BufTy).Contents (Elt F) → (⟨S8192x256, .f32⟩ : BufTy).Contents (Elt F)),
    binary main_v716 main_v714 main_v717 (mulf : (⟨S8192x256, .f32⟩ : BufTy).Contents (Elt F) → (⟨S8192x256, .f32⟩ : BufTy).Contents (Elt F) → (⟨S8192x256, .f32⟩ : BufTy).Contents (Elt F)),
    binary main_v711 main_v599 main_v718 (mulf : (⟨S8192x256, .f32⟩ : BufTy).Contents (Elt F) → (⟨S8192x256, .f32⟩ : BufTy).Contents (Elt F) → (⟨S8192x256, .f32⟩ : BufTy).Contents (Elt F)),
    binary main_v717 main_v718 main_v719 (addf : (⟨S8192x256, .f32⟩ : BufTy).Contents (Elt F) → (⟨S8192x256, .f32⟩ : BufTy).Contents (Elt F) → (⟨S8192x256, .f32⟩ : BufTy).Contents (Elt F)),
    unary main_arg14 main_v720 ((transpose S256x2 [1, 0] · transposes_S2x256_S256x2_1_0) : (⟨S2x256, .f32⟩ : BufTy).Contents (Elt F) → (⟨S256x2, .f32⟩ : BufTy).Contents (Elt F)),
    binary main_v719 main_v720 main_v721 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v722 (broadcastInDim S1x2 ![1] bcast_S2_S1x2_1 : (⟨S2, .f32⟩ : BufTy).Contents (Elt F) → (⟨S1x2, .f32⟩ : BufTy).Contents (Elt F)),
    unary main_v722 main_v723 (broadcastInDim S8192x2 ![0, 1] bcast_S1x2_S8192x2_0_1 : (⟨S1x2, .f32⟩ : BufTy).Contents (Elt F) → (⟨S8192x2, .f32⟩ : BufTy).Contents (Elt F)),
    binary main_v721 main_v723 main_v724 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg5_W : List (Ref sig .tc) := [main_v605, main_v606, main_v607, main_v608, main_v609, main_v610, main_v611, main_v612, main_v613, main_v614, main_v615, main_v616, main_v617, main_v618, main_v619, main_v620, main_v621, main_v622, main_v623, main_v624, main_cst_77, main_v625, main_v626, main_cst_78, main_v627, main_v628, main_v629, main_v630, main_v631, main_cst_79, main_v632, main_v633, main_cst_80, main_v634, main_v635, main_v636, main_v637, main_v638, main_cst_81, main_v639, main_v640, main_v641, main_v642, main_v643, main_v644, main_v645, main_v646, main_v647, main_v648, main_v649, main_v650, main_v651, main_v652, main_v653, main_v654, main_v655, main_v656, main_v657, main_v658, main_v659, main_v660, main_v661, main_v662, main_cst_82, main_v663, main_v664, main_cst_83, main_v665, main_v666, main_v667, main_v668, main_v669, main_cst_84, main_v670, main_v671, main_cst_85, main_v672, main_v673, main_v674, main_v675, main_v676, main_cst_86, main_v677, main_v678, main_v679, main_v680, main_v681, main_v682, main_v683, main_v684, main_v685, main_v686, main_v687, main_v688, main_v689, main_v690, main_v691, main_v692, main_v693, main_v694, main_v695, main_v696, main_v697, main_v698, main_v699, main_v700, main_cst_87, main_v701, main_v702, main_cst_88, main_v703, main_v704, main_v705, main_v706, main_v707, main_cst_89, main_v708, main_v709, main_cst_90, main_v710, main_v711, main_v712, main_v713, main_v714, main_cst_91, main_v715, main_v716, main_v717, main_v718, main_v719, main_v720, main_v721, main_v722, main_v723, main_v724]
set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg5_keep (V : Valuation τ sig (Elt F)) (r : Ref sig .tc) (h : r ∉ seg5_W) :
    after seg5 V (Proc.devRef .tc r) = V (Proc.devRef .tc r) :=
  after_of_writes_sub seg5 _ seg5_writes h

/-- @main's operations 819 to 953. -/
abbrev seg6 : List (HloOp τ sig (Elt F)) :=
  [ binary main_arg0 main_v724 main_v725 (fn_main_v725 (F := F)),
    unary main_arg2 main_v726 ((transpose S514x768 [1, 0] · transposes_S768x514_S514x768_1_0) : (⟨S768x514, .f32⟩ : BufTy).Contents (Elt F) → (⟨S514x768, .f32⟩ : BufTy).Contents (Elt F)),
    binary main_v725 main_v726 main_v727 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v728 (broadcastInDim S1x768 ![1] bcast_S768_S1x768_1 : (⟨S768, .f32⟩ : BufTy).Contents (Elt F) → (⟨S1x768, .f32⟩ : BufTy).Contents (Elt F)),
    unary main_v728 main_v729 (broadcastInDim S8192x768 ![0, 1] bcast_S1x768_S8192x768_0_1 : (⟨S1x768, .f32⟩ : BufTy).Contents (Elt F) → (⟨S8192x768, .f32⟩ : BufTy).Contents (Elt F)),
    binary main_v727 main_v729 main_v730 (addf : (⟨S8192x768, .f32⟩ : BufTy).Contents (Elt F) → (⟨S8192x768, .f32⟩ : BufTy).Contents (Elt F) → (⟨S8192x768, .f32⟩ : BufTy).Contents (Elt F)),
    unary main_arg3 main_v731 ((transpose S256x768 [1, 0] · transposes_S768x256_S256x768_1_0) : (⟨S768x256, .f32⟩ : BufTy).Contents (Elt F) → (⟨S256x768, .f32⟩ : BufTy).Contents (Elt F)),
    binary main_v643 main_v731 main_v732 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v733 (broadcastInDim S1x768 ![1] bcast_S768_S1x768_1 : (⟨S768, .f32⟩ : BufTy).Contents (Elt F) → (⟨S1x768, .f32⟩ : BufTy).Contents (Elt F)),
    unary main_v733 main_v734 (broadcastInDim S8192x768 ![0, 1] bcast_S1x768_S8192x768_0_1 : (⟨S1x768, .f32⟩ : BufTy).Contents (Elt F) → (⟨S8192x768, .f32⟩ : BufTy).Contents (Elt F)),
    binary main_v732 main_v734 main_v735 (addf : (⟨S8192x768, .f32⟩ : BufTy).Contents (Elt F) → (⟨S8192x768, .f32⟩ : BufTy).Contents (Elt F) → (⟨S8192x768, .f32⟩ : BufTy).Contents (Elt F)),
    unary main_v730 main_v736 ((extractStridedSlice S8192x256 ![0, 0] · slices_S8192x768_S8192x256_0_0) : (⟨S8192x768, .f32⟩ : BufTy).Contents (Elt F) → (⟨S8192x256, .f32⟩ : BufTy).Contents (Elt F)),
    unary main_v730 main_v737 ((extractStridedSlice S8192x256 ![0, 256] · slices_S8192x768_S8192x256_0_256) : (⟨S8192x768, .f32⟩ : BufTy).Contents (Elt F) → (⟨S8192x256, .f32⟩ : BufTy).Contents (Elt F)),
    unary main_v730 main_v738 ((extractStridedSlice S8192x256 ![0, 512] · slices_S8192x768_S8192x256_0_512) : (⟨S8192x768, .f32⟩ : BufTy).Contents (Elt F) → (⟨S8192x256, .f32⟩ : BufTy).Contents (Elt F)),
    unary main_v735 main_v739 ((extractStridedSlice S8192x256 ![0, 0] · slices_S8192x768_S8192x256_0_0) : (⟨S8192x768, .f32⟩ : BufTy).Contents (Elt F) → (⟨S8192x256, .f32⟩ : BufTy).Contents (Elt F)),
    unary main_v735 main_v740 ((extractStridedSlice S8192x256 ![0, 256] · slices_S8192x768_S8192x256_0_256) : (⟨S8192x768, .f32⟩ : BufTy).Contents (Elt F) → (⟨S8192x256, .f32⟩ : BufTy).Contents (Elt F)),
    unary main_v735 main_v741 ((extractStridedSlice S8192x256 ![0, 512] · slices_S8192x768_S8192x256_0_512) : (⟨S8192x768, .f32⟩ : BufTy).Contents (Elt F) → (⟨S8192x256, .f32⟩ : BufTy).Contents (Elt F)),
    binary main_v736 main_v739 main_v742 (addf : (⟨S8192x256, .f32⟩ : BufTy).Contents (Elt F) → (⟨S8192x256, .f32⟩ : BufTy).Contents (Elt F) → (⟨S8192x256, .f32⟩ : BufTy).Contents (Elt F)),
    unary main_v742 main_v743 (Host.negf : (⟨S8192x256, .f32⟩ : BufTy).Contents (Elt F) → (⟨S8192x256, .f32⟩ : BufTy).Contents (Elt F)),
    unary main_v743 main_v744 (Host.exp : (⟨S8192x256, .f32⟩ : BufTy).Contents (Elt F) → (⟨S8192x256, .f32⟩ : BufTy).Contents (Elt F)),
    nullary main_cst_92 (constant S_ .f32 0x3F800000#32),
    unary main_cst_92 main_v745 (broadcastInDim S8192x256 ![] bcast_S_S8192x256 : (⟨S_, .f32⟩ : BufTy).Contents (Elt F) → (⟨S8192x256, .f32⟩ : BufTy).Contents (Elt F)),
    binary main_v745 main_v744 main_v746 (addf : (⟨S8192x256, .f32⟩ : BufTy).Contents (Elt F) → (⟨S8192x256, .f32⟩ : BufTy).Contents (Elt F) → (⟨S8192x256, .f32⟩ : BufTy).Contents (Elt F)),
    nullary main_cst_93 (constant S_ .f32 0x3F800000#32),
    unary main_cst_93 main_v747 (broadcastInDim S8192x256 ![] bcast_S_S8192x256 : (⟨S_, .f32⟩ : BufTy).Contents (Elt F) → (⟨S8192x256, .f32⟩ : BufTy).Contents (Elt F)),
    binary main_v747 main_v746 main_v748 (Host.divf : (⟨S8192x256, .f32⟩ : BufTy).Contents (Elt F) → (⟨S8192x256, .f32⟩ : BufTy).Contents (Elt F) → (⟨S8192x256, .f32⟩ : BufTy).Contents (Elt F)),
    binary main_v737 main_v740 main_v749 (addf : (⟨S8192x256, .f32⟩ : BufTy).Contents (Elt F) → (⟨S8192x256, .f32⟩ : BufTy).Contents (Elt F) → (⟨S8192x256, .f32⟩ : BufTy).Contents (Elt F)),
    unary main_v749 main_v750 (Host.negf : (⟨S8192x256, .f32⟩ : BufTy).Contents (Elt F) → (⟨S8192x256, .f32⟩ : BufTy).Contents (Elt F)),
    unary main_v750 main_v751 (Host.exp : (⟨S8192x256, .f32⟩ : BufTy).Contents (Elt F) → (⟨S8192x256, .f32⟩ : BufTy).Contents (Elt F)),
    nullary main_cst_94 (constant S_ .f32 0x3F800000#32),
    unary main_cst_94 main_v752 (broadcastInDim S8192x256 ![] bcast_S_S8192x256 : (⟨S_, .f32⟩ : BufTy).Contents (Elt F) → (⟨S8192x256, .f32⟩ : BufTy).Contents (Elt F)),
    binary main_v752 main_v751 main_v753 (addf : (⟨S8192x256, .f32⟩ : BufTy).Contents (Elt F) → (⟨S8192x256, .f32⟩ : BufTy).Contents (Elt F) → (⟨S8192x256, .f32⟩ : BufTy).Contents (Elt F)),
    nullary main_cst_95 (constant S_ .f32 0x3F800000#32),
    unary main_cst_95 main_v754 (broadcastInDim S8192x256 ![] bcast_S_S8192x256 : (⟨S_, .f32⟩ : BufTy).Contents (Elt F) → (⟨S8192x256, .f32⟩ : BufTy).Contents (Elt F)),
    binary main_v754 main_v753 main_v755 (Host.divf : (⟨S8192x256, .f32⟩ : BufTy).Contents (Elt F) → (⟨S8192x256, .f32⟩ : BufTy).Contents (Elt F) → (⟨S8192x256, .f32⟩ : BufTy).Contents (Elt F)),
    binary main_v748 main_v741 main_v756 (mulf : (⟨S8192x256, .f32⟩ : BufTy).Contents (Elt F) → (⟨S8192x256, .f32⟩ : BufTy).Contents (Elt F) → (⟨S8192x256, .f32⟩ : BufTy).Contents (Elt F)),
    binary main_v738 main_v756 main_v757 (addf : (⟨S8192x256, .f32⟩ : BufTy).Contents (Elt F) → (⟨S8192x256, .f32⟩ : BufTy).Contents (Elt F) → (⟨S8192x256, .f32⟩ : BufTy).Contents (Elt F)),
    unary main_v757 main_v758 (Host.tanh : (⟨S8192x256, .f32⟩ : BufTy).Contents (Elt F) → (⟨S8192x256, .f32⟩ : BufTy).Contents (Elt F)),
    nullary main_cst_96 (constant S_ .f32 0x3F800000#32),
    unary main_cst_96 main_v759 (broadcastInDim S8192x256 ![] bcast_S_S8192x256 : (⟨S_, .f32⟩ : BufTy).Contents (Elt F) → (⟨S8192x256, .f32⟩ : BufTy).Contents (Elt F)),
    binary main_v759 main_v755 main_v760 (subf : (⟨S8192x256, .f32⟩ : BufTy).Contents (Elt F) → (⟨S8192x256, .f32⟩ : BufTy).Contents (Elt F) → (⟨S8192x256, .f32⟩ : BufTy).Contents (Elt F)),
    binary main_v760 main_v758 main_v761 (mulf : (⟨S8192x256, .f32⟩ : BufTy).Contents (Elt F) → (⟨S8192x256, .f32⟩ : BufTy).Contents (Elt F) → (⟨S8192x256, .f32⟩ : BufTy).Contents (Elt F)),
    binary main_v755 main_v643 main_v762 (mulf : (⟨S8192x256, .f32⟩ : BufTy).Contents (Elt F) → (⟨S8192x256, .f32⟩ : BufTy).Contents (Elt F) → (⟨S8192x256, .f32⟩ : BufTy).Contents (Elt F)),
    binary main_v761 main_v762 main_v763 (addf : (⟨S8192x256, .f32⟩ : BufTy).Contents (Elt F) → (⟨S8192x256, .f32⟩ : BufTy).Contents (Elt F) → (⟨S8192x256, .f32⟩ : BufTy).Contents (Elt F)),
    unary main_arg6 main_v764 ((transpose S256x768 [1, 0] · transposes_S768x256_S256x768_1_0) : (⟨S768x256, .f32⟩ : BufTy).Contents (Elt F) → (⟨S256x768, .f32⟩ : BufTy).Contents (Elt F)),
    binary main_v763 main_v764 main_v765 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v766 (broadcastInDim S1x768 ![1] bcast_S768_S1x768_1 : (⟨S768, .f32⟩ : BufTy).Contents (Elt F) → (⟨S1x768, .f32⟩ : BufTy).Contents (Elt F)),
    unary main_v766 main_v767 (broadcastInDim S8192x768 ![0, 1] bcast_S1x768_S8192x768_0_1 : (⟨S1x768, .f32⟩ : BufTy).Contents (Elt F) → (⟨S8192x768, .f32⟩ : BufTy).Contents (Elt F)),
    binary main_v765 main_v767 main_v768 (addf : (⟨S8192x768, .f32⟩ : BufTy).Contents (Elt F) → (⟨S8192x768, .f32⟩ : BufTy).Contents (Elt F) → (⟨S8192x768, .f32⟩ : BufTy).Contents (Elt F)),
    unary main_arg7 main_v769 ((transpose S256x768 [1, 0] · transposes_S768x256_S256x768_1_0) : (⟨S768x256, .f32⟩ : BufTy).Contents (Elt F) → (⟨S256x768, .f32⟩ : BufTy).Contents (Elt F)),
    binary main_v681 main_v769 main_v770 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v771 (broadcastInDim S1x768 ![1] bcast_S768_S1x768_1 : (⟨S768, .f32⟩ : BufTy).Contents (Elt F) → (⟨S1x768, .f32⟩ : BufTy).Contents (Elt F)),
    unary main_v771 main_v772 (broadcastInDim S8192x768 ![0, 1] bcast_S1x768_S8192x768_0_1 : (⟨S1x768, .f32⟩ : BufTy).Contents (Elt F) → (⟨S8192x768, .f32⟩ : BufTy).Contents (Elt F)),
    binary main_v770 main_v772 main_v773 (addf : (⟨S8192x768, .f32⟩ : BufTy).Contents (Elt F) → (⟨S8192x768, .f32⟩ : BufTy).Contents (Elt F) → (⟨S8192x768, .f32⟩ : BufTy).Contents (Elt F)),
    unary main_v768 main_v774 ((extractStridedSlice S8192x256 ![0, 0] · slices_S8192x768_S8192x256_0_0) : (⟨S8192x768, .f32⟩ : BufTy).Contents (Elt F) → (⟨S8192x256, .f32⟩ : BufTy).Contents (Elt F)),
    unary main_v768 main_v775 ((extractStridedSlice S8192x256 ![0, 256] · slices_S8192x768_S8192x256_0_256) : (⟨S8192x768, .f32⟩ : BufTy).Contents (Elt F) → (⟨S8192x256, .f32⟩ : BufTy).Contents (Elt F)),
    unary main_v768 main_v776 ((extractStridedSlice S8192x256 ![0, 512] · slices_S8192x768_S8192x256_0_512) : (⟨S8192x768, .f32⟩ : BufTy).Contents (Elt F) → (⟨S8192x256, .f32⟩ : BufTy).Contents (Elt F)),
    unary main_v773 main_v777 ((extractStridedSlice S8192x256 ![0, 0] · slices_S8192x768_S8192x256_0_0) : (⟨S8192x768, .f32⟩ : BufTy).Contents (Elt F) → (⟨S8192x256, .f32⟩ : BufTy).Contents (Elt F)),
    unary main_v773 main_v778 ((extractStridedSlice S8192x256 ![0, 256] · slices_S8192x768_S8192x256_0_256) : (⟨S8192x768, .f32⟩ : BufTy).Contents (Elt F) → (⟨S8192x256, .f32⟩ : BufTy).Contents (Elt F)),
    unary main_v773 main_v779 ((extractStridedSlice S8192x256 ![0, 512] · slices_S8192x768_S8192x256_0_512) : (⟨S8192x768, .f32⟩ : BufTy).Contents (Elt F) → (⟨S8192x256, .f32⟩ : BufTy).Contents (Elt F)),
    binary main_v774 main_v777 main_v780 (addf : (⟨S8192x256, .f32⟩ : BufTy).Contents (Elt F) → (⟨S8192x256, .f32⟩ : BufTy).Contents (Elt F) → (⟨S8192x256, .f32⟩ : BufTy).Contents (Elt F)),
    unary main_v780 main_v781 (Host.negf : (⟨S8192x256, .f32⟩ : BufTy).Contents (Elt F) → (⟨S8192x256, .f32⟩ : BufTy).Contents (Elt F)),
    unary main_v781 main_v782 (Host.exp : (⟨S8192x256, .f32⟩ : BufTy).Contents (Elt F) → (⟨S8192x256, .f32⟩ : BufTy).Contents (Elt F)),
    nullary main_cst_97 (constant S_ .f32 0x3F800000#32),
    unary main_cst_97 main_v783 (broadcastInDim S8192x256 ![] bcast_S_S8192x256 : (⟨S_, .f32⟩ : BufTy).Contents (Elt F) → (⟨S8192x256, .f32⟩ : BufTy).Contents (Elt F)),
    binary main_v783 main_v782 main_v784 (addf : (⟨S8192x256, .f32⟩ : BufTy).Contents (Elt F) → (⟨S8192x256, .f32⟩ : BufTy).Contents (Elt F) → (⟨S8192x256, .f32⟩ : BufTy).Contents (Elt F)),
    nullary main_cst_98 (constant S_ .f32 0x3F800000#32),
    unary main_cst_98 main_v785 (broadcastInDim S8192x256 ![] bcast_S_S8192x256 : (⟨S_, .f32⟩ : BufTy).Contents (Elt F) → (⟨S8192x256, .f32⟩ : BufTy).Contents (Elt F)),
    binary main_v785 main_v784 main_v786 (Host.divf : (⟨S8192x256, .f32⟩ : BufTy).Contents (Elt F) → (⟨S8192x256, .f32⟩ : BufTy).Contents (Elt F) → (⟨S8192x256, .f32⟩ : BufTy).Contents (Elt F)),
    binary main_v775 main_v778 main_v787 (addf : (⟨S8192x256, .f32⟩ : BufTy).Contents (Elt F) → (⟨S8192x256, .f32⟩ : BufTy).Contents (Elt F) → (⟨S8192x256, .f32⟩ : BufTy).Contents (Elt F)),
    unary main_v787 main_v788 (Host.negf : (⟨S8192x256, .f32⟩ : BufTy).Contents (Elt F) → (⟨S8192x256, .f32⟩ : BufTy).Contents (Elt F)),
    unary main_v788 main_v789 (Host.exp : (⟨S8192x256, .f32⟩ : BufTy).Contents (Elt F) → (⟨S8192x256, .f32⟩ : BufTy).Contents (Elt F)),
    nullary main_cst_99 (constant S_ .f32 0x3F800000#32),
    unary main_cst_99 main_v790 (broadcastInDim S8192x256 ![] bcast_S_S8192x256 : (⟨S_, .f32⟩ : BufTy).Contents (Elt F) → (⟨S8192x256, .f32⟩ : BufTy).Contents (Elt F)),
    binary main_v790 main_v789 main_v791 (addf : (⟨S8192x256, .f32⟩ : BufTy).Contents (Elt F) → (⟨S8192x256, .f32⟩ : BufTy).Contents (Elt F) → (⟨S8192x256, .f32⟩ : BufTy).Contents (Elt F)),
    nullary main_cst_100 (constant S_ .f32 0x3F800000#32),
    unary main_cst_100 main_v792 (broadcastInDim S8192x256 ![] bcast_S_S8192x256 : (⟨S_, .f32⟩ : BufTy).Contents (Elt F) → (⟨S8192x256, .f32⟩ : BufTy).Contents (Elt F)),
    binary main_v792 main_v791 main_v793 (Host.divf : (⟨S8192x256, .f32⟩ : BufTy).Contents (Elt F) → (⟨S8192x256, .f32⟩ : BufTy).Contents (Elt F) → (⟨S8192x256, .f32⟩ : BufTy).Contents (Elt F)),
    binary main_v786 main_v779 main_v794 (mulf : (⟨S8192x256, .f32⟩ : BufTy).Contents (Elt F) → (⟨S8192x256, .f32⟩ : BufTy).Contents (Elt F) → (⟨S8192x256, .f32⟩ : BufTy).Contents (Elt F)),
    binary main_v776 main_v794 main_v795 (addf : (⟨S8192x256, .f32⟩ : BufTy).Contents (Elt F) → (⟨S8192x256, .f32⟩ : BufTy).Contents (Elt F) → (⟨S8192x256, .f32⟩ : BufTy).Contents (Elt F)),
    unary main_v795 main_v796 (Host.tanh : (⟨S8192x256, .f32⟩ : BufTy).Contents (Elt F) → (⟨S8192x256, .f32⟩ : BufTy).Contents (Elt F)),
    nullary main_cst_101 (constant S_ .f32 0x3F800000#32),
    unary main_cst_101 main_v797 (broadcastInDim S8192x256 ![] bcast_S_S8192x256 : (⟨S_, .f32⟩ : BufTy).Contents (Elt F) → (⟨S8192x256, .f32⟩ : BufTy).Contents (Elt F)),
    binary main_v797 main_v793 main_v798 (subf : (⟨S8192x256, .f32⟩ : BufTy).Contents (Elt F) → (⟨S8192x256, .f32⟩ : BufTy).Contents (Elt F) → (⟨S8192x256, .f32⟩ : BufTy).Contents (Elt F)),
    binary main_v798 main_v796 main_v799 (mulf : (⟨S8192x256, .f32⟩ : BufTy).Contents (Elt F) → (⟨S8192x256, .f32⟩ : BufTy).Contents (Elt F) → (⟨S8192x256, .f32⟩ : BufTy).Contents (Elt F)),
    binary main_v793 main_v681 main_v800 (mulf : (⟨S8192x256, .f32⟩ : BufTy).Contents (Elt F) → (⟨S8192x256, .f32⟩ : BufTy).Contents (Elt F) → (⟨S8192x256, .f32⟩ : BufTy).Contents (Elt F)),
    binary main_v799 main_v800 main_v801 (addf : (⟨S8192x256, .f32⟩ : BufTy).Contents (Elt F) → (⟨S8192x256, .f32⟩ : BufTy).Contents (Elt F) → (⟨S8192x256, .f32⟩ : BufTy).Contents (Elt F)),
    unary main_arg10 main_v802 ((transpose S256x768 [1, 0] · transposes_S768x256_S256x768_1_0) : (⟨S768x256, .f32⟩ : BufTy).Contents (Elt F) → (⟨S256x768, .f32⟩ : BufTy).Contents (Elt F)),
    binary main_v801 main_v802 main_v803 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v804 (broadcastInDim S1x768 ![1] bcast_S768_S1x768_1 : (⟨S768, .f32⟩ : BufTy).Contents (Elt F) → (⟨S1x768, .f32⟩ : BufTy).Contents (Elt F)),
    unary main_v804 main_v805 (broadcastInDim S8192x768 ![0, 1] bcast_S1x768_S8192x768_0_1 : (⟨S1x768, .f32⟩ : BufTy).Contents (Elt F) → (⟨S8192x768, .f32⟩ : BufTy).Contents (Elt F)),
    binary main_v803 main_v805 main_v806 (addf : (⟨S8192x768, .f32⟩ : BufTy).Contents (Elt F) → (⟨S8192x768, .f32⟩ : BufTy).Contents (Elt F) → (⟨S8192x768, .f32⟩ : BufTy).Contents (Elt F)),
    unary main_arg11 main_v807 ((transpose S256x768 [1, 0] · transposes_S768x256_S256x768_1_0) : (⟨S768x256, .f32⟩ : BufTy).Contents (Elt F) → (⟨S256x768, .f32⟩ : BufTy).Contents (Elt F)),
    binary main_v719 main_v807 main_v808 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v809 (broadcastInDim S1x768 ![1] bcast_S768_S1x768_1 : (⟨S768, .f32⟩ : BufTy).Contents (Elt F) → (⟨S1x768, .f32⟩ : BufTy).Contents (Elt F)),
    unary main_v809 main_v810 (broadcastInDim S8192x768 ![0, 1] bcast_S1x768_S8192x768_0_1 : (⟨S1x768, .f32⟩ : BufTy).Contents (Elt F) → (⟨S8192x768, .f32⟩ : BufTy).Contents (Elt F)),
    binary main_v808 main_v810 main_v811 (addf : (⟨S8192x768, .f32⟩ : BufTy).Contents (Elt F) → (⟨S8192x768, .f32⟩ : BufTy).Contents (Elt F) → (⟨S8192x768, .f32⟩ : BufTy).Contents (Elt F)),
    unary main_v806 main_v812 ((extractStridedSlice S8192x256 ![0, 0] · slices_S8192x768_S8192x256_0_0) : (⟨S8192x768, .f32⟩ : BufTy).Contents (Elt F) → (⟨S8192x256, .f32⟩ : BufTy).Contents (Elt F)),
    unary main_v806 main_v813 ((extractStridedSlice S8192x256 ![0, 256] · slices_S8192x768_S8192x256_0_256) : (⟨S8192x768, .f32⟩ : BufTy).Contents (Elt F) → (⟨S8192x256, .f32⟩ : BufTy).Contents (Elt F)),
    unary main_v806 main_v814 ((extractStridedSlice S8192x256 ![0, 512] · slices_S8192x768_S8192x256_0_512) : (⟨S8192x768, .f32⟩ : BufTy).Contents (Elt F) → (⟨S8192x256, .f32⟩ : BufTy).Contents (Elt F)),
    unary main_v811 main_v815 ((extractStridedSlice S8192x256 ![0, 0] · slices_S8192x768_S8192x256_0_0) : (⟨S8192x768, .f32⟩ : BufTy).Contents (Elt F) → (⟨S8192x256, .f32⟩ : BufTy).Contents (Elt F)),
    unary main_v811 main_v816 ((extractStridedSlice S8192x256 ![0, 256] · slices_S8192x768_S8192x256_0_256) : (⟨S8192x768, .f32⟩ : BufTy).Contents (Elt F) → (⟨S8192x256, .f32⟩ : BufTy).Contents (Elt F)),
    unary main_v811 main_v817 ((extractStridedSlice S8192x256 ![0, 512] · slices_S8192x768_S8192x256_0_512) : (⟨S8192x768, .f32⟩ : BufTy).Contents (Elt F) → (⟨S8192x256, .f32⟩ : BufTy).Contents (Elt F)),
    binary main_v812 main_v815 main_v818 (addf : (⟨S8192x256, .f32⟩ : BufTy).Contents (Elt F) → (⟨S8192x256, .f32⟩ : BufTy).Contents (Elt F) → (⟨S8192x256, .f32⟩ : BufTy).Contents (Elt F)),
    unary main_v818 main_v819 (Host.negf : (⟨S8192x256, .f32⟩ : BufTy).Contents (Elt F) → (⟨S8192x256, .f32⟩ : BufTy).Contents (Elt F)),
    unary main_v819 main_v820 (Host.exp : (⟨S8192x256, .f32⟩ : BufTy).Contents (Elt F) → (⟨S8192x256, .f32⟩ : BufTy).Contents (Elt F)),
    nullary main_cst_102 (constant S_ .f32 0x3F800000#32),
    unary main_cst_102 main_v821 (broadcastInDim S8192x256 ![] bcast_S_S8192x256 : (⟨S_, .f32⟩ : BufTy).Contents (Elt F) → (⟨S8192x256, .f32⟩ : BufTy).Contents (Elt F)),
    binary main_v821 main_v820 main_v822 (addf : (⟨S8192x256, .f32⟩ : BufTy).Contents (Elt F) → (⟨S8192x256, .f32⟩ : BufTy).Contents (Elt F) → (⟨S8192x256, .f32⟩ : BufTy).Contents (Elt F)),
    nullary main_cst_103 (constant S_ .f32 0x3F800000#32),
    unary main_cst_103 main_v823 (broadcastInDim S8192x256 ![] bcast_S_S8192x256 : (⟨S_, .f32⟩ : BufTy).Contents (Elt F) → (⟨S8192x256, .f32⟩ : BufTy).Contents (Elt F)),
    binary main_v823 main_v822 main_v824 (Host.divf : (⟨S8192x256, .f32⟩ : BufTy).Contents (Elt F) → (⟨S8192x256, .f32⟩ : BufTy).Contents (Elt F) → (⟨S8192x256, .f32⟩ : BufTy).Contents (Elt F)),
    binary main_v813 main_v816 main_v825 (addf : (⟨S8192x256, .f32⟩ : BufTy).Contents (Elt F) → (⟨S8192x256, .f32⟩ : BufTy).Contents (Elt F) → (⟨S8192x256, .f32⟩ : BufTy).Contents (Elt F)),
    unary main_v825 main_v826 (Host.negf : (⟨S8192x256, .f32⟩ : BufTy).Contents (Elt F) → (⟨S8192x256, .f32⟩ : BufTy).Contents (Elt F)),
    unary main_v826 main_v827 (Host.exp : (⟨S8192x256, .f32⟩ : BufTy).Contents (Elt F) → (⟨S8192x256, .f32⟩ : BufTy).Contents (Elt F)),
    nullary main_cst_104 (constant S_ .f32 0x3F800000#32),
    unary main_cst_104 main_v828 (broadcastInDim S8192x256 ![] bcast_S_S8192x256 : (⟨S_, .f32⟩ : BufTy).Contents (Elt F) → (⟨S8192x256, .f32⟩ : BufTy).Contents (Elt F)),
    binary main_v828 main_v827 main_v829 (addf : (⟨S8192x256, .f32⟩ : BufTy).Contents (Elt F) → (⟨S8192x256, .f32⟩ : BufTy).Contents (Elt F) → (⟨S8192x256, .f32⟩ : BufTy).Contents (Elt F)),
    nullary main_cst_105 (constant S_ .f32 0x3F800000#32),
    unary main_cst_105 main_v830 (broadcastInDim S8192x256 ![] bcast_S_S8192x256 : (⟨S_, .f32⟩ : BufTy).Contents (Elt F) → (⟨S8192x256, .f32⟩ : BufTy).Contents (Elt F)),
    binary main_v830 main_v829 main_v831 (Host.divf : (⟨S8192x256, .f32⟩ : BufTy).Contents (Elt F) → (⟨S8192x256, .f32⟩ : BufTy).Contents (Elt F) → (⟨S8192x256, .f32⟩ : BufTy).Contents (Elt F)),
    binary main_v824 main_v817 main_v832 (mulf : (⟨S8192x256, .f32⟩ : BufTy).Contents (Elt F) → (⟨S8192x256, .f32⟩ : BufTy).Contents (Elt F) → (⟨S8192x256, .f32⟩ : BufTy).Contents (Elt F)),
    binary main_v814 main_v832 main_v833 (addf : (⟨S8192x256, .f32⟩ : BufTy).Contents (Elt F) → (⟨S8192x256, .f32⟩ : BufTy).Contents (Elt F) → (⟨S8192x256, .f32⟩ : BufTy).Contents (Elt F)),
    unary main_v833 main_v834 (Host.tanh : (⟨S8192x256, .f32⟩ : BufTy).Contents (Elt F) → (⟨S8192x256, .f32⟩ : BufTy).Contents (Elt F)),
    nullary main_cst_106 (constant S_ .f32 0x3F800000#32),
    unary main_cst_106 main_v835 (broadcastInDim S8192x256 ![] bcast_S_S8192x256 : (⟨S_, .f32⟩ : BufTy).Contents (Elt F) → (⟨S8192x256, .f32⟩ : BufTy).Contents (Elt F)),
    binary main_v835 main_v831 main_v836 (subf : (⟨S8192x256, .f32⟩ : BufTy).Contents (Elt F) → (⟨S8192x256, .f32⟩ : BufTy).Contents (Elt F) → (⟨S8192x256, .f32⟩ : BufTy).Contents (Elt F)),
    binary main_v836 main_v834 main_v837 (mulf : (⟨S8192x256, .f32⟩ : BufTy).Contents (Elt F) → (⟨S8192x256, .f32⟩ : BufTy).Contents (Elt F) → (⟨S8192x256, .f32⟩ : BufTy).Contents (Elt F)),
    binary main_v831 main_v719 main_v838 (mulf : (⟨S8192x256, .f32⟩ : BufTy).Contents (Elt F) → (⟨S8192x256, .f32⟩ : BufTy).Contents (Elt F) → (⟨S8192x256, .f32⟩ : BufTy).Contents (Elt F)),
    binary main_v837 main_v838 main_v839 (addf : (⟨S8192x256, .f32⟩ : BufTy).Contents (Elt F) → (⟨S8192x256, .f32⟩ : BufTy).Contents (Elt F) → (⟨S8192x256, .f32⟩ : BufTy).Contents (Elt F)),
    unary main_arg14 main_v840 ((transpose S256x2 [1, 0] · transposes_S2x256_S256x2_1_0) : (⟨S2x256, .f32⟩ : BufTy).Contents (Elt F) → (⟨S256x2, .f32⟩ : BufTy).Contents (Elt F)),
    binary main_v839 main_v840 main_v841 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v842 (broadcastInDim S1x2 ![1] bcast_S2_S1x2_1 : (⟨S2, .f32⟩ : BufTy).Contents (Elt F) → (⟨S1x2, .f32⟩ : BufTy).Contents (Elt F)),
    unary main_v842 main_v843 (broadcastInDim S8192x2 ![0, 1] bcast_S1x2_S8192x2_0_1 : (⟨S1x2, .f32⟩ : BufTy).Contents (Elt F) → (⟨S8192x2, .f32⟩ : BufTy).Contents (Elt F)),
    binary main_v841 main_v843 main_v844 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg6_W : List (Ref sig .tc) := [main_v725, main_v726, main_v727, main_v728, main_v729, main_v730, main_v731, main_v732, main_v733, main_v734, main_v735, main_v736, main_v737, main_v738, main_v739, main_v740, main_v741, main_v742, main_v743, main_v744, main_cst_92, main_v745, main_v746, main_cst_93, main_v747, main_v748, main_v749, main_v750, main_v751, main_cst_94, main_v752, main_v753, main_cst_95, main_v754, main_v755, main_v756, main_v757, main_v758, main_cst_96, main_v759, main_v760, main_v761, main_v762, main_v763, main_v764, main_v765, main_v766, main_v767, main_v768, main_v769, main_v770, main_v771, main_v772, main_v773, main_v774, main_v775, main_v776, main_v777, main_v778, main_v779, main_v780, main_v781, main_v782, main_cst_97, main_v783, main_v784, main_cst_98, main_v785, main_v786, main_v787, main_v788, main_v789, main_cst_99, main_v790, main_v791, main_cst_100, main_v792, main_v793, main_v794, main_v795, main_v796, main_cst_101, main_v797, main_v798, main_v799, main_v800, main_v801, main_v802, main_v803, main_v804, main_v805, main_v806, main_v807, main_v808, main_v809, main_v810, main_v811, main_v812, main_v813, main_v814, main_v815, main_v816, main_v817, main_v818, main_v819, main_v820, main_cst_102, main_v821, main_v822, main_cst_103, main_v823, main_v824, main_v825, main_v826, main_v827, main_cst_104, main_v828, main_v829, main_cst_105, main_v830, main_v831, main_v832, main_v833, main_v834, main_cst_106, main_v835, main_v836, main_v837, main_v838, main_v839, main_v840, main_v841, main_v842, main_v843, main_v844]
set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg6_keep (V : Valuation τ sig (Elt F)) (r : Ref sig .tc) (h : r ∉ seg6_W) :
    after seg6 V (Proc.devRef .tc r) = V (Proc.devRef .tc r) :=
  after_of_writes_sub seg6 _ seg6_writes h

/-- @main's operations 954 to 1088. -/
abbrev seg7 : List (HloOp τ sig (Elt F)) :=
  [ binary main_arg0 main_v844 main_v845 (fn_main_v845 (F := F)),
    unary main_arg2 main_v846 ((transpose S514x768 [1, 0] · transposes_S768x514_S514x768_1_0) : (⟨S768x514, .f32⟩ : BufTy).Contents (Elt F) → (⟨S514x768, .f32⟩ : BufTy).Contents (Elt F)),
    binary main_v845 main_v846 main_v847 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v848 (broadcastInDim S1x768 ![1] bcast_S768_S1x768_1 : (⟨S768, .f32⟩ : BufTy).Contents (Elt F) → (⟨S1x768, .f32⟩ : BufTy).Contents (Elt F)),
    unary main_v848 main_v849 (broadcastInDim S8192x768 ![0, 1] bcast_S1x768_S8192x768_0_1 : (⟨S1x768, .f32⟩ : BufTy).Contents (Elt F) → (⟨S8192x768, .f32⟩ : BufTy).Contents (Elt F)),
    binary main_v847 main_v849 main_v850 (addf : (⟨S8192x768, .f32⟩ : BufTy).Contents (Elt F) → (⟨S8192x768, .f32⟩ : BufTy).Contents (Elt F) → (⟨S8192x768, .f32⟩ : BufTy).Contents (Elt F)),
    unary main_arg3 main_v851 ((transpose S256x768 [1, 0] · transposes_S768x256_S256x768_1_0) : (⟨S768x256, .f32⟩ : BufTy).Contents (Elt F) → (⟨S256x768, .f32⟩ : BufTy).Contents (Elt F)),
    binary main_v763 main_v851 main_v852 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v853 (broadcastInDim S1x768 ![1] bcast_S768_S1x768_1 : (⟨S768, .f32⟩ : BufTy).Contents (Elt F) → (⟨S1x768, .f32⟩ : BufTy).Contents (Elt F)),
    unary main_v853 main_v854 (broadcastInDim S8192x768 ![0, 1] bcast_S1x768_S8192x768_0_1 : (⟨S1x768, .f32⟩ : BufTy).Contents (Elt F) → (⟨S8192x768, .f32⟩ : BufTy).Contents (Elt F)),
    binary main_v852 main_v854 main_v855 (addf : (⟨S8192x768, .f32⟩ : BufTy).Contents (Elt F) → (⟨S8192x768, .f32⟩ : BufTy).Contents (Elt F) → (⟨S8192x768, .f32⟩ : BufTy).Contents (Elt F)),
    unary main_v850 main_v856 ((extractStridedSlice S8192x256 ![0, 0] · slices_S8192x768_S8192x256_0_0) : (⟨S8192x768, .f32⟩ : BufTy).Contents (Elt F) → (⟨S8192x256, .f32⟩ : BufTy).Contents (Elt F)),
    unary main_v850 main_v857 ((extractStridedSlice S8192x256 ![0, 256] · slices_S8192x768_S8192x256_0_256) : (⟨S8192x768, .f32⟩ : BufTy).Contents (Elt F) → (⟨S8192x256, .f32⟩ : BufTy).Contents (Elt F)),
    unary main_v850 main_v858 ((extractStridedSlice S8192x256 ![0, 512] · slices_S8192x768_S8192x256_0_512) : (⟨S8192x768, .f32⟩ : BufTy).Contents (Elt F) → (⟨S8192x256, .f32⟩ : BufTy).Contents (Elt F)),
    unary main_v855 main_v859 ((extractStridedSlice S8192x256 ![0, 0] · slices_S8192x768_S8192x256_0_0) : (⟨S8192x768, .f32⟩ : BufTy).Contents (Elt F) → (⟨S8192x256, .f32⟩ : BufTy).Contents (Elt F)),
    unary main_v855 main_v860 ((extractStridedSlice S8192x256 ![0, 256] · slices_S8192x768_S8192x256_0_256) : (⟨S8192x768, .f32⟩ : BufTy).Contents (Elt F) → (⟨S8192x256, .f32⟩ : BufTy).Contents (Elt F)),
    unary main_v855 main_v861 ((extractStridedSlice S8192x256 ![0, 512] · slices_S8192x768_S8192x256_0_512) : (⟨S8192x768, .f32⟩ : BufTy).Contents (Elt F) → (⟨S8192x256, .f32⟩ : BufTy).Contents (Elt F)),
    binary main_v856 main_v859 main_v862 (addf : (⟨S8192x256, .f32⟩ : BufTy).Contents (Elt F) → (⟨S8192x256, .f32⟩ : BufTy).Contents (Elt F) → (⟨S8192x256, .f32⟩ : BufTy).Contents (Elt F)),
    unary main_v862 main_v863 (Host.negf : (⟨S8192x256, .f32⟩ : BufTy).Contents (Elt F) → (⟨S8192x256, .f32⟩ : BufTy).Contents (Elt F)),
    unary main_v863 main_v864 (Host.exp : (⟨S8192x256, .f32⟩ : BufTy).Contents (Elt F) → (⟨S8192x256, .f32⟩ : BufTy).Contents (Elt F)),
    nullary main_cst_107 (constant S_ .f32 0x3F800000#32),
    unary main_cst_107 main_v865 (broadcastInDim S8192x256 ![] bcast_S_S8192x256 : (⟨S_, .f32⟩ : BufTy).Contents (Elt F) → (⟨S8192x256, .f32⟩ : BufTy).Contents (Elt F)),
    binary main_v865 main_v864 main_v866 (addf : (⟨S8192x256, .f32⟩ : BufTy).Contents (Elt F) → (⟨S8192x256, .f32⟩ : BufTy).Contents (Elt F) → (⟨S8192x256, .f32⟩ : BufTy).Contents (Elt F)),
    nullary main_cst_108 (constant S_ .f32 0x3F800000#32),
    unary main_cst_108 main_v867 (broadcastInDim S8192x256 ![] bcast_S_S8192x256 : (⟨S_, .f32⟩ : BufTy).Contents (Elt F) → (⟨S8192x256, .f32⟩ : BufTy).Contents (Elt F)),
    binary main_v867 main_v866 main_v868 (Host.divf : (⟨S8192x256, .f32⟩ : BufTy).Contents (Elt F) → (⟨S8192x256, .f32⟩ : BufTy).Contents (Elt F) → (⟨S8192x256, .f32⟩ : BufTy).Contents (Elt F)),
    binary main_v857 main_v860 main_v869 (addf : (⟨S8192x256, .f32⟩ : BufTy).Contents (Elt F) → (⟨S8192x256, .f32⟩ : BufTy).Contents (Elt F) → (⟨S8192x256, .f32⟩ : BufTy).Contents (Elt F)),
    unary main_v869 main_v870 (Host.negf : (⟨S8192x256, .f32⟩ : BufTy).Contents (Elt F) → (⟨S8192x256, .f32⟩ : BufTy).Contents (Elt F)),
    unary main_v870 main_v871 (Host.exp : (⟨S8192x256, .f32⟩ : BufTy).Contents (Elt F) → (⟨S8192x256, .f32⟩ : BufTy).Contents (Elt F)),
    nullary main_cst_109 (constant S_ .f32 0x3F800000#32),
    unary main_cst_109 main_v872 (broadcastInDim S8192x256 ![] bcast_S_S8192x256 : (⟨S_, .f32⟩ : BufTy).Contents (Elt F) → (⟨S8192x256, .f32⟩ : BufTy).Contents (Elt F)),
    binary main_v872 main_v871 main_v873 (addf : (⟨S8192x256, .f32⟩ : BufTy).Contents (Elt F) → (⟨S8192x256, .f32⟩ : BufTy).Contents (Elt F) → (⟨S8192x256, .f32⟩ : BufTy).Contents (Elt F)),
    nullary main_cst_110 (constant S_ .f32 0x3F800000#32),
    unary main_cst_110 main_v874 (broadcastInDim S8192x256 ![] bcast_S_S8192x256 : (⟨S_, .f32⟩ : BufTy).Contents (Elt F) → (⟨S8192x256, .f32⟩ : BufTy).Contents (Elt F)),
    binary main_v874 main_v873 main_v875 (Host.divf : (⟨S8192x256, .f32⟩ : BufTy).Contents (Elt F) → (⟨S8192x256, .f32⟩ : BufTy).Contents (Elt F) → (⟨S8192x256, .f32⟩ : BufTy).Contents (Elt F)),
    binary main_v868 main_v861 main_v876 (mulf : (⟨S8192x256, .f32⟩ : BufTy).Contents (Elt F) → (⟨S8192x256, .f32⟩ : BufTy).Contents (Elt F) → (⟨S8192x256, .f32⟩ : BufTy).Contents (Elt F)),
    binary main_v858 main_v876 main_v877 (addf : (⟨S8192x256, .f32⟩ : BufTy).Contents (Elt F) → (⟨S8192x256, .f32⟩ : BufTy).Contents (Elt F) → (⟨S8192x256, .f32⟩ : BufTy).Contents (Elt F)),
    unary main_v877 main_v878 (Host.tanh : (⟨S8192x256, .f32⟩ : BufTy).Contents (Elt F) → (⟨S8192x256, .f32⟩ : BufTy).Contents (Elt F)),
    nullary main_cst_111 (constant S_ .f32 0x3F800000#32),
    unary main_cst_111 main_v879 (broadcastInDim S8192x256 ![] bcast_S_S8192x256 : (⟨S_, .f32⟩ : BufTy).Contents (Elt F) → (⟨S8192x256, .f32⟩ : BufTy).Contents (Elt F)),
    binary main_v879 main_v875 main_v880 (subf : (⟨S8192x256, .f32⟩ : BufTy).Contents (Elt F) → (⟨S8192x256, .f32⟩ : BufTy).Contents (Elt F) → (⟨S8192x256, .f32⟩ : BufTy).Contents (Elt F)),
    binary main_v880 main_v878 main_v881 (mulf : (⟨S8192x256, .f32⟩ : BufTy).Contents (Elt F) → (⟨S8192x256, .f32⟩ : BufTy).Contents (Elt F) → (⟨S8192x256, .f32⟩ : BufTy).Contents (Elt F)),
    binary main_v875 main_v763 main_v882 (mulf : (⟨S8192x256, .f32⟩ : BufTy).Contents (Elt F) → (⟨S8192x256, .f32⟩ : BufTy).Contents (Elt F) → (⟨S8192x256, .f32⟩ : BufTy).Contents (Elt F)),
    binary main_v881 main_v882 main_v883 (addf : (⟨S8192x256, .f32⟩ : BufTy).Contents (Elt F) → (⟨S8192x256, .f32⟩ : BufTy).Contents (Elt F) → (⟨S8192x256, .f32⟩ : BufTy).Contents (Elt F)),
    unary main_arg6 main_v884 ((transpose S256x768 [1, 0] · transposes_S768x256_S256x768_1_0) : (⟨S768x256, .f32⟩ : BufTy).Contents (Elt F) → (⟨S256x768, .f32⟩ : BufTy).Contents (Elt F)),
    binary main_v883 main_v884 main_v885 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v886 (broadcastInDim S1x768 ![1] bcast_S768_S1x768_1 : (⟨S768, .f32⟩ : BufTy).Contents (Elt F) → (⟨S1x768, .f32⟩ : BufTy).Contents (Elt F)),
    unary main_v886 main_v887 (broadcastInDim S8192x768 ![0, 1] bcast_S1x768_S8192x768_0_1 : (⟨S1x768, .f32⟩ : BufTy).Contents (Elt F) → (⟨S8192x768, .f32⟩ : BufTy).Contents (Elt F)),
    binary main_v885 main_v887 main_v888 (addf : (⟨S8192x768, .f32⟩ : BufTy).Contents (Elt F) → (⟨S8192x768, .f32⟩ : BufTy).Contents (Elt F) → (⟨S8192x768, .f32⟩ : BufTy).Contents (Elt F)),
    unary main_arg7 main_v889 ((transpose S256x768 [1, 0] · transposes_S768x256_S256x768_1_0) : (⟨S768x256, .f32⟩ : BufTy).Contents (Elt F) → (⟨S256x768, .f32⟩ : BufTy).Contents (Elt F)),
    binary main_v801 main_v889 main_v890 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v891 (broadcastInDim S1x768 ![1] bcast_S768_S1x768_1 : (⟨S768, .f32⟩ : BufTy).Contents (Elt F) → (⟨S1x768, .f32⟩ : BufTy).Contents (Elt F)),
    unary main_v891 main_v892 (broadcastInDim S8192x768 ![0, 1] bcast_S1x768_S8192x768_0_1 : (⟨S1x768, .f32⟩ : BufTy).Contents (Elt F) → (⟨S8192x768, .f32⟩ : BufTy).Contents (Elt F)),
    binary main_v890 main_v892 main_v893 (addf : (⟨S8192x768, .f32⟩ : BufTy).Contents (Elt F) → (⟨S8192x768, .f32⟩ : BufTy).Contents (Elt F) → (⟨S8192x768, .f32⟩ : BufTy).Contents (Elt F)),
    unary main_v888 main_v894 ((extractStridedSlice S8192x256 ![0, 0] · slices_S8192x768_S8192x256_0_0) : (⟨S8192x768, .f32⟩ : BufTy).Contents (Elt F) → (⟨S8192x256, .f32⟩ : BufTy).Contents (Elt F)),
    unary main_v888 main_v895 ((extractStridedSlice S8192x256 ![0, 256] · slices_S8192x768_S8192x256_0_256) : (⟨S8192x768, .f32⟩ : BufTy).Contents (Elt F) → (⟨S8192x256, .f32⟩ : BufTy).Contents (Elt F)),
    unary main_v888 main_v896 ((extractStridedSlice S8192x256 ![0, 512] · slices_S8192x768_S8192x256_0_512) : (⟨S8192x768, .f32⟩ : BufTy).Contents (Elt F) → (⟨S8192x256, .f32⟩ : BufTy).Contents (Elt F)),
    unary main_v893 main_v897 ((extractStridedSlice S8192x256 ![0, 0] · slices_S8192x768_S8192x256_0_0) : (⟨S8192x768, .f32⟩ : BufTy).Contents (Elt F) → (⟨S8192x256, .f32⟩ : BufTy).Contents (Elt F)),
    unary main_v893 main_v898 ((extractStridedSlice S8192x256 ![0, 256] · slices_S8192x768_S8192x256_0_256) : (⟨S8192x768, .f32⟩ : BufTy).Contents (Elt F) → (⟨S8192x256, .f32⟩ : BufTy).Contents (Elt F)),
    unary main_v893 main_v899 ((extractStridedSlice S8192x256 ![0, 512] · slices_S8192x768_S8192x256_0_512) : (⟨S8192x768, .f32⟩ : BufTy).Contents (Elt F) → (⟨S8192x256, .f32⟩ : BufTy).Contents (Elt F)),
    binary main_v894 main_v897 main_v900 (addf : (⟨S8192x256, .f32⟩ : BufTy).Contents (Elt F) → (⟨S8192x256, .f32⟩ : BufTy).Contents (Elt F) → (⟨S8192x256, .f32⟩ : BufTy).Contents (Elt F)),
    unary main_v900 main_v901 (Host.negf : (⟨S8192x256, .f32⟩ : BufTy).Contents (Elt F) → (⟨S8192x256, .f32⟩ : BufTy).Contents (Elt F)),
    unary main_v901 main_v902 (Host.exp : (⟨S8192x256, .f32⟩ : BufTy).Contents (Elt F) → (⟨S8192x256, .f32⟩ : BufTy).Contents (Elt F)),
    nullary main_cst_112 (constant S_ .f32 0x3F800000#32),
    unary main_cst_112 main_v903 (broadcastInDim S8192x256 ![] bcast_S_S8192x256 : (⟨S_, .f32⟩ : BufTy).Contents (Elt F) → (⟨S8192x256, .f32⟩ : BufTy).Contents (Elt F)),
    binary main_v903 main_v902 main_v904 (addf : (⟨S8192x256, .f32⟩ : BufTy).Contents (Elt F) → (⟨S8192x256, .f32⟩ : BufTy).Contents (Elt F) → (⟨S8192x256, .f32⟩ : BufTy).Contents (Elt F)),
    nullary main_cst_113 (constant S_ .f32 0x3F800000#32),
    unary main_cst_113 main_v905 (broadcastInDim S8192x256 ![] bcast_S_S8192x256 : (⟨S_, .f32⟩ : BufTy).Contents (Elt F) → (⟨S8192x256, .f32⟩ : BufTy).Contents (Elt F)),
    binary main_v905 main_v904 main_v906 (Host.divf : (⟨S8192x256, .f32⟩ : BufTy).Contents (Elt F) → (⟨S8192x256, .f32⟩ : BufTy).Contents (Elt F) → (⟨S8192x256, .f32⟩ : BufTy).Contents (Elt F)),
    binary main_v895 main_v898 main_v907 (addf : (⟨S8192x256, .f32⟩ : BufTy).Contents (Elt F) → (⟨S8192x256, .f32⟩ : BufTy).Contents (Elt F) → (⟨S8192x256, .f32⟩ : BufTy).Contents (Elt F)),
    unary main_v907 main_v908 (Host.negf : (⟨S8192x256, .f32⟩ : BufTy).Contents (Elt F) → (⟨S8192x256, .f32⟩ : BufTy).Contents (Elt F)),
    unary main_v908 main_v909 (Host.exp : (⟨S8192x256, .f32⟩ : BufTy).Contents (Elt F) → (⟨S8192x256, .f32⟩ : BufTy).Contents (Elt F)),
    nullary main_cst_114 (constant S_ .f32 0x3F800000#32),
    unary main_cst_114 main_v910 (broadcastInDim S8192x256 ![] bcast_S_S8192x256 : (⟨S_, .f32⟩ : BufTy).Contents (Elt F) → (⟨S8192x256, .f32⟩ : BufTy).Contents (Elt F)),
    binary main_v910 main_v909 main_v911 (addf : (⟨S8192x256, .f32⟩ : BufTy).Contents (Elt F) → (⟨S8192x256, .f32⟩ : BufTy).Contents (Elt F) → (⟨S8192x256, .f32⟩ : BufTy).Contents (Elt F)),
    nullary main_cst_115 (constant S_ .f32 0x3F800000#32),
    unary main_cst_115 main_v912 (broadcastInDim S8192x256 ![] bcast_S_S8192x256 : (⟨S_, .f32⟩ : BufTy).Contents (Elt F) → (⟨S8192x256, .f32⟩ : BufTy).Contents (Elt F)),
    binary main_v912 main_v911 main_v913 (Host.divf : (⟨S8192x256, .f32⟩ : BufTy).Contents (Elt F) → (⟨S8192x256, .f32⟩ : BufTy).Contents (Elt F) → (⟨S8192x256, .f32⟩ : BufTy).Contents (Elt F)),
    binary main_v906 main_v899 main_v914 (mulf : (⟨S8192x256, .f32⟩ : BufTy).Contents (Elt F) → (⟨S8192x256, .f32⟩ : BufTy).Contents (Elt F) → (⟨S8192x256, .f32⟩ : BufTy).Contents (Elt F)),
    binary main_v896 main_v914 main_v915 (addf : (⟨S8192x256, .f32⟩ : BufTy).Contents (Elt F) → (⟨S8192x256, .f32⟩ : BufTy).Contents (Elt F) → (⟨S8192x256, .f32⟩ : BufTy).Contents (Elt F)),
    unary main_v915 main_v916 (Host.tanh : (⟨S8192x256, .f32⟩ : BufTy).Contents (Elt F) → (⟨S8192x256, .f32⟩ : BufTy).Contents (Elt F)),
    nullary main_cst_116 (constant S_ .f32 0x3F800000#32),
    unary main_cst_116 main_v917 (broadcastInDim S8192x256 ![] bcast_S_S8192x256 : (⟨S_, .f32⟩ : BufTy).Contents (Elt F) → (⟨S8192x256, .f32⟩ : BufTy).Contents (Elt F)),
    binary main_v917 main_v913 main_v918 (subf : (⟨S8192x256, .f32⟩ : BufTy).Contents (Elt F) → (⟨S8192x256, .f32⟩ : BufTy).Contents (Elt F) → (⟨S8192x256, .f32⟩ : BufTy).Contents (Elt F)),
    binary main_v918 main_v916 main_v919 (mulf : (⟨S8192x256, .f32⟩ : BufTy).Contents (Elt F) → (⟨S8192x256, .f32⟩ : BufTy).Contents (Elt F) → (⟨S8192x256, .f32⟩ : BufTy).Contents (Elt F)),
    binary main_v913 main_v801 main_v920 (mulf : (⟨S8192x256, .f32⟩ : BufTy).Contents (Elt F) → (⟨S8192x256, .f32⟩ : BufTy).Contents (Elt F) → (⟨S8192x256, .f32⟩ : BufTy).Contents (Elt F)),
    binary main_v919 main_v920 main_v921 (addf : (⟨S8192x256, .f32⟩ : BufTy).Contents (Elt F) → (⟨S8192x256, .f32⟩ : BufTy).Contents (Elt F) → (⟨S8192x256, .f32⟩ : BufTy).Contents (Elt F)),
    unary main_arg10 main_v922 ((transpose S256x768 [1, 0] · transposes_S768x256_S256x768_1_0) : (⟨S768x256, .f32⟩ : BufTy).Contents (Elt F) → (⟨S256x768, .f32⟩ : BufTy).Contents (Elt F)),
    binary main_v921 main_v922 main_v923 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v924 (broadcastInDim S1x768 ![1] bcast_S768_S1x768_1 : (⟨S768, .f32⟩ : BufTy).Contents (Elt F) → (⟨S1x768, .f32⟩ : BufTy).Contents (Elt F)),
    unary main_v924 main_v925 (broadcastInDim S8192x768 ![0, 1] bcast_S1x768_S8192x768_0_1 : (⟨S1x768, .f32⟩ : BufTy).Contents (Elt F) → (⟨S8192x768, .f32⟩ : BufTy).Contents (Elt F)),
    binary main_v923 main_v925 main_v926 (addf : (⟨S8192x768, .f32⟩ : BufTy).Contents (Elt F) → (⟨S8192x768, .f32⟩ : BufTy).Contents (Elt F) → (⟨S8192x768, .f32⟩ : BufTy).Contents (Elt F)),
    unary main_arg11 main_v927 ((transpose S256x768 [1, 0] · transposes_S768x256_S256x768_1_0) : (⟨S768x256, .f32⟩ : BufTy).Contents (Elt F) → (⟨S256x768, .f32⟩ : BufTy).Contents (Elt F)),
    binary main_v839 main_v927 main_v928 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v929 (broadcastInDim S1x768 ![1] bcast_S768_S1x768_1 : (⟨S768, .f32⟩ : BufTy).Contents (Elt F) → (⟨S1x768, .f32⟩ : BufTy).Contents (Elt F)),
    unary main_v929 main_v930 (broadcastInDim S8192x768 ![0, 1] bcast_S1x768_S8192x768_0_1 : (⟨S1x768, .f32⟩ : BufTy).Contents (Elt F) → (⟨S8192x768, .f32⟩ : BufTy).Contents (Elt F)),
    binary main_v928 main_v930 main_v931 (addf : (⟨S8192x768, .f32⟩ : BufTy).Contents (Elt F) → (⟨S8192x768, .f32⟩ : BufTy).Contents (Elt F) → (⟨S8192x768, .f32⟩ : BufTy).Contents (Elt F)),
    unary main_v926 main_v932 ((extractStridedSlice S8192x256 ![0, 0] · slices_S8192x768_S8192x256_0_0) : (⟨S8192x768, .f32⟩ : BufTy).Contents (Elt F) → (⟨S8192x256, .f32⟩ : BufTy).Contents (Elt F)),
    unary main_v926 main_v933 ((extractStridedSlice S8192x256 ![0, 256] · slices_S8192x768_S8192x256_0_256) : (⟨S8192x768, .f32⟩ : BufTy).Contents (Elt F) → (⟨S8192x256, .f32⟩ : BufTy).Contents (Elt F)),
    unary main_v926 main_v934 ((extractStridedSlice S8192x256 ![0, 512] · slices_S8192x768_S8192x256_0_512) : (⟨S8192x768, .f32⟩ : BufTy).Contents (Elt F) → (⟨S8192x256, .f32⟩ : BufTy).Contents (Elt F)),
    unary main_v931 main_v935 ((extractStridedSlice S8192x256 ![0, 0] · slices_S8192x768_S8192x256_0_0) : (⟨S8192x768, .f32⟩ : BufTy).Contents (Elt F) → (⟨S8192x256, .f32⟩ : BufTy).Contents (Elt F)),
    unary main_v931 main_v936 ((extractStridedSlice S8192x256 ![0, 256] · slices_S8192x768_S8192x256_0_256) : (⟨S8192x768, .f32⟩ : BufTy).Contents (Elt F) → (⟨S8192x256, .f32⟩ : BufTy).Contents (Elt F)),
    unary main_v931 main_v937 ((extractStridedSlice S8192x256 ![0, 512] · slices_S8192x768_S8192x256_0_512) : (⟨S8192x768, .f32⟩ : BufTy).Contents (Elt F) → (⟨S8192x256, .f32⟩ : BufTy).Contents (Elt F)),
    binary main_v932 main_v935 main_v938 (addf : (⟨S8192x256, .f32⟩ : BufTy).Contents (Elt F) → (⟨S8192x256, .f32⟩ : BufTy).Contents (Elt F) → (⟨S8192x256, .f32⟩ : BufTy).Contents (Elt F)),
    unary main_v938 main_v939 (Host.negf : (⟨S8192x256, .f32⟩ : BufTy).Contents (Elt F) → (⟨S8192x256, .f32⟩ : BufTy).Contents (Elt F)),
    unary main_v939 main_v940 (Host.exp : (⟨S8192x256, .f32⟩ : BufTy).Contents (Elt F) → (⟨S8192x256, .f32⟩ : BufTy).Contents (Elt F)),
    nullary main_cst_117 (constant S_ .f32 0x3F800000#32),
    unary main_cst_117 main_v941 (broadcastInDim S8192x256 ![] bcast_S_S8192x256 : (⟨S_, .f32⟩ : BufTy).Contents (Elt F) → (⟨S8192x256, .f32⟩ : BufTy).Contents (Elt F)),
    binary main_v941 main_v940 main_v942 (addf : (⟨S8192x256, .f32⟩ : BufTy).Contents (Elt F) → (⟨S8192x256, .f32⟩ : BufTy).Contents (Elt F) → (⟨S8192x256, .f32⟩ : BufTy).Contents (Elt F)),
    nullary main_cst_118 (constant S_ .f32 0x3F800000#32),
    unary main_cst_118 main_v943 (broadcastInDim S8192x256 ![] bcast_S_S8192x256 : (⟨S_, .f32⟩ : BufTy).Contents (Elt F) → (⟨S8192x256, .f32⟩ : BufTy).Contents (Elt F)),
    binary main_v943 main_v942 main_v944 (Host.divf : (⟨S8192x256, .f32⟩ : BufTy).Contents (Elt F) → (⟨S8192x256, .f32⟩ : BufTy).Contents (Elt F) → (⟨S8192x256, .f32⟩ : BufTy).Contents (Elt F)),
    binary main_v933 main_v936 main_v945 (addf : (⟨S8192x256, .f32⟩ : BufTy).Contents (Elt F) → (⟨S8192x256, .f32⟩ : BufTy).Contents (Elt F) → (⟨S8192x256, .f32⟩ : BufTy).Contents (Elt F)),
    unary main_v945 main_v946 (Host.negf : (⟨S8192x256, .f32⟩ : BufTy).Contents (Elt F) → (⟨S8192x256, .f32⟩ : BufTy).Contents (Elt F)),
    unary main_v946 main_v947 (Host.exp : (⟨S8192x256, .f32⟩ : BufTy).Contents (Elt F) → (⟨S8192x256, .f32⟩ : BufTy).Contents (Elt F)),
    nullary main_cst_119 (constant S_ .f32 0x3F800000#32),
    unary main_cst_119 main_v948 (broadcastInDim S8192x256 ![] bcast_S_S8192x256 : (⟨S_, .f32⟩ : BufTy).Contents (Elt F) → (⟨S8192x256, .f32⟩ : BufTy).Contents (Elt F)),
    binary main_v948 main_v947 main_v949 (addf : (⟨S8192x256, .f32⟩ : BufTy).Contents (Elt F) → (⟨S8192x256, .f32⟩ : BufTy).Contents (Elt F) → (⟨S8192x256, .f32⟩ : BufTy).Contents (Elt F)),
    nullary main_cst_120 (constant S_ .f32 0x3F800000#32),
    unary main_cst_120 main_v950 (broadcastInDim S8192x256 ![] bcast_S_S8192x256 : (⟨S_, .f32⟩ : BufTy).Contents (Elt F) → (⟨S8192x256, .f32⟩ : BufTy).Contents (Elt F)),
    binary main_v950 main_v949 main_v951 (Host.divf : (⟨S8192x256, .f32⟩ : BufTy).Contents (Elt F) → (⟨S8192x256, .f32⟩ : BufTy).Contents (Elt F) → (⟨S8192x256, .f32⟩ : BufTy).Contents (Elt F)),
    binary main_v944 main_v937 main_v952 (mulf : (⟨S8192x256, .f32⟩ : BufTy).Contents (Elt F) → (⟨S8192x256, .f32⟩ : BufTy).Contents (Elt F) → (⟨S8192x256, .f32⟩ : BufTy).Contents (Elt F)),
    binary main_v934 main_v952 main_v953 (addf : (⟨S8192x256, .f32⟩ : BufTy).Contents (Elt F) → (⟨S8192x256, .f32⟩ : BufTy).Contents (Elt F) → (⟨S8192x256, .f32⟩ : BufTy).Contents (Elt F)),
    unary main_v953 main_v954 (Host.tanh : (⟨S8192x256, .f32⟩ : BufTy).Contents (Elt F) → (⟨S8192x256, .f32⟩ : BufTy).Contents (Elt F)),
    nullary main_cst_121 (constant S_ .f32 0x3F800000#32),
    unary main_cst_121 main_v955 (broadcastInDim S8192x256 ![] bcast_S_S8192x256 : (⟨S_, .f32⟩ : BufTy).Contents (Elt F) → (⟨S8192x256, .f32⟩ : BufTy).Contents (Elt F)),
    binary main_v955 main_v951 main_v956 (subf : (⟨S8192x256, .f32⟩ : BufTy).Contents (Elt F) → (⟨S8192x256, .f32⟩ : BufTy).Contents (Elt F) → (⟨S8192x256, .f32⟩ : BufTy).Contents (Elt F)),
    binary main_v956 main_v954 main_v957 (mulf : (⟨S8192x256, .f32⟩ : BufTy).Contents (Elt F) → (⟨S8192x256, .f32⟩ : BufTy).Contents (Elt F) → (⟨S8192x256, .f32⟩ : BufTy).Contents (Elt F)),
    binary main_v951 main_v839 main_v958 (mulf : (⟨S8192x256, .f32⟩ : BufTy).Contents (Elt F) → (⟨S8192x256, .f32⟩ : BufTy).Contents (Elt F) → (⟨S8192x256, .f32⟩ : BufTy).Contents (Elt F)),
    binary main_v957 main_v958 main_v959 (addf : (⟨S8192x256, .f32⟩ : BufTy).Contents (Elt F) → (⟨S8192x256, .f32⟩ : BufTy).Contents (Elt F) → (⟨S8192x256, .f32⟩ : BufTy).Contents (Elt F)),
    unary main_arg14 main_v960 ((transpose S256x2 [1, 0] · transposes_S2x256_S256x2_1_0) : (⟨S2x256, .f32⟩ : BufTy).Contents (Elt F) → (⟨S256x2, .f32⟩ : BufTy).Contents (Elt F)),
    binary main_v959 main_v960 main_v961 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v962 (broadcastInDim S1x2 ![1] bcast_S2_S1x2_1 : (⟨S2, .f32⟩ : BufTy).Contents (Elt F) → (⟨S1x2, .f32⟩ : BufTy).Contents (Elt F)),
    unary main_v962 main_v963 (broadcastInDim S8192x2 ![0, 1] bcast_S1x2_S8192x2_0_1 : (⟨S1x2, .f32⟩ : BufTy).Contents (Elt F) → (⟨S8192x2, .f32⟩ : BufTy).Contents (Elt F)),
    binary main_v961 main_v963 main_v964 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg7_W : List (Ref sig .tc) := [main_v845, main_v846, main_v847, main_v848, main_v849, main_v850, main_v851, main_v852, main_v853, main_v854, main_v855, main_v856, main_v857, main_v858, main_v859, main_v860, main_v861, main_v862, main_v863, main_v864, main_cst_107, main_v865, main_v866, main_cst_108, main_v867, main_v868, main_v869, main_v870, main_v871, main_cst_109, main_v872, main_v873, main_cst_110, main_v874, main_v875, main_v876, main_v877, main_v878, main_cst_111, main_v879, main_v880, main_v881, main_v882, main_v883, main_v884, main_v885, main_v886, main_v887, main_v888, main_v889, main_v890, main_v891, main_v892, main_v893, main_v894, main_v895, main_v896, main_v897, main_v898, main_v899, main_v900, main_v901, main_v902, main_cst_112, main_v903, main_v904, main_cst_113, main_v905, main_v906, main_v907, main_v908, main_v909, main_cst_114, main_v910, main_v911, main_cst_115, main_v912, main_v913, main_v914, main_v915, main_v916, main_cst_116, main_v917, main_v918, main_v919, main_v920, main_v921, main_v922, main_v923, main_v924, main_v925, main_v926, main_v927, main_v928, main_v929, main_v930, main_v931, main_v932, main_v933, main_v934, main_v935, main_v936, main_v937, main_v938, main_v939, main_v940, main_cst_117, main_v941, main_v942, main_cst_118, main_v943, main_v944, main_v945, main_v946, main_v947, main_cst_119, main_v948, main_v949, main_cst_120, main_v950, main_v951, main_v952, main_v953, main_v954, main_cst_121, main_v955, main_v956, main_v957, main_v958, main_v959, main_v960, main_v961, main_v962, main_v963, main_v964]
set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg7_keep (V : Valuation τ sig (Elt F)) (r : Ref sig .tc) (h : r ∉ seg7_W) :
    after seg7 V (Proc.devRef .tc r) = V (Proc.devRef .tc r) :=
  after_of_writes_sub seg7 _ seg7_writes h

/-- @main's operations 1089 to 1223. -/
abbrev seg8 : List (HloOp τ sig (Elt F)) :=
  [ binary main_arg0 main_v964 main_v965 (fn_main_v965 (F := F)),
    unary main_arg2 main_v966 ((transpose S514x768 [1, 0] · transposes_S768x514_S514x768_1_0) : (⟨S768x514, .f32⟩ : BufTy).Contents (Elt F) → (⟨S514x768, .f32⟩ : BufTy).Contents (Elt F)),
    binary main_v965 main_v966 main_v967 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v968 (broadcastInDim S1x768 ![1] bcast_S768_S1x768_1 : (⟨S768, .f32⟩ : BufTy).Contents (Elt F) → (⟨S1x768, .f32⟩ : BufTy).Contents (Elt F)),
    unary main_v968 main_v969 (broadcastInDim S8192x768 ![0, 1] bcast_S1x768_S8192x768_0_1 : (⟨S1x768, .f32⟩ : BufTy).Contents (Elt F) → (⟨S8192x768, .f32⟩ : BufTy).Contents (Elt F)),
    binary main_v967 main_v969 main_v970 (addf : (⟨S8192x768, .f32⟩ : BufTy).Contents (Elt F) → (⟨S8192x768, .f32⟩ : BufTy).Contents (Elt F) → (⟨S8192x768, .f32⟩ : BufTy).Contents (Elt F)),
    unary main_arg3 main_v971 ((transpose S256x768 [1, 0] · transposes_S768x256_S256x768_1_0) : (⟨S768x256, .f32⟩ : BufTy).Contents (Elt F) → (⟨S256x768, .f32⟩ : BufTy).Contents (Elt F)),
    binary main_v883 main_v971 main_v972 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v973 (broadcastInDim S1x768 ![1] bcast_S768_S1x768_1 : (⟨S768, .f32⟩ : BufTy).Contents (Elt F) → (⟨S1x768, .f32⟩ : BufTy).Contents (Elt F)),
    unary main_v973 main_v974 (broadcastInDim S8192x768 ![0, 1] bcast_S1x768_S8192x768_0_1 : (⟨S1x768, .f32⟩ : BufTy).Contents (Elt F) → (⟨S8192x768, .f32⟩ : BufTy).Contents (Elt F)),
    binary main_v972 main_v974 main_v975 (addf : (⟨S8192x768, .f32⟩ : BufTy).Contents (Elt F) → (⟨S8192x768, .f32⟩ : BufTy).Contents (Elt F) → (⟨S8192x768, .f32⟩ : BufTy).Contents (Elt F)),
    unary main_v970 main_v976 ((extractStridedSlice S8192x256 ![0, 0] · slices_S8192x768_S8192x256_0_0) : (⟨S8192x768, .f32⟩ : BufTy).Contents (Elt F) → (⟨S8192x256, .f32⟩ : BufTy).Contents (Elt F)),
    unary main_v970 main_v977 ((extractStridedSlice S8192x256 ![0, 256] · slices_S8192x768_S8192x256_0_256) : (⟨S8192x768, .f32⟩ : BufTy).Contents (Elt F) → (⟨S8192x256, .f32⟩ : BufTy).Contents (Elt F)),
    unary main_v970 main_v978 ((extractStridedSlice S8192x256 ![0, 512] · slices_S8192x768_S8192x256_0_512) : (⟨S8192x768, .f32⟩ : BufTy).Contents (Elt F) → (⟨S8192x256, .f32⟩ : BufTy).Contents (Elt F)),
    unary main_v975 main_v979 ((extractStridedSlice S8192x256 ![0, 0] · slices_S8192x768_S8192x256_0_0) : (⟨S8192x768, .f32⟩ : BufTy).Contents (Elt F) → (⟨S8192x256, .f32⟩ : BufTy).Contents (Elt F)),
    unary main_v975 main_v980 ((extractStridedSlice S8192x256 ![0, 256] · slices_S8192x768_S8192x256_0_256) : (⟨S8192x768, .f32⟩ : BufTy).Contents (Elt F) → (⟨S8192x256, .f32⟩ : BufTy).Contents (Elt F)),
    unary main_v975 main_v981 ((extractStridedSlice S8192x256 ![0, 512] · slices_S8192x768_S8192x256_0_512) : (⟨S8192x768, .f32⟩ : BufTy).Contents (Elt F) → (⟨S8192x256, .f32⟩ : BufTy).Contents (Elt F)),
    binary main_v976 main_v979 main_v982 (addf : (⟨S8192x256, .f32⟩ : BufTy).Contents (Elt F) → (⟨S8192x256, .f32⟩ : BufTy).Contents (Elt F) → (⟨S8192x256, .f32⟩ : BufTy).Contents (Elt F)),
    unary main_v982 main_v983 (Host.negf : (⟨S8192x256, .f32⟩ : BufTy).Contents (Elt F) → (⟨S8192x256, .f32⟩ : BufTy).Contents (Elt F)),
    unary main_v983 main_v984 (Host.exp : (⟨S8192x256, .f32⟩ : BufTy).Contents (Elt F) → (⟨S8192x256, .f32⟩ : BufTy).Contents (Elt F)),
    nullary main_cst_122 (constant S_ .f32 0x3F800000#32),
    unary main_cst_122 main_v985 (broadcastInDim S8192x256 ![] bcast_S_S8192x256 : (⟨S_, .f32⟩ : BufTy).Contents (Elt F) → (⟨S8192x256, .f32⟩ : BufTy).Contents (Elt F)),
    binary main_v985 main_v984 main_v986 (addf : (⟨S8192x256, .f32⟩ : BufTy).Contents (Elt F) → (⟨S8192x256, .f32⟩ : BufTy).Contents (Elt F) → (⟨S8192x256, .f32⟩ : BufTy).Contents (Elt F)),
    nullary main_cst_123 (constant S_ .f32 0x3F800000#32),
    unary main_cst_123 main_v987 (broadcastInDim S8192x256 ![] bcast_S_S8192x256 : (⟨S_, .f32⟩ : BufTy).Contents (Elt F) → (⟨S8192x256, .f32⟩ : BufTy).Contents (Elt F)),
    binary main_v987 main_v986 main_v988 (Host.divf : (⟨S8192x256, .f32⟩ : BufTy).Contents (Elt F) → (⟨S8192x256, .f32⟩ : BufTy).Contents (Elt F) → (⟨S8192x256, .f32⟩ : BufTy).Contents (Elt F)),
    binary main_v977 main_v980 main_v989 (addf : (⟨S8192x256, .f32⟩ : BufTy).Contents (Elt F) → (⟨S8192x256, .f32⟩ : BufTy).Contents (Elt F) → (⟨S8192x256, .f32⟩ : BufTy).Contents (Elt F)),
    unary main_v989 main_v990 (Host.negf : (⟨S8192x256, .f32⟩ : BufTy).Contents (Elt F) → (⟨S8192x256, .f32⟩ : BufTy).Contents (Elt F)),
    unary main_v990 main_v991 (Host.exp : (⟨S8192x256, .f32⟩ : BufTy).Contents (Elt F) → (⟨S8192x256, .f32⟩ : BufTy).Contents (Elt F)),
    nullary main_cst_124 (constant S_ .f32 0x3F800000#32),
    unary main_cst_124 main_v992 (broadcastInDim S8192x256 ![] bcast_S_S8192x256 : (⟨S_, .f32⟩ : BufTy).Contents (Elt F) → (⟨S8192x256, .f32⟩ : BufTy).Contents (Elt F)),
    binary main_v992 main_v991 main_v993 (addf : (⟨S8192x256, .f32⟩ : BufTy).Contents (Elt F) → (⟨S8192x256, .f32⟩ : BufTy).Contents (Elt F) → (⟨S8192x256, .f32⟩ : BufTy).Contents (Elt F)),
    nullary main_cst_125 (constant S_ .f32 0x3F800000#32),
    unary main_cst_125 main_v994 (broadcastInDim S8192x256 ![] bcast_S_S8192x256 : (⟨S_, .f32⟩ : BufTy).Contents (Elt F) → (⟨S8192x256, .f32⟩ : BufTy).Contents (Elt F)),
    binary main_v994 main_v993 main_v995 (Host.divf : (⟨S8192x256, .f32⟩ : BufTy).Contents (Elt F) → (⟨S8192x256, .f32⟩ : BufTy).Contents (Elt F) → (⟨S8192x256, .f32⟩ : BufTy).Contents (Elt F)),
    binary main_v988 main_v981 main_v996 (mulf : (⟨S8192x256, .f32⟩ : BufTy).Contents (Elt F) → (⟨S8192x256, .f32⟩ : BufTy).Contents (Elt F) → (⟨S8192x256, .f32⟩ : BufTy).Contents (Elt F)),
    binary main_v978 main_v996 main_v997 (addf : (⟨S8192x256, .f32⟩ : BufTy).Contents (Elt F) → (⟨S8192x256, .f32⟩ : BufTy).Contents (Elt F) → (⟨S8192x256, .f32⟩ : BufTy).Contents (Elt F)),
    unary main_v997 main_v998 (Host.tanh : (⟨S8192x256, .f32⟩ : BufTy).Contents (Elt F) → (⟨S8192x256, .f32⟩ : BufTy).Contents (Elt F)),
    nullary main_cst_126 (constant S_ .f32 0x3F800000#32),
    unary main_cst_126 main_v999 (broadcastInDim S8192x256 ![] bcast_S_S8192x256 : (⟨S_, .f32⟩ : BufTy).Contents (Elt F) → (⟨S8192x256, .f32⟩ : BufTy).Contents (Elt F)),
    binary main_v999 main_v995 main_v1000 (subf : (⟨S8192x256, .f32⟩ : BufTy).Contents (Elt F) → (⟨S8192x256, .f32⟩ : BufTy).Contents (Elt F) → (⟨S8192x256, .f32⟩ : BufTy).Contents (Elt F)),
    binary main_v1000 main_v998 main_v1001 (mulf : (⟨S8192x256, .f32⟩ : BufTy).Contents (Elt F) → (⟨S8192x256, .f32⟩ : BufTy).Contents (Elt F) → (⟨S8192x256, .f32⟩ : BufTy).Contents (Elt F)),
    binary main_v995 main_v883 main_v1002 (mulf : (⟨S8192x256, .f32⟩ : BufTy).Contents (Elt F) → (⟨S8192x256, .f32⟩ : BufTy).Contents (Elt F) → (⟨S8192x256, .f32⟩ : BufTy).Contents (Elt F)),
    binary main_v1001 main_v1002 main_v1003 (addf : (⟨S8192x256, .f32⟩ : BufTy).Contents (Elt F) → (⟨S8192x256, .f32⟩ : BufTy).Contents (Elt F) → (⟨S8192x256, .f32⟩ : BufTy).Contents (Elt F)),
    unary main_arg6 main_v1004 ((transpose S256x768 [1, 0] · transposes_S768x256_S256x768_1_0) : (⟨S768x256, .f32⟩ : BufTy).Contents (Elt F) → (⟨S256x768, .f32⟩ : BufTy).Contents (Elt F)),
    binary main_v1003 main_v1004 main_v1005 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v1006 (broadcastInDim S1x768 ![1] bcast_S768_S1x768_1 : (⟨S768, .f32⟩ : BufTy).Contents (Elt F) → (⟨S1x768, .f32⟩ : BufTy).Contents (Elt F)),
    unary main_v1006 main_v1007 (broadcastInDim S8192x768 ![0, 1] bcast_S1x768_S8192x768_0_1 : (⟨S1x768, .f32⟩ : BufTy).Contents (Elt F) → (⟨S8192x768, .f32⟩ : BufTy).Contents (Elt F)),
    binary main_v1005 main_v1007 main_v1008 (addf : (⟨S8192x768, .f32⟩ : BufTy).Contents (Elt F) → (⟨S8192x768, .f32⟩ : BufTy).Contents (Elt F) → (⟨S8192x768, .f32⟩ : BufTy).Contents (Elt F)),
    unary main_arg7 main_v1009 ((transpose S256x768 [1, 0] · transposes_S768x256_S256x768_1_0) : (⟨S768x256, .f32⟩ : BufTy).Contents (Elt F) → (⟨S256x768, .f32⟩ : BufTy).Contents (Elt F)),
    binary main_v921 main_v1009 main_v1010 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v1011 (broadcastInDim S1x768 ![1] bcast_S768_S1x768_1 : (⟨S768, .f32⟩ : BufTy).Contents (Elt F) → (⟨S1x768, .f32⟩ : BufTy).Contents (Elt F)),
    unary main_v1011 main_v1012 (broadcastInDim S8192x768 ![0, 1] bcast_S1x768_S8192x768_0_1 : (⟨S1x768, .f32⟩ : BufTy).Contents (Elt F) → (⟨S8192x768, .f32⟩ : BufTy).Contents (Elt F)),
    binary main_v1010 main_v1012 main_v1013 (addf : (⟨S8192x768, .f32⟩ : BufTy).Contents (Elt F) → (⟨S8192x768, .f32⟩ : BufTy).Contents (Elt F) → (⟨S8192x768, .f32⟩ : BufTy).Contents (Elt F)),
    unary main_v1008 main_v1014 ((extractStridedSlice S8192x256 ![0, 0] · slices_S8192x768_S8192x256_0_0) : (⟨S8192x768, .f32⟩ : BufTy).Contents (Elt F) → (⟨S8192x256, .f32⟩ : BufTy).Contents (Elt F)),
    unary main_v1008 main_v1015 ((extractStridedSlice S8192x256 ![0, 256] · slices_S8192x768_S8192x256_0_256) : (⟨S8192x768, .f32⟩ : BufTy).Contents (Elt F) → (⟨S8192x256, .f32⟩ : BufTy).Contents (Elt F)),
    unary main_v1008 main_v1016 ((extractStridedSlice S8192x256 ![0, 512] · slices_S8192x768_S8192x256_0_512) : (⟨S8192x768, .f32⟩ : BufTy).Contents (Elt F) → (⟨S8192x256, .f32⟩ : BufTy).Contents (Elt F)),
    unary main_v1013 main_v1017 ((extractStridedSlice S8192x256 ![0, 0] · slices_S8192x768_S8192x256_0_0) : (⟨S8192x768, .f32⟩ : BufTy).Contents (Elt F) → (⟨S8192x256, .f32⟩ : BufTy).Contents (Elt F)),
    unary main_v1013 main_v1018 ((extractStridedSlice S8192x256 ![0, 256] · slices_S8192x768_S8192x256_0_256) : (⟨S8192x768, .f32⟩ : BufTy).Contents (Elt F) → (⟨S8192x256, .f32⟩ : BufTy).Contents (Elt F)),
    unary main_v1013 main_v1019 ((extractStridedSlice S8192x256 ![0, 512] · slices_S8192x768_S8192x256_0_512) : (⟨S8192x768, .f32⟩ : BufTy).Contents (Elt F) → (⟨S8192x256, .f32⟩ : BufTy).Contents (Elt F)),
    binary main_v1014 main_v1017 main_v1020 (addf : (⟨S8192x256, .f32⟩ : BufTy).Contents (Elt F) → (⟨S8192x256, .f32⟩ : BufTy).Contents (Elt F) → (⟨S8192x256, .f32⟩ : BufTy).Contents (Elt F)),
    unary main_v1020 main_v1021 (Host.negf : (⟨S8192x256, .f32⟩ : BufTy).Contents (Elt F) → (⟨S8192x256, .f32⟩ : BufTy).Contents (Elt F)),
    unary main_v1021 main_v1022 (Host.exp : (⟨S8192x256, .f32⟩ : BufTy).Contents (Elt F) → (⟨S8192x256, .f32⟩ : BufTy).Contents (Elt F)),
    nullary main_cst_127 (constant S_ .f32 0x3F800000#32),
    unary main_cst_127 main_v1023 (broadcastInDim S8192x256 ![] bcast_S_S8192x256 : (⟨S_, .f32⟩ : BufTy).Contents (Elt F) → (⟨S8192x256, .f32⟩ : BufTy).Contents (Elt F)),
    binary main_v1023 main_v1022 main_v1024 (addf : (⟨S8192x256, .f32⟩ : BufTy).Contents (Elt F) → (⟨S8192x256, .f32⟩ : BufTy).Contents (Elt F) → (⟨S8192x256, .f32⟩ : BufTy).Contents (Elt F)),
    nullary main_cst_128 (constant S_ .f32 0x3F800000#32),
    unary main_cst_128 main_v1025 (broadcastInDim S8192x256 ![] bcast_S_S8192x256 : (⟨S_, .f32⟩ : BufTy).Contents (Elt F) → (⟨S8192x256, .f32⟩ : BufTy).Contents (Elt F)),
    binary main_v1025 main_v1024 main_v1026 (Host.divf : (⟨S8192x256, .f32⟩ : BufTy).Contents (Elt F) → (⟨S8192x256, .f32⟩ : BufTy).Contents (Elt F) → (⟨S8192x256, .f32⟩ : BufTy).Contents (Elt F)),
    binary main_v1015 main_v1018 main_v1027 (addf : (⟨S8192x256, .f32⟩ : BufTy).Contents (Elt F) → (⟨S8192x256, .f32⟩ : BufTy).Contents (Elt F) → (⟨S8192x256, .f32⟩ : BufTy).Contents (Elt F)),
    unary main_v1027 main_v1028 (Host.negf : (⟨S8192x256, .f32⟩ : BufTy).Contents (Elt F) → (⟨S8192x256, .f32⟩ : BufTy).Contents (Elt F)),
    unary main_v1028 main_v1029 (Host.exp : (⟨S8192x256, .f32⟩ : BufTy).Contents (Elt F) → (⟨S8192x256, .f32⟩ : BufTy).Contents (Elt F)),
    nullary main_cst_129 (constant S_ .f32 0x3F800000#32),
    unary main_cst_129 main_v1030 (broadcastInDim S8192x256 ![] bcast_S_S8192x256 : (⟨S_, .f32⟩ : BufTy).Contents (Elt F) → (⟨S8192x256, .f32⟩ : BufTy).Contents (Elt F)),
    binary main_v1030 main_v1029 main_v1031 (addf : (⟨S8192x256, .f32⟩ : BufTy).Contents (Elt F) → (⟨S8192x256, .f32⟩ : BufTy).Contents (Elt F) → (⟨S8192x256, .f32⟩ : BufTy).Contents (Elt F)),
    nullary main_cst_130 (constant S_ .f32 0x3F800000#32),
    unary main_cst_130 main_v1032 (broadcastInDim S8192x256 ![] bcast_S_S8192x256 : (⟨S_, .f32⟩ : BufTy).Contents (Elt F) → (⟨S8192x256, .f32⟩ : BufTy).Contents (Elt F)),
    binary main_v1032 main_v1031 main_v1033 (Host.divf : (⟨S8192x256, .f32⟩ : BufTy).Contents (Elt F) → (⟨S8192x256, .f32⟩ : BufTy).Contents (Elt F) → (⟨S8192x256, .f32⟩ : BufTy).Contents (Elt F)),
    binary main_v1026 main_v1019 main_v1034 (mulf : (⟨S8192x256, .f32⟩ : BufTy).Contents (Elt F) → (⟨S8192x256, .f32⟩ : BufTy).Contents (Elt F) → (⟨S8192x256, .f32⟩ : BufTy).Contents (Elt F)),
    binary main_v1016 main_v1034 main_v1035 (addf : (⟨S8192x256, .f32⟩ : BufTy).Contents (Elt F) → (⟨S8192x256, .f32⟩ : BufTy).Contents (Elt F) → (⟨S8192x256, .f32⟩ : BufTy).Contents (Elt F)),
    unary main_v1035 main_v1036 (Host.tanh : (⟨S8192x256, .f32⟩ : BufTy).Contents (Elt F) → (⟨S8192x256, .f32⟩ : BufTy).Contents (Elt F)),
    nullary main_cst_131 (constant S_ .f32 0x3F800000#32),
    unary main_cst_131 main_v1037 (broadcastInDim S8192x256 ![] bcast_S_S8192x256 : (⟨S_, .f32⟩ : BufTy).Contents (Elt F) → (⟨S8192x256, .f32⟩ : BufTy).Contents (Elt F)),
    binary main_v1037 main_v1033 main_v1038 (subf : (⟨S8192x256, .f32⟩ : BufTy).Contents (Elt F) → (⟨S8192x256, .f32⟩ : BufTy).Contents (Elt F) → (⟨S8192x256, .f32⟩ : BufTy).Contents (Elt F)),
    binary main_v1038 main_v1036 main_v1039 (mulf : (⟨S8192x256, .f32⟩ : BufTy).Contents (Elt F) → (⟨S8192x256, .f32⟩ : BufTy).Contents (Elt F) → (⟨S8192x256, .f32⟩ : BufTy).Contents (Elt F)),
    binary main_v1033 main_v921 main_v1040 (mulf : (⟨S8192x256, .f32⟩ : BufTy).Contents (Elt F) → (⟨S8192x256, .f32⟩ : BufTy).Contents (Elt F) → (⟨S8192x256, .f32⟩ : BufTy).Contents (Elt F)),
    binary main_v1039 main_v1040 main_v1041 (addf : (⟨S8192x256, .f32⟩ : BufTy).Contents (Elt F) → (⟨S8192x256, .f32⟩ : BufTy).Contents (Elt F) → (⟨S8192x256, .f32⟩ : BufTy).Contents (Elt F)),
    unary main_arg10 main_v1042 ((transpose S256x768 [1, 0] · transposes_S768x256_S256x768_1_0) : (⟨S768x256, .f32⟩ : BufTy).Contents (Elt F) → (⟨S256x768, .f32⟩ : BufTy).Contents (Elt F)),
    binary main_v1041 main_v1042 main_v1043 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v1044 (broadcastInDim S1x768 ![1] bcast_S768_S1x768_1 : (⟨S768, .f32⟩ : BufTy).Contents (Elt F) → (⟨S1x768, .f32⟩ : BufTy).Contents (Elt F)),
    unary main_v1044 main_v1045 (broadcastInDim S8192x768 ![0, 1] bcast_S1x768_S8192x768_0_1 : (⟨S1x768, .f32⟩ : BufTy).Contents (Elt F) → (⟨S8192x768, .f32⟩ : BufTy).Contents (Elt F)),
    binary main_v1043 main_v1045 main_v1046 (addf : (⟨S8192x768, .f32⟩ : BufTy).Contents (Elt F) → (⟨S8192x768, .f32⟩ : BufTy).Contents (Elt F) → (⟨S8192x768, .f32⟩ : BufTy).Contents (Elt F)),
    unary main_arg11 main_v1047 ((transpose S256x768 [1, 0] · transposes_S768x256_S256x768_1_0) : (⟨S768x256, .f32⟩ : BufTy).Contents (Elt F) → (⟨S256x768, .f32⟩ : BufTy).Contents (Elt F)),
    binary main_v959 main_v1047 main_v1048 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v1049 (broadcastInDim S1x768 ![1] bcast_S768_S1x768_1 : (⟨S768, .f32⟩ : BufTy).Contents (Elt F) → (⟨S1x768, .f32⟩ : BufTy).Contents (Elt F)),
    unary main_v1049 main_v1050 (broadcastInDim S8192x768 ![0, 1] bcast_S1x768_S8192x768_0_1 : (⟨S1x768, .f32⟩ : BufTy).Contents (Elt F) → (⟨S8192x768, .f32⟩ : BufTy).Contents (Elt F)),
    binary main_v1048 main_v1050 main_v1051 (addf : (⟨S8192x768, .f32⟩ : BufTy).Contents (Elt F) → (⟨S8192x768, .f32⟩ : BufTy).Contents (Elt F) → (⟨S8192x768, .f32⟩ : BufTy).Contents (Elt F)),
    unary main_v1046 main_v1052 ((extractStridedSlice S8192x256 ![0, 0] · slices_S8192x768_S8192x256_0_0) : (⟨S8192x768, .f32⟩ : BufTy).Contents (Elt F) → (⟨S8192x256, .f32⟩ : BufTy).Contents (Elt F)),
    unary main_v1046 main_v1053 ((extractStridedSlice S8192x256 ![0, 256] · slices_S8192x768_S8192x256_0_256) : (⟨S8192x768, .f32⟩ : BufTy).Contents (Elt F) → (⟨S8192x256, .f32⟩ : BufTy).Contents (Elt F)),
    unary main_v1046 main_v1054 ((extractStridedSlice S8192x256 ![0, 512] · slices_S8192x768_S8192x256_0_512) : (⟨S8192x768, .f32⟩ : BufTy).Contents (Elt F) → (⟨S8192x256, .f32⟩ : BufTy).Contents (Elt F)),
    unary main_v1051 main_v1055 ((extractStridedSlice S8192x256 ![0, 0] · slices_S8192x768_S8192x256_0_0) : (⟨S8192x768, .f32⟩ : BufTy).Contents (Elt F) → (⟨S8192x256, .f32⟩ : BufTy).Contents (Elt F)),
    unary main_v1051 main_v1056 ((extractStridedSlice S8192x256 ![0, 256] · slices_S8192x768_S8192x256_0_256) : (⟨S8192x768, .f32⟩ : BufTy).Contents (Elt F) → (⟨S8192x256, .f32⟩ : BufTy).Contents (Elt F)),
    unary main_v1051 main_v1057 ((extractStridedSlice S8192x256 ![0, 512] · slices_S8192x768_S8192x256_0_512) : (⟨S8192x768, .f32⟩ : BufTy).Contents (Elt F) → (⟨S8192x256, .f32⟩ : BufTy).Contents (Elt F)),
    binary main_v1052 main_v1055 main_v1058 (addf : (⟨S8192x256, .f32⟩ : BufTy).Contents (Elt F) → (⟨S8192x256, .f32⟩ : BufTy).Contents (Elt F) → (⟨S8192x256, .f32⟩ : BufTy).Contents (Elt F)),
    unary main_v1058 main_v1059 (Host.negf : (⟨S8192x256, .f32⟩ : BufTy).Contents (Elt F) → (⟨S8192x256, .f32⟩ : BufTy).Contents (Elt F)),
    unary main_v1059 main_v1060 (Host.exp : (⟨S8192x256, .f32⟩ : BufTy).Contents (Elt F) → (⟨S8192x256, .f32⟩ : BufTy).Contents (Elt F)),
    nullary main_cst_132 (constant S_ .f32 0x3F800000#32),
    unary main_cst_132 main_v1061 (broadcastInDim S8192x256 ![] bcast_S_S8192x256 : (⟨S_, .f32⟩ : BufTy).Contents (Elt F) → (⟨S8192x256, .f32⟩ : BufTy).Contents (Elt F)),
    binary main_v1061 main_v1060 main_v1062 (addf : (⟨S8192x256, .f32⟩ : BufTy).Contents (Elt F) → (⟨S8192x256, .f32⟩ : BufTy).Contents (Elt F) → (⟨S8192x256, .f32⟩ : BufTy).Contents (Elt F)),
    nullary main_cst_133 (constant S_ .f32 0x3F800000#32),
    unary main_cst_133 main_v1063 (broadcastInDim S8192x256 ![] bcast_S_S8192x256 : (⟨S_, .f32⟩ : BufTy).Contents (Elt F) → (⟨S8192x256, .f32⟩ : BufTy).Contents (Elt F)),
    binary main_v1063 main_v1062 main_v1064 (Host.divf : (⟨S8192x256, .f32⟩ : BufTy).Contents (Elt F) → (⟨S8192x256, .f32⟩ : BufTy).Contents (Elt F) → (⟨S8192x256, .f32⟩ : BufTy).Contents (Elt F)),
    binary main_v1053 main_v1056 main_v1065 (addf : (⟨S8192x256, .f32⟩ : BufTy).Contents (Elt F) → (⟨S8192x256, .f32⟩ : BufTy).Contents (Elt F) → (⟨S8192x256, .f32⟩ : BufTy).Contents (Elt F)),
    unary main_v1065 main_v1066 (Host.negf : (⟨S8192x256, .f32⟩ : BufTy).Contents (Elt F) → (⟨S8192x256, .f32⟩ : BufTy).Contents (Elt F)),
    unary main_v1066 main_v1067 (Host.exp : (⟨S8192x256, .f32⟩ : BufTy).Contents (Elt F) → (⟨S8192x256, .f32⟩ : BufTy).Contents (Elt F)),
    nullary main_cst_134 (constant S_ .f32 0x3F800000#32),
    unary main_cst_134 main_v1068 (broadcastInDim S8192x256 ![] bcast_S_S8192x256 : (⟨S_, .f32⟩ : BufTy).Contents (Elt F) → (⟨S8192x256, .f32⟩ : BufTy).Contents (Elt F)),
    binary main_v1068 main_v1067 main_v1069 (addf : (⟨S8192x256, .f32⟩ : BufTy).Contents (Elt F) → (⟨S8192x256, .f32⟩ : BufTy).Contents (Elt F) → (⟨S8192x256, .f32⟩ : BufTy).Contents (Elt F)),
    nullary main_cst_135 (constant S_ .f32 0x3F800000#32),
    unary main_cst_135 main_v1070 (broadcastInDim S8192x256 ![] bcast_S_S8192x256 : (⟨S_, .f32⟩ : BufTy).Contents (Elt F) → (⟨S8192x256, .f32⟩ : BufTy).Contents (Elt F)),
    binary main_v1070 main_v1069 main_v1071 (Host.divf : (⟨S8192x256, .f32⟩ : BufTy).Contents (Elt F) → (⟨S8192x256, .f32⟩ : BufTy).Contents (Elt F) → (⟨S8192x256, .f32⟩ : BufTy).Contents (Elt F)),
    binary main_v1064 main_v1057 main_v1072 (mulf : (⟨S8192x256, .f32⟩ : BufTy).Contents (Elt F) → (⟨S8192x256, .f32⟩ : BufTy).Contents (Elt F) → (⟨S8192x256, .f32⟩ : BufTy).Contents (Elt F)),
    binary main_v1054 main_v1072 main_v1073 (addf : (⟨S8192x256, .f32⟩ : BufTy).Contents (Elt F) → (⟨S8192x256, .f32⟩ : BufTy).Contents (Elt F) → (⟨S8192x256, .f32⟩ : BufTy).Contents (Elt F)),
    unary main_v1073 main_v1074 (Host.tanh : (⟨S8192x256, .f32⟩ : BufTy).Contents (Elt F) → (⟨S8192x256, .f32⟩ : BufTy).Contents (Elt F)),
    nullary main_cst_136 (constant S_ .f32 0x3F800000#32),
    unary main_cst_136 main_v1075 (broadcastInDim S8192x256 ![] bcast_S_S8192x256 : (⟨S_, .f32⟩ : BufTy).Contents (Elt F) → (⟨S8192x256, .f32⟩ : BufTy).Contents (Elt F)),
    binary main_v1075 main_v1071 main_v1076 (subf : (⟨S8192x256, .f32⟩ : BufTy).Contents (Elt F) → (⟨S8192x256, .f32⟩ : BufTy).Contents (Elt F) → (⟨S8192x256, .f32⟩ : BufTy).Contents (Elt F)),
    binary main_v1076 main_v1074 main_v1077 (mulf : (⟨S8192x256, .f32⟩ : BufTy).Contents (Elt F) → (⟨S8192x256, .f32⟩ : BufTy).Contents (Elt F) → (⟨S8192x256, .f32⟩ : BufTy).Contents (Elt F)),
    binary main_v1071 main_v959 main_v1078 (mulf : (⟨S8192x256, .f32⟩ : BufTy).Contents (Elt F) → (⟨S8192x256, .f32⟩ : BufTy).Contents (Elt F) → (⟨S8192x256, .f32⟩ : BufTy).Contents (Elt F)),
    binary main_v1077 main_v1078 main_v1079 (addf : (⟨S8192x256, .f32⟩ : BufTy).Contents (Elt F) → (⟨S8192x256, .f32⟩ : BufTy).Contents (Elt F) → (⟨S8192x256, .f32⟩ : BufTy).Contents (Elt F)),
    unary main_arg14 main_v1080 ((transpose S256x2 [1, 0] · transposes_S2x256_S256x2_1_0) : (⟨S2x256, .f32⟩ : BufTy).Contents (Elt F) → (⟨S256x2, .f32⟩ : BufTy).Contents (Elt F)),
    binary main_v1079 main_v1080 main_v1081 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v1082 (broadcastInDim S1x2 ![1] bcast_S2_S1x2_1 : (⟨S2, .f32⟩ : BufTy).Contents (Elt F) → (⟨S1x2, .f32⟩ : BufTy).Contents (Elt F)),
    unary main_v1082 main_v1083 (broadcastInDim S8192x2 ![0, 1] bcast_S1x2_S8192x2_0_1 : (⟨S1x2, .f32⟩ : BufTy).Contents (Elt F) → (⟨S8192x2, .f32⟩ : BufTy).Contents (Elt F)),
    binary main_v1081 main_v1083 main_v1084 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg8_W : List (Ref sig .tc) := [main_v965, main_v966, main_v967, main_v968, main_v969, main_v970, main_v971, main_v972, main_v973, main_v974, main_v975, main_v976, main_v977, main_v978, main_v979, main_v980, main_v981, main_v982, main_v983, main_v984, main_cst_122, main_v985, main_v986, main_cst_123, main_v987, main_v988, main_v989, main_v990, main_v991, main_cst_124, main_v992, main_v993, main_cst_125, main_v994, main_v995, main_v996, main_v997, main_v998, main_cst_126, main_v999, main_v1000, main_v1001, main_v1002, main_v1003, main_v1004, main_v1005, main_v1006, main_v1007, main_v1008, main_v1009, main_v1010, main_v1011, main_v1012, main_v1013, main_v1014, main_v1015, main_v1016, main_v1017, main_v1018, main_v1019, main_v1020, main_v1021, main_v1022, main_cst_127, main_v1023, main_v1024, main_cst_128, main_v1025, main_v1026, main_v1027, main_v1028, main_v1029, main_cst_129, main_v1030, main_v1031, main_cst_130, main_v1032, main_v1033, main_v1034, main_v1035, main_v1036, main_cst_131, main_v1037, main_v1038, main_v1039, main_v1040, main_v1041, main_v1042, main_v1043, main_v1044, main_v1045, main_v1046, main_v1047, main_v1048, main_v1049, main_v1050, main_v1051, main_v1052, main_v1053, main_v1054, main_v1055, main_v1056, main_v1057, main_v1058, main_v1059, main_v1060, main_cst_132, main_v1061, main_v1062, main_cst_133, main_v1063, main_v1064, main_v1065, main_v1066, main_v1067, main_cst_134, main_v1068, main_v1069, main_cst_135, main_v1070, main_v1071, main_v1072, main_v1073, main_v1074, main_cst_136, main_v1075, main_v1076, main_v1077, main_v1078, main_v1079, main_v1080, main_v1081, main_v1082, main_v1083, main_v1084]
set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg8_keep (V : Valuation τ sig (Elt F)) (r : Ref sig .tc) (h : r ∉ seg8_W) :
    after seg8 V (Proc.devRef .tc r) = V (Proc.devRef .tc r) :=
  after_of_writes_sub seg8 _ seg8_writes h

/-- @main's operations 1224 to 1358. -/
abbrev seg9 : List (HloOp τ sig (Elt F)) :=
  [ binary main_arg0 main_v1084 main_v1085 (fn_main_v1085 (F := F)),
    unary main_arg2 main_v1086 ((transpose S514x768 [1, 0] · transposes_S768x514_S514x768_1_0) : (⟨S768x514, .f32⟩ : BufTy).Contents (Elt F) → (⟨S514x768, .f32⟩ : BufTy).Contents (Elt F)),
    binary main_v1085 main_v1086 main_v1087 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v1088 (broadcastInDim S1x768 ![1] bcast_S768_S1x768_1 : (⟨S768, .f32⟩ : BufTy).Contents (Elt F) → (⟨S1x768, .f32⟩ : BufTy).Contents (Elt F)),
    unary main_v1088 main_v1089 (broadcastInDim S8192x768 ![0, 1] bcast_S1x768_S8192x768_0_1 : (⟨S1x768, .f32⟩ : BufTy).Contents (Elt F) → (⟨S8192x768, .f32⟩ : BufTy).Contents (Elt F)),
    binary main_v1087 main_v1089 main_v1090 (addf : (⟨S8192x768, .f32⟩ : BufTy).Contents (Elt F) → (⟨S8192x768, .f32⟩ : BufTy).Contents (Elt F) → (⟨S8192x768, .f32⟩ : BufTy).Contents (Elt F)),
    unary main_arg3 main_v1091 ((transpose S256x768 [1, 0] · transposes_S768x256_S256x768_1_0) : (⟨S768x256, .f32⟩ : BufTy).Contents (Elt F) → (⟨S256x768, .f32⟩ : BufTy).Contents (Elt F)),
    binary main_v1003 main_v1091 main_v1092 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v1093 (broadcastInDim S1x768 ![1] bcast_S768_S1x768_1 : (⟨S768, .f32⟩ : BufTy).Contents (Elt F) → (⟨S1x768, .f32⟩ : BufTy).Contents (Elt F)),
    unary main_v1093 main_v1094 (broadcastInDim S8192x768 ![0, 1] bcast_S1x768_S8192x768_0_1 : (⟨S1x768, .f32⟩ : BufTy).Contents (Elt F) → (⟨S8192x768, .f32⟩ : BufTy).Contents (Elt F)),
    binary main_v1092 main_v1094 main_v1095 (addf : (⟨S8192x768, .f32⟩ : BufTy).Contents (Elt F) → (⟨S8192x768, .f32⟩ : BufTy).Contents (Elt F) → (⟨S8192x768, .f32⟩ : BufTy).Contents (Elt F)),
    unary main_v1090 main_v1096 ((extractStridedSlice S8192x256 ![0, 0] · slices_S8192x768_S8192x256_0_0) : (⟨S8192x768, .f32⟩ : BufTy).Contents (Elt F) → (⟨S8192x256, .f32⟩ : BufTy).Contents (Elt F)),
    unary main_v1090 main_v1097 ((extractStridedSlice S8192x256 ![0, 256] · slices_S8192x768_S8192x256_0_256) : (⟨S8192x768, .f32⟩ : BufTy).Contents (Elt F) → (⟨S8192x256, .f32⟩ : BufTy).Contents (Elt F)),
    unary main_v1090 main_v1098 ((extractStridedSlice S8192x256 ![0, 512] · slices_S8192x768_S8192x256_0_512) : (⟨S8192x768, .f32⟩ : BufTy).Contents (Elt F) → (⟨S8192x256, .f32⟩ : BufTy).Contents (Elt F)),
    unary main_v1095 main_v1099 ((extractStridedSlice S8192x256 ![0, 0] · slices_S8192x768_S8192x256_0_0) : (⟨S8192x768, .f32⟩ : BufTy).Contents (Elt F) → (⟨S8192x256, .f32⟩ : BufTy).Contents (Elt F)),
    unary main_v1095 main_v1100 ((extractStridedSlice S8192x256 ![0, 256] · slices_S8192x768_S8192x256_0_256) : (⟨S8192x768, .f32⟩ : BufTy).Contents (Elt F) → (⟨S8192x256, .f32⟩ : BufTy).Contents (Elt F)),
    unary main_v1095 main_v1101 ((extractStridedSlice S8192x256 ![0, 512] · slices_S8192x768_S8192x256_0_512) : (⟨S8192x768, .f32⟩ : BufTy).Contents (Elt F) → (⟨S8192x256, .f32⟩ : BufTy).Contents (Elt F)),
    binary main_v1096 main_v1099 main_v1102 (addf : (⟨S8192x256, .f32⟩ : BufTy).Contents (Elt F) → (⟨S8192x256, .f32⟩ : BufTy).Contents (Elt F) → (⟨S8192x256, .f32⟩ : BufTy).Contents (Elt F)),
    unary main_v1102 main_v1103 (Host.negf : (⟨S8192x256, .f32⟩ : BufTy).Contents (Elt F) → (⟨S8192x256, .f32⟩ : BufTy).Contents (Elt F)),
    unary main_v1103 main_v1104 (Host.exp : (⟨S8192x256, .f32⟩ : BufTy).Contents (Elt F) → (⟨S8192x256, .f32⟩ : BufTy).Contents (Elt F)),
    nullary main_cst_137 (constant S_ .f32 0x3F800000#32),
    unary main_cst_137 main_v1105 (broadcastInDim S8192x256 ![] bcast_S_S8192x256 : (⟨S_, .f32⟩ : BufTy).Contents (Elt F) → (⟨S8192x256, .f32⟩ : BufTy).Contents (Elt F)),
    binary main_v1105 main_v1104 main_v1106 (addf : (⟨S8192x256, .f32⟩ : BufTy).Contents (Elt F) → (⟨S8192x256, .f32⟩ : BufTy).Contents (Elt F) → (⟨S8192x256, .f32⟩ : BufTy).Contents (Elt F)),
    nullary main_cst_138 (constant S_ .f32 0x3F800000#32),
    unary main_cst_138 main_v1107 (broadcastInDim S8192x256 ![] bcast_S_S8192x256 : (⟨S_, .f32⟩ : BufTy).Contents (Elt F) → (⟨S8192x256, .f32⟩ : BufTy).Contents (Elt F)),
    binary main_v1107 main_v1106 main_v1108 (Host.divf : (⟨S8192x256, .f32⟩ : BufTy).Contents (Elt F) → (⟨S8192x256, .f32⟩ : BufTy).Contents (Elt F) → (⟨S8192x256, .f32⟩ : BufTy).Contents (Elt F)),
    binary main_v1097 main_v1100 main_v1109 (addf : (⟨S8192x256, .f32⟩ : BufTy).Contents (Elt F) → (⟨S8192x256, .f32⟩ : BufTy).Contents (Elt F) → (⟨S8192x256, .f32⟩ : BufTy).Contents (Elt F)),
    unary main_v1109 main_v1110 (Host.negf : (⟨S8192x256, .f32⟩ : BufTy).Contents (Elt F) → (⟨S8192x256, .f32⟩ : BufTy).Contents (Elt F)),
    unary main_v1110 main_v1111 (Host.exp : (⟨S8192x256, .f32⟩ : BufTy).Contents (Elt F) → (⟨S8192x256, .f32⟩ : BufTy).Contents (Elt F)),
    nullary main_cst_139 (constant S_ .f32 0x3F800000#32),
    unary main_cst_139 main_v1112 (broadcastInDim S8192x256 ![] bcast_S_S8192x256 : (⟨S_, .f32⟩ : BufTy).Contents (Elt F) → (⟨S8192x256, .f32⟩ : BufTy).Contents (Elt F)),
    binary main_v1112 main_v1111 main_v1113 (addf : (⟨S8192x256, .f32⟩ : BufTy).Contents (Elt F) → (⟨S8192x256, .f32⟩ : BufTy).Contents (Elt F) → (⟨S8192x256, .f32⟩ : BufTy).Contents (Elt F)),
    nullary main_cst_140 (constant S_ .f32 0x3F800000#32),
    unary main_cst_140 main_v1114 (broadcastInDim S8192x256 ![] bcast_S_S8192x256 : (⟨S_, .f32⟩ : BufTy).Contents (Elt F) → (⟨S8192x256, .f32⟩ : BufTy).Contents (Elt F)),
    binary main_v1114 main_v1113 main_v1115 (Host.divf : (⟨S8192x256, .f32⟩ : BufTy).Contents (Elt F) → (⟨S8192x256, .f32⟩ : BufTy).Contents (Elt F) → (⟨S8192x256, .f32⟩ : BufTy).Contents (Elt F)),
    binary main_v1108 main_v1101 main_v1116 (mulf : (⟨S8192x256, .f32⟩ : BufTy).Contents (Elt F) → (⟨S8192x256, .f32⟩ : BufTy).Contents (Elt F) → (⟨S8192x256, .f32⟩ : BufTy).Contents (Elt F)),
    binary main_v1098 main_v1116 main_v1117 (addf : (⟨S8192x256, .f32⟩ : BufTy).Contents (Elt F) → (⟨S8192x256, .f32⟩ : BufTy).Contents (Elt F) → (⟨S8192x256, .f32⟩ : BufTy).Contents (Elt F)),
    unary main_v1117 main_v1118 (Host.tanh : (⟨S8192x256, .f32⟩ : BufTy).Contents (Elt F) → (⟨S8192x256, .f32⟩ : BufTy).Contents (Elt F)),
    nullary main_cst_141 (constant S_ .f32 0x3F800000#32),
    unary main_cst_141 main_v1119 (broadcastInDim S8192x256 ![] bcast_S_S8192x256 : (⟨S_, .f32⟩ : BufTy).Contents (Elt F) → (⟨S8192x256, .f32⟩ : BufTy).Contents (Elt F)),
    binary main_v1119 main_v1115 main_v1120 (subf : (⟨S8192x256, .f32⟩ : BufTy).Contents (Elt F) → (⟨S8192x256, .f32⟩ : BufTy).Contents (Elt F) → (⟨S8192x256, .f32⟩ : BufTy).Contents (Elt F)),
    binary main_v1120 main_v1118 main_v1121 (mulf : (⟨S8192x256, .f32⟩ : BufTy).Contents (Elt F) → (⟨S8192x256, .f32⟩ : BufTy).Contents (Elt F) → (⟨S8192x256, .f32⟩ : BufTy).Contents (Elt F)),
    binary main_v1115 main_v1003 main_v1122 (mulf : (⟨S8192x256, .f32⟩ : BufTy).Contents (Elt F) → (⟨S8192x256, .f32⟩ : BufTy).Contents (Elt F) → (⟨S8192x256, .f32⟩ : BufTy).Contents (Elt F)),
    binary main_v1121 main_v1122 main_v1123 (addf : (⟨S8192x256, .f32⟩ : BufTy).Contents (Elt F) → (⟨S8192x256, .f32⟩ : BufTy).Contents (Elt F) → (⟨S8192x256, .f32⟩ : BufTy).Contents (Elt F)),
    unary main_arg6 main_v1124 ((transpose S256x768 [1, 0] · transposes_S768x256_S256x768_1_0) : (⟨S768x256, .f32⟩ : BufTy).Contents (Elt F) → (⟨S256x768, .f32⟩ : BufTy).Contents (Elt F)),
    binary main_v1123 main_v1124 main_v1125 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v1126 (broadcastInDim S1x768 ![1] bcast_S768_S1x768_1 : (⟨S768, .f32⟩ : BufTy).Contents (Elt F) → (⟨S1x768, .f32⟩ : BufTy).Contents (Elt F)),
    unary main_v1126 main_v1127 (broadcastInDim S8192x768 ![0, 1] bcast_S1x768_S8192x768_0_1 : (⟨S1x768, .f32⟩ : BufTy).Contents (Elt F) → (⟨S8192x768, .f32⟩ : BufTy).Contents (Elt F)),
    binary main_v1125 main_v1127 main_v1128 (addf : (⟨S8192x768, .f32⟩ : BufTy).Contents (Elt F) → (⟨S8192x768, .f32⟩ : BufTy).Contents (Elt F) → (⟨S8192x768, .f32⟩ : BufTy).Contents (Elt F)),
    unary main_arg7 main_v1129 ((transpose S256x768 [1, 0] · transposes_S768x256_S256x768_1_0) : (⟨S768x256, .f32⟩ : BufTy).Contents (Elt F) → (⟨S256x768, .f32⟩ : BufTy).Contents (Elt F)),
    binary main_v1041 main_v1129 main_v1130 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v1131 (broadcastInDim S1x768 ![1] bcast_S768_S1x768_1 : (⟨S768, .f32⟩ : BufTy).Contents (Elt F) → (⟨S1x768, .f32⟩ : BufTy).Contents (Elt F)),
    unary main_v1131 main_v1132 (broadcastInDim S8192x768 ![0, 1] bcast_S1x768_S8192x768_0_1 : (⟨S1x768, .f32⟩ : BufTy).Contents (Elt F) → (⟨S8192x768, .f32⟩ : BufTy).Contents (Elt F)),
    binary main_v1130 main_v1132 main_v1133 (addf : (⟨S8192x768, .f32⟩ : BufTy).Contents (Elt F) → (⟨S8192x768, .f32⟩ : BufTy).Contents (Elt F) → (⟨S8192x768, .f32⟩ : BufTy).Contents (Elt F)),
    unary main_v1128 main_v1134 ((extractStridedSlice S8192x256 ![0, 0] · slices_S8192x768_S8192x256_0_0) : (⟨S8192x768, .f32⟩ : BufTy).Contents (Elt F) → (⟨S8192x256, .f32⟩ : BufTy).Contents (Elt F)),
    unary main_v1128 main_v1135 ((extractStridedSlice S8192x256 ![0, 256] · slices_S8192x768_S8192x256_0_256) : (⟨S8192x768, .f32⟩ : BufTy).Contents (Elt F) → (⟨S8192x256, .f32⟩ : BufTy).Contents (Elt F)),
    unary main_v1128 main_v1136 ((extractStridedSlice S8192x256 ![0, 512] · slices_S8192x768_S8192x256_0_512) : (⟨S8192x768, .f32⟩ : BufTy).Contents (Elt F) → (⟨S8192x256, .f32⟩ : BufTy).Contents (Elt F)),
    unary main_v1133 main_v1137 ((extractStridedSlice S8192x256 ![0, 0] · slices_S8192x768_S8192x256_0_0) : (⟨S8192x768, .f32⟩ : BufTy).Contents (Elt F) → (⟨S8192x256, .f32⟩ : BufTy).Contents (Elt F)),
    unary main_v1133 main_v1138 ((extractStridedSlice S8192x256 ![0, 256] · slices_S8192x768_S8192x256_0_256) : (⟨S8192x768, .f32⟩ : BufTy).Contents (Elt F) → (⟨S8192x256, .f32⟩ : BufTy).Contents (Elt F)),
    unary main_v1133 main_v1139 ((extractStridedSlice S8192x256 ![0, 512] · slices_S8192x768_S8192x256_0_512) : (⟨S8192x768, .f32⟩ : BufTy).Contents (Elt F) → (⟨S8192x256, .f32⟩ : BufTy).Contents (Elt F)),
    binary main_v1134 main_v1137 main_v1140 (addf : (⟨S8192x256, .f32⟩ : BufTy).Contents (Elt F) → (⟨S8192x256, .f32⟩ : BufTy).Contents (Elt F) → (⟨S8192x256, .f32⟩ : BufTy).Contents (Elt F)),
    unary main_v1140 main_v1141 (Host.negf : (⟨S8192x256, .f32⟩ : BufTy).Contents (Elt F) → (⟨S8192x256, .f32⟩ : BufTy).Contents (Elt F)),
    unary main_v1141 main_v1142 (Host.exp : (⟨S8192x256, .f32⟩ : BufTy).Contents (Elt F) → (⟨S8192x256, .f32⟩ : BufTy).Contents (Elt F)),
    nullary main_cst_142 (constant S_ .f32 0x3F800000#32),
    unary main_cst_142 main_v1143 (broadcastInDim S8192x256 ![] bcast_S_S8192x256 : (⟨S_, .f32⟩ : BufTy).Contents (Elt F) → (⟨S8192x256, .f32⟩ : BufTy).Contents (Elt F)),
    binary main_v1143 main_v1142 main_v1144 (addf : (⟨S8192x256, .f32⟩ : BufTy).Contents (Elt F) → (⟨S8192x256, .f32⟩ : BufTy).Contents (Elt F) → (⟨S8192x256, .f32⟩ : BufTy).Contents (Elt F)),
    nullary main_cst_143 (constant S_ .f32 0x3F800000#32),
    unary main_cst_143 main_v1145 (broadcastInDim S8192x256 ![] bcast_S_S8192x256 : (⟨S_, .f32⟩ : BufTy).Contents (Elt F) → (⟨S8192x256, .f32⟩ : BufTy).Contents (Elt F)),
    binary main_v1145 main_v1144 main_v1146 (Host.divf : (⟨S8192x256, .f32⟩ : BufTy).Contents (Elt F) → (⟨S8192x256, .f32⟩ : BufTy).Contents (Elt F) → (⟨S8192x256, .f32⟩ : BufTy).Contents (Elt F)),
    binary main_v1135 main_v1138 main_v1147 (addf : (⟨S8192x256, .f32⟩ : BufTy).Contents (Elt F) → (⟨S8192x256, .f32⟩ : BufTy).Contents (Elt F) → (⟨S8192x256, .f32⟩ : BufTy).Contents (Elt F)),
    unary main_v1147 main_v1148 (Host.negf : (⟨S8192x256, .f32⟩ : BufTy).Contents (Elt F) → (⟨S8192x256, .f32⟩ : BufTy).Contents (Elt F)),
    unary main_v1148 main_v1149 (Host.exp : (⟨S8192x256, .f32⟩ : BufTy).Contents (Elt F) → (⟨S8192x256, .f32⟩ : BufTy).Contents (Elt F)),
    nullary main_cst_144 (constant S_ .f32 0x3F800000#32),
    unary main_cst_144 main_v1150 (broadcastInDim S8192x256 ![] bcast_S_S8192x256 : (⟨S_, .f32⟩ : BufTy).Contents (Elt F) → (⟨S8192x256, .f32⟩ : BufTy).Contents (Elt F)),
    binary main_v1150 main_v1149 main_v1151 (addf : (⟨S8192x256, .f32⟩ : BufTy).Contents (Elt F) → (⟨S8192x256, .f32⟩ : BufTy).Contents (Elt F) → (⟨S8192x256, .f32⟩ : BufTy).Contents (Elt F)),
    nullary main_cst_145 (constant S_ .f32 0x3F800000#32),
    unary main_cst_145 main_v1152 (broadcastInDim S8192x256 ![] bcast_S_S8192x256 : (⟨S_, .f32⟩ : BufTy).Contents (Elt F) → (⟨S8192x256, .f32⟩ : BufTy).Contents (Elt F)),
    binary main_v1152 main_v1151 main_v1153 (Host.divf : (⟨S8192x256, .f32⟩ : BufTy).Contents (Elt F) → (⟨S8192x256, .f32⟩ : BufTy).Contents (Elt F) → (⟨S8192x256, .f32⟩ : BufTy).Contents (Elt F)),
    binary main_v1146 main_v1139 main_v1154 (mulf : (⟨S8192x256, .f32⟩ : BufTy).Contents (Elt F) → (⟨S8192x256, .f32⟩ : BufTy).Contents (Elt F) → (⟨S8192x256, .f32⟩ : BufTy).Contents (Elt F)),
    binary main_v1136 main_v1154 main_v1155 (addf : (⟨S8192x256, .f32⟩ : BufTy).Contents (Elt F) → (⟨S8192x256, .f32⟩ : BufTy).Contents (Elt F) → (⟨S8192x256, .f32⟩ : BufTy).Contents (Elt F)),
    unary main_v1155 main_v1156 (Host.tanh : (⟨S8192x256, .f32⟩ : BufTy).Contents (Elt F) → (⟨S8192x256, .f32⟩ : BufTy).Contents (Elt F)),
    nullary main_cst_146 (constant S_ .f32 0x3F800000#32),
    unary main_cst_146 main_v1157 (broadcastInDim S8192x256 ![] bcast_S_S8192x256 : (⟨S_, .f32⟩ : BufTy).Contents (Elt F) → (⟨S8192x256, .f32⟩ : BufTy).Contents (Elt F)),
    binary main_v1157 main_v1153 main_v1158 (subf : (⟨S8192x256, .f32⟩ : BufTy).Contents (Elt F) → (⟨S8192x256, .f32⟩ : BufTy).Contents (Elt F) → (⟨S8192x256, .f32⟩ : BufTy).Contents (Elt F)),
    binary main_v1158 main_v1156 main_v1159 (mulf : (⟨S8192x256, .f32⟩ : BufTy).Contents (Elt F) → (⟨S8192x256, .f32⟩ : BufTy).Contents (Elt F) → (⟨S8192x256, .f32⟩ : BufTy).Contents (Elt F)),
    binary main_v1153 main_v1041 main_v1160 (mulf : (⟨S8192x256, .f32⟩ : BufTy).Contents (Elt F) → (⟨S8192x256, .f32⟩ : BufTy).Contents (Elt F) → (⟨S8192x256, .f32⟩ : BufTy).Contents (Elt F)),
    binary main_v1159 main_v1160 main_v1161 (addf : (⟨S8192x256, .f32⟩ : BufTy).Contents (Elt F) → (⟨S8192x256, .f32⟩ : BufTy).Contents (Elt F) → (⟨S8192x256, .f32⟩ : BufTy).Contents (Elt F)),
    unary main_arg10 main_v1162 ((transpose S256x768 [1, 0] · transposes_S768x256_S256x768_1_0) : (⟨S768x256, .f32⟩ : BufTy).Contents (Elt F) → (⟨S256x768, .f32⟩ : BufTy).Contents (Elt F)),
    binary main_v1161 main_v1162 main_v1163 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v1164 (broadcastInDim S1x768 ![1] bcast_S768_S1x768_1 : (⟨S768, .f32⟩ : BufTy).Contents (Elt F) → (⟨S1x768, .f32⟩ : BufTy).Contents (Elt F)),
    unary main_v1164 main_v1165 (broadcastInDim S8192x768 ![0, 1] bcast_S1x768_S8192x768_0_1 : (⟨S1x768, .f32⟩ : BufTy).Contents (Elt F) → (⟨S8192x768, .f32⟩ : BufTy).Contents (Elt F)),
    binary main_v1163 main_v1165 main_v1166 (addf : (⟨S8192x768, .f32⟩ : BufTy).Contents (Elt F) → (⟨S8192x768, .f32⟩ : BufTy).Contents (Elt F) → (⟨S8192x768, .f32⟩ : BufTy).Contents (Elt F)),
    unary main_arg11 main_v1167 ((transpose S256x768 [1, 0] · transposes_S768x256_S256x768_1_0) : (⟨S768x256, .f32⟩ : BufTy).Contents (Elt F) → (⟨S256x768, .f32⟩ : BufTy).Contents (Elt F)),
    binary main_v1079 main_v1167 main_v1168 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v1169 (broadcastInDim S1x768 ![1] bcast_S768_S1x768_1 : (⟨S768, .f32⟩ : BufTy).Contents (Elt F) → (⟨S1x768, .f32⟩ : BufTy).Contents (Elt F)),
    unary main_v1169 main_v1170 (broadcastInDim S8192x768 ![0, 1] bcast_S1x768_S8192x768_0_1 : (⟨S1x768, .f32⟩ : BufTy).Contents (Elt F) → (⟨S8192x768, .f32⟩ : BufTy).Contents (Elt F)),
    binary main_v1168 main_v1170 main_v1171 (addf : (⟨S8192x768, .f32⟩ : BufTy).Contents (Elt F) → (⟨S8192x768, .f32⟩ : BufTy).Contents (Elt F) → (⟨S8192x768, .f32⟩ : BufTy).Contents (Elt F)),
    unary main_v1166 main_v1172 ((extractStridedSlice S8192x256 ![0, 0] · slices_S8192x768_S8192x256_0_0) : (⟨S8192x768, .f32⟩ : BufTy).Contents (Elt F) → (⟨S8192x256, .f32⟩ : BufTy).Contents (Elt F)),
    unary main_v1166 main_v1173 ((extractStridedSlice S8192x256 ![0, 256] · slices_S8192x768_S8192x256_0_256) : (⟨S8192x768, .f32⟩ : BufTy).Contents (Elt F) → (⟨S8192x256, .f32⟩ : BufTy).Contents (Elt F)),
    unary main_v1166 main_v1174 ((extractStridedSlice S8192x256 ![0, 512] · slices_S8192x768_S8192x256_0_512) : (⟨S8192x768, .f32⟩ : BufTy).Contents (Elt F) → (⟨S8192x256, .f32⟩ : BufTy).Contents (Elt F)),
    unary main_v1171 main_v1175 ((extractStridedSlice S8192x256 ![0, 0] · slices_S8192x768_S8192x256_0_0) : (⟨S8192x768, .f32⟩ : BufTy).Contents (Elt F) → (⟨S8192x256, .f32⟩ : BufTy).Contents (Elt F)),
    unary main_v1171 main_v1176 ((extractStridedSlice S8192x256 ![0, 256] · slices_S8192x768_S8192x256_0_256) : (⟨S8192x768, .f32⟩ : BufTy).Contents (Elt F) → (⟨S8192x256, .f32⟩ : BufTy).Contents (Elt F)),
    unary main_v1171 main_v1177 ((extractStridedSlice S8192x256 ![0, 512] · slices_S8192x768_S8192x256_0_512) : (⟨S8192x768, .f32⟩ : BufTy).Contents (Elt F) → (⟨S8192x256, .f32⟩ : BufTy).Contents (Elt F)),
    binary main_v1172 main_v1175 main_v1178 (addf : (⟨S8192x256, .f32⟩ : BufTy).Contents (Elt F) → (⟨S8192x256, .f32⟩ : BufTy).Contents (Elt F) → (⟨S8192x256, .f32⟩ : BufTy).Contents (Elt F)),
    unary main_v1178 main_v1179 (Host.negf : (⟨S8192x256, .f32⟩ : BufTy).Contents (Elt F) → (⟨S8192x256, .f32⟩ : BufTy).Contents (Elt F)),
    unary main_v1179 main_v1180 (Host.exp : (⟨S8192x256, .f32⟩ : BufTy).Contents (Elt F) → (⟨S8192x256, .f32⟩ : BufTy).Contents (Elt F)),
    nullary main_cst_147 (constant S_ .f32 0x3F800000#32),
    unary main_cst_147 main_v1181 (broadcastInDim S8192x256 ![] bcast_S_S8192x256 : (⟨S_, .f32⟩ : BufTy).Contents (Elt F) → (⟨S8192x256, .f32⟩ : BufTy).Contents (Elt F)),
    binary main_v1181 main_v1180 main_v1182 (addf : (⟨S8192x256, .f32⟩ : BufTy).Contents (Elt F) → (⟨S8192x256, .f32⟩ : BufTy).Contents (Elt F) → (⟨S8192x256, .f32⟩ : BufTy).Contents (Elt F)),
    nullary main_cst_148 (constant S_ .f32 0x3F800000#32),
    unary main_cst_148 main_v1183 (broadcastInDim S8192x256 ![] bcast_S_S8192x256 : (⟨S_, .f32⟩ : BufTy).Contents (Elt F) → (⟨S8192x256, .f32⟩ : BufTy).Contents (Elt F)),
    binary main_v1183 main_v1182 main_v1184 (Host.divf : (⟨S8192x256, .f32⟩ : BufTy).Contents (Elt F) → (⟨S8192x256, .f32⟩ : BufTy).Contents (Elt F) → (⟨S8192x256, .f32⟩ : BufTy).Contents (Elt F)),
    binary main_v1173 main_v1176 main_v1185 (addf : (⟨S8192x256, .f32⟩ : BufTy).Contents (Elt F) → (⟨S8192x256, .f32⟩ : BufTy).Contents (Elt F) → (⟨S8192x256, .f32⟩ : BufTy).Contents (Elt F)),
    unary main_v1185 main_v1186 (Host.negf : (⟨S8192x256, .f32⟩ : BufTy).Contents (Elt F) → (⟨S8192x256, .f32⟩ : BufTy).Contents (Elt F)),
    unary main_v1186 main_v1187 (Host.exp : (⟨S8192x256, .f32⟩ : BufTy).Contents (Elt F) → (⟨S8192x256, .f32⟩ : BufTy).Contents (Elt F)),
    nullary main_cst_149 (constant S_ .f32 0x3F800000#32),
    unary main_cst_149 main_v1188 (broadcastInDim S8192x256 ![] bcast_S_S8192x256 : (⟨S_, .f32⟩ : BufTy).Contents (Elt F) → (⟨S8192x256, .f32⟩ : BufTy).Contents (Elt F)),
    binary main_v1188 main_v1187 main_v1189 (addf : (⟨S8192x256, .f32⟩ : BufTy).Contents (Elt F) → (⟨S8192x256, .f32⟩ : BufTy).Contents (Elt F) → (⟨S8192x256, .f32⟩ : BufTy).Contents (Elt F)),
    nullary main_cst_150 (constant S_ .f32 0x3F800000#32),
    unary main_cst_150 main_v1190 (broadcastInDim S8192x256 ![] bcast_S_S8192x256 : (⟨S_, .f32⟩ : BufTy).Contents (Elt F) → (⟨S8192x256, .f32⟩ : BufTy).Contents (Elt F)),
    binary main_v1190 main_v1189 main_v1191 (Host.divf : (⟨S8192x256, .f32⟩ : BufTy).Contents (Elt F) → (⟨S8192x256, .f32⟩ : BufTy).Contents (Elt F) → (⟨S8192x256, .f32⟩ : BufTy).Contents (Elt F)),
    binary main_v1184 main_v1177 main_v1192 (mulf : (⟨S8192x256, .f32⟩ : BufTy).Contents (Elt F) → (⟨S8192x256, .f32⟩ : BufTy).Contents (Elt F) → (⟨S8192x256, .f32⟩ : BufTy).Contents (Elt F)),
    binary main_v1174 main_v1192 main_v1193 (addf : (⟨S8192x256, .f32⟩ : BufTy).Contents (Elt F) → (⟨S8192x256, .f32⟩ : BufTy).Contents (Elt F) → (⟨S8192x256, .f32⟩ : BufTy).Contents (Elt F)),
    unary main_v1193 main_v1194 (Host.tanh : (⟨S8192x256, .f32⟩ : BufTy).Contents (Elt F) → (⟨S8192x256, .f32⟩ : BufTy).Contents (Elt F)),
    nullary main_cst_151 (constant S_ .f32 0x3F800000#32),
    unary main_cst_151 main_v1195 (broadcastInDim S8192x256 ![] bcast_S_S8192x256 : (⟨S_, .f32⟩ : BufTy).Contents (Elt F) → (⟨S8192x256, .f32⟩ : BufTy).Contents (Elt F)),
    binary main_v1195 main_v1191 main_v1196 (subf : (⟨S8192x256, .f32⟩ : BufTy).Contents (Elt F) → (⟨S8192x256, .f32⟩ : BufTy).Contents (Elt F) → (⟨S8192x256, .f32⟩ : BufTy).Contents (Elt F)),
    binary main_v1196 main_v1194 main_v1197 (mulf : (⟨S8192x256, .f32⟩ : BufTy).Contents (Elt F) → (⟨S8192x256, .f32⟩ : BufTy).Contents (Elt F) → (⟨S8192x256, .f32⟩ : BufTy).Contents (Elt F)),
    binary main_v1191 main_v1079 main_v1198 (mulf : (⟨S8192x256, .f32⟩ : BufTy).Contents (Elt F) → (⟨S8192x256, .f32⟩ : BufTy).Contents (Elt F) → (⟨S8192x256, .f32⟩ : BufTy).Contents (Elt F)),
    binary main_v1197 main_v1198 main_v1199 (addf : (⟨S8192x256, .f32⟩ : BufTy).Contents (Elt F) → (⟨S8192x256, .f32⟩ : BufTy).Contents (Elt F) → (⟨S8192x256, .f32⟩ : BufTy).Contents (Elt F)),
    unary main_arg14 main_v1200 ((transpose S256x2 [1, 0] · transposes_S2x256_S256x2_1_0) : (⟨S2x256, .f32⟩ : BufTy).Contents (Elt F) → (⟨S256x2, .f32⟩ : BufTy).Contents (Elt F)),
    binary main_v1199 main_v1200 main_v1201 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v1202 (broadcastInDim S1x2 ![1] bcast_S2_S1x2_1 : (⟨S2, .f32⟩ : BufTy).Contents (Elt F) → (⟨S1x2, .f32⟩ : BufTy).Contents (Elt F)),
    unary main_v1202 main_v1203 (broadcastInDim S8192x2 ![0, 1] bcast_S1x2_S8192x2_0_1 : (⟨S1x2, .f32⟩ : BufTy).Contents (Elt F) → (⟨S8192x2, .f32⟩ : BufTy).Contents (Elt F)),
    binary main_v1201 main_v1203 main_v1204 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg9_W : List (Ref sig .tc) := [main_v1085, main_v1086, main_v1087, main_v1088, main_v1089, main_v1090, main_v1091, main_v1092, main_v1093, main_v1094, main_v1095, main_v1096, main_v1097, main_v1098, main_v1099, main_v1100, main_v1101, main_v1102, main_v1103, main_v1104, main_cst_137, main_v1105, main_v1106, main_cst_138, main_v1107, main_v1108, main_v1109, main_v1110, main_v1111, main_cst_139, main_v1112, main_v1113, main_cst_140, main_v1114, main_v1115, main_v1116, main_v1117, main_v1118, main_cst_141, main_v1119, main_v1120, main_v1121, main_v1122, main_v1123, main_v1124, main_v1125, main_v1126, main_v1127, main_v1128, main_v1129, main_v1130, main_v1131, main_v1132, main_v1133, main_v1134, main_v1135, main_v1136, main_v1137, main_v1138, main_v1139, main_v1140, main_v1141, main_v1142, main_cst_142, main_v1143, main_v1144, main_cst_143, main_v1145, main_v1146, main_v1147, main_v1148, main_v1149, main_cst_144, main_v1150, main_v1151, main_cst_145, main_v1152, main_v1153, main_v1154, main_v1155, main_v1156, main_cst_146, main_v1157, main_v1158, main_v1159, main_v1160, main_v1161, main_v1162, main_v1163, main_v1164, main_v1165, main_v1166, main_v1167, main_v1168, main_v1169, main_v1170, main_v1171, main_v1172, main_v1173, main_v1174, main_v1175, main_v1176, main_v1177, main_v1178, main_v1179, main_v1180, main_cst_147, main_v1181, main_v1182, main_cst_148, main_v1183, main_v1184, main_v1185, main_v1186, main_v1187, main_cst_149, main_v1188, main_v1189, main_cst_150, main_v1190, main_v1191, main_v1192, main_v1193, main_v1194, main_cst_151, main_v1195, main_v1196, main_v1197, main_v1198, main_v1199, main_v1200, main_v1201, main_v1202, main_v1203, main_v1204]
set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg9_keep (V : Valuation τ sig (Elt F)) (r : Ref sig .tc) (h : r ∉ seg9_W) :
    after seg9 V (Proc.devRef .tc r) = V (Proc.devRef .tc r) :=
  after_of_writes_sub seg9 _ seg9_writes h

/-- @main's operations 1359 to 1493. -/
abbrev seg10 : List (HloOp τ sig (Elt F)) :=
  [ binary main_arg0 main_v1204 main_v1205 (fn_main_v1205 (F := F)),
    unary main_arg2 main_v1206 ((transpose S514x768 [1, 0] · transposes_S768x514_S514x768_1_0) : (⟨S768x514, .f32⟩ : BufTy).Contents (Elt F) → (⟨S514x768, .f32⟩ : BufTy).Contents (Elt F)),
    binary main_v1205 main_v1206 main_v1207 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v1208 (broadcastInDim S1x768 ![1] bcast_S768_S1x768_1 : (⟨S768, .f32⟩ : BufTy).Contents (Elt F) → (⟨S1x768, .f32⟩ : BufTy).Contents (Elt F)),
    unary main_v1208 main_v1209 (broadcastInDim S8192x768 ![0, 1] bcast_S1x768_S8192x768_0_1 : (⟨S1x768, .f32⟩ : BufTy).Contents (Elt F) → (⟨S8192x768, .f32⟩ : BufTy).Contents (Elt F)),
    binary main_v1207 main_v1209 main_v1210 (addf : (⟨S8192x768, .f32⟩ : BufTy).Contents (Elt F) → (⟨S8192x768, .f32⟩ : BufTy).Contents (Elt F) → (⟨S8192x768, .f32⟩ : BufTy).Contents (Elt F)),
    unary main_arg3 main_v1211 ((transpose S256x768 [1, 0] · transposes_S768x256_S256x768_1_0) : (⟨S768x256, .f32⟩ : BufTy).Contents (Elt F) → (⟨S256x768, .f32⟩ : BufTy).Contents (Elt F)),
    binary main_v1123 main_v1211 main_v1212 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v1213 (broadcastInDim S1x768 ![1] bcast_S768_S1x768_1 : (⟨S768, .f32⟩ : BufTy).Contents (Elt F) → (⟨S1x768, .f32⟩ : BufTy).Contents (Elt F)),
    unary main_v1213 main_v1214 (broadcastInDim S8192x768 ![0, 1] bcast_S1x768_S8192x768_0_1 : (⟨S1x768, .f32⟩ : BufTy).Contents (Elt F) → (⟨S8192x768, .f32⟩ : BufTy).Contents (Elt F)),
    binary main_v1212 main_v1214 main_v1215 (addf : (⟨S8192x768, .f32⟩ : BufTy).Contents (Elt F) → (⟨S8192x768, .f32⟩ : BufTy).Contents (Elt F) → (⟨S8192x768, .f32⟩ : BufTy).Contents (Elt F)),
    unary main_v1210 main_v1216 ((extractStridedSlice S8192x256 ![0, 0] · slices_S8192x768_S8192x256_0_0) : (⟨S8192x768, .f32⟩ : BufTy).Contents (Elt F) → (⟨S8192x256, .f32⟩ : BufTy).Contents (Elt F)),
    unary main_v1210 main_v1217 ((extractStridedSlice S8192x256 ![0, 256] · slices_S8192x768_S8192x256_0_256) : (⟨S8192x768, .f32⟩ : BufTy).Contents (Elt F) → (⟨S8192x256, .f32⟩ : BufTy).Contents (Elt F)),
    unary main_v1210 main_v1218 ((extractStridedSlice S8192x256 ![0, 512] · slices_S8192x768_S8192x256_0_512) : (⟨S8192x768, .f32⟩ : BufTy).Contents (Elt F) → (⟨S8192x256, .f32⟩ : BufTy).Contents (Elt F)),
    unary main_v1215 main_v1219 ((extractStridedSlice S8192x256 ![0, 0] · slices_S8192x768_S8192x256_0_0) : (⟨S8192x768, .f32⟩ : BufTy).Contents (Elt F) → (⟨S8192x256, .f32⟩ : BufTy).Contents (Elt F)),
    unary main_v1215 main_v1220 ((extractStridedSlice S8192x256 ![0, 256] · slices_S8192x768_S8192x256_0_256) : (⟨S8192x768, .f32⟩ : BufTy).Contents (Elt F) → (⟨S8192x256, .f32⟩ : BufTy).Contents (Elt F)),
    unary main_v1215 main_v1221 ((extractStridedSlice S8192x256 ![0, 512] · slices_S8192x768_S8192x256_0_512) : (⟨S8192x768, .f32⟩ : BufTy).Contents (Elt F) → (⟨S8192x256, .f32⟩ : BufTy).Contents (Elt F)),
    binary main_v1216 main_v1219 main_v1222 (addf : (⟨S8192x256, .f32⟩ : BufTy).Contents (Elt F) → (⟨S8192x256, .f32⟩ : BufTy).Contents (Elt F) → (⟨S8192x256, .f32⟩ : BufTy).Contents (Elt F)),
    unary main_v1222 main_v1223 (Host.negf : (⟨S8192x256, .f32⟩ : BufTy).Contents (Elt F) → (⟨S8192x256, .f32⟩ : BufTy).Contents (Elt F)),
    unary main_v1223 main_v1224 (Host.exp : (⟨S8192x256, .f32⟩ : BufTy).Contents (Elt F) → (⟨S8192x256, .f32⟩ : BufTy).Contents (Elt F)),
    nullary main_cst_152 (constant S_ .f32 0x3F800000#32),
    unary main_cst_152 main_v1225 (broadcastInDim S8192x256 ![] bcast_S_S8192x256 : (⟨S_, .f32⟩ : BufTy).Contents (Elt F) → (⟨S8192x256, .f32⟩ : BufTy).Contents (Elt F)),
    binary main_v1225 main_v1224 main_v1226 (addf : (⟨S8192x256, .f32⟩ : BufTy).Contents (Elt F) → (⟨S8192x256, .f32⟩ : BufTy).Contents (Elt F) → (⟨S8192x256, .f32⟩ : BufTy).Contents (Elt F)),
    nullary main_cst_153 (constant S_ .f32 0x3F800000#32),
    unary main_cst_153 main_v1227 (broadcastInDim S8192x256 ![] bcast_S_S8192x256 : (⟨S_, .f32⟩ : BufTy).Contents (Elt F) → (⟨S8192x256, .f32⟩ : BufTy).Contents (Elt F)),
    binary main_v1227 main_v1226 main_v1228 (Host.divf : (⟨S8192x256, .f32⟩ : BufTy).Contents (Elt F) → (⟨S8192x256, .f32⟩ : BufTy).Contents (Elt F) → (⟨S8192x256, .f32⟩ : BufTy).Contents (Elt F)),
    binary main_v1217 main_v1220 main_v1229 (addf : (⟨S8192x256, .f32⟩ : BufTy).Contents (Elt F) → (⟨S8192x256, .f32⟩ : BufTy).Contents (Elt F) → (⟨S8192x256, .f32⟩ : BufTy).Contents (Elt F)),
    unary main_v1229 main_v1230 (Host.negf : (⟨S8192x256, .f32⟩ : BufTy).Contents (Elt F) → (⟨S8192x256, .f32⟩ : BufTy).Contents (Elt F)),
    unary main_v1230 main_v1231 (Host.exp : (⟨S8192x256, .f32⟩ : BufTy).Contents (Elt F) → (⟨S8192x256, .f32⟩ : BufTy).Contents (Elt F)),
    nullary main_cst_154 (constant S_ .f32 0x3F800000#32),
    unary main_cst_154 main_v1232 (broadcastInDim S8192x256 ![] bcast_S_S8192x256 : (⟨S_, .f32⟩ : BufTy).Contents (Elt F) → (⟨S8192x256, .f32⟩ : BufTy).Contents (Elt F)),
    binary main_v1232 main_v1231 main_v1233 (addf : (⟨S8192x256, .f32⟩ : BufTy).Contents (Elt F) → (⟨S8192x256, .f32⟩ : BufTy).Contents (Elt F) → (⟨S8192x256, .f32⟩ : BufTy).Contents (Elt F)),
    nullary main_cst_155 (constant S_ .f32 0x3F800000#32),
    unary main_cst_155 main_v1234 (broadcastInDim S8192x256 ![] bcast_S_S8192x256 : (⟨S_, .f32⟩ : BufTy).Contents (Elt F) → (⟨S8192x256, .f32⟩ : BufTy).Contents (Elt F)),
    binary main_v1234 main_v1233 main_v1235 (Host.divf : (⟨S8192x256, .f32⟩ : BufTy).Contents (Elt F) → (⟨S8192x256, .f32⟩ : BufTy).Contents (Elt F) → (⟨S8192x256, .f32⟩ : BufTy).Contents (Elt F)),
    binary main_v1228 main_v1221 main_v1236 (mulf : (⟨S8192x256, .f32⟩ : BufTy).Contents (Elt F) → (⟨S8192x256, .f32⟩ : BufTy).Contents (Elt F) → (⟨S8192x256, .f32⟩ : BufTy).Contents (Elt F)),
    binary main_v1218 main_v1236 main_v1237 (addf : (⟨S8192x256, .f32⟩ : BufTy).Contents (Elt F) → (⟨S8192x256, .f32⟩ : BufTy).Contents (Elt F) → (⟨S8192x256, .f32⟩ : BufTy).Contents (Elt F)),
    unary main_v1237 main_v1238 (Host.tanh : (⟨S8192x256, .f32⟩ : BufTy).Contents (Elt F) → (⟨S8192x256, .f32⟩ : BufTy).Contents (Elt F)),
    nullary main_cst_156 (constant S_ .f32 0x3F800000#32),
    unary main_cst_156 main_v1239 (broadcastInDim S8192x256 ![] bcast_S_S8192x256 : (⟨S_, .f32⟩ : BufTy).Contents (Elt F) → (⟨S8192x256, .f32⟩ : BufTy).Contents (Elt F)),
    binary main_v1239 main_v1235 main_v1240 (subf : (⟨S8192x256, .f32⟩ : BufTy).Contents (Elt F) → (⟨S8192x256, .f32⟩ : BufTy).Contents (Elt F) → (⟨S8192x256, .f32⟩ : BufTy).Contents (Elt F)),
    binary main_v1240 main_v1238 main_v1241 (mulf : (⟨S8192x256, .f32⟩ : BufTy).Contents (Elt F) → (⟨S8192x256, .f32⟩ : BufTy).Contents (Elt F) → (⟨S8192x256, .f32⟩ : BufTy).Contents (Elt F)),
    binary main_v1235 main_v1123 main_v1242 (mulf : (⟨S8192x256, .f32⟩ : BufTy).Contents (Elt F) → (⟨S8192x256, .f32⟩ : BufTy).Contents (Elt F) → (⟨S8192x256, .f32⟩ : BufTy).Contents (Elt F)),
    binary main_v1241 main_v1242 main_v1243 (addf : (⟨S8192x256, .f32⟩ : BufTy).Contents (Elt F) → (⟨S8192x256, .f32⟩ : BufTy).Contents (Elt F) → (⟨S8192x256, .f32⟩ : BufTy).Contents (Elt F)),
    unary main_arg6 main_v1244 ((transpose S256x768 [1, 0] · transposes_S768x256_S256x768_1_0) : (⟨S768x256, .f32⟩ : BufTy).Contents (Elt F) → (⟨S256x768, .f32⟩ : BufTy).Contents (Elt F)),
    binary main_v1243 main_v1244 main_v1245 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v1246 (broadcastInDim S1x768 ![1] bcast_S768_S1x768_1 : (⟨S768, .f32⟩ : BufTy).Contents (Elt F) → (⟨S1x768, .f32⟩ : BufTy).Contents (Elt F)),
    unary main_v1246 main_v1247 (broadcastInDim S8192x768 ![0, 1] bcast_S1x768_S8192x768_0_1 : (⟨S1x768, .f32⟩ : BufTy).Contents (Elt F) → (⟨S8192x768, .f32⟩ : BufTy).Contents (Elt F)),
    binary main_v1245 main_v1247 main_v1248 (addf : (⟨S8192x768, .f32⟩ : BufTy).Contents (Elt F) → (⟨S8192x768, .f32⟩ : BufTy).Contents (Elt F) → (⟨S8192x768, .f32⟩ : BufTy).Contents (Elt F)),
    unary main_arg7 main_v1249 ((transpose S256x768 [1, 0] · transposes_S768x256_S256x768_1_0) : (⟨S768x256, .f32⟩ : BufTy).Contents (Elt F) → (⟨S256x768, .f32⟩ : BufTy).Contents (Elt F)),
    binary main_v1161 main_v1249 main_v1250 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v1251 (broadcastInDim S1x768 ![1] bcast_S768_S1x768_1 : (⟨S768, .f32⟩ : BufTy).Contents (Elt F) → (⟨S1x768, .f32⟩ : BufTy).Contents (Elt F)),
    unary main_v1251 main_v1252 (broadcastInDim S8192x768 ![0, 1] bcast_S1x768_S8192x768_0_1 : (⟨S1x768, .f32⟩ : BufTy).Contents (Elt F) → (⟨S8192x768, .f32⟩ : BufTy).Contents (Elt F)),
    binary main_v1250 main_v1252 main_v1253 (addf : (⟨S8192x768, .f32⟩ : BufTy).Contents (Elt F) → (⟨S8192x768, .f32⟩ : BufTy).Contents (Elt F) → (⟨S8192x768, .f32⟩ : BufTy).Contents (Elt F)),
    unary main_v1248 main_v1254 ((extractStridedSlice S8192x256 ![0, 0] · slices_S8192x768_S8192x256_0_0) : (⟨S8192x768, .f32⟩ : BufTy).Contents (Elt F) → (⟨S8192x256, .f32⟩ : BufTy).Contents (Elt F)),
    unary main_v1248 main_v1255 ((extractStridedSlice S8192x256 ![0, 256] · slices_S8192x768_S8192x256_0_256) : (⟨S8192x768, .f32⟩ : BufTy).Contents (Elt F) → (⟨S8192x256, .f32⟩ : BufTy).Contents (Elt F)),
    unary main_v1248 main_v1256 ((extractStridedSlice S8192x256 ![0, 512] · slices_S8192x768_S8192x256_0_512) : (⟨S8192x768, .f32⟩ : BufTy).Contents (Elt F) → (⟨S8192x256, .f32⟩ : BufTy).Contents (Elt F)),
    unary main_v1253 main_v1257 ((extractStridedSlice S8192x256 ![0, 0] · slices_S8192x768_S8192x256_0_0) : (⟨S8192x768, .f32⟩ : BufTy).Contents (Elt F) → (⟨S8192x256, .f32⟩ : BufTy).Contents (Elt F)),
    unary main_v1253 main_v1258 ((extractStridedSlice S8192x256 ![0, 256] · slices_S8192x768_S8192x256_0_256) : (⟨S8192x768, .f32⟩ : BufTy).Contents (Elt F) → (⟨S8192x256, .f32⟩ : BufTy).Contents (Elt F)),
    unary main_v1253 main_v1259 ((extractStridedSlice S8192x256 ![0, 512] · slices_S8192x768_S8192x256_0_512) : (⟨S8192x768, .f32⟩ : BufTy).Contents (Elt F) → (⟨S8192x256, .f32⟩ : BufTy).Contents (Elt F)),
    binary main_v1254 main_v1257 main_v1260 (addf : (⟨S8192x256, .f32⟩ : BufTy).Contents (Elt F) → (⟨S8192x256, .f32⟩ : BufTy).Contents (Elt F) → (⟨S8192x256, .f32⟩ : BufTy).Contents (Elt F)),
    unary main_v1260 main_v1261 (Host.negf : (⟨S8192x256, .f32⟩ : BufTy).Contents (Elt F) → (⟨S8192x256, .f32⟩ : BufTy).Contents (Elt F)),
    unary main_v1261 main_v1262 (Host.exp : (⟨S8192x256, .f32⟩ : BufTy).Contents (Elt F) → (⟨S8192x256, .f32⟩ : BufTy).Contents (Elt F)),
    nullary main_cst_157 (constant S_ .f32 0x3F800000#32),
    unary main_cst_157 main_v1263 (broadcastInDim S8192x256 ![] bcast_S_S8192x256 : (⟨S_, .f32⟩ : BufTy).Contents (Elt F) → (⟨S8192x256, .f32⟩ : BufTy).Contents (Elt F)),
    binary main_v1263 main_v1262 main_v1264 (addf : (⟨S8192x256, .f32⟩ : BufTy).Contents (Elt F) → (⟨S8192x256, .f32⟩ : BufTy).Contents (Elt F) → (⟨S8192x256, .f32⟩ : BufTy).Contents (Elt F)),
    nullary main_cst_158 (constant S_ .f32 0x3F800000#32),
    unary main_cst_158 main_v1265 (broadcastInDim S8192x256 ![] bcast_S_S8192x256 : (⟨S_, .f32⟩ : BufTy).Contents (Elt F) → (⟨S8192x256, .f32⟩ : BufTy).Contents (Elt F)),
    binary main_v1265 main_v1264 main_v1266 (Host.divf : (⟨S8192x256, .f32⟩ : BufTy).Contents (Elt F) → (⟨S8192x256, .f32⟩ : BufTy).Contents (Elt F) → (⟨S8192x256, .f32⟩ : BufTy).Contents (Elt F)),
    binary main_v1255 main_v1258 main_v1267 (addf : (⟨S8192x256, .f32⟩ : BufTy).Contents (Elt F) → (⟨S8192x256, .f32⟩ : BufTy).Contents (Elt F) → (⟨S8192x256, .f32⟩ : BufTy).Contents (Elt F)),
    unary main_v1267 main_v1268 (Host.negf : (⟨S8192x256, .f32⟩ : BufTy).Contents (Elt F) → (⟨S8192x256, .f32⟩ : BufTy).Contents (Elt F)),
    unary main_v1268 main_v1269 (Host.exp : (⟨S8192x256, .f32⟩ : BufTy).Contents (Elt F) → (⟨S8192x256, .f32⟩ : BufTy).Contents (Elt F)),
    nullary main_cst_159 (constant S_ .f32 0x3F800000#32),
    unary main_cst_159 main_v1270 (broadcastInDim S8192x256 ![] bcast_S_S8192x256 : (⟨S_, .f32⟩ : BufTy).Contents (Elt F) → (⟨S8192x256, .f32⟩ : BufTy).Contents (Elt F)),
    binary main_v1270 main_v1269 main_v1271 (addf : (⟨S8192x256, .f32⟩ : BufTy).Contents (Elt F) → (⟨S8192x256, .f32⟩ : BufTy).Contents (Elt F) → (⟨S8192x256, .f32⟩ : BufTy).Contents (Elt F)),
    nullary main_cst_160 (constant S_ .f32 0x3F800000#32),
    unary main_cst_160 main_v1272 (broadcastInDim S8192x256 ![] bcast_S_S8192x256 : (⟨S_, .f32⟩ : BufTy).Contents (Elt F) → (⟨S8192x256, .f32⟩ : BufTy).Contents (Elt F)),
    binary main_v1272 main_v1271 main_v1273 (Host.divf : (⟨S8192x256, .f32⟩ : BufTy).Contents (Elt F) → (⟨S8192x256, .f32⟩ : BufTy).Contents (Elt F) → (⟨S8192x256, .f32⟩ : BufTy).Contents (Elt F)),
    binary main_v1266 main_v1259 main_v1274 (mulf : (⟨S8192x256, .f32⟩ : BufTy).Contents (Elt F) → (⟨S8192x256, .f32⟩ : BufTy).Contents (Elt F) → (⟨S8192x256, .f32⟩ : BufTy).Contents (Elt F)),
    binary main_v1256 main_v1274 main_v1275 (addf : (⟨S8192x256, .f32⟩ : BufTy).Contents (Elt F) → (⟨S8192x256, .f32⟩ : BufTy).Contents (Elt F) → (⟨S8192x256, .f32⟩ : BufTy).Contents (Elt F)),
    unary main_v1275 main_v1276 (Host.tanh : (⟨S8192x256, .f32⟩ : BufTy).Contents (Elt F) → (⟨S8192x256, .f32⟩ : BufTy).Contents (Elt F)),
    nullary main_cst_161 (constant S_ .f32 0x3F800000#32),
    unary main_cst_161 main_v1277 (broadcastInDim S8192x256 ![] bcast_S_S8192x256 : (⟨S_, .f32⟩ : BufTy).Contents (Elt F) → (⟨S8192x256, .f32⟩ : BufTy).Contents (Elt F)),
    binary main_v1277 main_v1273 main_v1278 (subf : (⟨S8192x256, .f32⟩ : BufTy).Contents (Elt F) → (⟨S8192x256, .f32⟩ : BufTy).Contents (Elt F) → (⟨S8192x256, .f32⟩ : BufTy).Contents (Elt F)),
    binary main_v1278 main_v1276 main_v1279 (mulf : (⟨S8192x256, .f32⟩ : BufTy).Contents (Elt F) → (⟨S8192x256, .f32⟩ : BufTy).Contents (Elt F) → (⟨S8192x256, .f32⟩ : BufTy).Contents (Elt F)),
    binary main_v1273 main_v1161 main_v1280 (mulf : (⟨S8192x256, .f32⟩ : BufTy).Contents (Elt F) → (⟨S8192x256, .f32⟩ : BufTy).Contents (Elt F) → (⟨S8192x256, .f32⟩ : BufTy).Contents (Elt F)),
    binary main_v1279 main_v1280 main_v1281 (addf : (⟨S8192x256, .f32⟩ : BufTy).Contents (Elt F) → (⟨S8192x256, .f32⟩ : BufTy).Contents (Elt F) → (⟨S8192x256, .f32⟩ : BufTy).Contents (Elt F)),
    unary main_arg10 main_v1282 ((transpose S256x768 [1, 0] · transposes_S768x256_S256x768_1_0) : (⟨S768x256, .f32⟩ : BufTy).Contents (Elt F) → (⟨S256x768, .f32⟩ : BufTy).Contents (Elt F)),
    binary main_v1281 main_v1282 main_v1283 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v1284 (broadcastInDim S1x768 ![1] bcast_S768_S1x768_1 : (⟨S768, .f32⟩ : BufTy).Contents (Elt F) → (⟨S1x768, .f32⟩ : BufTy).Contents (Elt F)),
    unary main_v1284 main_v1285 (broadcastInDim S8192x768 ![0, 1] bcast_S1x768_S8192x768_0_1 : (⟨S1x768, .f32⟩ : BufTy).Contents (Elt F) → (⟨S8192x768, .f32⟩ : BufTy).Contents (Elt F)),
    binary main_v1283 main_v1285 main_v1286 (addf : (⟨S8192x768, .f32⟩ : BufTy).Contents (Elt F) → (⟨S8192x768, .f32⟩ : BufTy).Contents (Elt F) → (⟨S8192x768, .f32⟩ : BufTy).Contents (Elt F)),
    unary main_arg11 main_v1287 ((transpose S256x768 [1, 0] · transposes_S768x256_S256x768_1_0) : (⟨S768x256, .f32⟩ : BufTy).Contents (Elt F) → (⟨S256x768, .f32⟩ : BufTy).Contents (Elt F)),
    binary main_v1199 main_v1287 main_v1288 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v1289 (broadcastInDim S1x768 ![1] bcast_S768_S1x768_1 : (⟨S768, .f32⟩ : BufTy).Contents (Elt F) → (⟨S1x768, .f32⟩ : BufTy).Contents (Elt F)),
    unary main_v1289 main_v1290 (broadcastInDim S8192x768 ![0, 1] bcast_S1x768_S8192x768_0_1 : (⟨S1x768, .f32⟩ : BufTy).Contents (Elt F) → (⟨S8192x768, .f32⟩ : BufTy).Contents (Elt F)),
    binary main_v1288 main_v1290 main_v1291 (addf : (⟨S8192x768, .f32⟩ : BufTy).Contents (Elt F) → (⟨S8192x768, .f32⟩ : BufTy).Contents (Elt F) → (⟨S8192x768, .f32⟩ : BufTy).Contents (Elt F)),
    unary main_v1286 main_v1292 ((extractStridedSlice S8192x256 ![0, 0] · slices_S8192x768_S8192x256_0_0) : (⟨S8192x768, .f32⟩ : BufTy).Contents (Elt F) → (⟨S8192x256, .f32⟩ : BufTy).Contents (Elt F)),
    unary main_v1286 main_v1293 ((extractStridedSlice S8192x256 ![0, 256] · slices_S8192x768_S8192x256_0_256) : (⟨S8192x768, .f32⟩ : BufTy).Contents (Elt F) → (⟨S8192x256, .f32⟩ : BufTy).Contents (Elt F)),
    unary main_v1286 main_v1294 ((extractStridedSlice S8192x256 ![0, 512] · slices_S8192x768_S8192x256_0_512) : (⟨S8192x768, .f32⟩ : BufTy).Contents (Elt F) → (⟨S8192x256, .f32⟩ : BufTy).Contents (Elt F)),
    unary main_v1291 main_v1295 ((extractStridedSlice S8192x256 ![0, 0] · slices_S8192x768_S8192x256_0_0) : (⟨S8192x768, .f32⟩ : BufTy).Contents (Elt F) → (⟨S8192x256, .f32⟩ : BufTy).Contents (Elt F)),
    unary main_v1291 main_v1296 ((extractStridedSlice S8192x256 ![0, 256] · slices_S8192x768_S8192x256_0_256) : (⟨S8192x768, .f32⟩ : BufTy).Contents (Elt F) → (⟨S8192x256, .f32⟩ : BufTy).Contents (Elt F)),
    unary main_v1291 main_v1297 ((extractStridedSlice S8192x256 ![0, 512] · slices_S8192x768_S8192x256_0_512) : (⟨S8192x768, .f32⟩ : BufTy).Contents (Elt F) → (⟨S8192x256, .f32⟩ : BufTy).Contents (Elt F)),
    binary main_v1292 main_v1295 main_v1298 (addf : (⟨S8192x256, .f32⟩ : BufTy).Contents (Elt F) → (⟨S8192x256, .f32⟩ : BufTy).Contents (Elt F) → (⟨S8192x256, .f32⟩ : BufTy).Contents (Elt F)),
    unary main_v1298 main_v1299 (Host.negf : (⟨S8192x256, .f32⟩ : BufTy).Contents (Elt F) → (⟨S8192x256, .f32⟩ : BufTy).Contents (Elt F)),
    unary main_v1299 main_v1300 (Host.exp : (⟨S8192x256, .f32⟩ : BufTy).Contents (Elt F) → (⟨S8192x256, .f32⟩ : BufTy).Contents (Elt F)),
    nullary main_cst_162 (constant S_ .f32 0x3F800000#32),
    unary main_cst_162 main_v1301 (broadcastInDim S8192x256 ![] bcast_S_S8192x256 : (⟨S_, .f32⟩ : BufTy).Contents (Elt F) → (⟨S8192x256, .f32⟩ : BufTy).Contents (Elt F)),
    binary main_v1301 main_v1300 main_v1302 (addf : (⟨S8192x256, .f32⟩ : BufTy).Contents (Elt F) → (⟨S8192x256, .f32⟩ : BufTy).Contents (Elt F) → (⟨S8192x256, .f32⟩ : BufTy).Contents (Elt F)),
    nullary main_cst_163 (constant S_ .f32 0x3F800000#32),
    unary main_cst_163 main_v1303 (broadcastInDim S8192x256 ![] bcast_S_S8192x256 : (⟨S_, .f32⟩ : BufTy).Contents (Elt F) → (⟨S8192x256, .f32⟩ : BufTy).Contents (Elt F)),
    binary main_v1303 main_v1302 main_v1304 (Host.divf : (⟨S8192x256, .f32⟩ : BufTy).Contents (Elt F) → (⟨S8192x256, .f32⟩ : BufTy).Contents (Elt F) → (⟨S8192x256, .f32⟩ : BufTy).Contents (Elt F)),
    binary main_v1293 main_v1296 main_v1305 (addf : (⟨S8192x256, .f32⟩ : BufTy).Contents (Elt F) → (⟨S8192x256, .f32⟩ : BufTy).Contents (Elt F) → (⟨S8192x256, .f32⟩ : BufTy).Contents (Elt F)),
    unary main_v1305 main_v1306 (Host.negf : (⟨S8192x256, .f32⟩ : BufTy).Contents (Elt F) → (⟨S8192x256, .f32⟩ : BufTy).Contents (Elt F)),
    unary main_v1306 main_v1307 (Host.exp : (⟨S8192x256, .f32⟩ : BufTy).Contents (Elt F) → (⟨S8192x256, .f32⟩ : BufTy).Contents (Elt F)),
    nullary main_cst_164 (constant S_ .f32 0x3F800000#32),
    unary main_cst_164 main_v1308 (broadcastInDim S8192x256 ![] bcast_S_S8192x256 : (⟨S_, .f32⟩ : BufTy).Contents (Elt F) → (⟨S8192x256, .f32⟩ : BufTy).Contents (Elt F)),
    binary main_v1308 main_v1307 main_v1309 (addf : (⟨S8192x256, .f32⟩ : BufTy).Contents (Elt F) → (⟨S8192x256, .f32⟩ : BufTy).Contents (Elt F) → (⟨S8192x256, .f32⟩ : BufTy).Contents (Elt F)),
    nullary main_cst_165 (constant S_ .f32 0x3F800000#32),
    unary main_cst_165 main_v1310 (broadcastInDim S8192x256 ![] bcast_S_S8192x256 : (⟨S_, .f32⟩ : BufTy).Contents (Elt F) → (⟨S8192x256, .f32⟩ : BufTy).Contents (Elt F)),
    binary main_v1310 main_v1309 main_v1311 (Host.divf : (⟨S8192x256, .f32⟩ : BufTy).Contents (Elt F) → (⟨S8192x256, .f32⟩ : BufTy).Contents (Elt F) → (⟨S8192x256, .f32⟩ : BufTy).Contents (Elt F)),
    binary main_v1304 main_v1297 main_v1312 (mulf : (⟨S8192x256, .f32⟩ : BufTy).Contents (Elt F) → (⟨S8192x256, .f32⟩ : BufTy).Contents (Elt F) → (⟨S8192x256, .f32⟩ : BufTy).Contents (Elt F)),
    binary main_v1294 main_v1312 main_v1313 (addf : (⟨S8192x256, .f32⟩ : BufTy).Contents (Elt F) → (⟨S8192x256, .f32⟩ : BufTy).Contents (Elt F) → (⟨S8192x256, .f32⟩ : BufTy).Contents (Elt F)),
    unary main_v1313 main_v1314 (Host.tanh : (⟨S8192x256, .f32⟩ : BufTy).Contents (Elt F) → (⟨S8192x256, .f32⟩ : BufTy).Contents (Elt F)),
    nullary main_cst_166 (constant S_ .f32 0x3F800000#32),
    unary main_cst_166 main_v1315 (broadcastInDim S8192x256 ![] bcast_S_S8192x256 : (⟨S_, .f32⟩ : BufTy).Contents (Elt F) → (⟨S8192x256, .f32⟩ : BufTy).Contents (Elt F)),
    binary main_v1315 main_v1311 main_v1316 (subf : (⟨S8192x256, .f32⟩ : BufTy).Contents (Elt F) → (⟨S8192x256, .f32⟩ : BufTy).Contents (Elt F) → (⟨S8192x256, .f32⟩ : BufTy).Contents (Elt F)),
    binary main_v1316 main_v1314 main_v1317 (mulf : (⟨S8192x256, .f32⟩ : BufTy).Contents (Elt F) → (⟨S8192x256, .f32⟩ : BufTy).Contents (Elt F) → (⟨S8192x256, .f32⟩ : BufTy).Contents (Elt F)),
    binary main_v1311 main_v1199 main_v1318 (mulf : (⟨S8192x256, .f32⟩ : BufTy).Contents (Elt F) → (⟨S8192x256, .f32⟩ : BufTy).Contents (Elt F) → (⟨S8192x256, .f32⟩ : BufTy).Contents (Elt F)),
    binary main_v1317 main_v1318 main_v1319 (addf : (⟨S8192x256, .f32⟩ : BufTy).Contents (Elt F) → (⟨S8192x256, .f32⟩ : BufTy).Contents (Elt F) → (⟨S8192x256, .f32⟩ : BufTy).Contents (Elt F)),
    unary main_arg14 main_v1320 ((transpose S256x2 [1, 0] · transposes_S2x256_S256x2_1_0) : (⟨S2x256, .f32⟩ : BufTy).Contents (Elt F) → (⟨S256x2, .f32⟩ : BufTy).Contents (Elt F)),
    binary main_v1319 main_v1320 main_v1321 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v1322 (broadcastInDim S1x2 ![1] bcast_S2_S1x2_1 : (⟨S2, .f32⟩ : BufTy).Contents (Elt F) → (⟨S1x2, .f32⟩ : BufTy).Contents (Elt F)),
    unary main_v1322 main_v1323 (broadcastInDim S8192x2 ![0, 1] bcast_S1x2_S8192x2_0_1 : (⟨S1x2, .f32⟩ : BufTy).Contents (Elt F) → (⟨S8192x2, .f32⟩ : BufTy).Contents (Elt F)),
    binary main_v1321 main_v1323 main_v1324 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg10_W : List (Ref sig .tc) := [main_v1205, main_v1206, main_v1207, main_v1208, main_v1209, main_v1210, main_v1211, main_v1212, main_v1213, main_v1214, main_v1215, main_v1216, main_v1217, main_v1218, main_v1219, main_v1220, main_v1221, main_v1222, main_v1223, main_v1224, main_cst_152, main_v1225, main_v1226, main_cst_153, main_v1227, main_v1228, main_v1229, main_v1230, main_v1231, main_cst_154, main_v1232, main_v1233, main_cst_155, main_v1234, main_v1235, main_v1236, main_v1237, main_v1238, main_cst_156, main_v1239, main_v1240, main_v1241, main_v1242, main_v1243, main_v1244, main_v1245, main_v1246, main_v1247, main_v1248, main_v1249, main_v1250, main_v1251, main_v1252, main_v1253, main_v1254, main_v1255, main_v1256, main_v1257, main_v1258, main_v1259, main_v1260, main_v1261, main_v1262, main_cst_157, main_v1263, main_v1264, main_cst_158, main_v1265, main_v1266, main_v1267, main_v1268, main_v1269, main_cst_159, main_v1270, main_v1271, main_cst_160, main_v1272, main_v1273, main_v1274, main_v1275, main_v1276, main_cst_161, main_v1277, main_v1278, main_v1279, main_v1280, main_v1281, main_v1282, main_v1283, main_v1284, main_v1285, main_v1286, main_v1287, main_v1288, main_v1289, main_v1290, main_v1291, main_v1292, main_v1293, main_v1294, main_v1295, main_v1296, main_v1297, main_v1298, main_v1299, main_v1300, main_cst_162, main_v1301, main_v1302, main_cst_163, main_v1303, main_v1304, main_v1305, main_v1306, main_v1307, main_cst_164, main_v1308, main_v1309, main_cst_165, main_v1310, main_v1311, main_v1312, main_v1313, main_v1314, main_cst_166, main_v1315, main_v1316, main_v1317, main_v1318, main_v1319, main_v1320, main_v1321, main_v1322, main_v1323, main_v1324]
set_option maxRecDepth 8192 in
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg10_keep (V : Valuation τ sig (Elt F)) (r : Ref sig .tc) (h : r ∉ seg10_W) :
    after seg10 V (Proc.devRef .tc r) = V (Proc.devRef .tc r) :=
  after_of_writes_sub seg10 _ seg10_writes h

/-- @main's operations 1494 to 1628. -/
abbrev seg11 : List (HloOp τ sig (Elt F)) :=
  [ binary main_arg0 main_v1324 main_v1325 (fn_main_v1325 (F := F)),
    unary main_arg2 main_v1326 ((transpose S514x768 [1, 0] · transposes_S768x514_S514x768_1_0) : (⟨S768x514, .f32⟩ : BufTy).Contents (Elt F) → (⟨S514x768, .f32⟩ : BufTy).Contents (Elt F)),
    binary main_v1325 main_v1326 main_v1327 ((fun l r => Host.dotGeneral dot_S8192x514_S514x768_S8192x768_1_0_0_1_n_n none l r) : (⟨S8192x514, .f32⟩ : BufTy).Contents (Elt F) → (⟨S514x768, .f32⟩ : BufTy).Contents (Elt F) → (⟨S8192x768, .f32⟩ : BufTy).Contents (Elt F)),
    unary main_arg4 main_v1328 (broadcastInDim S1x768 ![1] bcast_S768_S1x768_1 : (⟨S768, .f32⟩ : BufTy).Contents (Elt F) → (⟨S1x768, .f32⟩ : BufTy).Contents (Elt F)),
    unary main_v1328 main_v1329 (broadcastInDim S8192x768 ![0, 1] bcast_S1x768_S8192x768_0_1 : (⟨S1x768, .f32⟩ : BufTy).Contents (Elt F) → (⟨S8192x768, .f32⟩ : BufTy).Contents (Elt F)),
    binary main_v1327 main_v1329 main_v1330 (addf : (⟨S8192x768, .f32⟩ : BufTy).Contents (Elt F) → (⟨S8192x768, .f32⟩ : BufTy).Contents (Elt F) → (⟨S8192x768, .f32⟩ : BufTy).Contents (Elt F)),
    unary main_arg3 main_v1331 ((transpose S256x768 [1, 0] · transposes_S768x256_S256x768_1_0) : (⟨S768x256, .f32⟩ : BufTy).Contents (Elt F) → (⟨S256x768, .f32⟩ : BufTy).Contents (Elt F)),
    binary main_v1243 main_v1331 main_v1332 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg5 main_v1333 (broadcastInDim S1x768 ![1] bcast_S768_S1x768_1 : (⟨S768, .f32⟩ : BufTy).Contents (Elt F) → (⟨S1x768, .f32⟩ : BufTy).Contents (Elt F)),
    unary main_v1333 main_v1334 (broadcastInDim S8192x768 ![0, 1] bcast_S1x768_S8192x768_0_1 : (⟨S1x768, .f32⟩ : BufTy).Contents (Elt F) → (⟨S8192x768, .f32⟩ : BufTy).Contents (Elt F)),
    binary main_v1332 main_v1334 main_v1335 (addf : (⟨S8192x768, .f32⟩ : BufTy).Contents (Elt F) → (⟨S8192x768, .f32⟩ : BufTy).Contents (Elt F) → (⟨S8192x768, .f32⟩ : BufTy).Contents (Elt F)),
    unary main_v1330 main_v1336 ((extractStridedSlice S8192x256 ![0, 0] · slices_S8192x768_S8192x256_0_0) : (⟨S8192x768, .f32⟩ : BufTy).Contents (Elt F) → (⟨S8192x256, .f32⟩ : BufTy).Contents (Elt F)),
    unary main_v1330 main_v1337 ((extractStridedSlice S8192x256 ![0, 256] · slices_S8192x768_S8192x256_0_256) : (⟨S8192x768, .f32⟩ : BufTy).Contents (Elt F) → (⟨S8192x256, .f32⟩ : BufTy).Contents (Elt F)),
    unary main_v1330 main_v1338 ((extractStridedSlice S8192x256 ![0, 512] · slices_S8192x768_S8192x256_0_512) : (⟨S8192x768, .f32⟩ : BufTy).Contents (Elt F) → (⟨S8192x256, .f32⟩ : BufTy).Contents (Elt F)),
    unary main_v1335 main_v1339 ((extractStridedSlice S8192x256 ![0, 0] · slices_S8192x768_S8192x256_0_0) : (⟨S8192x768, .f32⟩ : BufTy).Contents (Elt F) → (⟨S8192x256, .f32⟩ : BufTy).Contents (Elt F)),
    unary main_v1335 main_v1340 ((extractStridedSlice S8192x256 ![0, 256] · slices_S8192x768_S8192x256_0_256) : (⟨S8192x768, .f32⟩ : BufTy).Contents (Elt F) → (⟨S8192x256, .f32⟩ : BufTy).Contents (Elt F)),
    unary main_v1335 main_v1341 ((extractStridedSlice S8192x256 ![0, 512] · slices_S8192x768_S8192x256_0_512) : (⟨S8192x768, .f32⟩ : BufTy).Contents (Elt F) → (⟨S8192x256, .f32⟩ : BufTy).Contents (Elt F)),
    binary main_v1336 main_v1339 main_v1342 (addf : (⟨S8192x256, .f32⟩ : BufTy).Contents (Elt F) → (⟨S8192x256, .f32⟩ : BufTy).Contents (Elt F) → (⟨S8192x256, .f32⟩ : BufTy).Contents (Elt F)),
    unary main_v1342 main_v1343 (Host.negf : (⟨S8192x256, .f32⟩ : BufTy).Contents (Elt F) → (⟨S8192x256, .f32⟩ : BufTy).Contents (Elt F)),
    unary main_v1343 main_v1344 (Host.exp : (⟨S8192x256, .f32⟩ : BufTy).Contents (Elt F) → (⟨S8192x256, .f32⟩ : BufTy).Contents (Elt F)),
    nullary main_cst_167 (constant S_ .f32 0x3F800000#32),
    unary main_cst_167 main_v1345 (broadcastInDim S8192x256 ![] bcast_S_S8192x256 : (⟨S_, .f32⟩ : BufTy).Contents (Elt F) → (⟨S8192x256, .f32⟩ : BufTy).Contents (Elt F)),
    binary main_v1345 main_v1344 main_v1346 (addf : (⟨S8192x256, .f32⟩ : BufTy).Contents (Elt F) → (⟨S8192x256, .f32⟩ : BufTy).Contents (Elt F) → (⟨S8192x256, .f32⟩ : BufTy).Contents (Elt F)),
    nullary main_cst_168 (constant S_ .f32 0x3F800000#32),
    unary main_cst_168 main_v1347 (broadcastInDim S8192x256 ![] bcast_S_S8192x256 : (⟨S_, .f32⟩ : BufTy).Contents (Elt F) → (⟨S8192x256, .f32⟩ : BufTy).Contents (Elt F)),
    binary main_v1347 main_v1346 main_v1348 (Host.divf : (⟨S8192x256, .f32⟩ : BufTy).Contents (Elt F) → (⟨S8192x256, .f32⟩ : BufTy).Contents (Elt F) → (⟨S8192x256, .f32⟩ : BufTy).Contents (Elt F)),
    binary main_v1337 main_v1340 main_v1349 (addf : (⟨S8192x256, .f32⟩ : BufTy).Contents (Elt F) → (⟨S8192x256, .f32⟩ : BufTy).Contents (Elt F) → (⟨S8192x256, .f32⟩ : BufTy).Contents (Elt F)),
    unary main_v1349 main_v1350 (Host.negf : (⟨S8192x256, .f32⟩ : BufTy).Contents (Elt F) → (⟨S8192x256, .f32⟩ : BufTy).Contents (Elt F)),
    unary main_v1350 main_v1351 (Host.exp : (⟨S8192x256, .f32⟩ : BufTy).Contents (Elt F) → (⟨S8192x256, .f32⟩ : BufTy).Contents (Elt F)),
    nullary main_cst_169 (constant S_ .f32 0x3F800000#32),
    unary main_cst_169 main_v1352 (broadcastInDim S8192x256 ![] bcast_S_S8192x256 : (⟨S_, .f32⟩ : BufTy).Contents (Elt F) → (⟨S8192x256, .f32⟩ : BufTy).Contents (Elt F)),
    binary main_v1352 main_v1351 main_v1353 (addf : (⟨S8192x256, .f32⟩ : BufTy).Contents (Elt F) → (⟨S8192x256, .f32⟩ : BufTy).Contents (Elt F) → (⟨S8192x256, .f32⟩ : BufTy).Contents (Elt F)),
    nullary main_cst_170 (constant S_ .f32 0x3F800000#32),
    unary main_cst_170 main_v1354 (broadcastInDim S8192x256 ![] bcast_S_S8192x256 : (⟨S_, .f32⟩ : BufTy).Contents (Elt F) → (⟨S8192x256, .f32⟩ : BufTy).Contents (Elt F)),
    binary main_v1354 main_v1353 main_v1355 (Host.divf : (⟨S8192x256, .f32⟩ : BufTy).Contents (Elt F) → (⟨S8192x256, .f32⟩ : BufTy).Contents (Elt F) → (⟨S8192x256, .f32⟩ : BufTy).Contents (Elt F)),
    binary main_v1348 main_v1341 main_v1356 (mulf : (⟨S8192x256, .f32⟩ : BufTy).Contents (Elt F) → (⟨S8192x256, .f32⟩ : BufTy).Contents (Elt F) → (⟨S8192x256, .f32⟩ : BufTy).Contents (Elt F)),
    binary main_v1338 main_v1356 main_v1357 (addf : (⟨S8192x256, .f32⟩ : BufTy).Contents (Elt F) → (⟨S8192x256, .f32⟩ : BufTy).Contents (Elt F) → (⟨S8192x256, .f32⟩ : BufTy).Contents (Elt F)),
    unary main_v1357 main_v1358 (Host.tanh : (⟨S8192x256, .f32⟩ : BufTy).Contents (Elt F) → (⟨S8192x256, .f32⟩ : BufTy).Contents (Elt F)),
    nullary main_cst_171 (constant S_ .f32 0x3F800000#32),
    unary main_cst_171 main_v1359 (broadcastInDim S8192x256 ![] bcast_S_S8192x256 : (⟨S_, .f32⟩ : BufTy).Contents (Elt F) → (⟨S8192x256, .f32⟩ : BufTy).Contents (Elt F)),
    binary main_v1359 main_v1355 main_v1360 (subf : (⟨S8192x256, .f32⟩ : BufTy).Contents (Elt F) → (⟨S8192x256, .f32⟩ : BufTy).Contents (Elt F) → (⟨S8192x256, .f32⟩ : BufTy).Contents (Elt F)),
    binary main_v1360 main_v1358 main_v1361 (mulf : (⟨S8192x256, .f32⟩ : BufTy).Contents (Elt F) → (⟨S8192x256, .f32⟩ : BufTy).Contents (Elt F) → (⟨S8192x256, .f32⟩ : BufTy).Contents (Elt F)),
    binary main_v1355 main_v1243 main_v1362 (mulf : (⟨S8192x256, .f32⟩ : BufTy).Contents (Elt F) → (⟨S8192x256, .f32⟩ : BufTy).Contents (Elt F) → (⟨S8192x256, .f32⟩ : BufTy).Contents (Elt F)),
    binary main_v1361 main_v1362 main_v1363 (addf : (⟨S8192x256, .f32⟩ : BufTy).Contents (Elt F) → (⟨S8192x256, .f32⟩ : BufTy).Contents (Elt F) → (⟨S8192x256, .f32⟩ : BufTy).Contents (Elt F)),
    unary main_arg6 main_v1364 ((transpose S256x768 [1, 0] · transposes_S768x256_S256x768_1_0) : (⟨S768x256, .f32⟩ : BufTy).Contents (Elt F) → (⟨S256x768, .f32⟩ : BufTy).Contents (Elt F)),
    binary main_v1363 main_v1364 main_v1365 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg8 main_v1366 (broadcastInDim S1x768 ![1] bcast_S768_S1x768_1 : (⟨S768, .f32⟩ : BufTy).Contents (Elt F) → (⟨S1x768, .f32⟩ : BufTy).Contents (Elt F)),
    unary main_v1366 main_v1367 (broadcastInDim S8192x768 ![0, 1] bcast_S1x768_S8192x768_0_1 : (⟨S1x768, .f32⟩ : BufTy).Contents (Elt F) → (⟨S8192x768, .f32⟩ : BufTy).Contents (Elt F)),
    binary main_v1365 main_v1367 main_v1368 (addf : (⟨S8192x768, .f32⟩ : BufTy).Contents (Elt F) → (⟨S8192x768, .f32⟩ : BufTy).Contents (Elt F) → (⟨S8192x768, .f32⟩ : BufTy).Contents (Elt F)),
    unary main_arg7 main_v1369 ((transpose S256x768 [1, 0] · transposes_S768x256_S256x768_1_0) : (⟨S768x256, .f32⟩ : BufTy).Contents (Elt F) → (⟨S256x768, .f32⟩ : BufTy).Contents (Elt F)),
    binary main_v1281 main_v1369 main_v1370 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg9 main_v1371 (broadcastInDim S1x768 ![1] bcast_S768_S1x768_1 : (⟨S768, .f32⟩ : BufTy).Contents (Elt F) → (⟨S1x768, .f32⟩ : BufTy).Contents (Elt F)),
    unary main_v1371 main_v1372 (broadcastInDim S8192x768 ![0, 1] bcast_S1x768_S8192x768_0_1 : (⟨S1x768, .f32⟩ : BufTy).Contents (Elt F) → (⟨S8192x768, .f32⟩ : BufTy).Contents (Elt F)),
    binary main_v1370 main_v1372 main_v1373 (addf : (⟨S8192x768, .f32⟩ : BufTy).Contents (Elt F) → (⟨S8192x768, .f32⟩ : BufTy).Contents (Elt F) → (⟨S8192x768, .f32⟩ : BufTy).Contents (Elt F)),
    unary main_v1368 main_v1374 ((extractStridedSlice S8192x256 ![0, 0] · slices_S8192x768_S8192x256_0_0) : (⟨S8192x768, .f32⟩ : BufTy).Contents (Elt F) → (⟨S8192x256, .f32⟩ : BufTy).Contents (Elt F)),
    unary main_v1368 main_v1375 ((extractStridedSlice S8192x256 ![0, 256] · slices_S8192x768_S8192x256_0_256) : (⟨S8192x768, .f32⟩ : BufTy).Contents (Elt F) → (⟨S8192x256, .f32⟩ : BufTy).Contents (Elt F)),
    unary main_v1368 main_v1376 ((extractStridedSlice S8192x256 ![0, 512] · slices_S8192x768_S8192x256_0_512) : (⟨S8192x768, .f32⟩ : BufTy).Contents (Elt F) → (⟨S8192x256, .f32⟩ : BufTy).Contents (Elt F)),
    unary main_v1373 main_v1377 ((extractStridedSlice S8192x256 ![0, 0] · slices_S8192x768_S8192x256_0_0) : (⟨S8192x768, .f32⟩ : BufTy).Contents (Elt F) → (⟨S8192x256, .f32⟩ : BufTy).Contents (Elt F)),
    unary main_v1373 main_v1378 ((extractStridedSlice S8192x256 ![0, 256] · slices_S8192x768_S8192x256_0_256) : (⟨S8192x768, .f32⟩ : BufTy).Contents (Elt F) → (⟨S8192x256, .f32⟩ : BufTy).Contents (Elt F)),
    unary main_v1373 main_v1379 ((extractStridedSlice S8192x256 ![0, 512] · slices_S8192x768_S8192x256_0_512) : (⟨S8192x768, .f32⟩ : BufTy).Contents (Elt F) → (⟨S8192x256, .f32⟩ : BufTy).Contents (Elt F)),
    binary main_v1374 main_v1377 main_v1380 (addf : (⟨S8192x256, .f32⟩ : BufTy).Contents (Elt F) → (⟨S8192x256, .f32⟩ : BufTy).Contents (Elt F) → (⟨S8192x256, .f32⟩ : BufTy).Contents (Elt F)),
    unary main_v1380 main_v1381 (Host.negf : (⟨S8192x256, .f32⟩ : BufTy).Contents (Elt F) → (⟨S8192x256, .f32⟩ : BufTy).Contents (Elt F)),
    unary main_v1381 main_v1382 (Host.exp : (⟨S8192x256, .f32⟩ : BufTy).Contents (Elt F) → (⟨S8192x256, .f32⟩ : BufTy).Contents (Elt F)),
    nullary main_cst_172 (constant S_ .f32 0x3F800000#32),
    unary main_cst_172 main_v1383 (broadcastInDim S8192x256 ![] bcast_S_S8192x256 : (⟨S_, .f32⟩ : BufTy).Contents (Elt F) → (⟨S8192x256, .f32⟩ : BufTy).Contents (Elt F)),
    binary main_v1383 main_v1382 main_v1384 (addf : (⟨S8192x256, .f32⟩ : BufTy).Contents (Elt F) → (⟨S8192x256, .f32⟩ : BufTy).Contents (Elt F) → (⟨S8192x256, .f32⟩ : BufTy).Contents (Elt F)),
    nullary main_cst_173 (constant S_ .f32 0x3F800000#32),
    unary main_cst_173 main_v1385 (broadcastInDim S8192x256 ![] bcast_S_S8192x256 : (⟨S_, .f32⟩ : BufTy).Contents (Elt F) → (⟨S8192x256, .f32⟩ : BufTy).Contents (Elt F)),
    binary main_v1385 main_v1384 main_v1386 (Host.divf : (⟨S8192x256, .f32⟩ : BufTy).Contents (Elt F) → (⟨S8192x256, .f32⟩ : BufTy).Contents (Elt F) → (⟨S8192x256, .f32⟩ : BufTy).Contents (Elt F)),
    binary main_v1375 main_v1378 main_v1387 (addf : (⟨S8192x256, .f32⟩ : BufTy).Contents (Elt F) → (⟨S8192x256, .f32⟩ : BufTy).Contents (Elt F) → (⟨S8192x256, .f32⟩ : BufTy).Contents (Elt F)),
    unary main_v1387 main_v1388 (Host.negf : (⟨S8192x256, .f32⟩ : BufTy).Contents (Elt F) → (⟨S8192x256, .f32⟩ : BufTy).Contents (Elt F)),
    unary main_v1388 main_v1389 (Host.exp : (⟨S8192x256, .f32⟩ : BufTy).Contents (Elt F) → (⟨S8192x256, .f32⟩ : BufTy).Contents (Elt F)),
    nullary main_cst_174 (constant S_ .f32 0x3F800000#32),
    unary main_cst_174 main_v1390 (broadcastInDim S8192x256 ![] bcast_S_S8192x256 : (⟨S_, .f32⟩ : BufTy).Contents (Elt F) → (⟨S8192x256, .f32⟩ : BufTy).Contents (Elt F)),
    binary main_v1390 main_v1389 main_v1391 (addf : (⟨S8192x256, .f32⟩ : BufTy).Contents (Elt F) → (⟨S8192x256, .f32⟩ : BufTy).Contents (Elt F) → (⟨S8192x256, .f32⟩ : BufTy).Contents (Elt F)),
    nullary main_cst_175 (constant S_ .f32 0x3F800000#32),
    unary main_cst_175 main_v1392 (broadcastInDim S8192x256 ![] bcast_S_S8192x256 : (⟨S_, .f32⟩ : BufTy).Contents (Elt F) → (⟨S8192x256, .f32⟩ : BufTy).Contents (Elt F)),
    binary main_v1392 main_v1391 main_v1393 (Host.divf : (⟨S8192x256, .f32⟩ : BufTy).Contents (Elt F) → (⟨S8192x256, .f32⟩ : BufTy).Contents (Elt F) → (⟨S8192x256, .f32⟩ : BufTy).Contents (Elt F)),
    binary main_v1386 main_v1379 main_v1394 (mulf : (⟨S8192x256, .f32⟩ : BufTy).Contents (Elt F) → (⟨S8192x256, .f32⟩ : BufTy).Contents (Elt F) → (⟨S8192x256, .f32⟩ : BufTy).Contents (Elt F)),
    binary main_v1376 main_v1394 main_v1395 (addf : (⟨S8192x256, .f32⟩ : BufTy).Contents (Elt F) → (⟨S8192x256, .f32⟩ : BufTy).Contents (Elt F) → (⟨S8192x256, .f32⟩ : BufTy).Contents (Elt F)),
    unary main_v1395 main_v1396 (Host.tanh : (⟨S8192x256, .f32⟩ : BufTy).Contents (Elt F) → (⟨S8192x256, .f32⟩ : BufTy).Contents (Elt F)),
    nullary main_cst_176 (constant S_ .f32 0x3F800000#32),
    unary main_cst_176 main_v1397 (broadcastInDim S8192x256 ![] bcast_S_S8192x256 : (⟨S_, .f32⟩ : BufTy).Contents (Elt F) → (⟨S8192x256, .f32⟩ : BufTy).Contents (Elt F)),
    binary main_v1397 main_v1393 main_v1398 (subf : (⟨S8192x256, .f32⟩ : BufTy).Contents (Elt F) → (⟨S8192x256, .f32⟩ : BufTy).Contents (Elt F) → (⟨S8192x256, .f32⟩ : BufTy).Contents (Elt F)),
    binary main_v1398 main_v1396 main_v1399 (mulf : (⟨S8192x256, .f32⟩ : BufTy).Contents (Elt F) → (⟨S8192x256, .f32⟩ : BufTy).Contents (Elt F) → (⟨S8192x256, .f32⟩ : BufTy).Contents (Elt F)),
    binary main_v1393 main_v1281 main_v1400 (mulf : (⟨S8192x256, .f32⟩ : BufTy).Contents (Elt F) → (⟨S8192x256, .f32⟩ : BufTy).Contents (Elt F) → (⟨S8192x256, .f32⟩ : BufTy).Contents (Elt F)),
    binary main_v1399 main_v1400 main_v1401 (addf : (⟨S8192x256, .f32⟩ : BufTy).Contents (Elt F) → (⟨S8192x256, .f32⟩ : BufTy).Contents (Elt F) → (⟨S8192x256, .f32⟩ : BufTy).Contents (Elt F)),
    unary main_arg10 main_v1402 ((transpose S256x768 [1, 0] · transposes_S768x256_S256x768_1_0) : (⟨S768x256, .f32⟩ : BufTy).Contents (Elt F) → (⟨S256x768, .f32⟩ : BufTy).Contents (Elt F)),
    binary main_v1401 main_v1402 main_v1403 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg12 main_v1404 (broadcastInDim S1x768 ![1] bcast_S768_S1x768_1 : (⟨S768, .f32⟩ : BufTy).Contents (Elt F) → (⟨S1x768, .f32⟩ : BufTy).Contents (Elt F)),
    unary main_v1404 main_v1405 (broadcastInDim S8192x768 ![0, 1] bcast_S1x768_S8192x768_0_1 : (⟨S1x768, .f32⟩ : BufTy).Contents (Elt F) → (⟨S8192x768, .f32⟩ : BufTy).Contents (Elt F)),
    binary main_v1403 main_v1405 main_v1406 (addf : (⟨S8192x768, .f32⟩ : BufTy).Contents (Elt F) → (⟨S8192x768, .f32⟩ : BufTy).Contents (Elt F) → (⟨S8192x768, .f32⟩ : BufTy).Contents (Elt F)),
    unary main_arg11 main_v1407 ((transpose S256x768 [1, 0] · transposes_S768x256_S256x768_1_0) : (⟨S768x256, .f32⟩ : BufTy).Contents (Elt F) → (⟨S256x768, .f32⟩ : BufTy).Contents (Elt F)),
    binary main_v1319 main_v1407 main_v1408 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg13 main_v1409 (broadcastInDim S1x768 ![1] bcast_S768_S1x768_1 : (⟨S768, .f32⟩ : BufTy).Contents (Elt F) → (⟨S1x768, .f32⟩ : BufTy).Contents (Elt F)),
    unary main_v1409 main_v1410 (broadcastInDim S8192x768 ![0, 1] bcast_S1x768_S8192x768_0_1 : (⟨S1x768, .f32⟩ : BufTy).Contents (Elt F) → (⟨S8192x768, .f32⟩ : BufTy).Contents (Elt F)),
    binary main_v1408 main_v1410 main_v1411 (addf : (⟨S8192x768, .f32⟩ : BufTy).Contents (Elt F) → (⟨S8192x768, .f32⟩ : BufTy).Contents (Elt F) → (⟨S8192x768, .f32⟩ : BufTy).Contents (Elt F)),
    unary main_v1406 main_v1412 ((extractStridedSlice S8192x256 ![0, 0] · slices_S8192x768_S8192x256_0_0) : (⟨S8192x768, .f32⟩ : BufTy).Contents (Elt F) → (⟨S8192x256, .f32⟩ : BufTy).Contents (Elt F)),
    unary main_v1406 main_v1413 ((extractStridedSlice S8192x256 ![0, 256] · slices_S8192x768_S8192x256_0_256) : (⟨S8192x768, .f32⟩ : BufTy).Contents (Elt F) → (⟨S8192x256, .f32⟩ : BufTy).Contents (Elt F)),
    unary main_v1406 main_v1414 ((extractStridedSlice S8192x256 ![0, 512] · slices_S8192x768_S8192x256_0_512) : (⟨S8192x768, .f32⟩ : BufTy).Contents (Elt F) → (⟨S8192x256, .f32⟩ : BufTy).Contents (Elt F)),
    unary main_v1411 main_v1415 ((extractStridedSlice S8192x256 ![0, 0] · slices_S8192x768_S8192x256_0_0) : (⟨S8192x768, .f32⟩ : BufTy).Contents (Elt F) → (⟨S8192x256, .f32⟩ : BufTy).Contents (Elt F)),
    unary main_v1411 main_v1416 ((extractStridedSlice S8192x256 ![0, 256] · slices_S8192x768_S8192x256_0_256) : (⟨S8192x768, .f32⟩ : BufTy).Contents (Elt F) → (⟨S8192x256, .f32⟩ : BufTy).Contents (Elt F)),
    unary main_v1411 main_v1417 ((extractStridedSlice S8192x256 ![0, 512] · slices_S8192x768_S8192x256_0_512) : (⟨S8192x768, .f32⟩ : BufTy).Contents (Elt F) → (⟨S8192x256, .f32⟩ : BufTy).Contents (Elt F)),
    binary main_v1412 main_v1415 main_v1418 (addf : (⟨S8192x256, .f32⟩ : BufTy).Contents (Elt F) → (⟨S8192x256, .f32⟩ : BufTy).Contents (Elt F) → (⟨S8192x256, .f32⟩ : BufTy).Contents (Elt F)),
    unary main_v1418 main_v1419 (Host.negf : (⟨S8192x256, .f32⟩ : BufTy).Contents (Elt F) → (⟨S8192x256, .f32⟩ : BufTy).Contents (Elt F)),
    unary main_v1419 main_v1420 (Host.exp : (⟨S8192x256, .f32⟩ : BufTy).Contents (Elt F) → (⟨S8192x256, .f32⟩ : BufTy).Contents (Elt F)),
    nullary main_cst_177 (constant S_ .f32 0x3F800000#32),
    unary main_cst_177 main_v1421 (broadcastInDim S8192x256 ![] bcast_S_S8192x256 : (⟨S_, .f32⟩ : BufTy).Contents (Elt F) → (⟨S8192x256, .f32⟩ : BufTy).Contents (Elt F)),
    binary main_v1421 main_v1420 main_v1422 (addf : (⟨S8192x256, .f32⟩ : BufTy).Contents (Elt F) → (⟨S8192x256, .f32⟩ : BufTy).Contents (Elt F) → (⟨S8192x256, .f32⟩ : BufTy).Contents (Elt F)),
    nullary main_cst_178 (constant S_ .f32 0x3F800000#32),
    unary main_cst_178 main_v1423 (broadcastInDim S8192x256 ![] bcast_S_S8192x256 : (⟨S_, .f32⟩ : BufTy).Contents (Elt F) → (⟨S8192x256, .f32⟩ : BufTy).Contents (Elt F)),
    binary main_v1423 main_v1422 main_v1424 (Host.divf : (⟨S8192x256, .f32⟩ : BufTy).Contents (Elt F) → (⟨S8192x256, .f32⟩ : BufTy).Contents (Elt F) → (⟨S8192x256, .f32⟩ : BufTy).Contents (Elt F)),
    binary main_v1413 main_v1416 main_v1425 (addf : (⟨S8192x256, .f32⟩ : BufTy).Contents (Elt F) → (⟨S8192x256, .f32⟩ : BufTy).Contents (Elt F) → (⟨S8192x256, .f32⟩ : BufTy).Contents (Elt F)),
    unary main_v1425 main_v1426 (Host.negf : (⟨S8192x256, .f32⟩ : BufTy).Contents (Elt F) → (⟨S8192x256, .f32⟩ : BufTy).Contents (Elt F)),
    unary main_v1426 main_v1427 (Host.exp : (⟨S8192x256, .f32⟩ : BufTy).Contents (Elt F) → (⟨S8192x256, .f32⟩ : BufTy).Contents (Elt F)),
    nullary main_cst_179 (constant S_ .f32 0x3F800000#32),
    unary main_cst_179 main_v1428 (broadcastInDim S8192x256 ![] bcast_S_S8192x256 : (⟨S_, .f32⟩ : BufTy).Contents (Elt F) → (⟨S8192x256, .f32⟩ : BufTy).Contents (Elt F)),
    binary main_v1428 main_v1427 main_v1429 (addf : (⟨S8192x256, .f32⟩ : BufTy).Contents (Elt F) → (⟨S8192x256, .f32⟩ : BufTy).Contents (Elt F) → (⟨S8192x256, .f32⟩ : BufTy).Contents (Elt F)),
    nullary main_cst_180 (constant S_ .f32 0x3F800000#32),
    unary main_cst_180 main_v1430 (broadcastInDim S8192x256 ![] bcast_S_S8192x256 : (⟨S_, .f32⟩ : BufTy).Contents (Elt F) → (⟨S8192x256, .f32⟩ : BufTy).Contents (Elt F)),
    binary main_v1430 main_v1429 main_v1431 (Host.divf : (⟨S8192x256, .f32⟩ : BufTy).Contents (Elt F) → (⟨S8192x256, .f32⟩ : BufTy).Contents (Elt F) → (⟨S8192x256, .f32⟩ : BufTy).Contents (Elt F)),
    binary main_v1424 main_v1417 main_v1432 (mulf : (⟨S8192x256, .f32⟩ : BufTy).Contents (Elt F) → (⟨S8192x256, .f32⟩ : BufTy).Contents (Elt F) → (⟨S8192x256, .f32⟩ : BufTy).Contents (Elt F)),
    binary main_v1414 main_v1432 main_v1433 (addf : (⟨S8192x256, .f32⟩ : BufTy).Contents (Elt F) → (⟨S8192x256, .f32⟩ : BufTy).Contents (Elt F) → (⟨S8192x256, .f32⟩ : BufTy).Contents (Elt F)),
    unary main_v1433 main_v1434 (Host.tanh : (⟨S8192x256, .f32⟩ : BufTy).Contents (Elt F) → (⟨S8192x256, .f32⟩ : BufTy).Contents (Elt F)),
    nullary main_cst_181 (constant S_ .f32 0x3F800000#32),
    unary main_cst_181 main_v1435 (broadcastInDim S8192x256 ![] bcast_S_S8192x256 : (⟨S_, .f32⟩ : BufTy).Contents (Elt F) → (⟨S8192x256, .f32⟩ : BufTy).Contents (Elt F)),
    binary main_v1435 main_v1431 main_v1436 (subf : (⟨S8192x256, .f32⟩ : BufTy).Contents (Elt F) → (⟨S8192x256, .f32⟩ : BufTy).Contents (Elt F) → (⟨S8192x256, .f32⟩ : BufTy).Contents (Elt F)),
    binary main_v1436 main_v1434 main_v1437 (mulf : (⟨S8192x256, .f32⟩ : BufTy).Contents (Elt F) → (⟨S8192x256, .f32⟩ : BufTy).Contents (Elt F) → (⟨S8192x256, .f32⟩ : BufTy).Contents (Elt F)),
    binary main_v1431 main_v1319 main_v1438 (mulf : (⟨S8192x256, .f32⟩ : BufTy).Contents (Elt F) → (⟨S8192x256, .f32⟩ : BufTy).Contents (Elt F) → (⟨S8192x256, .f32⟩ : BufTy).Contents (Elt F)),
    binary main_v1437 main_v1438 main_v1439 (addf : (⟨S8192x256, .f32⟩ : BufTy).Contents (Elt F) → (⟨S8192x256, .f32⟩ : BufTy).Contents (Elt F) → (⟨S8192x256, .f32⟩ : BufTy).Contents (Elt F)),
    unary main_arg14 main_v1440 ((transpose S256x2 [1, 0] · transposes_S2x256_S256x2_1_0) : (⟨S2x256, .f32⟩ : BufTy).Contents (Elt F) → (⟨S256x2, .f32⟩ : BufTy).Contents (Elt F)),
    binary main_v1439 main_v1440 main_v1441 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    unary main_arg15 main_v1442 (broadcastInDim S1x2 ![1] bcast_S2_S1x2_1 : (⟨S2, .f32⟩ : BufTy).Contents (Elt F) → (⟨S1x2, .f32⟩ : BufTy).Contents (Elt F)),
    unary main_v1442 main_v1443 (broadcastInDim S8192x2 ![0, 1] bcast_S1x2_S8192x2_0_1 : (⟨S1x2, .f32⟩ : BufTy).Contents (Elt F) → (⟨S8192x2, .f32⟩ : BufTy).Contents (Elt F)),
    binary main_v1441 main_v1443 main_v1444 (addf : (⟨S8192x2, .f32⟩ : BufTy).Contents (Elt F) → (⟨S8192x2, .f32⟩ : BufTy).Contents (Elt F) → (⟨S8192x2, .f32⟩ : BufTy).Contents (Elt F)) ]

/-- The buffers they write. -/
abbrev seg11_W : List (Ref sig .tc) := [main_v1325, main_v1326, main_v1327, main_v1328, main_v1329, main_v1330, main_v1331, main_v1332, main_v1333, main_v1334, main_v1335, main_v1336, main_v1337, main_v1338, main_v1339, main_v1340, main_v1341, main_v1342, main_v1343, main_v1344, main_cst_167, main_v1345, main_v1346, main_cst_168, main_v1347, main_v1348, main_v1349, main_v1350, main_v1351, main_cst_169, main_v1352, main_v1353, main_cst_170, main_v1354, main_v1355, main_v1356, main_v1357, main_v1358, main_cst_171, main_v1359, main_v1360, main_v1361, main_v1362, main_v1363, main_v1364, main_v1365, main_v1366, main_v1367, main_v1368, main_v1369, main_v1370, main_v1371, main_v1372, main_v1373, main_v1374, main_v1375, main_v1376, main_v1377, main_v1378, main_v1379, main_v1380, main_v1381, main_v1382, main_cst_172, main_v1383, main_v1384, main_cst_173, main_v1385, main_v1386, main_v1387, main_v1388, main_v1389, main_cst_174, main_v1390, main_v1391, main_cst_175, main_v1392, main_v1393, main_v1394, main_v1395, main_v1396, main_cst_176, main_v1397, main_v1398, main_v1399, main_v1400, main_v1401, main_v1402, main_v1403, main_v1404, main_v1405, main_v1406, main_v1407, main_v1408, main_v1409, main_v1410, main_v1411, main_v1412, main_v1413, main_v1414, main_v1415, main_v1416, main_v1417, main_v1418, main_v1419, main_v1420, main_cst_177, main_v1421, main_v1422, main_cst_178, main_v1423, main_v1424, main_v1425, main_v1426, main_v1427, main_cst_179, main_v1428, main_v1429, main_cst_180, main_v1430, main_v1431, main_v1432, main_v1433, main_v1434, main_cst_181, main_v1435, main_v1436, main_v1437, main_v1438, main_v1439, main_v1440, main_v1441, main_v1442, main_v1443, main_v1444]
set_option maxRecDepth 8192 in
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem seg11_keep (V : Valuation τ sig (Elt F)) (r : Ref sig .tc) (h : r ∉ seg11_W) :
    after seg11 V (Proc.devRef .tc r) = V (Proc.devRef .tc r) :=
  after_of_writes_sub seg11 _ seg11_writes h

/-- @main's operations 1629 to 1641. -/
abbrev segEpi : List (HloOp τ sig (Elt F)) :=
  [ unary main_v124 main_v1445 (broadcastInDim S1x8192x2 ![1, 2] bcast_S8192x2_S1x8192x2_1_2 : (⟨S8192x2, .f32⟩ : BufTy).Contents (Elt F) → (⟨S1x8192x2, .f32⟩ : BufTy).Contents (Elt F)),
    unary main_v244 main_v1446 (broadcastInDim S1x8192x2 ![1, 2] bcast_S8192x2_S1x8192x2_1_2 : (⟨S8192x2, .f32⟩ : BufTy).Contents (Elt F) → (⟨S1x8192x2, .f32⟩ : BufTy).Contents (Elt F)),
    unary main_v364 main_v1447 (broadcastInDim S1x8192x2 ![1, 2] bcast_S8192x2_S1x8192x2_1_2 : (⟨S8192x2, .f32⟩ : BufTy).Contents (Elt F) → (⟨S1x8192x2, .f32⟩ : BufTy).Contents (Elt F)),
    unary main_v484 main_v1448 (broadcastInDim S1x8192x2 ![1, 2] bcast_S8192x2_S1x8192x2_1_2 : (⟨S8192x2, .f32⟩ : BufTy).Contents (Elt F) → (⟨S1x8192x2, .f32⟩ : BufTy).Contents (Elt F)),
    unary main_v604 main_v1449 (broadcastInDim S1x8192x2 ![1, 2] bcast_S8192x2_S1x8192x2_1_2 : (⟨S8192x2, .f32⟩ : BufTy).Contents (Elt F) → (⟨S1x8192x2, .f32⟩ : BufTy).Contents (Elt F)),
    unary main_v724 main_v1450 (broadcastInDim S1x8192x2 ![1, 2] bcast_S8192x2_S1x8192x2_1_2 : (⟨S8192x2, .f32⟩ : BufTy).Contents (Elt F) → (⟨S1x8192x2, .f32⟩ : BufTy).Contents (Elt F)),
    unary main_v844 main_v1451 (broadcastInDim S1x8192x2 ![1, 2] bcast_S8192x2_S1x8192x2_1_2 : (⟨S8192x2, .f32⟩ : BufTy).Contents (Elt F) → (⟨S1x8192x2, .f32⟩ : BufTy).Contents (Elt F)),
    unary main_v964 main_v1452 (broadcastInDim S1x8192x2 ![1, 2] bcast_S8192x2_S1x8192x2_1_2 : (⟨S8192x2, .f32⟩ : BufTy).Contents (Elt F) → (⟨S1x8192x2, .f32⟩ : BufTy).Contents (Elt F)),
    unary main_v1084 main_v1453 (broadcastInDim S1x8192x2 ![1, 2] bcast_S8192x2_S1x8192x2_1_2 : (⟨S8192x2, .f32⟩ : BufTy).Contents (Elt F) → (⟨S1x8192x2, .f32⟩ : BufTy).Contents (Elt F)),
    unary main_v1204 main_v1454 (broadcastInDim S1x8192x2 ![1, 2] bcast_S8192x2_S1x8192x2_1_2 : (⟨S8192x2, .f32⟩ : BufTy).Contents (Elt F) → (⟨S1x8192x2, .f32⟩ : BufTy).Contents (Elt F)),
    unary main_v1324 main_v1455 (broadcastInDim S1x8192x2 ![1, 2] bcast_S8192x2_S1x8192x2_1_2 : (⟨S8192x2, .f32⟩ : BufTy).Contents (Elt F) → (⟨S1x8192x2, .f32⟩ : BufTy).Contents (Elt F)),
    unary main_v1444 main_v1456 (broadcastInDim S1x8192x2 ![1, 2] bcast_S8192x2_S1x8192x2_1_2 : (⟨S8192x2, .f32⟩ : BufTy).Contents (Elt F) → (⟨S1x8192x2, .f32⟩ : BufTy).Contents (Elt F)),
    nary ![main_v1445, main_v1446, main_v1447, main_v1448, main_v1449, main_v1450, main_v1451, main_v1452, main_v1453, main_v1454, main_v1455, main_v1456] main_v1457 (fun u => fn_main_v1457 (F := F) (u 0) (u 1) (u 2) (u 3) (u 4) (u 5) (u 6) (u 7) (u 8) (u 9) (u 10) (u 11)) ]

/-- The buffers they write. -/
abbrev segEpi_W : List (Ref sig .tc) := [main_v1445, main_v1446, main_v1447, main_v1448, main_v1449, main_v1450, main_v1451, main_v1452, main_v1453, main_v1454, main_v1455, main_v1456, main_v1457]
set_option maxRecDepth 8192 in
theorem segEpi_writes : (segEpi : List (HloOp τ sig (Elt F))).Forall fun op => op.writes ⊆ (segEpi_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem segEpi_keep (V : Valuation τ sig (Elt F)) (r : Ref sig .tc) (h : r ∉ segEpi_W) :
    after segEpi V (Proc.devRef .tc r) = V (Proc.devRef .tc r) :=
  after_of_writes_sub segEpi _ segEpi_writes h

set_option maxRecDepth 65536 in
/-- Together, in order, they are @main's operations. -/
theorem ops_split : (ops : List (HloOp τ sig (Elt F))) = segPro ++ (seg0 ++ (seg1 ++ (seg2 ++ (seg3 ++ (seg4 ++ (seg5 ++ (seg6 ++ (seg7 ++ (seg8 ++ (seg9 ++ (seg10 ++ (seg11 ++ (segEpi))))))))))))) := rfl

/-- The program's sixteen arguments, as a valuation holds them. -/
def args (V : Valuation τ sig (Elt F)) : Batch.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15)⟩

end Cert.ReferenceIdeal.Value

end
-- ==== Proof.RefStep0.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg0_h0 (V : Valuation τ sig (Elt F)) :
    after seg0 V (Proc.devRef .tc main_v43) = Batch.next0 (args V) ⟨V (Proc.devRef .tc main_v0), V (Proc.devRef .tc main_v1), V (Proc.devRef .tc main_v2), V (Proc.devRef .tc main_v4)⟩ :=  by
  simp only [seg0]
  after_results_simp
  rfl

set_option maxRecDepth 65536 in
set_option maxHeartbeats 8000000 in
theorem seg0_h1 (V : Valuation τ sig (Elt F)) :
    after seg0 V (Proc.devRef .tc main_v81) = Batch.next1 (args V) ⟨V (Proc.devRef .tc main_v0), V (Proc.devRef .tc main_v1), V (Proc.devRef .tc main_v2), V (Proc.devRef .tc main_v4)⟩ :=  by
  simp only [seg0]
  after_results_simp
  rfl

set_option maxRecDepth 65536 in
set_option maxHeartbeats 8000000 in
theorem seg0_h2 (V : Valuation τ sig (Elt F)) :
    after seg0 V (Proc.devRef .tc main_v119) = Batch.next2 (args V) ⟨V (Proc.devRef .tc main_v0), V (Proc.devRef .tc main_v1), V (Proc.devRef .tc main_v2), V (Proc.devRef .tc main_v4)⟩ :=  by
  simp only [seg0]
  after_results_simp
  rfl

set_option maxRecDepth 65536 in
set_option maxHeartbeats 8000000 in
theorem seg0_pos (V : Valuation τ sig (Elt F)) :
    after seg0 V (Proc.devRef .tc main_v124) = Batch.readOut (Batch.next2 (args V) ⟨V (Proc.devRef .tc main_v0), V (Proc.devRef .tc main_v1), V (Proc.devRef .tc main_v2), V (Proc.devRef .tc main_v4)⟩) (args V).wo (args V).bo :=  by
  simp only [seg0]
  after_results_simp
  rfl

end Cert.ReferenceIdeal.Value

end
-- ==== Proof.RefStep1.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg1_h0 (V : Valuation τ sig (Elt F)) :
    after seg1 V (Proc.devRef .tc main_v163) = Batch.next0 (args V) ⟨V (Proc.devRef .tc main_v43), V (Proc.devRef .tc main_v81), V (Proc.devRef .tc main_v119), V (Proc.devRef .tc main_v124)⟩ :=  by
  simp only [seg1]
  after_results_simp
  rfl

set_option maxRecDepth 65536 in
set_option maxHeartbeats 8000000 in
theorem seg1_h1 (V : Valuation τ sig (Elt F)) :
    after seg1 V (Proc.devRef .tc main_v201) = Batch.next1 (args V) ⟨V (Proc.devRef .tc main_v43), V (Proc.devRef .tc main_v81), V (Proc.devRef .tc main_v119), V (Proc.devRef .tc main_v124)⟩ :=  by
  simp only [seg1]
  after_results_simp
  rfl

set_option maxRecDepth 65536 in
set_option maxHeartbeats 8000000 in
theorem seg1_h2 (V : Valuation τ sig (Elt F)) :
    after seg1 V (Proc.devRef .tc main_v239) = Batch.next2 (args V) ⟨V (Proc.devRef .tc main_v43), V (Proc.devRef .tc main_v81), V (Proc.devRef .tc main_v119), V (Proc.devRef .tc main_v124)⟩ :=  by
  simp only [seg1]
  after_results_simp
  rfl

set_option maxRecDepth 65536 in
set_option maxHeartbeats 8000000 in
theorem seg1_pos (V : Valuation τ sig (Elt F)) :
    after seg1 V (Proc.devRef .tc main_v244) = Batch.readOut (Batch.next2 (args V) ⟨V (Proc.devRef .tc main_v43), V (Proc.devRef .tc main_v81), V (Proc.devRef .tc main_v119), V (Proc.devRef .tc main_v124)⟩) (args V).wo (args V).bo :=  by
  simp only [seg1]
  after_results_simp
  rfl

end Cert.ReferenceIdeal.Value

end
-- ==== Proof.RefStep2.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg2_h0 (V : Valuation τ sig (Elt F)) :
    after seg2 V (Proc.devRef .tc main_v283) = Batch.next0 (args V) ⟨V (Proc.devRef .tc main_v163), V (Proc.devRef .tc main_v201), V (Proc.devRef .tc main_v239), V (Proc.devRef .tc main_v244)⟩ :=  by
  simp only [seg2]
  after_results_simp
  rfl

set_option maxRecDepth 65536 in
set_option maxHeartbeats 8000000 in
theorem seg2_h1 (V : Valuation τ sig (Elt F)) :
    after seg2 V (Proc.devRef .tc main_v321) = Batch.next1 (args V) ⟨V (Proc.devRef .tc main_v163), V (Proc.devRef .tc main_v201), V (Proc.devRef .tc main_v239), V (Proc.devRef .tc main_v244)⟩ :=  by
  simp only [seg2]
  after_results_simp
  rfl

set_option maxRecDepth 65536 in
set_option maxHeartbeats 8000000 in
theorem seg2_h2 (V : Valuation τ sig (Elt F)) :
    after seg2 V (Proc.devRef .tc main_v359) = Batch.next2 (args V) ⟨V (Proc.devRef .tc main_v163), V (Proc.devRef .tc main_v201), V (Proc.devRef .tc main_v239), V (Proc.devRef .tc main_v244)⟩ :=  by
  simp only [seg2]
  after_results_simp
  rfl

set_option maxRecDepth 65536 in
set_option maxHeartbeats 8000000 in
theorem seg2_pos (V : Valuation τ sig (Elt F)) :
    after seg2 V (Proc.devRef .tc main_v364) = Batch.readOut (Batch.next2 (args V) ⟨V (Proc.devRef .tc main_v163), V (Proc.devRef .tc main_v201), V (Proc.devRef .tc main_v239), V (Proc.devRef .tc main_v244)⟩) (args V).wo (args V).bo :=  by
  simp only [seg2]
  after_results_simp
  rfl

end Cert.ReferenceIdeal.Value

end
-- ==== Proof.RefStep3.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg3_h0 (V : Valuation τ sig (Elt F)) :
    after seg3 V (Proc.devRef .tc main_v403) = Batch.next0 (args V) ⟨V (Proc.devRef .tc main_v283), V (Proc.devRef .tc main_v321), V (Proc.devRef .tc main_v359), V (Proc.devRef .tc main_v364)⟩ :=  by
  simp only [seg3]
  after_results_simp
  rfl

set_option maxRecDepth 65536 in
set_option maxHeartbeats 8000000 in
theorem seg3_h1 (V : Valuation τ sig (Elt F)) :
    after seg3 V (Proc.devRef .tc main_v441) = Batch.next1 (args V) ⟨V (Proc.devRef .tc main_v283), V (Proc.devRef .tc main_v321), V (Proc.devRef .tc main_v359), V (Proc.devRef .tc main_v364)⟩ :=  by
  simp only [seg3]
  after_results_simp
  rfl

set_option maxRecDepth 65536 in
set_option maxHeartbeats 8000000 in
theorem seg3_h2 (V : Valuation τ sig (Elt F)) :
    after seg3 V (Proc.devRef .tc main_v479) = Batch.next2 (args V) ⟨V (Proc.devRef .tc main_v283), V (Proc.devRef .tc main_v321), V (Proc.devRef .tc main_v359), V (Proc.devRef .tc main_v364)⟩ :=  by
  simp only [seg3]
  after_results_simp
  rfl

set_option maxRecDepth 65536 in
set_option maxHeartbeats 8000000 in
theorem seg3_pos (V : Valuation τ sig (Elt F)) :
    after seg3 V (Proc.devRef .tc main_v484) = Batch.readOut (Batch.next2 (args V) ⟨V (Proc.devRef .tc main_v283), V (Proc.devRef .tc main_v321), V (Proc.devRef .tc main_v359), V (Proc.devRef .tc main_v364)⟩) (args V).wo (args V).bo :=  by
  simp only [seg3]
  after_results_simp
  rfl

end Cert.ReferenceIdeal.Value

end
-- ==== Proof.RefStep4.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg4_h0 (V : Valuation τ sig (Elt F)) :
    after seg4 V (Proc.devRef .tc main_v523) = Batch.next0 (args V) ⟨V (Proc.devRef .tc main_v403), V (Proc.devRef .tc main_v441), V (Proc.devRef .tc main_v479), V (Proc.devRef .tc main_v484)⟩ :=  by
  simp only [seg4]
  after_results_simp
  rfl

set_option maxRecDepth 65536 in
set_option maxHeartbeats 8000000 in
theorem seg4_h1 (V : Valuation τ sig (Elt F)) :
    after seg4 V (Proc.devRef .tc main_v561) = Batch.next1 (args V) ⟨V (Proc.devRef .tc main_v403), V (Proc.devRef .tc main_v441), V (Proc.devRef .tc main_v479), V (Proc.devRef .tc main_v484)⟩ :=  by
  simp only [seg4]
  after_results_simp
  rfl

set_option maxRecDepth 65536 in
set_option maxHeartbeats 8000000 in
theorem seg4_h2 (V : Valuation τ sig (Elt F)) :
    after seg4 V (Proc.devRef .tc main_v599) = Batch.next2 (args V) ⟨V (Proc.devRef .tc main_v403), V (Proc.devRef .tc main_v441), V (Proc.devRef .tc main_v479), V (Proc.devRef .tc main_v484)⟩ :=  by
  simp only [seg4]
  after_results_simp
  rfl

set_option maxRecDepth 65536 in
set_option maxHeartbeats 8000000 in
theorem seg4_pos (V : Valuation τ sig (Elt F)) :
    after seg4 V (Proc.devRef .tc main_v604) = Batch.readOut (Batch.next2 (args V) ⟨V (Proc.devRef .tc main_v403), V (Proc.devRef .tc main_v441), V (Proc.devRef .tc main_v479), V (Proc.devRef .tc main_v484)⟩) (args V).wo (args V).bo :=  by
  simp only [seg4]
  after_results_simp
  rfl

end Cert.ReferenceIdeal.Value

end
-- ==== Proof.RefStep5.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg5_h0 (V : Valuation τ sig (Elt F)) :
    after seg5 V (Proc.devRef .tc main_v643) = Batch.next0 (args V) ⟨V (Proc.devRef .tc main_v523), V (Proc.devRef .tc main_v561), V (Proc.devRef .tc main_v599), V (Proc.devRef .tc main_v604)⟩ :=  by
  simp only [seg5]
  after_results_simp
  rfl

set_option maxRecDepth 65536 in
set_option maxHeartbeats 8000000 in
theorem seg5_h1 (V : Valuation τ sig (Elt F)) :
    after seg5 V (Proc.devRef .tc main_v681) = Batch.next1 (args V) ⟨V (Proc.devRef .tc main_v523), V (Proc.devRef .tc main_v561), V (Proc.devRef .tc main_v599), V (Proc.devRef .tc main_v604)⟩ :=  by
  simp only [seg5]
  after_results_simp
  rfl

set_option maxRecDepth 65536 in
set_option maxHeartbeats 8000000 in
theorem seg5_h2 (V : Valuation τ sig (Elt F)) :
    after seg5 V (Proc.devRef .tc main_v719) = Batch.next2 (args V) ⟨V (Proc.devRef .tc main_v523), V (Proc.devRef .tc main_v561), V (Proc.devRef .tc main_v599), V (Proc.devRef .tc main_v604)⟩ :=  by
  simp only [seg5]
  after_results_simp
  rfl

set_option maxRecDepth 65536 in
set_option maxHeartbeats 8000000 in
theorem seg5_pos (V : Valuation τ sig (Elt F)) :
    after seg5 V (Proc.devRef .tc main_v724) = Batch.readOut (Batch.next2 (args V) ⟨V (Proc.devRef .tc main_v523), V (Proc.devRef .tc main_v561), V (Proc.devRef .tc main_v599), V (Proc.devRef .tc main_v604)⟩) (args V).wo (args V).bo :=  by
  simp only [seg5]
  after_results_simp
  rfl

end Cert.ReferenceIdeal.Value

end
-- ==== Proof.RefStep6.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg6_h0 (V : Valuation τ sig (Elt F)) :
    after seg6 V (Proc.devRef .tc main_v763) = Batch.next0 (args V) ⟨V (Proc.devRef .tc main_v643), V (Proc.devRef .tc main_v681), V (Proc.devRef .tc main_v719), V (Proc.devRef .tc main_v724)⟩ :=  by
  simp only [seg6]
  after_results_simp
  rfl

set_option maxRecDepth 65536 in
set_option maxHeartbeats 8000000 in
theorem seg6_h1 (V : Valuation τ sig (Elt F)) :
    after seg6 V (Proc.devRef .tc main_v801) = Batch.next1 (args V) ⟨V (Proc.devRef .tc main_v643), V (Proc.devRef .tc main_v681), V (Proc.devRef .tc main_v719), V (Proc.devRef .tc main_v724)⟩ :=  by
  simp only [seg6]
  after_results_simp
  rfl

set_option maxRecDepth 65536 in
set_option maxHeartbeats 8000000 in
theorem seg6_h2 (V : Valuation τ sig (Elt F)) :
    after seg6 V (Proc.devRef .tc main_v839) = Batch.next2 (args V) ⟨V (Proc.devRef .tc main_v643), V (Proc.devRef .tc main_v681), V (Proc.devRef .tc main_v719), V (Proc.devRef .tc main_v724)⟩ :=  by
  simp only [seg6]
  after_results_simp
  rfl

set_option maxRecDepth 65536 in
set_option maxHeartbeats 8000000 in
theorem seg6_pos (V : Valuation τ sig (Elt F)) :
    after seg6 V (Proc.devRef .tc main_v844) = Batch.readOut (Batch.next2 (args V) ⟨V (Proc.devRef .tc main_v643), V (Proc.devRef .tc main_v681), V (Proc.devRef .tc main_v719), V (Proc.devRef .tc main_v724)⟩) (args V).wo (args V).bo :=  by
  simp only [seg6]
  after_results_simp
  rfl

end Cert.ReferenceIdeal.Value

end
-- ==== Proof.RefStep7.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg7_h0 (V : Valuation τ sig (Elt F)) :
    after seg7 V (Proc.devRef .tc main_v883) = Batch.next0 (args V) ⟨V (Proc.devRef .tc main_v763), V (Proc.devRef .tc main_v801), V (Proc.devRef .tc main_v839), V (Proc.devRef .tc main_v844)⟩ :=  by
  simp only [seg7]
  after_results_simp
  rfl

set_option maxRecDepth 65536 in
set_option maxHeartbeats 8000000 in
theorem seg7_h1 (V : Valuation τ sig (Elt F)) :
    after seg7 V (Proc.devRef .tc main_v921) = Batch.next1 (args V) ⟨V (Proc.devRef .tc main_v763), V (Proc.devRef .tc main_v801), V (Proc.devRef .tc main_v839), V (Proc.devRef .tc main_v844)⟩ :=  by
  simp only [seg7]
  after_results_simp
  rfl

set_option maxRecDepth 65536 in
set_option maxHeartbeats 8000000 in
theorem seg7_h2 (V : Valuation τ sig (Elt F)) :
    after seg7 V (Proc.devRef .tc main_v959) = Batch.next2 (args V) ⟨V (Proc.devRef .tc main_v763), V (Proc.devRef .tc main_v801), V (Proc.devRef .tc main_v839), V (Proc.devRef .tc main_v844)⟩ :=  by
  simp only [seg7]
  after_results_simp
  rfl

set_option maxRecDepth 65536 in
set_option maxHeartbeats 8000000 in
theorem seg7_pos (V : Valuation τ sig (Elt F)) :
    after seg7 V (Proc.devRef .tc main_v964) = Batch.readOut (Batch.next2 (args V) ⟨V (Proc.devRef .tc main_v763), V (Proc.devRef .tc main_v801), V (Proc.devRef .tc main_v839), V (Proc.devRef .tc main_v844)⟩) (args V).wo (args V).bo :=  by
  simp only [seg7]
  after_results_simp
  rfl

end Cert.ReferenceIdeal.Value

end
-- ==== Proof.RefStep8.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg8_h0 (V : Valuation τ sig (Elt F)) :
    after seg8 V (Proc.devRef .tc main_v1003) = Batch.next0 (args V) ⟨V (Proc.devRef .tc main_v883), V (Proc.devRef .tc main_v921), V (Proc.devRef .tc main_v959), V (Proc.devRef .tc main_v964)⟩ :=  by
  simp only [seg8]
  after_results_simp
  rfl

set_option maxRecDepth 65536 in
set_option maxHeartbeats 8000000 in
theorem seg8_h1 (V : Valuation τ sig (Elt F)) :
    after seg8 V (Proc.devRef .tc main_v1041) = Batch.next1 (args V) ⟨V (Proc.devRef .tc main_v883), V (Proc.devRef .tc main_v921), V (Proc.devRef .tc main_v959), V (Proc.devRef .tc main_v964)⟩ :=  by
  simp only [seg8]
  after_results_simp
  rfl

set_option maxRecDepth 65536 in
set_option maxHeartbeats 8000000 in
theorem seg8_h2 (V : Valuation τ sig (Elt F)) :
    after seg8 V (Proc.devRef .tc main_v1079) = Batch.next2 (args V) ⟨V (Proc.devRef .tc main_v883), V (Proc.devRef .tc main_v921), V (Proc.devRef .tc main_v959), V (Proc.devRef .tc main_v964)⟩ :=  by
  simp only [seg8]
  after_results_simp
  rfl

set_option maxRecDepth 65536 in
set_option maxHeartbeats 8000000 in
theorem seg8_pos (V : Valuation τ sig (Elt F)) :
    after seg8 V (Proc.devRef .tc main_v1084) = Batch.readOut (Batch.next2 (args V) ⟨V (Proc.devRef .tc main_v883), V (Proc.devRef .tc main_v921), V (Proc.devRef .tc main_v959), V (Proc.devRef .tc main_v964)⟩) (args V).wo (args V).bo :=  by
  simp only [seg8]
  after_results_simp
  rfl

end Cert.ReferenceIdeal.Value

end
-- ==== Proof.RefStep9.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg9_h0 (V : Valuation τ sig (Elt F)) :
    after seg9 V (Proc.devRef .tc main_v1123) = Batch.next0 (args V) ⟨V (Proc.devRef .tc main_v1003), V (Proc.devRef .tc main_v1041), V (Proc.devRef .tc main_v1079), V (Proc.devRef .tc main_v1084)⟩ :=  by
  simp only [seg9]
  after_results_simp
  rfl

set_option maxRecDepth 65536 in
set_option maxHeartbeats 8000000 in
theorem seg9_h1 (V : Valuation τ sig (Elt F)) :
    after seg9 V (Proc.devRef .tc main_v1161) = Batch.next1 (args V) ⟨V (Proc.devRef .tc main_v1003), V (Proc.devRef .tc main_v1041), V (Proc.devRef .tc main_v1079), V (Proc.devRef .tc main_v1084)⟩ :=  by
  simp only [seg9]
  after_results_simp
  rfl

set_option maxRecDepth 65536 in
set_option maxHeartbeats 8000000 in
theorem seg9_h2 (V : Valuation τ sig (Elt F)) :
    after seg9 V (Proc.devRef .tc main_v1199) = Batch.next2 (args V) ⟨V (Proc.devRef .tc main_v1003), V (Proc.devRef .tc main_v1041), V (Proc.devRef .tc main_v1079), V (Proc.devRef .tc main_v1084)⟩ :=  by
  simp only [seg9]
  after_results_simp
  rfl

set_option maxRecDepth 65536 in
set_option maxHeartbeats 8000000 in
theorem seg9_pos (V : Valuation τ sig (Elt F)) :
    after seg9 V (Proc.devRef .tc main_v1204) = Batch.readOut (Batch.next2 (args V) ⟨V (Proc.devRef .tc main_v1003), V (Proc.devRef .tc main_v1041), V (Proc.devRef .tc main_v1079), V (Proc.devRef .tc main_v1084)⟩) (args V).wo (args V).bo :=  by
  simp only [seg9]
  after_results_simp
  rfl

end Cert.ReferenceIdeal.Value

end
-- ==== Proof.RefStep10.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg10_h0 (V : Valuation τ sig (Elt F)) :
    after seg10 V (Proc.devRef .tc main_v1243) = Batch.next0 (args V) ⟨V (Proc.devRef .tc main_v1123), V (Proc.devRef .tc main_v1161), V (Proc.devRef .tc main_v1199), V (Proc.devRef .tc main_v1204)⟩ :=  by
  simp only [seg10]
  after_results_simp
  rfl

set_option maxRecDepth 65536 in
set_option maxHeartbeats 8000000 in
theorem seg10_h1 (V : Valuation τ sig (Elt F)) :
    after seg10 V (Proc.devRef .tc main_v1281) = Batch.next1 (args V) ⟨V (Proc.devRef .tc main_v1123), V (Proc.devRef .tc main_v1161), V (Proc.devRef .tc main_v1199), V (Proc.devRef .tc main_v1204)⟩ :=  by
  simp only [seg10]
  after_results_simp
  rfl

set_option maxRecDepth 65536 in
set_option maxHeartbeats 8000000 in
theorem seg10_h2 (V : Valuation τ sig (Elt F)) :
    after seg10 V (Proc.devRef .tc main_v1319) = Batch.next2 (args V) ⟨V (Proc.devRef .tc main_v1123), V (Proc.devRef .tc main_v1161), V (Proc.devRef .tc main_v1199), V (Proc.devRef .tc main_v1204)⟩ :=  by
  simp only [seg10]
  after_results_simp
  rfl

set_option maxRecDepth 65536 in
set_option maxHeartbeats 8000000 in
theorem seg10_pos (V : Valuation τ sig (Elt F)) :
    after seg10 V (Proc.devRef .tc main_v1324) = Batch.readOut (Batch.next2 (args V) ⟨V (Proc.devRef .tc main_v1123), V (Proc.devRef .tc main_v1161), V (Proc.devRef .tc main_v1199), V (Proc.devRef .tc main_v1204)⟩) (args V).wo (args V).bo :=  by
  simp only [seg10]
  after_results_simp
  rfl

end Cert.ReferenceIdeal.Value

end
-- ==== Proof.RefStep11.lean ====
import proofs.«419133_j59072980189901_3_alg».proof.Proof.RefSteps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
theorem seg11_h0 (V : Valuation τ sig (Elt F)) :
    after seg11 V (Proc.devRef .tc main_v1363) = Batch.next0 (args V) ⟨V (Proc.devRef .tc main_v1243), V (Proc.devRef .tc main_v1281), V (Proc.devRef .tc main_v1319), V (Proc.devRef .tc main_v1324)⟩ :=  by
  simp only [seg11]
  after_results_simp
  rfl

set_option maxRecDepth 65536 in
set_option maxHeartbeats 8000000 in
theorem seg11_h1 (V : Valuation τ sig (Elt F)) :
    after seg11 V (Proc.devRef .tc main_v1401) = Batch.next1 (args V) ⟨V (Proc.devRef .tc main_v1243), V (Proc.devRef .tc main_v1281), V (Proc.devRef .tc main_v1319), V (Proc.devRef .tc main_v1324)⟩ :=  by
  simp only [seg11]
  after_results_simp
  rfl

set_option maxRecDepth 65536 in
set_option maxHeartbeats 8000000 in
theorem seg11_h2 (V : Valuation τ sig (Elt F)) :
    after seg11 V (Proc.devRef .tc main_v1439) = Batch.next2 (args V) ⟨V (Proc.devRef .tc main_v1243), V (Proc.devRef .tc main_v1281), V (Proc.devRef .tc main_v1319), V (Proc.devRef .tc main_v1324)⟩ :=  by
  simp only [seg11]
  after_results_simp
  rfl

set_option maxRecDepth 65536 in
set_option maxHeartbeats 8000000 in
theorem seg11_pos (V : Valuation τ sig (Elt F)) :
    after seg11 V (Proc.devRef .tc main_v1444) = Batch.readOut (Batch.next2 (args V) ⟨V (Proc.devRef .tc main_v1243), V (Proc.devRef .tc main_v1281), V (Proc.devRef .tc main_v1319), V (Proc.devRef .tc main_v1324)⟩) (args V).wo (args V).bo :=  by
  simp only [seg11]
  after_results_simp
  rfl

end Cert.ReferenceIdeal.Value

end
-- ==== Proof.RefChain.lean ====
import proofs.«419133_j59072980189901_3_alg».proof.Proof.RefStep0
import proofs.«419133_j59072980189901_3_alg».proof.Proof.RefStep1
import proofs.«419133_j59072980189901_3_alg».proof.Proof.RefStep2
import proofs.«419133_j59072980189901_3_alg».proof.Proof.RefStep3
import proofs.«419133_j59072980189901_3_alg».proof.Proof.RefStep4
import proofs.«419133_j59072980189901_3_alg».proof.Proof.RefStep5
import proofs.«419133_j59072980189901_3_alg».proof.Proof.RefStep6
import proofs.«419133_j59072980189901_3_alg».proof.Proof.RefStep7
import proofs.«419133_j59072980189901_3_alg».proof.Proof.RefStep8
import proofs.«419133_j59072980189901_3_alg».proof.Proof.RefStep9
import proofs.«419133_j59072980189901_3_alg».proof.Proof.RefStep10
import proofs.«419133_j59072980189901_3_alg».proof.Proof.RefStep11

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The contents after the operations before the first step. -/
def W0 (V0 : Valuation τ sig (Elt F)) : Valuation τ sig (Elt F) := after segPro V0
/-- The contents after step 1. -/
def W1 (V0 : Valuation τ sig (Elt F)) : Valuation τ sig (Elt F) := after seg0 (W0 V0)
/-- The contents after step 2. -/
def W2 (V0 : Valuation τ sig (Elt F)) : Valuation τ sig (Elt F) := after seg1 (W1 V0)
/-- The contents after step 3. -/
def W3 (V0 : Valuation τ sig (Elt F)) : Valuation τ sig (Elt F) := after seg2 (W2 V0)
/-- The contents after step 4. -/
def W4 (V0 : Valuation τ sig (Elt F)) : Valuation τ sig (Elt F) := after seg3 (W3 V0)
/-- The contents after step 5. -/
def W5 (V0 : Valuation τ sig (Elt F)) : Valuation τ sig (Elt F) := after seg4 (W4 V0)
/-- The contents after step 6. -/
def W6 (V0 : Valuation τ sig (Elt F)) : Valuation τ sig (Elt F) := after seg5 (W5 V0)
/-- The contents after step 7. -/
def W7 (V0 : Valuation τ sig (Elt F)) : Valuation τ sig (Elt F) := after seg6 (W6 V0)
/-- The contents after step 8. -/
def W8 (V0 : Valuation τ sig (Elt F)) : Valuation τ sig (Elt F) := after seg7 (W7 V0)
/-- The contents after step 9. -/
def W9 (V0 : Valuation τ sig (Elt F)) : Valuation τ sig (Elt F) := after seg8 (W8 V0)
/-- The contents after step 10. -/
def W10 (V0 : Valuation τ sig (Elt F)) : Valuation τ sig (Elt F) := after seg9 (W9 V0)
/-- The contents after step 11. -/
def W11 (V0 : Valuation τ sig (Elt F)) : Valuation τ sig (Elt F) := after seg10 (W10 V0)
/-- The contents after step 12. -/
def W12 (V0 : Valuation τ sig (Elt F)) : Valuation τ sig (Elt F) := after seg11 (W11 V0)

theorem W0_arg0 (V0 : Valuation τ sig (Elt F)) : W0 V0 (Proc.devRef .tc main_arg0) = V0 (Proc.devRef .tc main_arg0) :=
  segPro_keep V0 main_arg0 (by decide)
theorem W0_arg1 (V0 : Valuation τ sig (Elt F)) : W0 V0 (Proc.devRef .tc main_arg1) = V0 (Proc.devRef .tc main_arg1) :=
  segPro_keep V0 main_arg1 (by decide)
theorem W0_arg2 (V0 : Valuation τ sig (Elt F)) : W0 V0 (Proc.devRef .tc main_arg2) = V0 (Proc.devRef .tc main_arg2) :=
  segPro_keep V0 main_arg2 (by decide)
theorem W0_arg3 (V0 : Valuation τ sig (Elt F)) : W0 V0 (Proc.devRef .tc main_arg3) = V0 (Proc.devRef .tc main_arg3) :=
  segPro_keep V0 main_arg3 (by decide)
theorem W0_arg4 (V0 : Valuation τ sig (Elt F)) : W0 V0 (Proc.devRef .tc main_arg4) = V0 (Proc.devRef .tc main_arg4) :=
  segPro_keep V0 main_arg4 (by decide)
theorem W0_arg5 (V0 : Valuation τ sig (Elt F)) : W0 V0 (Proc.devRef .tc main_arg5) = V0 (Proc.devRef .tc main_arg5) :=
  segPro_keep V0 main_arg5 (by decide)
theorem W0_arg6 (V0 : Valuation τ sig (Elt F)) : W0 V0 (Proc.devRef .tc main_arg6) = V0 (Proc.devRef .tc main_arg6) :=
  segPro_keep V0 main_arg6 (by decide)
theorem W0_arg7 (V0 : Valuation τ sig (Elt F)) : W0 V0 (Proc.devRef .tc main_arg7) = V0 (Proc.devRef .tc main_arg7) :=
  segPro_keep V0 main_arg7 (by decide)
theorem W0_arg8 (V0 : Valuation τ sig (Elt F)) : W0 V0 (Proc.devRef .tc main_arg8) = V0 (Proc.devRef .tc main_arg8) :=
  segPro_keep V0 main_arg8 (by decide)
theorem W0_arg9 (V0 : Valuation τ sig (Elt F)) : W0 V0 (Proc.devRef .tc main_arg9) = V0 (Proc.devRef .tc main_arg9) :=
  segPro_keep V0 main_arg9 (by decide)
theorem W0_arg10 (V0 : Valuation τ sig (Elt F)) : W0 V0 (Proc.devRef .tc main_arg10) = V0 (Proc.devRef .tc main_arg10) :=
  segPro_keep V0 main_arg10 (by decide)
theorem W0_arg11 (V0 : Valuation τ sig (Elt F)) : W0 V0 (Proc.devRef .tc main_arg11) = V0 (Proc.devRef .tc main_arg11) :=
  segPro_keep V0 main_arg11 (by decide)
theorem W0_arg12 (V0 : Valuation τ sig (Elt F)) : W0 V0 (Proc.devRef .tc main_arg12) = V0 (Proc.devRef .tc main_arg12) :=
  segPro_keep V0 main_arg12 (by decide)
theorem W0_arg13 (V0 : Valuation τ sig (Elt F)) : W0 V0 (Proc.devRef .tc main_arg13) = V0 (Proc.devRef .tc main_arg13) :=
  segPro_keep V0 main_arg13 (by decide)
theorem W0_arg14 (V0 : Valuation τ sig (Elt F)) : W0 V0 (Proc.devRef .tc main_arg14) = V0 (Proc.devRef .tc main_arg14) :=
  segPro_keep V0 main_arg14 (by decide)
theorem W0_arg15 (V0 : Valuation τ sig (Elt F)) : W0 V0 (Proc.devRef .tc main_arg15) = V0 (Proc.devRef .tc main_arg15) :=
  segPro_keep V0 main_arg15 (by decide)
theorem W0_args (V0 : Valuation τ sig (Elt F)) : args (W0 V0) = args V0 := by
  unfold args
  rw [W0_arg0, W0_arg1, W0_arg2, W0_arg3, W0_arg4, W0_arg5, W0_arg6, W0_arg7, W0_arg8, W0_arg9, W0_arg10, W0_arg11, W0_arg12, W0_arg13, W0_arg14, W0_arg15]
set_option maxRecDepth 65536 in
theorem W0_h0 (V0 : Valuation τ sig (Elt F)) : W0 V0 (Proc.devRef .tc main_v0) = (Batch.after (args V0) 0).h0 := by
  unfold W0
  simp only [segPro]
  after_results_simp
  all_goals rfl
set_option maxRecDepth 65536 in
theorem W0_h1 (V0 : Valuation τ sig (Elt F)) : W0 V0 (Proc.devRef .tc main_v1) = (Batch.after (args V0) 0).h1 := by
  unfold W0
  simp only [segPro]
  after_results_simp
  all_goals rfl
set_option maxRecDepth 65536 in
theorem W0_h2 (V0 : Valuation τ sig (Elt F)) : W0 V0 (Proc.devRef .tc main_v2) = (Batch.after (args V0) 0).h2 := by
  unfold W0
  simp only [segPro]
  after_results_simp
  all_goals rfl
set_option maxRecDepth 65536 in
theorem W0_pos (V0 : Valuation τ sig (Elt F)) : W0 V0 (Proc.devRef .tc main_v4) = (Batch.after (args V0) 0).pos := by
  unfold W0
  simp only [segPro]
  after_results_simp
  all_goals rfl

theorem W1_arg0 (V0 : Valuation τ sig (Elt F)) : W1 V0 (Proc.devRef .tc main_arg0) = V0 (Proc.devRef .tc main_arg0) :=
  (seg0_keep (W0 V0) main_arg0 (by decide)).trans (W0_arg0 V0)
theorem W1_arg1 (V0 : Valuation τ sig (Elt F)) : W1 V0 (Proc.devRef .tc main_arg1) = V0 (Proc.devRef .tc main_arg1) :=
  (seg0_keep (W0 V0) main_arg1 (by decide)).trans (W0_arg1 V0)
theorem W1_arg2 (V0 : Valuation τ sig (Elt F)) : W1 V0 (Proc.devRef .tc main_arg2) = V0 (Proc.devRef .tc main_arg2) :=
  (seg0_keep (W0 V0) main_arg2 (by decide)).trans (W0_arg2 V0)
theorem W1_arg3 (V0 : Valuation τ sig (Elt F)) : W1 V0 (Proc.devRef .tc main_arg3) = V0 (Proc.devRef .tc main_arg3) :=
  (seg0_keep (W0 V0) main_arg3 (by decide)).trans (W0_arg3 V0)
theorem W1_arg4 (V0 : Valuation τ sig (Elt F)) : W1 V0 (Proc.devRef .tc main_arg4) = V0 (Proc.devRef .tc main_arg4) :=
  (seg0_keep (W0 V0) main_arg4 (by decide)).trans (W0_arg4 V0)
theorem W1_arg5 (V0 : Valuation τ sig (Elt F)) : W1 V0 (Proc.devRef .tc main_arg5) = V0 (Proc.devRef .tc main_arg5) :=
  (seg0_keep (W0 V0) main_arg5 (by decide)).trans (W0_arg5 V0)
theorem W1_arg6 (V0 : Valuation τ sig (Elt F)) : W1 V0 (Proc.devRef .tc main_arg6) = V0 (Proc.devRef .tc main_arg6) :=
  (seg0_keep (W0 V0) main_arg6 (by decide)).trans (W0_arg6 V0)
theorem W1_arg7 (V0 : Valuation τ sig (Elt F)) : W1 V0 (Proc.devRef .tc main_arg7) = V0 (Proc.devRef .tc main_arg7) :=
  (seg0_keep (W0 V0) main_arg7 (by decide)).trans (W0_arg7 V0)
theorem W1_arg8 (V0 : Valuation τ sig (Elt F)) : W1 V0 (Proc.devRef .tc main_arg8) = V0 (Proc.devRef .tc main_arg8) :=
  (seg0_keep (W0 V0) main_arg8 (by decide)).trans (W0_arg8 V0)
theorem W1_arg9 (V0 : Valuation τ sig (Elt F)) : W1 V0 (Proc.devRef .tc main_arg9) = V0 (Proc.devRef .tc main_arg9) :=
  (seg0_keep (W0 V0) main_arg9 (by decide)).trans (W0_arg9 V0)
theorem W1_arg10 (V0 : Valuation τ sig (Elt F)) : W1 V0 (Proc.devRef .tc main_arg10) = V0 (Proc.devRef .tc main_arg10) :=
  (seg0_keep (W0 V0) main_arg10 (by decide)).trans (W0_arg10 V0)
theorem W1_arg11 (V0 : Valuation τ sig (Elt F)) : W1 V0 (Proc.devRef .tc main_arg11) = V0 (Proc.devRef .tc main_arg11) :=
  (seg0_keep (W0 V0) main_arg11 (by decide)).trans (W0_arg11 V0)
theorem W1_arg12 (V0 : Valuation τ sig (Elt F)) : W1 V0 (Proc.devRef .tc main_arg12) = V0 (Proc.devRef .tc main_arg12) :=
  (seg0_keep (W0 V0) main_arg12 (by decide)).trans (W0_arg12 V0)
theorem W1_arg13 (V0 : Valuation τ sig (Elt F)) : W1 V0 (Proc.devRef .tc main_arg13) = V0 (Proc.devRef .tc main_arg13) :=
  (seg0_keep (W0 V0) main_arg13 (by decide)).trans (W0_arg13 V0)
theorem W1_arg14 (V0 : Valuation τ sig (Elt F)) : W1 V0 (Proc.devRef .tc main_arg14) = V0 (Proc.devRef .tc main_arg14) :=
  (seg0_keep (W0 V0) main_arg14 (by decide)).trans (W0_arg14 V0)
theorem W1_arg15 (V0 : Valuation τ sig (Elt F)) : W1 V0 (Proc.devRef .tc main_arg15) = V0 (Proc.devRef .tc main_arg15) :=
  (seg0_keep (W0 V0) main_arg15 (by decide)).trans (W0_arg15 V0)
theorem W1_args (V0 : Valuation τ sig (Elt F)) : args (W1 V0) = args V0 := by
  unfold args
  rw [W1_arg0, W1_arg1, W1_arg2, W1_arg3, W1_arg4, W1_arg5, W1_arg6, W1_arg7, W1_arg8, W1_arg9, W1_arg10, W1_arg11, W1_arg12, W1_arg13, W1_arg14, W1_arg15]
theorem W1_h0 (V0 : Valuation τ sig (Elt F)) : W1 V0 (Proc.devRef .tc main_v43) = (Batch.after (args V0) 1).h0 := by
  unfold W1
  rw [seg0_h0, W0_args, W0_h0, W0_h1, W0_h2, W0_pos]
  rfl
theorem W1_h1 (V0 : Valuation τ sig (Elt F)) : W1 V0 (Proc.devRef .tc main_v81) = (Batch.after (args V0) 1).h1 := by
  unfold W1
  rw [seg0_h1, W0_args, W0_h0, W0_h1, W0_h2, W0_pos]
  rfl
theorem W1_h2 (V0 : Valuation τ sig (Elt F)) : W1 V0 (Proc.devRef .tc main_v119) = (Batch.after (args V0) 1).h2 := by
  unfold W1
  rw [seg0_h2, W0_args, W0_h0, W0_h1, W0_h2, W0_pos]
  rfl
theorem W1_pos (V0 : Valuation τ sig (Elt F)) : W1 V0 (Proc.devRef .tc main_v124) = (Batch.after (args V0) 1).pos := by
  unfold W1
  rw [seg0_pos, W0_args, W0_h0, W0_h1, W0_h2, W0_pos]
  rfl
theorem W1_out0 (V0 : Valuation τ sig (Elt F)) : W1 V0 (Proc.devRef .tc main_v124) = (Batch.after (args V0) 1).pos := W1_pos V0

theorem W2_arg0 (V0 : Valuation τ sig (Elt F)) : W2 V0 (Proc.devRef .tc main_arg0) = V0 (Proc.devRef .tc main_arg0) :=
  (seg1_keep (W1 V0) main_arg0 (by decide)).trans (W1_arg0 V0)
theorem W2_arg1 (V0 : Valuation τ sig (Elt F)) : W2 V0 (Proc.devRef .tc main_arg1) = V0 (Proc.devRef .tc main_arg1) :=
  (seg1_keep (W1 V0) main_arg1 (by decide)).trans (W1_arg1 V0)
theorem W2_arg2 (V0 : Valuation τ sig (Elt F)) : W2 V0 (Proc.devRef .tc main_arg2) = V0 (Proc.devRef .tc main_arg2) :=
  (seg1_keep (W1 V0) main_arg2 (by decide)).trans (W1_arg2 V0)
theorem W2_arg3 (V0 : Valuation τ sig (Elt F)) : W2 V0 (Proc.devRef .tc main_arg3) = V0 (Proc.devRef .tc main_arg3) :=
  (seg1_keep (W1 V0) main_arg3 (by decide)).trans (W1_arg3 V0)
theorem W2_arg4 (V0 : Valuation τ sig (Elt F)) : W2 V0 (Proc.devRef .tc main_arg4) = V0 (Proc.devRef .tc main_arg4) :=
  (seg1_keep (W1 V0) main_arg4 (by decide)).trans (W1_arg4 V0)
theorem W2_arg5 (V0 : Valuation τ sig (Elt F)) : W2 V0 (Proc.devRef .tc main_arg5) = V0 (Proc.devRef .tc main_arg5) :=
  (seg1_keep (W1 V0) main_arg5 (by decide)).trans (W1_arg5 V0)
theorem W2_arg6 (V0 : Valuation τ sig (Elt F)) : W2 V0 (Proc.devRef .tc main_arg6) = V0 (Proc.devRef .tc main_arg6) :=
  (seg1_keep (W1 V0) main_arg6 (by decide)).trans (W1_arg6 V0)
theorem W2_arg7 (V0 : Valuation τ sig (Elt F)) : W2 V0 (Proc.devRef .tc main_arg7) = V0 (Proc.devRef .tc main_arg7) :=
  (seg1_keep (W1 V0) main_arg7 (by decide)).trans (W1_arg7 V0)
theorem W2_arg8 (V0 : Valuation τ sig (Elt F)) : W2 V0 (Proc.devRef .tc main_arg8) = V0 (Proc.devRef .tc main_arg8) :=
  (seg1_keep (W1 V0) main_arg8 (by decide)).trans (W1_arg8 V0)
theorem W2_arg9 (V0 : Valuation τ sig (Elt F)) : W2 V0 (Proc.devRef .tc main_arg9) = V0 (Proc.devRef .tc main_arg9) :=
  (seg1_keep (W1 V0) main_arg9 (by decide)).trans (W1_arg9 V0)
theorem W2_arg10 (V0 : Valuation τ sig (Elt F)) : W2 V0 (Proc.devRef .tc main_arg10) = V0 (Proc.devRef .tc main_arg10) :=
  (seg1_keep (W1 V0) main_arg10 (by decide)).trans (W1_arg10 V0)
theorem W2_arg11 (V0 : Valuation τ sig (Elt F)) : W2 V0 (Proc.devRef .tc main_arg11) = V0 (Proc.devRef .tc main_arg11) :=
  (seg1_keep (W1 V0) main_arg11 (by decide)).trans (W1_arg11 V0)
theorem W2_arg12 (V0 : Valuation τ sig (Elt F)) : W2 V0 (Proc.devRef .tc main_arg12) = V0 (Proc.devRef .tc main_arg12) :=
  (seg1_keep (W1 V0) main_arg12 (by decide)).trans (W1_arg12 V0)
theorem W2_arg13 (V0 : Valuation τ sig (Elt F)) : W2 V0 (Proc.devRef .tc main_arg13) = V0 (Proc.devRef .tc main_arg13) :=
  (seg1_keep (W1 V0) main_arg13 (by decide)).trans (W1_arg13 V0)
theorem W2_arg14 (V0 : Valuation τ sig (Elt F)) : W2 V0 (Proc.devRef .tc main_arg14) = V0 (Proc.devRef .tc main_arg14) :=
  (seg1_keep (W1 V0) main_arg14 (by decide)).trans (W1_arg14 V0)
theorem W2_arg15 (V0 : Valuation τ sig (Elt F)) : W2 V0 (Proc.devRef .tc main_arg15) = V0 (Proc.devRef .tc main_arg15) :=
  (seg1_keep (W1 V0) main_arg15 (by decide)).trans (W1_arg15 V0)
theorem W2_args (V0 : Valuation τ sig (Elt F)) : args (W2 V0) = args V0 := by
  unfold args
  rw [W2_arg0, W2_arg1, W2_arg2, W2_arg3, W2_arg4, W2_arg5, W2_arg6, W2_arg7, W2_arg8, W2_arg9, W2_arg10, W2_arg11, W2_arg12, W2_arg13, W2_arg14, W2_arg15]
theorem W2_h0 (V0 : Valuation τ sig (Elt F)) : W2 V0 (Proc.devRef .tc main_v163) = (Batch.after (args V0) 2).h0 := by
  unfold W2
  rw [seg1_h0, W1_args, W1_h0, W1_h1, W1_h2, W1_pos]
  rfl
theorem W2_h1 (V0 : Valuation τ sig (Elt F)) : W2 V0 (Proc.devRef .tc main_v201) = (Batch.after (args V0) 2).h1 := by
  unfold W2
  rw [seg1_h1, W1_args, W1_h0, W1_h1, W1_h2, W1_pos]
  rfl
theorem W2_h2 (V0 : Valuation τ sig (Elt F)) : W2 V0 (Proc.devRef .tc main_v239) = (Batch.after (args V0) 2).h2 := by
  unfold W2
  rw [seg1_h2, W1_args, W1_h0, W1_h1, W1_h2, W1_pos]
  rfl
theorem W2_pos (V0 : Valuation τ sig (Elt F)) : W2 V0 (Proc.devRef .tc main_v244) = (Batch.after (args V0) 2).pos := by
  unfold W2
  rw [seg1_pos, W1_args, W1_h0, W1_h1, W1_h2, W1_pos]
  rfl
theorem W2_out1 (V0 : Valuation τ sig (Elt F)) : W2 V0 (Proc.devRef .tc main_v244) = (Batch.after (args V0) 2).pos := W2_pos V0
theorem W2_out0 (V0 : Valuation τ sig (Elt F)) : W2 V0 (Proc.devRef .tc main_v124) = (Batch.after (args V0) 1).pos :=
  (seg1_keep (W1 V0) main_v124 (by decide)).trans (W1_out0 V0)

theorem W3_arg0 (V0 : Valuation τ sig (Elt F)) : W3 V0 (Proc.devRef .tc main_arg0) = V0 (Proc.devRef .tc main_arg0) :=
  (seg2_keep (W2 V0) main_arg0 (by decide)).trans (W2_arg0 V0)
theorem W3_arg1 (V0 : Valuation τ sig (Elt F)) : W3 V0 (Proc.devRef .tc main_arg1) = V0 (Proc.devRef .tc main_arg1) :=
  (seg2_keep (W2 V0) main_arg1 (by decide)).trans (W2_arg1 V0)
theorem W3_arg2 (V0 : Valuation τ sig (Elt F)) : W3 V0 (Proc.devRef .tc main_arg2) = V0 (Proc.devRef .tc main_arg2) :=
  (seg2_keep (W2 V0) main_arg2 (by decide)).trans (W2_arg2 V0)
theorem W3_arg3 (V0 : Valuation τ sig (Elt F)) : W3 V0 (Proc.devRef .tc main_arg3) = V0 (Proc.devRef .tc main_arg3) :=
  (seg2_keep (W2 V0) main_arg3 (by decide)).trans (W2_arg3 V0)
theorem W3_arg4 (V0 : Valuation τ sig (Elt F)) : W3 V0 (Proc.devRef .tc main_arg4) = V0 (Proc.devRef .tc main_arg4) :=
  (seg2_keep (W2 V0) main_arg4 (by decide)).trans (W2_arg4 V0)
theorem W3_arg5 (V0 : Valuation τ sig (Elt F)) : W3 V0 (Proc.devRef .tc main_arg5) = V0 (Proc.devRef .tc main_arg5) :=
  (seg2_keep (W2 V0) main_arg5 (by decide)).trans (W2_arg5 V0)
theorem W3_arg6 (V0 : Valuation τ sig (Elt F)) : W3 V0 (Proc.devRef .tc main_arg6) = V0 (Proc.devRef .tc main_arg6) :=
  (seg2_keep (W2 V0) main_arg6 (by decide)).trans (W2_arg6 V0)
theorem W3_arg7 (V0 : Valuation τ sig (Elt F)) : W3 V0 (Proc.devRef .tc main_arg7) = V0 (Proc.devRef .tc main_arg7) :=
  (seg2_keep (W2 V0) main_arg7 (by decide)).trans (W2_arg7 V0)
theorem W3_arg8 (V0 : Valuation τ sig (Elt F)) : W3 V0 (Proc.devRef .tc main_arg8) = V0 (Proc.devRef .tc main_arg8) :=
  (seg2_keep (W2 V0) main_arg8 (by decide)).trans (W2_arg8 V0)
theorem W3_arg9 (V0 : Valuation τ sig (Elt F)) : W3 V0 (Proc.devRef .tc main_arg9) = V0 (Proc.devRef .tc main_arg9) :=
  (seg2_keep (W2 V0) main_arg9 (by decide)).trans (W2_arg9 V0)
theorem W3_arg10 (V0 : Valuation τ sig (Elt F)) : W3 V0 (Proc.devRef .tc main_arg10) = V0 (Proc.devRef .tc main_arg10) :=
  (seg2_keep (W2 V0) main_arg10 (by decide)).trans (W2_arg10 V0)
theorem W3_arg11 (V0 : Valuation τ sig (Elt F)) : W3 V0 (Proc.devRef .tc main_arg11) = V0 (Proc.devRef .tc main_arg11) :=
  (seg2_keep (W2 V0) main_arg11 (by decide)).trans (W2_arg11 V0)
theorem W3_arg12 (V0 : Valuation τ sig (Elt F)) : W3 V0 (Proc.devRef .tc main_arg12) = V0 (Proc.devRef .tc main_arg12) :=
  (seg2_keep (W2 V0) main_arg12 (by decide)).trans (W2_arg12 V0)
theorem W3_arg13 (V0 : Valuation τ sig (Elt F)) : W3 V0 (Proc.devRef .tc main_arg13) = V0 (Proc.devRef .tc main_arg13) :=
  (seg2_keep (W2 V0) main_arg13 (by decide)).trans (W2_arg13 V0)
theorem W3_arg14 (V0 : Valuation τ sig (Elt F)) : W3 V0 (Proc.devRef .tc main_arg14) = V0 (Proc.devRef .tc main_arg14) :=
  (seg2_keep (W2 V0) main_arg14 (by decide)).trans (W2_arg14 V0)
theorem W3_arg15 (V0 : Valuation τ sig (Elt F)) : W3 V0 (Proc.devRef .tc main_arg15) = V0 (Proc.devRef .tc main_arg15) :=
  (seg2_keep (W2 V0) main_arg15 (by decide)).trans (W2_arg15 V0)
theorem W3_args (V0 : Valuation τ sig (Elt F)) : args (W3 V0) = args V0 := by
  unfold args
  rw [W3_arg0, W3_arg1, W3_arg2, W3_arg3, W3_arg4, W3_arg5, W3_arg6, W3_arg7, W3_arg8, W3_arg9, W3_arg10, W3_arg11, W3_arg12, W3_arg13, W3_arg14, W3_arg15]
theorem W3_h0 (V0 : Valuation τ sig (Elt F)) : W3 V0 (Proc.devRef .tc main_v283) = (Batch.after (args V0) 3).h0 := by
  unfold W3
  rw [seg2_h0, W2_args, W2_h0, W2_h1, W2_h2, W2_pos]
  rfl
theorem W3_h1 (V0 : Valuation τ sig (Elt F)) : W3 V0 (Proc.devRef .tc main_v321) = (Batch.after (args V0) 3).h1 := by
  unfold W3
  rw [seg2_h1, W2_args, W2_h0, W2_h1, W2_h2, W2_pos]
  rfl
theorem W3_h2 (V0 : Valuation τ sig (Elt F)) : W3 V0 (Proc.devRef .tc main_v359) = (Batch.after (args V0) 3).h2 := by
  unfold W3
  rw [seg2_h2, W2_args, W2_h0, W2_h1, W2_h2, W2_pos]
  rfl
theorem W3_pos (V0 : Valuation τ sig (Elt F)) : W3 V0 (Proc.devRef .tc main_v364) = (Batch.after (args V0) 3).pos := by
  unfold W3
  rw [seg2_pos, W2_args, W2_h0, W2_h1, W2_h2, W2_pos]
  rfl
theorem W3_out2 (V0 : Valuation τ sig (Elt F)) : W3 V0 (Proc.devRef .tc main_v364) = (Batch.after (args V0) 3).pos := W3_pos V0
theorem W3_out0 (V0 : Valuation τ sig (Elt F)) : W3 V0 (Proc.devRef .tc main_v124) = (Batch.after (args V0) 1).pos :=
  (seg2_keep (W2 V0) main_v124 (by decide)).trans (W2_out0 V0)
theorem W3_out1 (V0 : Valuation τ sig (Elt F)) : W3 V0 (Proc.devRef .tc main_v244) = (Batch.after (args V0) 2).pos :=
  (seg2_keep (W2 V0) main_v244 (by decide)).trans (W2_out1 V0)

theorem W4_arg0 (V0 : Valuation τ sig (Elt F)) : W4 V0 (Proc.devRef .tc main_arg0) = V0 (Proc.devRef .tc main_arg0) :=
  (seg3_keep (W3 V0) main_arg0 (by decide)).trans (W3_arg0 V0)
theorem W4_arg1 (V0 : Valuation τ sig (Elt F)) : W4 V0 (Proc.devRef .tc main_arg1) = V0 (Proc.devRef .tc main_arg1) :=
  (seg3_keep (W3 V0) main_arg1 (by decide)).trans (W3_arg1 V0)
theorem W4_arg2 (V0 : Valuation τ sig (Elt F)) : W4 V0 (Proc.devRef .tc main_arg2) = V0 (Proc.devRef .tc main_arg2) :=
  (seg3_keep (W3 V0) main_arg2 (by decide)).trans (W3_arg2 V0)
theorem W4_arg3 (V0 : Valuation τ sig (Elt F)) : W4 V0 (Proc.devRef .tc main_arg3) = V0 (Proc.devRef .tc main_arg3) :=
  (seg3_keep (W3 V0) main_arg3 (by decide)).trans (W3_arg3 V0)
theorem W4_arg4 (V0 : Valuation τ sig (Elt F)) : W4 V0 (Proc.devRef .tc main_arg4) = V0 (Proc.devRef .tc main_arg4) :=
  (seg3_keep (W3 V0) main_arg4 (by decide)).trans (W3_arg4 V0)
theorem W4_arg5 (V0 : Valuation τ sig (Elt F)) : W4 V0 (Proc.devRef .tc main_arg5) = V0 (Proc.devRef .tc main_arg5) :=
  (seg3_keep (W3 V0) main_arg5 (by decide)).trans (W3_arg5 V0)
theorem W4_arg6 (V0 : Valuation τ sig (Elt F)) : W4 V0 (Proc.devRef .tc main_arg6) = V0 (Proc.devRef .tc main_arg6) :=
  (seg3_keep (W3 V0) main_arg6 (by decide)).trans (W3_arg6 V0)
theorem W4_arg7 (V0 : Valuation τ sig (Elt F)) : W4 V0 (Proc.devRef .tc main_arg7) = V0 (Proc.devRef .tc main_arg7) :=
  (seg3_keep (W3 V0) main_arg7 (by decide)).trans (W3_arg7 V0)
theorem W4_arg8 (V0 : Valuation τ sig (Elt F)) : W4 V0 (Proc.devRef .tc main_arg8) = V0 (Proc.devRef .tc main_arg8) :=
  (seg3_keep (W3 V0) main_arg8 (by decide)).trans (W3_arg8 V0)
theorem W4_arg9 (V0 : Valuation τ sig (Elt F)) : W4 V0 (Proc.devRef .tc main_arg9) = V0 (Proc.devRef .tc main_arg9) :=
  (seg3_keep (W3 V0) main_arg9 (by decide)).trans (W3_arg9 V0)
theorem W4_arg10 (V0 : Valuation τ sig (Elt F)) : W4 V0 (Proc.devRef .tc main_arg10) = V0 (Proc.devRef .tc main_arg10) :=
  (seg3_keep (W3 V0) main_arg10 (by decide)).trans (W3_arg10 V0)
theorem W4_arg11 (V0 : Valuation τ sig (Elt F)) : W4 V0 (Proc.devRef .tc main_arg11) = V0 (Proc.devRef .tc main_arg11) :=
  (seg3_keep (W3 V0) main_arg11 (by decide)).trans (W3_arg11 V0)
theorem W4_arg12 (V0 : Valuation τ sig (Elt F)) : W4 V0 (Proc.devRef .tc main_arg12) = V0 (Proc.devRef .tc main_arg12) :=
  (seg3_keep (W3 V0) main_arg12 (by decide)).trans (W3_arg12 V0)
theorem W4_arg13 (V0 : Valuation τ sig (Elt F)) : W4 V0 (Proc.devRef .tc main_arg13) = V0 (Proc.devRef .tc main_arg13) :=
  (seg3_keep (W3 V0) main_arg13 (by decide)).trans (W3_arg13 V0)
theorem W4_arg14 (V0 : Valuation τ sig (Elt F)) : W4 V0 (Proc.devRef .tc main_arg14) = V0 (Proc.devRef .tc main_arg14) :=
  (seg3_keep (W3 V0) main_arg14 (by decide)).trans (W3_arg14 V0)
theorem W4_arg15 (V0 : Valuation τ sig (Elt F)) : W4 V0 (Proc.devRef .tc main_arg15) = V0 (Proc.devRef .tc main_arg15) :=
  (seg3_keep (W3 V0) main_arg15 (by decide)).trans (W3_arg15 V0)
theorem W4_args (V0 : Valuation τ sig (Elt F)) : args (W4 V0) = args V0 := by
  unfold args
  rw [W4_arg0, W4_arg1, W4_arg2, W4_arg3, W4_arg4, W4_arg5, W4_arg6, W4_arg7, W4_arg8, W4_arg9, W4_arg10, W4_arg11, W4_arg12, W4_arg13, W4_arg14, W4_arg15]
theorem W4_h0 (V0 : Valuation τ sig (Elt F)) : W4 V0 (Proc.devRef .tc main_v403) = (Batch.after (args V0) 4).h0 := by
  unfold W4
  rw [seg3_h0, W3_args, W3_h0, W3_h1, W3_h2, W3_pos]
  rfl
theorem W4_h1 (V0 : Valuation τ sig (Elt F)) : W4 V0 (Proc.devRef .tc main_v441) = (Batch.after (args V0) 4).h1 := by
  unfold W4
  rw [seg3_h1, W3_args, W3_h0, W3_h1, W3_h2, W3_pos]
  rfl
theorem W4_h2 (V0 : Valuation τ sig (Elt F)) : W4 V0 (Proc.devRef .tc main_v479) = (Batch.after (args V0) 4).h2 := by
  unfold W4
  rw [seg3_h2, W3_args, W3_h0, W3_h1, W3_h2, W3_pos]
  rfl
theorem W4_pos (V0 : Valuation τ sig (Elt F)) : W4 V0 (Proc.devRef .tc main_v484) = (Batch.after (args V0) 4).pos := by
  unfold W4
  rw [seg3_pos, W3_args, W3_h0, W3_h1, W3_h2, W3_pos]
  rfl
theorem W4_out3 (V0 : Valuation τ sig (Elt F)) : W4 V0 (Proc.devRef .tc main_v484) = (Batch.after (args V0) 4).pos := W4_pos V0
theorem W4_out0 (V0 : Valuation τ sig (Elt F)) : W4 V0 (Proc.devRef .tc main_v124) = (Batch.after (args V0) 1).pos :=
  (seg3_keep (W3 V0) main_v124 (by decide)).trans (W3_out0 V0)
theorem W4_out1 (V0 : Valuation τ sig (Elt F)) : W4 V0 (Proc.devRef .tc main_v244) = (Batch.after (args V0) 2).pos :=
  (seg3_keep (W3 V0) main_v244 (by decide)).trans (W3_out1 V0)
theorem W4_out2 (V0 : Valuation τ sig (Elt F)) : W4 V0 (Proc.devRef .tc main_v364) = (Batch.after (args V0) 3).pos :=
  (seg3_keep (W3 V0) main_v364 (by decide)).trans (W3_out2 V0)

theorem W5_arg0 (V0 : Valuation τ sig (Elt F)) : W5 V0 (Proc.devRef .tc main_arg0) = V0 (Proc.devRef .tc main_arg0) :=
  (seg4_keep (W4 V0) main_arg0 (by decide)).trans (W4_arg0 V0)
theorem W5_arg1 (V0 : Valuation τ sig (Elt F)) : W5 V0 (Proc.devRef .tc main_arg1) = V0 (Proc.devRef .tc main_arg1) :=
  (seg4_keep (W4 V0) main_arg1 (by decide)).trans (W4_arg1 V0)
theorem W5_arg2 (V0 : Valuation τ sig (Elt F)) : W5 V0 (Proc.devRef .tc main_arg2) = V0 (Proc.devRef .tc main_arg2) :=
  (seg4_keep (W4 V0) main_arg2 (by decide)).trans (W4_arg2 V0)
theorem W5_arg3 (V0 : Valuation τ sig (Elt F)) : W5 V0 (Proc.devRef .tc main_arg3) = V0 (Proc.devRef .tc main_arg3) :=
  (seg4_keep (W4 V0) main_arg3 (by decide)).trans (W4_arg3 V0)
theorem W5_arg4 (V0 : Valuation τ sig (Elt F)) : W5 V0 (Proc.devRef .tc main_arg4) = V0 (Proc.devRef .tc main_arg4) :=
  (seg4_keep (W4 V0) main_arg4 (by decide)).trans (W4_arg4 V0)
theorem W5_arg5 (V0 : Valuation τ sig (Elt F)) : W5 V0 (Proc.devRef .tc main_arg5) = V0 (Proc.devRef .tc main_arg5) :=
  (seg4_keep (W4 V0) main_arg5 (by decide)).trans (W4_arg5 V0)
theorem W5_arg6 (V0 : Valuation τ sig (Elt F)) : W5 V0 (Proc.devRef .tc main_arg6) = V0 (Proc.devRef .tc main_arg6) :=
  (seg4_keep (W4 V0) main_arg6 (by decide)).trans (W4_arg6 V0)
theorem W5_arg7 (V0 : Valuation τ sig (Elt F)) : W5 V0 (Proc.devRef .tc main_arg7) = V0 (Proc.devRef .tc main_arg7) :=
  (seg4_keep (W4 V0) main_arg7 (by decide)).trans (W4_arg7 V0)
theorem W5_arg8 (V0 : Valuation τ sig (Elt F)) : W5 V0 (Proc.devRef .tc main_arg8) = V0 (Proc.devRef .tc main_arg8) :=
  (seg4_keep (W4 V0) main_arg8 (by decide)).trans (W4_arg8 V0)
theorem W5_arg9 (V0 : Valuation τ sig (Elt F)) : W5 V0 (Proc.devRef .tc main_arg9) = V0 (Proc.devRef .tc main_arg9) :=
  (seg4_keep (W4 V0) main_arg9 (by decide)).trans (W4_arg9 V0)
theorem W5_arg10 (V0 : Valuation τ sig (Elt F)) : W5 V0 (Proc.devRef .tc main_arg10) = V0 (Proc.devRef .tc main_arg10) :=
  (seg4_keep (W4 V0) main_arg10 (by decide)).trans (W4_arg10 V0)
theorem W5_arg11 (V0 : Valuation τ sig (Elt F)) : W5 V0 (Proc.devRef .tc main_arg11) = V0 (Proc.devRef .tc main_arg11) :=
  (seg4_keep (W4 V0) main_arg11 (by decide)).trans (W4_arg11 V0)
theorem W5_arg12 (V0 : Valuation τ sig (Elt F)) : W5 V0 (Proc.devRef .tc main_arg12) = V0 (Proc.devRef .tc main_arg12) :=
  (seg4_keep (W4 V0) main_arg12 (by decide)).trans (W4_arg12 V0)
theorem W5_arg13 (V0 : Valuation τ sig (Elt F)) : W5 V0 (Proc.devRef .tc main_arg13) = V0 (Proc.devRef .tc main_arg13) :=
  (seg4_keep (W4 V0) main_arg13 (by decide)).trans (W4_arg13 V0)
theorem W5_arg14 (V0 : Valuation τ sig (Elt F)) : W5 V0 (Proc.devRef .tc main_arg14) = V0 (Proc.devRef .tc main_arg14) :=
  (seg4_keep (W4 V0) main_arg14 (by decide)).trans (W4_arg14 V0)
theorem W5_arg15 (V0 : Valuation τ sig (Elt F)) : W5 V0 (Proc.devRef .tc main_arg15) = V0 (Proc.devRef .tc main_arg15) :=
  (seg4_keep (W4 V0) main_arg15 (by decide)).trans (W4_arg15 V0)
theorem W5_args (V0 : Valuation τ sig (Elt F)) : args (W5 V0) = args V0 := by
  unfold args
  rw [W5_arg0, W5_arg1, W5_arg2, W5_arg3, W5_arg4, W5_arg5, W5_arg6, W5_arg7, W5_arg8, W5_arg9, W5_arg10, W5_arg11, W5_arg12, W5_arg13, W5_arg14, W5_arg15]
theorem W5_h0 (V0 : Valuation τ sig (Elt F)) : W5 V0 (Proc.devRef .tc main_v523) = (Batch.after (args V0) 5).h0 := by
  unfold W5
  rw [seg4_h0, W4_args, W4_h0, W4_h1, W4_h2, W4_pos]
  rfl
theorem W5_h1 (V0 : Valuation τ sig (Elt F)) : W5 V0 (Proc.devRef .tc main_v561) = (Batch.after (args V0) 5).h1 := by
  unfold W5
  rw [seg4_h1, W4_args, W4_h0, W4_h1, W4_h2, W4_pos]
  rfl
theorem W5_h2 (V0 : Valuation τ sig (Elt F)) : W5 V0 (Proc.devRef .tc main_v599) = (Batch.after (args V0) 5).h2 := by
  unfold W5
  rw [seg4_h2, W4_args, W4_h0, W4_h1, W4_h2, W4_pos]
  rfl
theorem W5_pos (V0 : Valuation τ sig (Elt F)) : W5 V0 (Proc.devRef .tc main_v604) = (Batch.after (args V0) 5).pos := by
  unfold W5
  rw [seg4_pos, W4_args, W4_h0, W4_h1, W4_h2, W4_pos]
  rfl
theorem W5_out4 (V0 : Valuation τ sig (Elt F)) : W5 V0 (Proc.devRef .tc main_v604) = (Batch.after (args V0) 5).pos := W5_pos V0
theorem W5_out0 (V0 : Valuation τ sig (Elt F)) : W5 V0 (Proc.devRef .tc main_v124) = (Batch.after (args V0) 1).pos :=
  (seg4_keep (W4 V0) main_v124 (by decide)).trans (W4_out0 V0)
theorem W5_out1 (V0 : Valuation τ sig (Elt F)) : W5 V0 (Proc.devRef .tc main_v244) = (Batch.after (args V0) 2).pos :=
  (seg4_keep (W4 V0) main_v244 (by decide)).trans (W4_out1 V0)
theorem W5_out2 (V0 : Valuation τ sig (Elt F)) : W5 V0 (Proc.devRef .tc main_v364) = (Batch.after (args V0) 3).pos :=
  (seg4_keep (W4 V0) main_v364 (by decide)).trans (W4_out2 V0)
theorem W5_out3 (V0 : Valuation τ sig (Elt F)) : W5 V0 (Proc.devRef .tc main_v484) = (Batch.after (args V0) 4).pos :=
  (seg4_keep (W4 V0) main_v484 (by decide)).trans (W4_out3 V0)

theorem W6_arg0 (V0 : Valuation τ sig (Elt F)) : W6 V0 (Proc.devRef .tc main_arg0) = V0 (Proc.devRef .tc main_arg0) :=
  (seg5_keep (W5 V0) main_arg0 (by decide)).trans (W5_arg0 V0)
theorem W6_arg1 (V0 : Valuation τ sig (Elt F)) : W6 V0 (Proc.devRef .tc main_arg1) = V0 (Proc.devRef .tc main_arg1) :=
  (seg5_keep (W5 V0) main_arg1 (by decide)).trans (W5_arg1 V0)
theorem W6_arg2 (V0 : Valuation τ sig (Elt F)) : W6 V0 (Proc.devRef .tc main_arg2) = V0 (Proc.devRef .tc main_arg2) :=
  (seg5_keep (W5 V0) main_arg2 (by decide)).trans (W5_arg2 V0)
theorem W6_arg3 (V0 : Valuation τ sig (Elt F)) : W6 V0 (Proc.devRef .tc main_arg3) = V0 (Proc.devRef .tc main_arg3) :=
  (seg5_keep (W5 V0) main_arg3 (by decide)).trans (W5_arg3 V0)
theorem W6_arg4 (V0 : Valuation τ sig (Elt F)) : W6 V0 (Proc.devRef .tc main_arg4) = V0 (Proc.devRef .tc main_arg4) :=
  (seg5_keep (W5 V0) main_arg4 (by decide)).trans (W5_arg4 V0)
theorem W6_arg5 (V0 : Valuation τ sig (Elt F)) : W6 V0 (Proc.devRef .tc main_arg5) = V0 (Proc.devRef .tc main_arg5) :=
  (seg5_keep (W5 V0) main_arg5 (by decide)).trans (W5_arg5 V0)
theorem W6_arg6 (V0 : Valuation τ sig (Elt F)) : W6 V0 (Proc.devRef .tc main_arg6) = V0 (Proc.devRef .tc main_arg6) :=
  (seg5_keep (W5 V0) main_arg6 (by decide)).trans (W5_arg6 V0)
theorem W6_arg7 (V0 : Valuation τ sig (Elt F)) : W6 V0 (Proc.devRef .tc main_arg7) = V0 (Proc.devRef .tc main_arg7) :=
  (seg5_keep (W5 V0) main_arg7 (by decide)).trans (W5_arg7 V0)
theorem W6_arg8 (V0 : Valuation τ sig (Elt F)) : W6 V0 (Proc.devRef .tc main_arg8) = V0 (Proc.devRef .tc main_arg8) :=
  (seg5_keep (W5 V0) main_arg8 (by decide)).trans (W5_arg8 V0)
theorem W6_arg9 (V0 : Valuation τ sig (Elt F)) : W6 V0 (Proc.devRef .tc main_arg9) = V0 (Proc.devRef .tc main_arg9) :=
  (seg5_keep (W5 V0) main_arg9 (by decide)).trans (W5_arg9 V0)
theorem W6_arg10 (V0 : Valuation τ sig (Elt F)) : W6 V0 (Proc.devRef .tc main_arg10) = V0 (Proc.devRef .tc main_arg10) :=
  (seg5_keep (W5 V0) main_arg10 (by decide)).trans (W5_arg10 V0)
theorem W6_arg11 (V0 : Valuation τ sig (Elt F)) : W6 V0 (Proc.devRef .tc main_arg11) = V0 (Proc.devRef .tc main_arg11) :=
  (seg5_keep (W5 V0) main_arg11 (by decide)).trans (W5_arg11 V0)
theorem W6_arg12 (V0 : Valuation τ sig (Elt F)) : W6 V0 (Proc.devRef .tc main_arg12) = V0 (Proc.devRef .tc main_arg12) :=
  (seg5_keep (W5 V0) main_arg12 (by decide)).trans (W5_arg12 V0)
theorem W6_arg13 (V0 : Valuation τ sig (Elt F)) : W6 V0 (Proc.devRef .tc main_arg13) = V0 (Proc.devRef .tc main_arg13) :=
  (seg5_keep (W5 V0) main_arg13 (by decide)).trans (W5_arg13 V0)
theorem W6_arg14 (V0 : Valuation τ sig (Elt F)) : W6 V0 (Proc.devRef .tc main_arg14) = V0 (Proc.devRef .tc main_arg14) :=
  (seg5_keep (W5 V0) main_arg14 (by decide)).trans (W5_arg14 V0)
theorem W6_arg15 (V0 : Valuation τ sig (Elt F)) : W6 V0 (Proc.devRef .tc main_arg15) = V0 (Proc.devRef .tc main_arg15) :=
  (seg5_keep (W5 V0) main_arg15 (by decide)).trans (W5_arg15 V0)
theorem W6_args (V0 : Valuation τ sig (Elt F)) : args (W6 V0) = args V0 := by
  unfold args
  rw [W6_arg0, W6_arg1, W6_arg2, W6_arg3, W6_arg4, W6_arg5, W6_arg6, W6_arg7, W6_arg8, W6_arg9, W6_arg10, W6_arg11, W6_arg12, W6_arg13, W6_arg14, W6_arg15]
theorem W6_h0 (V0 : Valuation τ sig (Elt F)) : W6 V0 (Proc.devRef .tc main_v643) = (Batch.after (args V0) 6).h0 := by
  unfold W6
  rw [seg5_h0, W5_args, W5_h0, W5_h1, W5_h2, W5_pos]
  rfl
theorem W6_h1 (V0 : Valuation τ sig (Elt F)) : W6 V0 (Proc.devRef .tc main_v681) = (Batch.after (args V0) 6).h1 := by
  unfold W6
  rw [seg5_h1, W5_args, W5_h0, W5_h1, W5_h2, W5_pos]
  rfl
theorem W6_h2 (V0 : Valuation τ sig (Elt F)) : W6 V0 (Proc.devRef .tc main_v719) = (Batch.after (args V0) 6).h2 := by
  unfold W6
  rw [seg5_h2, W5_args, W5_h0, W5_h1, W5_h2, W5_pos]
  rfl
theorem W6_pos (V0 : Valuation τ sig (Elt F)) : W6 V0 (Proc.devRef .tc main_v724) = (Batch.after (args V0) 6).pos := by
  unfold W6
  rw [seg5_pos, W5_args, W5_h0, W5_h1, W5_h2, W5_pos]
  rfl
theorem W6_out5 (V0 : Valuation τ sig (Elt F)) : W6 V0 (Proc.devRef .tc main_v724) = (Batch.after (args V0) 6).pos := W6_pos V0
theorem W6_out0 (V0 : Valuation τ sig (Elt F)) : W6 V0 (Proc.devRef .tc main_v124) = (Batch.after (args V0) 1).pos :=
  (seg5_keep (W5 V0) main_v124 (by decide)).trans (W5_out0 V0)
theorem W6_out1 (V0 : Valuation τ sig (Elt F)) : W6 V0 (Proc.devRef .tc main_v244) = (Batch.after (args V0) 2).pos :=
  (seg5_keep (W5 V0) main_v244 (by decide)).trans (W5_out1 V0)
theorem W6_out2 (V0 : Valuation τ sig (Elt F)) : W6 V0 (Proc.devRef .tc main_v364) = (Batch.after (args V0) 3).pos :=
  (seg5_keep (W5 V0) main_v364 (by decide)).trans (W5_out2 V0)
theorem W6_out3 (V0 : Valuation τ sig (Elt F)) : W6 V0 (Proc.devRef .tc main_v484) = (Batch.after (args V0) 4).pos :=
  (seg5_keep (W5 V0) main_v484 (by decide)).trans (W5_out3 V0)
theorem W6_out4 (V0 : Valuation τ sig (Elt F)) : W6 V0 (Proc.devRef .tc main_v604) = (Batch.after (args V0) 5).pos :=
  (seg5_keep (W5 V0) main_v604 (by decide)).trans (W5_out4 V0)

theorem W7_arg0 (V0 : Valuation τ sig (Elt F)) : W7 V0 (Proc.devRef .tc main_arg0) = V0 (Proc.devRef .tc main_arg0) :=
  (seg6_keep (W6 V0) main_arg0 (by decide)).trans (W6_arg0 V0)
theorem W7_arg1 (V0 : Valuation τ sig (Elt F)) : W7 V0 (Proc.devRef .tc main_arg1) = V0 (Proc.devRef .tc main_arg1) :=
  (seg6_keep (W6 V0) main_arg1 (by decide)).trans (W6_arg1 V0)
theorem W7_arg2 (V0 : Valuation τ sig (Elt F)) : W7 V0 (Proc.devRef .tc main_arg2) = V0 (Proc.devRef .tc main_arg2) :=
  (seg6_keep (W6 V0) main_arg2 (by decide)).trans (W6_arg2 V0)
theorem W7_arg3 (V0 : Valuation τ sig (Elt F)) : W7 V0 (Proc.devRef .tc main_arg3) = V0 (Proc.devRef .tc main_arg3) :=
  (seg6_keep (W6 V0) main_arg3 (by decide)).trans (W6_arg3 V0)
theorem W7_arg4 (V0 : Valuation τ sig (Elt F)) : W7 V0 (Proc.devRef .tc main_arg4) = V0 (Proc.devRef .tc main_arg4) :=
  (seg6_keep (W6 V0) main_arg4 (by decide)).trans (W6_arg4 V0)
theorem W7_arg5 (V0 : Valuation τ sig (Elt F)) : W7 V0 (Proc.devRef .tc main_arg5) = V0 (Proc.devRef .tc main_arg5) :=
  (seg6_keep (W6 V0) main_arg5 (by decide)).trans (W6_arg5 V0)
theorem W7_arg6 (V0 : Valuation τ sig (Elt F)) : W7 V0 (Proc.devRef .tc main_arg6) = V0 (Proc.devRef .tc main_arg6) :=
  (seg6_keep (W6 V0) main_arg6 (by decide)).trans (W6_arg6 V0)
theorem W7_arg7 (V0 : Valuation τ sig (Elt F)) : W7 V0 (Proc.devRef .tc main_arg7) = V0 (Proc.devRef .tc main_arg7) :=
  (seg6_keep (W6 V0) main_arg7 (by decide)).trans (W6_arg7 V0)
theorem W7_arg8 (V0 : Valuation τ sig (Elt F)) : W7 V0 (Proc.devRef .tc main_arg8) = V0 (Proc.devRef .tc main_arg8) :=
  (seg6_keep (W6 V0) main_arg8 (by decide)).trans (W6_arg8 V0)
theorem W7_arg9 (V0 : Valuation τ sig (Elt F)) : W7 V0 (Proc.devRef .tc main_arg9) = V0 (Proc.devRef .tc main_arg9) :=
  (seg6_keep (W6 V0) main_arg9 (by decide)).trans (W6_arg9 V0)
theorem W7_arg10 (V0 : Valuation τ sig (Elt F)) : W7 V0 (Proc.devRef .tc main_arg10) = V0 (Proc.devRef .tc main_arg10) :=
  (seg6_keep (W6 V0) main_arg10 (by decide)).trans (W6_arg10 V0)
theorem W7_arg11 (V0 : Valuation τ sig (Elt F)) : W7 V0 (Proc.devRef .tc main_arg11) = V0 (Proc.devRef .tc main_arg11) :=
  (seg6_keep (W6 V0) main_arg11 (by decide)).trans (W6_arg11 V0)
theorem W7_arg12 (V0 : Valuation τ sig (Elt F)) : W7 V0 (Proc.devRef .tc main_arg12) = V0 (Proc.devRef .tc main_arg12) :=
  (seg6_keep (W6 V0) main_arg12 (by decide)).trans (W6_arg12 V0)
theorem W7_arg13 (V0 : Valuation τ sig (Elt F)) : W7 V0 (Proc.devRef .tc main_arg13) = V0 (Proc.devRef .tc main_arg13) :=
  (seg6_keep (W6 V0) main_arg13 (by decide)).trans (W6_arg13 V0)
theorem W7_arg14 (V0 : Valuation τ sig (Elt F)) : W7 V0 (Proc.devRef .tc main_arg14) = V0 (Proc.devRef .tc main_arg14) :=
  (seg6_keep (W6 V0) main_arg14 (by decide)).trans (W6_arg14 V0)
theorem W7_arg15 (V0 : Valuation τ sig (Elt F)) : W7 V0 (Proc.devRef .tc main_arg15) = V0 (Proc.devRef .tc main_arg15) :=
  (seg6_keep (W6 V0) main_arg15 (by decide)).trans (W6_arg15 V0)
theorem W7_args (V0 : Valuation τ sig (Elt F)) : args (W7 V0) = args V0 := by
  unfold args
  rw [W7_arg0, W7_arg1, W7_arg2, W7_arg3, W7_arg4, W7_arg5, W7_arg6, W7_arg7, W7_arg8, W7_arg9, W7_arg10, W7_arg11, W7_arg12, W7_arg13, W7_arg14, W7_arg15]
theorem W7_h0 (V0 : Valuation τ sig (Elt F)) : W7 V0 (Proc.devRef .tc main_v763) = (Batch.after (args V0) 7).h0 := by
  unfold W7
  rw [seg6_h0, W6_args, W6_h0, W6_h1, W6_h2, W6_pos]
  rfl
theorem W7_h1 (V0 : Valuation τ sig (Elt F)) : W7 V0 (Proc.devRef .tc main_v801) = (Batch.after (args V0) 7).h1 := by
  unfold W7
  rw [seg6_h1, W6_args, W6_h0, W6_h1, W6_h2, W6_pos]
  rfl
theorem W7_h2 (V0 : Valuation τ sig (Elt F)) : W7 V0 (Proc.devRef .tc main_v839) = (Batch.after (args V0) 7).h2 := by
  unfold W7
  rw [seg6_h2, W6_args, W6_h0, W6_h1, W6_h2, W6_pos]
  rfl
theorem W7_pos (V0 : Valuation τ sig (Elt F)) : W7 V0 (Proc.devRef .tc main_v844) = (Batch.after (args V0) 7).pos := by
  unfold W7
  rw [seg6_pos, W6_args, W6_h0, W6_h1, W6_h2, W6_pos]
  rfl
theorem W7_out6 (V0 : Valuation τ sig (Elt F)) : W7 V0 (Proc.devRef .tc main_v844) = (Batch.after (args V0) 7).pos := W7_pos V0
theorem W7_out0 (V0 : Valuation τ sig (Elt F)) : W7 V0 (Proc.devRef .tc main_v124) = (Batch.after (args V0) 1).pos :=
  (seg6_keep (W6 V0) main_v124 (by decide)).trans (W6_out0 V0)
theorem W7_out1 (V0 : Valuation τ sig (Elt F)) : W7 V0 (Proc.devRef .tc main_v244) = (Batch.after (args V0) 2).pos :=
  (seg6_keep (W6 V0) main_v244 (by decide)).trans (W6_out1 V0)
theorem W7_out2 (V0 : Valuation τ sig (Elt F)) : W7 V0 (Proc.devRef .tc main_v364) = (Batch.after (args V0) 3).pos :=
  (seg6_keep (W6 V0) main_v364 (by decide)).trans (W6_out2 V0)
theorem W7_out3 (V0 : Valuation τ sig (Elt F)) : W7 V0 (Proc.devRef .tc main_v484) = (Batch.after (args V0) 4).pos :=
  (seg6_keep (W6 V0) main_v484 (by decide)).trans (W6_out3 V0)
theorem W7_out4 (V0 : Valuation τ sig (Elt F)) : W7 V0 (Proc.devRef .tc main_v604) = (Batch.after (args V0) 5).pos :=
  (seg6_keep (W6 V0) main_v604 (by decide)).trans (W6_out4 V0)
theorem W7_out5 (V0 : Valuation τ sig (Elt F)) : W7 V0 (Proc.devRef .tc main_v724) = (Batch.after (args V0) 6).pos :=
  (seg6_keep (W6 V0) main_v724 (by decide)).trans (W6_out5 V0)

theorem W8_arg0 (V0 : Valuation τ sig (Elt F)) : W8 V0 (Proc.devRef .tc main_arg0) = V0 (Proc.devRef .tc main_arg0) :=
  (seg7_keep (W7 V0) main_arg0 (by decide)).trans (W7_arg0 V0)
theorem W8_arg1 (V0 : Valuation τ sig (Elt F)) : W8 V0 (Proc.devRef .tc main_arg1) = V0 (Proc.devRef .tc main_arg1) :=
  (seg7_keep (W7 V0) main_arg1 (by decide)).trans (W7_arg1 V0)
theorem W8_arg2 (V0 : Valuation τ sig (Elt F)) : W8 V0 (Proc.devRef .tc main_arg2) = V0 (Proc.devRef .tc main_arg2) :=
  (seg7_keep (W7 V0) main_arg2 (by decide)).trans (W7_arg2 V0)
theorem W8_arg3 (V0 : Valuation τ sig (Elt F)) : W8 V0 (Proc.devRef .tc main_arg3) = V0 (Proc.devRef .tc main_arg3) :=
  (seg7_keep (W7 V0) main_arg3 (by decide)).trans (W7_arg3 V0)
theorem W8_arg4 (V0 : Valuation τ sig (Elt F)) : W8 V0 (Proc.devRef .tc main_arg4) = V0 (Proc.devRef .tc main_arg4) :=
  (seg7_keep (W7 V0) main_arg4 (by decide)).trans (W7_arg4 V0)
theorem W8_arg5 (V0 : Valuation τ sig (Elt F)) : W8 V0 (Proc.devRef .tc main_arg5) = V0 (Proc.devRef .tc main_arg5) :=
  (seg7_keep (W7 V0) main_arg5 (by decide)).trans (W7_arg5 V0)
theorem W8_arg6 (V0 : Valuation τ sig (Elt F)) : W8 V0 (Proc.devRef .tc main_arg6) = V0 (Proc.devRef .tc main_arg6) :=
  (seg7_keep (W7 V0) main_arg6 (by decide)).trans (W7_arg6 V0)
theorem W8_arg7 (V0 : Valuation τ sig (Elt F)) : W8 V0 (Proc.devRef .tc main_arg7) = V0 (Proc.devRef .tc main_arg7) :=
  (seg7_keep (W7 V0) main_arg7 (by decide)).trans (W7_arg7 V0)
theorem W8_arg8 (V0 : Valuation τ sig (Elt F)) : W8 V0 (Proc.devRef .tc main_arg8) = V0 (Proc.devRef .tc main_arg8) :=
  (seg7_keep (W7 V0) main_arg8 (by decide)).trans (W7_arg8 V0)
theorem W8_arg9 (V0 : Valuation τ sig (Elt F)) : W8 V0 (Proc.devRef .tc main_arg9) = V0 (Proc.devRef .tc main_arg9) :=
  (seg7_keep (W7 V0) main_arg9 (by decide)).trans (W7_arg9 V0)
theorem W8_arg10 (V0 : Valuation τ sig (Elt F)) : W8 V0 (Proc.devRef .tc main_arg10) = V0 (Proc.devRef .tc main_arg10) :=
  (seg7_keep (W7 V0) main_arg10 (by decide)).trans (W7_arg10 V0)
theorem W8_arg11 (V0 : Valuation τ sig (Elt F)) : W8 V0 (Proc.devRef .tc main_arg11) = V0 (Proc.devRef .tc main_arg11) :=
  (seg7_keep (W7 V0) main_arg11 (by decide)).trans (W7_arg11 V0)
theorem W8_arg12 (V0 : Valuation τ sig (Elt F)) : W8 V0 (Proc.devRef .tc main_arg12) = V0 (Proc.devRef .tc main_arg12) :=
  (seg7_keep (W7 V0) main_arg12 (by decide)).trans (W7_arg12 V0)
theorem W8_arg13 (V0 : Valuation τ sig (Elt F)) : W8 V0 (Proc.devRef .tc main_arg13) = V0 (Proc.devRef .tc main_arg13) :=
  (seg7_keep (W7 V0) main_arg13 (by decide)).trans (W7_arg13 V0)
theorem W8_arg14 (V0 : Valuation τ sig (Elt F)) : W8 V0 (Proc.devRef .tc main_arg14) = V0 (Proc.devRef .tc main_arg14) :=
  (seg7_keep (W7 V0) main_arg14 (by decide)).trans (W7_arg14 V0)
theorem W8_arg15 (V0 : Valuation τ sig (Elt F)) : W8 V0 (Proc.devRef .tc main_arg15) = V0 (Proc.devRef .tc main_arg15) :=
  (seg7_keep (W7 V0) main_arg15 (by decide)).trans (W7_arg15 V0)
theorem W8_args (V0 : Valuation τ sig (Elt F)) : args (W8 V0) = args V0 := by
  unfold args
  rw [W8_arg0, W8_arg1, W8_arg2, W8_arg3, W8_arg4, W8_arg5, W8_arg6, W8_arg7, W8_arg8, W8_arg9, W8_arg10, W8_arg11, W8_arg12, W8_arg13, W8_arg14, W8_arg15]
theorem W8_h0 (V0 : Valuation τ sig (Elt F)) : W8 V0 (Proc.devRef .tc main_v883) = (Batch.after (args V0) 8).h0 := by
  unfold W8
  rw [seg7_h0, W7_args, W7_h0, W7_h1, W7_h2, W7_pos]
  rfl
theorem W8_h1 (V0 : Valuation τ sig (Elt F)) : W8 V0 (Proc.devRef .tc main_v921) = (Batch.after (args V0) 8).h1 := by
  unfold W8
  rw [seg7_h1, W7_args, W7_h0, W7_h1, W7_h2, W7_pos]
  rfl
theorem W8_h2 (V0 : Valuation τ sig (Elt F)) : W8 V0 (Proc.devRef .tc main_v959) = (Batch.after (args V0) 8).h2 := by
  unfold W8
  rw [seg7_h2, W7_args, W7_h0, W7_h1, W7_h2, W7_pos]
  rfl
theorem W8_pos (V0 : Valuation τ sig (Elt F)) : W8 V0 (Proc.devRef .tc main_v964) = (Batch.after (args V0) 8).pos := by
  unfold W8
  rw [seg7_pos, W7_args, W7_h0, W7_h1, W7_h2, W7_pos]
  rfl
theorem W8_out7 (V0 : Valuation τ sig (Elt F)) : W8 V0 (Proc.devRef .tc main_v964) = (Batch.after (args V0) 8).pos := W8_pos V0
theorem W8_out0 (V0 : Valuation τ sig (Elt F)) : W8 V0 (Proc.devRef .tc main_v124) = (Batch.after (args V0) 1).pos :=
  (seg7_keep (W7 V0) main_v124 (by decide)).trans (W7_out0 V0)
theorem W8_out1 (V0 : Valuation τ sig (Elt F)) : W8 V0 (Proc.devRef .tc main_v244) = (Batch.after (args V0) 2).pos :=
  (seg7_keep (W7 V0) main_v244 (by decide)).trans (W7_out1 V0)
theorem W8_out2 (V0 : Valuation τ sig (Elt F)) : W8 V0 (Proc.devRef .tc main_v364) = (Batch.after (args V0) 3).pos :=
  (seg7_keep (W7 V0) main_v364 (by decide)).trans (W7_out2 V0)
theorem W8_out3 (V0 : Valuation τ sig (Elt F)) : W8 V0 (Proc.devRef .tc main_v484) = (Batch.after (args V0) 4).pos :=
  (seg7_keep (W7 V0) main_v484 (by decide)).trans (W7_out3 V0)
theorem W8_out4 (V0 : Valuation τ sig (Elt F)) : W8 V0 (Proc.devRef .tc main_v604) = (Batch.after (args V0) 5).pos :=
  (seg7_keep (W7 V0) main_v604 (by decide)).trans (W7_out4 V0)
theorem W8_out5 (V0 : Valuation τ sig (Elt F)) : W8 V0 (Proc.devRef .tc main_v724) = (Batch.after (args V0) 6).pos :=
  (seg7_keep (W7 V0) main_v724 (by decide)).trans (W7_out5 V0)
theorem W8_out6 (V0 : Valuation τ sig (Elt F)) : W8 V0 (Proc.devRef .tc main_v844) = (Batch.after (args V0) 7).pos :=
  (seg7_keep (W7 V0) main_v844 (by decide)).trans (W7_out6 V0)

theorem W9_arg0 (V0 : Valuation τ sig (Elt F)) : W9 V0 (Proc.devRef .tc main_arg0) = V0 (Proc.devRef .tc main_arg0) :=
  (seg8_keep (W8 V0) main_arg0 (by decide)).trans (W8_arg0 V0)
theorem W9_arg1 (V0 : Valuation τ sig (Elt F)) : W9 V0 (Proc.devRef .tc main_arg1) = V0 (Proc.devRef .tc main_arg1) :=
  (seg8_keep (W8 V0) main_arg1 (by decide)).trans (W8_arg1 V0)
theorem W9_arg2 (V0 : Valuation τ sig (Elt F)) : W9 V0 (Proc.devRef .tc main_arg2) = V0 (Proc.devRef .tc main_arg2) :=
  (seg8_keep (W8 V0) main_arg2 (by decide)).trans (W8_arg2 V0)
theorem W9_arg3 (V0 : Valuation τ sig (Elt F)) : W9 V0 (Proc.devRef .tc main_arg3) = V0 (Proc.devRef .tc main_arg3) :=
  (seg8_keep (W8 V0) main_arg3 (by decide)).trans (W8_arg3 V0)
theorem W9_arg4 (V0 : Valuation τ sig (Elt F)) : W9 V0 (Proc.devRef .tc main_arg4) = V0 (Proc.devRef .tc main_arg4) :=
  (seg8_keep (W8 V0) main_arg4 (by decide)).trans (W8_arg4 V0)
theorem W9_arg5 (V0 : Valuation τ sig (Elt F)) : W9 V0 (Proc.devRef .tc main_arg5) = V0 (Proc.devRef .tc main_arg5) :=
  (seg8_keep (W8 V0) main_arg5 (by decide)).trans (W8_arg5 V0)
theorem W9_arg6 (V0 : Valuation τ sig (Elt F)) : W9 V0 (Proc.devRef .tc main_arg6) = V0 (Proc.devRef .tc main_arg6) :=
  (seg8_keep (W8 V0) main_arg6 (by decide)).trans (W8_arg6 V0)
theorem W9_arg7 (V0 : Valuation τ sig (Elt F)) : W9 V0 (Proc.devRef .tc main_arg7) = V0 (Proc.devRef .tc main_arg7) :=
  (seg8_keep (W8 V0) main_arg7 (by decide)).trans (W8_arg7 V0)
theorem W9_arg8 (V0 : Valuation τ sig (Elt F)) : W9 V0 (Proc.devRef .tc main_arg8) = V0 (Proc.devRef .tc main_arg8) :=
  (seg8_keep (W8 V0) main_arg8 (by decide)).trans (W8_arg8 V0)
theorem W9_arg9 (V0 : Valuation τ sig (Elt F)) : W9 V0 (Proc.devRef .tc main_arg9) = V0 (Proc.devRef .tc main_arg9) :=
  (seg8_keep (W8 V0) main_arg9 (by decide)).trans (W8_arg9 V0)
theorem W9_arg10 (V0 : Valuation τ sig (Elt F)) : W9 V0 (Proc.devRef .tc main_arg10) = V0 (Proc.devRef .tc main_arg10) :=
  (seg8_keep (W8 V0) main_arg10 (by decide)).trans (W8_arg10 V0)
theorem W9_arg11 (V0 : Valuation τ sig (Elt F)) : W9 V0 (Proc.devRef .tc main_arg11) = V0 (Proc.devRef .tc main_arg11) :=
  (seg8_keep (W8 V0) main_arg11 (by decide)).trans (W8_arg11 V0)
theorem W9_arg12 (V0 : Valuation τ sig (Elt F)) : W9 V0 (Proc.devRef .tc main_arg12) = V0 (Proc.devRef .tc main_arg12) :=
  (seg8_keep (W8 V0) main_arg12 (by decide)).trans (W8_arg12 V0)
theorem W9_arg13 (V0 : Valuation τ sig (Elt F)) : W9 V0 (Proc.devRef .tc main_arg13) = V0 (Proc.devRef .tc main_arg13) :=
  (seg8_keep (W8 V0) main_arg13 (by decide)).trans (W8_arg13 V0)
theorem W9_arg14 (V0 : Valuation τ sig (Elt F)) : W9 V0 (Proc.devRef .tc main_arg14) = V0 (Proc.devRef .tc main_arg14) :=
  (seg8_keep (W8 V0) main_arg14 (by decide)).trans (W8_arg14 V0)
theorem W9_arg15 (V0 : Valuation τ sig (Elt F)) : W9 V0 (Proc.devRef .tc main_arg15) = V0 (Proc.devRef .tc main_arg15) :=
  (seg8_keep (W8 V0) main_arg15 (by decide)).trans (W8_arg15 V0)
theorem W9_args (V0 : Valuation τ sig (Elt F)) : args (W9 V0) = args V0 := by
  unfold args
  rw [W9_arg0, W9_arg1, W9_arg2, W9_arg3, W9_arg4, W9_arg5, W9_arg6, W9_arg7, W9_arg8, W9_arg9, W9_arg10, W9_arg11, W9_arg12, W9_arg13, W9_arg14, W9_arg15]
theorem W9_h0 (V0 : Valuation τ sig (Elt F)) : W9 V0 (Proc.devRef .tc main_v1003) = (Batch.after (args V0) 9).h0 := by
  unfold W9
  rw [seg8_h0, W8_args, W8_h0, W8_h1, W8_h2, W8_pos]
  rfl
theorem W9_h1 (V0 : Valuation τ sig (Elt F)) : W9 V0 (Proc.devRef .tc main_v1041) = (Batch.after (args V0) 9).h1 := by
  unfold W9
  rw [seg8_h1, W8_args, W8_h0, W8_h1, W8_h2, W8_pos]
  rfl
theorem W9_h2 (V0 : Valuation τ sig (Elt F)) : W9 V0 (Proc.devRef .tc main_v1079) = (Batch.after (args V0) 9).h2 := by
  unfold W9
  rw [seg8_h2, W8_args, W8_h0, W8_h1, W8_h2, W8_pos]
  rfl
theorem W9_pos (V0 : Valuation τ sig (Elt F)) : W9 V0 (Proc.devRef .tc main_v1084) = (Batch.after (args V0) 9).pos := by
  unfold W9
  rw [seg8_pos, W8_args, W8_h0, W8_h1, W8_h2, W8_pos]
  rfl
theorem W9_out8 (V0 : Valuation τ sig (Elt F)) : W9 V0 (Proc.devRef .tc main_v1084) = (Batch.after (args V0) 9).pos := W9_pos V0
theorem W9_out0 (V0 : Valuation τ sig (Elt F)) : W9 V0 (Proc.devRef .tc main_v124) = (Batch.after (args V0) 1).pos :=
  (seg8_keep (W8 V0) main_v124 (by decide)).trans (W8_out0 V0)
theorem W9_out1 (V0 : Valuation τ sig (Elt F)) : W9 V0 (Proc.devRef .tc main_v244) = (Batch.after (args V0) 2).pos :=
  (seg8_keep (W8 V0) main_v244 (by decide)).trans (W8_out1 V0)
theorem W9_out2 (V0 : Valuation τ sig (Elt F)) : W9 V0 (Proc.devRef .tc main_v364) = (Batch.after (args V0) 3).pos :=
  (seg8_keep (W8 V0) main_v364 (by decide)).trans (W8_out2 V0)
theorem W9_out3 (V0 : Valuation τ sig (Elt F)) : W9 V0 (Proc.devRef .tc main_v484) = (Batch.after (args V0) 4).pos :=
  (seg8_keep (W8 V0) main_v484 (by decide)).trans (W8_out3 V0)
theorem W9_out4 (V0 : Valuation τ sig (Elt F)) : W9 V0 (Proc.devRef .tc main_v604) = (Batch.after (args V0) 5).pos :=
  (seg8_keep (W8 V0) main_v604 (by decide)).trans (W8_out4 V0)
theorem W9_out5 (V0 : Valuation τ sig (Elt F)) : W9 V0 (Proc.devRef .tc main_v724) = (Batch.after (args V0) 6).pos :=
  (seg8_keep (W8 V0) main_v724 (by decide)).trans (W8_out5 V0)
theorem W9_out6 (V0 : Valuation τ sig (Elt F)) : W9 V0 (Proc.devRef .tc main_v844) = (Batch.after (args V0) 7).pos :=
  (seg8_keep (W8 V0) main_v844 (by decide)).trans (W8_out6 V0)
theorem W9_out7 (V0 : Valuation τ sig (Elt F)) : W9 V0 (Proc.devRef .tc main_v964) = (Batch.after (args V0) 8).pos :=
  (seg8_keep (W8 V0) main_v964 (by decide)).trans (W8_out7 V0)

theorem W10_arg0 (V0 : Valuation τ sig (Elt F)) : W10 V0 (Proc.devRef .tc main_arg0) = V0 (Proc.devRef .tc main_arg0) :=
  (seg9_keep (W9 V0) main_arg0 (by decide)).trans (W9_arg0 V0)
theorem W10_arg1 (V0 : Valuation τ sig (Elt F)) : W10 V0 (Proc.devRef .tc main_arg1) = V0 (Proc.devRef .tc main_arg1) :=
  (seg9_keep (W9 V0) main_arg1 (by decide)).trans (W9_arg1 V0)
theorem W10_arg2 (V0 : Valuation τ sig (Elt F)) : W10 V0 (Proc.devRef .tc main_arg2) = V0 (Proc.devRef .tc main_arg2) :=
  (seg9_keep (W9 V0) main_arg2 (by decide)).trans (W9_arg2 V0)
theorem W10_arg3 (V0 : Valuation τ sig (Elt F)) : W10 V0 (Proc.devRef .tc main_arg3) = V0 (Proc.devRef .tc main_arg3) :=
  (seg9_keep (W9 V0) main_arg3 (by decide)).trans (W9_arg3 V0)
theorem W10_arg4 (V0 : Valuation τ sig (Elt F)) : W10 V0 (Proc.devRef .tc main_arg4) = V0 (Proc.devRef .tc main_arg4) :=
  (seg9_keep (W9 V0) main_arg4 (by decide)).trans (W9_arg4 V0)
theorem W10_arg5 (V0 : Valuation τ sig (Elt F)) : W10 V0 (Proc.devRef .tc main_arg5) = V0 (Proc.devRef .tc main_arg5) :=
  (seg9_keep (W9 V0) main_arg5 (by decide)).trans (W9_arg5 V0)
theorem W10_arg6 (V0 : Valuation τ sig (Elt F)) : W10 V0 (Proc.devRef .tc main_arg6) = V0 (Proc.devRef .tc main_arg6) :=
  (seg9_keep (W9 V0) main_arg6 (by decide)).trans (W9_arg6 V0)
theorem W10_arg7 (V0 : Valuation τ sig (Elt F)) : W10 V0 (Proc.devRef .tc main_arg7) = V0 (Proc.devRef .tc main_arg7) :=
  (seg9_keep (W9 V0) main_arg7 (by decide)).trans (W9_arg7 V0)
theorem W10_arg8 (V0 : Valuation τ sig (Elt F)) : W10 V0 (Proc.devRef .tc main_arg8) = V0 (Proc.devRef .tc main_arg8) :=
  (seg9_keep (W9 V0) main_arg8 (by decide)).trans (W9_arg8 V0)
theorem W10_arg9 (V0 : Valuation τ sig (Elt F)) : W10 V0 (Proc.devRef .tc main_arg9) = V0 (Proc.devRef .tc main_arg9) :=
  (seg9_keep (W9 V0) main_arg9 (by decide)).trans (W9_arg9 V0)
theorem W10_arg10 (V0 : Valuation τ sig (Elt F)) : W10 V0 (Proc.devRef .tc main_arg10) = V0 (Proc.devRef .tc main_arg10) :=
  (seg9_keep (W9 V0) main_arg10 (by decide)).trans (W9_arg10 V0)
theorem W10_arg11 (V0 : Valuation τ sig (Elt F)) : W10 V0 (Proc.devRef .tc main_arg11) = V0 (Proc.devRef .tc main_arg11) :=
  (seg9_keep (W9 V0) main_arg11 (by decide)).trans (W9_arg11 V0)
theorem W10_arg12 (V0 : Valuation τ sig (Elt F)) : W10 V0 (Proc.devRef .tc main_arg12) = V0 (Proc.devRef .tc main_arg12) :=
  (seg9_keep (W9 V0) main_arg12 (by decide)).trans (W9_arg12 V0)
theorem W10_arg13 (V0 : Valuation τ sig (Elt F)) : W10 V0 (Proc.devRef .tc main_arg13) = V0 (Proc.devRef .tc main_arg13) :=
  (seg9_keep (W9 V0) main_arg13 (by decide)).trans (W9_arg13 V0)
theorem W10_arg14 (V0 : Valuation τ sig (Elt F)) : W10 V0 (Proc.devRef .tc main_arg14) = V0 (Proc.devRef .tc main_arg14) :=
  (seg9_keep (W9 V0) main_arg14 (by decide)).trans (W9_arg14 V0)
theorem W10_arg15 (V0 : Valuation τ sig (Elt F)) : W10 V0 (Proc.devRef .tc main_arg15) = V0 (Proc.devRef .tc main_arg15) :=
  (seg9_keep (W9 V0) main_arg15 (by decide)).trans (W9_arg15 V0)
theorem W10_args (V0 : Valuation τ sig (Elt F)) : args (W10 V0) = args V0 := by
  unfold args
  rw [W10_arg0, W10_arg1, W10_arg2, W10_arg3, W10_arg4, W10_arg5, W10_arg6, W10_arg7, W10_arg8, W10_arg9, W10_arg10, W10_arg11, W10_arg12, W10_arg13, W10_arg14, W10_arg15]
theorem W10_h0 (V0 : Valuation τ sig (Elt F)) : W10 V0 (Proc.devRef .tc main_v1123) = (Batch.after (args V0) 10).h0 := by
  unfold W10
  rw [seg9_h0, W9_args, W9_h0, W9_h1, W9_h2, W9_pos]
  rfl
theorem W10_h1 (V0 : Valuation τ sig (Elt F)) : W10 V0 (Proc.devRef .tc main_v1161) = (Batch.after (args V0) 10).h1 := by
  unfold W10
  rw [seg9_h1, W9_args, W9_h0, W9_h1, W9_h2, W9_pos]
  rfl
theorem W10_h2 (V0 : Valuation τ sig (Elt F)) : W10 V0 (Proc.devRef .tc main_v1199) = (Batch.after (args V0) 10).h2 := by
  unfold W10
  rw [seg9_h2, W9_args, W9_h0, W9_h1, W9_h2, W9_pos]
  rfl
theorem W10_pos (V0 : Valuation τ sig (Elt F)) : W10 V0 (Proc.devRef .tc main_v1204) = (Batch.after (args V0) 10).pos := by
  unfold W10
  rw [seg9_pos, W9_args, W9_h0, W9_h1, W9_h2, W9_pos]
  rfl
theorem W10_out9 (V0 : Valuation τ sig (Elt F)) : W10 V0 (Proc.devRef .tc main_v1204) = (Batch.after (args V0) 10).pos := W10_pos V0
theorem W10_out0 (V0 : Valuation τ sig (Elt F)) : W10 V0 (Proc.devRef .tc main_v124) = (Batch.after (args V0) 1).pos :=
  (seg9_keep (W9 V0) main_v124 (by decide)).trans (W9_out0 V0)
theorem W10_out1 (V0 : Valuation τ sig (Elt F)) : W10 V0 (Proc.devRef .tc main_v244) = (Batch.after (args V0) 2).pos :=
  (seg9_keep (W9 V0) main_v244 (by decide)).trans (W9_out1 V0)
theorem W10_out2 (V0 : Valuation τ sig (Elt F)) : W10 V0 (Proc.devRef .tc main_v364) = (Batch.after (args V0) 3).pos :=
  (seg9_keep (W9 V0) main_v364 (by decide)).trans (W9_out2 V0)
theorem W10_out3 (V0 : Valuation τ sig (Elt F)) : W10 V0 (Proc.devRef .tc main_v484) = (Batch.after (args V0) 4).pos :=
  (seg9_keep (W9 V0) main_v484 (by decide)).trans (W9_out3 V0)
theorem W10_out4 (V0 : Valuation τ sig (Elt F)) : W10 V0 (Proc.devRef .tc main_v604) = (Batch.after (args V0) 5).pos :=
  (seg9_keep (W9 V0) main_v604 (by decide)).trans (W9_out4 V0)
theorem W10_out5 (V0 : Valuation τ sig (Elt F)) : W10 V0 (Proc.devRef .tc main_v724) = (Batch.after (args V0) 6).pos :=
  (seg9_keep (W9 V0) main_v724 (by decide)).trans (W9_out5 V0)
theorem W10_out6 (V0 : Valuation τ sig (Elt F)) : W10 V0 (Proc.devRef .tc main_v844) = (Batch.after (args V0) 7).pos :=
  (seg9_keep (W9 V0) main_v844 (by decide)).trans (W9_out6 V0)
theorem W10_out7 (V0 : Valuation τ sig (Elt F)) : W10 V0 (Proc.devRef .tc main_v964) = (Batch.after (args V0) 8).pos :=
  (seg9_keep (W9 V0) main_v964 (by decide)).trans (W9_out7 V0)
theorem W10_out8 (V0 : Valuation τ sig (Elt F)) : W10 V0 (Proc.devRef .tc main_v1084) = (Batch.after (args V0) 9).pos :=
  (seg9_keep (W9 V0) main_v1084 (by decide)).trans (W9_out8 V0)

theorem W11_arg0 (V0 : Valuation τ sig (Elt F)) : W11 V0 (Proc.devRef .tc main_arg0) = V0 (Proc.devRef .tc main_arg0) :=
  (seg10_keep (W10 V0) main_arg0 (by decide)).trans (W10_arg0 V0)
theorem W11_arg1 (V0 : Valuation τ sig (Elt F)) : W11 V0 (Proc.devRef .tc main_arg1) = V0 (Proc.devRef .tc main_arg1) :=
  (seg10_keep (W10 V0) main_arg1 (by decide)).trans (W10_arg1 V0)
theorem W11_arg2 (V0 : Valuation τ sig (Elt F)) : W11 V0 (Proc.devRef .tc main_arg2) = V0 (Proc.devRef .tc main_arg2) :=
  (seg10_keep (W10 V0) main_arg2 (by decide)).trans (W10_arg2 V0)
theorem W11_arg3 (V0 : Valuation τ sig (Elt F)) : W11 V0 (Proc.devRef .tc main_arg3) = V0 (Proc.devRef .tc main_arg3) :=
  (seg10_keep (W10 V0) main_arg3 (by decide)).trans (W10_arg3 V0)
theorem W11_arg4 (V0 : Valuation τ sig (Elt F)) : W11 V0 (Proc.devRef .tc main_arg4) = V0 (Proc.devRef .tc main_arg4) :=
  (seg10_keep (W10 V0) main_arg4 (by decide)).trans (W10_arg4 V0)
theorem W11_arg5 (V0 : Valuation τ sig (Elt F)) : W11 V0 (Proc.devRef .tc main_arg5) = V0 (Proc.devRef .tc main_arg5) :=
  (seg10_keep (W10 V0) main_arg5 (by decide)).trans (W10_arg5 V0)
theorem W11_arg6 (V0 : Valuation τ sig (Elt F)) : W11 V0 (Proc.devRef .tc main_arg6) = V0 (Proc.devRef .tc main_arg6) :=
  (seg10_keep (W10 V0) main_arg6 (by decide)).trans (W10_arg6 V0)
theorem W11_arg7 (V0 : Valuation τ sig (Elt F)) : W11 V0 (Proc.devRef .tc main_arg7) = V0 (Proc.devRef .tc main_arg7) :=
  (seg10_keep (W10 V0) main_arg7 (by decide)).trans (W10_arg7 V0)
theorem W11_arg8 (V0 : Valuation τ sig (Elt F)) : W11 V0 (Proc.devRef .tc main_arg8) = V0 (Proc.devRef .tc main_arg8) :=
  (seg10_keep (W10 V0) main_arg8 (by decide)).trans (W10_arg8 V0)
theorem W11_arg9 (V0 : Valuation τ sig (Elt F)) : W11 V0 (Proc.devRef .tc main_arg9) = V0 (Proc.devRef .tc main_arg9) :=
  (seg10_keep (W10 V0) main_arg9 (by decide)).trans (W10_arg9 V0)
theorem W11_arg10 (V0 : Valuation τ sig (Elt F)) : W11 V0 (Proc.devRef .tc main_arg10) = V0 (Proc.devRef .tc main_arg10) :=
  (seg10_keep (W10 V0) main_arg10 (by decide)).trans (W10_arg10 V0)
theorem W11_arg11 (V0 : Valuation τ sig (Elt F)) : W11 V0 (Proc.devRef .tc main_arg11) = V0 (Proc.devRef .tc main_arg11) :=
  (seg10_keep (W10 V0) main_arg11 (by decide)).trans (W10_arg11 V0)
theorem W11_arg12 (V0 : Valuation τ sig (Elt F)) : W11 V0 (Proc.devRef .tc main_arg12) = V0 (Proc.devRef .tc main_arg12) :=
  (seg10_keep (W10 V0) main_arg12 (by decide)).trans (W10_arg12 V0)
theorem W11_arg13 (V0 : Valuation τ sig (Elt F)) : W11 V0 (Proc.devRef .tc main_arg13) = V0 (Proc.devRef .tc main_arg13) :=
  (seg10_keep (W10 V0) main_arg13 (by decide)).trans (W10_arg13 V0)
theorem W11_arg14 (V0 : Valuation τ sig (Elt F)) : W11 V0 (Proc.devRef .tc main_arg14) = V0 (Proc.devRef .tc main_arg14) :=
  (seg10_keep (W10 V0) main_arg14 (by decide)).trans (W10_arg14 V0)
theorem W11_arg15 (V0 : Valuation τ sig (Elt F)) : W11 V0 (Proc.devRef .tc main_arg15) = V0 (Proc.devRef .tc main_arg15) :=
  (seg10_keep (W10 V0) main_arg15 (by decide)).trans (W10_arg15 V0)
theorem W11_args (V0 : Valuation τ sig (Elt F)) : args (W11 V0) = args V0 := by
  unfold args
  rw [W11_arg0, W11_arg1, W11_arg2, W11_arg3, W11_arg4, W11_arg5, W11_arg6, W11_arg7, W11_arg8, W11_arg9, W11_arg10, W11_arg11, W11_arg12, W11_arg13, W11_arg14, W11_arg15]
theorem W11_h0 (V0 : Valuation τ sig (Elt F)) : W11 V0 (Proc.devRef .tc main_v1243) = (Batch.after (args V0) 11).h0 := by
  unfold W11
  rw [seg10_h0, W10_args, W10_h0, W10_h1, W10_h2, W10_pos]
  rfl
theorem W11_h1 (V0 : Valuation τ sig (Elt F)) : W11 V0 (Proc.devRef .tc main_v1281) = (Batch.after (args V0) 11).h1 := by
  unfold W11
  rw [seg10_h1, W10_args, W10_h0, W10_h1, W10_h2, W10_pos]
  rfl
theorem W11_h2 (V0 : Valuation τ sig (Elt F)) : W11 V0 (Proc.devRef .tc main_v1319) = (Batch.after (args V0) 11).h2 := by
  unfold W11
  rw [seg10_h2, W10_args, W10_h0, W10_h1, W10_h2, W10_pos]
  rfl
theorem W11_pos (V0 : Valuation τ sig (Elt F)) : W11 V0 (Proc.devRef .tc main_v1324) = (Batch.after (args V0) 11).pos := by
  unfold W11
  rw [seg10_pos, W10_args, W10_h0, W10_h1, W10_h2, W10_pos]
  rfl
theorem W11_out10 (V0 : Valuation τ sig (Elt F)) : W11 V0 (Proc.devRef .tc main_v1324) = (Batch.after (args V0) 11).pos := W11_pos V0
theorem W11_out0 (V0 : Valuation τ sig (Elt F)) : W11 V0 (Proc.devRef .tc main_v124) = (Batch.after (args V0) 1).pos :=
  (seg10_keep (W10 V0) main_v124 (by decide)).trans (W10_out0 V0)
theorem W11_out1 (V0 : Valuation τ sig (Elt F)) : W11 V0 (Proc.devRef .tc main_v244) = (Batch.after (args V0) 2).pos :=
  (seg10_keep (W10 V0) main_v244 (by decide)).trans (W10_out1 V0)
theorem W11_out2 (V0 : Valuation τ sig (Elt F)) : W11 V0 (Proc.devRef .tc main_v364) = (Batch.after (args V0) 3).pos :=
  (seg10_keep (W10 V0) main_v364 (by decide)).trans (W10_out2 V0)
theorem W11_out3 (V0 : Valuation τ sig (Elt F)) : W11 V0 (Proc.devRef .tc main_v484) = (Batch.after (args V0) 4).pos :=
  (seg10_keep (W10 V0) main_v484 (by decide)).trans (W10_out3 V0)
theorem W11_out4 (V0 : Valuation τ sig (Elt F)) : W11 V0 (Proc.devRef .tc main_v604) = (Batch.after (args V0) 5).pos :=
  (seg10_keep (W10 V0) main_v604 (by decide)).trans (W10_out4 V0)
theorem W11_out5 (V0 : Valuation τ sig (Elt F)) : W11 V0 (Proc.devRef .tc main_v724) = (Batch.after (args V0) 6).pos :=
  (seg10_keep (W10 V0) main_v724 (by decide)).trans (W10_out5 V0)
theorem W11_out6 (V0 : Valuation τ sig (Elt F)) : W11 V0 (Proc.devRef .tc main_v844) = (Batch.after (args V0) 7).pos :=
  (seg10_keep (W10 V0) main_v844 (by decide)).trans (W10_out6 V0)
theorem W11_out7 (V0 : Valuation τ sig (Elt F)) : W11 V0 (Proc.devRef .tc main_v964) = (Batch.after (args V0) 8).pos :=
  (seg10_keep (W10 V0) main_v964 (by decide)).trans (W10_out7 V0)
theorem W11_out8 (V0 : Valuation τ sig (Elt F)) : W11 V0 (Proc.devRef .tc main_v1084) = (Batch.after (args V0) 9).pos :=
  (seg10_keep (W10 V0) main_v1084 (by decide)).trans (W10_out8 V0)
theorem W11_out9 (V0 : Valuation τ sig (Elt F)) : W11 V0 (Proc.devRef .tc main_v1204) = (Batch.after (args V0) 10).pos :=
  (seg10_keep (W10 V0) main_v1204 (by decide)).trans (W10_out9 V0)

theorem W12_arg0 (V0 : Valuation τ sig (Elt F)) : W12 V0 (Proc.devRef .tc main_arg0) = V0 (Proc.devRef .tc main_arg0) :=
  (seg11_keep (W11 V0) main_arg0 (by decide)).trans (W11_arg0 V0)
theorem W12_arg1 (V0 : Valuation τ sig (Elt F)) : W12 V0 (Proc.devRef .tc main_arg1) = V0 (Proc.devRef .tc main_arg1) :=
  (seg11_keep (W11 V0) main_arg1 (by decide)).trans (W11_arg1 V0)
theorem W12_arg2 (V0 : Valuation τ sig (Elt F)) : W12 V0 (Proc.devRef .tc main_arg2) = V0 (Proc.devRef .tc main_arg2) :=
  (seg11_keep (W11 V0) main_arg2 (by decide)).trans (W11_arg2 V0)
theorem W12_arg3 (V0 : Valuation τ sig (Elt F)) : W12 V0 (Proc.devRef .tc main_arg3) = V0 (Proc.devRef .tc main_arg3) :=
  (seg11_keep (W11 V0) main_arg3 (by decide)).trans (W11_arg3 V0)
theorem W12_arg4 (V0 : Valuation τ sig (Elt F)) : W12 V0 (Proc.devRef .tc main_arg4) = V0 (Proc.devRef .tc main_arg4) :=
  (seg11_keep (W11 V0) main_arg4 (by decide)).trans (W11_arg4 V0)
theorem W12_arg5 (V0 : Valuation τ sig (Elt F)) : W12 V0 (Proc.devRef .tc main_arg5) = V0 (Proc.devRef .tc main_arg5) :=
  (seg11_keep (W11 V0) main_arg5 (by decide)).trans (W11_arg5 V0)
theorem W12_arg6 (V0 : Valuation τ sig (Elt F)) : W12 V0 (Proc.devRef .tc main_arg6) = V0 (Proc.devRef .tc main_arg6) :=
  (seg11_keep (W11 V0) main_arg6 (by decide)).trans (W11_arg6 V0)
theorem W12_arg7 (V0 : Valuation τ sig (Elt F)) : W12 V0 (Proc.devRef .tc main_arg7) = V0 (Proc.devRef .tc main_arg7) :=
  (seg11_keep (W11 V0) main_arg7 (by decide)).trans (W11_arg7 V0)
theorem W12_arg8 (V0 : Valuation τ sig (Elt F)) : W12 V0 (Proc.devRef .tc main_arg8) = V0 (Proc.devRef .tc main_arg8) :=
  (seg11_keep (W11 V0) main_arg8 (by decide)).trans (W11_arg8 V0)
theorem W12_arg9 (V0 : Valuation τ sig (Elt F)) : W12 V0 (Proc.devRef .tc main_arg9) = V0 (Proc.devRef .tc main_arg9) :=
  (seg11_keep (W11 V0) main_arg9 (by decide)).trans (W11_arg9 V0)
theorem W12_arg10 (V0 : Valuation τ sig (Elt F)) : W12 V0 (Proc.devRef .tc main_arg10) = V0 (Proc.devRef .tc main_arg10) :=
  (seg11_keep (W11 V0) main_arg10 (by decide)).trans (W11_arg10 V0)
theorem W12_arg11 (V0 : Valuation τ sig (Elt F)) : W12 V0 (Proc.devRef .tc main_arg11) = V0 (Proc.devRef .tc main_arg11) :=
  (seg11_keep (W11 V0) main_arg11 (by decide)).trans (W11_arg11 V0)
theorem W12_arg12 (V0 : Valuation τ sig (Elt F)) : W12 V0 (Proc.devRef .tc main_arg12) = V0 (Proc.devRef .tc main_arg12) :=
  (seg11_keep (W11 V0) main_arg12 (by decide)).trans (W11_arg12 V0)
theorem W12_arg13 (V0 : Valuation τ sig (Elt F)) : W12 V0 (Proc.devRef .tc main_arg13) = V0 (Proc.devRef .tc main_arg13) :=
  (seg11_keep (W11 V0) main_arg13 (by decide)).trans (W11_arg13 V0)
theorem W12_arg14 (V0 : Valuation τ sig (Elt F)) : W12 V0 (Proc.devRef .tc main_arg14) = V0 (Proc.devRef .tc main_arg14) :=
  (seg11_keep (W11 V0) main_arg14 (by decide)).trans (W11_arg14 V0)
theorem W12_arg15 (V0 : Valuation τ sig (Elt F)) : W12 V0 (Proc.devRef .tc main_arg15) = V0 (Proc.devRef .tc main_arg15) :=
  (seg11_keep (W11 V0) main_arg15 (by decide)).trans (W11_arg15 V0)
theorem W12_args (V0 : Valuation τ sig (Elt F)) : args (W12 V0) = args V0 := by
  unfold args
  rw [W12_arg0, W12_arg1, W12_arg2, W12_arg3, W12_arg4, W12_arg5, W12_arg6, W12_arg7, W12_arg8, W12_arg9, W12_arg10, W12_arg11, W12_arg12, W12_arg13, W12_arg14, W12_arg15]
theorem W12_h0 (V0 : Valuation τ sig (Elt F)) : W12 V0 (Proc.devRef .tc main_v1363) = (Batch.after (args V0) 12).h0 := by
  unfold W12
  rw [seg11_h0, W11_args, W11_h0, W11_h1, W11_h2, W11_pos]
  rfl
theorem W12_h1 (V0 : Valuation τ sig (Elt F)) : W12 V0 (Proc.devRef .tc main_v1401) = (Batch.after (args V0) 12).h1 := by
  unfold W12
  rw [seg11_h1, W11_args, W11_h0, W11_h1, W11_h2, W11_pos]
  rfl
theorem W12_h2 (V0 : Valuation τ sig (Elt F)) : W12 V0 (Proc.devRef .tc main_v1439) = (Batch.after (args V0) 12).h2 := by
  unfold W12
  rw [seg11_h2, W11_args, W11_h0, W11_h1, W11_h2, W11_pos]
  rfl
theorem W12_pos (V0 : Valuation τ sig (Elt F)) : W12 V0 (Proc.devRef .tc main_v1444) = (Batch.after (args V0) 12).pos := by
  unfold W12
  rw [seg11_pos, W11_args, W11_h0, W11_h1, W11_h2, W11_pos]
  rfl
theorem W12_out11 (V0 : Valuation τ sig (Elt F)) : W12 V0 (Proc.devRef .tc main_v1444) = (Batch.after (args V0) 12).pos := W12_pos V0
theorem W12_out0 (V0 : Valuation τ sig (Elt F)) : W12 V0 (Proc.devRef .tc main_v124) = (Batch.after (args V0) 1).pos :=
  (seg11_keep (W11 V0) main_v124 (by decide)).trans (W11_out0 V0)
theorem W12_out1 (V0 : Valuation τ sig (Elt F)) : W12 V0 (Proc.devRef .tc main_v244) = (Batch.after (args V0) 2).pos :=
  (seg11_keep (W11 V0) main_v244 (by decide)).trans (W11_out1 V0)
theorem W12_out2 (V0 : Valuation τ sig (Elt F)) : W12 V0 (Proc.devRef .tc main_v364) = (Batch.after (args V0) 3).pos :=
  (seg11_keep (W11 V0) main_v364 (by decide)).trans (W11_out2 V0)
theorem W12_out3 (V0 : Valuation τ sig (Elt F)) : W12 V0 (Proc.devRef .tc main_v484) = (Batch.after (args V0) 4).pos :=
  (seg11_keep (W11 V0) main_v484 (by decide)).trans (W11_out3 V0)
theorem W12_out4 (V0 : Valuation τ sig (Elt F)) : W12 V0 (Proc.devRef .tc main_v604) = (Batch.after (args V0) 5).pos :=
  (seg11_keep (W11 V0) main_v604 (by decide)).trans (W11_out4 V0)
theorem W12_out5 (V0 : Valuation τ sig (Elt F)) : W12 V0 (Proc.devRef .tc main_v724) = (Batch.after (args V0) 6).pos :=
  (seg11_keep (W11 V0) main_v724 (by decide)).trans (W11_out5 V0)
theorem W12_out6 (V0 : Valuation τ sig (Elt F)) : W12 V0 (Proc.devRef .tc main_v844) = (Batch.after (args V0) 7).pos :=
  (seg11_keep (W11 V0) main_v844 (by decide)).trans (W11_out6 V0)
theorem W12_out7 (V0 : Valuation τ sig (Elt F)) : W12 V0 (Proc.devRef .tc main_v964) = (Batch.after (args V0) 8).pos :=
  (seg11_keep (W11 V0) main_v964 (by decide)).trans (W11_out7 V0)
theorem W12_out8 (V0 : Valuation τ sig (Elt F)) : W12 V0 (Proc.devRef .tc main_v1084) = (Batch.after (args V0) 9).pos :=
  (seg11_keep (W11 V0) main_v1084 (by decide)).trans (W11_out8 V0)
theorem W12_out9 (V0 : Valuation τ sig (Elt F)) : W12 V0 (Proc.devRef .tc main_v1204) = (Batch.after (args V0) 10).pos :=
  (seg11_keep (W11 V0) main_v1204 (by decide)).trans (W11_out9 V0)
theorem W12_out10 (V0 : Valuation τ sig (Elt F)) : W12 V0 (Proc.devRef .tc main_v1324) = (Batch.after (args V0) 11).pos :=
  (seg11_keep (W11 V0) main_v1324 (by decide)).trans (W11_out10 V0)

set_option maxRecDepth 65536 in
/-- @main's operations, from any contents, are the closing stack from the contents after the twelfth step. -/
theorem after_ops_split (V0 : Valuation τ sig (Elt F)) : after ops V0 = after segEpi (W12 V0) := by
  rw [ops_split]
  simp only [after_append]
  rfl

set_option maxRecDepth 65536 in
set_option maxHeartbeats 8000000 in
/-- The result buffer ends at the batch recurrence's stacked result of the arguments. -/
theorem after_ops_result (V0 : Valuation τ sig (Elt F)) : after ops V0 (Proc.devRef .tc main_v1457) = Batch.result (args V0) := by
  rw [after_ops_split]
  simp only [segEpi]
  after_results_simp
  try dsimp only [Matrix.cons_val]
  try after_results_simp
  rw [W12_out0, W12_out1, W12_out2, W12_out3, W12_out4, W12_out5, W12_out6, W12_out7, W12_out8, W12_out9, W12_out10, W12_out11]
  rfl

theorem after_ops_arg0 (V0 : Valuation τ sig (Elt F)) : after ops V0 (Proc.devRef .tc main_arg0) = V0 (Proc.devRef .tc main_arg0) := by
  rw [after_ops_split]
  exact (segEpi_keep (W12 V0) main_arg0 (by decide)).trans (W12_arg0 V0)
theorem after_ops_arg1 (V0 : Valuation τ sig (Elt F)) : after ops V0 (Proc.devRef .tc main_arg1) = V0 (Proc.devRef .tc main_arg1) := by
  rw [after_ops_split]
  exact (segEpi_keep (W12 V0) main_arg1 (by decide)).trans (W12_arg1 V0)
theorem after_ops_arg2 (V0 : Valuation τ sig (Elt F)) : after ops V0 (Proc.devRef .tc main_arg2) = V0 (Proc.devRef .tc main_arg2) := by
  rw [after_ops_split]
  exact (segEpi_keep (W12 V0) main_arg2 (by decide)).trans (W12_arg2 V0)
theorem after_ops_arg3 (V0 : Valuation τ sig (Elt F)) : after ops V0 (Proc.devRef .tc main_arg3) = V0 (Proc.devRef .tc main_arg3) := by
  rw [after_ops_split]
  exact (segEpi_keep (W12 V0) main_arg3 (by decide)).trans (W12_arg3 V0)
theorem after_ops_arg4 (V0 : Valuation τ sig (Elt F)) : after ops V0 (Proc.devRef .tc main_arg4) = V0 (Proc.devRef .tc main_arg4) := by
  rw [after_ops_split]
  exact (segEpi_keep (W12 V0) main_arg4 (by decide)).trans (W12_arg4 V0)
theorem after_ops_arg5 (V0 : Valuation τ sig (Elt F)) : after ops V0 (Proc.devRef .tc main_arg5) = V0 (Proc.devRef .tc main_arg5) := by
  rw [after_ops_split]
  exact (segEpi_keep (W12 V0) main_arg5 (by decide)).trans (W12_arg5 V0)
theorem after_ops_arg6 (V0 : Valuation τ sig (Elt F)) : after ops V0 (Proc.devRef .tc main_arg6) = V0 (Proc.devRef .tc main_arg6) := by
  rw [after_ops_split]
  exact (segEpi_keep (W12 V0) main_arg6 (by decide)).trans (W12_arg6 V0)
theorem after_ops_arg7 (V0 : Valuation τ sig (Elt F)) : after ops V0 (Proc.devRef .tc main_arg7) = V0 (Proc.devRef .tc main_arg7) := by
  rw [after_ops_split]
  exact (segEpi_keep (W12 V0) main_arg7 (by decide)).trans (W12_arg7 V0)
theorem after_ops_arg8 (V0 : Valuation τ sig (Elt F)) : after ops V0 (Proc.devRef .tc main_arg8) = V0 (Proc.devRef .tc main_arg8) := by
  rw [after_ops_split]
  exact (segEpi_keep (W12 V0) main_arg8 (by decide)).trans (W12_arg8 V0)
theorem after_ops_arg9 (V0 : Valuation τ sig (Elt F)) : after ops V0 (Proc.devRef .tc main_arg9) = V0 (Proc.devRef .tc main_arg9) := by
  rw [after_ops_split]
  exact (segEpi_keep (W12 V0) main_arg9 (by decide)).trans (W12_arg9 V0)
theorem after_ops_arg10 (V0 : Valuation τ sig (Elt F)) : after ops V0 (Proc.devRef .tc main_arg10) = V0 (Proc.devRef .tc main_arg10) := by
  rw [after_ops_split]
  exact (segEpi_keep (W12 V0) main_arg10 (by decide)).trans (W12_arg10 V0)
theorem after_ops_arg11 (V0 : Valuation τ sig (Elt F)) : after ops V0 (Proc.devRef .tc main_arg11) = V0 (Proc.devRef .tc main_arg11) := by
  rw [after_ops_split]
  exact (segEpi_keep (W12 V0) main_arg11 (by decide)).trans (W12_arg11 V0)
theorem after_ops_arg12 (V0 : Valuation τ sig (Elt F)) : after ops V0 (Proc.devRef .tc main_arg12) = V0 (Proc.devRef .tc main_arg12) := by
  rw [after_ops_split]
  exact (segEpi_keep (W12 V0) main_arg12 (by decide)).trans (W12_arg12 V0)
theorem after_ops_arg13 (V0 : Valuation τ sig (Elt F)) : after ops V0 (Proc.devRef .tc main_arg13) = V0 (Proc.devRef .tc main_arg13) := by
  rw [after_ops_split]
  exact (segEpi_keep (W12 V0) main_arg13 (by decide)).trans (W12_arg13 V0)
theorem after_ops_arg14 (V0 : Valuation τ sig (Elt F)) : after ops V0 (Proc.devRef .tc main_arg14) = V0 (Proc.devRef .tc main_arg14) := by
  rw [after_ops_split]
  exact (segEpi_keep (W12 V0) main_arg14 (by decide)).trans (W12_arg14 V0)
theorem after_ops_arg15 (V0 : Valuation τ sig (Elt F)) : after ops V0 (Proc.devRef .tc main_arg15) = V0 (Proc.devRef .tc main_arg15) := by
  rw [after_ops_split]
  exact (segEpi_keep (W12 V0) main_arg15 (by decide)).trans (W12_arg15 V0)

/-- On every device, for any float values, from any memory with zero counters: every weakly fair execution of @main
    terminates with the result buffer at the batch recurrence's stacked result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1457) = Batch.result (args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v1457).trans (after_ops_result (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c)),
      (h c main_arg13).trans (after_ops_arg13 (launchContents m c)),
      (h c main_arg14).trans (after_ops_arg14 (launchContents m c)),
      (h c main_arg15).trans (after_ops_arg15 (launchContents m c))⟩)
    (run_seq scopedRefs_eq scopedSems_eq defs main (fun _ => ops) main_eq (fun _ => ops_sub) m ρ (hfresh := fun _ => ops_fresh))

end Cert.ReferenceIdeal.Value

end
-- ==== Proof.BatchPre.lean ====
/-
  The batch's pre-activations and read-out, read at one row and one column.

  Row `R`, column `j` of an array times a transposed weight matrix is the sum over `k` of the array's entry `(R, k)`
  times the matrix's entry `(j, k)`; the bias repeated down the batch adds `b j`. Joining the context and the position
  along the columns joins the rows: column `k` of the joined array is the context's for `k < 512` and the position's
  column `k - 512` after.
-/
import proofs.«419133_j59072980189901_3_alg».proof.Proof.Batch
import proofs.«419133_j59072980189901_3_alg».proof.Proof.Recurrence
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Batch

open Idealize.ShloMosaic Idealize.ShloMosaic.ValueIdx Cert.ReferenceIdeal Cert.ReferenceIdeal.Gen Cert.Recurrence

section Axes
variable {m k n : Nat} (w : DotDims.WF ⟨2, ![m, k]⟩ ⟨2, ![k, n]⟩ ⟨2, ![m, n]⟩ [1] [0] [0] [1] [] [])

/-- Reading an index at two positions that are the same number gives the same coordinate. -/
private theorem coord_congr {s : Shape} (j : s.Idx) (p q : Nat) (hp : p < s.rank) (hq : q < s.rank) (h : p = q) :
    (j ⟨p, hp⟩).val = (j ⟨q, hq⟩).val := by subst h; rfl

/-- The left operand's row is the result's row. -/
private theorem lhs_axis0 (j : (⟨2, ![m, n]⟩ : Shape).Idx)
    (κ : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).lhsIdx j κ 0).val = (j 0).val := by
  unfold DotDims.lhsIdx
  rw [dif_neg (List.not_mem_nil), dif_pos (List.mem_singleton.mpr rfl)]
  exact coord_congr j _ 0 _ Nat.two_pos rfl

/-- The left operand's column is the contracted coordinate. -/
private theorem lhs_axis1 (j : (⟨2, ![m, n]⟩ : Shape).Idx)
    (κ : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).lhsIdx j κ 1).val
      = (κ ⟨0, Nat.one_pos⟩).val :=
  DotDims.lhsIdx_val_of_single _ rfl j κ

/-- The right operand's row is the contracted coordinate. -/
private theorem rhs_axis0 (j : (⟨2, ![m, n]⟩ : Shape).Idx)
    (κ : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).rhsIdx j κ 0).val
      = (κ ⟨0, Nat.one_pos⟩).val :=
  DotDims.rhsIdx_val_of_single _ rfl j κ

/-- The right operand's column is the result's column. -/
private theorem rhs_axis1 (j : (⟨2, ![m, n]⟩ : Shape).Idx)
    (κ : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).rhsIdx j κ 1).val = (j 1).val := by
  unfold DotDims.rhsIdx
  rw [dif_neg (List.not_mem_nil), dif_pos (List.mem_singleton.mpr rfl)]
  exact coord_congr j _ 1 _ Nat.one_lt_two rfl

end Axes

/-- A matrix product with one contracted axis, read at row `a`, column `b`: the sum over the contracted coordinate. -/
private theorem dot_ix2_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (⟨[1], [0], [0], [1], [], [], w⟩ : DotDims _ _ _) none A B (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax
    apply Fin.ext
    match ax with
    | ⟨0, _⟩ => exact lhs_axis0 w _ _
    | ⟨1, _⟩ => exact (lhs_axis1 w _ _).trans hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax
    apply Fin.ext
    match ax with
    | ⟨0, _⟩ => exact (rhs_axis0 w _ _).trans hc
    | ⟨1, _⟩ => exact rhs_axis1 w _ _
  rw [hl, hr]

/-- A vector laid out as one row and the row repeated down `m` rows reads, at row `R`, column `j`, the vector's
    entry `j`. -/
private theorem biasRows_ix2_apply {m n : Nat}
    (hb1 : (⟨1, ![n]⟩ : Shape).BroadcastsInDim ⟨2, ![1, n]⟩ ![1])
    (hb2 : (⟨2, ![1, n]⟩ : Shape).BroadcastsInDim ⟨2, ![m, n]⟩ ![0, 1])
    (b : FVec Ideal ⟨1, ![n]⟩ .f32) (R : Fin m) (j : Fin n) :
    broadcastInDim ⟨2, ![m, n]⟩ ![0, 1] hb2 (broadcastInDim ⟨2, ![1, n]⟩ ![1] hb1 b) (ix2 R j) = b (ix1 j) := by
  have hj : ∀ p : Nat, p = j.val → p = if n = 1 then 0 else j.val := fun p hp => by
    split
    · have := j.isLt; omega
    · exact hp
  refine (broadcastInDim_apply ![0, 1] hb2 _ (ix2 R j) (ix2 (0 : Fin 1) j) fun a => ?_).trans
    (broadcastInDim_apply ![1] hb1 b (ix2 (0 : Fin 1) j) (ix1 j) fun a => ?_)
  · match a with
    | ⟨0, _⟩ => show (0 : ℕ) = if (1 : ℕ) = 1 then 0 else R.val; rw [if_pos rfl]
    | ⟨1, _⟩ => exact hj _ rfl
  · match a with
    | ⟨0, _⟩ => exact hj _ rfl

/-- An array times a transposed matrix, plus a bias repeated down the rows, at row `R`, column `j`: the affine map
    of row `R`. -/
private theorem affineRows_apply {m k n : Nat}
    (w : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1])
    (x : FVec Ideal ⟨2, ![m, k]⟩ .f32) (W : FVec Ideal ⟨2, ![n, k]⟩ .f32) (b : FVec Ideal ⟨1, ![n]⟩ .f32)
    (R : Fin m) (j : Fin n) :
    addf (Host.dotGeneral (⟨[1], [0], [0], [1], [], [], w⟩ : DotDims _ _ _) none x (transpose ⟨2, ![k, n]⟩ [1, 0] W ht))
        (broadcastInDim ⟨2, ![m, n]⟩ ![0, 1] hb2 (broadcastInDim ⟨2, ![1, n]⟩ ![1] hb1 b)) (ix2 R j)
      = affine (fun j c => W (ix2 j c)) (fun j => b (ix1 j)) (fun c => x (ix2 R c)) j := by
  rw [addf_apply, dot_ix2_apply, biasRows_ix2_apply]
  unfold affine
  refine congrArg (· + b (ix1 j)) (Finset.sum_congr rfl fun c _ => ?_)
  rw [transpose_ix2_apply]

/-- A pre-activation at row `R`, column `j`: the affine map of row `R` of the array. -/
theorem pre_apply (x : FVec Ideal S8192x256 .f32) (w : FVec Ideal S768x256 .f32) (b : FVec Ideal S768 .f32)
    (R : Fin 8192) (j : Fin 768) :
    pre x w b (ix2 R j) = affine (fun j k => w (ix2 j k)) (fun j => b (ix1 j)) (fun k => x (ix2 R k)) j :=
  affineRows_apply dot_S8192x256_S256x768_S8192x768_1_0_0_1_n_n_wf transposes_S768x256_S256x768_1_0 bcast_S768_S1x768_1
    bcast_S1x768_S8192x768_0_1 x w b R j

/-- The context joined with the position along the columns, read at row `R`, column `c`: the context's column `c`
    below 512, the position's column `c - 512` from there on. -/
private theorem joinCols_apply (ctx : FVec Ideal S8192x512 .f32) (pos : FVec Ideal S8192x2 .f32) (R : Fin 8192) (c : Fin 514) :
    concatenate S8192x514 1 [⟨S8192x512, ctx⟩, ⟨S8192x2, pos⟩] concatenates_S8192x512_S8192x2_S8192x514_d1 (ix2 R c)
      = joined (fun k => ctx (ix2 R k)) (fun q => pos (ix2 R q)) c := by
  unfold joined
  split
  · next h =>
    exact concatenate_pair_apply_left 1 ctx pos concatenates_S8192x512_S8192x2_S8192x514_d1 (ix2 R c) rfl
      (ix2 R ⟨c.val, h⟩) fun b => match b with | ⟨0, _⟩ => rfl | ⟨1, _⟩ => rfl
  · next h =>
    have hc : c.val - 512 + 512 = c.val := by omega
    exact concatenate_pair_apply_right 1 ctx pos concatenates_S8192x512_S8192x2_S8192x514_d1 (ix2 R c) rfl rfl
      (ix2 R ⟨c.val - 512, by omega⟩)
      (fun b hb => match b, hb with
        | ⟨0, _⟩, _ => rfl
        | ⟨1, _⟩, hb => absurd rfl hb)
      hc

/-- The first cell's input-side pre-activation at row `R`, column `j`: the affine map of the joined row. -/
theorem pre0_apply (ctx : FVec Ideal S8192x512 .f32) (pos : FVec Ideal S8192x2 .f32) (w : FVec Ideal S768x514 .f32)
    (b : FVec Ideal S768 .f32) (R : Fin 8192) (j : Fin 768) :
    pre0 ctx pos w b (ix2 R j)
      = affine (fun j k => w (ix2 j k)) (fun j => b (ix1 j)) (joined (fun k => ctx (ix2 R k)) (fun q => pos (ix2 R q))) j :=
  (affineRows_apply dot_S8192x514_S514x768_S8192x768_1_0_0_1_n_n_wf transposes_S768x514_S514x768_1_0 bcast_S768_S1x768_1
    bcast_S1x768_S8192x768_0_1 _ w b R j).trans
    (congrArg (fun v => affine (fun j k => w (ix2 j k)) (fun j => b (ix1 j)) v j)
      (funext fun c => joinCols_apply ctx pos R c))

/-- The read-out at row `R`, column `q`. -/
theorem readOut_apply (h : FVec Ideal S8192x256 .f32) (wo : FVec Ideal S2x256 .f32) (bo : FVec Ideal S2 .f32)
    (R : Fin 8192) (q : Fin 2) :
    readOut h wo bo (ix2 R q) = affine (fun q k => wo (ix2 q k)) (fun q => bo (ix1 q)) (fun k => h (ix2 R k)) q :=
  affineRows_apply dot_S8192x256_S256x2_S8192x2_1_0_0_1_n_n_wf transposes_S2x256_S256x2_1_0 bcast_S2_S1x2_1
    bcast_S1x2_S8192x2_0_1 h wo bo R q

end Cert.ReferenceIdeal.Batch

end
-- ==== Proof.BatchCell.lean ====
/-
  The batch's gated cell, its starting arrays and its stacked result, read at an index.

  `1 / (1 + exp (-x))` is the logistic function on every extended real, the thirds of a pre-activation are the column
  ranges starting at 0, 256 and 512, and every other operation of a cell acts entry by entry, so the cell at `(R, j)`
  is the row recurrence's gate of row `R`. The batch starts from zero hidden arrays and from the eighth of the eight
  observed position arrays. Slab `t` of the stacked result is the position array after `t + 1` steps.
-/
import proofs.«419133_j59072980189901_3_alg».proof.Proof.Batch
import proofs.«419133_j59072980189901_3_alg».proof.Proof.Recurrence
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Batch

open Idealize.ShloMosaic Idealize.ShloMosaic.ValueIdx Cert.ReferenceIdeal Cert.ReferenceIdeal.Gen Cert.Recurrence

/-- The spelt-out logistic function at an index is the logistic function of the entry: the array of ones reads the word
    for one everywhere, that word is the number one, and `1 / (1 + exp (-x))` is the logistic function's definition. -/
private theorem sigma_apply (x : FVec Ideal S8192x256 .f32) (i : S8192x256.Idx) : sigma x i = Ideal.logistic (x i) := by
  show Ideal.div (Ideal.ofBits .f32 0x3F800000#32) (Ideal.ofBits .f32 0x3F800000#32 + Ideal.exp (-(x i))) = Ideal.logistic (x i)
  rw [Ideal.ofBits_one_f32]
  rfl

/-- The reset third of a pre-activation array: columns 0 to 255. -/
private theorem third_lo (g : FVec Ideal S8192x768 .f32) (R : Fin 8192) (j : Fin 256) :
    extractStridedSlice S8192x256 ![0, 0] g slices_S8192x768_S8192x256_0_0 (ix2 R j) = g (ix2 R (lo j)) :=
  extractStridedSlice_apply _ g _ _ (ix2 R (lo j)) fun a => match a with
    | ⟨0, _⟩ => by show R.val = 0 + R.val; omega
    | ⟨1, _⟩ => by show j.val = 0 + j.val; omega

/-- The update third: columns 256 to 511. -/
private theorem third_mid (g : FVec Ideal S8192x768 .f32) (R : Fin 8192) (j : Fin 256) :
    extractStridedSlice S8192x256 ![0, 256] g slices_S8192x768_S8192x256_0_256 (ix2 R j) = g (ix2 R (mid j)) :=
  extractStridedSlice_apply _ g _ _ (ix2 R (mid j)) fun a => match a with
    | ⟨0, _⟩ => by show R.val = 0 + R.val; omega
    | ⟨1, _⟩ => rfl

/-- The candidate third: columns 512 to 767. -/
private theorem third_hi (g : FVec Ideal S8192x768 .f32) (R : Fin 8192) (j : Fin 256) :
    extractStridedSlice S8192x256 ![0, 512] g slices_S8192x768_S8192x256_0_512 (ix2 R j) = g (ix2 R (hi j)) :=
  extractStridedSlice_apply _ g _ _ (ix2 R (hi j)) fun a => match a with
    | ⟨0, _⟩ => by show R.val = 0 + R.val; omega
    | ⟨1, _⟩ => rfl

/-- A cell at row `R`, column `j`: the row recurrence's gate (the spelt-out logistic function is the logistic function). -/
theorem cell_apply (gi gh : FVec Ideal S8192x768 .f32) (h : FVec Ideal S8192x256 .f32) (R : Fin 8192) (j : Fin 256) :
    cell (update gi gh) gi gh h (ix2 R j)
      = gate (fun j' => gi (ix2 R j')) (fun j' => gh (ix2 R j')) (fun k => h (ix2 R k)) j := by
  show (Recurrence.one
          - sigma (addf (extractStridedSlice S8192x256 ![0, 256] gi slices_S8192x768_S8192x256_0_256)
              (extractStridedSlice S8192x256 ![0, 256] gh slices_S8192x768_S8192x256_0_256)) (ix2 R j))
        * Ideal.tanh (extractStridedSlice S8192x256 ![0, 512] gi slices_S8192x768_S8192x256_0_512 (ix2 R j)
            + sigma (addf (extractStridedSlice S8192x256 ![0, 0] gi slices_S8192x768_S8192x256_0_0)
                (extractStridedSlice S8192x256 ![0, 0] gh slices_S8192x768_S8192x256_0_0)) (ix2 R j)
              * extractStridedSlice S8192x256 ![0, 512] gh slices_S8192x768_S8192x256_0_512 (ix2 R j))
      + sigma (addf (extractStridedSlice S8192x256 ![0, 256] gi slices_S8192x768_S8192x256_0_256)
              (extractStridedSlice S8192x256 ![0, 256] gh slices_S8192x768_S8192x256_0_256)) (ix2 R j) * h (ix2 R j) = _
  rw [sigma_apply, sigma_apply, addf_apply, addf_apply, third_lo, third_lo, third_mid, third_mid, third_hi, third_hi]
  rfl

/-- The starting hidden arrays hold zero. -/
theorem zeros_apply (i : S8192x256.Idx) : (zeros : FVec Ideal S8192x256 .f32) i = Recurrence.zero := rfl

/-- The starting position array holds, at row `R`, the eighth observed position of row `R`. -/
theorem startPos_apply (obs : FVec Ideal S8x8192x2 .f32) (R : Fin 8192) (q : Fin 2) :
    shapeCast S8192x2 (extractStridedSlice S1x8192x2 ![7, 0, 0] obs slices_S8x8192x2_S1x8192x2_7_0_0) shapeCasts_S1x8192x2_S8192x2 (ix2 R q)
      = obs (ix3 (7 : Fin 8) R q) := by
  refine (shapeCast_apply _ _ (ix2 R q) (ix3 (0 : Fin 1) R q) ?_).trans ?_
  · rw [Shape.rowMajor_val_three, Shape.rowMajor_val_two]
    show (0 * 8192 + R.val) * 2 + q.val = R.val * 2 + q.val
    omega
  · exact extractStridedSlice_apply _ obs _ _ (ix3 (7 : Fin 8) R q) fun a => match a with
      | ⟨0, _⟩ => rfl
      | ⟨1, _⟩ => by show R.val = 0 + R.val; omega
      | ⟨2, _⟩ => by show q.val = 0 + q.val; omega

/-- A slab at its one leading coordinate is the position array. -/
private theorem slab_apply (p : FVec Ideal S8192x2 .f32) (R : Fin 8192) (q : Fin 2) :
    slab p (ix3 (0 : Fin 1) R q) = p (ix2 R q) :=
  broadcastInDim_apply _ _ p _ (ix2 R q) fun a => match a with
    | ⟨0, _⟩ => rfl
    | ⟨1, _⟩ => rfl

/-- The stacked result's pieces, by step: piece `n` is the slab of the position array after `n + 1` steps, so the
    twelve listed slabs are these pieces in order. -/
private def piece (A : Args Ideal) (n : Fin 12) : S1x8192x2.Idx → Ideal .f32 := slab (after A (n.val + 1)).pos

/-- Slab `t` of the stacked result, at row `R` and coordinate `q`, is the position after `t + 1` steps. -/
theorem result_apply (A : Args Ideal) (t : Fin 12) (R : Fin 8192) (q : Fin 2) :
    result A (ix3 t R q) = (after A (t.val + 1)).pos (ix2 R q) := by
  -- a stack of slabs of extent one along the leading axis reads, at leading coordinate `t`, slab `t` at leading coordinate 0
  have h := concatenate_ofFn_unit_apply (t := S12x8192x2) (s₁ := S1x8192x2) 0 (piece A)
    concatenates_S1x8192x2_S1x8192x2_S1x8192x2_S1x8192x2_S1x8192x2_S1x8192x2_S1x8192x2_S1x8192x2_S1x8192x2_S1x8192x2_S1x8192x2_S1x8192x2_S12x8192x2_d0
    rfl rfl (ix3 t R q) t rfl (ix3 (0 : Fin 1) R q) (fun b => match b with
      | ⟨0, _⟩ => fun hb => absurd rfl hb
      | ⟨1, _⟩ => fun _ => rfl
      | ⟨2, _⟩ => fun _ => rfl)
  exact h.trans (slab_apply _ R q)

end Cert.ReferenceIdeal.Batch

end
-- ==== Proof.BatchRow.lean ====
/-
  The batch's step, read one row at a time, is the row's step; and the stacked result is the expected array.

  Row `R` of a product of an array with a transposed weight matrix depends on row `R` of the array only; a bias
  repeated down the batch adds `b j` in column `j`; joining context and position along the columns joins the rows;
  the thirds of a pre-activation are column ranges; `1 / (1 + exp (-x))` is the logistic function on every extended
  real; every other operation of a cell acts entry by entry. So row `R` of the batch after a step is the row
  recurrence's step of row `R` before it, with the weights read off the arguments; and slab `t` of the stacked result
  holds the positions after `t + 1` steps.
-/
import proofs.«419133_j59072980189901_3_alg».proof.Proof.BatchPre
import proofs.«419133_j59072980189901_3_alg».proof.Proof.BatchCell
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Batch

open Idealize.ShloMosaic Idealize.ShloMosaic.ValueIdx Cert.ReferenceIdeal Cert.ReferenceIdeal.Gen Cert.Recurrence

/-- The argument arrays, bundled as the row recurrence takes them. -/
def arrays (A : Args Ideal) : Arrays :=
  ⟨A.ctx, A.obs, A.wi0, A.wh0, A.bi0, A.bh0, A.wi1, A.wh1, A.bi1, A.bh1, A.wi2, A.wh2, A.bi2, A.bh2, A.wo, A.bo⟩

/-- Row `R` of what the batch carries. -/
def row (s : St Ideal) (R : Fin 8192) : Row :=
  ⟨fun k => s.h0 (ix2 R k), fun k => s.h1 (ix2 R k), fun k => s.h2 (ix2 R k), fun q => s.pos (ix2 R q)⟩

/-- Row `R` of the batch before the first step: zero hidden vectors and the eighth observed position. -/
theorem start_row (A : Args Ideal) (R : Fin 8192) : row (start A) R = Recurrence.start ((arrays A).posRow R) := by
  unfold row start Recurrence.start Arrays.posRow arrays
  dsimp only
  congr 1
  funext q
  exact startPos_apply A.obs R q

/-- Row `R` of the first cell's new hidden array. -/
theorem next0_row (A : Args Ideal) (s : St Ideal) (R : Fin 8192) :
    (fun k => next0 A s (ix2 R k)) = Recurrence.next0 (arrays A).weights ((arrays A).ctxRow R) (row s R) := by
  funext k
  refine (cell_apply _ _ _ R k).trans ?_
  unfold Recurrence.next0
  congr 1
  · funext j'; exact pre0_apply A.ctx s.pos A.wi0 A.bi0 R j'
  · funext j'; exact pre_apply s.h0 A.wh0 A.bh0 R j'

/-- Row `R` of the second cell's. -/
theorem next1_row (A : Args Ideal) (s : St Ideal) (R : Fin 8192) :
    (fun k => next1 A s (ix2 R k)) = Recurrence.next1 (arrays A).weights ((arrays A).ctxRow R) (row s R) := by
  funext k
  refine (cell_apply _ _ _ R k).trans ?_
  unfold Recurrence.next1
  rw [← next0_row A s R]
  congr 1
  · funext j'; exact pre_apply _ A.wi1 A.bi1 R j'
  · funext j'; exact pre_apply s.h1 A.wh1 A.bh1 R j'

/-- Row `R` of the third cell's. -/
theorem next2_row (A : Args Ideal) (s : St Ideal) (R : Fin 8192) :
    (fun k => next2 A s (ix2 R k)) = Recurrence.next2 (arrays A).weights ((arrays A).ctxRow R) (row s R) := by
  funext k
  refine (cell_apply _ _ _ R k).trans ?_
  unfold Recurrence.next2
  rw [← next1_row A s R]
  congr 1
  · funext j'; exact pre_apply _ A.wi2 A.bi2 R j'
  · funext j'; exact pre_apply s.h2 A.wh2 A.bh2 R j'

/-- Row `R` of the batch after a step is the row's step. -/
theorem step_row (A : Args Ideal) (s : St Ideal) (R : Fin 8192) :
    row (step A s) R = Recurrence.step (arrays A).weights ((arrays A).ctxRow R) (row s R) := by
  unfold row step Recurrence.step
  dsimp only
  rw [next0_row, next1_row, next2_row]
  congr 1
  funext q
  refine (readOut_apply _ A.wo A.bo R q).trans ?_
  rw [next2_row]
  rfl

/-- Row `R` of the batch after `n` steps is the row after `n` steps. -/
theorem after_row (A : Args Ideal) (R : Fin 8192) : ∀ n : Nat,
    row (after A n) R = Recurrence.after (arrays A).weights ((arrays A).ctxRow R) ((arrays A).posRow R) n
  | 0 => start_row A R
  | n + 1 => by
    show row (step A (after A n)) R = Recurrence.step _ _ (Recurrence.after _ _ _ n)
    rw [step_row, after_row A R n]

/-- The stacked result is the expected array of the arguments. -/
theorem result_eq (A : Args Ideal) : result A = (arrays A).value := by
  funext i
  obtain ⟨t, R, q, rfl⟩ : ∃ (t : Fin 12) (R : Fin 8192) (q : Fin 2), i = ix3 t R q := ⟨i 0, i 1, i 2, eq_ix3 i⟩
  rw [result_apply, Arrays.value_ix3]
  have h := congrArg Row.pos (after_row A R (t.val + 1))
  exact congrFun h q

end Cert.ReferenceIdeal.Batch

end
-- ==== Proof.RefValue.lean ====
/-
  The reference program's result, at the ideal instance.

  The program's run (Proof/RefRun0.lean for its operations, Proof/RefSteps.lean to Proof/RefChain.lean for what they
  compute) ends with the result buffer at the batch recurrence's stacked result of the arguments; read one row at a
  time that is the expected array of the arguments.
-/
import proofs.«419133_j59072980189901_3_alg».proof.Proof.RefChain
import proofs.«419133_j59072980189901_3_alg».proof.Proof.BatchRow

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.Recurrence

/-- The argument arrays of a launch memory, bundled as the row recurrence takes them. -/
def arrays (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15)⟩

/-- The run, read at the ideal instance: every weakly fair execution ends with the result buffer at the expected
    array of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1457) = (arrays m c).value
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (Batch.result_eq (Cert.ReferenceIdeal.Value.args (launchContents m c))), (h c).2⟩)
    (Cert.ReferenceIdeal.Value.run (F := Ideal) m ρ)

end Cert.ReferenceIdeal.RefValue

end
-- ==== Proof.lean ====
/-
  The two programs compute the same twelve position arrays.

  One batch row at a time, on the extended reals, both run the same recurrence (Proof/Recurrence.lean): three stacked
  gated recurrent cells fed by the row's context joined with its current position, and an affine read-out that gives
  the step's result and the next step's position; twelve steps from zero hidden vectors and the last observed position.

  The kernel runs it tile by tile on 2048 rows (Proof/Tile.lean, Proof/TilePieces.lean): it forms the context's share
  of the first cell's input once per tile and adds the position's two terms at each step, which is the reference's sum
  over the 514 joined inputs split after 512 (sums over the extended reals regroup freely); it narrows hidden blocks
  and weights to a shorter format, which changes no ideal value; its read-out is two lane sums. Read one row at a time
  a tile's step is the row's step (Proof/TileRow.lean), and the tile's blocks are the arguments' (Proof/Blocks.lean),
  so the kernel call's array, regrouped by the program's last two operations, is the expected array of the arguments
  (Proof/KernelValue.lean).

  The reference runs it on all 8192 rows at once (Proof/Batch.lean), with the logistic function spelt out as
  `1 / (1 + exp (-x))`, which is its definition on the extended reals; read one row at a time its step is the row's
  step too (Proof/BatchRow.lean), and its stacked result is the same expected array (Proof/RefValue.lean).

  So from memories that agree on the sixteen arguments both programs end with equal results. Neither frame needs the
  inputs to be finite, and the idealization rewrote nothing.
-/
import proofs.«419133_j59072980189901_3_alg».proof.Defs
import proofs.«419133_j59072980189901_3_alg».proof.Proof.Gen.Kernel
import proofs.«419133_j59072980189901_3_alg».proof.Proof.Gen.Kernel.Frame
import proofs.«419133_j59072980189901_3_alg».proof.Proof.Gen.KernelIdeal
import proofs.«419133_j59072980189901_3_alg».proof.Proof.Gen.KernelIdeal.Frame
import proofs.«419133_j59072980189901_3_alg».proof.Proof.Gen.ReferenceIdeal
import proofs.«419133_j59072980189901_3_alg».proof.Proof.Gen.Pre_finite_inputs
import proofs.«419133_j59072980189901_3_alg».proof.Proof.KernelValue
import proofs.«419133_j59072980189901_3_alg».proof.Proof.RefValue
import Idealize.ShloMosaic.Adequacy
import Idealize.ShloMosaic.Init

noncomputable section

namespace Cert.Proof

open Idealize.ShloMosaic Idealize.SL.Sem

/-- The kernel at the word level runs to the end, faults nowhere and leaves its arguments as launched. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the sixteen arguments, both programs end with the expected array of those arguments. -/
theorem algebraic : Cert.algebraic_KernelIdeal_ReferenceIdeal := by
  intro m ρ m' ρ' _ hagree
  refine ⟨fun c => (Cert.KernelIdeal.Value.arrays m c).value, Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13, h14, h15⟩ := hagree c
  show (Cert.ReferenceIdeal.RefValue.arrays m' c).value = (Cert.KernelIdeal.Value.arrays m c).value
  unfold Cert.ReferenceIdeal.RefValue.arrays Cert.KernelIdeal.Value.arrays
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
